-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v470)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v470) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v703) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x768 : Shape := ⟨2, ![50000, 768]⟩
abbrev S2000x768 : Shape := ⟨2, ![2000, 768]⟩
abbrev S20000x1024 : Shape := ⟨2, ![20000, 1024]⟩
abbrev S768x150 : Shape := ⟨2, ![768, 150]⟩
abbrev S150 : Shape := ⟨1, ![150]⟩
abbrev S1024x150 : Shape := ⟨2, ![1024, 150]⟩
abbrev S3x6x150x150 : Shape := ⟨4, ![3, 6, 150, 150]⟩
abbrev S3x6x150 : Shape := ⟨3, ![3, 6, 150]⟩
abbrev S768x300 : Shape := ⟨2, ![768, 300]⟩
abbrev S300 : Shape := ⟨1, ![300]⟩
abbrev S300x200 : Shape := ⟨2, ![300, 200]⟩
abbrev S200 : Shape := ⟨1, ![200]⟩
abbrev S200x150 : Shape := ⟨2, ![200, 150]⟩
abbrev S300x150 : Shape := ⟨2, ![300, 150]⟩
abbrev S150x50 : Shape := ⟨2, ![150, 50]⟩
abbrev S50 : Shape := ⟨1, ![50]⟩
abbrev S50x3 : Shape := ⟨2, ![50, 3]⟩
abbrev S3 : Shape := ⟨1, ![3]⟩
abbrev S2x500000 : Shape := ⟨2, ![2, 500000]⟩
abbrev S2x200000 : Shape := ⟨2, ![2, 200000]⟩
abbrev S_ : Shape := ⟨0, ![]⟩

class Facts : Prop where
  bcast_S_S50000x768 : S_.BroadcastsInDim S50000x768 (![] : Fin 0 → Fin S50000x768.rank)
  reducesTo_S50000x768_S_d0_1 : S50000x768.ReducesTo [0, 1] S_
  h_S_ : 0 < S_.numel
  bcast_S_S2000x768 : S_.BroadcastsInDim S2000x768 (![] : Fin 0 → Fin S2000x768.rank)
  reducesTo_S2000x768_S_d0_1 : S2000x768.ReducesTo [0, 1] S_
  bcast_S_S20000x1024 : S_.BroadcastsInDim S20000x1024 (![] : Fin 0 → Fin S20000x1024.rank)
  reducesTo_S20000x1024_S_d0_1 : S20000x1024.ReducesTo [0, 1] S_
  bcast_S_S768x150 : S_.BroadcastsInDim S768x150 (![] : Fin 0 → Fin S768x150.rank)
  reducesTo_S768x150_S_d0_1 : S768x150.ReducesTo [0, 1] S_
  bcast_S_S150 : S_.BroadcastsInDim S150 (![] : Fin 0 → Fin S150.rank)
  reducesTo_S150_S_d0 : S150.ReducesTo [0] S_
  bcast_S_S1024x150 : S_.BroadcastsInDim S1024x150 (![] : Fin 0 → Fin S1024x150.rank)
  reducesTo_S1024x150_S_d0_1 : S1024x150.ReducesTo [0, 1] S_
  bcast_S_S3x6x150x150 : S_.BroadcastsInDim S3x6x150x150 (![] : Fin 0 → Fin S3x6x150x150.rank)
  reducesTo_S3x6x150x150_S_d0_1_2_3 : S3x6x150x150.ReducesTo [0, 1, 2, 3] S_
  bcast_S_S3x6x150 : S_.BroadcastsInDim S3x6x150 (![] : Fin 0 → Fin S3x6x150.rank)
  reducesTo_S3x6x150_S_d0_1_2 : S3x6x150.ReducesTo [0, 1, 2] S_
  bcast_S_S768x300 : S_.BroadcastsInDim S768x300 (![] : Fin 0 → Fin S768x300.rank)
  reducesTo_S768x300_S_d0_1 : S768x300.ReducesTo [0, 1] S_
  bcast_S_S300 : S_.BroadcastsInDim S300 (![] : Fin 0 → Fin S300.rank)
  reducesTo_S300_S_d0 : S300.ReducesTo [0] S_
  bcast_S_S300x200 : S_.BroadcastsInDim S300x200 (![] : Fin 0 → Fin S300x200.rank)
  reducesTo_S300x200_S_d0_1 : S300x200.ReducesTo [0, 1] S_
  bcast_S_S200 : S_.BroadcastsInDim S200 (![] : Fin 0 → Fin S200.rank)
  reducesTo_S200_S_d0 : S200.ReducesTo [0] S_
  bcast_S_S200x150 : S_.BroadcastsInDim S200x150 (![] : Fin 0 → Fin S200x150.rank)
  reducesTo_S200x150_S_d0_1 : S200x150.ReducesTo [0, 1] S_
  bcast_S_S300x150 : S_.BroadcastsInDim S300x150 (![] : Fin 0 → Fin S300x150.rank)
  reducesTo_S300x150_S_d0_1 : S300x150.ReducesTo [0, 1] S_
  bcast_S_S150x50 : S_.BroadcastsInDim S150x50 (![] : Fin 0 → Fin S150x50.rank)
  reducesTo_S150x50_S_d0_1 : S150x50.ReducesTo [0, 1] S_
  bcast_S_S50 : S_.BroadcastsInDim S50 (![] : Fin 0 → Fin S50.rank)
  reducesTo_S50_S_d0 : S50.ReducesTo [0] S_
  bcast_S_S50x3 : S_.BroadcastsInDim S50x3 (![] : Fin 0 → Fin S50x3.rank)
  reducesTo_S50x3_S_d0_1 : S50x3.ReducesTo [0, 1] S_
  bcast_S_S3 : S_.BroadcastsInDim S3 (![] : Fin 0 → Fin S3.rank)
  reducesTo_S3_S_d0 : S3.ReducesTo [0] S_

variable [Facts]

def fn_part6 {F : FTy → Type} [FloatOps F] (main_arg21 : FVec F S50 .f32) (main_arg22 : FVec F S50x3 .f32) (main_arg23 : FVec F S3 .f32) (main_v98 : IVec S_ 1) (main_v101 : IVec S150x50 1) (main_c_39 : IVec S_ 1) : IVec S_ 1 :=
  let main_v102 : IVec S_ 1 := (fun x v => Host.reduce IntOp.andi x v reducesTo_S150x50_S_d0_1 h_S_) main_v101 main_c_39
  let main_v103 : IVec S_ 1 := andi main_v98 main_v102
  let main_v104 : FVec F S50 .f32 := Host.absf main_arg21
  let main_cst_40 : FVec F S_ .f32 := constant S_ .f32 0x7F800000#32
  let main_v105 : FVec F S50 .f32 := broadcastInDim S50 ![] bcast_S_S50 main_cst_40
  let main_v106 : IVec S50 1 := cmpf .olt main_v104 main_v105
  let main_c_41 : IVec S_ 1 := constantI S_ 1 1#1
  let main_v107 : IVec S_ 1 := (fun x v => Host.reduce IntOp.andi x v reducesTo_S50_S_d0 h_S_) main_v106 main_c_41
  let main_v108 : IVec S_ 1 := andi main_v103 main_v107
  let main_v109 : FVec F S50x3 .f32 := Host.absf main_arg22
  let main_cst_42 : FVec F S_ .f32 := constant S_ .f32 0x7F800000#32
  let main_v110 : FVec F S50x3 .f32 := broadcastInDim S50x3 ![] bcast_S_S50x3 main_cst_42
  let main_v111 : IVec S50x3 1 := cmpf .olt main_v109 main_v110
  let main_c_43 : IVec S_ 1 := constantI S_ 1 1#1
  let main_v112 : IVec S_ 1 := (fun x v => Host.reduce IntOp.andi x v reducesTo_S50x3_S_d0_1 h_S_) main_v111 main_c_43
  let main_v113 : IVec S_ 1 := andi main_v108 main_v112
  let main_v114 : FVec F S3 .f32 := Host.absf main_arg23
  let main_cst_44 : FVec F S_ .f32 := constant S_ .f32 0x7F800000#32
  let main_v115 : FVec F S3 .f32 := broadcastInDim S3 ![] bcast_S_S3 main_cst_44
  let main_v116 : IVec S3 1 := cmpf .olt main_v114 main_v115
  let main_c_45 : IVec S_ 1 := constantI S_ 1 1#1
  let main_v117 : IVec S_ 1 := (fun x v => Host.reduce IntOp.andi x v reducesTo_S3_S_d0 h_S_) main_v116 main_c_45
  let main_v118 : IVec S_ 1 := andi main_v113 main_v117
  main_v118

def fn_part5 {F : FTy → Type} [FloatOps F] (main_arg18 : FVec F S300x150 .f32) (main_arg19 : FVec F S150 .f32) (main_arg20 : FVec F S150x50 .f32) (main_arg21 : FVec F S50 .f32) (main_arg22 : FVec F S50x3 .f32) (main_arg23 : FVec F S3 .f32) (main_v83 : IVec S_ 1) (main_v84 : FVec F S150 .f32) (main_cst_32 : FVec F S_ .f32) : IVec S_ 1 :=
  let main_v85 : FVec F S150 .f32 := broadcastInDim S150 ![] bcast_S_S150 main_cst_32
  let main_v86 : IVec S150 1 := cmpf .olt main_v84 main_v85
  let main_c_33 : IVec S_ 1 := constantI S_ 1 1#1
  let main_v87 : IVec S_ 1 := (fun x v => Host.reduce IntOp.andi x v reducesTo_S150_S_d0 h_S_) main_v86 main_c_33
  let main_v88 : IVec S_ 1 := andi main_v83 main_v87
  let main_v89 : FVec F S300x150 .f32 := Host.absf main_arg18
  let main_cst_34 : FVec F S_ .f32 := constant S_ .f32 0x7F800000#32
  let main_v90 : FVec F S300x150 .f32 := broadcastInDim S300x150 ![] bcast_S_S300x150 main_cst_34
  let main_v91 : IVec S300x150 1 := cmpf .olt main_v89 main_v90
  let main_c_35 : IVec S_ 1 := constantI S_ 1 1#1
  let main_v92 : IVec S_ 1 := (fun x v => Host.reduce IntOp.andi x v reducesTo_S300x150_S_d0_1 h_S_) main_v91 main_c_35
  let main_v93 : IVec S_ 1 := andi main_v88 main_v92
  let main_v94 : FVec F S150 .f32 := Host.absf main_arg19
  let main_cst_36 : FVec F S_ .f32 := constant S_ .f32 0x7F800000#32
  let main_v95 : FVec F S150 .f32 := broadcastInDim S150 ![] bcast_S_S150 main_cst_36
  let main_v96 : IVec S150 1 := cmpf .olt main_v94 main_v95
  let main_c_37 : IVec S_ 1 := constantI S_ 1 1#1
  let main_v97 : IVec S_ 1 := (fun x v => Host.reduce IntOp.andi x v reducesTo_S150_S_d0 h_S_) main_v96 main_c_37
  let main_v98 : IVec S_ 1 := andi main_v93 main_v97
  let main_v99 : FVec F S150x50 .f32 := Host.absf main_arg20
  let main_cst_38 : FVec F S_ .f32 := constant S_ .f32 0x7F800000#32
  let main_v100 : FVec F S150x50 .f32 := broadcastInDim S150x50 ![] bcast_S_S150x50 main_cst_38
  let main_v101 : IVec S150x50 1 := cmpf .olt main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S300x200 .f32) (main_arg15 : FVec F S200 .f32) (main_arg16 : FVec F S200x150 .f32) (main_arg17 : FVec F S150 .f32) (main_arg18 : FVec F S300x150 .f32) (main_arg19 : FVec F S150 .f32) (main_arg20 : FVec F S150x50 .f32) (main_arg21 : FVec F S50 .f32) (main_arg22 : FVec F S50x3 .f32) (main_arg23 : FVec F S3 .f32) (main_v63 : IVec S_ 1) (main_v67 : IVec S_ 1) : IVec S_ 1 :=
  let main_v68 : IVec S_ 1 := andi main_v63 main_v67
  let main_v69 : FVec F S300x200 .f32 := Host.absf main_arg14
  let main_cst_26 : FVec F S_ .f32 := constant S_ .f32 0x7F800000#32
  let main_v70 : FVec F S300x200 .f32 := broadcastInDim S300x200 ![] bcast_S_S300x200 main_cst_26
  let main_v71 : IVec S300x200 1 := cmpf .olt main_v69 main_v70
  let main_c_27 : IVec S_ 1 := constantI S_ 1 1#1
  let main_v72 : IVec S_ 1 := (fun x v => Host.reduce IntOp.andi x v reducesTo_S300x200_S_d0_1 h_S_) main_v71 main_c_27
  let main_v73 : IVec S_ 1 := andi main_v68 main_v72
  let main_v74 : FVec F S200 .f32 := Host.absf main_arg15
  let main_cst_28 : FVec F S_ .f32 := constant S_ .f32 0x7F800000#32
  let main_v75 : FVec F S200 .f32 := broadcastInDim S200 ![] bcast_S_S200 main_cst_28
  let main_v76 : IVec S200 1 := cmpf .olt main_v74 main_v75
  let main_c_29 : IVec S_ 1 := constantI S_ 1 1#1
  let main_v77 : IVec S_ 1 := (fun x v => Host.reduce IntOp.andi x v reducesTo_S200_S_d0 h_S_) main_v76 main_c_29
  let main_v78 : IVec S_ 1 := andi main_v73 main_v77
  let main_v79 : FVec F S200x150 .f32 := Host.absf main_arg16
  let main_cst_30 : FVec F S_ .f32 := constant S_ .f32 0x7F800000#32
  let main_v80 : FVec F S200x150 .f32 := broadcastInDim S200x150 ![] bcast_S_S200x150 main_cst_30
  let main_v81 : IVec S200x150 1 := cmpf .olt main_v79 main_v80
  let main_c_31 : IVec S_ 1 := constantI S_ 1 1#1
  let main_v82 : IVec S_ 1 := (fun x v => Host.reduce IntOp.andi x v reducesTo_S200x150_S_d0_1 h_S_) main_v81 main_c_31
  let main_v83 : IVec S_ 1 := andi main_v78 main_v82
  let main_v84 : FVec F S150 .f32 := Host.absf main_arg17
  let main_cst_32 : FVec F S_ .f32 := constant S_ .f32 0x7F800000#32
  fn_part5 (F := F) main_arg18 main_arg19 main_arg20 main_arg21 main_arg22 main_arg23 main_v83 main_v84 main_cst_32

def fn_part3 {F : FTy → Type} [FloatOps F] (main_arg11 : FVec F S3x6x150x150 .f32) (main_arg12 : FVec F S768x300 .f32) (main_arg13 : FVec F S300 .f32) (main_arg14 : FVec F S300x200 .f32) (main_arg15 : FVec F S200 .f32) (main_arg16 : FVec F S200x150 .f32) (main_arg17 : FVec F S150 .f32) (main_arg18 : FVec F S300x150 .f32) (main_arg19 : FVec F S150 .f32) (main_arg20 : FVec F S150x50 .f32) (main_arg21 : FVec F S50 .f32) (main_arg22 : FVec F S50x3 .f32) (main_arg23 : FVec F S3 .f32) (main_v48 : IVec S_ 1) (main_v49 : FVec F S3x6x150 .f32) (main_v50 : FVec F S3x6x150 .f32) : IVec S_ 1 :=
  let main_v51 : IVec S3x6x150 1 := cmpf .olt main_v49 main_v50
  let main_c_19 : IVec S_ 1 := constantI S_ 1 1#1
  let main_v52 : IVec S_ 1 := (fun x v => Host.reduce IntOp.andi x v reducesTo_S3x6x150_S_d0_1_2 h_S_) main_v51 main_c_19
  let main_v53 : IVec S_ 1 := andi main_v48 main_v52
  let main_v54 : FVec F S3x6x150x150 .f32 := Host.absf main_arg11
  let main_cst_20 : FVec F S_ .f32 := constant S_ .f32 0x7F800000#32
  let main_v55 : FVec F S3x6x150x150 .f32 := broadcastInDim S3x6x150x150 ![] bcast_S_S3x6x150x150 main_cst_20
  let main_v56 : IVec S3x6x150x150 1 := cmpf .olt main_v54 main_v55
  let main_c_21 : IVec S_ 1 := constantI S_ 1 1#1
  let main_v57 : IVec S_ 1 := (fun x v => Host.reduce IntOp.andi x v reducesTo_S3x6x150x150_S_d0_1_2_3 h_S_) main_v56 main_c_21
  let main_v58 : IVec S_ 1 := andi main_v53 main_v57
  let main_v59 : FVec F S768x300 .f32 := Host.absf main_arg12
  let main_cst_22 : FVec F S_ .f32 := constant S_ .f32 0x7F800000#32
  let main_v60 : FVec F S768x300 .f32 := broadcastInDim S768x300 ![] bcast_S_S768x300 main_cst_22
  let main_v61 : IVec S768x300 1 := cmpf .olt main_v59 main_v60
  let main_c_23 : IVec S_ 1 := constantI S_ 1 1#1
  let main_v62 : IVec S_ 1 := (fun x v => Host.reduce IntOp.andi x v reducesTo_S768x300_S_d0_1 h_S_) main_v61 main_c_23
  let main_v63 : IVec S_ 1 := andi main_v58 main_v62
  let main_v64 : FVec F S300 .f32 := Host.absf main_arg13
  let main_cst_24 : FVec F S_ .f32 := constant S_ .f32 0x7F800000#32
  let main_v65 : FVec F S300 .f32 := broadcastInDim S300 ![] bcast_S_S300 main_cst_24
  let main_v66 : IVec S300 1 := cmpf .olt main_v64 main_v65
  let main_c_25 : IVec S_ 1 := constantI S_ 1 1#1
  let main_v67 : IVec S_ 1 := (fun x v => Host.reduce IntOp.andi x v reducesTo_S300_S_d0 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S1024x150 .f32) (main_arg8 : FVec F S150 .f32) (main_arg9 : FVec F S3x6x150x150 .f32) (main_arg10 : FVec F S3x6x150 .f32) (main_arg11 : FVec F S3x6x150x150 .f32) (main_arg12 : FVec F S768x300 .f32) (main_arg13 : FVec F S300 .f32) (main_arg14 : FVec F S300x200 .f32) (main_arg15 : FVec F S200 .f32) (main_arg16 : FVec F S200x150 .f32) (main_arg17 : FVec F S150 .f32) (main_arg18 : FVec F S300x150 .f32) (main_arg19 : FVec F S150 .f32) (main_arg20 : FVec F S150x50 .f32) (main_arg21 : FVec F S50 .f32) (main_arg22 : FVec F S50x3 .f32) (main_arg23 : FVec F S3 .f32) (main_v33 : IVec S_ 1) : IVec S_ 1 :=
  let main_v34 : FVec F S1024x150 .f32 := Host.absf main_arg7
  let main_cst_12 : FVec F S_ .f32 := constant S_ .f32 0x7F800000#32
  let main_v35 : FVec F S1024x150 .f32 := broadcastInDim S1024x150 ![] bcast_S_S1024x150 main_cst_12
  let main_v36 : IVec S1024x150 1 := cmpf .olt main_v34 main_v35
  let main_c_13 : IVec S_ 1 := constantI S_ 1 1#1
  let main_v37 : IVec S_ 1 := (fun x v => Host.reduce IntOp.andi x v reducesTo_S1024x150_S_d0_1 h_S_) main_v36 main_c_13
  let main_v38 : IVec S_ 1 := andi main_v33 main_v37
  let main_v39 : FVec F S150 .f32 := Host.absf main_arg8
  let main_cst_14 : FVec F S_ .f32 := constant S_ .f32 0x7F800000#32
  let main_v40 : FVec F S150 .f32 := broadcastInDim S150 ![] bcast_S_S150 main_cst_14
  let main_v41 : IVec S150 1 := cmpf .olt main_v39 main_v40
  let main_c_15 : IVec S_ 1 := constantI S_ 1 1#1
  let main_v42 : IVec S_ 1 := (fun x v => Host.reduce IntOp.andi x v reducesTo_S150_S_d0 h_S_) main_v41 main_c_15
  let main_v43 : IVec S_ 1 := andi main_v38 main_v42
  let main_v44 : FVec F S3x6x150x150 .f32 := Host.absf main_arg9
  let main_cst_16 : FVec F S_ .f32 := constant S_ .f32 0x7F800000#32
  let main_v45 : FVec F S3x6x150x150 .f32 := broadcastInDim S3x6x150x150 ![] bcast_S_S3x6x150x150 main_cst_16
  let main_v46 : IVec S3x6x150x150 1 := cmpf .olt main_v44 main_v45
  let main_c_17 : IVec S_ 1 := constantI S_ 1 1#1
  let main_v47 : IVec S_ 1 := (fun x v => Host.reduce IntOp.andi x v reducesTo_S3x6x150x150_S_d0_1_2_3 h_S_) main_v46 main_c_17
  let main_v48 : IVec S_ 1 := andi main_v43 main_v47
  let main_v49 : FVec F S3x6x150 .f32 := Host.absf main_arg10
  let main_cst_18 : FVec F S_ .f32 := constant S_ .f32 0x7F800000#32
  let main_v50 : FVec F S3x6x150 .f32 := broadcastInDim S3x6x150 ![] bcast_S_S3x6x150 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S150 .f32) (main_arg5 : FVec F S768x150 .f32) (main_arg6 : FVec F S150 .f32) (main_arg7 : FVec F S1024x150 .f32) (main_arg8 : FVec F S150 .f32) (main_arg9 : FVec F S3x6x150x150 .f32) (main_arg10 : FVec F S3x6x150 .f32) (main_arg11 : FVec F S3x6x150x150 .f32) (main_arg12 : FVec F S768x300 .f32) (main_arg13 : FVec F S300 .f32) (main_arg14 : FVec F S300x200 .f32) (main_arg15 : FVec F S200 .f32) (main_arg16 : FVec F S200x150 .f32) (main_arg17 : FVec F S150 .f32) (main_arg18 : FVec F S300x150 .f32) (main_arg19 : FVec F S150 .f32) (main_arg20 : FVec F S150x50 .f32) (main_arg21 : FVec F S50 .f32) (main_arg22 : FVec F S50x3 .f32) (main_arg23 : FVec F S3 .f32) (main_v13 : IVec S_ 1) (main_v16 : IVec S768x150 1) : IVec S_ 1 :=
  let main_c_5 : IVec S_ 1 := constantI S_ 1 1#1
  let main_v17 : IVec S_ 1 := (fun x v => Host.reduce IntOp.andi x v reducesTo_S768x150_S_d0_1 h_S_) main_v16 main_c_5
  let main_v18 : IVec S_ 1 := andi main_v13 main_v17
  let main_v19 : FVec F S150 .f32 := Host.absf main_arg4
  let main_cst_6 : FVec F S_ .f32 := constant S_ .f32 0x7F800000#32
  let main_v20 : FVec F S150 .f32 := broadcastInDim S150 ![] bcast_S_S150 main_cst_6
  let main_v21 : IVec S150 1 := cmpf .olt main_v19 main_v20
  let main_c_7 : IVec S_ 1 := constantI S_ 1 1#1
  let main_v22 : IVec S_ 1 := (fun x v => Host.reduce IntOp.andi x v reducesTo_S150_S_d0 h_S_) main_v21 main_c_7
  let main_v23 : IVec S_ 1 := andi main_v18 main_v22
  let main_v24 : FVec F S768x150 .f32 := Host.absf main_arg5
  let main_cst_8 : FVec F S_ .f32 := constant S_ .f32 0x7F800000#32
  let main_v25 : FVec F S768x150 .f32 := broadcastInDim S768x150 ![] bcast_S_S768x150 main_cst_8
  let main_v26 : IVec S768x150 1 := cmpf .olt main_v24 main_v25
  let main_c_9 : IVec S_ 1 := constantI S_ 1 1#1
  let main_v27 : IVec S_ 1 := (fun x v => Host.reduce IntOp.andi x v reducesTo_S768x150_S_d0_1 h_S_) main_v26 main_c_9
  let main_v28 : IVec S_ 1 := andi main_v23 main_v27
  let main_v29 : FVec F S150 .f32 := Host.absf main_arg6
  let main_cst_10 : FVec F S_ .f32 := constant S_ .f32 0x7F800000#32
  let main_v30 : FVec F S150 .f32 := broadcastInDim S150 ![] bcast_S_S150 main_cst_10
  let main_v31 : IVec S150 1 := cmpf .olt main_v29 main_v30
  let main_c_11 : IVec S_ 1 := constantI S_ 1 1#1
  let main_v32 : IVec S_ 1 := (fun x v => Host.reduce IntOp.andi x v reducesTo_S150_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S50000x768 .f32) (main_arg1 : FVec F S2000x768 .f32) (main_arg2 : FVec F S20000x1024 .f32) (main_arg3 : FVec F S768x150 .f32) (main_arg4 : FVec F S150 .f32) (main_arg5 : FVec F S768x150 .f32) (main_arg6 : FVec F S150 .f32) (main_arg7 : FVec F S1024x150 .f32) (main_arg8 : FVec F S150 .f32) (main_arg9 : FVec F S3x6x150x150 .f32) (main_arg10 : FVec F S3x6x150 .f32) (main_arg11 : FVec F S3x6x150x150 .f32) (main_arg12 : FVec F S768x300 .f32) (main_arg13 : FVec F S300 .f32) (main_arg14 : FVec F S300x200 .f32) (main_arg15 : FVec F S200 .f32) (main_arg16 : FVec F S200x150 .f32) (main_arg17 : FVec F S150 .f32) (main_arg18 : FVec F S300x150 .f32) (main_arg19 : FVec F S150 .f32) (main_arg20 : FVec F S150x50 .f32) (main_arg21 : FVec F S50 .f32) (main_arg22 : FVec F S50x3 .f32) (main_arg23 : FVec F S3 .f32) (main_arg24 : IVec S2x500000 32) (main_arg25 : IVec S2x200000 32) (main_arg26 : IVec S2x200000 32) (main_arg27 : IVec S2x500000 32) : IVec S_ 1 :=
  let main_v0 : FVec F S50000x768 .f32 := Host.absf main_arg0
  let main_cst : FVec F S_ .f32 := constant S_ .f32 0x7F800000#32
  let main_v1 : FVec F S50000x768 .f32 := broadcastInDim S50000x768 ![] bcast_S_S50000x768 main_cst
  let main_v2 : IVec S50000x768 1 := cmpf .olt main_v0 main_v1
  let main_c : IVec S_ 1 := constantI S_ 1 1#1
  let main_v3 : IVec S_ 1 := (fun x v => Host.reduce IntOp.andi x v reducesTo_S50000x768_S_d0_1 h_S_) main_v2 main_c
  let main_v4 : FVec F S2000x768 .f32 := Host.absf main_arg1
  let main_cst_0 : FVec F S_ .f32 := constant S_ .f32 0x7F800000#32
  let main_v5 : FVec F S2000x768 .f32 := broadcastInDim S2000x768 ![] bcast_S_S2000x768 main_cst_0
  let main_v6 : IVec S2000x768 1 := cmpf .olt main_v4 main_v5
  let main_c_1 : IVec S_ 1 := constantI S_ 1 1#1
  let main_v7 : IVec S_ 1 := (fun x v => Host.reduce IntOp.andi x v reducesTo_S2000x768_S_d0_1 h_S_) main_v6 main_c_1
  let main_v8 : IVec S_ 1 := andi main_v3 main_v7
  let main_v9 : FVec F S20000x1024 .f32 := Host.absf main_arg2
  let main_cst_2 : FVec F S_ .f32 := constant S_ .f32 0x7F800000#32
  let main_v10 : FVec F S20000x1024 .f32 := broadcastInDim S20000x1024 ![] bcast_S_S20000x1024 main_cst_2
  let main_v11 : IVec S20000x1024 1 := cmpf .olt main_v9 main_v10
  let main_c_3 : IVec S_ 1 := constantI S_ 1 1#1
  let main_v12 : IVec S_ 1 := (fun x v => Host.reduce IntOp.andi x v reducesTo_S20000x1024_S_d0_1 h_S_) main_v11 main_c_3
  let main_v13 : IVec S_ 1 := andi main_v8 main_v12
  let main_v14 : FVec F S768x150 .f32 := Host.absf main_arg3
  let main_cst_4 : FVec F S_ .f32 := constant S_ .f32 0x7F800000#32
  let main_v15 : FVec F S768x150 .f32 := broadcastInDim S768x150 ![] bcast_S_S768x150 main_cst_4
  let main_v16 : IVec S768x150 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S50000x768 : Shape := ⟨2, ![50000, 768]⟩
abbrev S2000x768 : Shape := ⟨2, ![2000, 768]⟩
abbrev S20000x1024 : Shape := ⟨2, ![20000, 1024]⟩
abbrev S768x150 : Shape := ⟨2, ![768, 150]⟩
abbrev S150 : Shape := ⟨1, ![150]⟩
abbrev S1024x150 : Shape := ⟨2, ![1024, 150]⟩
abbrev S3x6x150x150 : Shape := ⟨4, ![3, 6, 150, 150]⟩
abbrev S3x6x150 : Shape := ⟨3, ![3, 6, 150]⟩
abbrev S768x300 : Shape := ⟨2, ![768, 300]⟩
abbrev S300 : Shape := ⟨1, ![300]⟩
abbrev S300x200 : Shape := ⟨2, ![300, 200]⟩
abbrev S200 : Shape := ⟨1, ![200]⟩
abbrev S200x150 : Shape := ⟨2, ![200, 150]⟩
abbrev S300x150 : Shape := ⟨2, ![300, 150]⟩
abbrev S150x50 : Shape := ⟨2, ![150, 50]⟩
abbrev S50 : Shape := ⟨1, ![50]⟩
abbrev S50x3 : Shape := ⟨2, ![50, 3]⟩
abbrev S3 : Shape := ⟨1, ![3]⟩
abbrev S2x500000 : Shape := ⟨2, ![2, 500000]⟩
abbrev S2x200000 : Shape := ⟨2, ![2, 200000]⟩
abbrev S1x150 : Shape := ⟨2, ![1, 150]⟩
abbrev S50000x150 : Shape := ⟨2, ![50000, 150]⟩
abbrev S2000x150 : Shape := ⟨2, ![2000, 150]⟩
abbrev S20000x150 : Shape := ⟨2, ![20000, 150]⟩
abbrev S2000x1024 : Shape := ⟨2, ![2000, 1024]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x150 : Shape := ⟨2, ![500000, 150]⟩
abbrev S50000 : Shape := ⟨1, ![50000]⟩
abbrev S50000x1 : Shape := ⟨2, ![50000, 1]⟩
abbrev S1x200000 : Shape := ⟨2, ![1, 200000]⟩
abbrev S200000 : Shape := ⟨1, ![200000]⟩
abbrev S200000x1 : Shape := ⟨2, ![200000, 1]⟩
abbrev S200000x150 : Shape := ⟨2, ![200000, 150]⟩
abbrev S1x1x150x150 : Shape := ⟨4, ![1, 1, 150, 150]⟩
abbrev S150x150 : Shape := ⟨2, ![150, 150]⟩
abbrev S1x1x150 : Shape := ⟨3, ![1, 1, 150]⟩
abbrev S5000x150 : Shape := ⟨2, ![5000, 150]⟩
abbrev S2000 : Shape := ⟨1, ![2000]⟩
abbrev S2000x1 : Shape := ⟨2, ![2000, 1]⟩
abbrev S20000 : Shape := ⟨1, ![20000]⟩
abbrev S20000x1 : Shape := ⟨2, ![20000, 1]⟩
abbrev S1x300 : Shape := ⟨2, ![1, 300]⟩
abbrev S50000x300 : Shape := ⟨2, ![50000, 300]⟩
abbrev S2000x300 : Shape := ⟨2, ![2000, 300]⟩
abbrev S1x200 : Shape := ⟨2, ![1, 200]⟩
abbrev S50000x200 : Shape := ⟨2, ![50000, 200]⟩
abbrev S2000x200 : Shape := ⟨2, ![2000, 200]⟩
abbrev S500000x300 : Shape := ⟨2, ![500000, 300]⟩
abbrev S10000x300 : Shape := ⟨2, ![10000, 300]⟩
abbrev S10000x150 : Shape := ⟨2, ![10000, 150]⟩
abbrev S1x50 : Shape := ⟨2, ![1, 50]⟩
abbrev S500000x50 : Shape := ⟨2, ![500000, 50]⟩
abbrev S10000x50 : Shape := ⟨2, ![10000, 50]⟩
abbrev S1x3 : Shape := ⟨2, ![1, 3]⟩
abbrev S500000x3 : Shape := ⟨2, ![500000, 3]⟩
abbrev S10000x3 : Shape := ⟨2, ![10000, 3]⟩

abbrev nBuf : Space → Nat
  | .hbm => 587
  | .vmem => 128
  | .smem => 0
  | _ => 0

abbrev hbmTy0_0 (i : Nat) : BufTy := match i % 128 with
  | 0 => ⟨S50000x768, .f32⟩
  | 1 => ⟨S2000x768, .f32⟩
  | 2 => ⟨S20000x1024, .f32⟩
  | 3 => ⟨S768x150, .f32⟩
  | 4 => ⟨S150, .f32⟩
  | 5 => ⟨S768x150, .f32⟩
  | 6 => ⟨S150, .f32⟩
  | 7 => ⟨S1024x150, .f32⟩
  | 8 => ⟨S150, .f32⟩
  | 9 => ⟨S3x6x150x150, .f32⟩
  | 10 => ⟨S3x6x150, .f32⟩
  | 11 => ⟨S3x6x150x150, .f32⟩
  | 12 => ⟨S768x300, .f32⟩
  | 13 => ⟨S300, .f32⟩
  | 14 => ⟨S300x200, .f32⟩
  | 15 => ⟨S200, .f32⟩
  | 16 => ⟨S200x150, .f32⟩
  | 17 => ⟨S150, .f32⟩
  | 18 => ⟨S300x150, .f32⟩
  | 19 => ⟨S150, .f32⟩
  | 20 => ⟨S150x50, .f32⟩
  | 21 => ⟨S50, .f32⟩
  | 22 => ⟨S50x3, .f32⟩
  | 23 => ⟨S3, .f32⟩
  | 24 => ⟨S2x500000, .i32⟩
  | 25 => ⟨S2x200000, .i32⟩
  | 26 => ⟨S2x200000, .i32⟩
  | 27 => ⟨S2x500000, .i32⟩
  | 28 => ⟨S1x150, .f32⟩
  | 29 => ⟨S50000x150, .f32⟩
  | 30 => ⟨S1x150, .f32⟩
  | 31 => ⟨S2000x150, .f32⟩
  | 32 => ⟨S1x150, .f32⟩
  | 33 => ⟨S20000x150, .f32⟩
  | 34 => ⟨S1x500000, .i32⟩
  | 35 => ⟨S500000, .i32⟩
  | 36 => ⟨S1x500000, .i32⟩
  | 37 => ⟨S500000, .i32⟩
  | 38 => ⟨S_, .i32⟩
  | 39 => ⟨S500000, .i32⟩
  | 40 => ⟨S500000, .i1⟩
  | 41 => ⟨S_, .i32⟩
  | 42 => ⟨S500000, .i32⟩
  | 43 => ⟨S500000, .i32⟩
  | 44 => ⟨S500000, .i32⟩
  | 45 => ⟨S500000x1, .i32⟩
  | 46 => ⟨S500000x150, .f32⟩
  | 47 => ⟨S_, .f32⟩
  | 48 => ⟨S50000x150, .f32⟩
  | 49 => ⟨S500000x1, .i32⟩
  | 50 => ⟨S50000x150, .f32⟩
  | 51 => ⟨S_, .f32⟩
  | 52 => ⟨S500000, .f32⟩
  | 53 => ⟨S_, .f32⟩
  | 54 => ⟨S50000, .f32⟩
  | 55 => ⟨S500000x1, .i32⟩
  | 56 => ⟨S50000, .f32⟩
  | 57 => ⟨S_, .f32⟩
  | 58 => ⟨S50000, .f32⟩
  | 59 => ⟨S50000, .f32⟩
  | 60 => ⟨S50000x1, .f32⟩
  | 61 => ⟨S50000x150, .f32⟩
  | 62 => ⟨S50000x150, .f32⟩
  | 63 => ⟨S1x200000, .i32⟩
  | 64 => ⟨S200000, .i32⟩
  | 65 => ⟨S1x200000, .i32⟩
  | 66 => ⟨S200000, .i32⟩
  | 67 => ⟨S_, .i32⟩
  | 68 => ⟨S200000, .i32⟩
  | 69 => ⟨S200000, .i1⟩
  | 70 => ⟨S_, .i32⟩
  | 71 => ⟨S200000, .i32⟩
  | 72 => ⟨S200000, .i32⟩
  | 73 => ⟨S200000, .i32⟩
  | 74 => ⟨S200000x1, .i32⟩
  | 75 => ⟨S200000x150, .f32⟩
  | 76 => ⟨S_, .f32⟩
  | 77 => ⟨S50000x150, .f32⟩
  | 78 => ⟨S200000x1, .i32⟩
  | 79 => ⟨S50000x150, .f32⟩
  | 80 => ⟨S_, .f32⟩
  | 81 => ⟨S200000, .f32⟩
  | 82 => ⟨S_, .f32⟩
  | 83 => ⟨S50000, .f32⟩
  | 84 => ⟨S200000x1, .i32⟩
  | 85 => ⟨S50000, .f32⟩
  | 86 => ⟨S_, .f32⟩
  | 87 => ⟨S50000, .f32⟩
  | 88 => ⟨S50000, .f32⟩
  | 89 => ⟨S50000x1, .f32⟩
  | 90 => ⟨S50000x150, .f32⟩
  | 91 => ⟨S50000x150, .f32⟩
  | 92 => ⟨S1x1x150x150, .f32⟩
  | 93 => ⟨S150x150, .f32⟩
  | 94 => ⟨S1x1x150x150, .f32⟩
  | 95 => ⟨S150x150, .f32⟩
  | 96 => ⟨S150x150, .f32⟩
  | 97 => ⟨S1x1x150, .f32⟩
  | 98 => ⟨S150, .f32⟩
  | 99 => ⟨S1x1x150, .f32⟩
  | 100 => ⟨S150, .f32⟩
  | 101 => ⟨S150, .f32⟩
  | 102 => ⟨S1x1x150x150, .f32⟩
  | 103 => ⟨S150x150, .f32⟩
  | 104 => ⟨S1x1x150x150, .f32⟩
  | 105 => ⟨S150x150, .f32⟩
  | 106 => ⟨S1x150, .f32⟩
  | 107 => ⟨S50000x150, .f32⟩
  | 108 => ⟨S1x200000, .i32⟩
  | 109 => ⟨S200000, .i32⟩
  | 110 => ⟨S1x200000, .i32⟩
  | 111 => ⟨S200000, .i32⟩
  | 112 => ⟨S_, .i32⟩
  | 113 => ⟨S200000, .i32⟩
  | 114 => ⟨S200000, .i1⟩
  | 115 => ⟨S_, .i32⟩
  | 116 => ⟨S200000, .i32⟩
  | 117 => ⟨S200000, .i32⟩
  | 118 => ⟨S200000, .i32⟩
  | 119 => ⟨S200000x1, .i32⟩
  | 120 => ⟨S200000x150, .f32⟩
  | 121 => ⟨S_, .f32⟩
  | 122 => ⟨S2000x150, .f32⟩
  | 123 => ⟨S200000x1, .i32⟩
  | 124 => ⟨S2000x150, .f32⟩
  | 125 => ⟨S_, .f32⟩
  | 126 => ⟨S200000, .f32⟩
  | 127 => ⟨S_, .f32⟩
  | _ => ⟨S50000x768, .f32⟩

abbrev hbmTy0_1 (i : Nat) : BufTy := match i % 128 with
  | 0 => ⟨S2000, .f32⟩
  | 1 => ⟨S200000x1, .i32⟩
  | 2 => ⟨S2000, .f32⟩
  | 3 => ⟨S_, .f32⟩
  | 4 => ⟨S2000, .f32⟩
  | 5 => ⟨S2000, .f32⟩
  | 6 => ⟨S2000x1, .f32⟩
  | 7 => ⟨S2000x150, .f32⟩
  | 8 => ⟨S2000x150, .f32⟩
  | 9 => ⟨S1x200000, .i32⟩
  | 10 => ⟨S200000, .i32⟩
  | 11 => ⟨S1x200000, .i32⟩
  | 12 => ⟨S200000, .i32⟩
  | 13 => ⟨S_, .i32⟩
  | 14 => ⟨S200000, .i32⟩
  | 15 => ⟨S200000, .i1⟩
  | 16 => ⟨S_, .i32⟩
  | 17 => ⟨S200000, .i32⟩
  | 18 => ⟨S200000, .i32⟩
  | 19 => ⟨S200000, .i32⟩
  | 20 => ⟨S200000x1, .i32⟩
  | 21 => ⟨S200000x150, .f32⟩
  | 22 => ⟨S_, .f32⟩
  | 23 => ⟨S2000x150, .f32⟩
  | 24 => ⟨S200000x1, .i32⟩
  | 25 => ⟨S2000x150, .f32⟩
  | 26 => ⟨S_, .f32⟩
  | 27 => ⟨S200000, .f32⟩
  | 28 => ⟨S_, .f32⟩
  | 29 => ⟨S2000, .f32⟩
  | 30 => ⟨S200000x1, .i32⟩
  | 31 => ⟨S2000, .f32⟩
  | 32 => ⟨S_, .f32⟩
  | 33 => ⟨S2000, .f32⟩
  | 34 => ⟨S2000, .f32⟩
  | 35 => ⟨S2000x1, .f32⟩
  | 36 => ⟨S2000x150, .f32⟩
  | 37 => ⟨S2000x150, .f32⟩
  | 38 => ⟨S1x1x150x150, .f32⟩
  | 39 => ⟨S150x150, .f32⟩
  | 40 => ⟨S1x1x150x150, .f32⟩
  | 41 => ⟨S150x150, .f32⟩
  | 42 => ⟨S150x150, .f32⟩
  | 43 => ⟨S1x1x150, .f32⟩
  | 44 => ⟨S150, .f32⟩
  | 45 => ⟨S1x1x150, .f32⟩
  | 46 => ⟨S150, .f32⟩
  | 47 => ⟨S150, .f32⟩
  | 48 => ⟨S1x1x150x150, .f32⟩
  | 49 => ⟨S150x150, .f32⟩
  | 50 => ⟨S1x1x150x150, .f32⟩
  | 51 => ⟨S150x150, .f32⟩
  | 52 => ⟨S1x150, .f32⟩
  | 53 => ⟨S2000x150, .f32⟩
  | 54 => ⟨S1x500000, .i32⟩
  | 55 => ⟨S500000, .i32⟩
  | 56 => ⟨S1x500000, .i32⟩
  | 57 => ⟨S500000, .i32⟩
  | 58 => ⟨S_, .i32⟩
  | 59 => ⟨S500000, .i32⟩
  | 60 => ⟨S500000, .i1⟩
  | 61 => ⟨S_, .i32⟩
  | 62 => ⟨S500000, .i32⟩
  | 63 => ⟨S500000, .i32⟩
  | 64 => ⟨S500000, .i32⟩
  | 65 => ⟨S500000x1, .i32⟩
  | 66 => ⟨S500000x150, .f32⟩
  | 67 => ⟨S_, .f32⟩
  | 68 => ⟨S20000x150, .f32⟩
  | 69 => ⟨S500000x1, .i32⟩
  | 70 => ⟨S20000x150, .f32⟩
  | 71 => ⟨S_, .f32⟩
  | 72 => ⟨S500000, .f32⟩
  | 73 => ⟨S_, .f32⟩
  | 74 => ⟨S20000, .f32⟩
  | 75 => ⟨S500000x1, .i32⟩
  | 76 => ⟨S20000, .f32⟩
  | 77 => ⟨S_, .f32⟩
  | 78 => ⟨S20000, .f32⟩
  | 79 => ⟨S20000, .f32⟩
  | 80 => ⟨S20000x1, .f32⟩
  | 81 => ⟨S20000x150, .f32⟩
  | 82 => ⟨S20000x150, .f32⟩
  | 83 => ⟨S1x200000, .i32⟩
  | 84 => ⟨S200000, .i32⟩
  | 85 => ⟨S1x200000, .i32⟩
  | 86 => ⟨S200000, .i32⟩
  | 87 => ⟨S_, .i32⟩
  | 88 => ⟨S200000, .i32⟩
  | 89 => ⟨S200000, .i1⟩
  | 90 => ⟨S_, .i32⟩
  | 91 => ⟨S200000, .i32⟩
  | 92 => ⟨S200000, .i32⟩
  | 93 => ⟨S200000, .i32⟩
  | 94 => ⟨S200000x1, .i32⟩
  | 95 => ⟨S200000x150, .f32⟩
  | 96 => ⟨S_, .f32⟩
  | 97 => ⟨S20000x150, .f32⟩
  | 98 => ⟨S200000x1, .i32⟩
  | 99 => ⟨S20000x150, .f32⟩
  | 100 => ⟨S_, .f32⟩
  | 101 => ⟨S200000, .f32⟩
  | 102 => ⟨S_, .f32⟩
  | 103 => ⟨S20000, .f32⟩
  | 104 => ⟨S200000x1, .i32⟩
  | 105 => ⟨S20000, .f32⟩
  | 106 => ⟨S_, .f32⟩
  | 107 => ⟨S20000, .f32⟩
  | 108 => ⟨S20000, .f32⟩
  | 109 => ⟨S20000x1, .f32⟩
  | 110 => ⟨S20000x150, .f32⟩
  | 111 => ⟨S20000x150, .f32⟩
  | 112 => ⟨S1x1x150x150, .f32⟩
  | 113 => ⟨S150x150, .f32⟩
  | 114 => ⟨S1x1x150x150, .f32⟩
  | 115 => ⟨S150x150, .f32⟩
  | 116 => ⟨S150x150, .f32⟩
  | 117 => ⟨S1x1x150, .f32⟩
  | 118 => ⟨S150, .f32⟩
  | 119 => ⟨S1x1x150, .f32⟩
  | 120 => ⟨S150, .f32⟩
  | 121 => ⟨S150, .f32⟩
  | 122 => ⟨S1x1x150x150, .f32⟩
  | 123 => ⟨S150x150, .f32⟩
  | 124 => ⟨S1x1x150x150, .f32⟩
  | 125 => ⟨S150x150, .f32⟩
  | 126 => ⟨S1x150, .f32⟩
  | 127 => ⟨S20000x150, .f32⟩
  | _ => ⟨S50000x768, .f32⟩

abbrev hbmTy0_2 (i : Nat) : BufTy := match i % 128 with
  | 0 => ⟨S1x500000, .i32⟩
  | 1 => ⟨S500000, .i32⟩
  | 2 => ⟨S1x500000, .i32⟩
  | 3 => ⟨S500000, .i32⟩
  | 4 => ⟨S_, .i32⟩
  | 5 => ⟨S500000, .i32⟩
  | 6 => ⟨S500000, .i1⟩
  | 7 => ⟨S_, .i32⟩
  | 8 => ⟨S500000, .i32⟩
  | 9 => ⟨S500000, .i32⟩
  | 10 => ⟨S500000, .i32⟩
  | 11 => ⟨S500000x1, .i32⟩
  | 12 => ⟨S500000x150, .f32⟩
  | 13 => ⟨S_, .f32⟩
  | 14 => ⟨S50000x150, .f32⟩
  | 15 => ⟨S500000x1, .i32⟩
  | 16 => ⟨S50000x150, .f32⟩
  | 17 => ⟨S_, .f32⟩
  | 18 => ⟨S500000, .f32⟩
  | 19 => ⟨S_, .f32⟩
  | 20 => ⟨S50000, .f32⟩
  | 21 => ⟨S500000x1, .i32⟩
  | 22 => ⟨S50000, .f32⟩
  | 23 => ⟨S_, .f32⟩
  | 24 => ⟨S50000, .f32⟩
  | 25 => ⟨S50000, .f32⟩
  | 26 => ⟨S50000x1, .f32⟩
  | 27 => ⟨S50000x150, .f32⟩
  | 28 => ⟨S50000x150, .f32⟩
  | 29 => ⟨S1x200000, .i32⟩
  | 30 => ⟨S200000, .i32⟩
  | 31 => ⟨S1x200000, .i32⟩
  | 32 => ⟨S200000, .i32⟩
  | 33 => ⟨S_, .i32⟩
  | 34 => ⟨S200000, .i32⟩
  | 35 => ⟨S200000, .i1⟩
  | 36 => ⟨S_, .i32⟩
  | 37 => ⟨S200000, .i32⟩
  | 38 => ⟨S200000, .i32⟩
  | 39 => ⟨S200000, .i32⟩
  | 40 => ⟨S200000x1, .i32⟩
  | 41 => ⟨S200000x150, .f32⟩
  | 42 => ⟨S_, .f32⟩
  | 43 => ⟨S50000x150, .f32⟩
  | 44 => ⟨S200000x1, .i32⟩
  | 45 => ⟨S50000x150, .f32⟩
  | 46 => ⟨S_, .f32⟩
  | 47 => ⟨S200000, .f32⟩
  | 48 => ⟨S_, .f32⟩
  | 49 => ⟨S50000, .f32⟩
  | 50 => ⟨S200000x1, .i32⟩
  | 51 => ⟨S50000, .f32⟩
  | 52 => ⟨S_, .f32⟩
  | 53 => ⟨S50000, .f32⟩
  | 54 => ⟨S50000, .f32⟩
  | 55 => ⟨S50000x1, .f32⟩
  | 56 => ⟨S50000x150, .f32⟩
  | 57 => ⟨S50000x150, .f32⟩
  | 58 => ⟨S1x1x150x150, .f32⟩
  | 59 => ⟨S150x150, .f32⟩
  | 60 => ⟨S1x1x150x150, .f32⟩
  | 61 => ⟨S150x150, .f32⟩
  | 62 => ⟨S150x150, .f32⟩
  | 63 => ⟨S1x1x150, .f32⟩
  | 64 => ⟨S150, .f32⟩
  | 65 => ⟨S1x1x150, .f32⟩
  | 66 => ⟨S150, .f32⟩
  | 67 => ⟨S150, .f32⟩
  | 68 => ⟨S1x1x150x150, .f32⟩
  | 69 => ⟨S150x150, .f32⟩
  | 70 => ⟨S1x1x150x150, .f32⟩
  | 71 => ⟨S150x150, .f32⟩
  | 72 => ⟨S1x150, .f32⟩
  | 73 => ⟨S50000x150, .f32⟩
  | 74 => ⟨S1x200000, .i32⟩
  | 75 => ⟨S200000, .i32⟩
  | 76 => ⟨S1x200000, .i32⟩
  | 77 => ⟨S200000, .i32⟩
  | 78 => ⟨S_, .i32⟩
  | 79 => ⟨S200000, .i32⟩
  | 80 => ⟨S200000, .i1⟩
  | 81 => ⟨S_, .i32⟩
  | 82 => ⟨S200000, .i32⟩
  | 83 => ⟨S200000, .i32⟩
  | 84 => ⟨S200000, .i32⟩
  | 85 => ⟨S200000x1, .i32⟩
  | 86 => ⟨S200000x150, .f32⟩
  | 87 => ⟨S_, .f32⟩
  | 88 => ⟨S2000x150, .f32⟩
  | 89 => ⟨S200000x1, .i32⟩
  | 90 => ⟨S2000x150, .f32⟩
  | 91 => ⟨S_, .f32⟩
  | 92 => ⟨S200000, .f32⟩
  | 93 => ⟨S_, .f32⟩
  | 94 => ⟨S2000, .f32⟩
  | 95 => ⟨S200000x1, .i32⟩
  | 96 => ⟨S2000, .f32⟩
  | 97 => ⟨S_, .f32⟩
  | 98 => ⟨S2000, .f32⟩
  | 99 => ⟨S2000, .f32⟩
  | 100 => ⟨S2000x1, .f32⟩
  | 101 => ⟨S2000x150, .f32⟩
  | 102 => ⟨S2000x150, .f32⟩
  | 103 => ⟨S1x200000, .i32⟩
  | 104 => ⟨S200000, .i32⟩
  | 105 => ⟨S1x200000, .i32⟩
  | 106 => ⟨S200000, .i32⟩
  | 107 => ⟨S_, .i32⟩
  | 108 => ⟨S200000, .i32⟩
  | 109 => ⟨S200000, .i1⟩
  | 110 => ⟨S_, .i32⟩
  | 111 => ⟨S200000, .i32⟩
  | 112 => ⟨S200000, .i32⟩
  | 113 => ⟨S200000, .i32⟩
  | 114 => ⟨S200000x1, .i32⟩
  | 115 => ⟨S200000x150, .f32⟩
  | 116 => ⟨S_, .f32⟩
  | 117 => ⟨S2000x150, .f32⟩
  | 118 => ⟨S200000x1, .i32⟩
  | 119 => ⟨S2000x150, .f32⟩
  | 120 => ⟨S_, .f32⟩
  | 121 => ⟨S200000, .f32⟩
  | 122 => ⟨S_, .f32⟩
  | 123 => ⟨S2000, .f32⟩
  | 124 => ⟨S200000x1, .i32⟩
  | 125 => ⟨S2000, .f32⟩
  | 126 => ⟨S_, .f32⟩
  | 127 => ⟨S2000, .f32⟩
  | _ => ⟨S50000x768, .f32⟩

abbrev hbmTy0_3 (i : Nat) : BufTy := match i % 128 with
  | 0 => ⟨S2000, .f32⟩
  | 1 => ⟨S2000x1, .f32⟩
  | 2 => ⟨S2000x150, .f32⟩
  | 3 => ⟨S2000x150, .f32⟩
  | 4 => ⟨S1x1x150x150, .f32⟩
  | 5 => ⟨S150x150, .f32⟩
  | 6 => ⟨S1x1x150x150, .f32⟩
  | 7 => ⟨S150x150, .f32⟩
  | 8 => ⟨S150x150, .f32⟩
  | 9 => ⟨S1x1x150, .f32⟩
  | 10 => ⟨S150, .f32⟩
  | 11 => ⟨S1x1x150, .f32⟩
  | 12 => ⟨S150, .f32⟩
  | 13 => ⟨S150, .f32⟩
  | 14 => ⟨S1x1x150x150, .f32⟩
  | 15 => ⟨S150x150, .f32⟩
  | 16 => ⟨S1x1x150x150, .f32⟩
  | 17 => ⟨S150x150, .f32⟩
  | 18 => ⟨S1x150, .f32⟩
  | 19 => ⟨S2000x150, .f32⟩
  | 20 => ⟨S1x500000, .i32⟩
  | 21 => ⟨S500000, .i32⟩
  | 22 => ⟨S1x500000, .i32⟩
  | 23 => ⟨S500000, .i32⟩
  | 24 => ⟨S_, .i32⟩
  | 25 => ⟨S500000, .i32⟩
  | 26 => ⟨S500000, .i1⟩
  | 27 => ⟨S_, .i32⟩
  | 28 => ⟨S500000, .i32⟩
  | 29 => ⟨S500000, .i32⟩
  | 30 => ⟨S500000, .i32⟩
  | 31 => ⟨S500000x1, .i32⟩
  | 32 => ⟨S500000x150, .f32⟩
  | 33 => ⟨S_, .f32⟩
  | 34 => ⟨S20000x150, .f32⟩
  | 35 => ⟨S500000x1, .i32⟩
  | 36 => ⟨S20000x150, .f32⟩
  | 37 => ⟨S_, .f32⟩
  | 38 => ⟨S500000, .f32⟩
  | 39 => ⟨S_, .f32⟩
  | 40 => ⟨S20000, .f32⟩
  | 41 => ⟨S500000x1, .i32⟩
  | 42 => ⟨S20000, .f32⟩
  | 43 => ⟨S_, .f32⟩
  | 44 => ⟨S20000, .f32⟩
  | 45 => ⟨S20000, .f32⟩
  | 46 => ⟨S20000x1, .f32⟩
  | 47 => ⟨S20000x150, .f32⟩
  | 48 => ⟨S20000x150, .f32⟩
  | 49 => ⟨S1x200000, .i32⟩
  | 50 => ⟨S200000, .i32⟩
  | 51 => ⟨S1x200000, .i32⟩
  | 52 => ⟨S200000, .i32⟩
  | 53 => ⟨S_, .i32⟩
  | 54 => ⟨S200000, .i32⟩
  | 55 => ⟨S200000, .i1⟩
  | 56 => ⟨S_, .i32⟩
  | 57 => ⟨S200000, .i32⟩
  | 58 => ⟨S200000, .i32⟩
  | 59 => ⟨S200000, .i32⟩
  | 60 => ⟨S200000x1, .i32⟩
  | 61 => ⟨S200000x150, .f32⟩
  | 62 => ⟨S_, .f32⟩
  | 63 => ⟨S20000x150, .f32⟩
  | 64 => ⟨S200000x1, .i32⟩
  | 65 => ⟨S20000x150, .f32⟩
  | 66 => ⟨S_, .f32⟩
  | 67 => ⟨S200000, .f32⟩
  | 68 => ⟨S_, .f32⟩
  | 69 => ⟨S20000, .f32⟩
  | 70 => ⟨S200000x1, .i32⟩
  | 71 => ⟨S20000, .f32⟩
  | 72 => ⟨S_, .f32⟩
  | 73 => ⟨S20000, .f32⟩
  | 74 => ⟨S20000, .f32⟩
  | 75 => ⟨S20000x1, .f32⟩
  | 76 => ⟨S20000x150, .f32⟩
  | 77 => ⟨S20000x150, .f32⟩
  | 78 => ⟨S1x1x150x150, .f32⟩
  | 79 => ⟨S150x150, .f32⟩
  | 80 => ⟨S1x1x150x150, .f32⟩
  | 81 => ⟨S150x150, .f32⟩
  | 82 => ⟨S150x150, .f32⟩
  | 83 => ⟨S1x1x150, .f32⟩
  | 84 => ⟨S150, .f32⟩
  | 85 => ⟨S1x1x150, .f32⟩
  | 86 => ⟨S150, .f32⟩
  | 87 => ⟨S150, .f32⟩
  | 88 => ⟨S1x1x150x150, .f32⟩
  | 89 => ⟨S150x150, .f32⟩
  | 90 => ⟨S1x1x150x150, .f32⟩
  | 91 => ⟨S150x150, .f32⟩
  | 92 => ⟨S1x150, .f32⟩
  | 93 => ⟨S20000x150, .f32⟩
  | 94 => ⟨S1x500000, .i32⟩
  | 95 => ⟨S500000, .i32⟩
  | 96 => ⟨S1x500000, .i32⟩
  | 97 => ⟨S500000, .i32⟩
  | 98 => ⟨S_, .i32⟩
  | 99 => ⟨S500000, .i32⟩
  | 100 => ⟨S500000, .i1⟩
  | 101 => ⟨S_, .i32⟩
  | 102 => ⟨S500000, .i32⟩
  | 103 => ⟨S500000, .i32⟩
  | 104 => ⟨S500000, .i32⟩
  | 105 => ⟨S500000x1, .i32⟩
  | 106 => ⟨S500000x150, .f32⟩
  | 107 => ⟨S_, .f32⟩
  | 108 => ⟨S20000x150, .f32⟩
  | 109 => ⟨S500000x1, .i32⟩
  | 110 => ⟨S20000x150, .f32⟩
  | 111 => ⟨S_, .f32⟩
  | 112 => ⟨S500000, .f32⟩
  | 113 => ⟨S_, .f32⟩
  | 114 => ⟨S20000, .f32⟩
  | 115 => ⟨S500000x1, .i32⟩
  | 116 => ⟨S20000, .f32⟩
  | 117 => ⟨S_, .f32⟩
  | 118 => ⟨S20000, .f32⟩
  | 119 => ⟨S20000, .f32⟩
  | 120 => ⟨S20000x1, .f32⟩
  | 121 => ⟨S20000x150, .f32⟩
  | 122 => ⟨S20000x150, .f32⟩
  | 123 => ⟨S1x200000, .i32⟩
  | 124 => ⟨S200000, .i32⟩
  | 125 => ⟨S1x200000, .i32⟩
  | 126 => ⟨S200000, .i32⟩
  | 127 => ⟨S_, .i32⟩
  | _ => ⟨S50000x768, .f32⟩

abbrev hbmTy0_4 (i : Nat) : BufTy := match i % 128 with
  | 0 => ⟨S200000, .i32⟩
  | 1 => ⟨S200000, .i1⟩
  | 2 => ⟨S_, .i32⟩
  | 3 => ⟨S200000, .i32⟩
  | 4 => ⟨S200000, .i32⟩
  | 5 => ⟨S200000, .i32⟩
  | 6 => ⟨S200000x1, .i32⟩
  | 7 => ⟨S200000x150, .f32⟩
  | 8 => ⟨S_, .f32⟩
  | 9 => ⟨S20000x150, .f32⟩
  | 10 => ⟨S200000x1, .i32⟩
  | 11 => ⟨S20000x150, .f32⟩
  | 12 => ⟨S_, .f32⟩
  | 13 => ⟨S200000, .f32⟩
  | 14 => ⟨S_, .f32⟩
  | 15 => ⟨S20000, .f32⟩
  | 16 => ⟨S200000x1, .i32⟩
  | 17 => ⟨S20000, .f32⟩
  | 18 => ⟨S_, .f32⟩
  | 19 => ⟨S20000, .f32⟩
  | 20 => ⟨S20000, .f32⟩
  | 21 => ⟨S20000x1, .f32⟩
  | 22 => ⟨S20000x150, .f32⟩
  | 23 => ⟨S20000x150, .f32⟩
  | 24 => ⟨S1x1x150x150, .f32⟩
  | 25 => ⟨S150x150, .f32⟩
  | 26 => ⟨S1x1x150x150, .f32⟩
  | 27 => ⟨S150x150, .f32⟩
  | 28 => ⟨S150x150, .f32⟩
  | 29 => ⟨S1x1x150, .f32⟩
  | 30 => ⟨S150, .f32⟩
  | 31 => ⟨S1x1x150, .f32⟩
  | 32 => ⟨S150, .f32⟩
  | 33 => ⟨S150, .f32⟩
  | 34 => ⟨S1x1x150x150, .f32⟩
  | 35 => ⟨S150x150, .f32⟩
  | 36 => ⟨S1x1x150x150, .f32⟩
  | 37 => ⟨S150x150, .f32⟩
  | 38 => ⟨S1x150, .f32⟩
  | 39 => ⟨S20000x150, .f32⟩
  | 40 => ⟨S1x300, .f32⟩
  | 41 => ⟨S50000x300, .f32⟩
  | 42 => ⟨S1x200, .f32⟩
  | 43 => ⟨S50000x200, .f32⟩
  | 44 => ⟨S1x150, .f32⟩
  | 45 => ⟨S50000x150, .f32⟩
  | 46 => ⟨S1x500000, .i32⟩
  | 47 => ⟨S500000, .i32⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S500000x150, .f32⟩
  | 57 => ⟨S1x500000, .i32⟩
  | 58 => ⟨S500000, .i32⟩
  | 59 => ⟨S_, .i32⟩
  | 60 => ⟨S500000, .i32⟩
  | 61 => ⟨S500000, .i1⟩
  | 62 => ⟨S_, .i32⟩
  | 63 => ⟨S500000, .i32⟩
  | 64 => ⟨S500000, .i32⟩
  | 65 => ⟨S500000, .i32⟩
  | 66 => ⟨S500000x1, .i32⟩
  | 67 => ⟨S500000x150, .f32⟩
  | 68 => ⟨S500000x300, .f32⟩
  | 69 => ⟨S1x150, .f32⟩
  | 70 => ⟨S500000x150, .f32⟩
  | 71 => ⟨S1x50, .f32⟩
  | 72 => ⟨S500000x50, .f32⟩
  | 73 => ⟨S1x3, .f32⟩
  | 74 => ⟨S500000x3, .f32⟩
  | _ => ⟨S50000x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x768, .f32⟩

abbrev bufTy : (tb : Table) → Fin (tcTables nBuf tb) → BufTy
  | .hbm, ⟨i, _⟩ => hbmTy i
  | .local _ .vmem, ⟨0, _⟩ => ⟨S2000x768, .f32⟩
  | .local _ .vmem, ⟨1, _⟩ => ⟨S2000x768, .f32⟩
  | .local _ .vmem, ⟨2, _⟩ => ⟨S768x150, .f32⟩
  | .local _ .vmem, ⟨3, _⟩ => ⟨S1x150, .f32⟩
  | .local _ .vmem, ⟨4, _⟩ => ⟨S2000x150, .f32⟩
  | .local _ .vmem, ⟨5, _⟩ => ⟨S2000x150, .f32⟩
  | .local _ .vmem, ⟨6, _⟩ => ⟨S2000x768, .f32⟩
  | .local _ .vmem, ⟨7, _⟩ => ⟨S768x150, .f32⟩
  | .local _ .vmem, ⟨8, _⟩ => ⟨S1x150, .f32⟩
  | .local _ .vmem, ⟨9, _⟩ => ⟨S2000x150, .f32⟩
  | .local _ .vmem, ⟨10, _⟩ => ⟨S2000x1024, .f32⟩
  | .local _ .vmem, ⟨11, _⟩ => ⟨S2000x1024, .f32⟩
  | .local _ .vmem, ⟨12, _⟩ => ⟨S1024x150, .f32⟩
  | .local _ .vmem, ⟨13, _⟩ => ⟨S1x150, .f32⟩
  | .local _ .vmem, ⟨14, _⟩ => ⟨S2000x150, .f32⟩
  | .local _ .vmem, ⟨15, _⟩ => ⟨S2000x150, .f32⟩
  | .local _ .vmem, ⟨16, _⟩ => ⟨S5000x150, .f32⟩
  | .local _ .vmem, ⟨17, _⟩ => ⟨S5000x150, .f32⟩
  | .local _ .vmem, ⟨18, _⟩ => ⟨S150x150, .f32⟩
  | .local _ .vmem, ⟨19, _⟩ => ⟨S5000x150, .f32⟩
  | .local _ .vmem, ⟨20, _⟩ => ⟨S5000x150, .f32⟩
  | .local _ .vmem, ⟨21, _⟩ => ⟨S150x150, .f32⟩
  | .local _ .vmem, ⟨22, _⟩ => ⟨S5000x150, .f32⟩
  | .local _ .vmem, ⟨23, _⟩ => ⟨S5000x150, .f32⟩
  | .local _ .vmem, ⟨24, _⟩ => ⟨S150x150, .f32⟩
  | .local _ .vmem, ⟨25, _⟩ => ⟨S1x150, .f32⟩
  | .local _ .vmem, ⟨26, _⟩ => ⟨S5000x150, .f32⟩
  | .local _ .vmem, ⟨27, _⟩ => ⟨S5000x150, .f32⟩
  | .local _ .vmem, ⟨28, _⟩ => ⟨S2000x150, .f32⟩
  | .local _ .vmem, ⟨29, _⟩ => ⟨S150x150, .f32⟩
  | .local _ .vmem, ⟨30, _⟩ => ⟨S2000x150, .f32⟩
  | .local _ .vmem, ⟨31, _⟩ => ⟨S150x150, .f32⟩
  | .local _ .vmem, ⟨32, _⟩ => ⟨S2000x150, .f32⟩
  | .local _ .vmem, ⟨33, _⟩ => ⟨S150x150, .f32⟩
  | .local _ .vmem, ⟨34, _⟩ => ⟨S1x150, .f32⟩
  | .local _ .vmem, ⟨35, _⟩ => ⟨S2000x150, .f32⟩
  | .local _ .vmem, ⟨36, _⟩ => ⟨S5000x150, .f32⟩
  | .local _ .vmem, ⟨37, _⟩ => ⟨S5000x150, .f32⟩
  | .local _ .vmem, ⟨38, _⟩ => ⟨S150x150, .f32⟩
  | .local _ .vmem, ⟨39, _⟩ => ⟨S5000x150, .f32⟩
  | .local _ .vmem, ⟨40, _⟩ => ⟨S5000x150, .f32⟩
  | .local _ .vmem, ⟨41, _⟩ => ⟨S150x150, .f32⟩
  | .local _ .vmem, ⟨42, _⟩ => ⟨S5000x150, .f32⟩
  | .local _ .vmem, ⟨43, _⟩ => ⟨S5000x150, .f32⟩
  | .local _ .vmem, ⟨44, _⟩ => ⟨S150x150, .f32⟩
  | .local _ .vmem, ⟨45, _⟩ => ⟨S1x150, .f32⟩
  | .local _ .vmem, ⟨46, _⟩ => ⟨S5000x150, .f32⟩
  | .local _ .vmem, ⟨47, _⟩ => ⟨S5000x150, .f32⟩
  | .local _ .vmem, ⟨48, _⟩ => ⟨S5000x150, .f32⟩
  | .local _ .vmem, ⟨49, _⟩ => ⟨S5000x150, .f32⟩
  | .local _ .vmem, ⟨50, _⟩ => ⟨S150x150, .f32⟩
  | .local _ .vmem, ⟨51, _⟩ => ⟨S5000x150, .f32⟩
  | .local _ .vmem, ⟨52, _⟩ => ⟨S5000x150, .f32⟩
  | .local _ .vmem, ⟨53, _⟩ => ⟨S150x150, .f32⟩
  | .local _ .vmem, ⟨54, _⟩ => ⟨S5000x150, .f32⟩
  | .local _ .vmem, ⟨55, _⟩ => ⟨S5000x150, .f32⟩
  | .local _ .vmem, ⟨56, _⟩ => ⟨S150x150, .f32⟩
  | .local _ .vmem, ⟨57, _⟩ => ⟨S1x150, .f32⟩
  | .local _ .vmem, ⟨58, _⟩ => ⟨S5000x150, .f32⟩
  | .local _ .vmem, ⟨59, _⟩ => ⟨S5000x150, .f32⟩
  | .local _ .vmem, ⟨60, _⟩ => ⟨S2000x150, .f32⟩
  | .local _ .vmem, ⟨61, _⟩ => ⟨S150x150, .f32⟩
  | .local _ .vmem, ⟨62, _⟩ => ⟨S2000x150, .f32⟩
  | .local _ .vmem, ⟨63, _⟩ => ⟨S150x150, .f32⟩
  | .local _ .vmem, ⟨64, _⟩ => ⟨S2000x150, .f32⟩
  | .local _ .vmem, ⟨65, _⟩ => ⟨S150x150, .f32⟩
  | .local _ .vmem, ⟨66, _⟩ => ⟨S1x150, .f32⟩
  | .local _ .vmem, ⟨67, _⟩ => ⟨S2000x150, .f32⟩
  | .local _ .vmem, ⟨68, _⟩ => ⟨S5000x150, .f32⟩
  | .local _ .vmem, ⟨69, _⟩ => ⟨S5000x150, .f32⟩
  | .local _ .vmem, ⟨70, _⟩ => ⟨S150x150, .f32⟩
  | .local _ .vmem, ⟨71, _⟩ => ⟨S5000x150, .f32⟩
  | .local _ .vmem, ⟨72, _⟩ => ⟨S5000x150, .f32⟩
  | .local _ .vmem, ⟨73, _⟩ => ⟨S150x150, .f32⟩
  | .local _ .vmem, ⟨74, _⟩ => ⟨S5000x150, .f32⟩
  | .local _ .vmem, ⟨75, _⟩ => ⟨S5000x150, .f32⟩
  | .local _ .vmem, ⟨76, _⟩ => ⟨S150x150, .f32⟩
  | .local _ .vmem, ⟨77, _⟩ => ⟨S1x150, .f32⟩
  | .local _ .vmem, ⟨78, _⟩ => ⟨S5000x150, .f32⟩
  | .local _ .vmem, ⟨79, _⟩ => ⟨S5000x150, .f32⟩
  | .local _ .vmem, ⟨80, _⟩ => ⟨S5000x150, .f32⟩
  | .local _ .vmem, ⟨81, _⟩ => ⟨S5000x150, .f32⟩
  | .local _ .vmem, ⟨82, _⟩ => ⟨S150x150, .f32⟩
  | .local _ .vmem, ⟨83, _⟩ => ⟨S5000x150, .f32⟩
  | .local _ .vmem, ⟨84, _⟩ => ⟨S5000x150, .f32⟩
  | .local _ .vmem, ⟨85, _⟩ => ⟨S150x150, .f32⟩
  | .local _ .vmem, ⟨86, _⟩ => ⟨S5000x150, .f32⟩
  | .local _ .vmem, ⟨87, _⟩ => ⟨S5000x150, .f32⟩
  | .local _ .vmem, ⟨88, _⟩ => ⟨S150x150, .f32⟩
  | .local _ .vmem, ⟨89, _⟩ => ⟨S1x150, .f32⟩
  | .local _ .vmem, ⟨90, _⟩ => ⟨S5000x150, .f32⟩
  | .local _ .vmem, ⟨91, _⟩ => ⟨S5000x150, .f32⟩
  | .local _ .vmem, ⟨92, _⟩ => ⟨S2000x768, .f32⟩
  | .local _ .vmem, ⟨93, _⟩ => ⟨S2000x768, .f32⟩
  | .local _ .vmem, ⟨94, _⟩ => ⟨S768x300, .f32⟩
  | .local _ .vmem, ⟨95, _⟩ => ⟨S1x300, .f32⟩
  | .local _ .vmem, ⟨96, _⟩ => ⟨S2000x300, .f32⟩
  | .local _ .vmem, ⟨97, _⟩ => ⟨S2000x300, .f32⟩
  | .local _ .vmem, ⟨98, _⟩ => ⟨S2000x300, .f32⟩
  | .local _ .vmem, ⟨99, _⟩ => ⟨S2000x300, .f32⟩
  | .local _ .vmem, ⟨100, _⟩ => ⟨S300x200, .f32⟩
  | .local _ .vmem, ⟨101, _⟩ => ⟨S1x200, .f32⟩
  | .local _ .vmem, ⟨102, _⟩ => ⟨S2000x200, .f32⟩
  | .local _ .vmem, ⟨103, _⟩ => ⟨S2000x200, .f32⟩
  | .local _ .vmem, ⟨104, _⟩ => ⟨S2000x200, .f32⟩
  | .local _ .vmem, ⟨105, _⟩ => ⟨S2000x200, .f32⟩
  | .local _ .vmem, ⟨106, _⟩ => ⟨S200x150, .f32⟩
  | .local _ .vmem, ⟨107, _⟩ => ⟨S1x150, .f32⟩
  | .local _ .vmem, ⟨108, _⟩ => ⟨S2000x150, .f32⟩
  | .local _ .vmem, ⟨109, _⟩ => ⟨S2000x150, .f32⟩
  | .local _ .vmem, ⟨110, _⟩ => ⟨S10000x300, .f32⟩
  | .local _ .vmem, ⟨111, _⟩ => ⟨S10000x300, .f32⟩
  | .local _ .vmem, ⟨112, _⟩ => ⟨S300x150, .f32⟩
  | .local _ .vmem, ⟨113, _⟩ => ⟨S1x150, .f32⟩
  | .local _ .vmem, ⟨114, _⟩ => ⟨S10000x150, .f32⟩
  | .local _ .vmem, ⟨115, _⟩ => ⟨S10000x150, .f32⟩
  | .local _ .vmem, ⟨116, _⟩ => ⟨S10000x150, .f32⟩
  | .local _ .vmem, ⟨117, _⟩ => ⟨S10000x150, .f32⟩
  | .local _ .vmem, ⟨118, _⟩ => ⟨S150x50, .f32⟩
  | .local _ .vmem, ⟨119, _⟩ => ⟨S1x50, .f32⟩
  | .local _ .vmem, ⟨120, _⟩ => ⟨S10000x50, .f32⟩
  | .local _ .vmem, ⟨121, _⟩ => ⟨S10000x50, .f32⟩
  | .local _ .vmem, ⟨122, _⟩ => ⟨S10000x50, .f32⟩
  | .local _ .vmem, ⟨123, _⟩ => ⟨S10000x50, .f32⟩
  | .local _ .vmem, ⟨124, _⟩ => ⟨S50x3, .f32⟩
  | .local _ .vmem, ⟨125, _⟩ => ⟨S1x3, .f32⟩
  | .local _ .vmem, ⟨126, _⟩ => ⟨S10000x3, .f32⟩
  | .local _ .vmem, ⟨127, _⟩ => ⟨S10000x3, .f32⟩
  | _, _ => ⟨S50000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | .vmem, ⟨123, _⟩ => true
  | .vmem, ⟨124, _⟩ => true
  | .vmem, ⟨125, _⟩ => true
  | .vmem, ⟨126, _⟩ => true
  | .vmem, ⟨127, _⟩ => true
  | _, _ => false

abbrev semScoped : Fin 0 → Bool
  | ⟨_, h⟩ => absurd h (Nat.not_lt_zero _)

abbrev dmaSemScoped : Fin 128 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | ⟨127, _⟩ => true
  | _ => false

abbrev sig : RefSig :=
  ofTc nBuf bufTy 0 128 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_c : Ref sig .tc := ⟨.hbm, 38, rfl⟩
abbrev main_v10 : Ref sig .tc := ⟨.hbm, 39, rfl⟩
abbrev main_v11 : Ref sig .tc := ⟨.hbm, 40, rfl⟩
abbrev main_c_0 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_cst : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_1 : Ref sig .tc := ⟨.hbm, 51, rfl⟩
abbrev main_v20 : Ref sig .tc := ⟨.hbm, 52, rfl⟩
abbrev main_cst_2 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_3 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_c_4 : Ref sig .tc := ⟨.hbm, 67, rfl⟩
abbrev main_v33 : Ref sig .tc := ⟨.hbm, 68, rfl⟩
abbrev main_v34 : Ref sig .tc := ⟨.hbm, 69, rfl⟩
abbrev main_c_5 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_6 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_cst_7 : Ref sig .tc := ⟨.hbm, 80, rfl⟩
abbrev main_v43 : Ref sig .tc := ⟨.hbm, 81, rfl⟩
abbrev main_cst_8 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_cst_9 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_c_10 : Ref sig .tc := ⟨.hbm, 112, rfl⟩
abbrev main_v72 : Ref sig .tc := ⟨.hbm, 113, rfl⟩
abbrev main_v73 : Ref sig .tc := ⟨.hbm, 114, rfl⟩
abbrev main_c_11 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_cst_12 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_cst_13 : Ref sig .tc := ⟨.hbm, 125, rfl⟩
abbrev main_v82 : Ref sig .tc := ⟨.hbm, 126, rfl⟩
abbrev main_cst_14 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_cst_15 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_c_16 : Ref sig .tc := ⟨.hbm, 141, rfl⟩
abbrev main_v95 : Ref sig .tc := ⟨.hbm, 142, rfl⟩
abbrev main_v96 : Ref sig .tc := ⟨.hbm, 143, rfl⟩
abbrev main_c_17 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_cst_18 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_cst_19 : Ref sig .tc := ⟨.hbm, 154, rfl⟩
abbrev main_v105 : Ref sig .tc := ⟨.hbm, 155, rfl⟩
abbrev main_cst_20 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_cst_21 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_c_22 : Ref sig .tc := ⟨.hbm, 186, rfl⟩
abbrev main_v134 : Ref sig .tc := ⟨.hbm, 187, rfl⟩
abbrev main_v135 : Ref sig .tc := ⟨.hbm, 188, rfl⟩
abbrev main_c_23 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_cst_24 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_cst_25 : Ref sig .tc := ⟨.hbm, 199, rfl⟩
abbrev main_v144 : Ref sig .tc := ⟨.hbm, 200, rfl⟩
abbrev main_cst_26 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_cst_27 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_c_28 : Ref sig .tc := ⟨.hbm, 215, rfl⟩
abbrev main_v157 : Ref sig .tc := ⟨.hbm, 216, rfl⟩
abbrev main_v158 : Ref sig .tc := ⟨.hbm, 217, rfl⟩
abbrev main_c_29 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_cst_30 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_cst_31 : Ref sig .tc := ⟨.hbm, 228, rfl⟩
abbrev main_v167 : Ref sig .tc := ⟨.hbm, 229, rfl⟩
abbrev main_cst_32 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_cst_33 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_c_34 : Ref sig .tc := ⟨.hbm, 260, rfl⟩
abbrev main_v196 : Ref sig .tc := ⟨.hbm, 261, rfl⟩
abbrev main_v197 : Ref sig .tc := ⟨.hbm, 262, rfl⟩
abbrev main_c_35 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_cst_36 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_cst_37 : Ref sig .tc := ⟨.hbm, 273, rfl⟩
abbrev main_v206 : Ref sig .tc := ⟨.hbm, 274, rfl⟩
abbrev main_cst_38 : Ref sig .tc := ⟨.hbm, 275, rfl⟩
abbrev main_v207 : Ref sig .tc := ⟨.hbm, 276, rfl⟩
abbrev main_v208 : Ref sig .tc := ⟨.hbm, 277, rfl⟩
abbrev main_v209 : Ref sig .tc := ⟨.hbm, 278, rfl⟩
abbrev main_cst_39 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_v213 : Ref sig .tc := ⟨.hbm, 283, rfl⟩
abbrev main_v214 : Ref sig .tc := ⟨.hbm, 284, rfl⟩
abbrev main_v215 : Ref sig .tc := ⟨.hbm, 285, rfl⟩
abbrev main_v216 : Ref sig .tc := ⟨.hbm, 286, rfl⟩
abbrev main_v217 : Ref sig .tc := ⟨.hbm, 287, rfl⟩
abbrev main_v218 : Ref sig .tc := ⟨.hbm, 288, rfl⟩
abbrev main_c_40 : Ref sig .tc := ⟨.hbm, 289, rfl⟩
abbrev main_v219 : Ref sig .tc := ⟨.hbm, 290, rfl⟩
abbrev main_v220 : Ref sig .tc := ⟨.hbm, 291, rfl⟩
abbrev main_c_41 : Ref sig .tc := ⟨.hbm, 292, rfl⟩
abbrev main_v221 : Ref sig .tc := ⟨.hbm, 293, rfl⟩
abbrev main_v222 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_cst_42 : Ref sig .tc := ⟨.hbm, 298, rfl⟩
abbrev main_v226 : Ref sig .tc := ⟨.hbm, 299, rfl⟩
abbrev main_v227 : Ref sig .tc := ⟨.hbm, 300, rfl⟩
abbrev main_v228 : Ref sig .tc := ⟨.hbm, 301, rfl⟩
abbrev main_cst_43 : Ref sig .tc := ⟨.hbm, 302, rfl⟩
abbrev main_v229 : Ref sig .tc := ⟨.hbm, 303, rfl⟩
abbrev main_cst_44 : Ref sig .tc := ⟨.hbm, 304, rfl⟩
abbrev main_v230 : Ref sig .tc := ⟨.hbm, 305, rfl⟩
abbrev main_v231 : Ref sig .tc := ⟨.hbm, 306, rfl⟩
abbrev main_v232 : Ref sig .tc := ⟨.hbm, 307, rfl⟩
abbrev main_cst_45 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩
abbrev main_v237 : Ref sig .tc := ⟨.hbm, 313, rfl⟩
abbrev main_v238 : Ref sig .tc := ⟨.hbm, 314, rfl⟩
abbrev main_v239 : Ref sig .tc := ⟨.hbm, 315, rfl⟩
abbrev main_v240 : Ref sig .tc := ⟨.hbm, 316, rfl⟩
abbrev main_v241 : Ref sig .tc := ⟨.hbm, 317, rfl⟩
abbrev main_v242 : Ref sig .tc := ⟨.hbm, 318, rfl⟩
abbrev main_v243 : Ref sig .tc := ⟨.hbm, 319, rfl⟩
abbrev main_v244 : Ref sig .tc := ⟨.hbm, 320, rfl⟩
abbrev main_v245 : Ref sig .tc := ⟨.hbm, 321, rfl⟩
abbrev main_v246 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩
abbrev main_v250 : Ref sig .tc := ⟨.hbm, 326, rfl⟩
abbrev main_v251 : Ref sig .tc := ⟨.hbm, 327, rfl⟩
abbrev main_v252 : Ref sig .tc := ⟨.hbm, 328, rfl⟩
abbrev main_v253 : Ref sig .tc := ⟨.hbm, 329, rfl⟩
abbrev main_v254 : Ref sig .tc := ⟨.hbm, 330, rfl⟩
abbrev main_v255 : Ref sig .tc := ⟨.hbm, 331, rfl⟩
abbrev main_v256 : Ref sig .tc := ⟨.hbm, 332, rfl⟩
abbrev main_v257 : Ref sig .tc := ⟨.hbm, 333, rfl⟩
abbrev main_c_46 : Ref sig .tc := ⟨.hbm, 334, rfl⟩
abbrev main_v258 : Ref sig .tc := ⟨.hbm, 335, rfl⟩
abbrev main_v259 : Ref sig .tc := ⟨.hbm, 336, rfl⟩
abbrev main_c_47 : Ref sig .tc := ⟨.hbm, 337, rfl⟩
abbrev main_v260 : Ref sig .tc := ⟨.hbm, 338, rfl⟩
abbrev main_v261 : Ref sig .tc := ⟨.hbm, 339, rfl⟩
abbrev main_v262 : Ref sig .tc := ⟨.hbm, 340, rfl⟩
abbrev main_v263 : Ref sig .tc := ⟨.hbm, 341, rfl⟩
abbrev main_v264 : Ref sig .tc := ⟨.hbm, 342, rfl⟩
abbrev main_cst_48 : Ref sig .tc := ⟨.hbm, 343, rfl⟩
abbrev main_v265 : Ref sig .tc := ⟨.hbm, 344, rfl⟩
abbrev main_v266 : Ref sig .tc := ⟨.hbm, 345, rfl⟩
abbrev main_v267 : Ref sig .tc := ⟨.hbm, 346, rfl⟩
abbrev main_cst_49 : Ref sig .tc := ⟨.hbm, 347, rfl⟩
abbrev main_v268 : Ref sig .tc := ⟨.hbm, 348, rfl⟩
abbrev main_cst_50 : Ref sig .tc := ⟨.hbm, 349, rfl⟩
abbrev main_v269 : Ref sig .tc := ⟨.hbm, 350, rfl⟩
abbrev main_v270 : Ref sig .tc := ⟨.hbm, 351, rfl⟩
abbrev main_v271 : Ref sig .tc := ⟨.hbm, 352, rfl⟩
abbrev main_cst_51 : Ref sig .tc := ⟨.hbm, 353, rfl⟩
abbrev main_v272 : Ref sig .tc := ⟨.hbm, 354, rfl⟩
abbrev main_v273 : Ref sig .tc := ⟨.hbm, 355, rfl⟩
abbrev main_v274 : Ref sig .tc := ⟨.hbm, 356, rfl⟩
abbrev main_v275 : Ref sig .tc := ⟨.hbm, 357, rfl⟩
abbrev main_v276 : Ref sig .tc := ⟨.hbm, 358, rfl⟩
abbrev main_v277 : Ref sig .tc := ⟨.hbm, 359, rfl⟩
abbrev main_v278 : Ref sig .tc := ⟨.hbm, 360, rfl⟩
abbrev main_v279 : Ref sig .tc := ⟨.hbm, 361, rfl⟩
abbrev main_v280 : Ref sig .tc := ⟨.hbm, 362, rfl⟩
abbrev main_c_52 : Ref sig .tc := ⟨.hbm, 363, rfl⟩
abbrev main_v281 : Ref sig .tc := ⟨.hbm, 364, rfl⟩
abbrev main_v282 : Ref sig .tc := ⟨.hbm, 365, rfl⟩
abbrev main_c_53 : Ref sig .tc := ⟨.hbm, 366, rfl⟩
abbrev main_v283 : Ref sig .tc := ⟨.hbm, 367, rfl⟩
abbrev main_v284 : Ref sig .tc := ⟨.hbm, 368, rfl⟩
abbrev main_v285 : Ref sig .tc := ⟨.hbm, 369, rfl⟩
abbrev main_v286 : Ref sig .tc := ⟨.hbm, 370, rfl⟩
abbrev main_v287 : Ref sig .tc := ⟨.hbm, 371, rfl⟩
abbrev main_cst_54 : Ref sig .tc := ⟨.hbm, 372, rfl⟩
abbrev main_v288 : Ref sig .tc := ⟨.hbm, 373, rfl⟩
abbrev main_v289 : Ref sig .tc := ⟨.hbm, 374, rfl⟩
abbrev main_v290 : Ref sig .tc := ⟨.hbm, 375, rfl⟩
abbrev main_cst_55 : Ref sig .tc := ⟨.hbm, 376, rfl⟩
abbrev main_v291 : Ref sig .tc := ⟨.hbm, 377, rfl⟩
abbrev main_cst_56 : Ref sig .tc := ⟨.hbm, 378, rfl⟩
abbrev main_v292 : Ref sig .tc := ⟨.hbm, 379, rfl⟩
abbrev main_v293 : Ref sig .tc := ⟨.hbm, 380, rfl⟩
abbrev main_v294 : Ref sig .tc := ⟨.hbm, 381, rfl⟩
abbrev main_cst_57 : Ref sig .tc := ⟨.hbm, 382, rfl⟩
abbrev main_v295 : Ref sig .tc := ⟨.hbm, 383, rfl⟩
abbrev main_v296 : Ref sig .tc := ⟨.hbm, 384, rfl⟩
abbrev main_v297 : Ref sig .tc := ⟨.hbm, 385, rfl⟩
abbrev main_v298 : Ref sig .tc := ⟨.hbm, 386, rfl⟩
abbrev main_v299 : Ref sig .tc := ⟨.hbm, 387, rfl⟩
abbrev main_v300 : Ref sig .tc := ⟨.hbm, 388, rfl⟩
abbrev main_v301 : Ref sig .tc := ⟨.hbm, 389, rfl⟩
abbrev main_v302 : Ref sig .tc := ⟨.hbm, 390, rfl⟩
abbrev main_v303 : Ref sig .tc := ⟨.hbm, 391, rfl⟩
abbrev main_v304 : Ref sig .tc := ⟨.hbm, 392, rfl⟩
abbrev main_v305 : Ref sig .tc := ⟨.hbm, 393, rfl⟩
abbrev main_v306 : Ref sig .tc := ⟨.hbm, 394, rfl⟩
abbrev main_v307 : Ref sig .tc := ⟨.hbm, 395, rfl⟩
abbrev main_v308 : Ref sig .tc := ⟨.hbm, 396, rfl⟩
abbrev main_v309 : Ref sig .tc := ⟨.hbm, 397, rfl⟩
abbrev main_v310 : Ref sig .tc := ⟨.hbm, 398, rfl⟩
abbrev main_v311 : Ref sig .tc := ⟨.hbm, 399, rfl⟩
abbrev main_v312 : Ref sig .tc := ⟨.hbm, 400, rfl⟩
abbrev main_v313 : Ref sig .tc := ⟨.hbm, 401, rfl⟩
abbrev main_v314 : Ref sig .tc := ⟨.hbm, 402, rfl⟩
abbrev main_v315 : Ref sig .tc := ⟨.hbm, 403, rfl⟩
abbrev main_v316 : Ref sig .tc := ⟨.hbm, 404, rfl⟩
abbrev main_v317 : Ref sig .tc := ⟨.hbm, 405, rfl⟩
abbrev main_v318 : Ref sig .tc := ⟨.hbm, 406, rfl⟩
abbrev main_v319 : Ref sig .tc := ⟨.hbm, 407, rfl⟩
abbrev main_c_58 : Ref sig .tc := ⟨.hbm, 408, rfl⟩
abbrev main_v320 : Ref sig .tc := ⟨.hbm, 409, rfl⟩
abbrev main_v321 : Ref sig .tc := ⟨.hbm, 410, rfl⟩
abbrev main_c_59 : Ref sig .tc := ⟨.hbm, 411, rfl⟩
abbrev main_v322 : Ref sig .tc := ⟨.hbm, 412, rfl⟩
abbrev main_v323 : Ref sig .tc := ⟨.hbm, 413, rfl⟩
abbrev main_v324 : Ref sig .tc := ⟨.hbm, 414, rfl⟩
abbrev main_v325 : Ref sig .tc := ⟨.hbm, 415, rfl⟩
abbrev main_v326 : Ref sig .tc := ⟨.hbm, 416, rfl⟩
abbrev main_cst_60 : Ref sig .tc := ⟨.hbm, 417, rfl⟩
abbrev main_v327 : Ref sig .tc := ⟨.hbm, 418, rfl⟩
abbrev main_v328 : Ref sig .tc := ⟨.hbm, 419, rfl⟩
abbrev main_v329 : Ref sig .tc := ⟨.hbm, 420, rfl⟩
abbrev main_cst_61 : Ref sig .tc := ⟨.hbm, 421, rfl⟩
abbrev main_v330 : Ref sig .tc := ⟨.hbm, 422, rfl⟩
abbrev main_cst_62 : Ref sig .tc := ⟨.hbm, 423, rfl⟩
abbrev main_v331 : Ref sig .tc := ⟨.hbm, 424, rfl⟩
abbrev main_v332 : Ref sig .tc := ⟨.hbm, 425, rfl⟩
abbrev main_v333 : Ref sig .tc := ⟨.hbm, 426, rfl⟩
abbrev main_cst_63 : Ref sig .tc := ⟨.hbm, 427, rfl⟩
abbrev main_v334 : Ref sig .tc := ⟨.hbm, 428, rfl⟩
abbrev main_v335 : Ref sig .tc := ⟨.hbm, 429, rfl⟩
abbrev main_v336 : Ref sig .tc := ⟨.hbm, 430, rfl⟩
abbrev main_v337 : Ref sig .tc := ⟨.hbm, 431, rfl⟩
abbrev main_v338 : Ref sig .tc := ⟨.hbm, 432, rfl⟩
abbrev main_v339 : Ref sig .tc := ⟨.hbm, 433, rfl⟩
abbrev main_v340 : Ref sig .tc := ⟨.hbm, 434, rfl⟩
abbrev main_v341 : Ref sig .tc := ⟨.hbm, 435, rfl⟩
abbrev main_v342 : Ref sig .tc := ⟨.hbm, 436, rfl⟩
abbrev main_c_64 : Ref sig .tc := ⟨.hbm, 437, rfl⟩
abbrev main_v343 : Ref sig .tc := ⟨.hbm, 438, rfl⟩
abbrev main_v344 : Ref sig .tc := ⟨.hbm, 439, rfl⟩
abbrev main_c_65 : Ref sig .tc := ⟨.hbm, 440, rfl⟩
abbrev main_v345 : Ref sig .tc := ⟨.hbm, 441, rfl⟩
abbrev main_v346 : Ref sig .tc := ⟨.hbm, 442, rfl⟩
abbrev main_v347 : Ref sig .tc := ⟨.hbm, 443, rfl⟩
abbrev main_v348 : Ref sig .tc := ⟨.hbm, 444, rfl⟩
abbrev main_v349 : Ref sig .tc := ⟨.hbm, 445, rfl⟩
abbrev main_cst_66 : Ref sig .tc := ⟨.hbm, 446, rfl⟩
abbrev main_v350 : Ref sig .tc := ⟨.hbm, 447, rfl⟩
abbrev main_v351 : Ref sig .tc := ⟨.hbm, 448, rfl⟩
abbrev main_v352 : Ref sig .tc := ⟨.hbm, 449, rfl⟩
abbrev main_cst_67 : Ref sig .tc := ⟨.hbm, 450, rfl⟩
abbrev main_v353 : Ref sig .tc := ⟨.hbm, 451, rfl⟩
abbrev main_cst_68 : Ref sig .tc := ⟨.hbm, 452, rfl⟩
abbrev main_v354 : Ref sig .tc := ⟨.hbm, 453, rfl⟩
abbrev main_v355 : Ref sig .tc := ⟨.hbm, 454, rfl⟩
abbrev main_v356 : Ref sig .tc := ⟨.hbm, 455, rfl⟩
abbrev main_cst_69 : Ref sig .tc := ⟨.hbm, 456, rfl⟩
abbrev main_v357 : Ref sig .tc := ⟨.hbm, 457, rfl⟩
abbrev main_v358 : Ref sig .tc := ⟨.hbm, 458, rfl⟩
abbrev main_v359 : Ref sig .tc := ⟨.hbm, 459, rfl⟩
abbrev main_v360 : Ref sig .tc := ⟨.hbm, 460, rfl⟩
abbrev main_v361 : Ref sig .tc := ⟨.hbm, 461, rfl⟩
abbrev main_v362 : Ref sig .tc := ⟨.hbm, 462, rfl⟩
abbrev main_v363 : Ref sig .tc := ⟨.hbm, 463, rfl⟩
abbrev main_v364 : Ref sig .tc := ⟨.hbm, 464, rfl⟩
abbrev main_v365 : Ref sig .tc := ⟨.hbm, 465, rfl⟩
abbrev main_v366 : Ref sig .tc := ⟨.hbm, 466, rfl⟩
abbrev main_v367 : Ref sig .tc := ⟨.hbm, 467, rfl⟩
abbrev main_v368 : Ref sig .tc := ⟨.hbm, 468, rfl⟩
abbrev main_v369 : Ref sig .tc := ⟨.hbm, 469, rfl⟩
abbrev main_v370 : Ref sig .tc := ⟨.hbm, 470, rfl⟩
abbrev main_v371 : Ref sig .tc := ⟨.hbm, 471, rfl⟩
abbrev main_v372 : Ref sig .tc := ⟨.hbm, 472, rfl⟩
abbrev main_v373 : Ref sig .tc := ⟨.hbm, 473, rfl⟩
abbrev main_v374 : Ref sig .tc := ⟨.hbm, 474, rfl⟩
abbrev main_v375 : Ref sig .tc := ⟨.hbm, 475, rfl⟩
abbrev main_v376 : Ref sig .tc := ⟨.hbm, 476, rfl⟩
abbrev main_v377 : Ref sig .tc := ⟨.hbm, 477, rfl⟩
abbrev main_v378 : Ref sig .tc := ⟨.hbm, 478, rfl⟩
abbrev main_v379 : Ref sig .tc := ⟨.hbm, 479, rfl⟩
abbrev main_v380 : Ref sig .tc := ⟨.hbm, 480, rfl⟩
abbrev main_v381 : Ref sig .tc := ⟨.hbm, 481, rfl⟩
abbrev main_c_70 : Ref sig .tc := ⟨.hbm, 482, rfl⟩
abbrev main_v382 : Ref sig .tc := ⟨.hbm, 483, rfl⟩
abbrev main_v383 : Ref sig .tc := ⟨.hbm, 484, rfl⟩
abbrev main_c_71 : Ref sig .tc := ⟨.hbm, 485, rfl⟩
abbrev main_v384 : Ref sig .tc := ⟨.hbm, 486, rfl⟩
abbrev main_v385 : Ref sig .tc := ⟨.hbm, 487, rfl⟩
abbrev main_v386 : Ref sig .tc := ⟨.hbm, 488, rfl⟩
abbrev main_v387 : Ref sig .tc := ⟨.hbm, 489, rfl⟩
abbrev main_v388 : Ref sig .tc := ⟨.hbm, 490, rfl⟩
abbrev main_cst_72 : Ref sig .tc := ⟨.hbm, 491, rfl⟩
abbrev main_v389 : Ref sig .tc := ⟨.hbm, 492, rfl⟩
abbrev main_v390 : Ref sig .tc := ⟨.hbm, 493, rfl⟩
abbrev main_v391 : Ref sig .tc := ⟨.hbm, 494, rfl⟩
abbrev main_cst_73 : Ref sig .tc := ⟨.hbm, 495, rfl⟩
abbrev main_v392 : Ref sig .tc := ⟨.hbm, 496, rfl⟩
abbrev main_cst_74 : Ref sig .tc := ⟨.hbm, 497, rfl⟩
abbrev main_v393 : Ref sig .tc := ⟨.hbm, 498, rfl⟩
abbrev main_v394 : Ref sig .tc := ⟨.hbm, 499, rfl⟩
abbrev main_v395 : Ref sig .tc := ⟨.hbm, 500, rfl⟩
abbrev main_cst_75 : Ref sig .tc := ⟨.hbm, 501, rfl⟩
abbrev main_v396 : Ref sig .tc := ⟨.hbm, 502, rfl⟩
abbrev main_v397 : Ref sig .tc := ⟨.hbm, 503, rfl⟩
abbrev main_v398 : Ref sig .tc := ⟨.hbm, 504, rfl⟩
abbrev main_v399 : Ref sig .tc := ⟨.hbm, 505, rfl⟩
abbrev main_v400 : Ref sig .tc := ⟨.hbm, 506, rfl⟩
abbrev main_v401 : Ref sig .tc := ⟨.hbm, 507, rfl⟩
abbrev main_v402 : Ref sig .tc := ⟨.hbm, 508, rfl⟩
abbrev main_v403 : Ref sig .tc := ⟨.hbm, 509, rfl⟩
abbrev main_v404 : Ref sig .tc := ⟨.hbm, 510, rfl⟩
abbrev main_c_76 : Ref sig .tc := ⟨.hbm, 511, rfl⟩
abbrev main_v405 : Ref sig .tc := ⟨.hbm, 512, rfl⟩
abbrev main_v406 : Ref sig .tc := ⟨.hbm, 513, rfl⟩
abbrev main_c_77 : Ref sig .tc := ⟨.hbm, 514, rfl⟩
abbrev main_v407 : Ref sig .tc := ⟨.hbm, 515, rfl⟩
abbrev main_v408 : Ref sig .tc := ⟨.hbm, 516, rfl⟩
abbrev main_v409 : Ref sig .tc := ⟨.hbm, 517, rfl⟩
abbrev main_v410 : Ref sig .tc := ⟨.hbm, 518, rfl⟩
abbrev main_v411 : Ref sig .tc := ⟨.hbm, 519, rfl⟩
abbrev main_cst_78 : Ref sig .tc := ⟨.hbm, 520, rfl⟩
abbrev main_v412 : Ref sig .tc := ⟨.hbm, 521, rfl⟩
abbrev main_v413 : Ref sig .tc := ⟨.hbm, 522, rfl⟩
abbrev main_v414 : Ref sig .tc := ⟨.hbm, 523, rfl⟩
abbrev main_cst_79 : Ref sig .tc := ⟨.hbm, 524, rfl⟩
abbrev main_v415 : Ref sig .tc := ⟨.hbm, 525, rfl⟩
abbrev main_cst_80 : Ref sig .tc := ⟨.hbm, 526, rfl⟩
abbrev main_v416 : Ref sig .tc := ⟨.hbm, 527, rfl⟩
abbrev main_v417 : Ref sig .tc := ⟨.hbm, 528, rfl⟩
abbrev main_v418 : Ref sig .tc := ⟨.hbm, 529, rfl⟩
abbrev main_cst_81 : Ref sig .tc := ⟨.hbm, 530, rfl⟩
abbrev main_v419 : Ref sig .tc := ⟨.hbm, 531, rfl⟩
abbrev main_v420 : Ref sig .tc := ⟨.hbm, 532, rfl⟩
abbrev main_v421 : Ref sig .tc := ⟨.hbm, 533, rfl⟩
abbrev main_v422 : Ref sig .tc := ⟨.hbm, 534, rfl⟩
abbrev main_v423 : Ref sig .tc := ⟨.hbm, 535, rfl⟩
abbrev main_v424 : Ref sig .tc := ⟨.hbm, 536, rfl⟩
abbrev main_v425 : Ref sig .tc := ⟨.hbm, 537, rfl⟩
abbrev main_v426 : Ref sig .tc := ⟨.hbm, 538, rfl⟩
abbrev main_v427 : Ref sig .tc := ⟨.hbm, 539, rfl⟩
abbrev main_v428 : Ref sig .tc := ⟨.hbm, 540, rfl⟩
abbrev main_v429 : Ref sig .tc := ⟨.hbm, 541, rfl⟩
abbrev main_v430 : Ref sig .tc := ⟨.hbm, 542, rfl⟩
abbrev main_v431 : Ref sig .tc := ⟨.hbm, 543, rfl⟩
abbrev main_v432 : Ref sig .tc := ⟨.hbm, 544, rfl⟩
abbrev main_v433 : Ref sig .tc := ⟨.hbm, 545, rfl⟩
abbrev main_v434 : Ref sig .tc := ⟨.hbm, 546, rfl⟩
abbrev main_v435 : Ref sig .tc := ⟨.hbm, 547, rfl⟩
abbrev main_v436 : Ref sig .tc := ⟨.hbm, 548, rfl⟩
abbrev main_v437 : Ref sig .tc := ⟨.hbm, 549, rfl⟩
abbrev main_v438 : Ref sig .tc := ⟨.hbm, 550, rfl⟩
abbrev main_v439 : Ref sig .tc := ⟨.hbm, 551, rfl⟩
abbrev main_v440 : Ref sig .tc := ⟨.hbm, 552, rfl⟩
abbrev main_v441 : Ref sig .tc := ⟨.hbm, 553, rfl⟩
abbrev main_v442 : Ref sig .tc := ⟨.hbm, 554, rfl⟩
abbrev main_v443 : Ref sig .tc := ⟨.hbm, 555, rfl⟩
abbrev main_v444 : Ref sig .tc := ⟨.hbm, 556, rfl⟩
abbrev main_v445 : Ref sig .tc := ⟨.hbm, 557, rfl⟩
abbrev main_v446 : Ref sig .tc := ⟨.hbm, 558, rfl⟩
abbrev main_v447 : Ref sig .tc := ⟨.hbm, 559, rfl⟩
abbrev main_c_82 : Ref sig .tc := ⟨.hbm, 560, rfl⟩
abbrev main_v448 : Ref sig .tc := ⟨.hbm, 561, rfl⟩
abbrev main_v449 : Ref sig .tc := ⟨.hbm, 562, rfl⟩
abbrev main_c_83 : Ref sig .tc := ⟨.hbm, 563, rfl⟩
abbrev main_v450 : Ref sig .tc := ⟨.hbm, 564, rfl⟩
abbrev main_v451 : Ref sig .tc := ⟨.hbm, 565, rfl⟩
abbrev main_v452 : Ref sig .tc := ⟨.hbm, 566, rfl⟩
abbrev main_v453 : Ref sig .tc := ⟨.hbm, 567, rfl⟩
abbrev main_v454 : Ref sig .tc := ⟨.hbm, 568, rfl⟩
abbrev main_v455 : Ref sig .tc := ⟨.hbm, 569, rfl⟩
abbrev main_v456 : Ref sig .tc := ⟨.hbm, 570, rfl⟩
abbrev main_c_84 : Ref sig .tc := ⟨.hbm, 571, rfl⟩
abbrev main_v457 : Ref sig .tc := ⟨.hbm, 572, rfl⟩
abbrev main_v458 : Ref sig .tc := ⟨.hbm, 573, rfl⟩
abbrev main_c_85 : Ref sig .tc := ⟨.hbm, 574, rfl⟩
abbrev main_v459 : Ref sig .tc := ⟨.hbm, 575, rfl⟩
abbrev main_v460 : Ref sig .tc := ⟨.hbm, 576, rfl⟩
abbrev main_v461 : Ref sig .tc := ⟨.hbm, 577, rfl⟩
abbrev main_v462 : Ref sig .tc := ⟨.hbm, 578, rfl⟩
abbrev main_v463 : Ref sig .tc := ⟨.hbm, 579, rfl⟩
abbrev main_v464 : Ref sig .tc := ⟨.hbm, 580, rfl⟩
abbrev main_v465 : Ref sig .tc := ⟨.hbm, 581, rfl⟩
abbrev main_v466 : Ref sig .tc := ⟨.hbm, 582, rfl⟩
abbrev main_v467 : Ref sig .tc := ⟨.hbm, 583, rfl⟩
abbrev main_v468 : Ref sig .tc := ⟨.hbm, 584, rfl⟩
abbrev main_v469 : Ref sig .tc := ⟨.hbm, 585, rfl⟩
abbrev main_v470 : Ref sig .tc := ⟨.hbm, 586, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc3_stg5_0 : Ref sig .tc := ⟨.vmem, 24, rfl⟩
abbrev cc3_stg6_0 : Ref sig .tc := ⟨.vmem, 25, rfl⟩
abbrev cc3_stg7_0 : Ref sig .tc := ⟨.vmem, 26, rfl⟩
abbrev cc3_stg7_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg6_0 : Ref sig .tc := ⟨.vmem, 34, rfl⟩
abbrev cc4_stg7_0 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg2_1 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg4_1 : Ref sig .tc := ⟨.vmem, 43, rfl⟩
abbrev cc5_stg5_0 : Ref sig .tc := ⟨.vmem, 44, rfl⟩
abbrev cc5_stg6_0 : Ref sig .tc := ⟨.vmem, 45, rfl⟩
abbrev cc5_stg7_0 : Ref sig .tc := ⟨.vmem, 46, rfl⟩
abbrev cc5_stg7_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg2_1 : Ref sig .tc := ⟨.vmem, 52, rfl⟩
abbrev cc6_stg3_0 : Ref sig .tc := ⟨.vmem, 53, rfl⟩
abbrev cc6_stg4_0 : Ref sig .tc := ⟨.vmem, 54, rfl⟩
abbrev cc6_stg4_1 : Ref sig .tc := ⟨.vmem, 55, rfl⟩
abbrev cc6_stg5_0 : Ref sig .tc := ⟨.vmem, 56, rfl⟩
abbrev cc6_stg6_0 : Ref sig .tc := ⟨.vmem, 57, rfl⟩
abbrev cc6_stg7_0 : Ref sig .tc := ⟨.vmem, 58, rfl⟩
abbrev cc6_stg7_1 : Ref sig .tc := ⟨.vmem, 59, rfl⟩
abbrev cc7_stg0_0 : Ref sig .tc := ⟨.vmem, 60, rfl⟩
abbrev cc7_stg1_0 : Ref sig .tc := ⟨.vmem, 61, rfl⟩
abbrev cc7_stg2_0 : Ref sig .tc := ⟨.vmem, 62, rfl⟩
abbrev cc7_stg3_0 : Ref sig .tc := ⟨.vmem, 63, rfl⟩
abbrev cc7_stg4_0 : Ref sig .tc := ⟨.vmem, 64, rfl⟩
abbrev cc7_stg5_0 : Ref sig .tc := ⟨.vmem, 65, rfl⟩
abbrev cc7_stg6_0 : Ref sig .tc := ⟨.vmem, 66, rfl⟩
abbrev cc7_stg7_0 : Ref sig .tc := ⟨.vmem, 67, rfl⟩
abbrev cc8_stg0_0 : Ref sig .tc := ⟨.vmem, 68, rfl⟩
abbrev cc8_stg0_1 : Ref sig .tc := ⟨.vmem, 69, rfl⟩
abbrev cc8_stg1_0 : Ref sig .tc := ⟨.vmem, 70, rfl⟩
abbrev cc8_stg2_0 : Ref sig .tc := ⟨.vmem, 71, rfl⟩
abbrev cc8_stg2_1 : Ref sig .tc := ⟨.vmem, 72, rfl⟩
abbrev cc8_stg3_0 : Ref sig .tc := ⟨.vmem, 73, rfl⟩
abbrev cc8_stg4_0 : Ref sig .tc := ⟨.vmem, 74, rfl⟩
abbrev cc8_stg4_1 : Ref sig .tc := ⟨.vmem, 75, rfl⟩
abbrev cc8_stg5_0 : Ref sig .tc := ⟨.vmem, 76, rfl⟩
abbrev cc8_stg6_0 : Ref sig .tc := ⟨.vmem, 77, rfl⟩
abbrev cc8_stg7_0 : Ref sig .tc := ⟨.vmem, 78, rfl⟩
abbrev cc8_stg7_1 : Ref sig .tc := ⟨.vmem, 79, rfl⟩
abbrev cc9_stg0_0 : Ref sig .tc := ⟨.vmem, 80, rfl⟩
abbrev cc9_stg0_1 : Ref sig .tc := ⟨.vmem, 81, rfl⟩
abbrev cc9_stg1_0 : Ref sig .tc := ⟨.vmem, 82, rfl⟩
abbrev cc9_stg2_0 : Ref sig .tc := ⟨.vmem, 83, rfl⟩
abbrev cc9_stg2_1 : Ref sig .tc := ⟨.vmem, 84, rfl⟩
abbrev cc9_stg3_0 : Ref sig .tc := ⟨.vmem, 85, rfl⟩
abbrev cc9_stg4_0 : Ref sig .tc := ⟨.vmem, 86, rfl⟩
abbrev cc9_stg4_1 : Ref sig .tc := ⟨.vmem, 87, rfl⟩
abbrev cc9_stg5_0 : Ref sig .tc := ⟨.vmem, 88, rfl⟩
abbrev cc9_stg6_0 : Ref sig .tc := ⟨.vmem, 89, rfl⟩
abbrev cc9_stg7_0 : Ref sig .tc := ⟨.vmem, 90, rfl⟩
abbrev cc9_stg7_1 : Ref sig .tc := ⟨.vmem, 91, rfl⟩
abbrev cc10_stg0_0 : Ref sig .tc := ⟨.vmem, 92, rfl⟩
abbrev cc10_stg0_1 : Ref sig .tc := ⟨.vmem, 93, rfl⟩
abbrev cc10_stg1_0 : Ref sig .tc := ⟨.vmem, 94, rfl⟩
abbrev cc10_stg2_0 : Ref sig .tc := ⟨.vmem, 95, rfl⟩
abbrev cc10_stg3_0 : Ref sig .tc := ⟨.vmem, 96, rfl⟩
abbrev cc10_stg3_1 : Ref sig .tc := ⟨.vmem, 97, rfl⟩
abbrev cc11_stg0_0 : Ref sig .tc := ⟨.vmem, 98, rfl⟩
abbrev cc11_stg0_1 : Ref sig .tc := ⟨.vmem, 99, rfl⟩
abbrev cc11_stg1_0 : Ref sig .tc := ⟨.vmem, 100, rfl⟩
abbrev cc11_stg2_0 : Ref sig .tc := ⟨.vmem, 101, rfl⟩
abbrev cc11_stg3_0 : Ref sig .tc := ⟨.vmem, 102, rfl⟩
abbrev cc11_stg3_1 : Ref sig .tc := ⟨.vmem, 103, rfl⟩
abbrev cc12_stg0_0 : Ref sig .tc := ⟨.vmem, 104, rfl⟩
abbrev cc12_stg0_1 : Ref sig .tc := ⟨.vmem, 105, rfl⟩
abbrev cc12_stg1_0 : Ref sig .tc := ⟨.vmem, 106, rfl⟩
abbrev cc12_stg2_0 : Ref sig .tc := ⟨.vmem, 107, rfl⟩
abbrev cc12_stg3_0 : Ref sig .tc := ⟨.vmem, 108, rfl⟩
abbrev cc12_stg3_1 : Ref sig .tc := ⟨.vmem, 109, rfl⟩
abbrev cc13_stg0_0 : Ref sig .tc := ⟨.vmem, 110, rfl⟩
abbrev cc13_stg0_1 : Ref sig .tc := ⟨.vmem, 111, rfl⟩
abbrev cc13_stg1_0 : Ref sig .tc := ⟨.vmem, 112, rfl⟩
abbrev cc13_stg2_0 : Ref sig .tc := ⟨.vmem, 113, rfl⟩
abbrev cc13_stg3_0 : Ref sig .tc := ⟨.vmem, 114, rfl⟩
abbrev cc13_stg3_1 : Ref sig .tc := ⟨.vmem, 115, rfl⟩
abbrev cc14_stg0_0 : Ref sig .tc := ⟨.vmem, 116, rfl⟩
abbrev cc14_stg0_1 : Ref sig .tc := ⟨.vmem, 117, rfl⟩
abbrev cc14_stg1_0 : Ref sig .tc := ⟨.vmem, 118, rfl⟩
abbrev cc14_stg2_0 : Ref sig .tc := ⟨.vmem, 119, rfl⟩
abbrev cc14_stg3_0 : Ref sig .tc := ⟨.vmem, 120, rfl⟩
abbrev cc14_stg3_1 : Ref sig .tc := ⟨.vmem, 121, rfl⟩
abbrev cc15_stg0_0 : Ref sig .tc := ⟨.vmem, 122, rfl⟩
abbrev cc15_stg0_1 : Ref sig .tc := ⟨.vmem, 123, rfl⟩
abbrev cc15_stg1_0 : Ref sig .tc := ⟨.vmem, 124, rfl⟩
abbrev cc15_stg2_0 : Ref sig .tc := ⟨.vmem, 125, rfl⟩
abbrev cc15_stg3_0 : Ref sig .tc := ⟨.vmem, 126, rfl⟩
abbrev cc15_stg3_1 : Ref sig .tc := ⟨.vmem, 127, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc3_sem3_0 : DmaSem sig := 21
abbrev cc3_sem4_0 : DmaSem sig := 22
abbrev cc3_sem4_1 : DmaSem sig := 23
abbrev cc3_sem5_0 : DmaSem sig := 24
abbrev cc3_sem6_0 : DmaSem sig := 25
abbrev cc3_sem7_0 : DmaSem sig := 26
abbrev cc3_sem7_1 : DmaSem sig := 27
abbrev cc4_sem0_0 : DmaSem sig := 28
abbrev cc4_sem1_0 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem6_0 : DmaSem sig := 34
abbrev cc4_sem7_0 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem2_1 : DmaSem sig := 40
abbrev cc5_sem3_0 : DmaSem sig := 41
abbrev cc5_sem4_0 : DmaSem sig := 42
abbrev cc5_sem4_1 : DmaSem sig := 43
abbrev cc5_sem5_0 : DmaSem sig := 44
abbrev cc5_sem6_0 : DmaSem sig := 45
abbrev cc5_sem7_0 : DmaSem sig := 46
abbrev cc5_sem7_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem2_1 : DmaSem sig := 52
abbrev cc6_sem3_0 : DmaSem sig := 53
abbrev cc6_sem4_0 : DmaSem sig := 54
abbrev cc6_sem4_1 : DmaSem sig := 55
abbrev cc6_sem5_0 : DmaSem sig := 56
abbrev cc6_sem6_0 : DmaSem sig := 57
abbrev cc6_sem7_0 : DmaSem sig := 58
abbrev cc6_sem7_1 : DmaSem sig := 59
abbrev cc7_sem0_0 : DmaSem sig := 60
abbrev cc7_sem1_0 : DmaSem sig := 61
abbrev cc7_sem2_0 : DmaSem sig := 62
abbrev cc7_sem3_0 : DmaSem sig := 63
abbrev cc7_sem4_0 : DmaSem sig := 64
abbrev cc7_sem5_0 : DmaSem sig := 65
abbrev cc7_sem6_0 : DmaSem sig := 66
abbrev cc7_sem7_0 : DmaSem sig := 67
abbrev cc8_sem0_0 : DmaSem sig := 68
abbrev cc8_sem0_1 : DmaSem sig := 69
abbrev cc8_sem1_0 : DmaSem sig := 70
abbrev cc8_sem2_0 : DmaSem sig := 71
abbrev cc8_sem2_1 : DmaSem sig := 72
abbrev cc8_sem3_0 : DmaSem sig := 73
abbrev cc8_sem4_0 : DmaSem sig := 74
abbrev cc8_sem4_1 : DmaSem sig := 75
abbrev cc8_sem5_0 : DmaSem sig := 76
abbrev cc8_sem6_0 : DmaSem sig := 77
abbrev cc8_sem7_0 : DmaSem sig := 78
abbrev cc8_sem7_1 : DmaSem sig := 79
abbrev cc9_sem0_0 : DmaSem sig := 80
abbrev cc9_sem0_1 : DmaSem sig := 81
abbrev cc9_sem1_0 : DmaSem sig := 82
abbrev cc9_sem2_0 : DmaSem sig := 83
abbrev cc9_sem2_1 : DmaSem sig := 84
abbrev cc9_sem3_0 : DmaSem sig := 85
abbrev cc9_sem4_0 : DmaSem sig := 86
abbrev cc9_sem4_1 : DmaSem sig := 87
abbrev cc9_sem5_0 : DmaSem sig := 88
abbrev cc9_sem6_0 : DmaSem sig := 89
abbrev cc9_sem7_0 : DmaSem sig := 90
abbrev cc9_sem7_1 : DmaSem sig := 91
abbrev cc10_sem0_0 : DmaSem sig := 92
abbrev cc10_sem0_1 : DmaSem sig := 93
abbrev cc10_sem1_0 : DmaSem sig := 94
abbrev cc10_sem2_0 : DmaSem sig := 95
abbrev cc10_sem3_0 : DmaSem sig := 96
abbrev cc10_sem3_1 : DmaSem sig := 97
abbrev cc11_sem0_0 : DmaSem sig := 98
abbrev cc11_sem0_1 : DmaSem sig := 99
abbrev cc11_sem1_0 : DmaSem sig := 100
abbrev cc11_sem2_0 : DmaSem sig := 101
abbrev cc11_sem3_0 : DmaSem sig := 102
abbrev cc11_sem3_1 : DmaSem sig := 103
abbrev cc12_sem0_0 : DmaSem sig := 104
abbrev cc12_sem0_1 : DmaSem sig := 105
abbrev cc12_sem1_0 : DmaSem sig := 106
abbrev cc12_sem2_0 : DmaSem sig := 107
abbrev cc12_sem3_0 : DmaSem sig := 108
abbrev cc12_sem3_1 : DmaSem sig := 109
abbrev cc13_sem0_0 : DmaSem sig := 110
abbrev cc13_sem0_1 : DmaSem sig := 111
abbrev cc13_sem1_0 : DmaSem sig := 112
abbrev cc13_sem2_0 : DmaSem sig := 113
abbrev cc13_sem3_0 : DmaSem sig := 114
abbrev cc13_sem3_1 : DmaSem sig := 115
abbrev cc14_sem0_0 : DmaSem sig := 116
abbrev cc14_sem0_1 : DmaSem sig := 117
abbrev cc14_sem1_0 : DmaSem sig := 118
abbrev cc14_sem2_0 : DmaSem sig := 119
abbrev cc14_sem3_0 : DmaSem sig := 120
abbrev cc14_sem3_1 : DmaSem sig := 121
abbrev cc15_sem0_0 : DmaSem sig := 122
abbrev cc15_sem0_1 : DmaSem sig := 123
abbrev cc15_sem1_0 : DmaSem sig := 124
abbrev cc15_sem2_0 : DmaSem sig := 125
abbrev cc15_sem3_0 : DmaSem sig := 126
abbrev cc15_sem3_1 : DmaSem sig := 127

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x150 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x150 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x150 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S2000x768 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S768x150 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x150 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2000x150 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x150 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x150 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x150 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x150 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S150x150 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x150 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S150x150 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x150 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S150x150 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x150 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x150 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S2000x150 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S150x150 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S2000x150 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev stage4_3 : Fin 1 → Memref sig .tc .vmem S150x150 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S2000x150 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true]

abbrev stage4_5 : Fin 1 → Memref sig .tc .vmem S150x150 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x150 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S2000x150 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x150 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S150x150 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x150 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S150x150 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x150 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S150x150 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x150 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x150 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x150 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S150x150 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x150 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S150x150 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x150 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S150x150 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x150 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x150 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S2000x150 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S150x150 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S2000x150 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true]

abbrev stage7_3 : Fin 1 → Memref sig .tc .vmem S150x150 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S2000x150 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![true]

abbrev stage7_5 : Fin 1 → Memref sig .tc .vmem S150x150 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x150 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S2000x150 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![true]

abbrev grid8 : Pipeline.Grid := ⟨1, ![4], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x150 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S150x150 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x150 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S150x150 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S5000x150 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 1 → Memref sig .tc .vmem S150x150 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x150 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S5000x150 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev grid9 : Pipeline.Grid := ⟨1, ![4], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x150 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S150x150 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x150 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S150x150 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S5000x150 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 1 → Memref sig .tc .vmem S150x150 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x150 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S5000x150 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x768 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S768x300 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x300 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S2000x300 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x300 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S300x200 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x200 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S2000x200 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![25], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x200 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S200x150 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x150 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S2000x150 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![50], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S10000x300 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S300x150 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x150 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S10000x150 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev grid14 : Pipeline.Grid := ⟨1, ![50], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S10000x150 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S150x50 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x50 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 2 → Memref sig .tc .vmem S10000x50 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev grid15 : Pipeline.Grid := ⟨1, ![50], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S10000x50 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S50x3 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x3 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 2 → Memref sig .tc .vmem S10000x3 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

class Facts₀ : Prop where
  shapeCasts_S150_S1x150 : S150.ShapeCasts S1x150
  inb_S2000x768_S2000x768_0_0 : ∀ a, (![0, 0] : Fin 2 → Nat) a + S2000x768.size a ≤ S2000x768.size a
  h_S2000x768 : 0 < S2000x768.numel
  bitsLt_bf16_f32 : FTy.bits .bf16 < FTy.bits .f32
  inb_S768x150_S768x150_0_0 : ∀ a, (![0, 0] : Fin 2 → Nat) a + S768x150.size a ≤ S768x150.size a
  h_S768x150 : 0 < S768x150.numel
  inb_S1x150_S1x150_0_0 : ∀ a, (![0, 0] : Fin 2 → Nat) a + S1x150.size a ≤ S1x150.size a
  h_S1x150 : 0 < S1x150.numel
  shapeCasts_S1x150_S1x150 : S1x150.ShapeCasts S1x150
  broadcasts_S1x150_S2000x150 : S1x150.Broadcasts S2000x150
  inb_S2000x150_S2000x150_0_0 : ∀ a, (![0, 0] : Fin 2 → Nat) a + S2000x150.size a ≤ S2000x150.size a
  h_S2000x150 : 0 < S2000x150.numel
  inb_S2000x1024_S2000x1024_0_0 : ∀ a, (![0, 0] : Fin 2 → Nat) a + S2000x1024.size a ≤ S2000x1024.size a
  h_S2000x1024 : 0 < S2000x1024.numel
  inb_S1024x150_S1024x150_0_0 : ∀ a, (![0, 0] : Fin 2 → Nat) a + S1024x150.size a ≤ S1024x150.size a
  h_S1024x150 : 0 < S1024x150.numel
  slices_S2x500000_S1x500000_1_0 : S2x500000.Slices ![1, 0] S1x500000
  shapeCasts_S1x500000_S500000 : S1x500000.ShapeCasts S500000
  slices_S2x500000_S1x500000_0_0 : S2x500000.Slices ![0, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S50000x150 : S_.BroadcastsInDim S50000x150 (![] : Fin 0 → Fin S50000x150.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x150_0_1 : S50000x1.BroadcastsInDim S50000x150 (![0, 1] : Fin 2 → Fin S50000x150.rank)
  slices_S2x200000_S1x200000_1_0 : S2x200000.Slices ![1, 0] S1x200000
  shapeCasts_S1x200000_S200000 : S1x200000.ShapeCasts S200000
  slices_S2x200000_S1x200000_0_0 : S2x200000.Slices ![0, 0] S1x200000
  bcast_S_S200000 : S_.BroadcastsInDim S200000 (![] : Fin 0 → Fin S200000.rank)
  bcast_S200000_S200000x1_0 : S200000.BroadcastsInDim S200000x1 (![0] : Fin 1 → Fin S200000x1.rank)
  slices_S3x6x150x150_S1x1x150x150_0_1_0_0 : S3x6x150x150.Slices ![0, 1, 0, 0] S1x1x150x150
  shapeCasts_S1x1x150x150_S150x150 : S1x1x150x150.ShapeCasts S150x150
  slices_S3x6x150x150_S1x1x150x150_0_3_0_0 : S3x6x150x150.Slices ![0, 3, 0, 0] S1x1x150x150
  slices_S3x6x150_S1x1x150_0_1_0 : S3x6x150.Slices ![0, 1, 0] S1x1x150
  shapeCasts_S1x1x150_S150 : S1x1x150.ShapeCasts S150
  slices_S3x6x150_S1x1x150_0_3_0 : S3x6x150.Slices ![0, 3, 0] S1x1x150
  inb_S5000x150_S5000x150_0_0 : ∀ a, (![0, 0] : Fin 2 → Nat) a + S5000x150.size a ≤ S5000x150.size a
  h_S5000x150 : 0 < S5000x150.numel
  shapeCasts_S5000x150_S5000x150 : S5000x150.ShapeCasts S5000x150
  inb_S150x150_S150x150_0_0 : ∀ a, (![0, 0] : Fin 2 → Nat) a + S150x150.size a ≤ S150x150.size a
  h_S150x150 : 0 < S150x150.numel
  shapeCasts_S150x150_S150x150 : S150x150.ShapeCasts S150x150
  broadcasts_S1x150_S5000x150 : S1x150.Broadcasts S5000x150
  bcast_S_S2000x150 : S_.BroadcastsInDim S2000x150 (![] : Fin 0 → Fin S2000x150.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x150_0_1 : S2000x1.BroadcastsInDim S2000x150 (![0, 1] : Fin 2 → Fin S2000x150.rank)
  slices_S3x6x150x150_S1x1x150x150_0_2_0_0 : S3x6x150x150.Slices ![0, 2, 0, 0] S1x1x150x150
  slices_S3x6x150x150_S1x1x150x150_0_5_0_0 : S3x6x150x150.Slices ![0, 5, 0, 0] S1x1x150x150
  slices_S3x6x150_S1x1x150_0_2_0 : S3x6x150.Slices ![0, 2, 0] S1x1x150
  slices_S3x6x150_S1x1x150_0_5_0 : S3x6x150.Slices ![0, 5, 0] S1x1x150
  shapeCasts_S2000x150_S2000x150 : S2000x150.ShapeCasts S2000x150
  bcast_S_S20000x150 : S_.BroadcastsInDim S20000x150 (![] : Fin 0 → Fin S20000x150.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x150_0_1 : S20000x1.BroadcastsInDim S20000x150 (![0, 1] : Fin 2 → Fin S20000x150.rank)
  slices_S3x6x150x150_S1x1x150x150_0_0_0_0 : S3x6x150x150.Slices ![0, 0, 0, 0] S1x1x150x150
  slices_S3x6x150x150_S1x1x150x150_0_4_0_0 : S3x6x150x150.Slices ![0, 4, 0, 0] S1x1x150x150
  slices_S3x6x150_S1x1x150_0_0_0 : S3x6x150.Slices ![0, 0, 0] S1x1x150
  slices_S3x6x150_S1x1x150_0_4_0 : S3x6x150.Slices ![0, 4, 0] S1x1x150
  slices_S3x6x150x150_S1x1x150x150_1_1_0_0 : S3x6x150x150.Slices ![1, 1, 0, 0] S1x1x150x150
  slices_S3x6x150x150_S1x1x150x150_1_3_0_0 : S3x6x150x150.Slices ![1, 3, 0, 0] S1x1x150x150
  slices_S3x6x150_S1x1x150_1_1_0 : S3x6x150.Slices ![1, 1, 0] S1x1x150
  slices_S3x6x150_S1x1x150_1_3_0 : S3x6x150.Slices ![1, 3, 0] S1x1x150
  slices_S3x6x150x150_S1x1x150x150_1_2_0_0 : S3x6x150x150.Slices ![1, 2, 0, 0] S1x1x150x150
  slices_S3x6x150x150_S1x1x150x150_1_5_0_0 : S3x6x150x150.Slices ![1, 5, 0, 0] S1x1x150x150
  slices_S3x6x150_S1x1x150_1_2_0 : S3x6x150.Slices ![1, 2, 0] S1x1x150
  slices_S3x6x150_S1x1x150_1_5_0 : S3x6x150.Slices ![1, 5, 0] S1x1x150
  slices_S3x6x150x150_S1x1x150x150_1_0_0_0 : S3x6x150x150.Slices ![1, 0, 0, 0] S1x1x150x150
  slices_S3x6x150x150_S1x1x150x150_1_4_0_0 : S3x6x150x150.Slices ![1, 4, 0, 0] S1x1x150x150
  slices_S3x6x150_S1x1x150_1_0_0 : S3x6x150.Slices ![1, 0, 0] S1x1x150
  slices_S3x6x150_S1x1x150_1_4_0 : S3x6x150.Slices ![1, 4, 0] S1x1x150
  slices_S3x6x150x150_S1x1x150x150_2_0_0_0 : S3x6x150x150.Slices ![2, 0, 0, 0] S1x1x150x150
  slices_S3x6x150x150_S1x1x150x150_2_4_0_0 : S3x6x150x150.Slices ![2, 4, 0, 0] S1x1x150x150
  slices_S3x6x150_S1x1x150_2_0_0 : S3x6x150.Slices ![2, 0, 0] S1x1x150
  slices_S3x6x150_S1x1x150_2_4_0 : S3x6x150.Slices ![2, 4, 0] S1x1x150
  shapeCasts_S300_S1x300 : S300.ShapeCasts S1x300
  inb_S768x300_S768x300_0_0 : ∀ a, (![0, 0] : Fin 2 → Nat) a + S768x300.size a ≤ S768x300.size a
  h_S768x300 : 0 < S768x300.numel
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S2000x300 : S1x300.Broadcasts S2000x300
  inb_S2000x300_S2000x300_0_0 : ∀ a, (![0, 0] : Fin 2 → Nat) a + S2000x300.size a ≤ S2000x300.size a
  h_S2000x300 : 0 < S2000x300.numel
  shapeCasts_S200_S1x200 : S200.ShapeCasts S1x200
  shapeCasts_S2000x300_S2000x300 : S2000x300.ShapeCasts S2000x300
  inb_S300x200_S300x200_0_0 : ∀ a, (![0, 0] : Fin 2 → Nat) a + S300x200.size a ≤ S300x200.size a
  h_S300x200 : 0 < S300x200.numel
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S2000x200 : S1x200.Broadcasts S2000x200
  inb_S2000x200_S2000x200_0_0 : ∀ a, (![0, 0] : Fin 2 → Nat) a + S2000x200.size a ≤ S2000x200.size a
  h_S2000x200 : 0 < S2000x200.numel
  shapeCasts_S2000x200_S2000x200 : S2000x200.ShapeCasts S2000x200
  inb_S200x150_S200x150_0_0 : ∀ a, (![0, 0] : Fin 2 → Nat) a + S200x150.size a ≤ S200x150.size a
  h_S200x150 : 0 < S200x150.numel
  concatenates_S500000x150_S500000x150_S500000x300_d1 : Shape.Concatenates [S500000x150, S500000x150] S500000x300 1
  inb_S10000x300_S10000x300_0_0 : ∀ a, (![0, 0] : Fin 2 → Nat) a + S10000x300.size a ≤ S10000x300.size a
  h_S10000x300 : 0 < S10000x300.numel
  shapeCasts_S10000x300_S10000x300 : S10000x300.ShapeCasts S10000x300
  inb_S300x150_S300x150_0_0 : ∀ a, (![0, 0] : Fin 2 → Nat) a + S300x150.size a ≤ S300x150.size a
  h_S300x150 : 0 < S300x150.numel
  broadcasts_S1x150_S10000x150 : S1x150.Broadcasts S10000x150
  inb_S10000x150_S10000x150_0_0 : ∀ a, (![0, 0] : Fin 2 → Nat) a + S10000x150.size a ≤ S10000x150.size a
  h_S10000x150 : 0 < S10000x150.numel
  shapeCasts_S50_S1x50 : S50.ShapeCasts S1x50
  shapeCasts_S10000x150_S10000x150 : S10000x150.ShapeCasts S10000x150
  inb_S150x50_S150x50_0_0 : ∀ a, (![0, 0] : Fin 2 → Nat) a + S150x50.size a ≤ S150x50.size a
  h_S150x50 : 0 < S150x50.numel
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S10000x50 : S1x50.Broadcasts S10000x50
  inb_S10000x50_S10000x50_0_0 : ∀ a, (![0, 0] : Fin 2 → Nat) a + S10000x50.size a ≤ S10000x50.size a
  h_S10000x50 : 0 < S10000x50.numel
  shapeCasts_S3_S1x3 : S3.ShapeCasts S1x3
  shapeCasts_S10000x50_S10000x50 : S10000x50.ShapeCasts S10000x50
  inb_S50x3_S50x3_0_0 : ∀ a, (![0, 0] : Fin 2 → Nat) a + S50x3.size a ≤ S50x3.size a
  h_S50x3 : 0 < S50x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S10000x3 : S1x3.Broadcasts S10000x3
  inb_S10000x3_S10000x3_0_0 : ∀ a, (![0, 0] : Fin 2 → Nat) a + S10000x3.size a ≤ S10000x3.size a
  h_S10000x3 : 0 < S10000x3.numel
  dot_S2000x768_S768x150_S2000x150_1_0_0_1_n_n_wf : DotDims.WF S2000x768 S768x150 S2000x150 [1] [0] [0] [1] [] []
  dot_S2000x1024_S1024x150_S2000x150_1_0_0_1_n_n_wf : DotDims.WF S2000x1024 S1024x150 S2000x150 [1] [0] [0] [1] [] []
  gather_S20000x150_S500000x1_S500000x150_1_0_n_n_0_1_1150_wf : GatherDims.WF S20000x150 S500000x1 S500000x150 [1] [0] [] [0] [] 1 ![1, 150]
  scatter_S50000x150_S500000x1_S500000x150_1_0_0_1_wf : ScatterDims.WF S50000x150 S500000x1 S500000x150 [1] [0] [0] 1
  scatter_S50000_S500000x1_S500000_n_0_0_1_wf : ScatterDims.WF S50000 S500000x1 S500000 [] [0] [0] 1
  gather_S2000x150_S200000x1_S200000x150_1_0_n_n_0_1_1150_wf : GatherDims.WF S2000x150 S200000x1 S200000x150 [1] [0] [] [0] [] 1 ![1, 150]
  scatter_S50000x150_S200000x1_S200000x150_1_0_0_1_wf : ScatterDims.WF S50000x150 S200000x1 S200000x150 [1] [0] [0] 1
  scatter_S50000_S200000x1_S200000_n_0_0_1_wf : ScatterDims.WF S50000 S200000x1 S200000 [] [0] [0] 1
  dot_S5000x150_S150x150_S5000x150_1_0_0_1_n_n_wf : DotDims.WF S5000x150 S150x150 S5000x150 [1] [0] [0] [1] [] []
  gather_S50000x150_S200000x1_S200000x150_1_0_n_n_0_1_1150_wf : GatherDims.WF S50000x150 S200000x1 S200000x150 [1] [0] [] [0] [] 1 ![1, 150]
  scatter_S2000x150_S200000x1_S200000x150_1_0_0_1_wf : ScatterDims.WF S2000x150 S200000x1 S200000x150 [1] [0] [0] 1
  scatter_S2000_S200000x1_S200000_n_0_0_1_wf : ScatterDims.WF S2000 S200000x1 S200000 [] [0] [0] 1
  gather_S20000x150_S200000x1_S200000x150_1_0_n_n_0_1_1150_wf : GatherDims.WF S20000x150 S200000x1 S200000x150 [1] [0] [] [0] [] 1 ![1, 150]
  dot_S2000x150_S150x150_S2000x150_1_0_0_1_n_n_wf : DotDims.WF S2000x150 S150x150 S2000x150 [1] [0] [0] [1] [] []
  gather_S50000x150_S500000x1_S500000x150_1_0_n_n_0_1_1150_wf : GatherDims.WF S50000x150 S500000x1 S500000x150 [1] [0] [] [0] [] 1 ![1, 150]
  scatter_S20000x150_S500000x1_S500000x150_1_0_0_1_wf : ScatterDims.WF S20000x150 S500000x1 S500000x150 [1] [0] [0] 1
  scatter_S20000_S500000x1_S500000_n_0_0_1_wf : ScatterDims.WF S20000 S500000x1 S500000 [] [0] [0] 1
  scatter_S20000x150_S200000x1_S200000x150_1_0_0_1_wf : ScatterDims.WF S20000x150 S200000x1 S200000x150 [1] [0] [0] 1
  scatter_S20000_S200000x1_S200000_n_0_0_1_wf : ScatterDims.WF S20000 S200000x1 S200000 [] [0] [0] 1
  dot_S2000x768_S768x300_S2000x300_1_0_0_1_n_n_wf : DotDims.WF S2000x768 S768x300 S2000x300 [1] [0] [0] [1] [] []
  dot_S2000x300_S300x200_S2000x200_1_0_0_1_n_n_wf : DotDims.WF S2000x300 S300x200 S2000x200 [1] [0] [0] [1] [] []
  dot_S2000x200_S200x150_S2000x150_1_0_0_1_n_n_wf : DotDims.WF S2000x200 S200x150 S2000x150 [1] [0] [0] [1] [] []
  dot_S10000x300_S300x150_S10000x150_1_0_0_1_n_n_wf : DotDims.WF S10000x300 S300x150 S10000x150 [1] [0] [0] [1] [] []
  dot_S10000x150_S150x50_S10000x50_1_0_0_1_n_n_wf : DotDims.WF S10000x150 S150x50 S10000x50 [1] [0] [0] [1] [] []
  dot_S10000x50_S50x3_S10000x3_1_0_0_1_n_n_wf : DotDims.WF S10000x50 S50x3 S10000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S50000x768.size a
  hwx0_0 : ∀ i : grid0.Coords, EltTy.bits .f32 = 32 ∨ (Rect.block (s := S50000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x150.size a ≤ S768x150.size a
  hwx0_1 : ∀ i : grid0.Coords, EltTy.bits .f32 = 32 ∨ (Rect.block (s := S768x150) S768x150.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x150.size a ≤ S1x150.size a
  hwx0_2 : ∀ i : grid0.Coords, EltTy.bits .f32 = 32 ∨ (Rect.block (s := S1x150) S1x150.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x150.size a ≤ S50000x150.size a
  hwx0_3 : ∀ i : grid0.Coords, EltTy.bits .f32 = 32 ∨ (Rect.block (s := S50000x150) S2000x150.size (cc0_transform_3 i) (hinb0_3 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S2000x768.size a ≤ S2000x768.size a
  hwx1_0 : ∀ i : grid1.Coords, EltTy.bits .f32 = 32 ∨ (Rect.block (s := S2000x768) S2000x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x150.size a ≤ S768x150.size a
  hwx1_1 : ∀ i : grid1.Coords, EltTy.bits .f32 = 32 ∨ (Rect.block (s := S768x150) S768x150.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x150.size a ≤ S1x150.size a
  hwx1_2 : ∀ i : grid1.Coords, EltTy.bits .f32 = 32 ∨ (Rect.block (s := S1x150) S1x150.size (cc1_transform_2 i) (hinb1_2 i)).WholeWords (EltTy.packing .f32)
  hstage1_3 : ∀ j, (stage1_3 j).IsWhole
  nbuf1_3 : grid1.bufCount reads1_3 false = 1
  hreads1_3 : ∀ i i' : grid1.Coords, (∀ a, reads1_3 a = true → i a = i' a) → cc1_transform_3 i = cc1_transform_3 i'
  hinb1_3 : ∀ (i : grid1.Coords) a, (cc1_transform_3 i a + 1) * S2000x150.size a ≤ S2000x150.size a
  hwx1_3 : ∀ i : grid1.Coords, EltTy.bits .f32 = 32 ∨ (Rect.block (s := S2000x150) S2000x150.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x1024.size a ≤ S20000x1024.size a
  hwx2_0 : ∀ i : grid2.Coords, EltTy.bits .f32 = 32 ∨ (Rect.block (s := S20000x1024) S2000x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x150.size a ≤ S1024x150.size a
  hwx2_1 : ∀ i : grid2.Coords, EltTy.bits .f32 = 32 ∨ (Rect.block (s := S1024x150) S1024x150.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x150.size a ≤ S1x150.size a
  hwx2_2 : ∀ i : grid2.Coords, EltTy.bits .f32 = 32 ∨ (Rect.block (s := S1x150) S1x150.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x150.size a ≤ S20000x150.size a
  hwx2_3 : ∀ i : grid2.Coords, EltTy.bits .f32 = 32 ∨ (Rect.block (s := S20000x150) S2000x150.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x150.size a ≤ S50000x150.size a
  hwx3_0 : ∀ i : grid3.Coords, EltTy.bits .f32 = 32 ∨ (Rect.block (s := S50000x150) S5000x150.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S150x150.size a ≤ S150x150.size a
  hwx3_1 : ∀ i : grid3.Coords, EltTy.bits .f32 = 32 ∨ (Rect.block (s := S150x150) S150x150.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x150.size a ≤ S50000x150.size a
  hwx3_2 : ∀ i : grid3.Coords, EltTy.bits .f32 = 32 ∨ (Rect.block (s := S50000x150) S5000x150.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S150x150.size a ≤ S150x150.size a
  hwx3_3 : ∀ i : grid3.Coords, EltTy.bits .f32 = 32 ∨ (Rect.block (s := S150x150) S150x150.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x150.size a ≤ S50000x150.size a
  hwx3_4 : ∀ i : grid3.Coords, EltTy.bits .f32 = 32 ∨ (Rect.block (s := S50000x150) S5000x150.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S150x150.size a ≤ S150x150.size a
  hwx3_5 : ∀ i : grid3.Coords, EltTy.bits .f32 = 32 ∨ (Rect.block (s := S150x150) S150x150.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x150.size a ≤ S1x150.size a
  hwx3_6 : ∀ i : grid3.Coords, EltTy.bits .f32 = 32 ∨ (Rect.block (s := S1x150) S1x150.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x150.size a ≤ S50000x150.size a
  hwx3_7 : ∀ i : grid3.Coords, EltTy.bits .f32 = 32 ∨ (Rect.block (s := S50000x150) S5000x150.size (cc3_transform_7 i) (hinb3_7 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S2000x150.size a ≤ S2000x150.size a
  hwx4_0 : ∀ i : grid4.Coords, EltTy.bits .f32 = 32 ∨ (Rect.block (s := S2000x150) S2000x150.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S150x150.size a ≤ S150x150.size a
  hwx4_1 : ∀ i : grid4.Coords, EltTy.bits .f32 = 32 ∨ (Rect.block (s := S150x150) S150x150.size (cc4_transform_1 i) (hinb4_1 i)).WholeWords (EltTy.packing .f32)
  hstage4_2 : ∀ j, (stage4_2 j).IsWhole
  nbuf4_2 : grid4.bufCount reads4_2 false = 1
  hreads4_2 : ∀ i i' : grid4.Coords, (∀ a, reads4_2 a = true → i a = i' a) → cc4_transform_2 i = cc4_transform_2 i'
  hinb4_2 : ∀ (i : grid4.Coords) a, (cc4_transform_2 i a + 1) * S2000x150.size a ≤ S2000x150.size a
  hwx4_2 : ∀ i : grid4.Coords, EltTy.bits .f32 = 32 ∨ (Rect.block (s := S2000x150) S2000x150.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S150x150.size a ≤ S150x150.size a
  hwx4_3 : ∀ i : grid4.Coords, EltTy.bits .f32 = 32 ∨ (Rect.block (s := S150x150) S150x150.size (cc4_transform_3 i) (hinb4_3 i)).WholeWords (EltTy.packing .f32)
  hstage4_4 : ∀ j, (stage4_4 j).IsWhole
  nbuf4_4 : grid4.bufCount reads4_4 false = 1
  hreads4_4 : ∀ i i' : grid4.Coords, (∀ a, reads4_4 a = true → i a = i' a) → cc4_transform_4 i = cc4_transform_4 i'
  hinb4_4 : ∀ (i : grid4.Coords) a, (cc4_transform_4 i a + 1) * S2000x150.size a ≤ S2000x150.size a
  hwx4_4 : ∀ i : grid4.Coords, EltTy.bits .f32 = 32 ∨ (Rect.block (s := S2000x150) S2000x150.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S150x150.size a ≤ S150x150.size a
  hwx4_5 : ∀ i : grid4.Coords, EltTy.bits .f32 = 32 ∨ (Rect.block (s := S150x150) S150x150.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x150.size a ≤ S1x150.size a
  hwx4_6 : ∀ i : grid4.Coords, EltTy.bits .f32 = 32 ∨ (Rect.block (s := S1x150) S1x150.size (cc4_transform_6 i) (hinb4_6 i)).WholeWords (EltTy.packing .f32)
  hstage4_7 : ∀ j, (stage4_7 j).IsWhole
  nbuf4_7 : grid4.bufCount reads4_7 false = 1
  hreads4_7 : ∀ i i' : grid4.Coords, (∀ a, reads4_7 a = true → i a = i' a) → cc4_transform_7 i = cc4_transform_7 i'
  hinb4_7 : ∀ (i : grid4.Coords) a, (cc4_transform_7 i a + 1) * S2000x150.size a ≤ S2000x150.size a
  hwx4_7 : ∀ i : grid4.Coords, EltTy.bits .f32 = 32 ∨ (Rect.block (s := S2000x150) S2000x150.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x150.size a ≤ S20000x150.size a
  hwx5_0 : ∀ i : grid5.Coords, EltTy.bits .f32 = 32 ∨ (Rect.block (s := S20000x150) S5000x150.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S150x150.size a ≤ S150x150.size a
  hwx5_1 : ∀ i : grid5.Coords, EltTy.bits .f32 = 32 ∨ (Rect.block (s := S150x150) S150x150.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x150.size a ≤ S20000x150.size a
  hwx5_2 : ∀ i : grid5.Coords, EltTy.bits .f32 = 32 ∨ (Rect.block (s := S20000x150) S5000x150.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S150x150.size a ≤ S150x150.size a
  hwx5_3 : ∀ i : grid5.Coords, EltTy.bits .f32 = 32 ∨ (Rect.block (s := S150x150) S150x150.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x150.size a ≤ S20000x150.size a
  hwx5_4 : ∀ i : grid5.Coords, EltTy.bits .f32 = 32 ∨ (Rect.block (s := S20000x150) S5000x150.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S150x150.size a ≤ S150x150.size a
  hwx5_5 : ∀ i : grid5.Coords, EltTy.bits .f32 = 32 ∨ (Rect.block (s := S150x150) S150x150.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x150.size a ≤ S1x150.size a
  hwx5_6 : ∀ i : grid5.Coords, EltTy.bits .f32 = 32 ∨ (Rect.block (s := S1x150) S1x150.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x150.size a ≤ S20000x150.size a
  hwx5_7 : ∀ i : grid5.Coords, EltTy.bits .f32 = 32 ∨ (Rect.block (s := S20000x150) S5000x150.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x150.size a ≤ S50000x150.size a
  hwx6_0 : ∀ i : grid6.Coords, EltTy.bits .f32 = 32 ∨ (Rect.block (s := S50000x150) S5000x150.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S150x150.size a ≤ S150x150.size a
  hwx6_1 : ∀ i : grid6.Coords, EltTy.bits .f32 = 32 ∨ (Rect.block (s := S150x150) S150x150.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x150.size a ≤ S50000x150.size a
  hwx6_2 : ∀ i : grid6.Coords, EltTy.bits .f32 = 32 ∨ (Rect.block (s := S50000x150) S5000x150.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S150x150.size a ≤ S150x150.size a
  hwx6_3 : ∀ i : grid6.Coords, EltTy.bits .f32 = 32 ∨ (Rect.block (s := S150x150) S150x150.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x150.size a ≤ S50000x150.size a
  hwx6_4 : ∀ i : grid6.Coords, EltTy.bits .f32 = 32 ∨ (Rect.block (s := S50000x150) S5000x150.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S150x150.size a ≤ S150x150.size a
  hwx6_5 : ∀ i : grid6.Coords, EltTy.bits .f32 = 32 ∨ (Rect.block (s := S150x150) S150x150.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x150.size a ≤ S1x150.size a
  hwx6_6 : ∀ i : grid6.Coords, EltTy.bits .f32 = 32 ∨ (Rect.block (s := S1x150) S1x150.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x150.size a ≤ S50000x150.size a
  hwx6_7 : ∀ i : grid6.Coords, EltTy.bits .f32 = 32 ∨ (Rect.block (s := S50000x150) S5000x150.size (cc6_transform_7 i) (hinb6_7 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S2000x150.size a ≤ S2000x150.size a
  hwx7_0 : ∀ i : grid7.Coords, EltTy.bits .f32 = 32 ∨ (Rect.block (s := S2000x150) S2000x150.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S150x150.size a ≤ S150x150.size a
  hwx7_1 : ∀ i : grid7.Coords, EltTy.bits .f32 = 32 ∨ (Rect.block (s := S150x150) S150x150.size (cc7_transform_1 i) (hinb7_1 i)).WholeWords (EltTy.packing .f32)
  hstage7_2 : ∀ j, (stage7_2 j).IsWhole
  nbuf7_2 : grid7.bufCount reads7_2 false = 1
  hreads7_2 : ∀ i i' : grid7.Coords, (∀ a, reads7_2 a = true → i a = i' a) → cc7_transform_2 i = cc7_transform_2 i'
  hinb7_2 : ∀ (i : grid7.Coords) a, (cc7_transform_2 i a + 1) * S2000x150.size a ≤ S2000x150.size a
  hwx7_2 : ∀ i : grid7.Coords, EltTy.bits .f32 = 32 ∨ (Rect.block (s := S2000x150) S2000x150.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S150x150.size a ≤ S150x150.size a
  hwx7_3 : ∀ i : grid7.Coords, EltTy.bits .f32 = 32 ∨ (Rect.block (s := S150x150) S150x150.size (cc7_transform_3 i) (hinb7_3 i)).WholeWords (EltTy.packing .f32)
  hstage7_4 : ∀ j, (stage7_4 j).IsWhole
  nbuf7_4 : grid7.bufCount reads7_4 false = 1
  hreads7_4 : ∀ i i' : grid7.Coords, (∀ a, reads7_4 a = true → i a = i' a) → cc7_transform_4 i = cc7_transform_4 i'
  hinb7_4 : ∀ (i : grid7.Coords) a, (cc7_transform_4 i a + 1) * S2000x150.size a ≤ S2000x150.size a
  hwx7_4 : ∀ i : grid7.Coords, EltTy.bits .f32 = 32 ∨ (Rect.block (s := S2000x150) S2000x150.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S150x150.size a ≤ S150x150.size a
  hwx7_5 : ∀ i : grid7.Coords, EltTy.bits .f32 = 32 ∨ (Rect.block (s := S150x150) S150x150.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x150.size a ≤ S1x150.size a
  hwx7_6 : ∀ i : grid7.Coords, EltTy.bits .f32 = 32 ∨ (Rect.block (s := S1x150) S1x150.size (cc7_transform_6 i) (hinb7_6 i)).WholeWords (EltTy.packing .f32)
  hstage7_7 : ∀ j, (stage7_7 j).IsWhole
  nbuf7_7 : grid7.bufCount reads7_7 false = 1
  hreads7_7 : ∀ i i' : grid7.Coords, (∀ a, reads7_7 a = true → i a = i' a) → cc7_transform_7 i = cc7_transform_7 i'
  hinb7_7 : ∀ (i : grid7.Coords) a, (cc7_transform_7 i a + 1) * S2000x150.size a ≤ S2000x150.size a
  hwx7_7 : ∀ i : grid7.Coords, EltTy.bits .f32 = 32 ∨ (Rect.block (s := S2000x150) S2000x150.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x150.size a ≤ S20000x150.size a
  hwx8_0 : ∀ i : grid8.Coords, EltTy.bits .f32 = 32 ∨ (Rect.block (s := S20000x150) S5000x150.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S150x150.size a ≤ S150x150.size a
  hwx8_1 : ∀ i : grid8.Coords, EltTy.bits .f32 = 32 ∨ (Rect.block (s := S150x150) S150x150.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x150.size a ≤ S20000x150.size a
  hwx8_2 : ∀ i : grid8.Coords, EltTy.bits .f32 = 32 ∨ (Rect.block (s := S20000x150) S5000x150.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S150x150.size a ≤ S150x150.size a
  hwx8_3 : ∀ i : grid8.Coords, EltTy.bits .f32 = 32 ∨ (Rect.block (s := S150x150) S150x150.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x150.size a ≤ S20000x150.size a
  hwx8_4 : ∀ i : grid8.Coords, EltTy.bits .f32 = 32 ∨ (Rect.block (s := S20000x150) S5000x150.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S150x150.size a ≤ S150x150.size a
  hwx8_5 : ∀ i : grid8.Coords, EltTy.bits .f32 = 32 ∨ (Rect.block (s := S150x150) S150x150.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x150.size a ≤ S1x150.size a
  hwx8_6 : ∀ i : grid8.Coords, EltTy.bits .f32 = 32 ∨ (Rect.block (s := S1x150) S1x150.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S5000x150.size a ≤ S20000x150.size a
  hwx8_7 : ∀ i : grid8.Coords, EltTy.bits .f32 = 32 ∨ (Rect.block (s := S20000x150) S5000x150.size (cc8_transform_7 i) (hinb8_7 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x150.size a ≤ S20000x150.size a
  hwx9_0 : ∀ i : grid9.Coords, EltTy.bits .f32 = 32 ∨ (Rect.block (s := S20000x150) S5000x150.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S150x150.size a ≤ S150x150.size a
  hwx9_1 : ∀ i : grid9.Coords, EltTy.bits .f32 = 32 ∨ (Rect.block (s := S150x150) S150x150.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x150.size a ≤ S20000x150.size a
  hwx9_2 : ∀ i : grid9.Coords, EltTy.bits .f32 = 32 ∨ (Rect.block (s := S20000x150) S5000x150.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S150x150.size a ≤ S150x150.size a
  hwx9_3 : ∀ i : grid9.Coords, EltTy.bits .f32 = 32 ∨ (Rect.block (s := S150x150) S150x150.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S5000x150.size a ≤ S20000x150.size a
  hwx9_4 : ∀ i : grid9.Coords, EltTy.bits .f32 = 32 ∨ (Rect.block (s := S20000x150) S5000x150.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S150x150.size a ≤ S150x150.size a
  hwx9_5 : ∀ i : grid9.Coords, EltTy.bits .f32 = 32 ∨ (Rect.block (s := S150x150) S150x150.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x150.size a ≤ S1x150.size a
  hwx9_6 : ∀ i : grid9.Coords, EltTy.bits .f32 = 32 ∨ (Rect.block (s := S1x150) S1x150.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S5000x150.size a ≤ S20000x150.size a
  hwx9_7 : ∀ i : grid9.Coords, EltTy.bits .f32 = 32 ∨ (Rect.block (s := S20000x150) S5000x150.size (cc9_transform_7 i) (hinb9_7 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x768.size a ≤ S50000x768.size a
  hwx10_0 : ∀ i : grid10.Coords, EltTy.bits .f32 = 32 ∨ (Rect.block (s := S50000x768) S2000x768.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S768x300.size a ≤ S768x300.size a
  hwx10_1 : ∀ i : grid10.Coords, EltTy.bits .f32 = 32 ∨ (Rect.block (s := S768x300) S768x300.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x300.size a ≤ S1x300.size a
  hwx10_2 : ∀ i : grid10.Coords, EltTy.bits .f32 = 32 ∨ (Rect.block (s := S1x300) S1x300.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S2000x300.size a ≤ S50000x300.size a
  hwx10_3 : ∀ i : grid10.Coords, EltTy.bits .f32 = 32 ∨ (Rect.block (s := S50000x300) S2000x300.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x300.size a ≤ S50000x300.size a
  hwx11_0 : ∀ i : grid11.Coords, EltTy.bits .f32 = 32 ∨ (Rect.block (s := S50000x300) S2000x300.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S300x200.size a ≤ S300x200.size a
  hwx11_1 : ∀ i : grid11.Coords, EltTy.bits .f32 = 32 ∨ (Rect.block (s := S300x200) S300x200.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x200.size a ≤ S1x200.size a
  hwx11_2 : ∀ i : grid11.Coords, EltTy.bits .f32 = 32 ∨ (Rect.block (s := S1x200) S1x200.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S2000x200.size a ≤ S50000x200.size a
  hwx11_3 : ∀ i : grid11.Coords, EltTy.bits .f32 = 32 ∨ (Rect.block (s := S50000x200) S2000x200.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x200.size a ≤ S50000x200.size a
  hwx12_0 : ∀ i : grid12.Coords, EltTy.bits .f32 = 32 ∨ (Rect.block (s := S50000x200) S2000x200.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S200x150.size a ≤ S200x150.size a
  hwx12_1 : ∀ i : grid12.Coords, EltTy.bits .f32 = 32 ∨ (Rect.block (s := S200x150) S200x150.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x150.size a ≤ S1x150.size a
  hwx12_2 : ∀ i : grid12.Coords, EltTy.bits .f32 = 32 ∨ (Rect.block (s := S1x150) S1x150.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S2000x150.size a ≤ S50000x150.size a
  hwx12_3 : ∀ i : grid12.Coords, EltTy.bits .f32 = 32 ∨ (Rect.block (s := S50000x150) S2000x150.size (cc12_transform_3 i) (hinb12_3 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S10000x300.size a ≤ S500000x300.size a
  hwx13_0 : ∀ i : grid13.Coords, EltTy.bits .f32 = 32 ∨ (Rect.block (s := S500000x300) S10000x300.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S300x150.size a ≤ S300x150.size a
  hwx13_1 : ∀ i : grid13.Coords, EltTy.bits .f32 = 32 ∨ (Rect.block (s := S300x150) S300x150.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x150.size a ≤ S1x150.size a
  hwx13_2 : ∀ i : grid13.Coords, EltTy.bits .f32 = 32 ∨ (Rect.block (s := S1x150) S1x150.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S10000x150.size a ≤ S500000x150.size a
  hwx13_3 : ∀ i : grid13.Coords, EltTy.bits .f32 = 32 ∨ (Rect.block (s := S500000x150) S10000x150.size (cc13_transform_3 i) (hinb13_3 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S10000x150.size a ≤ S500000x150.size a
  hwx14_0 : ∀ i : grid14.Coords, EltTy.bits .f32 = 32 ∨ (Rect.block (s := S500000x150) S10000x150.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S150x50.size a ≤ S150x50.size a
  hwx14_1 : ∀ i : grid14.Coords, EltTy.bits .f32 = 32 ∨ (Rect.block (s := S150x50) S150x50.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x50.size a ≤ S1x50.size a
  hwx14_2 : ∀ i : grid14.Coords, EltTy.bits .f32 = 32 ∨ (Rect.block (s := S1x50) S1x50.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S10000x50.size a ≤ S500000x50.size a
  hwx14_3 : ∀ i : grid14.Coords, EltTy.bits .f32 = 32 ∨ (Rect.block (s := S500000x50) S10000x50.size (cc14_transform_3 i) (hinb14_3 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S10000x50.size a ≤ S500000x50.size a
  hwx15_0 : ∀ i : grid15.Coords, EltTy.bits .f32 = 32 ∨ (Rect.block (s := S500000x50) S10000x50.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S50x3.size a ≤ S50x3.size a
  hwx15_1 : ∀ i : grid15.Coords, EltTy.bits .f32 = 32 ∨ (Rect.block (s := S50x3) S50x3.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x3.size a ≤ S1x3.size a
  hwx15_2 : ∀ i : grid15.Coords, EltTy.bits .f32 = 32 ∨ (Rect.block (s := S1x3) S1x3.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S10000x3.size a ≤ S500000x3.size a
  hwx15_3 : ∀ i : grid15.Coords, EltTy.bits .f32 = 32 ∨ (Rect.block (s := S500000x3) S10000x3.size (cc15_transform_3 i) (hinb15_3 i)).WholeWords (EltTy.packing .f32)

variable [Facts₀]

def dot_S2000x768_S768x150_S2000x150_1_0_0_1_n_n : DotDims S2000x768 S768x150 S2000x150 where
  lhsContracting := [1]
  rhsContracting := [0]
  lhsNonContracting := [0]
  rhsNonContracting := [1]
  lhsBatch := []
  rhsBatch := []
  wf := dot_S2000x768_S768x150_S2000x150_1_0_0_1_n_n_wf
def dot_S2000x1024_S1024x150_S2000x150_1_0_0_1_n_n : DotDims S2000x1024 S1024x150 S2000x150 where
  lhsContracting := [1]
  rhsContracting := [0]
  lhsNonContracting := [0]
  rhsNonContracting := [1]
  lhsBatch := []
  rhsBatch := []
  wf := dot_S2000x1024_S1024x150_S2000x150_1_0_0_1_n_n_wf
def gather_S20000x150_S500000x1_S500000x150_1_0_n_n_0_1_1150 : GatherDims S20000x150 S500000x1 S500000x150 where
  offsetDims := [1]
  collapsedSliceDims := [0]
  operandBatchingDims := []
  startIndicesBatchingDims := []
  startIndexMap := [0]
  indexVectorDim := 1
  sliceSizes := ![1, 150]
  wf := gather_S20000x150_S500000x1_S500000x150_1_0_n_n_0_1_1150_wf
def scatter_S50000x150_S500000x1_S500000x150_1_0_0_1 : ScatterDims S50000x150 S500000x1 S500000x150 where
  updateWindowDims := [1]
  insertedWindowDims := [0]
  scatterDimsToOperandDims := [0]
  indexVectorDim := 1
  wf := scatter_S50000x150_S500000x1_S500000x150_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S2000x150_S200000x1_S200000x150_1_0_n_n_0_1_1150 : GatherDims S2000x150 S200000x1 S200000x150 where
  offsetDims := [1]
  collapsedSliceDims := [0]
  operandBatchingDims := []
  startIndicesBatchingDims := []
  startIndexMap := [0]
  indexVectorDim := 1
  sliceSizes := ![1, 150]
  wf := gather_S2000x150_S200000x1_S200000x150_1_0_n_n_0_1_1150_wf
def scatter_S50000x150_S200000x1_S200000x150_1_0_0_1 : ScatterDims S50000x150 S200000x1 S200000x150 where
  updateWindowDims := [1]
  insertedWindowDims := [0]
  scatterDimsToOperandDims := [0]
  indexVectorDim := 1
  wf := scatter_S50000x150_S200000x1_S200000x150_1_0_0_1_wf
def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf
def dot_S5000x150_S150x150_S5000x150_1_0_0_1_n_n : DotDims S5000x150 S150x150 S5000x150 where
  lhsContracting := [1]
  rhsContracting := [0]
  lhsNonContracting := [0]
  rhsNonContracting := [1]
  lhsBatch := []
  rhsBatch := []
  wf := dot_S5000x150_S150x150_S5000x150_1_0_0_1_n_n_wf
def gather_S50000x150_S200000x1_S200000x150_1_0_n_n_0_1_1150 : GatherDims S50000x150 S200000x1 S200000x150 where
  offsetDims := [1]
  collapsedSliceDims := [0]
  operandBatchingDims := []
  startIndicesBatchingDims := []
  startIndexMap := [0]
  indexVectorDim := 1
  sliceSizes := ![1, 150]
  wf := gather_S50000x150_S200000x1_S200000x150_1_0_n_n_0_1_1150_wf
def scatter_S2000x150_S200000x1_S200000x150_1_0_0_1 : ScatterDims S2000x150 S200000x1 S200000x150 where
  updateWindowDims := [1]
  insertedWindowDims := [0]
  scatterDimsToOperandDims := [0]
  indexVectorDim := 1
  wf := scatter_S2000x150_S200000x1_S200000x150_1_0_0_1_wf
def scatter_S2000_S200000x1_S200000_n_0_0_1 : ScatterDims S2000 S200000x1 S200000 where
  updateWindowDims := []
  insertedWindowDims := [0]
  scatterDimsToOperandDims := [0]
  indexVectorDim := 1
  wf := scatter_S2000_S200000x1_S200000_n_0_0_1_wf
def gather_S20000x150_S200000x1_S200000x150_1_0_n_n_0_1_1150 : GatherDims S20000x150 S200000x1 S200000x150 where
  offsetDims := [1]
  collapsedSliceDims := [0]
  operandBatchingDims := []
  startIndicesBatchingDims := []
  startIndexMap := [0]
  indexVectorDim := 1
  sliceSizes := ![1, 150]
  wf := gather_S20000x150_S200000x1_S200000x150_1_0_n_n_0_1_1150_wf
def dot_S2000x150_S150x150_S2000x150_1_0_0_1_n_n : DotDims S2000x150 S150x150 S2000x150 where
  lhsContracting := [1]
  rhsContracting := [0]
  lhsNonContracting := [0]
  rhsNonContracting := [1]
  lhsBatch := []
  rhsBatch := []
  wf := dot_S2000x150_S150x150_S2000x150_1_0_0_1_n_n_wf
def gather_S50000x150_S500000x1_S500000x150_1_0_n_n_0_1_1150 : GatherDims S50000x150 S500000x1 S500000x150 where
  offsetDims := [1]
  collapsedSliceDims := [0]
  operandBatchingDims := []
  startIndicesBatchingDims := []
  startIndexMap := [0]
  indexVectorDim := 1
  sliceSizes := ![1, 150]
  wf := gather_S50000x150_S500000x1_S500000x150_1_0_n_n_0_1_1150_wf
def scatter_S20000x150_S500000x1_S500000x150_1_0_0_1 : ScatterDims S20000x150 S500000x1 S500000x150 where
  updateWindowDims := [1]
  insertedWindowDims := [0]
  scatterDimsToOperandDims := [0]
  indexVectorDim := 1
  wf := scatter_S20000x150_S500000x1_S500000x150_1_0_0_1_wf
def scatter_S20000_S500000x1_S500000_n_0_0_1 : ScatterDims S20000 S500000x1 S500000 where
  updateWindowDims := []
  insertedWindowDims := [0]
  scatterDimsToOperandDims := [0]
  indexVectorDim := 1
  wf := scatter_S20000_S500000x1_S500000_n_0_0_1_wf
def scatter_S20000x150_S200000x1_S200000x150_1_0_0_1 : ScatterDims S20000x150 S200000x1 S200000x150 where
  updateWindowDims := [1]
  insertedWindowDims := [0]
  scatterDimsToOperandDims := [0]
  indexVectorDim := 1
  wf := scatter_S20000x150_S200000x1_S200000x150_1_0_0_1_wf
def scatter_S20000_S200000x1_S200000_n_0_0_1 : ScatterDims S20000 S200000x1 S200000 where
  updateWindowDims := []
  insertedWindowDims := [0]
  scatterDimsToOperandDims := [0]
  indexVectorDim := 1
  wf := scatter_S20000_S200000x1_S200000_n_0_0_1_wf
def dot_S2000x768_S768x300_S2000x300_1_0_0_1_n_n : DotDims S2000x768 S768x300 S2000x300 where
  lhsContracting := [1]
  rhsContracting := [0]
  lhsNonContracting := [0]
  rhsNonContracting := [1]
  lhsBatch := []
  rhsBatch := []
  wf := dot_S2000x768_S768x300_S2000x300_1_0_0_1_n_n_wf
def dot_S2000x300_S300x200_S2000x200_1_0_0_1_n_n : DotDims S2000x300 S300x200 S2000x200 where
  lhsContracting := [1]
  rhsContracting := [0]
  lhsNonContracting := [0]
  rhsNonContracting := [1]
  lhsBatch := []
  rhsBatch := []
  wf := dot_S2000x300_S300x200_S2000x200_1_0_0_1_n_n_wf
def dot_S2000x200_S200x150_S2000x150_1_0_0_1_n_n : DotDims S2000x200 S200x150 S2000x150 where
  lhsContracting := [1]
  rhsContracting := [0]
  lhsNonContracting := [0]
  rhsNonContracting := [1]
  lhsBatch := []
  rhsBatch := []
  wf := dot_S2000x200_S200x150_S2000x150_1_0_0_1_n_n_wf
def dot_S10000x300_S300x150_S10000x150_1_0_0_1_n_n : DotDims S10000x300 S300x150 S10000x150 where
  lhsContracting := [1]
  rhsContracting := [0]
  lhsNonContracting := [0]
  rhsNonContracting := [1]
  lhsBatch := []
  rhsBatch := []
  wf := dot_S10000x300_S300x150_S10000x150_1_0_0_1_n_n_wf
def dot_S10000x150_S150x50_S10000x50_1_0_0_1_n_n : DotDims S10000x150 S150x50 S10000x50 where
  lhsContracting := [1]
  rhsContracting := [0]
  lhsNonContracting := [0]
  rhsNonContracting := [1]
  lhsBatch := []
  rhsBatch := []
  wf := dot_S10000x150_S150x50_S10000x50_1_0_0_1_n_n_wf
def dot_S10000x50_S50x3_S10000x3_1_0_0_1_n_n : DotDims S10000x50 S50x3 S10000x3 where
  lhsContracting := [1]
  rhsContracting := [0]
  lhsNonContracting := [0]
  rhsNonContracting := [1]
  lhsBatch := []
  rhsBatch := []
  wf := dot_S10000x50_S50x3_S10000x3_1_0_0_1_n_n_wf

abbrev win0_0 : Pipeline.Window sig grid0 :=
  Pipeline.Window.ofSpec (Memref.whole main_arg0) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S768x150.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x150.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x150.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x768.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S768x150.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x150.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2000x150.size cc1_transform_3 reads1_3 true false 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S2000x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S1024x150.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x150.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S2000x150.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v28) S5000x150.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S150x150.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S5000x150.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v65) S150x150.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v1) S5000x150.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v56) S150x150.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v66) S1x150.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v67) S5000x150.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v90) S2000x150.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_v125) S150x150.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v113) S2000x150.size cc4_transform_2 reads4_2 false false 1 stage4_2 sem4_2
    hrank4 hreads4_2 hinb4_2 nbuf4_2 (Memref.isWhole_whole _) hwx4_2 hstage4_2

abbrev win4_3 : Pipeline.Window sig grid4 :=
  Pipeline.Window.ofSpec (Memref.whole main_v127) S150x150.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v3) S2000x150.size cc4_transform_4 reads4_4 false false 1 stage4_4 sem4_4
    hrank4 hreads4_4 hinb4_4 nbuf4_4 (Memref.isWhole_whole _) hwx4_4 hstage4_4

abbrev win4_5 : Pipeline.Window sig grid4 :=
  Pipeline.Window.ofSpec (Memref.whole main_v118) S150x150.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v128) S1x150.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v129) S2000x150.size cc4_transform_7 reads4_7 true false 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v152) S5000x150.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v187) S150x150.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v175) S5000x150.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v189) S150x150.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v5) S5000x150.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v180) S150x150.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v190) S1x150.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v191) S5000x150.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v214) S5000x150.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v249) S150x150.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v237) S5000x150.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v251) S150x150.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v67) S5000x150.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v242) S150x150.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v252) S1x150.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v253) S5000x150.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v276) S2000x150.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_v311) S150x150.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v299) S2000x150.size cc7_transform_2 reads7_2 false false 1 stage7_2 sem7_2
    hrank7 hreads7_2 hinb7_2 nbuf7_2 (Memref.isWhole_whole _) hwx7_2 hstage7_2

abbrev win7_3 : Pipeline.Window sig grid7 :=
  Pipeline.Window.ofSpec (Memref.whole main_v313) S150x150.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v129) S2000x150.size cc7_transform_4 reads7_4 false false 1 stage7_4 sem7_4
    hrank7 hreads7_4 hinb7_4 nbuf7_4 (Memref.isWhole_whole _) hwx7_4 hstage7_4

abbrev win7_5 : Pipeline.Window sig grid7 :=
  Pipeline.Window.ofSpec (Memref.whole main_v304) S150x150.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v314) S1x150.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v315) S2000x150.size cc7_transform_7 reads7_7 true false 1 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v338) S5000x150.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v373) S150x150.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v361) S5000x150.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v375) S150x150.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v191) S5000x150.size cc8_transform_4 reads8_4 false false 2 stage8_4 sem8_4
    hrank8 hreads8_4 hinb8_4 nbuf8_4 (Memref.isWhole_whole _) hwx8_4 hstage8_4

abbrev win8_5 : Pipeline.Window sig grid8 :=
  Pipeline.Window.ofSpec (Memref.whole main_v366) S150x150.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v376) S1x150.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v377) S5000x150.size cc8_transform_7 reads8_7 true false 2 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev win9_0 : Pipeline.Window sig grid9 :=
  Pipeline.Window.ofSpec (Memref.whole main_v400) S5000x150.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v435) S150x150.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v423) S5000x150.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v437) S150x150.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v377) S5000x150.size cc9_transform_4 reads9_4 false false 2 stage9_4 sem9_4
    hrank9 hreads9_4 hinb9_4 nbuf9_4 (Memref.isWhole_whole _) hwx9_4 hstage9_4

abbrev win9_5 : Pipeline.Window sig grid9 :=
  Pipeline.Window.ofSpec (Memref.whole main_v428) S150x150.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v438) S1x150.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v439) S5000x150.size cc9_transform_7 reads9_7 true false 2 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

abbrev win10_0 : Pipeline.Window sig grid10 :=
  Pipeline.Window.ofSpec (Memref.whole main_arg0) S2000x768.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg12) S768x300.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v440) S1x300.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v441) S2000x300.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v441) S2000x300.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg14) S300x200.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v442) S1x200.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v443) S2000x200.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v443) S2000x200.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg16) S200x150.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v444) S1x150.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v445) S2000x150.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v464) S10000x300.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_arg18) S300x150.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v465) S1x150.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v466) S10000x150.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev win14_0 : Pipeline.Window sig grid14 :=
  Pipeline.Window.ofSpec (Memref.whole main_v466) S10000x150.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_arg20) S150x50.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v467) S1x50.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v468) S10000x50.size cc14_transform_3 reads14_3 true false 2 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

abbrev win15_0 : Pipeline.Window sig grid15 :=
  Pipeline.Window.ofSpec (Memref.whole main_v468) S10000x50.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_arg22) S50x3.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v469) S1x3.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v470) S10000x3.size cc15_transform_3 reads15_3 true false 2 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

class Facts : Prop extends Facts₀ where

variable [Facts]
-- ==== ReferenceIdeal.lean ====
abbrev S50000x768 : Shape := ⟨2, ![50000, 768]⟩
abbrev S2000x768 : Shape := ⟨2, ![2000, 768]⟩
abbrev S20000x1024 : Shape := ⟨2, ![20000, 1024]⟩
abbrev S768x150 : Shape := ⟨2, ![768, 150]⟩
abbrev S150 : Shape := ⟨1, ![150]⟩
abbrev S1024x150 : Shape := ⟨2, ![1024, 150]⟩
abbrev S3x6x150x150 : Shape := ⟨4, ![3, 6, 150, 150]⟩
abbrev S3x6x150 : Shape := ⟨3, ![3, 6, 150]⟩
abbrev S768x300 : Shape := ⟨2, ![768, 300]⟩
abbrev S300 : Shape := ⟨1, ![300]⟩
abbrev S300x200 : Shape := ⟨2, ![300, 200]⟩
abbrev S200 : Shape := ⟨1, ![200]⟩
abbrev S200x150 : Shape := ⟨2, ![200, 150]⟩
abbrev S300x150 : Shape := ⟨2, ![300, 150]⟩
abbrev S150x50 : Shape := ⟨2, ![150, 50]⟩
abbrev S50 : Shape := ⟨1, ![50]⟩
abbrev S50x3 : Shape := ⟨2, ![50, 3]⟩
abbrev S3 : Shape := ⟨1, ![3]⟩
abbrev S2x500000 : Shape := ⟨2, ![2, 500000]⟩
abbrev S2x200000 : Shape := ⟨2, ![2, 200000]⟩
abbrev S50000x150 : Shape := ⟨2, ![50000, 150]⟩
abbrev S1x150 : Shape := ⟨2, ![1, 150]⟩
abbrev S2000x150 : Shape := ⟨2, ![2000, 150]⟩
abbrev S20000x150 : Shape := ⟨2, ![20000, 150]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x150 : Shape := ⟨2, ![500000, 150]⟩
abbrev S50000 : Shape := ⟨1, ![50000]⟩
abbrev S50000x1 : Shape := ⟨2, ![50000, 1]⟩
abbrev S1x1x150x150 : Shape := ⟨4, ![1, 1, 150, 150]⟩
abbrev S150x150 : Shape := ⟨2, ![150, 150]⟩
abbrev S1x1x150 : Shape := ⟨3, ![1, 1, 150]⟩
abbrev S1x200000 : Shape := ⟨2, ![1, 200000]⟩
abbrev S200000 : Shape := ⟨1, ![200000]⟩
abbrev S200000x1 : Shape := ⟨2, ![200000, 1]⟩
abbrev S200000x150 : Shape := ⟨2, ![200000, 150]⟩
abbrev S2000 : Shape := ⟨1, ![2000]⟩
abbrev S2000x1 : Shape := ⟨2, ![2000, 1]⟩
abbrev S20000 : Shape := ⟨1, ![20000]⟩
abbrev S20000x1 : Shape := ⟨2, ![20000, 1]⟩
abbrev S50000x300 : Shape := ⟨2, ![50000, 300]⟩
abbrev S1x300 : Shape := ⟨2, ![1, 300]⟩
abbrev S50000x200 : Shape := ⟨2, ![50000, 200]⟩
abbrev S1x200 : Shape := ⟨2, ![1, 200]⟩
abbrev S500000x300 : Shape := ⟨2, ![500000, 300]⟩
abbrev S500000x50 : Shape := ⟨2, ![500000, 50]⟩
abbrev S1x50 : Shape := ⟨2, ![1, 50]⟩
abbrev S500000x3 : Shape := ⟨2, ![500000, 3]⟩
abbrev S1x3 : Shape := ⟨2, ![1, 3]⟩

abbrev nBuf : Space → Nat
  | .hbm => 864
  | .vmem => 0
  | .smem => 0
  | _ => 0

abbrev hbmTy0_0 (i : Nat) : BufTy := match i % 128 with
  | 0 => ⟨S50000x768, .f32⟩
  | 1 => ⟨S2000x768, .f32⟩
  | 2 => ⟨S20000x1024, .f32⟩
  | 3 => ⟨S768x150, .f32⟩
  | 4 => ⟨S150, .f32⟩
  | 5 => ⟨S768x150, .f32⟩
  | 6 => ⟨S150, .f32⟩
  | 7 => ⟨S1024x150, .f32⟩
  | 8 => ⟨S150, .f32⟩
  | 9 => ⟨S3x6x150x150, .f32⟩
  | 10 => ⟨S3x6x150, .f32⟩
  | 11 => ⟨S3x6x150x150, .f32⟩
  | 12 => ⟨S768x300, .f32⟩
  | 13 => ⟨S300, .f32⟩
  | 14 => ⟨S300x200, .f32⟩
  | 15 => ⟨S200, .f32⟩
  | 16 => ⟨S200x150, .f32⟩
  | 17 => ⟨S150, .f32⟩
  | 18 => ⟨S300x150, .f32⟩
  | 19 => ⟨S150, .f32⟩
  | 20 => ⟨S150x50, .f32⟩
  | 21 => ⟨S50, .f32⟩
  | 22 => ⟨S50x3, .f32⟩
  | 23 => ⟨S3, .f32⟩
  | 24 => ⟨S2x500000, .i32⟩
  | 25 => ⟨S2x200000, .i32⟩
  | 26 => ⟨S2x200000, .i32⟩
  | 27 => ⟨S2x500000, .i32⟩
  | 28 => ⟨S50000x150, .f32⟩
  | 29 => ⟨S1x150, .f32⟩
  | 30 => ⟨S50000x150, .f32⟩
  | 31 => ⟨S50000x150, .f32⟩
  | 32 => ⟨S2000x150, .f32⟩
  | 33 => ⟨S1x150, .f32⟩
  | 34 => ⟨S2000x150, .f32⟩
  | 35 => ⟨S2000x150, .f32⟩
  | 36 => ⟨S20000x150, .f32⟩
  | 37 => ⟨S1x150, .f32⟩
  | 38 => ⟨S20000x150, .f32⟩
  | 39 => ⟨S20000x150, .f32⟩
  | 40 => ⟨S1x500000, .i32⟩
  | 41 => ⟨S500000, .i32⟩
  | 42 => ⟨S1x500000, .i32⟩
  | 43 => ⟨S500000, .i32⟩
  | 44 => ⟨S_, .i32⟩
  | 45 => ⟨S500000, .i32⟩
  | 46 => ⟨S500000, .i1⟩
  | 47 => ⟨S_, .i32⟩
  | 48 => ⟨S500000, .i32⟩
  | 49 => ⟨S500000, .i32⟩
  | 50 => ⟨S500000, .i32⟩
  | 51 => ⟨S500000x1, .i32⟩
  | 52 => ⟨S500000x150, .f32⟩
  | 53 => ⟨S_, .f32⟩
  | 54 => ⟨S50000x150, .f32⟩
  | 55 => ⟨S500000x1, .i32⟩
  | 56 => ⟨S50000x150, .f32⟩
  | 57 => ⟨S_, .f32⟩
  | 58 => ⟨S500000, .f32⟩
  | 59 => ⟨S_, .f32⟩
  | 60 => ⟨S50000, .f32⟩
  | 61 => ⟨S500000x1, .i32⟩
  | 62 => ⟨S50000, .f32⟩
  | 63 => ⟨S_, .f32⟩
  | 64 => ⟨S50000, .f32⟩
  | 65 => ⟨S50000, .f32⟩
  | 66 => ⟨S50000x1, .f32⟩
  | 67 => ⟨S50000x150, .f32⟩
  | 68 => ⟨S50000x150, .f32⟩
  | 69 => ⟨S1x1x150x150, .f32⟩
  | 70 => ⟨S150x150, .f32⟩
  | 71 => ⟨S50000x150, .f32⟩
  | 72 => ⟨S1x1x150, .f32⟩
  | 73 => ⟨S150, .f32⟩
  | 74 => ⟨S1x150, .f32⟩
  | 75 => ⟨S50000x150, .f32⟩
  | 76 => ⟨S50000x150, .f32⟩
  | 77 => ⟨S1x1x150x150, .f32⟩
  | 78 => ⟨S150x150, .f32⟩
  | 79 => ⟨S50000x150, .f32⟩
  | 80 => ⟨S50000x150, .f32⟩
  | 81 => ⟨S1x200000, .i32⟩
  | 82 => ⟨S200000, .i32⟩
  | 83 => ⟨S1x200000, .i32⟩
  | 84 => ⟨S200000, .i32⟩
  | 85 => ⟨S_, .i32⟩
  | 86 => ⟨S200000, .i32⟩
  | 87 => ⟨S200000, .i1⟩
  | 88 => ⟨S_, .i32⟩
  | 89 => ⟨S200000, .i32⟩
  | 90 => ⟨S200000, .i32⟩
  | 91 => ⟨S200000, .i32⟩
  | 92 => ⟨S200000x1, .i32⟩
  | 93 => ⟨S200000x150, .f32⟩
  | 94 => ⟨S_, .f32⟩
  | 95 => ⟨S50000x150, .f32⟩
  | 96 => ⟨S200000x1, .i32⟩
  | 97 => ⟨S50000x150, .f32⟩
  | 98 => ⟨S_, .f32⟩
  | 99 => ⟨S200000, .f32⟩
  | 100 => ⟨S_, .f32⟩
  | 101 => ⟨S50000, .f32⟩
  | 102 => ⟨S200000x1, .i32⟩
  | 103 => ⟨S50000, .f32⟩
  | 104 => ⟨S_, .f32⟩
  | 105 => ⟨S50000, .f32⟩
  | 106 => ⟨S50000, .f32⟩
  | 107 => ⟨S50000x1, .f32⟩
  | 108 => ⟨S50000x150, .f32⟩
  | 109 => ⟨S50000x150, .f32⟩
  | 110 => ⟨S1x1x150x150, .f32⟩
  | 111 => ⟨S150x150, .f32⟩
  | 112 => ⟨S50000x150, .f32⟩
  | 113 => ⟨S1x1x150, .f32⟩
  | 114 => ⟨S150, .f32⟩
  | 115 => ⟨S1x150, .f32⟩
  | 116 => ⟨S50000x150, .f32⟩
  | 117 => ⟨S50000x150, .f32⟩
  | 118 => ⟨S1x1x150x150, .f32⟩
  | 119 => ⟨S150x150, .f32⟩
  | 120 => ⟨S50000x150, .f32⟩
  | 121 => ⟨S50000x150, .f32⟩
  | 122 => ⟨S50000x150, .f32⟩
  | 123 => ⟨S1x200000, .i32⟩
  | 124 => ⟨S200000, .i32⟩
  | 125 => ⟨S1x200000, .i32⟩
  | 126 => ⟨S200000, .i32⟩
  | 127 => ⟨S_, .i32⟩
  | _ => ⟨S50000x768, .f32⟩

abbrev hbmTy0_1 (i : Nat) : BufTy := match i % 128 with
  | 0 => ⟨S200000, .i32⟩
  | 1 => ⟨S200000, .i1⟩
  | 2 => ⟨S_, .i32⟩
  | 3 => ⟨S200000, .i32⟩
  | 4 => ⟨S200000, .i32⟩
  | 5 => ⟨S200000, .i32⟩
  | 6 => ⟨S200000x1, .i32⟩
  | 7 => ⟨S200000x150, .f32⟩
  | 8 => ⟨S_, .f32⟩
  | 9 => ⟨S2000x150, .f32⟩
  | 10 => ⟨S200000x1, .i32⟩
  | 11 => ⟨S2000x150, .f32⟩
  | 12 => ⟨S_, .f32⟩
  | 13 => ⟨S200000, .f32⟩
  | 14 => ⟨S_, .f32⟩
  | 15 => ⟨S2000, .f32⟩
  | 16 => ⟨S200000x1, .i32⟩
  | 17 => ⟨S2000, .f32⟩
  | 18 => ⟨S_, .f32⟩
  | 19 => ⟨S2000, .f32⟩
  | 20 => ⟨S2000, .f32⟩
  | 21 => ⟨S2000x1, .f32⟩
  | 22 => ⟨S2000x150, .f32⟩
  | 23 => ⟨S2000x150, .f32⟩
  | 24 => ⟨S1x1x150x150, .f32⟩
  | 25 => ⟨S150x150, .f32⟩
  | 26 => ⟨S2000x150, .f32⟩
  | 27 => ⟨S1x1x150, .f32⟩
  | 28 => ⟨S150, .f32⟩
  | 29 => ⟨S1x150, .f32⟩
  | 30 => ⟨S2000x150, .f32⟩
  | 31 => ⟨S2000x150, .f32⟩
  | 32 => ⟨S1x1x150x150, .f32⟩
  | 33 => ⟨S150x150, .f32⟩
  | 34 => ⟨S2000x150, .f32⟩
  | 35 => ⟨S2000x150, .f32⟩
  | 36 => ⟨S1x200000, .i32⟩
  | 37 => ⟨S200000, .i32⟩
  | 38 => ⟨S1x200000, .i32⟩
  | 39 => ⟨S200000, .i32⟩
  | 40 => ⟨S_, .i32⟩
  | 41 => ⟨S200000, .i32⟩
  | 42 => ⟨S200000, .i1⟩
  | 43 => ⟨S_, .i32⟩
  | 44 => ⟨S200000, .i32⟩
  | 45 => ⟨S200000, .i32⟩
  | 46 => ⟨S200000, .i32⟩
  | 47 => ⟨S200000x1, .i32⟩
  | 48 => ⟨S200000x150, .f32⟩
  | 49 => ⟨S_, .f32⟩
  | 50 => ⟨S2000x150, .f32⟩
  | 51 => ⟨S200000x1, .i32⟩
  | 52 => ⟨S2000x150, .f32⟩
  | 53 => ⟨S_, .f32⟩
  | 54 => ⟨S200000, .f32⟩
  | 55 => ⟨S_, .f32⟩
  | 56 => ⟨S2000, .f32⟩
  | 57 => ⟨S200000x1, .i32⟩
  | 58 => ⟨S2000, .f32⟩
  | 59 => ⟨S_, .f32⟩
  | 60 => ⟨S2000, .f32⟩
  | 61 => ⟨S2000, .f32⟩
  | 62 => ⟨S2000x1, .f32⟩
  | 63 => ⟨S2000x150, .f32⟩
  | 64 => ⟨S2000x150, .f32⟩
  | 65 => ⟨S1x1x150x150, .f32⟩
  | 66 => ⟨S150x150, .f32⟩
  | 67 => ⟨S2000x150, .f32⟩
  | 68 => ⟨S1x1x150, .f32⟩
  | 69 => ⟨S150, .f32⟩
  | 70 => ⟨S1x150, .f32⟩
  | 71 => ⟨S2000x150, .f32⟩
  | 72 => ⟨S2000x150, .f32⟩
  | 73 => ⟨S1x1x150x150, .f32⟩
  | 74 => ⟨S150x150, .f32⟩
  | 75 => ⟨S2000x150, .f32⟩
  | 76 => ⟨S2000x150, .f32⟩
  | 77 => ⟨S2000x150, .f32⟩
  | 78 => ⟨S1x500000, .i32⟩
  | 79 => ⟨S500000, .i32⟩
  | 80 => ⟨S1x500000, .i32⟩
  | 81 => ⟨S500000, .i32⟩
  | 82 => ⟨S_, .i32⟩
  | 83 => ⟨S500000, .i32⟩
  | 84 => ⟨S500000, .i1⟩
  | 85 => ⟨S_, .i32⟩
  | 86 => ⟨S500000, .i32⟩
  | 87 => ⟨S500000, .i32⟩
  | 88 => ⟨S500000, .i32⟩
  | 89 => ⟨S500000x1, .i32⟩
  | 90 => ⟨S500000x150, .f32⟩
  | 91 => ⟨S_, .f32⟩
  | 92 => ⟨S20000x150, .f32⟩
  | 93 => ⟨S500000x1, .i32⟩
  | 94 => ⟨S20000x150, .f32⟩
  | 95 => ⟨S_, .f32⟩
  | 96 => ⟨S500000, .f32⟩
  | 97 => ⟨S_, .f32⟩
  | 98 => ⟨S20000, .f32⟩
  | 99 => ⟨S500000x1, .i32⟩
  | 100 => ⟨S20000, .f32⟩
  | 101 => ⟨S_, .f32⟩
  | 102 => ⟨S20000, .f32⟩
  | 103 => ⟨S20000, .f32⟩
  | 104 => ⟨S20000x1, .f32⟩
  | 105 => ⟨S20000x150, .f32⟩
  | 106 => ⟨S20000x150, .f32⟩
  | 107 => ⟨S1x1x150x150, .f32⟩
  | 108 => ⟨S150x150, .f32⟩
  | 109 => ⟨S20000x150, .f32⟩
  | 110 => ⟨S1x1x150, .f32⟩
  | 111 => ⟨S150, .f32⟩
  | 112 => ⟨S1x150, .f32⟩
  | 113 => ⟨S20000x150, .f32⟩
  | 114 => ⟨S20000x150, .f32⟩
  | 115 => ⟨S1x1x150x150, .f32⟩
  | 116 => ⟨S150x150, .f32⟩
  | 117 => ⟨S20000x150, .f32⟩
  | 118 => ⟨S20000x150, .f32⟩
  | 119 => ⟨S1x200000, .i32⟩
  | 120 => ⟨S200000, .i32⟩
  | 121 => ⟨S1x200000, .i32⟩
  | 122 => ⟨S200000, .i32⟩
  | 123 => ⟨S_, .i32⟩
  | 124 => ⟨S200000, .i32⟩
  | 125 => ⟨S200000, .i1⟩
  | 126 => ⟨S_, .i32⟩
  | 127 => ⟨S200000, .i32⟩
  | _ => ⟨S50000x768, .f32⟩

abbrev hbmTy0_2 (i : Nat) : BufTy := match i % 128 with
  | 0 => ⟨S200000, .i32⟩
  | 1 => ⟨S200000, .i32⟩
  | 2 => ⟨S200000x1, .i32⟩
  | 3 => ⟨S200000x150, .f32⟩
  | 4 => ⟨S_, .f32⟩
  | 5 => ⟨S20000x150, .f32⟩
  | 6 => ⟨S200000x1, .i32⟩
  | 7 => ⟨S20000x150, .f32⟩
  | 8 => ⟨S_, .f32⟩
  | 9 => ⟨S200000, .f32⟩
  | 10 => ⟨S_, .f32⟩
  | 11 => ⟨S20000, .f32⟩
  | 12 => ⟨S200000x1, .i32⟩
  | 13 => ⟨S20000, .f32⟩
  | 14 => ⟨S_, .f32⟩
  | 15 => ⟨S20000, .f32⟩
  | 16 => ⟨S20000, .f32⟩
  | 17 => ⟨S20000x1, .f32⟩
  | 18 => ⟨S20000x150, .f32⟩
  | 19 => ⟨S20000x150, .f32⟩
  | 20 => ⟨S1x1x150x150, .f32⟩
  | 21 => ⟨S150x150, .f32⟩
  | 22 => ⟨S20000x150, .f32⟩
  | 23 => ⟨S1x1x150, .f32⟩
  | 24 => ⟨S150, .f32⟩
  | 25 => ⟨S1x150, .f32⟩
  | 26 => ⟨S20000x150, .f32⟩
  | 27 => ⟨S20000x150, .f32⟩
  | 28 => ⟨S1x1x150x150, .f32⟩
  | 29 => ⟨S150x150, .f32⟩
  | 30 => ⟨S20000x150, .f32⟩
  | 31 => ⟨S20000x150, .f32⟩
  | 32 => ⟨S20000x150, .f32⟩
  | 33 => ⟨S_, .f32⟩
  | 34 => ⟨S50000x150, .f32⟩
  | 35 => ⟨S50000x150, .f32⟩
  | 36 => ⟨S_, .f32⟩
  | 37 => ⟨S2000x150, .f32⟩
  | 38 => ⟨S2000x150, .f32⟩
  | 39 => ⟨S_, .f32⟩
  | 40 => ⟨S20000x150, .f32⟩
  | 41 => ⟨S20000x150, .f32⟩
  | 42 => ⟨S1x500000, .i32⟩
  | 43 => ⟨S500000, .i32⟩
  | 44 => ⟨S1x500000, .i32⟩
  | 45 => ⟨S500000, .i32⟩
  | 46 => ⟨S_, .i32⟩
  | 47 => ⟨S500000, .i32⟩
  | 48 => ⟨S500000, .i1⟩
  | 49 => ⟨S_, .i32⟩
  | 50 => ⟨S500000, .i32⟩
  | 51 => ⟨S500000, .i32⟩
  | 52 => ⟨S500000, .i32⟩
  | 53 => ⟨S500000x1, .i32⟩
  | 54 => ⟨S500000x150, .f32⟩
  | 55 => ⟨S_, .f32⟩
  | 56 => ⟨S50000x150, .f32⟩
  | 57 => ⟨S500000x1, .i32⟩
  | 58 => ⟨S50000x150, .f32⟩
  | 59 => ⟨S_, .f32⟩
  | 60 => ⟨S500000, .f32⟩
  | 61 => ⟨S_, .f32⟩
  | 62 => ⟨S50000, .f32⟩
  | 63 => ⟨S500000x1, .i32⟩
  | 64 => ⟨S50000, .f32⟩
  | 65 => ⟨S_, .f32⟩
  | 66 => ⟨S50000, .f32⟩
  | 67 => ⟨S50000, .f32⟩
  | 68 => ⟨S50000x1, .f32⟩
  | 69 => ⟨S50000x150, .f32⟩
  | 70 => ⟨S50000x150, .f32⟩
  | 71 => ⟨S1x1x150x150, .f32⟩
  | 72 => ⟨S150x150, .f32⟩
  | 73 => ⟨S50000x150, .f32⟩
  | 74 => ⟨S1x1x150, .f32⟩
  | 75 => ⟨S150, .f32⟩
  | 76 => ⟨S1x150, .f32⟩
  | 77 => ⟨S50000x150, .f32⟩
  | 78 => ⟨S50000x150, .f32⟩
  | 79 => ⟨S1x1x150x150, .f32⟩
  | 80 => ⟨S150x150, .f32⟩
  | 81 => ⟨S50000x150, .f32⟩
  | 82 => ⟨S50000x150, .f32⟩
  | 83 => ⟨S1x200000, .i32⟩
  | 84 => ⟨S200000, .i32⟩
  | 85 => ⟨S1x200000, .i32⟩
  | 86 => ⟨S200000, .i32⟩
  | 87 => ⟨S_, .i32⟩
  | 88 => ⟨S200000, .i32⟩
  | 89 => ⟨S200000, .i1⟩
  | 90 => ⟨S_, .i32⟩
  | 91 => ⟨S200000, .i32⟩
  | 92 => ⟨S200000, .i32⟩
  | 93 => ⟨S200000, .i32⟩
  | 94 => ⟨S200000x1, .i32⟩
  | 95 => ⟨S200000x150, .f32⟩
  | 96 => ⟨S_, .f32⟩
  | 97 => ⟨S50000x150, .f32⟩
  | 98 => ⟨S200000x1, .i32⟩
  | 99 => ⟨S50000x150, .f32⟩
  | 100 => ⟨S_, .f32⟩
  | 101 => ⟨S200000, .f32⟩
  | 102 => ⟨S_, .f32⟩
  | 103 => ⟨S50000, .f32⟩
  | 104 => ⟨S200000x1, .i32⟩
  | 105 => ⟨S50000, .f32⟩
  | 106 => ⟨S_, .f32⟩
  | 107 => ⟨S50000, .f32⟩
  | 108 => ⟨S50000, .f32⟩
  | 109 => ⟨S50000x1, .f32⟩
  | 110 => ⟨S50000x150, .f32⟩
  | 111 => ⟨S50000x150, .f32⟩
  | 112 => ⟨S1x1x150x150, .f32⟩
  | 113 => ⟨S150x150, .f32⟩
  | 114 => ⟨S50000x150, .f32⟩
  | 115 => ⟨S1x1x150, .f32⟩
  | 116 => ⟨S150, .f32⟩
  | 117 => ⟨S1x150, .f32⟩
  | 118 => ⟨S50000x150, .f32⟩
  | 119 => ⟨S50000x150, .f32⟩
  | 120 => ⟨S1x1x150x150, .f32⟩
  | 121 => ⟨S150x150, .f32⟩
  | 122 => ⟨S50000x150, .f32⟩
  | 123 => ⟨S50000x150, .f32⟩
  | 124 => ⟨S50000x150, .f32⟩
  | 125 => ⟨S1x200000, .i32⟩
  | 126 => ⟨S200000, .i32⟩
  | 127 => ⟨S1x200000, .i32⟩
  | _ => ⟨S50000x768, .f32⟩

abbrev hbmTy0_3 (i : Nat) : BufTy := match i % 128 with
  | 0 => ⟨S200000, .i32⟩
  | 1 => ⟨S_, .i32⟩
  | 2 => ⟨S200000, .i32⟩
  | 3 => ⟨S200000, .i1⟩
  | 4 => ⟨S_, .i32⟩
  | 5 => ⟨S200000, .i32⟩
  | 6 => ⟨S200000, .i32⟩
  | 7 => ⟨S200000, .i32⟩
  | 8 => ⟨S200000x1, .i32⟩
  | 9 => ⟨S200000x150, .f32⟩
  | 10 => ⟨S_, .f32⟩
  | 11 => ⟨S2000x150, .f32⟩
  | 12 => ⟨S200000x1, .i32⟩
  | 13 => ⟨S2000x150, .f32⟩
  | 14 => ⟨S_, .f32⟩
  | 15 => ⟨S200000, .f32⟩
  | 16 => ⟨S_, .f32⟩
  | 17 => ⟨S2000, .f32⟩
  | 18 => ⟨S200000x1, .i32⟩
  | 19 => ⟨S2000, .f32⟩
  | 20 => ⟨S_, .f32⟩
  | 21 => ⟨S2000, .f32⟩
  | 22 => ⟨S2000, .f32⟩
  | 23 => ⟨S2000x1, .f32⟩
  | 24 => ⟨S2000x150, .f32⟩
  | 25 => ⟨S2000x150, .f32⟩
  | 26 => ⟨S1x1x150x150, .f32⟩
  | 27 => ⟨S150x150, .f32⟩
  | 28 => ⟨S2000x150, .f32⟩
  | 29 => ⟨S1x1x150, .f32⟩
  | 30 => ⟨S150, .f32⟩
  | 31 => ⟨S1x150, .f32⟩
  | 32 => ⟨S2000x150, .f32⟩
  | 33 => ⟨S2000x150, .f32⟩
  | 34 => ⟨S1x1x150x150, .f32⟩
  | 35 => ⟨S150x150, .f32⟩
  | 36 => ⟨S2000x150, .f32⟩
  | 37 => ⟨S2000x150, .f32⟩
  | 38 => ⟨S1x200000, .i32⟩
  | 39 => ⟨S200000, .i32⟩
  | 40 => ⟨S1x200000, .i32⟩
  | 41 => ⟨S200000, .i32⟩
  | 42 => ⟨S_, .i32⟩
  | 43 => ⟨S200000, .i32⟩
  | 44 => ⟨S200000, .i1⟩
  | 45 => ⟨S_, .i32⟩
  | 46 => ⟨S200000, .i32⟩
  | 47 => ⟨S200000, .i32⟩
  | 48 => ⟨S200000, .i32⟩
  | 49 => ⟨S200000x1, .i32⟩
  | 50 => ⟨S200000x150, .f32⟩
  | 51 => ⟨S_, .f32⟩
  | 52 => ⟨S2000x150, .f32⟩
  | 53 => ⟨S200000x1, .i32⟩
  | 54 => ⟨S2000x150, .f32⟩
  | 55 => ⟨S_, .f32⟩
  | 56 => ⟨S200000, .f32⟩
  | 57 => ⟨S_, .f32⟩
  | 58 => ⟨S2000, .f32⟩
  | 59 => ⟨S200000x1, .i32⟩
  | 60 => ⟨S2000, .f32⟩
  | 61 => ⟨S_, .f32⟩
  | 62 => ⟨S2000, .f32⟩
  | 63 => ⟨S2000, .f32⟩
  | 64 => ⟨S2000x1, .f32⟩
  | 65 => ⟨S2000x150, .f32⟩
  | 66 => ⟨S2000x150, .f32⟩
  | 67 => ⟨S1x1x150x150, .f32⟩
  | 68 => ⟨S150x150, .f32⟩
  | 69 => ⟨S2000x150, .f32⟩
  | 70 => ⟨S1x1x150, .f32⟩
  | 71 => ⟨S150, .f32⟩
  | 72 => ⟨S1x150, .f32⟩
  | 73 => ⟨S2000x150, .f32⟩
  | 74 => ⟨S2000x150, .f32⟩
  | 75 => ⟨S1x1x150x150, .f32⟩
  | 76 => ⟨S150x150, .f32⟩
  | 77 => ⟨S2000x150, .f32⟩
  | 78 => ⟨S2000x150, .f32⟩
  | 79 => ⟨S2000x150, .f32⟩
  | 80 => ⟨S1x500000, .i32⟩
  | 81 => ⟨S500000, .i32⟩
  | 82 => ⟨S1x500000, .i32⟩
  | 83 => ⟨S500000, .i32⟩
  | 84 => ⟨S_, .i32⟩
  | 85 => ⟨S500000, .i32⟩
  | 86 => ⟨S500000, .i1⟩
  | 87 => ⟨S_, .i32⟩
  | 88 => ⟨S500000, .i32⟩
  | 89 => ⟨S500000, .i32⟩
  | 90 => ⟨S500000, .i32⟩
  | 91 => ⟨S500000x1, .i32⟩
  | 92 => ⟨S500000x150, .f32⟩
  | 93 => ⟨S_, .f32⟩
  | 94 => ⟨S20000x150, .f32⟩
  | 95 => ⟨S500000x1, .i32⟩
  | 96 => ⟨S20000x150, .f32⟩
  | 97 => ⟨S_, .f32⟩
  | 98 => ⟨S500000, .f32⟩
  | 99 => ⟨S_, .f32⟩
  | 100 => ⟨S20000, .f32⟩
  | 101 => ⟨S500000x1, .i32⟩
  | 102 => ⟨S20000, .f32⟩
  | 103 => ⟨S_, .f32⟩
  | 104 => ⟨S20000, .f32⟩
  | 105 => ⟨S20000, .f32⟩
  | 106 => ⟨S20000x1, .f32⟩
  | 107 => ⟨S20000x150, .f32⟩
  | 108 => ⟨S20000x150, .f32⟩
  | 109 => ⟨S1x1x150x150, .f32⟩
  | 110 => ⟨S150x150, .f32⟩
  | 111 => ⟨S20000x150, .f32⟩
  | 112 => ⟨S1x1x150, .f32⟩
  | 113 => ⟨S150, .f32⟩
  | 114 => ⟨S1x150, .f32⟩
  | 115 => ⟨S20000x150, .f32⟩
  | 116 => ⟨S20000x150, .f32⟩
  | 117 => ⟨S1x1x150x150, .f32⟩
  | 118 => ⟨S150x150, .f32⟩
  | 119 => ⟨S20000x150, .f32⟩
  | 120 => ⟨S20000x150, .f32⟩
  | 121 => ⟨S1x200000, .i32⟩
  | 122 => ⟨S200000, .i32⟩
  | 123 => ⟨S1x200000, .i32⟩
  | 124 => ⟨S200000, .i32⟩
  | 125 => ⟨S_, .i32⟩
  | 126 => ⟨S200000, .i32⟩
  | 127 => ⟨S200000, .i1⟩
  | _ => ⟨S50000x768, .f32⟩

abbrev hbmTy0_4 (i : Nat) : BufTy := match i % 128 with
  | 0 => ⟨S_, .i32⟩
  | 1 => ⟨S200000, .i32⟩
  | 2 => ⟨S200000, .i32⟩
  | 3 => ⟨S200000, .i32⟩
  | 4 => ⟨S200000x1, .i32⟩
  | 5 => ⟨S200000x150, .f32⟩
  | 6 => ⟨S_, .f32⟩
  | 7 => ⟨S20000x150, .f32⟩
  | 8 => ⟨S200000x1, .i32⟩
  | 9 => ⟨S20000x150, .f32⟩
  | 10 => ⟨S_, .f32⟩
  | 11 => ⟨S200000, .f32⟩
  | 12 => ⟨S_, .f32⟩
  | 13 => ⟨S20000, .f32⟩
  | 14 => ⟨S200000x1, .i32⟩
  | 15 => ⟨S20000, .f32⟩
  | 16 => ⟨S_, .f32⟩
  | 17 => ⟨S20000, .f32⟩
  | 18 => ⟨S20000, .f32⟩
  | 19 => ⟨S20000x1, .f32⟩
  | 20 => ⟨S20000x150, .f32⟩
  | 21 => ⟨S20000x150, .f32⟩
  | 22 => ⟨S1x1x150x150, .f32⟩
  | 23 => ⟨S150x150, .f32⟩
  | 24 => ⟨S20000x150, .f32⟩
  | 25 => ⟨S1x1x150, .f32⟩
  | 26 => ⟨S150, .f32⟩
  | 27 => ⟨S1x150, .f32⟩
  | 28 => ⟨S20000x150, .f32⟩
  | 29 => ⟨S20000x150, .f32⟩
  | 30 => ⟨S1x1x150x150, .f32⟩
  | 31 => ⟨S150x150, .f32⟩
  | 32 => ⟨S20000x150, .f32⟩
  | 33 => ⟨S20000x150, .f32⟩
  | 34 => ⟨S20000x150, .f32⟩
  | 35 => ⟨S_, .f32⟩
  | 36 => ⟨S50000x150, .f32⟩
  | 37 => ⟨S50000x150, .f32⟩
  | 38 => ⟨S_, .f32⟩
  | 39 => ⟨S2000x150, .f32⟩
  | 40 => ⟨S2000x150, .f32⟩
  | 41 => ⟨S_, .f32⟩
  | 42 => ⟨S20000x150, .f32⟩
  | 43 => ⟨S20000x150, .f32⟩
  | 44 => ⟨S1x500000, .i32⟩
  | 45 => ⟨S500000, .i32⟩
  | 46 => ⟨S1x500000, .i32⟩
  | 47 => ⟨S500000, .i32⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S500000x150, .f32⟩
  | 57 => ⟨S_, .f32⟩
  | 58 => ⟨S50000x150, .f32⟩
  | 59 => ⟨S500000x1, .i32⟩
  | 60 => ⟨S50000x150, .f32⟩
  | 61 => ⟨S_, .f32⟩
  | 62 => ⟨S500000, .f32⟩
  | 63 => ⟨S_, .f32⟩
  | 64 => ⟨S50000, .f32⟩
  | 65 => ⟨S500000x1, .i32⟩
  | 66 => ⟨S50000, .f32⟩
  | 67 => ⟨S_, .f32⟩
  | 68 => ⟨S50000, .f32⟩
  | 69 => ⟨S50000, .f32⟩
  | 70 => ⟨S50000x1, .f32⟩
  | 71 => ⟨S50000x150, .f32⟩
  | 72 => ⟨S50000x150, .f32⟩
  | 73 => ⟨S1x1x150x150, .f32⟩
  | 74 => ⟨S150x150, .f32⟩
  | 75 => ⟨S50000x150, .f32⟩
  | 76 => ⟨S1x1x150, .f32⟩
  | 77 => ⟨S150, .f32⟩
  | 78 => ⟨S1x150, .f32⟩
  | 79 => ⟨S50000x150, .f32⟩
  | 80 => ⟨S50000x150, .f32⟩
  | 81 => ⟨S1x1x150x150, .f32⟩
  | 82 => ⟨S150x150, .f32⟩
  | 83 => ⟨S50000x150, .f32⟩
  | 84 => ⟨S50000x150, .f32⟩
  | 85 => ⟨S1x200000, .i32⟩
  | 86 => ⟨S200000, .i32⟩
  | 87 => ⟨S1x200000, .i32⟩
  | 88 => ⟨S200000, .i32⟩
  | 89 => ⟨S_, .i32⟩
  | 90 => ⟨S200000, .i32⟩
  | 91 => ⟨S200000, .i1⟩
  | 92 => ⟨S_, .i32⟩
  | 93 => ⟨S200000, .i32⟩
  | 94 => ⟨S200000, .i32⟩
  | 95 => ⟨S200000, .i32⟩
  | 96 => ⟨S200000x1, .i32⟩
  | 97 => ⟨S200000x150, .f32⟩
  | 98 => ⟨S_, .f32⟩
  | 99 => ⟨S50000x150, .f32⟩
  | 100 => ⟨S200000x1, .i32⟩
  | 101 => ⟨S50000x150, .f32⟩
  | 102 => ⟨S_, .f32⟩
  | 103 => ⟨S200000, .f32⟩
  | 104 => ⟨S_, .f32⟩
  | 105 => ⟨S50000, .f32⟩
  | 106 => ⟨S200000x1, .i32⟩
  | 107 => ⟨S50000, .f32⟩
  | 108 => ⟨S_, .f32⟩
  | 109 => ⟨S50000, .f32⟩
  | 110 => ⟨S50000, .f32⟩
  | 111 => ⟨S50000x1, .f32⟩
  | 112 => ⟨S50000x150, .f32⟩
  | 113 => ⟨S50000x150, .f32⟩
  | 114 => ⟨S1x1x150x150, .f32⟩
  | 115 => ⟨S150x150, .f32⟩
  | 116 => ⟨S50000x150, .f32⟩
  | 117 => ⟨S1x1x150, .f32⟩
  | 118 => ⟨S150, .f32⟩
  | 119 => ⟨S1x150, .f32⟩
  | 120 => ⟨S50000x150, .f32⟩
  | 121 => ⟨S50000x150, .f32⟩
  | 122 => ⟨S1x1x150x150, .f32⟩
  | 123 => ⟨S150x150, .f32⟩
  | 124 => ⟨S50000x150, .f32⟩
  | 125 => ⟨S50000x150, .f32⟩
  | 126 => ⟨S50000x150, .f32⟩
  | 127 => ⟨S1x200000, .i32⟩
  | _ => ⟨S50000x768, .f32⟩

abbrev hbmTy0_5 (i : Nat) : BufTy := match i % 128 with
  | 0 => ⟨S200000, .i32⟩
  | 1 => ⟨S1x200000, .i32⟩
  | 2 => ⟨S200000, .i32⟩
  | 3 => ⟨S_, .i32⟩
  | 4 => ⟨S200000, .i32⟩
  | 5 => ⟨S200000, .i1⟩
  | 6 => ⟨S_, .i32⟩
  | 7 => ⟨S200000, .i32⟩
  | 8 => ⟨S200000, .i32⟩
  | 9 => ⟨S200000, .i32⟩
  | 10 => ⟨S200000x1, .i32⟩
  | 11 => ⟨S200000x150, .f32⟩
  | 12 => ⟨S_, .f32⟩
  | 13 => ⟨S2000x150, .f32⟩
  | 14 => ⟨S200000x1, .i32⟩
  | 15 => ⟨S2000x150, .f32⟩
  | 16 => ⟨S_, .f32⟩
  | 17 => ⟨S200000, .f32⟩
  | 18 => ⟨S_, .f32⟩
  | 19 => ⟨S2000, .f32⟩
  | 20 => ⟨S200000x1, .i32⟩
  | 21 => ⟨S2000, .f32⟩
  | 22 => ⟨S_, .f32⟩
  | 23 => ⟨S2000, .f32⟩
  | 24 => ⟨S2000, .f32⟩
  | 25 => ⟨S2000x1, .f32⟩
  | 26 => ⟨S2000x150, .f32⟩
  | 27 => ⟨S2000x150, .f32⟩
  | 28 => ⟨S1x1x150x150, .f32⟩
  | 29 => ⟨S150x150, .f32⟩
  | 30 => ⟨S2000x150, .f32⟩
  | 31 => ⟨S1x1x150, .f32⟩
  | 32 => ⟨S150, .f32⟩
  | 33 => ⟨S1x150, .f32⟩
  | 34 => ⟨S2000x150, .f32⟩
  | 35 => ⟨S2000x150, .f32⟩
  | 36 => ⟨S1x1x150x150, .f32⟩
  | 37 => ⟨S150x150, .f32⟩
  | 38 => ⟨S2000x150, .f32⟩
  | 39 => ⟨S2000x150, .f32⟩
  | 40 => ⟨S1x200000, .i32⟩
  | 41 => ⟨S200000, .i32⟩
  | 42 => ⟨S1x200000, .i32⟩
  | 43 => ⟨S200000, .i32⟩
  | 44 => ⟨S_, .i32⟩
  | 45 => ⟨S200000, .i32⟩
  | 46 => ⟨S200000, .i1⟩
  | 47 => ⟨S_, .i32⟩
  | 48 => ⟨S200000, .i32⟩
  | 49 => ⟨S200000, .i32⟩
  | 50 => ⟨S200000, .i32⟩
  | 51 => ⟨S200000x1, .i32⟩
  | 52 => ⟨S200000x150, .f32⟩
  | 53 => ⟨S_, .f32⟩
  | 54 => ⟨S2000x150, .f32⟩
  | 55 => ⟨S200000x1, .i32⟩
  | 56 => ⟨S2000x150, .f32⟩
  | 57 => ⟨S_, .f32⟩
  | 58 => ⟨S200000, .f32⟩
  | 59 => ⟨S_, .f32⟩
  | 60 => ⟨S2000, .f32⟩
  | 61 => ⟨S200000x1, .i32⟩
  | 62 => ⟨S2000, .f32⟩
  | 63 => ⟨S_, .f32⟩
  | 64 => ⟨S2000, .f32⟩
  | 65 => ⟨S2000, .f32⟩
  | 66 => ⟨S2000x1, .f32⟩
  | 67 => ⟨S2000x150, .f32⟩
  | 68 => ⟨S2000x150, .f32⟩
  | 69 => ⟨S1x1x150x150, .f32⟩
  | 70 => ⟨S150x150, .f32⟩
  | 71 => ⟨S2000x150, .f32⟩
  | 72 => ⟨S1x1x150, .f32⟩
  | 73 => ⟨S150, .f32⟩
  | 74 => ⟨S1x150, .f32⟩
  | 75 => ⟨S2000x150, .f32⟩
  | 76 => ⟨S2000x150, .f32⟩
  | 77 => ⟨S1x1x150x150, .f32⟩
  | 78 => ⟨S150x150, .f32⟩
  | 79 => ⟨S2000x150, .f32⟩
  | 80 => ⟨S2000x150, .f32⟩
  | 81 => ⟨S2000x150, .f32⟩
  | 82 => ⟨S1x500000, .i32⟩
  | 83 => ⟨S500000, .i32⟩
  | 84 => ⟨S1x500000, .i32⟩
  | 85 => ⟨S500000, .i32⟩
  | 86 => ⟨S_, .i32⟩
  | 87 => ⟨S500000, .i32⟩
  | 88 => ⟨S500000, .i1⟩
  | 89 => ⟨S_, .i32⟩
  | 90 => ⟨S500000, .i32⟩
  | 91 => ⟨S500000, .i32⟩
  | 92 => ⟨S500000, .i32⟩
  | 93 => ⟨S500000x1, .i32⟩
  | 94 => ⟨S500000x150, .f32⟩
  | 95 => ⟨S_, .f32⟩
  | 96 => ⟨S20000x150, .f32⟩
  | 97 => ⟨S500000x1, .i32⟩
  | 98 => ⟨S20000x150, .f32⟩
  | 99 => ⟨S_, .f32⟩
  | 100 => ⟨S500000, .f32⟩
  | 101 => ⟨S_, .f32⟩
  | 102 => ⟨S20000, .f32⟩
  | 103 => ⟨S500000x1, .i32⟩
  | 104 => ⟨S20000, .f32⟩
  | 105 => ⟨S_, .f32⟩
  | 106 => ⟨S20000, .f32⟩
  | 107 => ⟨S20000, .f32⟩
  | 108 => ⟨S20000x1, .f32⟩
  | 109 => ⟨S20000x150, .f32⟩
  | 110 => ⟨S20000x150, .f32⟩
  | 111 => ⟨S1x1x150x150, .f32⟩
  | 112 => ⟨S150x150, .f32⟩
  | 113 => ⟨S20000x150, .f32⟩
  | 114 => ⟨S1x1x150, .f32⟩
  | 115 => ⟨S150, .f32⟩
  | 116 => ⟨S1x150, .f32⟩
  | 117 => ⟨S20000x150, .f32⟩
  | 118 => ⟨S20000x150, .f32⟩
  | 119 => ⟨S1x1x150x150, .f32⟩
  | 120 => ⟨S150x150, .f32⟩
  | 121 => ⟨S20000x150, .f32⟩
  | 122 => ⟨S20000x150, .f32⟩
  | 123 => ⟨S1x200000, .i32⟩
  | 124 => ⟨S200000, .i32⟩
  | 125 => ⟨S1x200000, .i32⟩
  | 126 => ⟨S200000, .i32⟩
  | 127 => ⟨S_, .i32⟩
  | _ => ⟨S50000x768, .f32⟩

abbrev hbmTy0_6 (i : Nat) : BufTy := match i % 128 with
  | 0 => ⟨S200000, .i32⟩
  | 1 => ⟨S200000, .i1⟩
  | 2 => ⟨S_, .i32⟩
  | 3 => ⟨S200000, .i32⟩
  | 4 => ⟨S200000, .i32⟩
  | 5 => ⟨S200000, .i32⟩
  | 6 => ⟨S200000x1, .i32⟩
  | 7 => ⟨S200000x150, .f32⟩
  | 8 => ⟨S_, .f32⟩
  | 9 => ⟨S20000x150, .f32⟩
  | 10 => ⟨S200000x1, .i32⟩
  | 11 => ⟨S20000x150, .f32⟩
  | 12 => ⟨S_, .f32⟩
  | 13 => ⟨S200000, .f32⟩
  | 14 => ⟨S_, .f32⟩
  | 15 => ⟨S20000, .f32⟩
  | 16 => ⟨S200000x1, .i32⟩
  | 17 => ⟨S20000, .f32⟩
  | 18 => ⟨S_, .f32⟩
  | 19 => ⟨S20000, .f32⟩
  | 20 => ⟨S20000, .f32⟩
  | 21 => ⟨S20000x1, .f32⟩
  | 22 => ⟨S20000x150, .f32⟩
  | 23 => ⟨S20000x150, .f32⟩
  | 24 => ⟨S1x1x150x150, .f32⟩
  | 25 => ⟨S150x150, .f32⟩
  | 26 => ⟨S20000x150, .f32⟩
  | 27 => ⟨S1x1x150, .f32⟩
  | 28 => ⟨S150, .f32⟩
  | 29 => ⟨S1x150, .f32⟩
  | 30 => ⟨S20000x150, .f32⟩
  | 31 => ⟨S20000x150, .f32⟩
  | 32 => ⟨S1x1x150x150, .f32⟩
  | 33 => ⟨S150x150, .f32⟩
  | 34 => ⟨S20000x150, .f32⟩
  | 35 => ⟨S20000x150, .f32⟩
  | 36 => ⟨S20000x150, .f32⟩
  | 37 => ⟨S50000x300, .f32⟩
  | 38 => ⟨S1x300, .f32⟩
  | 39 => ⟨S50000x300, .f32⟩
  | 40 => ⟨S50000x300, .f32⟩
  | 41 => ⟨S_, .f32⟩
  | 42 => ⟨S50000x300, .f32⟩
  | 43 => ⟨S50000x300, .f32⟩
  | 44 => ⟨S50000x200, .f32⟩
  | 45 => ⟨S1x200, .f32⟩
  | 46 => ⟨S50000x200, .f32⟩
  | 47 => ⟨S50000x200, .f32⟩
  | 48 => ⟨S_, .f32⟩
  | 49 => ⟨S50000x200, .f32⟩
  | 50 => ⟨S50000x200, .f32⟩
  | 51 => ⟨S50000x150, .f32⟩
  | 52 => ⟨S1x150, .f32⟩
  | 53 => ⟨S50000x150, .f32⟩
  | 54 => ⟨S50000x150, .f32⟩
  | 55 => ⟨S1x500000, .i32⟩
  | 56 => ⟨S500000, .i32⟩
  | 57 => ⟨S_, .i32⟩
  | 58 => ⟨S500000, .i32⟩
  | 59 => ⟨S500000, .i1⟩
  | 60 => ⟨S_, .i32⟩
  | 61 => ⟨S500000, .i32⟩
  | 62 => ⟨S500000, .i32⟩
  | 63 => ⟨S500000, .i32⟩
  | 64 => ⟨S500000x1, .i32⟩
  | 65 => ⟨S500000x150, .f32⟩
  | 66 => ⟨S1x500000, .i32⟩
  | 67 => ⟨S500000, .i32⟩
  | 68 => ⟨S_, .i32⟩
  | 69 => ⟨S500000, .i32⟩
  | 70 => ⟨S500000, .i1⟩
  | 71 => ⟨S_, .i32⟩
  | 72 => ⟨S500000, .i32⟩
  | 73 => ⟨S500000, .i32⟩
  | 74 => ⟨S500000, .i32⟩
  | 75 => ⟨S500000x1, .i32⟩
  | 76 => ⟨S500000x150, .f32⟩
  | 77 => ⟨S500000x300, .f32⟩
  | 78 => ⟨S500000x150, .f32⟩
  | 79 => ⟨S1x150, .f32⟩
  | 80 => ⟨S500000x150, .f32⟩
  | 81 => ⟨S500000x150, .f32⟩
  | 82 => ⟨S_, .f32⟩
  | 83 => ⟨S500000x150, .f32⟩
  | 84 => ⟨S500000x150, .f32⟩
  | 85 => ⟨S500000x50, .f32⟩
  | 86 => ⟨S1x50, .f32⟩
  | 87 => ⟨S500000x50, .f32⟩
  | 88 => ⟨S500000x50, .f32⟩
  | 89 => ⟨S_, .f32⟩
  | 90 => ⟨S500000x50, .f32⟩
  | 91 => ⟨S500000x50, .f32⟩
  | 92 => ⟨S500000x3, .f32⟩
  | 93 => ⟨S1x3, .f32⟩
  | 94 => ⟨S500000x3, .f32⟩
  | 95 => ⟨S500000x3, .f32⟩
  | _ => ⟨S50000x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S50000x768, .f32⟩

abbrev bufTy : (tb : Table) → Fin (tcTables nBuf tb) → BufTy
  | .hbm, ⟨i, _⟩ => hbmTy i
  | _, _ => ⟨S50000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_c : Ref sig .tc := ⟨.hbm, 44, rfl⟩
abbrev main_v16 : Ref sig .tc := ⟨.hbm, 45, rfl⟩
abbrev main_v17 : Ref sig .tc := ⟨.hbm, 46, rfl⟩
abbrev main_c_0 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_cst_1 : Ref sig .tc := ⟨.hbm, 57, rfl⟩
abbrev main_v26 : Ref sig .tc := ⟨.hbm, 58, rfl⟩
abbrev main_cst_2 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_cst_3 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_c_4 : Ref sig .tc := ⟨.hbm, 85, rfl⟩
abbrev main_v51 : Ref sig .tc := ⟨.hbm, 86, rfl⟩
abbrev main_v52 : Ref sig .tc := ⟨.hbm, 87, rfl⟩
abbrev main_c_5 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_6 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_7 : Ref sig .tc := ⟨.hbm, 98, rfl⟩
abbrev main_v61 : Ref sig .tc := ⟨.hbm, 99, rfl⟩
abbrev main_cst_8 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_9 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_c_10 : Ref sig .tc := ⟨.hbm, 127, rfl⟩
abbrev main_v87 : Ref sig .tc := ⟨.hbm, 128, rfl⟩
abbrev main_v88 : Ref sig .tc := ⟨.hbm, 129, rfl⟩
abbrev main_c_11 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_12 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_13 : Ref sig .tc := ⟨.hbm, 140, rfl⟩
abbrev main_v97 : Ref sig .tc := ⟨.hbm, 141, rfl⟩
abbrev main_cst_14 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_cst_15 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_c_16 : Ref sig .tc := ⟨.hbm, 168, rfl⟩
abbrev main_v122 : Ref sig .tc := ⟨.hbm, 169, rfl⟩
abbrev main_v123 : Ref sig .tc := ⟨.hbm, 170, rfl⟩
abbrev main_c_17 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_cst_18 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_cst_19 : Ref sig .tc := ⟨.hbm, 181, rfl⟩
abbrev main_v132 : Ref sig .tc := ⟨.hbm, 182, rfl⟩
abbrev main_cst_20 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_cst_21 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_c_22 : Ref sig .tc := ⟨.hbm, 210, rfl⟩
abbrev main_v158 : Ref sig .tc := ⟨.hbm, 211, rfl⟩
abbrev main_v159 : Ref sig .tc := ⟨.hbm, 212, rfl⟩
abbrev main_c_23 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_cst_24 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_cst_25 : Ref sig .tc := ⟨.hbm, 223, rfl⟩
abbrev main_v168 : Ref sig .tc := ⟨.hbm, 224, rfl⟩
abbrev main_cst_26 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_cst_27 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_c_28 : Ref sig .tc := ⟨.hbm, 251, rfl⟩
abbrev main_v193 : Ref sig .tc := ⟨.hbm, 252, rfl⟩
abbrev main_v194 : Ref sig .tc := ⟨.hbm, 253, rfl⟩
abbrev main_c_29 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_cst_30 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_cst_31 : Ref sig .tc := ⟨.hbm, 264, rfl⟩
abbrev main_v203 : Ref sig .tc := ⟨.hbm, 265, rfl⟩
abbrev main_cst_32 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_cst_33 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_v222 : Ref sig .tc := ⟨.hbm, 286, rfl⟩
abbrev main_v223 : Ref sig .tc := ⟨.hbm, 287, rfl⟩
abbrev main_v224 : Ref sig .tc := ⟨.hbm, 288, rfl⟩
abbrev main_call0_cst : Ref sig .tc := ⟨.hbm, 289, rfl⟩
abbrev main_call0_v0 : Ref sig .tc := ⟨.hbm, 290, rfl⟩
abbrev main_v225 : Ref sig .tc := ⟨.hbm, 291, rfl⟩
abbrev main_call1_cst : Ref sig .tc := ⟨.hbm, 292, rfl⟩
abbrev main_call1_v0 : Ref sig .tc := ⟨.hbm, 293, rfl⟩
abbrev main_v226 : Ref sig .tc := ⟨.hbm, 294, rfl⟩
abbrev main_call2_cst : Ref sig .tc := ⟨.hbm, 295, rfl⟩
abbrev main_call2_v0 : Ref sig .tc := ⟨.hbm, 296, rfl⟩
abbrev main_v227 : Ref sig .tc := ⟨.hbm, 297, rfl⟩
abbrev main_v228 : Ref sig .tc := ⟨.hbm, 298, rfl⟩
abbrev main_v229 : Ref sig .tc := ⟨.hbm, 299, rfl⟩
abbrev main_v230 : Ref sig .tc := ⟨.hbm, 300, rfl⟩
abbrev main_v231 : Ref sig .tc := ⟨.hbm, 301, rfl⟩
abbrev main_c_34 : Ref sig .tc := ⟨.hbm, 302, rfl⟩
abbrev main_v232 : Ref sig .tc := ⟨.hbm, 303, rfl⟩
abbrev main_v233 : Ref sig .tc := ⟨.hbm, 304, rfl⟩
abbrev main_c_35 : Ref sig .tc := ⟨.hbm, 305, rfl⟩
abbrev main_v234 : Ref sig .tc := ⟨.hbm, 306, rfl⟩
abbrev main_v235 : Ref sig .tc := ⟨.hbm, 307, rfl⟩
abbrev main_v236 : Ref sig .tc := ⟨.hbm, 308, rfl⟩
abbrev main_v237 : Ref sig .tc := ⟨.hbm, 309, rfl⟩
abbrev main_v238 : Ref sig .tc := ⟨.hbm, 310, rfl⟩
abbrev main_cst_36 : Ref sig .tc := ⟨.hbm, 311, rfl⟩
abbrev main_v239 : Ref sig .tc := ⟨.hbm, 312, rfl⟩
abbrev main_v240 : Ref sig .tc := ⟨.hbm, 313, rfl⟩
abbrev main_v241 : Ref sig .tc := ⟨.hbm, 314, rfl⟩
abbrev main_cst_37 : Ref sig .tc := ⟨.hbm, 315, rfl⟩
abbrev main_v242 : Ref sig .tc := ⟨.hbm, 316, rfl⟩
abbrev main_cst_38 : Ref sig .tc := ⟨.hbm, 317, rfl⟩
abbrev main_v243 : Ref sig .tc := ⟨.hbm, 318, rfl⟩
abbrev main_v244 : Ref sig .tc := ⟨.hbm, 319, rfl⟩
abbrev main_v245 : Ref sig .tc := ⟨.hbm, 320, rfl⟩
abbrev main_cst_39 : Ref sig .tc := ⟨.hbm, 321, rfl⟩
abbrev main_v246 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩
abbrev main_v250 : Ref sig .tc := ⟨.hbm, 326, rfl⟩
abbrev main_v251 : Ref sig .tc := ⟨.hbm, 327, rfl⟩
abbrev main_v252 : Ref sig .tc := ⟨.hbm, 328, rfl⟩
abbrev main_v253 : Ref sig .tc := ⟨.hbm, 329, rfl⟩
abbrev main_v254 : Ref sig .tc := ⟨.hbm, 330, rfl⟩
abbrev main_v255 : Ref sig .tc := ⟨.hbm, 331, rfl⟩
abbrev main_v256 : Ref sig .tc := ⟨.hbm, 332, rfl⟩
abbrev main_v257 : Ref sig .tc := ⟨.hbm, 333, rfl⟩
abbrev main_v258 : Ref sig .tc := ⟨.hbm, 334, rfl⟩
abbrev main_v259 : Ref sig .tc := ⟨.hbm, 335, rfl⟩
abbrev main_v260 : Ref sig .tc := ⟨.hbm, 336, rfl⟩
abbrev main_v261 : Ref sig .tc := ⟨.hbm, 337, rfl⟩
abbrev main_v262 : Ref sig .tc := ⟨.hbm, 338, rfl⟩
abbrev main_v263 : Ref sig .tc := ⟨.hbm, 339, rfl⟩
abbrev main_v264 : Ref sig .tc := ⟨.hbm, 340, rfl⟩
abbrev main_v265 : Ref sig .tc := ⟨.hbm, 341, rfl⟩
abbrev main_v266 : Ref sig .tc := ⟨.hbm, 342, rfl⟩
abbrev main_c_40 : Ref sig .tc := ⟨.hbm, 343, rfl⟩
abbrev main_v267 : Ref sig .tc := ⟨.hbm, 344, rfl⟩
abbrev main_v268 : Ref sig .tc := ⟨.hbm, 345, rfl⟩
abbrev main_c_41 : Ref sig .tc := ⟨.hbm, 346, rfl⟩
abbrev main_v269 : Ref sig .tc := ⟨.hbm, 347, rfl⟩
abbrev main_v270 : Ref sig .tc := ⟨.hbm, 348, rfl⟩
abbrev main_v271 : Ref sig .tc := ⟨.hbm, 349, rfl⟩
abbrev main_v272 : Ref sig .tc := ⟨.hbm, 350, rfl⟩
abbrev main_v273 : Ref sig .tc := ⟨.hbm, 351, rfl⟩
abbrev main_cst_42 : Ref sig .tc := ⟨.hbm, 352, rfl⟩
abbrev main_v274 : Ref sig .tc := ⟨.hbm, 353, rfl⟩
abbrev main_v275 : Ref sig .tc := ⟨.hbm, 354, rfl⟩
abbrev main_v276 : Ref sig .tc := ⟨.hbm, 355, rfl⟩
abbrev main_cst_43 : Ref sig .tc := ⟨.hbm, 356, rfl⟩
abbrev main_v277 : Ref sig .tc := ⟨.hbm, 357, rfl⟩
abbrev main_cst_44 : Ref sig .tc := ⟨.hbm, 358, rfl⟩
abbrev main_v278 : Ref sig .tc := ⟨.hbm, 359, rfl⟩
abbrev main_v279 : Ref sig .tc := ⟨.hbm, 360, rfl⟩
abbrev main_v280 : Ref sig .tc := ⟨.hbm, 361, rfl⟩
abbrev main_cst_45 : Ref sig .tc := ⟨.hbm, 362, rfl⟩
abbrev main_v281 : Ref sig .tc := ⟨.hbm, 363, rfl⟩
abbrev main_v282 : Ref sig .tc := ⟨.hbm, 364, rfl⟩
abbrev main_v283 : Ref sig .tc := ⟨.hbm, 365, rfl⟩
abbrev main_v284 : Ref sig .tc := ⟨.hbm, 366, rfl⟩
abbrev main_v285 : Ref sig .tc := ⟨.hbm, 367, rfl⟩
abbrev main_v286 : Ref sig .tc := ⟨.hbm, 368, rfl⟩
abbrev main_v287 : Ref sig .tc := ⟨.hbm, 369, rfl⟩
abbrev main_v288 : Ref sig .tc := ⟨.hbm, 370, rfl⟩
abbrev main_v289 : Ref sig .tc := ⟨.hbm, 371, rfl⟩
abbrev main_v290 : Ref sig .tc := ⟨.hbm, 372, rfl⟩
abbrev main_v291 : Ref sig .tc := ⟨.hbm, 373, rfl⟩
abbrev main_v292 : Ref sig .tc := ⟨.hbm, 374, rfl⟩
abbrev main_v293 : Ref sig .tc := ⟨.hbm, 375, rfl⟩
abbrev main_v294 : Ref sig .tc := ⟨.hbm, 376, rfl⟩
abbrev main_v295 : Ref sig .tc := ⟨.hbm, 377, rfl⟩
abbrev main_v296 : Ref sig .tc := ⟨.hbm, 378, rfl⟩
abbrev main_v297 : Ref sig .tc := ⟨.hbm, 379, rfl⟩
abbrev main_v298 : Ref sig .tc := ⟨.hbm, 380, rfl⟩
abbrev main_v299 : Ref sig .tc := ⟨.hbm, 381, rfl⟩
abbrev main_v300 : Ref sig .tc := ⟨.hbm, 382, rfl⟩
abbrev main_v301 : Ref sig .tc := ⟨.hbm, 383, rfl⟩
abbrev main_v302 : Ref sig .tc := ⟨.hbm, 384, rfl⟩
abbrev main_c_46 : Ref sig .tc := ⟨.hbm, 385, rfl⟩
abbrev main_v303 : Ref sig .tc := ⟨.hbm, 386, rfl⟩
abbrev main_v304 : Ref sig .tc := ⟨.hbm, 387, rfl⟩
abbrev main_c_47 : Ref sig .tc := ⟨.hbm, 388, rfl⟩
abbrev main_v305 : Ref sig .tc := ⟨.hbm, 389, rfl⟩
abbrev main_v306 : Ref sig .tc := ⟨.hbm, 390, rfl⟩
abbrev main_v307 : Ref sig .tc := ⟨.hbm, 391, rfl⟩
abbrev main_v308 : Ref sig .tc := ⟨.hbm, 392, rfl⟩
abbrev main_v309 : Ref sig .tc := ⟨.hbm, 393, rfl⟩
abbrev main_cst_48 : Ref sig .tc := ⟨.hbm, 394, rfl⟩
abbrev main_v310 : Ref sig .tc := ⟨.hbm, 395, rfl⟩
abbrev main_v311 : Ref sig .tc := ⟨.hbm, 396, rfl⟩
abbrev main_v312 : Ref sig .tc := ⟨.hbm, 397, rfl⟩
abbrev main_cst_49 : Ref sig .tc := ⟨.hbm, 398, rfl⟩
abbrev main_v313 : Ref sig .tc := ⟨.hbm, 399, rfl⟩
abbrev main_cst_50 : Ref sig .tc := ⟨.hbm, 400, rfl⟩
abbrev main_v314 : Ref sig .tc := ⟨.hbm, 401, rfl⟩
abbrev main_v315 : Ref sig .tc := ⟨.hbm, 402, rfl⟩
abbrev main_v316 : Ref sig .tc := ⟨.hbm, 403, rfl⟩
abbrev main_cst_51 : Ref sig .tc := ⟨.hbm, 404, rfl⟩
abbrev main_v317 : Ref sig .tc := ⟨.hbm, 405, rfl⟩
abbrev main_v318 : Ref sig .tc := ⟨.hbm, 406, rfl⟩
abbrev main_v319 : Ref sig .tc := ⟨.hbm, 407, rfl⟩
abbrev main_v320 : Ref sig .tc := ⟨.hbm, 408, rfl⟩
abbrev main_v321 : Ref sig .tc := ⟨.hbm, 409, rfl⟩
abbrev main_v322 : Ref sig .tc := ⟨.hbm, 410, rfl⟩
abbrev main_v323 : Ref sig .tc := ⟨.hbm, 411, rfl⟩
abbrev main_v324 : Ref sig .tc := ⟨.hbm, 412, rfl⟩
abbrev main_v325 : Ref sig .tc := ⟨.hbm, 413, rfl⟩
abbrev main_v326 : Ref sig .tc := ⟨.hbm, 414, rfl⟩
abbrev main_v327 : Ref sig .tc := ⟨.hbm, 415, rfl⟩
abbrev main_v328 : Ref sig .tc := ⟨.hbm, 416, rfl⟩
abbrev main_v329 : Ref sig .tc := ⟨.hbm, 417, rfl⟩
abbrev main_v330 : Ref sig .tc := ⟨.hbm, 418, rfl⟩
abbrev main_v331 : Ref sig .tc := ⟨.hbm, 419, rfl⟩
abbrev main_v332 : Ref sig .tc := ⟨.hbm, 420, rfl⟩
abbrev main_v333 : Ref sig .tc := ⟨.hbm, 421, rfl⟩
abbrev main_v334 : Ref sig .tc := ⟨.hbm, 422, rfl⟩
abbrev main_v335 : Ref sig .tc := ⟨.hbm, 423, rfl⟩
abbrev main_v336 : Ref sig .tc := ⟨.hbm, 424, rfl⟩
abbrev main_v337 : Ref sig .tc := ⟨.hbm, 425, rfl⟩
abbrev main_c_52 : Ref sig .tc := ⟨.hbm, 426, rfl⟩
abbrev main_v338 : Ref sig .tc := ⟨.hbm, 427, rfl⟩
abbrev main_v339 : Ref sig .tc := ⟨.hbm, 428, rfl⟩
abbrev main_c_53 : Ref sig .tc := ⟨.hbm, 429, rfl⟩
abbrev main_v340 : Ref sig .tc := ⟨.hbm, 430, rfl⟩
abbrev main_v341 : Ref sig .tc := ⟨.hbm, 431, rfl⟩
abbrev main_v342 : Ref sig .tc := ⟨.hbm, 432, rfl⟩
abbrev main_v343 : Ref sig .tc := ⟨.hbm, 433, rfl⟩
abbrev main_v344 : Ref sig .tc := ⟨.hbm, 434, rfl⟩
abbrev main_cst_54 : Ref sig .tc := ⟨.hbm, 435, rfl⟩
abbrev main_v345 : Ref sig .tc := ⟨.hbm, 436, rfl⟩
abbrev main_v346 : Ref sig .tc := ⟨.hbm, 437, rfl⟩
abbrev main_v347 : Ref sig .tc := ⟨.hbm, 438, rfl⟩
abbrev main_cst_55 : Ref sig .tc := ⟨.hbm, 439, rfl⟩
abbrev main_v348 : Ref sig .tc := ⟨.hbm, 440, rfl⟩
abbrev main_cst_56 : Ref sig .tc := ⟨.hbm, 441, rfl⟩
abbrev main_v349 : Ref sig .tc := ⟨.hbm, 442, rfl⟩
abbrev main_v350 : Ref sig .tc := ⟨.hbm, 443, rfl⟩
abbrev main_v351 : Ref sig .tc := ⟨.hbm, 444, rfl⟩
abbrev main_cst_57 : Ref sig .tc := ⟨.hbm, 445, rfl⟩
abbrev main_v352 : Ref sig .tc := ⟨.hbm, 446, rfl⟩
abbrev main_v353 : Ref sig .tc := ⟨.hbm, 447, rfl⟩
abbrev main_v354 : Ref sig .tc := ⟨.hbm, 448, rfl⟩
abbrev main_v355 : Ref sig .tc := ⟨.hbm, 449, rfl⟩
abbrev main_v356 : Ref sig .tc := ⟨.hbm, 450, rfl⟩
abbrev main_v357 : Ref sig .tc := ⟨.hbm, 451, rfl⟩
abbrev main_v358 : Ref sig .tc := ⟨.hbm, 452, rfl⟩
abbrev main_v359 : Ref sig .tc := ⟨.hbm, 453, rfl⟩
abbrev main_v360 : Ref sig .tc := ⟨.hbm, 454, rfl⟩
abbrev main_v361 : Ref sig .tc := ⟨.hbm, 455, rfl⟩
abbrev main_v362 : Ref sig .tc := ⟨.hbm, 456, rfl⟩
abbrev main_v363 : Ref sig .tc := ⟨.hbm, 457, rfl⟩
abbrev main_v364 : Ref sig .tc := ⟨.hbm, 458, rfl⟩
abbrev main_v365 : Ref sig .tc := ⟨.hbm, 459, rfl⟩
abbrev main_v366 : Ref sig .tc := ⟨.hbm, 460, rfl⟩
abbrev main_v367 : Ref sig .tc := ⟨.hbm, 461, rfl⟩
abbrev main_v368 : Ref sig .tc := ⟨.hbm, 462, rfl⟩
abbrev main_v369 : Ref sig .tc := ⟨.hbm, 463, rfl⟩
abbrev main_v370 : Ref sig .tc := ⟨.hbm, 464, rfl⟩
abbrev main_v371 : Ref sig .tc := ⟨.hbm, 465, rfl⟩
abbrev main_v372 : Ref sig .tc := ⟨.hbm, 466, rfl⟩
abbrev main_v373 : Ref sig .tc := ⟨.hbm, 467, rfl⟩
abbrev main_c_58 : Ref sig .tc := ⟨.hbm, 468, rfl⟩
abbrev main_v374 : Ref sig .tc := ⟨.hbm, 469, rfl⟩
abbrev main_v375 : Ref sig .tc := ⟨.hbm, 470, rfl⟩
abbrev main_c_59 : Ref sig .tc := ⟨.hbm, 471, rfl⟩
abbrev main_v376 : Ref sig .tc := ⟨.hbm, 472, rfl⟩
abbrev main_v377 : Ref sig .tc := ⟨.hbm, 473, rfl⟩
abbrev main_v378 : Ref sig .tc := ⟨.hbm, 474, rfl⟩
abbrev main_v379 : Ref sig .tc := ⟨.hbm, 475, rfl⟩
abbrev main_v380 : Ref sig .tc := ⟨.hbm, 476, rfl⟩
abbrev main_cst_60 : Ref sig .tc := ⟨.hbm, 477, rfl⟩
abbrev main_v381 : Ref sig .tc := ⟨.hbm, 478, rfl⟩
abbrev main_v382 : Ref sig .tc := ⟨.hbm, 479, rfl⟩
abbrev main_v383 : Ref sig .tc := ⟨.hbm, 480, rfl⟩
abbrev main_cst_61 : Ref sig .tc := ⟨.hbm, 481, rfl⟩
abbrev main_v384 : Ref sig .tc := ⟨.hbm, 482, rfl⟩
abbrev main_cst_62 : Ref sig .tc := ⟨.hbm, 483, rfl⟩
abbrev main_v385 : Ref sig .tc := ⟨.hbm, 484, rfl⟩
abbrev main_v386 : Ref sig .tc := ⟨.hbm, 485, rfl⟩
abbrev main_v387 : Ref sig .tc := ⟨.hbm, 486, rfl⟩
abbrev main_cst_63 : Ref sig .tc := ⟨.hbm, 487, rfl⟩
abbrev main_v388 : Ref sig .tc := ⟨.hbm, 488, rfl⟩
abbrev main_v389 : Ref sig .tc := ⟨.hbm, 489, rfl⟩
abbrev main_v390 : Ref sig .tc := ⟨.hbm, 490, rfl⟩
abbrev main_v391 : Ref sig .tc := ⟨.hbm, 491, rfl⟩
abbrev main_v392 : Ref sig .tc := ⟨.hbm, 492, rfl⟩
abbrev main_v393 : Ref sig .tc := ⟨.hbm, 493, rfl⟩
abbrev main_v394 : Ref sig .tc := ⟨.hbm, 494, rfl⟩
abbrev main_v395 : Ref sig .tc := ⟨.hbm, 495, rfl⟩
abbrev main_v396 : Ref sig .tc := ⟨.hbm, 496, rfl⟩
abbrev main_v397 : Ref sig .tc := ⟨.hbm, 497, rfl⟩
abbrev main_v398 : Ref sig .tc := ⟨.hbm, 498, rfl⟩
abbrev main_v399 : Ref sig .tc := ⟨.hbm, 499, rfl⟩
abbrev main_v400 : Ref sig .tc := ⟨.hbm, 500, rfl⟩
abbrev main_v401 : Ref sig .tc := ⟨.hbm, 501, rfl⟩
abbrev main_v402 : Ref sig .tc := ⟨.hbm, 502, rfl⟩
abbrev main_v403 : Ref sig .tc := ⟨.hbm, 503, rfl⟩
abbrev main_v404 : Ref sig .tc := ⟨.hbm, 504, rfl⟩
abbrev main_v405 : Ref sig .tc := ⟨.hbm, 505, rfl⟩
abbrev main_v406 : Ref sig .tc := ⟨.hbm, 506, rfl⟩
abbrev main_v407 : Ref sig .tc := ⟨.hbm, 507, rfl⟩
abbrev main_v408 : Ref sig .tc := ⟨.hbm, 508, rfl⟩
abbrev main_c_64 : Ref sig .tc := ⟨.hbm, 509, rfl⟩
abbrev main_v409 : Ref sig .tc := ⟨.hbm, 510, rfl⟩
abbrev main_v410 : Ref sig .tc := ⟨.hbm, 511, rfl⟩
abbrev main_c_65 : Ref sig .tc := ⟨.hbm, 512, rfl⟩
abbrev main_v411 : Ref sig .tc := ⟨.hbm, 513, rfl⟩
abbrev main_v412 : Ref sig .tc := ⟨.hbm, 514, rfl⟩
abbrev main_v413 : Ref sig .tc := ⟨.hbm, 515, rfl⟩
abbrev main_v414 : Ref sig .tc := ⟨.hbm, 516, rfl⟩
abbrev main_v415 : Ref sig .tc := ⟨.hbm, 517, rfl⟩
abbrev main_cst_66 : Ref sig .tc := ⟨.hbm, 518, rfl⟩
abbrev main_v416 : Ref sig .tc := ⟨.hbm, 519, rfl⟩
abbrev main_v417 : Ref sig .tc := ⟨.hbm, 520, rfl⟩
abbrev main_v418 : Ref sig .tc := ⟨.hbm, 521, rfl⟩
abbrev main_cst_67 : Ref sig .tc := ⟨.hbm, 522, rfl⟩
abbrev main_v419 : Ref sig .tc := ⟨.hbm, 523, rfl⟩
abbrev main_cst_68 : Ref sig .tc := ⟨.hbm, 524, rfl⟩
abbrev main_v420 : Ref sig .tc := ⟨.hbm, 525, rfl⟩
abbrev main_v421 : Ref sig .tc := ⟨.hbm, 526, rfl⟩
abbrev main_v422 : Ref sig .tc := ⟨.hbm, 527, rfl⟩
abbrev main_cst_69 : Ref sig .tc := ⟨.hbm, 528, rfl⟩
abbrev main_v423 : Ref sig .tc := ⟨.hbm, 529, rfl⟩
abbrev main_v424 : Ref sig .tc := ⟨.hbm, 530, rfl⟩
abbrev main_v425 : Ref sig .tc := ⟨.hbm, 531, rfl⟩
abbrev main_v426 : Ref sig .tc := ⟨.hbm, 532, rfl⟩
abbrev main_v427 : Ref sig .tc := ⟨.hbm, 533, rfl⟩
abbrev main_v428 : Ref sig .tc := ⟨.hbm, 534, rfl⟩
abbrev main_v429 : Ref sig .tc := ⟨.hbm, 535, rfl⟩
abbrev main_v430 : Ref sig .tc := ⟨.hbm, 536, rfl⟩
abbrev main_v431 : Ref sig .tc := ⟨.hbm, 537, rfl⟩
abbrev main_v432 : Ref sig .tc := ⟨.hbm, 538, rfl⟩
abbrev main_v433 : Ref sig .tc := ⟨.hbm, 539, rfl⟩
abbrev main_v434 : Ref sig .tc := ⟨.hbm, 540, rfl⟩
abbrev main_v435 : Ref sig .tc := ⟨.hbm, 541, rfl⟩
abbrev main_v436 : Ref sig .tc := ⟨.hbm, 542, rfl⟩
abbrev main_v437 : Ref sig .tc := ⟨.hbm, 543, rfl⟩
abbrev main_v438 : Ref sig .tc := ⟨.hbm, 544, rfl⟩
abbrev main_v439 : Ref sig .tc := ⟨.hbm, 545, rfl⟩
abbrev main_v440 : Ref sig .tc := ⟨.hbm, 546, rfl⟩
abbrev main_call3_cst : Ref sig .tc := ⟨.hbm, 547, rfl⟩
abbrev main_call3_v0 : Ref sig .tc := ⟨.hbm, 548, rfl⟩
abbrev main_v441 : Ref sig .tc := ⟨.hbm, 549, rfl⟩
abbrev main_call4_cst : Ref sig .tc := ⟨.hbm, 550, rfl⟩
abbrev main_call4_v0 : Ref sig .tc := ⟨.hbm, 551, rfl⟩
abbrev main_v442 : Ref sig .tc := ⟨.hbm, 552, rfl⟩
abbrev main_call5_cst : Ref sig .tc := ⟨.hbm, 553, rfl⟩
abbrev main_call5_v0 : Ref sig .tc := ⟨.hbm, 554, rfl⟩
abbrev main_v443 : Ref sig .tc := ⟨.hbm, 555, rfl⟩
abbrev main_v444 : Ref sig .tc := ⟨.hbm, 556, rfl⟩
abbrev main_v445 : Ref sig .tc := ⟨.hbm, 557, rfl⟩
abbrev main_v446 : Ref sig .tc := ⟨.hbm, 558, rfl⟩
abbrev main_v447 : Ref sig .tc := ⟨.hbm, 559, rfl⟩
abbrev main_c_70 : Ref sig .tc := ⟨.hbm, 560, rfl⟩
abbrev main_v448 : Ref sig .tc := ⟨.hbm, 561, rfl⟩
abbrev main_v449 : Ref sig .tc := ⟨.hbm, 562, rfl⟩
abbrev main_c_71 : Ref sig .tc := ⟨.hbm, 563, rfl⟩
abbrev main_v450 : Ref sig .tc := ⟨.hbm, 564, rfl⟩
abbrev main_v451 : Ref sig .tc := ⟨.hbm, 565, rfl⟩
abbrev main_v452 : Ref sig .tc := ⟨.hbm, 566, rfl⟩
abbrev main_v453 : Ref sig .tc := ⟨.hbm, 567, rfl⟩
abbrev main_v454 : Ref sig .tc := ⟨.hbm, 568, rfl⟩
abbrev main_cst_72 : Ref sig .tc := ⟨.hbm, 569, rfl⟩
abbrev main_v455 : Ref sig .tc := ⟨.hbm, 570, rfl⟩
abbrev main_v456 : Ref sig .tc := ⟨.hbm, 571, rfl⟩
abbrev main_v457 : Ref sig .tc := ⟨.hbm, 572, rfl⟩
abbrev main_cst_73 : Ref sig .tc := ⟨.hbm, 573, rfl⟩
abbrev main_v458 : Ref sig .tc := ⟨.hbm, 574, rfl⟩
abbrev main_cst_74 : Ref sig .tc := ⟨.hbm, 575, rfl⟩
abbrev main_v459 : Ref sig .tc := ⟨.hbm, 576, rfl⟩
abbrev main_v460 : Ref sig .tc := ⟨.hbm, 577, rfl⟩
abbrev main_v461 : Ref sig .tc := ⟨.hbm, 578, rfl⟩
abbrev main_cst_75 : Ref sig .tc := ⟨.hbm, 579, rfl⟩
abbrev main_v462 : Ref sig .tc := ⟨.hbm, 580, rfl⟩
abbrev main_v463 : Ref sig .tc := ⟨.hbm, 581, rfl⟩
abbrev main_v464 : Ref sig .tc := ⟨.hbm, 582, rfl⟩
abbrev main_v465 : Ref sig .tc := ⟨.hbm, 583, rfl⟩
abbrev main_v466 : Ref sig .tc := ⟨.hbm, 584, rfl⟩
abbrev main_v467 : Ref sig .tc := ⟨.hbm, 585, rfl⟩
abbrev main_v468 : Ref sig .tc := ⟨.hbm, 586, rfl⟩
abbrev main_v469 : Ref sig .tc := ⟨.hbm, 587, rfl⟩
abbrev main_v470 : Ref sig .tc := ⟨.hbm, 588, rfl⟩
abbrev main_v471 : Ref sig .tc := ⟨.hbm, 589, rfl⟩
abbrev main_v472 : Ref sig .tc := ⟨.hbm, 590, rfl⟩
abbrev main_v473 : Ref sig .tc := ⟨.hbm, 591, rfl⟩
abbrev main_v474 : Ref sig .tc := ⟨.hbm, 592, rfl⟩
abbrev main_v475 : Ref sig .tc := ⟨.hbm, 593, rfl⟩
abbrev main_v476 : Ref sig .tc := ⟨.hbm, 594, rfl⟩
abbrev main_v477 : Ref sig .tc := ⟨.hbm, 595, rfl⟩
abbrev main_v478 : Ref sig .tc := ⟨.hbm, 596, rfl⟩
abbrev main_v479 : Ref sig .tc := ⟨.hbm, 597, rfl⟩
abbrev main_v480 : Ref sig .tc := ⟨.hbm, 598, rfl⟩
abbrev main_v481 : Ref sig .tc := ⟨.hbm, 599, rfl⟩
abbrev main_v482 : Ref sig .tc := ⟨.hbm, 600, rfl⟩
abbrev main_c_76 : Ref sig .tc := ⟨.hbm, 601, rfl⟩
abbrev main_v483 : Ref sig .tc := ⟨.hbm, 602, rfl⟩
abbrev main_v484 : Ref sig .tc := ⟨.hbm, 603, rfl⟩
abbrev main_c_77 : Ref sig .tc := ⟨.hbm, 604, rfl⟩
abbrev main_v485 : Ref sig .tc := ⟨.hbm, 605, rfl⟩
abbrev main_v486 : Ref sig .tc := ⟨.hbm, 606, rfl⟩
abbrev main_v487 : Ref sig .tc := ⟨.hbm, 607, rfl⟩
abbrev main_v488 : Ref sig .tc := ⟨.hbm, 608, rfl⟩
abbrev main_v489 : Ref sig .tc := ⟨.hbm, 609, rfl⟩
abbrev main_cst_78 : Ref sig .tc := ⟨.hbm, 610, rfl⟩
abbrev main_v490 : Ref sig .tc := ⟨.hbm, 611, rfl⟩
abbrev main_v491 : Ref sig .tc := ⟨.hbm, 612, rfl⟩
abbrev main_v492 : Ref sig .tc := ⟨.hbm, 613, rfl⟩
abbrev main_cst_79 : Ref sig .tc := ⟨.hbm, 614, rfl⟩
abbrev main_v493 : Ref sig .tc := ⟨.hbm, 615, rfl⟩
abbrev main_cst_80 : Ref sig .tc := ⟨.hbm, 616, rfl⟩
abbrev main_v494 : Ref sig .tc := ⟨.hbm, 617, rfl⟩
abbrev main_v495 : Ref sig .tc := ⟨.hbm, 618, rfl⟩
abbrev main_v496 : Ref sig .tc := ⟨.hbm, 619, rfl⟩
abbrev main_cst_81 : Ref sig .tc := ⟨.hbm, 620, rfl⟩
abbrev main_v497 : Ref sig .tc := ⟨.hbm, 621, rfl⟩
abbrev main_v498 : Ref sig .tc := ⟨.hbm, 622, rfl⟩
abbrev main_v499 : Ref sig .tc := ⟨.hbm, 623, rfl⟩
abbrev main_v500 : Ref sig .tc := ⟨.hbm, 624, rfl⟩
abbrev main_v501 : Ref sig .tc := ⟨.hbm, 625, rfl⟩
abbrev main_v502 : Ref sig .tc := ⟨.hbm, 626, rfl⟩
abbrev main_v503 : Ref sig .tc := ⟨.hbm, 627, rfl⟩
abbrev main_v504 : Ref sig .tc := ⟨.hbm, 628, rfl⟩
abbrev main_v505 : Ref sig .tc := ⟨.hbm, 629, rfl⟩
abbrev main_v506 : Ref sig .tc := ⟨.hbm, 630, rfl⟩
abbrev main_v507 : Ref sig .tc := ⟨.hbm, 631, rfl⟩
abbrev main_v508 : Ref sig .tc := ⟨.hbm, 632, rfl⟩
abbrev main_v509 : Ref sig .tc := ⟨.hbm, 633, rfl⟩
abbrev main_v510 : Ref sig .tc := ⟨.hbm, 634, rfl⟩
abbrev main_v511 : Ref sig .tc := ⟨.hbm, 635, rfl⟩
abbrev main_v512 : Ref sig .tc := ⟨.hbm, 636, rfl⟩
abbrev main_v513 : Ref sig .tc := ⟨.hbm, 637, rfl⟩
abbrev main_v514 : Ref sig .tc := ⟨.hbm, 638, rfl⟩
abbrev main_v515 : Ref sig .tc := ⟨.hbm, 639, rfl⟩
abbrev main_v516 : Ref sig .tc := ⟨.hbm, 640, rfl⟩
abbrev main_v517 : Ref sig .tc := ⟨.hbm, 641, rfl⟩
abbrev main_v518 : Ref sig .tc := ⟨.hbm, 642, rfl⟩
abbrev main_c_82 : Ref sig .tc := ⟨.hbm, 643, rfl⟩
abbrev main_v519 : Ref sig .tc := ⟨.hbm, 644, rfl⟩
abbrev main_v520 : Ref sig .tc := ⟨.hbm, 645, rfl⟩
abbrev main_c_83 : Ref sig .tc := ⟨.hbm, 646, rfl⟩
abbrev main_v521 : Ref sig .tc := ⟨.hbm, 647, rfl⟩
abbrev main_v522 : Ref sig .tc := ⟨.hbm, 648, rfl⟩
abbrev main_v523 : Ref sig .tc := ⟨.hbm, 649, rfl⟩
abbrev main_v524 : Ref sig .tc := ⟨.hbm, 650, rfl⟩
abbrev main_v525 : Ref sig .tc := ⟨.hbm, 651, rfl⟩
abbrev main_cst_84 : Ref sig .tc := ⟨.hbm, 652, rfl⟩
abbrev main_v526 : Ref sig .tc := ⟨.hbm, 653, rfl⟩
abbrev main_v527 : Ref sig .tc := ⟨.hbm, 654, rfl⟩
abbrev main_v528 : Ref sig .tc := ⟨.hbm, 655, rfl⟩
abbrev main_cst_85 : Ref sig .tc := ⟨.hbm, 656, rfl⟩
abbrev main_v529 : Ref sig .tc := ⟨.hbm, 657, rfl⟩
abbrev main_cst_86 : Ref sig .tc := ⟨.hbm, 658, rfl⟩
abbrev main_v530 : Ref sig .tc := ⟨.hbm, 659, rfl⟩
abbrev main_v531 : Ref sig .tc := ⟨.hbm, 660, rfl⟩
abbrev main_v532 : Ref sig .tc := ⟨.hbm, 661, rfl⟩
abbrev main_cst_87 : Ref sig .tc := ⟨.hbm, 662, rfl⟩
abbrev main_v533 : Ref sig .tc := ⟨.hbm, 663, rfl⟩
abbrev main_v534 : Ref sig .tc := ⟨.hbm, 664, rfl⟩
abbrev main_v535 : Ref sig .tc := ⟨.hbm, 665, rfl⟩
abbrev main_v536 : Ref sig .tc := ⟨.hbm, 666, rfl⟩
abbrev main_v537 : Ref sig .tc := ⟨.hbm, 667, rfl⟩
abbrev main_v538 : Ref sig .tc := ⟨.hbm, 668, rfl⟩
abbrev main_v539 : Ref sig .tc := ⟨.hbm, 669, rfl⟩
abbrev main_v540 : Ref sig .tc := ⟨.hbm, 670, rfl⟩
abbrev main_v541 : Ref sig .tc := ⟨.hbm, 671, rfl⟩
abbrev main_v542 : Ref sig .tc := ⟨.hbm, 672, rfl⟩
abbrev main_v543 : Ref sig .tc := ⟨.hbm, 673, rfl⟩
abbrev main_v544 : Ref sig .tc := ⟨.hbm, 674, rfl⟩
abbrev main_v545 : Ref sig .tc := ⟨.hbm, 675, rfl⟩
abbrev main_v546 : Ref sig .tc := ⟨.hbm, 676, rfl⟩
abbrev main_v547 : Ref sig .tc := ⟨.hbm, 677, rfl⟩
abbrev main_v548 : Ref sig .tc := ⟨.hbm, 678, rfl⟩
abbrev main_v549 : Ref sig .tc := ⟨.hbm, 679, rfl⟩
abbrev main_v550 : Ref sig .tc := ⟨.hbm, 680, rfl⟩
abbrev main_v551 : Ref sig .tc := ⟨.hbm, 681, rfl⟩
abbrev main_v552 : Ref sig .tc := ⟨.hbm, 682, rfl⟩
abbrev main_v553 : Ref sig .tc := ⟨.hbm, 683, rfl⟩
abbrev main_c_88 : Ref sig .tc := ⟨.hbm, 684, rfl⟩
abbrev main_v554 : Ref sig .tc := ⟨.hbm, 685, rfl⟩
abbrev main_v555 : Ref sig .tc := ⟨.hbm, 686, rfl⟩
abbrev main_c_89 : Ref sig .tc := ⟨.hbm, 687, rfl⟩
abbrev main_v556 : Ref sig .tc := ⟨.hbm, 688, rfl⟩
abbrev main_v557 : Ref sig .tc := ⟨.hbm, 689, rfl⟩
abbrev main_v558 : Ref sig .tc := ⟨.hbm, 690, rfl⟩
abbrev main_v559 : Ref sig .tc := ⟨.hbm, 691, rfl⟩
abbrev main_v560 : Ref sig .tc := ⟨.hbm, 692, rfl⟩
abbrev main_cst_90 : Ref sig .tc := ⟨.hbm, 693, rfl⟩
abbrev main_v561 : Ref sig .tc := ⟨.hbm, 694, rfl⟩
abbrev main_v562 : Ref sig .tc := ⟨.hbm, 695, rfl⟩
abbrev main_v563 : Ref sig .tc := ⟨.hbm, 696, rfl⟩
abbrev main_cst_91 : Ref sig .tc := ⟨.hbm, 697, rfl⟩
abbrev main_v564 : Ref sig .tc := ⟨.hbm, 698, rfl⟩
abbrev main_cst_92 : Ref sig .tc := ⟨.hbm, 699, rfl⟩
abbrev main_v565 : Ref sig .tc := ⟨.hbm, 700, rfl⟩
abbrev main_v566 : Ref sig .tc := ⟨.hbm, 701, rfl⟩
abbrev main_v567 : Ref sig .tc := ⟨.hbm, 702, rfl⟩
abbrev main_cst_93 : Ref sig .tc := ⟨.hbm, 703, rfl⟩
abbrev main_v568 : Ref sig .tc := ⟨.hbm, 704, rfl⟩
abbrev main_v569 : Ref sig .tc := ⟨.hbm, 705, rfl⟩
abbrev main_v570 : Ref sig .tc := ⟨.hbm, 706, rfl⟩
abbrev main_v571 : Ref sig .tc := ⟨.hbm, 707, rfl⟩
abbrev main_v572 : Ref sig .tc := ⟨.hbm, 708, rfl⟩
abbrev main_v573 : Ref sig .tc := ⟨.hbm, 709, rfl⟩
abbrev main_v574 : Ref sig .tc := ⟨.hbm, 710, rfl⟩
abbrev main_v575 : Ref sig .tc := ⟨.hbm, 711, rfl⟩
abbrev main_v576 : Ref sig .tc := ⟨.hbm, 712, rfl⟩
abbrev main_v577 : Ref sig .tc := ⟨.hbm, 713, rfl⟩
abbrev main_v578 : Ref sig .tc := ⟨.hbm, 714, rfl⟩
abbrev main_v579 : Ref sig .tc := ⟨.hbm, 715, rfl⟩
abbrev main_v580 : Ref sig .tc := ⟨.hbm, 716, rfl⟩
abbrev main_v581 : Ref sig .tc := ⟨.hbm, 717, rfl⟩
abbrev main_v582 : Ref sig .tc := ⟨.hbm, 718, rfl⟩
abbrev main_v583 : Ref sig .tc := ⟨.hbm, 719, rfl⟩
abbrev main_v584 : Ref sig .tc := ⟨.hbm, 720, rfl⟩
abbrev main_v585 : Ref sig .tc := ⟨.hbm, 721, rfl⟩
abbrev main_v586 : Ref sig .tc := ⟨.hbm, 722, rfl⟩
abbrev main_v587 : Ref sig .tc := ⟨.hbm, 723, rfl⟩
abbrev main_v588 : Ref sig .tc := ⟨.hbm, 724, rfl⟩
abbrev main_v589 : Ref sig .tc := ⟨.hbm, 725, rfl⟩
abbrev main_c_94 : Ref sig .tc := ⟨.hbm, 726, rfl⟩
abbrev main_v590 : Ref sig .tc := ⟨.hbm, 727, rfl⟩
abbrev main_v591 : Ref sig .tc := ⟨.hbm, 728, rfl⟩
abbrev main_c_95 : Ref sig .tc := ⟨.hbm, 729, rfl⟩
abbrev main_v592 : Ref sig .tc := ⟨.hbm, 730, rfl⟩
abbrev main_v593 : Ref sig .tc := ⟨.hbm, 731, rfl⟩
abbrev main_v594 : Ref sig .tc := ⟨.hbm, 732, rfl⟩
abbrev main_v595 : Ref sig .tc := ⟨.hbm, 733, rfl⟩
abbrev main_v596 : Ref sig .tc := ⟨.hbm, 734, rfl⟩
abbrev main_cst_96 : Ref sig .tc := ⟨.hbm, 735, rfl⟩
abbrev main_v597 : Ref sig .tc := ⟨.hbm, 736, rfl⟩
abbrev main_v598 : Ref sig .tc := ⟨.hbm, 737, rfl⟩
abbrev main_v599 : Ref sig .tc := ⟨.hbm, 738, rfl⟩
abbrev main_cst_97 : Ref sig .tc := ⟨.hbm, 739, rfl⟩
abbrev main_v600 : Ref sig .tc := ⟨.hbm, 740, rfl⟩
abbrev main_cst_98 : Ref sig .tc := ⟨.hbm, 741, rfl⟩
abbrev main_v601 : Ref sig .tc := ⟨.hbm, 742, rfl⟩
abbrev main_v602 : Ref sig .tc := ⟨.hbm, 743, rfl⟩
abbrev main_v603 : Ref sig .tc := ⟨.hbm, 744, rfl⟩
abbrev main_cst_99 : Ref sig .tc := ⟨.hbm, 745, rfl⟩
abbrev main_v604 : Ref sig .tc := ⟨.hbm, 746, rfl⟩
abbrev main_v605 : Ref sig .tc := ⟨.hbm, 747, rfl⟩
abbrev main_v606 : Ref sig .tc := ⟨.hbm, 748, rfl⟩
abbrev main_v607 : Ref sig .tc := ⟨.hbm, 749, rfl⟩
abbrev main_v608 : Ref sig .tc := ⟨.hbm, 750, rfl⟩
abbrev main_v609 : Ref sig .tc := ⟨.hbm, 751, rfl⟩
abbrev main_v610 : Ref sig .tc := ⟨.hbm, 752, rfl⟩
abbrev main_v611 : Ref sig .tc := ⟨.hbm, 753, rfl⟩
abbrev main_v612 : Ref sig .tc := ⟨.hbm, 754, rfl⟩
abbrev main_v613 : Ref sig .tc := ⟨.hbm, 755, rfl⟩
abbrev main_v614 : Ref sig .tc := ⟨.hbm, 756, rfl⟩
abbrev main_v615 : Ref sig .tc := ⟨.hbm, 757, rfl⟩
abbrev main_v616 : Ref sig .tc := ⟨.hbm, 758, rfl⟩
abbrev main_v617 : Ref sig .tc := ⟨.hbm, 759, rfl⟩
abbrev main_v618 : Ref sig .tc := ⟨.hbm, 760, rfl⟩
abbrev main_v619 : Ref sig .tc := ⟨.hbm, 761, rfl⟩
abbrev main_v620 : Ref sig .tc := ⟨.hbm, 762, rfl⟩
abbrev main_v621 : Ref sig .tc := ⟨.hbm, 763, rfl⟩
abbrev main_v622 : Ref sig .tc := ⟨.hbm, 764, rfl⟩
abbrev main_v623 : Ref sig .tc := ⟨.hbm, 765, rfl⟩
abbrev main_v624 : Ref sig .tc := ⟨.hbm, 766, rfl⟩
abbrev main_c_100 : Ref sig .tc := ⟨.hbm, 767, rfl⟩
abbrev main_v625 : Ref sig .tc := ⟨.hbm, 768, rfl⟩
abbrev main_v626 : Ref sig .tc := ⟨.hbm, 769, rfl⟩
abbrev main_c_101 : Ref sig .tc := ⟨.hbm, 770, rfl⟩
abbrev main_v627 : Ref sig .tc := ⟨.hbm, 771, rfl⟩
abbrev main_v628 : Ref sig .tc := ⟨.hbm, 772, rfl⟩
abbrev main_v629 : Ref sig .tc := ⟨.hbm, 773, rfl⟩
abbrev main_v630 : Ref sig .tc := ⟨.hbm, 774, rfl⟩
abbrev main_v631 : Ref sig .tc := ⟨.hbm, 775, rfl⟩
abbrev main_cst_102 : Ref sig .tc := ⟨.hbm, 776, rfl⟩
abbrev main_v632 : Ref sig .tc := ⟨.hbm, 777, rfl⟩
abbrev main_v633 : Ref sig .tc := ⟨.hbm, 778, rfl⟩
abbrev main_v634 : Ref sig .tc := ⟨.hbm, 779, rfl⟩
abbrev main_cst_103 : Ref sig .tc := ⟨.hbm, 780, rfl⟩
abbrev main_v635 : Ref sig .tc := ⟨.hbm, 781, rfl⟩
abbrev main_cst_104 : Ref sig .tc := ⟨.hbm, 782, rfl⟩
abbrev main_v636 : Ref sig .tc := ⟨.hbm, 783, rfl⟩
abbrev main_v637 : Ref sig .tc := ⟨.hbm, 784, rfl⟩
abbrev main_v638 : Ref sig .tc := ⟨.hbm, 785, rfl⟩
abbrev main_cst_105 : Ref sig .tc := ⟨.hbm, 786, rfl⟩
abbrev main_v639 : Ref sig .tc := ⟨.hbm, 787, rfl⟩
abbrev main_v640 : Ref sig .tc := ⟨.hbm, 788, rfl⟩
abbrev main_v641 : Ref sig .tc := ⟨.hbm, 789, rfl⟩
abbrev main_v642 : Ref sig .tc := ⟨.hbm, 790, rfl⟩
abbrev main_v643 : Ref sig .tc := ⟨.hbm, 791, rfl⟩
abbrev main_v644 : Ref sig .tc := ⟨.hbm, 792, rfl⟩
abbrev main_v645 : Ref sig .tc := ⟨.hbm, 793, rfl⟩
abbrev main_v646 : Ref sig .tc := ⟨.hbm, 794, rfl⟩
abbrev main_v647 : Ref sig .tc := ⟨.hbm, 795, rfl⟩
abbrev main_v648 : Ref sig .tc := ⟨.hbm, 796, rfl⟩
abbrev main_v649 : Ref sig .tc := ⟨.hbm, 797, rfl⟩
abbrev main_v650 : Ref sig .tc := ⟨.hbm, 798, rfl⟩
abbrev main_v651 : Ref sig .tc := ⟨.hbm, 799, rfl⟩
abbrev main_v652 : Ref sig .tc := ⟨.hbm, 800, rfl⟩
abbrev main_v653 : Ref sig .tc := ⟨.hbm, 801, rfl⟩
abbrev main_v654 : Ref sig .tc := ⟨.hbm, 802, rfl⟩
abbrev main_v655 : Ref sig .tc := ⟨.hbm, 803, rfl⟩
abbrev main_v656 : Ref sig .tc := ⟨.hbm, 804, rfl⟩
abbrev main_v657 : Ref sig .tc := ⟨.hbm, 805, rfl⟩
abbrev main_v658 : Ref sig .tc := ⟨.hbm, 806, rfl⟩
abbrev main_v659 : Ref sig .tc := ⟨.hbm, 807, rfl⟩
abbrev main_v660 : Ref sig .tc := ⟨.hbm, 808, rfl⟩
abbrev main_call6_cst : Ref sig .tc := ⟨.hbm, 809, rfl⟩
abbrev main_call6_v0 : Ref sig .tc := ⟨.hbm, 810, rfl⟩
abbrev main_v661 : Ref sig .tc := ⟨.hbm, 811, rfl⟩
abbrev main_v662 : Ref sig .tc := ⟨.hbm, 812, rfl⟩
abbrev main_v663 : Ref sig .tc := ⟨.hbm, 813, rfl⟩
abbrev main_v664 : Ref sig .tc := ⟨.hbm, 814, rfl⟩
abbrev main_v665 : Ref sig .tc := ⟨.hbm, 815, rfl⟩
abbrev main_call7_cst : Ref sig .tc := ⟨.hbm, 816, rfl⟩
abbrev main_call7_v0 : Ref sig .tc := ⟨.hbm, 817, rfl⟩
abbrev main_v666 : Ref sig .tc := ⟨.hbm, 818, rfl⟩
abbrev main_v667 : Ref sig .tc := ⟨.hbm, 819, rfl⟩
abbrev main_v668 : Ref sig .tc := ⟨.hbm, 820, rfl⟩
abbrev main_v669 : Ref sig .tc := ⟨.hbm, 821, rfl⟩
abbrev main_v670 : Ref sig .tc := ⟨.hbm, 822, rfl⟩
abbrev main_v671 : Ref sig .tc := ⟨.hbm, 823, rfl⟩
abbrev main_v672 : Ref sig .tc := ⟨.hbm, 824, rfl⟩
abbrev main_c_106 : Ref sig .tc := ⟨.hbm, 825, rfl⟩
abbrev main_v673 : Ref sig .tc := ⟨.hbm, 826, rfl⟩
abbrev main_v674 : Ref sig .tc := ⟨.hbm, 827, rfl⟩
abbrev main_c_107 : Ref sig .tc := ⟨.hbm, 828, rfl⟩
abbrev main_v675 : Ref sig .tc := ⟨.hbm, 829, rfl⟩
abbrev main_v676 : Ref sig .tc := ⟨.hbm, 830, rfl⟩
abbrev main_v677 : Ref sig .tc := ⟨.hbm, 831, rfl⟩
abbrev main_v678 : Ref sig .tc := ⟨.hbm, 832, rfl⟩
abbrev main_v679 : Ref sig .tc := ⟨.hbm, 833, rfl⟩
abbrev main_v680 : Ref sig .tc := ⟨.hbm, 834, rfl⟩
abbrev main_v681 : Ref sig .tc := ⟨.hbm, 835, rfl⟩
abbrev main_c_108 : Ref sig .tc := ⟨.hbm, 836, rfl⟩
abbrev main_v682 : Ref sig .tc := ⟨.hbm, 837, rfl⟩
abbrev main_v683 : Ref sig .tc := ⟨.hbm, 838, rfl⟩
abbrev main_c_109 : Ref sig .tc := ⟨.hbm, 839, rfl⟩
abbrev main_v684 : Ref sig .tc := ⟨.hbm, 840, rfl⟩
abbrev main_v685 : Ref sig .tc := ⟨.hbm, 841, rfl⟩
abbrev main_v686 : Ref sig .tc := ⟨.hbm, 842, rfl⟩
abbrev main_v687 : Ref sig .tc := ⟨.hbm, 843, rfl⟩
abbrev main_v688 : Ref sig .tc := ⟨.hbm, 844, rfl⟩
abbrev main_v689 : Ref sig .tc := ⟨.hbm, 845, rfl⟩
abbrev main_v690 : Ref sig .tc := ⟨.hbm, 846, rfl⟩
abbrev main_v691 : Ref sig .tc := ⟨.hbm, 847, rfl⟩
abbrev main_v692 : Ref sig .tc := ⟨.hbm, 848, rfl⟩
abbrev main_v693 : Ref sig .tc := ⟨.hbm, 849, rfl⟩
abbrev main_call8_cst : Ref sig .tc := ⟨.hbm, 850, rfl⟩
abbrev main_call8_v0 : Ref sig .tc := ⟨.hbm, 851, rfl⟩
abbrev main_v694 : Ref sig .tc := ⟨.hbm, 852, rfl⟩
abbrev main_v695 : Ref sig .tc := ⟨.hbm, 853, rfl⟩
abbrev main_v696 : Ref sig .tc := ⟨.hbm, 854, rfl⟩
abbrev main_v697 : Ref sig .tc := ⟨.hbm, 855, rfl⟩
abbrev main_v698 : Ref sig .tc := ⟨.hbm, 856, rfl⟩
abbrev main_call9_cst : Ref sig .tc := ⟨.hbm, 857, rfl⟩
abbrev main_call9_v0 : Ref sig .tc := ⟨.hbm, 858, rfl⟩
abbrev main_v699 : Ref sig .tc := ⟨.hbm, 859, rfl⟩
abbrev main_v700 : Ref sig .tc := ⟨.hbm, 860, rfl⟩
abbrev main_v701 : Ref sig .tc := ⟨.hbm, 861, rfl⟩
abbrev main_v702 : Ref sig .tc := ⟨.hbm, 862, rfl⟩
abbrev main_v703 : Ref sig .tc := ⟨.hbm, 863, rfl⟩

abbrev nD : Nat := 1
abbrev τ : Topo := Topo.v7x

variable {F : FTy → Type} [FloatOps F]

class Facts₀ : Prop where
  bcast_S150_S1x150_1 : S150.BroadcastsInDim S1x150 (![1] : Fin 1 → Fin S1x150.rank)
  bcast_S1x150_S50000x150_0_1 : S1x150.BroadcastsInDim S50000x150 (![0, 1] : Fin 2 → Fin S50000x150.rank)
  bcast_S1x150_S2000x150_0_1 : S1x150.BroadcastsInDim S2000x150 (![0, 1] : Fin 2 → Fin S2000x150.rank)
  bcast_S1x150_S20000x150_0_1 : S1x150.BroadcastsInDim S20000x150 (![0, 1] : Fin 2 → Fin S20000x150.rank)
  slices_S2x500000_S1x500000_1_0 : S2x500000.Slices ![1, 0] S1x500000
  shapeCasts_S1x500000_S500000 : S1x500000.ShapeCasts S500000
  slices_S2x500000_S1x500000_0_0 : S2x500000.Slices ![0, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S50000x150 : S_.BroadcastsInDim S50000x150 (![] : Fin 0 → Fin S50000x150.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x150_0_1 : S50000x1.BroadcastsInDim S50000x150 (![0, 1] : Fin 2 → Fin S50000x150.rank)
  slices_S3x6x150x150_S1x1x150x150_0_1_0_0 : S3x6x150x150.Slices ![0, 1, 0, 0] S1x1x150x150
  shapeCasts_S1x1x150x150_S150x150 : S1x1x150x150.ShapeCasts S150x150
  slices_S3x6x150_S1x1x150_0_1_0 : S3x6x150.Slices ![0, 1, 0] S1x1x150
  shapeCasts_S1x1x150_S150 : S1x1x150.ShapeCasts S150
  slices_S2x200000_S1x200000_1_0 : S2x200000.Slices ![1, 0] S1x200000
  shapeCasts_S1x200000_S200000 : S1x200000.ShapeCasts S200000
  slices_S2x200000_S1x200000_0_0 : S2x200000.Slices ![0, 0] S1x200000
  bcast_S_S200000 : S_.BroadcastsInDim S200000 (![] : Fin 0 → Fin S200000.rank)
  bcast_S200000_S200000x1_0 : S200000.BroadcastsInDim S200000x1 (![0] : Fin 1 → Fin S200000x1.rank)
  slices_S3x6x150x150_S1x1x150x150_0_3_0_0 : S3x6x150x150.Slices ![0, 3, 0, 0] S1x1x150x150
  slices_S3x6x150_S1x1x150_0_3_0 : S3x6x150.Slices ![0, 3, 0] S1x1x150
  bcast_S_S2000x150 : S_.BroadcastsInDim S2000x150 (![] : Fin 0 → Fin S2000x150.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x150_0_1 : S2000x1.BroadcastsInDim S2000x150 (![0, 1] : Fin 2 → Fin S2000x150.rank)
  slices_S3x6x150x150_S1x1x150x150_0_2_0_0 : S3x6x150x150.Slices ![0, 2, 0, 0] S1x1x150x150
  slices_S3x6x150_S1x1x150_0_2_0 : S3x6x150.Slices ![0, 2, 0] S1x1x150
  slices_S3x6x150x150_S1x1x150x150_0_5_0_0 : S3x6x150x150.Slices ![0, 5, 0, 0] S1x1x150x150
  slices_S3x6x150_S1x1x150_0_5_0 : S3x6x150.Slices ![0, 5, 0] S1x1x150
  bcast_S_S20000x150 : S_.BroadcastsInDim S20000x150 (![] : Fin 0 → Fin S20000x150.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x150_0_1 : S20000x1.BroadcastsInDim S20000x150 (![0, 1] : Fin 2 → Fin S20000x150.rank)
  slices_S3x6x150x150_S1x1x150x150_0_0_0_0 : S3x6x150x150.Slices ![0, 0, 0, 0] S1x1x150x150
  slices_S3x6x150_S1x1x150_0_0_0 : S3x6x150.Slices ![0, 0, 0] S1x1x150
  slices_S3x6x150x150_S1x1x150x150_0_4_0_0 : S3x6x150x150.Slices ![0, 4, 0, 0] S1x1x150x150
  slices_S3x6x150_S1x1x150_0_4_0 : S3x6x150.Slices ![0, 4, 0] S1x1x150
  slices_S3x6x150x150_S1x1x150x150_1_1_0_0 : S3x6x150x150.Slices ![1, 1, 0, 0] S1x1x150x150
  slices_S3x6x150_S1x1x150_1_1_0 : S3x6x150.Slices ![1, 1, 0] S1x1x150
  slices_S3x6x150x150_S1x1x150x150_1_3_0_0 : S3x6x150x150.Slices ![1, 3, 0, 0] S1x1x150x150
  slices_S3x6x150_S1x1x150_1_3_0 : S3x6x150.Slices ![1, 3, 0] S1x1x150
  slices_S3x6x150x150_S1x1x150x150_1_2_0_0 : S3x6x150x150.Slices ![1, 2, 0, 0] S1x1x150x150
  slices_S3x6x150_S1x1x150_1_2_0 : S3x6x150.Slices ![1, 2, 0] S1x1x150
  slices_S3x6x150x150_S1x1x150x150_1_5_0_0 : S3x6x150x150.Slices ![1, 5, 0, 0] S1x1x150x150
  slices_S3x6x150_S1x1x150_1_5_0 : S3x6x150.Slices ![1, 5, 0] S1x1x150
  slices_S3x6x150x150_S1x1x150x150_1_0_0_0 : S3x6x150x150.Slices ![1, 0, 0, 0] S1x1x150x150
  slices_S3x6x150_S1x1x150_1_0_0 : S3x6x150.Slices ![1, 0, 0] S1x1x150
  slices_S3x6x150x150_S1x1x150x150_1_4_0_0 : S3x6x150x150.Slices ![1, 4, 0, 0] S1x1x150x150
  slices_S3x6x150_S1x1x150_1_4_0 : S3x6x150.Slices ![1, 4, 0] S1x1x150
  slices_S3x6x150x150_S1x1x150x150_2_1_0_0 : S3x6x150x150.Slices ![2, 1, 0, 0] S1x1x150x150
  slices_S3x6x150_S1x1x150_2_1_0 : S3x6x150.Slices ![2, 1, 0] S1x1x150
  slices_S3x6x150x150_S1x1x150x150_2_3_0_0 : S3x6x150x150.Slices ![2, 3, 0, 0] S1x1x150x150
  slices_S3x6x150_S1x1x150_2_3_0 : S3x6x150.Slices ![2, 3, 0] S1x1x150
  slices_S3x6x150x150_S1x1x150x150_2_2_0_0 : S3x6x150x150.Slices ![2, 2, 0, 0] S1x1x150x150
  slices_S3x6x150_S1x1x150_2_2_0 : S3x6x150.Slices ![2, 2, 0] S1x1x150
  slices_S3x6x150x150_S1x1x150x150_2_5_0_0 : S3x6x150x150.Slices ![2, 5, 0, 0] S1x1x150x150
  slices_S3x6x150_S1x1x150_2_5_0 : S3x6x150.Slices ![2, 5, 0] S1x1x150
  slices_S3x6x150x150_S1x1x150x150_2_0_0_0 : S3x6x150x150.Slices ![2, 0, 0, 0] S1x1x150x150
  slices_S3x6x150_S1x1x150_2_0_0 : S3x6x150.Slices ![2, 0, 0] S1x1x150
  slices_S3x6x150x150_S1x1x150x150_2_4_0_0 : S3x6x150x150.Slices ![2, 4, 0, 0] S1x1x150x150
  slices_S3x6x150_S1x1x150_2_4_0 : S3x6x150.Slices ![2, 4, 0] S1x1x150
  bcast_S300_S1x300_1 : S300.BroadcastsInDim S1x300 (![1] : Fin 1 → Fin S1x300.rank)
  bcast_S1x300_S50000x300_0_1 : S1x300.BroadcastsInDim S50000x300 (![0, 1] : Fin 2 → Fin S50000x300.rank)
  bcast_S_S50000x300 : S_.BroadcastsInDim S50000x300 (![] : Fin 0 → Fin S50000x300.rank)
  bcast_S200_S1x200_1 : S200.BroadcastsInDim S1x200 (![1] : Fin 1 → Fin S1x200.rank)
  bcast_S1x200_S50000x200_0_1 : S1x200.BroadcastsInDim S50000x200 (![0, 1] : Fin 2 → Fin S50000x200.rank)
  bcast_S_S50000x200 : S_.BroadcastsInDim S50000x200 (![] : Fin 0 → Fin S50000x200.rank)
  concatenates_S500000x150_S500000x150_S500000x300_d1 : Shape.Concatenates [S500000x150, S500000x150] S500000x300 1
  bcast_S1x150_S500000x150_0_1 : S1x150.BroadcastsInDim S500000x150 (![0, 1] : Fin 2 → Fin S500000x150.rank)
  bcast_S_S500000x150 : S_.BroadcastsInDim S500000x150 (![] : Fin 0 → Fin S500000x150.rank)
  bcast_S50_S1x50_1 : S50.BroadcastsInDim S1x50 (![1] : Fin 1 → Fin S1x50.rank)
  bcast_S1x50_S500000x50_0_1 : S1x50.BroadcastsInDim S500000x50 (![0, 1] : Fin 2 → Fin S500000x50.rank)
  bcast_S_S500000x50 : S_.BroadcastsInDim S500000x50 (![] : Fin 0 → Fin S500000x50.rank)
  bcast_S3_S1x3_1 : S3.BroadcastsInDim S1x3 (![1] : Fin 1 → Fin S1x3.rank)
  bcast_S1x3_S500000x3_0_1 : S1x3.BroadcastsInDim S500000x3 (![0, 1] : Fin 2 → Fin S500000x3.rank)
  dot_S50000x768_S768x150_S50000x150_1_0_0_1_n_n_wf : DotDims.WF S50000x768 S768x150 S50000x150 [1] [0] [0] [1] [] []
  dot_S2000x768_S768x150_S2000x150_1_0_0_1_n_n_wf : DotDims.WF S2000x768 S768x150 S2000x150 [1] [0] [0] [1] [] []
  dot_S20000x1024_S1024x150_S20000x150_1_0_0_1_n_n_wf : DotDims.WF S20000x1024 S1024x150 S20000x150 [1] [0] [0] [1] [] []
  gather_S20000x150_S500000x1_S500000x150_1_0_n_n_0_1_1150_wf : GatherDims.WF S20000x150 S500000x1 S500000x150 [1] [0] [] [0] [] 1 ![1, 150]
  scatter_S50000x150_S500000x1_S500000x150_1_0_0_1_wf : ScatterDims.WF S50000x150 S500000x1 S500000x150 [1] [0] [0] 1
  scatter_S50000_S500000x1_S500000_n_0_0_1_wf : ScatterDims.WF S50000 S500000x1 S500000 [] [0] [0] 1
  dot_S50000x150_S150x150_S50000x150_1_0_0_1_n_n_wf : DotDims.WF S50000x150 S150x150 S50000x150 [1] [0] [0] [1] [] []
  gather_S2000x150_S200000x1_S200000x150_1_0_n_n_0_1_1150_wf : GatherDims.WF S2000x150 S200000x1 S200000x150 [1] [0] [] [0] [] 1 ![1, 150]
  scatter_S50000x150_S200000x1_S200000x150_1_0_0_1_wf : ScatterDims.WF S50000x150 S200000x1 S200000x150 [1] [0] [0] 1
  scatter_S50000_S200000x1_S200000_n_0_0_1_wf : ScatterDims.WF S50000 S200000x1 S200000 [] [0] [0] 1
  gather_S50000x150_S200000x1_S200000x150_1_0_n_n_0_1_1150_wf : GatherDims.WF S50000x150 S200000x1 S200000x150 [1] [0] [] [0] [] 1 ![1, 150]
  scatter_S2000x150_S200000x1_S200000x150_1_0_0_1_wf : ScatterDims.WF S2000x150 S200000x1 S200000x150 [1] [0] [0] 1
  scatter_S2000_S200000x1_S200000_n_0_0_1_wf : ScatterDims.WF S2000 S200000x1 S200000 [] [0] [0] 1
  dot_S2000x150_S150x150_S2000x150_1_0_0_1_n_n_wf : DotDims.WF S2000x150 S150x150 S2000x150 [1] [0] [0] [1] [] []
  gather_S20000x150_S200000x1_S200000x150_1_0_n_n_0_1_1150_wf : GatherDims.WF S20000x150 S200000x1 S200000x150 [1] [0] [] [0] [] 1 ![1, 150]
  gather_S50000x150_S500000x1_S500000x150_1_0_n_n_0_1_1150_wf : GatherDims.WF S50000x150 S500000x1 S500000x150 [1] [0] [] [0] [] 1 ![1, 150]
  scatter_S20000x150_S500000x1_S500000x150_1_0_0_1_wf : ScatterDims.WF S20000x150 S500000x1 S500000x150 [1] [0] [0] 1
  scatter_S20000_S500000x1_S500000_n_0_0_1_wf : ScatterDims.WF S20000 S500000x1 S500000 [] [0] [0] 1
  dot_S20000x150_S150x150_S20000x150_1_0_0_1_n_n_wf : DotDims.WF S20000x150 S150x150 S20000x150 [1] [0] [0] [1] [] []
  scatter_S20000x150_S200000x1_S200000x150_1_0_0_1_wf : ScatterDims.WF S20000x150 S200000x1 S200000x150 [1] [0] [0] 1
  scatter_S20000_S200000x1_S200000_n_0_0_1_wf : ScatterDims.WF S20000 S200000x1 S200000 [] [0] [0] 1
  dot_S50000x768_S768x300_S50000x300_1_0_0_1_n_n_wf : DotDims.WF S50000x768 S768x300 S50000x300 [1] [0] [0] [1] [] []
  dot_S50000x300_S300x200_S50000x200_1_0_0_1_n_n_wf : DotDims.WF S50000x300 S300x200 S50000x200 [1] [0] [0] [1] [] []
  dot_S50000x200_S200x150_S50000x150_1_0_0_1_n_n_wf : DotDims.WF S50000x200 S200x150 S50000x150 [1] [0] [0] [1] [] []
  dot_S500000x300_S300x150_S500000x150_1_0_0_1_n_n_wf : DotDims.WF S500000x300 S300x150 S500000x150 [1] [0] [0] [1] [] []
  dot_S500000x150_S150x50_S500000x50_1_0_0_1_n_n_wf : DotDims.WF S500000x150 S150x50 S500000x50 [1] [0] [0] [1] [] []
  dot_S500000x50_S50x3_S500000x3_1_0_0_1_n_n_wf : DotDims.WF S500000x50 S50x3 S500000x3 [1] [0] [0] [1] [] []

variable [Facts₀]

def dot_S50000x768_S768x150_S50000x150_1_0_0_1_n_n : DotDims S50000x768 S768x150 S50000x150 where
  lhsContracting := [1]
  rhsContracting := [0]
  lhsNonContracting := [0]
  rhsNonContracting := [1]
  lhsBatch := []
  rhsBatch := []
  wf := dot_S50000x768_S768x150_S50000x150_1_0_0_1_n_n_wf
def dot_S2000x768_S768x150_S2000x150_1_0_0_1_n_n : DotDims S2000x768 S768x150 S2000x150 where
  lhsContracting := [1]
  rhsContracting := [0]
  lhsNonContracting := [0]
  rhsNonContracting := [1]
  lhsBatch := []
  rhsBatch := []
  wf := dot_S2000x768_S768x150_S2000x150_1_0_0_1_n_n_wf
def dot_S20000x1024_S1024x150_S20000x150_1_0_0_1_n_n : DotDims S20000x1024 S1024x150 S20000x150 where
  lhsContracting := [1]
  rhsContracting := [0]
  lhsNonContracting := [0]
  rhsNonContracting := [1]
  lhsBatch := []
  rhsBatch := []
  wf := dot_S20000x1024_S1024x150_S20000x150_1_0_0_1_n_n_wf
def gather_S20000x150_S500000x1_S500000x150_1_0_n_n_0_1_1150 : GatherDims S20000x150 S500000x1 S500000x150 where
  offsetDims := [1]
  collapsedSliceDims := [0]
  operandBatchingDims := []
  startIndicesBatchingDims := []
  startIndexMap := [0]
  indexVectorDim := 1
  sliceSizes := ![1, 150]
  wf := gather_S20000x150_S500000x1_S500000x150_1_0_n_n_0_1_1150_wf
def scatter_S50000x150_S500000x1_S500000x150_1_0_0_1 : ScatterDims S50000x150 S500000x1 S500000x150 where
  updateWindowDims := [1]
  insertedWindowDims := [0]
  scatterDimsToOperandDims := [0]
  indexVectorDim := 1
  wf := scatter_S50000x150_S500000x1_S500000x150_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x150_S150x150_S50000x150_1_0_0_1_n_n : DotDims S50000x150 S150x150 S50000x150 where
  lhsContracting := [1]
  rhsContracting := [0]
  lhsNonContracting := [0]
  rhsNonContracting := [1]
  lhsBatch := []
  rhsBatch := []
  wf := dot_S50000x150_S150x150_S50000x150_1_0_0_1_n_n_wf
def gather_S2000x150_S200000x1_S200000x150_1_0_n_n_0_1_1150 : GatherDims S2000x150 S200000x1 S200000x150 where
  offsetDims := [1]
  collapsedSliceDims := [0]
  operandBatchingDims := []
  startIndicesBatchingDims := []
  startIndexMap := [0]
  indexVectorDim := 1
  sliceSizes := ![1, 150]
  wf := gather_S2000x150_S200000x1_S200000x150_1_0_n_n_0_1_1150_wf
def scatter_S50000x150_S200000x1_S200000x150_1_0_0_1 : ScatterDims S50000x150 S200000x1 S200000x150 where
  updateWindowDims := [1]
  insertedWindowDims := [0]
  scatterDimsToOperandDims := [0]
  indexVectorDim := 1
  wf := scatter_S50000x150_S200000x1_S200000x150_1_0_0_1_wf
def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf
def gather_S50000x150_S200000x1_S200000x150_1_0_n_n_0_1_1150 : GatherDims S50000x150 S200000x1 S200000x150 where
  offsetDims := [1]
  collapsedSliceDims := [0]
  operandBatchingDims := []
  startIndicesBatchingDims := []
  startIndexMap := [0]
  indexVectorDim := 1
  sliceSizes := ![1, 150]
  wf := gather_S50000x150_S200000x1_S200000x150_1_0_n_n_0_1_1150_wf
def scatter_S2000x150_S200000x1_S200000x150_1_0_0_1 : ScatterDims S2000x150 S200000x1 S200000x150 where
  updateWindowDims := [1]
  insertedWindowDims := [0]
  scatterDimsToOperandDims := [0]
  indexVectorDim := 1
  wf := scatter_S2000x150_S200000x1_S200000x150_1_0_0_1_wf
def scatter_S2000_S200000x1_S200000_n_0_0_1 : ScatterDims S2000 S200000x1 S200000 where
  updateWindowDims := []
  insertedWindowDims := [0]
  scatterDimsToOperandDims := [0]
  indexVectorDim := 1
  wf := scatter_S2000_S200000x1_S200000_n_0_0_1_wf
def dot_S2000x150_S150x150_S2000x150_1_0_0_1_n_n : DotDims S2000x150 S150x150 S2000x150 where
  lhsContracting := [1]
  rhsContracting := [0]
  lhsNonContracting := [0]
  rhsNonContracting := [1]
  lhsBatch := []
  rhsBatch := []
  wf := dot_S2000x150_S150x150_S2000x150_1_0_0_1_n_n_wf
def gather_S20000x150_S200000x1_S200000x150_1_0_n_n_0_1_1150 : GatherDims S20000x150 S200000x1 S200000x150 where
  offsetDims := [1]
  collapsedSliceDims := [0]
  operandBatchingDims := []
  startIndicesBatchingDims := []
  startIndexMap := [0]
  indexVectorDim := 1
  sliceSizes := ![1, 150]
  wf := gather_S20000x150_S200000x1_S200000x150_1_0_n_n_0_1_1150_wf
def gather_S50000x150_S500000x1_S500000x150_1_0_n_n_0_1_1150 : GatherDims S50000x150 S500000x1 S500000x150 where
  offsetDims := [1]
  collapsedSliceDims := [0]
  operandBatchingDims := []
  startIndicesBatchingDims := []
  startIndexMap := [0]
  indexVectorDim := 1
  sliceSizes := ![1, 150]
  wf := gather_S50000x150_S500000x1_S500000x150_1_0_n_n_0_1_1150_wf
def scatter_S20000x150_S500000x1_S500000x150_1_0_0_1 : ScatterDims S20000x150 S500000x1 S500000x150 where
  updateWindowDims := [1]
  insertedWindowDims := [0]
  scatterDimsToOperandDims := [0]
  indexVectorDim := 1
  wf := scatter_S20000x150_S500000x1_S500000x150_1_0_0_1_wf
def scatter_S20000_S500000x1_S500000_n_0_0_1 : ScatterDims S20000 S500000x1 S500000 where
  updateWindowDims := []
  insertedWindowDims := [0]
  scatterDimsToOperandDims := [0]
  indexVectorDim := 1
  wf := scatter_S20000_S500000x1_S500000_n_0_0_1_wf
def dot_S20000x150_S150x150_S20000x150_1_0_0_1_n_n : DotDims S20000x150 S150x150 S20000x150 where
  lhsContracting := [1]
  rhsContracting := [0]
  lhsNonContracting := [0]
  rhsNonContracting := [1]
  lhsBatch := []
  rhsBatch := []
  wf := dot_S20000x150_S150x150_S20000x150_1_0_0_1_n_n_wf
def scatter_S20000x150_S200000x1_S200000x150_1_0_0_1 : ScatterDims S20000x150 S200000x1 S200000x150 where
  updateWindowDims := [1]
  insertedWindowDims := [0]
  scatterDimsToOperandDims := [0]
  indexVectorDim := 1
  wf := scatter_S20000x150_S200000x1_S200000x150_1_0_0_1_wf
def scatter_S20000_S200000x1_S200000_n_0_0_1 : ScatterDims S20000 S200000x1 S200000 where
  updateWindowDims := []
  insertedWindowDims := [0]
  scatterDimsToOperandDims := [0]
  indexVectorDim := 1
  wf := scatter_S20000_S200000x1_S200000_n_0_0_1_wf
def dot_S50000x768_S768x300_S50000x300_1_0_0_1_n_n : DotDims S50000x768 S768x300 S50000x300 where
  lhsContracting := [1]
  rhsContracting := [0]
  lhsNonContracting := [0]
  rhsNonContracting := [1]
  lhsBatch := []
  rhsBatch := []
  wf := dot_S50000x768_S768x300_S50000x300_1_0_0_1_n_n_wf
def dot_S50000x300_S300x200_S50000x200_1_0_0_1_n_n : DotDims S50000x300 S300x200 S50000x200 where
  lhsContracting := [1]
  rhsContracting := [0]
  lhsNonContracting := [0]
  rhsNonContracting := [1]
  lhsBatch := []
  rhsBatch := []
  wf := dot_S50000x300_S300x200_S50000x200_1_0_0_1_n_n_wf
def dot_S50000x200_S200x150_S50000x150_1_0_0_1_n_n : DotDims S50000x200 S200x150 S50000x150 where
  lhsContracting := [1]
  rhsContracting := [0]
  lhsNonContracting := [0]
  rhsNonContracting := [1]
  lhsBatch := []
  rhsBatch := []
  wf := dot_S50000x200_S200x150_S50000x150_1_0_0_1_n_n_wf
def dot_S500000x300_S300x150_S500000x150_1_0_0_1_n_n : DotDims S500000x300 S300x150 S500000x150 where
  lhsContracting := [1]
  rhsContracting := [0]
  lhsNonContracting := [0]
  rhsNonContracting := [1]
  lhsBatch := []
  rhsBatch := []
  wf := dot_S500000x300_S300x150_S500000x150_1_0_0_1_n_n_wf
def dot_S500000x150_S150x50_S500000x50_1_0_0_1_n_n : DotDims S500000x150 S150x50 S500000x50 where
  lhsContracting := [1]
  rhsContracting := [0]
  lhsNonContracting := [0]
  rhsNonContracting := [1]
  lhsBatch := []
  rhsBatch := []
  wf := dot_S500000x150_S150x50_S500000x50_1_0_0_1_n_n_wf
def dot_S500000x50_S50x3_S500000x3_1_0_0_1_n_n : DotDims S500000x50 S50x3 S500000x3 where
  lhsContracting := [1]
  rhsContracting := [0]
  lhsNonContracting := [0]
  rhsNonContracting := [1]
  lhsBatch := []
  rhsBatch := []
  wf := dot_S500000x50_S50x3_S500000x3_1_0_0_1_n_n_wf

class Facts : Prop extends Facts₀ where

variable [Facts]
-- ==== Proof.RefKept.lean ====
/- No operation of the reference writes an argument array, so the fold of its operations leaves each argument at its
   launch contents: decided by evaluating the list's written buffers. -/
import proofs.«141689_j63058709840619_1_alg».proof.Proof.RefRunP
import Idealize.ShloMosaic.PureOps.Ideal

set_option maxRecDepth 16384

noncomputable section

namespace Cert.ReferenceIdeal.ValueP

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ)

set_option maxHeartbeats 4000000 in
theorem kept0 (c : Dev nD) : after (ops (F := Ideal)) (launchContents m c) (Proc.devRef .tc main_arg0) = m ((c.tc : Thread nD τ).loc main_arg0) :=
  (after_of_forall_not_mem (b := Proc.devRef .tc main_arg0) _ _ (by decide +kernel)).trans rfl
set_option maxHeartbeats 4000000 in
theorem kept1 (c : Dev nD) : after (ops (F := Ideal)) (launchContents m c) (Proc.devRef .tc main_arg1) = m ((c.tc : Thread nD τ).loc main_arg1) :=
  (after_of_forall_not_mem (b := Proc.devRef .tc main_arg1) _ _ (by decide +kernel)).trans rfl
set_option maxHeartbeats 4000000 in
theorem kept2 (c : Dev nD) : after (ops (F := Ideal)) (launchContents m c) (Proc.devRef .tc main_arg2) = m ((c.tc : Thread nD τ).loc main_arg2) :=
  (after_of_forall_not_mem (b := Proc.devRef .tc main_arg2) _ _ (by decide +kernel)).trans rfl
set_option maxHeartbeats 4000000 in
theorem kept3 (c : Dev nD) : after (ops (F := Ideal)) (launchContents m c) (Proc.devRef .tc main_arg3) = m ((c.tc : Thread nD τ).loc main_arg3) :=
  (after_of_forall_not_mem (b := Proc.devRef .tc main_arg3) _ _ (by decide +kernel)).trans rfl
set_option maxHeartbeats 4000000 in
theorem kept4 (c : Dev nD) : after (ops (F := Ideal)) (launchContents m c) (Proc.devRef .tc main_arg4) = m ((c.tc : Thread nD τ).loc main_arg4) :=
  (after_of_forall_not_mem (b := Proc.devRef .tc main_arg4) _ _ (by decide +kernel)).trans rfl
set_option maxHeartbeats 4000000 in
theorem kept5 (c : Dev nD) : after (ops (F := Ideal)) (launchContents m c) (Proc.devRef .tc main_arg5) = m ((c.tc : Thread nD τ).loc main_arg5) :=
  (after_of_forall_not_mem (b := Proc.devRef .tc main_arg5) _ _ (by decide +kernel)).trans rfl
set_option maxHeartbeats 4000000 in
theorem kept6 (c : Dev nD) : after (ops (F := Ideal)) (launchContents m c) (Proc.devRef .tc main_arg6) = m ((c.tc : Thread nD τ).loc main_arg6) :=
  (after_of_forall_not_mem (b := Proc.devRef .tc main_arg6) _ _ (by decide +kernel)).trans rfl
set_option maxHeartbeats 4000000 in
theorem kept7 (c : Dev nD) : after (ops (F := Ideal)) (launchContents m c) (Proc.devRef .tc main_arg7) = m ((c.tc : Thread nD τ).loc main_arg7) :=
  (after_of_forall_not_mem (b := Proc.devRef .tc main_arg7) _ _ (by decide +kernel)).trans rfl
set_option maxHeartbeats 4000000 in
theorem kept8 (c : Dev nD) : after (ops (F := Ideal)) (launchContents m c) (Proc.devRef .tc main_arg8) = m ((c.tc : Thread nD τ).loc main_arg8) :=
  (after_of_forall_not_mem (b := Proc.devRef .tc main_arg8) _ _ (by decide +kernel)).trans rfl
set_option maxHeartbeats 4000000 in
theorem kept9 (c : Dev nD) : after (ops (F := Ideal)) (launchContents m c) (Proc.devRef .tc main_arg9) = m ((c.tc : Thread nD τ).loc main_arg9) :=
  (after_of_forall_not_mem (b := Proc.devRef .tc main_arg9) _ _ (by decide +kernel)).trans rfl
set_option maxHeartbeats 4000000 in
theorem kept10 (c : Dev nD) : after (ops (F := Ideal)) (launchContents m c) (Proc.devRef .tc main_arg10) = m ((c.tc : Thread nD τ).loc main_arg10) :=
  (after_of_forall_not_mem (b := Proc.devRef .tc main_arg10) _ _ (by decide +kernel)).trans rfl
set_option maxHeartbeats 4000000 in
theorem kept11 (c : Dev nD) : after (ops (F := Ideal)) (launchContents m c) (Proc.devRef .tc main_arg11) = m ((c.tc : Thread nD τ).loc main_arg11) :=
  (after_of_forall_not_mem (b := Proc.devRef .tc main_arg11) _ _ (by decide +kernel)).trans rfl
set_option maxHeartbeats 4000000 in
theorem kept12 (c : Dev nD) : after (ops (F := Ideal)) (launchContents m c) (Proc.devRef .tc main_arg12) = m ((c.tc : Thread nD τ).loc main_arg12) :=
  (after_of_forall_not_mem (b := Proc.devRef .tc main_arg12) _ _ (by decide +kernel)).trans rfl
set_option maxHeartbeats 4000000 in
theorem kept13 (c : Dev nD) : after (ops (F := Ideal)) (launchContents m c) (Proc.devRef .tc main_arg13) = m ((c.tc : Thread nD τ).loc main_arg13) :=
  (after_of_forall_not_mem (b := Proc.devRef .tc main_arg13) _ _ (by decide +kernel)).trans rfl
set_option maxHeartbeats 4000000 in
theorem kept14 (c : Dev nD) : after (ops (F := Ideal)) (launchContents m c) (Proc.devRef .tc main_arg14) = m ((c.tc : Thread nD τ).loc main_arg14) :=
  (after_of_forall_not_mem (b := Proc.devRef .tc main_arg14) _ _ (by decide +kernel)).trans rfl
set_option maxHeartbeats 4000000 in
theorem kept15 (c : Dev nD) : after (ops (F := Ideal)) (launchContents m c) (Proc.devRef .tc main_arg15) = m ((c.tc : Thread nD τ).loc main_arg15) :=
  (after_of_forall_not_mem (b := Proc.devRef .tc main_arg15) _ _ (by decide +kernel)).trans rfl
set_option maxHeartbeats 4000000 in
theorem kept16 (c : Dev nD) : after (ops (F := Ideal)) (launchContents m c) (Proc.devRef .tc main_arg16) = m ((c.tc : Thread nD τ).loc main_arg16) :=
  (after_of_forall_not_mem (b := Proc.devRef .tc main_arg16) _ _ (by decide +kernel)).trans rfl
set_option maxHeartbeats 4000000 in
theorem kept17 (c : Dev nD) : after (ops (F := Ideal)) (launchContents m c) (Proc.devRef .tc main_arg17) = m ((c.tc : Thread nD τ).loc main_arg17) :=
  (after_of_forall_not_mem (b := Proc.devRef .tc main_arg17) _ _ (by decide +kernel)).trans rfl
set_option maxHeartbeats 4000000 in
theorem kept18 (c : Dev nD) : after (ops (F := Ideal)) (launchContents m c) (Proc.devRef .tc main_arg18) = m ((c.tc : Thread nD τ).loc main_arg18) :=
  (after_of_forall_not_mem (b := Proc.devRef .tc main_arg18) _ _ (by decide +kernel)).trans rfl
set_option maxHeartbeats 4000000 in
theorem kept19 (c : Dev nD) : after (ops (F := Ideal)) (launchContents m c) (Proc.devRef .tc main_arg19) = m ((c.tc : Thread nD τ).loc main_arg19) :=
  (after_of_forall_not_mem (b := Proc.devRef .tc main_arg19) _ _ (by decide +kernel)).trans rfl
set_option maxHeartbeats 4000000 in
theorem kept20 (c : Dev nD) : after (ops (F := Ideal)) (launchContents m c) (Proc.devRef .tc main_arg20) = m ((c.tc : Thread nD τ).loc main_arg20) :=
  (after_of_forall_not_mem (b := Proc.devRef .tc main_arg20) _ _ (by decide +kernel)).trans rfl
set_option maxHeartbeats 4000000 in
theorem kept21 (c : Dev nD) : after (ops (F := Ideal)) (launchContents m c) (Proc.devRef .tc main_arg21) = m ((c.tc : Thread nD τ).loc main_arg21) :=
  (after_of_forall_not_mem (b := Proc.devRef .tc main_arg21) _ _ (by decide +kernel)).trans rfl
set_option maxHeartbeats 4000000 in
theorem kept22 (c : Dev nD) : after (ops (F := Ideal)) (launchContents m c) (Proc.devRef .tc main_arg22) = m ((c.tc : Thread nD τ).loc main_arg22) :=
  (after_of_forall_not_mem (b := Proc.devRef .tc main_arg22) _ _ (by decide +kernel)).trans rfl
set_option maxHeartbeats 4000000 in
theorem kept23 (c : Dev nD) : after (ops (F := Ideal)) (launchContents m c) (Proc.devRef .tc main_arg23) = m ((c.tc : Thread nD τ).loc main_arg23) :=
  (after_of_forall_not_mem (b := Proc.devRef .tc main_arg23) _ _ (by decide +kernel)).trans rfl
set_option maxHeartbeats 4000000 in
theorem kept24 (c : Dev nD) : after (ops (F := Ideal)) (launchContents m c) (Proc.devRef .tc main_arg24) = m ((c.tc : Thread nD τ).loc main_arg24) :=
  (after_of_forall_not_mem (b := Proc.devRef .tc main_arg24) _ _ (by decide +kernel)).trans rfl
set_option maxHeartbeats 4000000 in
theorem kept25 (c : Dev nD) : after (ops (F := Ideal)) (launchContents m c) (Proc.devRef .tc main_arg25) = m ((c.tc : Thread nD τ).loc main_arg25) :=
  (after_of_forall_not_mem (b := Proc.devRef .tc main_arg25) _ _ (by decide +kernel)).trans rfl
set_option maxHeartbeats 4000000 in
theorem kept26 (c : Dev nD) : after (ops (F := Ideal)) (launchContents m c) (Proc.devRef .tc main_arg26) = m ((c.tc : Thread nD τ).loc main_arg26) :=
  (after_of_forall_not_mem (b := Proc.devRef .tc main_arg26) _ _ (by decide +kernel)).trans rfl
set_option maxHeartbeats 4000000 in
theorem kept27 (c : Dev nD) : after (ops (F := Ideal)) (launchContents m c) (Proc.devRef .tc main_arg27) = m ((c.tc : Thread nD τ).loc main_arg27) :=
  (after_of_forall_not_mem (b := Proc.devRef .tc main_arg27) _ _ (by decide +kernel)).trans rfl

end Cert.ReferenceIdeal.ValueP

end
-- ==== Proof.Spec.lean ====
/-
  The mathematics both programs compute, stated once over the extended reals, index by index, with every size a
  parameter: a dense layer is a row-by-column product plus a bias row (optionally clipped below at zero); the
  two-relation neighbourhood combine is stated in the kernel's arrangement (three products summed, then one summed
  bias) and in the reference's (two full convolutions added). The law joining the two arrangements is distributivity
  of a FINITE left factor over a sum of two finite right factors, which is why finiteness of every intermediate
  feature matrix has to be carried along.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A matrix of extended reals with `a` rows and `b` columns. -/
abbrev Mat (a b : Nat) : Type := FVec Ideal (⟨2, ![a, b]⟩ : Shape) .f32
/-- A row of `a` extended reals. -/
abbrev Row (a : Nat) : Type := FVec Ideal (⟨1, ![a]⟩ : Shape) .f32

variable {M K N : Nat}

/-- Row-by-column product: entry (r, c) is the sum over k of x(r, k) · w(k, c). -/
def mm (x : Mat M K) (w : Mat K N) : Mat M N :=
  fun i => ∑ k : Fin K, x (ix2 (i 0) k) * w (ix2 k (i 1))

/-- Add the row `b` to every row of `y`. -/
def addRow (y : Mat M N) (b : Row N) : Mat M N := fun i => y i + b (ix1 (i 1))

/-- Clip below at zero, entry by entry. -/
def relu (y : Mat M N) : Mat M N := fun i => max (y i) 0

/-- A dense layer: x · w + b. -/
def lin (x : Mat M K) (w : Mat K N) (b : Row N) : Mat M N := addRow (mm x w) b

/-- The one row of a 1-by-N matrix, as a row. -/
def rowOf (b : Mat 1 N) : Row N := fun j => b (ix2 (0 : Fin 1) (j 0))

/-- Entrywise sum of two matrices / two rows. -/
def madd (a b : Mat M N) : Mat M N := fun i => a i + b i
def radd (a b : Row N) : Row N := fun i => a i + b i

/-- The combine in the kernel's arrangement: (a1·w1 + a2·w2 + xd·wr) + b. -/
def sageK (a1 : Mat M K) (w1 : Mat K N) (a2 : Mat M K) (w2 : Mat K N) (xd : Mat M K) (wr : Mat K N) (b : Row N) : Mat M N :=
  addRow (fun i => (mm a1 w1 i + mm a2 w2 i) + mm xd wr i) b

/-- One convolution in the reference's arrangement: (a·w + b) + xd·wr. -/
def conv (a : Mat M K) (w : Mat K N) (b : Row N) (xd : Mat M K) (wr : Mat K N) : Mat M N :=
  fun i => addRow (mm a w) b i + mm xd wr i

/-- The combine in the reference's arrangement: the two convolutions added. -/
def sageR (a1 : Mat M K) (w1 : Mat K N) (b1 : Row N) (a2 : Mat M K) (w2 : Mat K N) (b2 : Row N)
    (xd : Mat M K) (wr1 wr2 : Mat K N) : Mat M N :=
  fun i => conv a1 w1 b1 xd wr1 i + conv a2 w2 b2 xd wr2 i

/-- Every entry is a real number (neither infinity). -/
def Fin' {s : Shape} (x : s.Idx → EReal) : Prop := ∀ i, ∃ r : ℝ, x i = (r : EReal)

end Cert.Spec

end
-- ==== Proof.PreFin.lean ====
/-
  The precondition read back. The printed predicate is, array by array, the conjunction over all positions of
  |x| < +∞ (the absolute value compared, ordered-less-than, with the word 0x7F800000, which denotes +∞), the 24
  conjunctions joined by `and`. If the whole is 1 then each conjunction is 1, each conjunction being 1 gives the
  comparison at every position, and an extended real whose absolute value is below +∞ is neither infinity: it is a
  real number. Stated once for an array of any shape and applied to each of the 24 float arrays.
-/
import proofs.«141689_j63058709840619_1_alg».proof.Pre_finite_inputs
import proofs.«141689_j63058709840619_1_alg».proof.Proof.Spec
import Idealize.ShloMosaic.Lib.ReduceAll
import Idealize.ShloMosaic.Lib.ValueIdx
import Idealize.ShloMosaic.PureOps.Ideal

noncomputable section

namespace Cert.PreFin

open Idealize.ShloMosaic Cert.Pre_finite_inputs Cert.Spec

/-- The rank-0 shape has one index. -/
instance : Subsingleton S_.Idx := ⟨fun a b => funext fun d => d.elim0⟩

/-- One element: an extended real whose absolute value compares below the word of +∞ is a real number
    (at either infinity the absolute value is +∞ and the comparison is false). -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- One array, of any shape: if the conjunction over all positions of |x| < +∞ is 1, every entry of x is a real number. -/
theorem fin_of_all {s : Shape} {axes : List (Fin s.rank)} (x : FVec Ideal s .f32)
    (hb : S_.BroadcastsInDim s (![] : Fin 0 → Fin s.rank)) (hr : s.ReducesTo axes S_) (hu : 0 < S_.numel) (init : IVec S_ 1)
    (j : S_.Idx)
    (e : Host.reduce IntOp.andi (cmpf .olt (Host.absf x) (broadcastInDim s ![] hb (constant S_ .f32 0x7F800000#32))) init hr hu j = 1#1) :
    Fin' x := by
  intro i
  have hi := Host.reduce_andi_all _ init hr hu j e i
  exact real_of_abs_lt_inf (x i) hi

/-- The precondition read back: every entry of every float array is a real number. -/
theorem fin_of_pre [Facts] (a0 : FVec Ideal S50000x768 .f32) (a1 : FVec Ideal S2000x768 .f32) (a2 : FVec Ideal S20000x1024 .f32) (a3 : FVec Ideal S768x150 .f32) (a4 : FVec Ideal S150 .f32) (a5 : FVec Ideal S768x150 .f32) (a6 : FVec Ideal S150 .f32) (a7 : FVec Ideal S1024x150 .f32) (a8 : FVec Ideal S150 .f32) (a9 : FVec Ideal S3x6x150x150 .f32) (a10 : FVec Ideal S3x6x150 .f32) (a11 : FVec Ideal S3x6x150x150 .f32) (a12 : FVec Ideal S768x300 .f32) (a13 : FVec Ideal S300 .f32) (a14 : FVec Ideal S300x200 .f32) (a15 : FVec Ideal S200 .f32) (a16 : FVec Ideal S200x150 .f32) (a17 : FVec Ideal S150 .f32) (a18 : FVec Ideal S300x150 .f32) (a19 : FVec Ideal S150 .f32) (a20 : FVec Ideal S150x50 .f32) (a21 : FVec Ideal S50 .f32) (a22 : FVec Ideal S50x3 .f32) (a23 : FVec Ideal S3 .f32) (a24 : IVec S2x500000 32) (a25 : IVec S2x200000 32) (a26 : IVec S2x200000 32) (a27 : IVec S2x500000 32)
    (h : fn (F := Ideal) a0 a1 a2 a3 a4 a5 a6 a7 a8 a9 a10 a11 a12 a13 a14 a15 a16 a17 a18 a19 a20 a21 a22 a23 a24 a25 a26 a27 = (fun _ => 1#1)) :
    Fin' a0 ∧ Fin' a1 ∧ Fin' a2 ∧ Fin' a3 ∧ Fin' a4 ∧ Fin' a5 ∧ Fin' a6 ∧ Fin' a7 ∧ Fin' a8 ∧ Fin' a9 ∧ Fin' a10 ∧ Fin' a11 ∧ Fin' a12 ∧ Fin' a13 ∧ Fin' a14 ∧ Fin' a15 ∧ Fin' a16 ∧ Fin' a17 ∧ Fin' a18 ∧ Fin' a19 ∧ Fin' a20 ∧ Fin' a21 ∧ Fin' a22 ∧ Fin' a23 := by
  have e := congrFun h ValueIdx.ix0
  dsimp only [fn, fn_part1, fn_part2, fn_part3, fn_part4, fn_part5, fn_part6] at e
  simp only [Idealize.ShloMosaic.andi, IntOp.andi_eq_one] at e
  obtain ⟨⟨⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩ := e
  exact ⟨fin_of_all a0 _ _ _ _ _ h0,
    fin_of_all a1 _ _ _ _ _ h1,
    fin_of_all a2 _ _ _ _ _ h2,
    fin_of_all a3 _ _ _ _ _ h3,
    fin_of_all a4 _ _ _ _ _ h4,
    fin_of_all a5 _ _ _ _ _ h5,
    fin_of_all a6 _ _ _ _ _ h6,
    fin_of_all a7 _ _ _ _ _ h7,
    fin_of_all a8 _ _ _ _ _ h8,
    fin_of_all a9 _ _ _ _ _ h9,
    fin_of_all a10 _ _ _ _ _ h10,
    fin_of_all a11 _ _ _ _ _ h11,
    fin_of_all a12 _ _ _ _ _ h12,
    fin_of_all a13 _ _ _ _ _ h13,
    fin_of_all a14 _ _ _ _ _ h14,
    fin_of_all a15 _ _ _ _ _ h15,
    fin_of_all a16 _ _ _ _ _ h16,
    fin_of_all a17 _ _ _ _ _ h17,
    fin_of_all a18 _ _ _ _ _ h18,
    fin_of_all a19 _ _ _ _ _ h19,
    fin_of_all a20 _ _ _ _ _ h20,
    fin_of_all a21 _ _ _ _ _ h21,
    fin_of_all a22 _ _ _ _ _ h22,
    fin_of_all a23 _ _ _ _ _ h23⟩

end Cert.PreFin

end
-- ==== Proof.Args.lean ====
/- The twenty-eight argument arrays of the two programs at their literal types, and what it means for a launch
   memory of either program to hold them: the form in which the comparison of the two programs reads its inputs. -/
import proofs.«141689_j63058709840619_1_alg».proof.KernelIdeal
import proofs.«141689_j63058709840619_1_alg».proof.ReferenceIdeal
import proofs.«141689_j63058709840619_1_alg».proof.Proof.Spec

noncomputable section

namespace Cert

open Idealize.ShloMosaic Idealize.ShloMosaic.TcCoe Idealize.SL.Sem Cert.Spec

/-- The argument arrays, in the order of the entry point's parameters. -/
structure ArgVals where
  x_lnc : Mat 50000 768
  x_mir : Mat 2000 768
  x_pro : Mat 20000 1024
  W_lnc : Mat 768 150
  b_lnc : Row 150
  W_mir : Mat 768 150
  b_mir : Row 150
  W_pro : Mat 1024 150
  b_pro : Row 150
  Wl : FVec Ideal (⟨4, ![3, 6, 150, 150]⟩ : Shape) .f32
  bl : FVec Ideal (⟨3, ![3, 6, 150]⟩ : Shape) .f32
  Wr : FVec Ideal (⟨4, ![3, 6, 150, 150]⟩ : Shape) .f32
  cW1 : Mat 768 300
  cb1 : Row 300
  cW2 : Mat 300 200
  cb2 : Row 200
  cW3 : Mat 200 150
  cb3 : Row 150
  hW1 : Mat 300 150
  hb1 : Row 150
  hW2 : Mat 150 50
  hb2 : Row 50
  hW3 : Mat 50 3
  hb3 : Row 3
  e_lpi : IVec (⟨2, ![2, 500000]⟩ : Shape) 32
  e_lmi : IVec (⟨2, ![2, 200000]⟩ : Shape) 32
  e_mpi : IVec (⟨2, ![2, 200000]⟩ : Shape) 32
  e_lbl : IVec (⟨2, ![2, 500000]⟩ : Shape) 32

/-- The kernel program's launch memory holds the arrays `a` on core `c`. -/
structure KHolds (m : (ℓ : Loc Cert.KernelIdeal.nD Cert.KernelIdeal.τ Cert.KernelIdeal.sig) → Buf (Elt Ideal) ℓ)
    (c : Dev Cert.KernelIdeal.nD) (a : ArgVals) : Prop where
  h0 : m ((c.tc : Thread Cert.KernelIdeal.nD Cert.KernelIdeal.τ).loc Cert.KernelIdeal.main_arg0) = a.x_lnc
  h1 : m ((c.tc : Thread Cert.KernelIdeal.nD Cert.KernelIdeal.τ).loc Cert.KernelIdeal.main_arg1) = a.x_mir
  h2 : m ((c.tc : Thread Cert.KernelIdeal.nD Cert.KernelIdeal.τ).loc Cert.KernelIdeal.main_arg2) = a.x_pro
  h3 : m ((c.tc : Thread Cert.KernelIdeal.nD Cert.KernelIdeal.τ).loc Cert.KernelIdeal.main_arg3) = a.W_lnc
  h4 : m ((c.tc : Thread Cert.KernelIdeal.nD Cert.KernelIdeal.τ).loc Cert.KernelIdeal.main_arg4) = a.b_lnc
  h5 : m ((c.tc : Thread Cert.KernelIdeal.nD Cert.KernelIdeal.τ).loc Cert.KernelIdeal.main_arg5) = a.W_mir
  h6 : m ((c.tc : Thread Cert.KernelIdeal.nD Cert.KernelIdeal.τ).loc Cert.KernelIdeal.main_arg6) = a.b_mir
  h7 : m ((c.tc : Thread Cert.KernelIdeal.nD Cert.KernelIdeal.τ).loc Cert.KernelIdeal.main_arg7) = a.W_pro
  h8 : m ((c.tc : Thread Cert.KernelIdeal.nD Cert.KernelIdeal.τ).loc Cert.KernelIdeal.main_arg8) = a.b_pro
  h9 : m ((c.tc : Thread Cert.KernelIdeal.nD Cert.KernelIdeal.τ).loc Cert.KernelIdeal.main_arg9) = a.Wl
  h10 : m ((c.tc : Thread Cert.KernelIdeal.nD Cert.KernelIdeal.τ).loc Cert.KernelIdeal.main_arg10) = a.bl
  h11 : m ((c.tc : Thread Cert.KernelIdeal.nD Cert.KernelIdeal.τ).loc Cert.KernelIdeal.main_arg11) = a.Wr
  h12 : m ((c.tc : Thread Cert.KernelIdeal.nD Cert.KernelIdeal.τ).loc Cert.KernelIdeal.main_arg12) = a.cW1
  h13 : m ((c.tc : Thread Cert.KernelIdeal.nD Cert.KernelIdeal.τ).loc Cert.KernelIdeal.main_arg13) = a.cb1
  h14 : m ((c.tc : Thread Cert.KernelIdeal.nD Cert.KernelIdeal.τ).loc Cert.KernelIdeal.main_arg14) = a.cW2
  h15 : m ((c.tc : Thread Cert.KernelIdeal.nD Cert.KernelIdeal.τ).loc Cert.KernelIdeal.main_arg15) = a.cb2
  h16 : m ((c.tc : Thread Cert.KernelIdeal.nD Cert.KernelIdeal.τ).loc Cert.KernelIdeal.main_arg16) = a.cW3
  h17 : m ((c.tc : Thread Cert.KernelIdeal.nD Cert.KernelIdeal.τ).loc Cert.KernelIdeal.main_arg17) = a.cb3
  h18 : m ((c.tc : Thread Cert.KernelIdeal.nD Cert.KernelIdeal.τ).loc Cert.KernelIdeal.main_arg18) = a.hW1
  h19 : m ((c.tc : Thread Cert.KernelIdeal.nD Cert.KernelIdeal.τ).loc Cert.KernelIdeal.main_arg19) = a.hb1
  h20 : m ((c.tc : Thread Cert.KernelIdeal.nD Cert.KernelIdeal.τ).loc Cert.KernelIdeal.main_arg20) = a.hW2
  h21 : m ((c.tc : Thread Cert.KernelIdeal.nD Cert.KernelIdeal.τ).loc Cert.KernelIdeal.main_arg21) = a.hb2
  h22 : m ((c.tc : Thread Cert.KernelIdeal.nD Cert.KernelIdeal.τ).loc Cert.KernelIdeal.main_arg22) = a.hW3
  h23 : m ((c.tc : Thread Cert.KernelIdeal.nD Cert.KernelIdeal.τ).loc Cert.KernelIdeal.main_arg23) = a.hb3
  h24 : m ((c.tc : Thread Cert.KernelIdeal.nD Cert.KernelIdeal.τ).loc Cert.KernelIdeal.main_arg24) = a.e_lpi
  h25 : m ((c.tc : Thread Cert.KernelIdeal.nD Cert.KernelIdeal.τ).loc Cert.KernelIdeal.main_arg25) = a.e_lmi
  h26 : m ((c.tc : Thread Cert.KernelIdeal.nD Cert.KernelIdeal.τ).loc Cert.KernelIdeal.main_arg26) = a.e_mpi
  h27 : m ((c.tc : Thread Cert.KernelIdeal.nD Cert.KernelIdeal.τ).loc Cert.KernelIdeal.main_arg27) = a.e_lbl

/-- The reference program's launch memory holds the arrays `a` on core `c`. -/
structure RHolds (m' : (ℓ : Loc Cert.ReferenceIdeal.nD Cert.ReferenceIdeal.τ Cert.ReferenceIdeal.sig) → Buf (Elt Ideal) ℓ)
    (c : Dev Cert.ReferenceIdeal.nD) (a : ArgVals) : Prop where
  h0 : m' ((c.tc : Thread Cert.ReferenceIdeal.nD Cert.ReferenceIdeal.τ).loc Cert.ReferenceIdeal.main_arg0) = a.x_lnc
  h1 : m' ((c.tc : Thread Cert.ReferenceIdeal.nD Cert.ReferenceIdeal.τ).loc Cert.ReferenceIdeal.main_arg1) = a.x_mir
  h2 : m' ((c.tc : Thread Cert.ReferenceIdeal.nD Cert.ReferenceIdeal.τ).loc Cert.ReferenceIdeal.main_arg2) = a.x_pro
  h3 : m' ((c.tc : Thread Cert.ReferenceIdeal.nD Cert.ReferenceIdeal.τ).loc Cert.ReferenceIdeal.main_arg3) = a.W_lnc
  h4 : m' ((c.tc : Thread Cert.ReferenceIdeal.nD Cert.ReferenceIdeal.τ).loc Cert.ReferenceIdeal.main_arg4) = a.b_lnc
  h5 : m' ((c.tc : Thread Cert.ReferenceIdeal.nD Cert.ReferenceIdeal.τ).loc Cert.ReferenceIdeal.main_arg5) = a.W_mir
  h6 : m' ((c.tc : Thread Cert.ReferenceIdeal.nD Cert.ReferenceIdeal.τ).loc Cert.ReferenceIdeal.main_arg6) = a.b_mir
  h7 : m' ((c.tc : Thread Cert.ReferenceIdeal.nD Cert.ReferenceIdeal.τ).loc Cert.ReferenceIdeal.main_arg7) = a.W_pro
  h8 : m' ((c.tc : Thread Cert.ReferenceIdeal.nD Cert.ReferenceIdeal.τ).loc Cert.ReferenceIdeal.main_arg8) = a.b_pro
  h9 : m' ((c.tc : Thread Cert.ReferenceIdeal.nD Cert.ReferenceIdeal.τ).loc Cert.ReferenceIdeal.main_arg9) = a.Wl
  h10 : m' ((c.tc : Thread Cert.ReferenceIdeal.nD Cert.ReferenceIdeal.τ).loc Cert.ReferenceIdeal.main_arg10) = a.bl
  h11 : m' ((c.tc : Thread Cert.ReferenceIdeal.nD Cert.ReferenceIdeal.τ).loc Cert.ReferenceIdeal.main_arg11) = a.Wr
  h12 : m' ((c.tc : Thread Cert.ReferenceIdeal.nD Cert.ReferenceIdeal.τ).loc Cert.ReferenceIdeal.main_arg12) = a.cW1
  h13 : m' ((c.tc : Thread Cert.ReferenceIdeal.nD Cert.ReferenceIdeal.τ).loc Cert.ReferenceIdeal.main_arg13) = a.cb1
  h14 : m' ((c.tc : Thread Cert.ReferenceIdeal.nD Cert.ReferenceIdeal.τ).loc Cert.ReferenceIdeal.main_arg14) = a.cW2
  h15 : m' ((c.tc : Thread Cert.ReferenceIdeal.nD Cert.ReferenceIdeal.τ).loc Cert.ReferenceIdeal.main_arg15) = a.cb2
  h16 : m' ((c.tc : Thread Cert.ReferenceIdeal.nD Cert.ReferenceIdeal.τ).loc Cert.ReferenceIdeal.main_arg16) = a.cW3
  h17 : m' ((c.tc : Thread Cert.ReferenceIdeal.nD Cert.ReferenceIdeal.τ).loc Cert.ReferenceIdeal.main_arg17) = a.cb3
  h18 : m' ((c.tc : Thread Cert.ReferenceIdeal.nD Cert.ReferenceIdeal.τ).loc Cert.ReferenceIdeal.main_arg18) = a.hW1
  h19 : m' ((c.tc : Thread Cert.ReferenceIdeal.nD Cert.ReferenceIdeal.τ).loc Cert.ReferenceIdeal.main_arg19) = a.hb1
  h20 : m' ((c.tc : Thread Cert.ReferenceIdeal.nD Cert.ReferenceIdeal.τ).loc Cert.ReferenceIdeal.main_arg20) = a.hW2
  h21 : m' ((c.tc : Thread Cert.ReferenceIdeal.nD Cert.ReferenceIdeal.τ).loc Cert.ReferenceIdeal.main_arg21) = a.hb2
  h22 : m' ((c.tc : Thread Cert.ReferenceIdeal.nD Cert.ReferenceIdeal.τ).loc Cert.ReferenceIdeal.main_arg22) = a.hW3
  h23 : m' ((c.tc : Thread Cert.ReferenceIdeal.nD Cert.ReferenceIdeal.τ).loc Cert.ReferenceIdeal.main_arg23) = a.hb3
  h24 : m' ((c.tc : Thread Cert.ReferenceIdeal.nD Cert.ReferenceIdeal.τ).loc Cert.ReferenceIdeal.main_arg24) = a.e_lpi
  h25 : m' ((c.tc : Thread Cert.ReferenceIdeal.nD Cert.ReferenceIdeal.τ).loc Cert.ReferenceIdeal.main_arg25) = a.e_lmi
  h26 : m' ((c.tc : Thread Cert.ReferenceIdeal.nD Cert.ReferenceIdeal.τ).loc Cert.ReferenceIdeal.main_arg26) = a.e_mpi
  h27 : m' ((c.tc : Thread Cert.ReferenceIdeal.nD Cert.ReferenceIdeal.τ).loc Cert.ReferenceIdeal.main_arg27) = a.e_lbl

end Cert

end
-- ==== Proof.Algebra.lean ====
/-
  The law that joins the two arrangements of the neighbourhood combine, and finiteness of everything the two
  programs build from finite inputs.  On the extended reals a product distributes over a sum only away from the
  infinities, so the combine's two arrangements agree when the left factor (the destination features) and the two
  right factors (the two root-weight matrices) are finite; sums, products, maxima with zero, gathers, accumulating
  scatters of finite data and quotients by a real number that is at least one all stay finite.
-/
import proofs.«141689_j63058709840619_1_alg».proof.Proof.Spec

noncomputable section

namespace Cert.Spec

open Idealize.ShloMosaic Idealize.ShloMosaic.ValueIdx

variable {M K N : Nat}

/-- Distributivity for three real numbers read in the extended reals. -/
theorem coe_mul_add (x a b : ℝ) : (x : EReal) * ((a : EReal) + (b : EReal)) = (x : EReal) * (a : EReal) + (x : EReal) * (b : EReal) := by
  rw [← EReal.coe_add, ← EReal.coe_mul, ← EReal.coe_mul, ← EReal.coe_mul, ← EReal.coe_add, mul_add]

/-- A finite sum of real numbers read in the extended reals is a real number. -/
theorem sum_coe {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Product with a finite left factor distributes over the entrywise sum of two finite right factors. -/
theorem mm_madd (xd : Mat M K) (wr1 wr2 : Mat K N) (hx : Fin' xd) (h1 : Fin' wr1) (h2 : Fin' wr2) :
    mm xd (madd wr1 wr2) = madd (mm xd wr1) (mm xd wr2) := by
  funext i
  simp only [mm, madd]
  rw [← Finset.sum_add_distrib]
  refine Finset.sum_congr rfl (fun k _ => ?_)
  obtain ⟨x, hx'⟩ := hx (ix2 (i 0) k)
  obtain ⟨a, ha⟩ := h1 (ix2 k (i 1))
  obtain ⟨b, hb⟩ := h2 (ix2 k (i 1))
  rw [hx', ha, hb]
  exact coe_mul_add x a b

/-- THE LAW: the kernel's arrangement of the combine (root weights and biases summed first) is the reference's
    (two convolutions added), when the destination features and both root-weight matrices are finite. -/
theorem sage_eq (a1 : Mat M K) (w1 : Mat K N) (b1 : Row N) (a2 : Mat M K) (w2 : Mat K N) (b2 : Row N)
    (xd : Mat M K) (wr1 wr2 : Mat K N) (hx : Fin' xd) (h1 : Fin' wr1) (h2 : Fin' wr2) :
    sageK a1 w1 a2 w2 xd (madd wr1 wr2) (radd b1 b2) = sageR a1 w1 b1 a2 w2 b2 xd wr1 wr2 := by
  funext i
  simp only [sageK, sageR, conv, addRow, radd]
  rw [mm_madd xd wr1 wr2 hx h1 h2]
  simp only [madd]
  abel

/-! ## Finiteness is preserved -/

theorem fin_mm (x : Mat M K) (w : Mat K N) (hx : Fin' x) (hw : Fin' w) : Fin' (mm x w) := by
  intro i
  choose fx hfx using hx
  choose fw hfw using hw
  refine ⟨∑ k : Fin K, fx (ix2 (i 0) k) * fw (ix2 k (i 1)), ?_⟩
  simp only [mm]
  rw [← sum_coe]
  refine Finset.sum_congr rfl (fun k _ => ?_)
  rw [hfx, hfw, EReal.coe_mul]
theorem fin_addRow (y : Mat M N) (b : Row N) (hy : Fin' y) (hb : Fin' b) : Fin' (addRow y b) := by
  intro i
  obtain ⟨a, ha⟩ := hy i
  obtain ⟨c, hc⟩ := hb (ix1 (i 1))
  exact ⟨a + c, by simp only [addRow]; rw [ha, hc, EReal.coe_add]⟩
/-- The larger of two real numbers, read in the extended reals. -/
private theorem coe_max' (a b : ℝ) : max (a : EReal) (b : EReal) = ((max a b : ℝ) : EReal) :=
  (EReal.coe_strictMono.monotone.map_max).symm

theorem fin_relu (y : Mat M N) (hy : Fin' y) : Fin' (relu y) := by
  intro i
  obtain ⟨a, ha⟩ := hy i
  exact ⟨max a 0, by simp only [relu]; rw [ha, ← EReal.coe_zero, coe_max']⟩
theorem fin_lin (x : Mat M K) (w : Mat K N) (b : Row N) (hx : Fin' x) (hw : Fin' w) (hb : Fin' b) : Fin' (lin x w b) := by
  exact fin_addRow _ _ (fin_mm x w hx hw) hb
theorem fin_madd (a b : Mat M N) (ha : Fin' a) (hb : Fin' b) : Fin' (madd a b) := by
  intro i
  obtain ⟨p, hp⟩ := ha i
  obtain ⟨q, hq⟩ := hb i
  exact ⟨p + q, by simp only [madd]; rw [hp, hq, EReal.coe_add]⟩
theorem fin_radd (a b : Row N) (ha : Fin' a) (hb : Fin' b) : Fin' (radd a b) := by
  intro i
  obtain ⟨p, hp⟩ := ha i
  obtain ⟨q, hq⟩ := hb i
  exact ⟨p + q, by simp only [radd]; rw [hp, hq, EReal.coe_add]⟩
theorem fin_rowOf (b : Mat 1 N) (hb : Fin' b) : Fin' (rowOf b) := by
  exact fun j => hb (ix2 (0 : Fin 1) (j 0))
theorem fin_sageK (a1 : Mat M K) (w1 : Mat K N) (a2 : Mat M K) (w2 : Mat K N) (xd : Mat M K) (wr : Mat K N) (b : Row N)
    (h1 : Fin' a1) (h2 : Fin' w1) (h3 : Fin' a2) (h4 : Fin' w2) (h5 : Fin' xd) (h6 : Fin' wr) (h7 : Fin' b) :
    Fin' (sageK a1 w1 a2 w2 xd wr b) := by
  unfold sageK
  refine fin_addRow _ _ ?_ h7
  intro i
  obtain ⟨p, hp⟩ := fin_mm a1 w1 h1 h2 i
  obtain ⟨q, hq⟩ := fin_mm a2 w2 h3 h4 i
  obtain ⟨r, hr⟩ := fin_mm xd wr h5 h6 i
  refine ⟨p + q + r, ?_⟩
  show mm a1 w1 i + mm a2 w2 i + mm xd wr i = _
  rw [hp, hq, hr, EReal.coe_add, EReal.coe_add]

/-- Reading a finite array at other indices (any re-indexing: a slice, a reshape, a broadcast, a gather) is finite. -/
theorem fin_comp {s t : Shape} (x : s.Idx → EReal) (f : t.Idx → s.Idx) (hx : Fin' x) : Fin' (fun j => x (f j)) := by
  exact fun j => hx (f j)

/-- A gather of a finite table is finite, whatever the indices. -/
theorem fin_gather {s si t : Shape} {w : Nat} (d : GatherDims s si t) (x : FVec Ideal s .f32) (idx : IVec si w) (hx : Fin' x) :
    Fin' (Host.gather d x idx) := by
  exact fin_comp x (fun j => d.operandIdx j idx) hx

/-- A real number plus a finite sum of real numbers, read in the extended reals, is a real number. -/
private theorem fin_add_sum {ι : Type*} (s : Finset ι) (a : EReal) (f : ι → EReal) (ha : ∃ r : ℝ, a = (r : EReal))
    (hf : ∀ j, ∃ r : ℝ, f j = (r : EReal)) : ∃ r : ℝ, a + ∑ j ∈ s, f j = (r : EReal) := by
  obtain ⟨p, hp⟩ := ha
  choose g hg using hf
  refine ⟨p + ∑ j ∈ s, g j, ?_⟩
  rw [hp, EReal.coe_add, ← sum_coe, Finset.sum_congr rfl (fun j _ => hg j)]

/-- An accumulating scatter of finite updates into a finite operand is finite, whatever the indices. -/
theorem fin_scatterAdd {s si su : Shape} {w : Nat} (d : ScatterDims s si su) (x : FVec Ideal s .f32) (idx : IVec si w)
    (upd : FVec Ideal su .f32) (hx : Fin' x) (hu : Fin' upd) : Fin' (Host.scatterAdd (F := Ideal) d x idx upd) := by
  intro i
  exact fin_add_sum _ _ _ (hx i) hu

/-- Zero plus a sum of ones over a finite set is a real number that is at least zero (the number of its elements). -/
private theorem zero_add_sum_one {ι : Type*} (s : Finset ι) (a : EReal) (f : ι → EReal) (ha : a = 0) (hf : ∀ j, f j = 1) :
    ∃ r : ℝ, 0 ≤ r ∧ a + ∑ j ∈ s, f j = (r : EReal) := by
  refine ⟨∑ _j ∈ s, (1 : ℝ), Finset.sum_nonneg (fun _ _ => zero_le_one), ?_⟩
  rw [ha, zero_add, ← sum_coe]
  exact Finset.sum_congr rfl (fun j _ => (hf j).trans EReal.coe_one.symm)

/-- Accumulating ones into zeros counts: every entry is a real number that is at least zero. -/
theorem scatterAdd_count_nonneg {s si su : Shape} {w : Nat} (d : ScatterDims s si su) (idx : IVec si w)
    (x : FVec Ideal s .f32) (upd : FVec Ideal su .f32) (hx : ∀ i, x i = 0) (hu : ∀ j, upd j = 1) :
    ∀ i, ∃ r : ℝ, 0 ≤ r ∧ Host.scatterAdd (F := Ideal) d x idx upd i = (r : EReal) := by
  intro i
  exact zero_add_sum_one _ _ _ (hx i) hu

/-- The larger of a nonnegative real and one is a real that is at least one. -/
theorem max_one_ge_one {s : Shape} (cnt one : FVec Ideal s .f32) (hc : ∀ i, ∃ r : ℝ, 0 ≤ r ∧ cnt i = (r : EReal)) (h1 : ∀ i, one i = 1) :
    ∀ i, ∃ r : ℝ, 1 ≤ r ∧ maximumf cnt one i = (r : EReal) := by
  intro i
  obtain ⟨r, _, hr⟩ := hc i
  refine ⟨max r 1, le_max_right _ _, ?_⟩
  rw [maximumf_apply, hr, h1, ← EReal.coe_one, coe_max']

/-- A finite array divided entrywise (the host's divide) by reals that are at least one is finite. -/
theorem fin_divf_ge_one {s : Shape} (x y : FVec Ideal s .f32) (hx : Fin' x) (hy : ∀ i, ∃ r : ℝ, 1 ≤ r ∧ y i = (r : EReal)) :
    Fin' (Host.divf x y) := by
  intro i
  obtain ⟨a, ha⟩ := hx i
  obtain ⟨r, hr1, hr⟩ := hy i
  have hne : r ≠ 0 := ne_of_gt (lt_of_lt_of_le zero_lt_one hr1)
  refine ⟨a * (1 / r), ?_⟩
  show Ideal.div (x i) (y i) = _
  rw [hr, ha, Ideal.div_coe hne, EReal.coe_mul]

/-- The float words for zero and one at the ideal instance. -/
theorem ofBits_one_f32 : Ideal.ofBits .f32 0x3F800000#32 = 1 := by
  simp [Ideal.ofBits, Ideal.ieee, -EReal.coe_mul]; norm_num

end Cert.Spec

end
-- ==== Proof.KHost3.lean ====
/-
  What single buffers hold after a straight line of host operations, as functions of the buffers the line
  reads: each definition is the operations' own functions composed (their text as the list prints it, read at the
  extended reals), each lemma says the fold of the list at that buffer is that function of the starting contents.
-/
import proofs.«141689_j63058709840619_1_alg».proof.Proof.Gen.KernelIdeal.Launch
import proofs.«141689_j63058709840619_1_alg».proof.Proof.Spec
import Idealize.ShloMosaic.Lib.StableHlo.Run

set_option maxRecDepth 8192

noncomputable section

namespace Cert.KernelIdeal.Val

open Idealize.ShloMosaic Idealize.ShloMosaic.TcCoe Cert.KernelIdeal Cert.KernelIdeal.Gen Cert.Spec

/-! ## hostOps3: 73 operations -/

/-- Buffer main_v28 as a function of main_v5, main_arg24: the operations that build it, composed. -/
def kh3_v28 (v5 : FVec Ideal S20000x150 .f32) (arg24 : IVec S2x500000 32) : FVec Ideal S50000x150 .f32 :=
  ((Host.divf (F := Ideal) : FVec Ideal S50000x150 .f32 → FVec Ideal S50000x150 .f32 → FVec Ideal S50000x150 .f32) (((fun x i u => Host.scatterAdd (F := Ideal) scatter_S50000x150_S500000x1_S500000x150_1_0_0_1 x i u) : FVec Ideal S50000x150 .f32 → IVec S500000x1 32 → FVec Ideal S500000x150 .f32 → FVec Ideal S50000x150 .f32) ((broadcastInDim S50000x150 ![] bcast_S_S50000x150 : FVec Ideal S_ .f32 → FVec Ideal S50000x150 .f32) (constant (F := Ideal) S_ .f32 0x00000000#32)) ((broadcastInDim S500000x1 ![0] bcast_S500000_S500000x1_0 : IVec S500000 32 → IVec S500000x1 32) (shapeCast S500000 (((extractStridedSlice S1x500000 ![0, 0] · slices_S2x500000_S1x500000_0_0) : IVec S2x500000 32 → IVec S1x500000 32) arg24) shapeCasts_S1x500000_S500000)) (((fun x i => Host.gather gather_S20000x150_S500000x1_S500000x150_1_0_n_n_0_1_1150 x i) : FVec Ideal S20000x150 .f32 → IVec S500000x1 32 → FVec Ideal S500000x150 .f32) v5 ((broadcastInDim S500000x1 ![0] bcast_S500000_S500000x1_0 : IVec S500000 32 → IVec S500000x1 32) ((select : IVec S500000 1 → IVec S500000 32 → IVec S500000 32 → IVec S500000 32) ((cmpi .slt : IVec S500000 32 → IVec S500000 32 → IVec S500000 1) (shapeCast S500000 (((extractStridedSlice S1x500000 ![1, 0] · slices_S2x500000_S1x500000_1_0) : IVec S2x500000 32 → IVec S1x500000 32) arg24) shapeCasts_S1x500000_S500000) ((broadcastInDim S500000 ![] bcast_S_S500000 : IVec S_ 32 → IVec S500000 32) (constantI S_ 32 0#32))) ((addi : IVec S500000 32 → IVec S500000 32 → IVec S500000 32) (shapeCast S500000 (((extractStridedSlice S1x500000 ![1, 0] · slices_S2x500000_S1x500000_1_0) : IVec S2x500000 32 → IVec S1x500000 32) arg24) shapeCasts_S1x500000_S500000) ((broadcastInDim S500000 ![] bcast_S_S500000 : IVec S_ 32 → IVec S500000 32) (constantI S_ 32 20000#32))) (shapeCast S500000 (((extractStridedSlice S1x500000 ![1, 0] · slices_S2x500000_S1x500000_1_0) : IVec S2x500000 32 → IVec S1x500000 32) arg24) shapeCasts_S1x500000_S500000))))) ((broadcastInDim S50000x150 ![0, 1] bcast_S50000x1_S50000x150_0_1 : FVec Ideal S50000x1 .f32 → FVec Ideal S50000x150 .f32) ((broadcastInDim S50000x1 ![0] bcast_S50000_S50000x1_0 : FVec Ideal S50000 .f32 → FVec Ideal S50000x1 .f32) ((maximumf (F := Ideal) : FVec Ideal S50000 .f32 → FVec Ideal S50000 .f32 → FVec Ideal S50000 .f32) (((fun x i u => Host.scatterAdd (F := Ideal) scatter_S50000_S500000x1_S500000_n_0_0_1 x i u) : FVec Ideal S50000 .f32 → IVec S500000x1 32 → FVec Ideal S500000 .f32 → FVec Ideal S50000 .f32) ((broadcastInDim S50000 ![] bcast_S_S50000 : FVec Ideal S_ .f32 → FVec Ideal S50000 .f32) (constant (F := Ideal) S_ .f32 0x00000000#32)) ((broadcastInDim S500000x1 ![0] bcast_S500000_S500000x1_0 : IVec S500000 32 → IVec S500000x1 32) (shapeCast S500000 (((extractStridedSlice S1x500000 ![0, 0] · slices_S2x500000_S1x500000_0_0) : IVec S2x500000 32 → IVec S1x500000 32) arg24) shapeCasts_S1x500000_S500000)) ((broadcastInDim S500000 ![] bcast_S_S500000 : FVec Ideal S_ .f32 → FVec Ideal S500000 .f32) (constant (F := Ideal) S_ .f32 0x3F800000#32))) ((broadcastInDim S50000 ![] bcast_S_S50000 : FVec Ideal S_ .f32 → FVec Ideal S50000 .f32) (constant (F := Ideal) S_ .f32 0x3F800000#32))))))

set_option maxHeartbeats 40000000 in
/-- After the list, from any contents, main_v28 holds that function of the contents. -/
theorem kh3_v28_eq (W : Valuation τ sig (Elt Ideal)) :
    StableHlo.after (hostOps3 (F := Ideal)) W (Proc.devRef .tc main_v28)
      = kh3_v28 (W (Proc.devRef .tc main_v5)) (W (Proc.devRef .tc main_arg24)) := by
  after_results_simp <;> first | rfl | (unfold kh3_v28; rfl)

/-- Buffer main_v51 as a function of main_v3, main_arg25: the operations that build it, composed. -/
def kh3_v51 (v3 : FVec Ideal S2000x150 .f32) (arg25 : IVec S2x200000 32) : FVec Ideal S50000x150 .f32 :=
  ((Host.divf (F := Ideal) : FVec Ideal S50000x150 .f32 → FVec Ideal S50000x150 .f32 → FVec Ideal S50000x150 .f32) (((fun x i u => Host.scatterAdd (F := Ideal) scatter_S50000x150_S200000x1_S200000x150_1_0_0_1 x i u) : FVec Ideal S50000x150 .f32 → IVec S200000x1 32 → FVec Ideal S200000x150 .f32 → FVec Ideal S50000x150 .f32) ((broadcastInDim S50000x150 ![] bcast_S_S50000x150 : FVec Ideal S_ .f32 → FVec Ideal S50000x150 .f32) (constant (F := Ideal) S_ .f32 0x00000000#32)) ((broadcastInDim S200000x1 ![0] bcast_S200000_S200000x1_0 : IVec S200000 32 → IVec S200000x1 32) (shapeCast S200000 (((extractStridedSlice S1x200000 ![0, 0] · slices_S2x200000_S1x200000_0_0) : IVec S2x200000 32 → IVec S1x200000 32) arg25) shapeCasts_S1x200000_S200000)) (((fun x i => Host.gather gather_S2000x150_S200000x1_S200000x150_1_0_n_n_0_1_1150 x i) : FVec Ideal S2000x150 .f32 → IVec S200000x1 32 → FVec Ideal S200000x150 .f32) v3 ((broadcastInDim S200000x1 ![0] bcast_S200000_S200000x1_0 : IVec S200000 32 → IVec S200000x1 32) ((select : IVec S200000 1 → IVec S200000 32 → IVec S200000 32 → IVec S200000 32) ((cmpi .slt : IVec S200000 32 → IVec S200000 32 → IVec S200000 1) (shapeCast S200000 (((extractStridedSlice S1x200000 ![1, 0] · slices_S2x200000_S1x200000_1_0) : IVec S2x200000 32 → IVec S1x200000 32) arg25) shapeCasts_S1x200000_S200000) ((broadcastInDim S200000 ![] bcast_S_S200000 : IVec S_ 32 → IVec S200000 32) (constantI S_ 32 0#32))) ((addi : IVec S200000 32 → IVec S200000 32 → IVec S200000 32) (shapeCast S200000 (((extractStridedSlice S1x200000 ![1, 0] · slices_S2x200000_S1x200000_1_0) : IVec S2x200000 32 → IVec S1x200000 32) arg25) shapeCasts_S1x200000_S200000) ((broadcastInDim S200000 ![] bcast_S_S200000 : IVec S_ 32 → IVec S200000 32) (constantI S_ 32 2000#32))) (shapeCast S200000 (((extractStridedSlice S1x200000 ![1, 0] · slices_S2x200000_S1x200000_1_0) : IVec S2x200000 32 → IVec S1x200000 32) arg25) shapeCasts_S1x200000_S200000))))) ((broadcastInDim S50000x150 ![0, 1] bcast_S50000x1_S50000x150_0_1 : FVec Ideal S50000x1 .f32 → FVec Ideal S50000x150 .f32) ((broadcastInDim S50000x1 ![0] bcast_S50000_S50000x1_0 : FVec Ideal S50000 .f32 → FVec Ideal S50000x1 .f32) ((maximumf (F := Ideal) : FVec Ideal S50000 .f32 → FVec Ideal S50000 .f32 → FVec Ideal S50000 .f32) (((fun x i u => Host.scatterAdd (F := Ideal) scatter_S50000_S200000x1_S200000_n_0_0_1 x i u) : FVec Ideal S50000 .f32 → IVec S200000x1 32 → FVec Ideal S200000 .f32 → FVec Ideal S50000 .f32) ((broadcastInDim S50000 ![] bcast_S_S50000 : FVec Ideal S_ .f32 → FVec Ideal S50000 .f32) (constant (F := Ideal) S_ .f32 0x00000000#32)) ((broadcastInDim S200000x1 ![0] bcast_S200000_S200000x1_0 : IVec S200000 32 → IVec S200000x1 32) (shapeCast S200000 (((extractStridedSlice S1x200000 ![0, 0] · slices_S2x200000_S1x200000_0_0) : IVec S2x200000 32 → IVec S1x200000 32) arg25) shapeCasts_S1x200000_S200000)) ((broadcastInDim S200000 ![] bcast_S_S200000 : FVec Ideal S_ .f32 → FVec Ideal S200000 .f32) (constant (F := Ideal) S_ .f32 0x3F800000#32))) ((broadcastInDim S50000 ![] bcast_S_S50000 : FVec Ideal S_ .f32 → FVec Ideal S50000 .f32) (constant (F := Ideal) S_ .f32 0x3F800000#32))))))

set_option maxHeartbeats 40000000 in
/-- After the list, from any contents, main_v51 holds that function of the contents. -/
theorem kh3_v51_eq (W : Valuation τ sig (Elt Ideal)) :
    StableHlo.after (hostOps3 (F := Ideal)) W (Proc.devRef .tc main_v51)
      = kh3_v51 (W (Proc.devRef .tc main_v3)) (W (Proc.devRef .tc main_arg25)) := by
  after_results_simp <;> first | rfl | (unfold kh3_v51; rfl)

/-- Buffer main_v63 as a function of main_arg9: the operations that build it, composed. -/
def kh3_v63 (arg9 : FVec Ideal S3x6x150x150 .f32) : FVec Ideal S150x150 .f32 :=
  (shapeCast S150x150 (((extractStridedSlice S1x1x150x150 ![0, 1, 0, 0] · slices_S3x6x150x150_S1x1x150x150_0_1_0_0) : FVec Ideal S3x6x150x150 .f32 → FVec Ideal S1x1x150x150 .f32) arg9) shapeCasts_S1x1x150x150_S150x150)

set_option maxHeartbeats 40000000 in
/-- After the list, from any contents, main_v63 holds that function of the contents. -/
theorem kh3_v63_eq (W : Valuation τ sig (Elt Ideal)) :
    StableHlo.after (hostOps3 (F := Ideal)) W (Proc.devRef .tc main_v63)
      = kh3_v63 (W (Proc.devRef .tc main_arg9)) := by
  after_results_simp <;> first | rfl | (unfold kh3_v63; rfl)

/-- Buffer main_v65 as a function of main_arg9: the operations that build it, composed. -/
def kh3_v65 (arg9 : FVec Ideal S3x6x150x150 .f32) : FVec Ideal S150x150 .f32 :=
  (shapeCast S150x150 (((extractStridedSlice S1x1x150x150 ![0, 3, 0, 0] · slices_S3x6x150x150_S1x1x150x150_0_3_0_0) : FVec Ideal S3x6x150x150 .f32 → FVec Ideal S1x1x150x150 .f32) arg9) shapeCasts_S1x1x150x150_S150x150)

set_option maxHeartbeats 40000000 in
/-- After the list, from any contents, main_v65 holds that function of the contents. -/
theorem kh3_v65_eq (W : Valuation τ sig (Elt Ideal)) :
    StableHlo.after (hostOps3 (F := Ideal)) W (Proc.devRef .tc main_v65)
      = kh3_v65 (W (Proc.devRef .tc main_arg9)) := by
  after_results_simp <;> first | rfl | (unfold kh3_v65; rfl)

/-- Buffer main_v53 as a function of main_arg11: the operations that build it, composed. -/
def kh3_v53 (arg11 : FVec Ideal S3x6x150x150 .f32) : FVec Ideal S150x150 .f32 :=
  (shapeCast S150x150 (((extractStridedSlice S1x1x150x150 ![0, 1, 0, 0] · slices_S3x6x150x150_S1x1x150x150_0_1_0_0) : FVec Ideal S3x6x150x150 .f32 → FVec Ideal S1x1x150x150 .f32) arg11) shapeCasts_S1x1x150x150_S150x150)

set_option maxHeartbeats 40000000 in
/-- After the list, from any contents, main_v53 holds that function of the contents. -/
theorem kh3_v53_eq (W : Valuation τ sig (Elt Ideal)) :
    StableHlo.after (hostOps3 (F := Ideal)) W (Proc.devRef .tc main_v53)
      = kh3_v53 (W (Proc.devRef .tc main_arg11)) := by
  after_results_simp <;> first | rfl | (unfold kh3_v53; rfl)

/-- Buffer main_v55 as a function of main_arg11: the operations that build it, composed. -/
def kh3_v55 (arg11 : FVec Ideal S3x6x150x150 .f32) : FVec Ideal S150x150 .f32 :=
  (shapeCast S150x150 (((extractStridedSlice S1x1x150x150 ![0, 3, 0, 0] · slices_S3x6x150x150_S1x1x150x150_0_3_0_0) : FVec Ideal S3x6x150x150 .f32 → FVec Ideal S1x1x150x150 .f32) arg11) shapeCasts_S1x1x150x150_S150x150)

set_option maxHeartbeats 40000000 in
/-- After the list, from any contents, main_v55 holds that function of the contents. -/
theorem kh3_v55_eq (W : Valuation τ sig (Elt Ideal)) :
    StableHlo.after (hostOps3 (F := Ideal)) W (Proc.devRef .tc main_v55)
      = kh3_v55 (W (Proc.devRef .tc main_arg11)) := by
  after_results_simp <;> first | rfl | (unfold kh3_v55; rfl)

/-- Buffer main_v56 as a function of main_arg11: the operations that build it, composed. -/
def kh3_v56 (arg11 : FVec Ideal S3x6x150x150 .f32) : FVec Ideal S150x150 .f32 :=
  ((addf (F := Ideal) : FVec Ideal S150x150 .f32 → FVec Ideal S150x150 .f32 → FVec Ideal S150x150 .f32) (shapeCast S150x150 (((extractStridedSlice S1x1x150x150 ![0, 1, 0, 0] · slices_S3x6x150x150_S1x1x150x150_0_1_0_0) : FVec Ideal S3x6x150x150 .f32 → FVec Ideal S1x1x150x150 .f32) arg11) shapeCasts_S1x1x150x150_S150x150) (shapeCast S150x150 (((extractStridedSlice S1x1x150x150 ![0, 3, 0, 0] · slices_S3x6x150x150_S1x1x150x150_0_3_0_0) : FVec Ideal S3x6x150x150 .f32 → FVec Ideal S1x1x150x150 .f32) arg11) shapeCasts_S1x1x150x150_S150x150))

set_option maxHeartbeats 40000000 in
/-- After the list, from any contents, main_v56 holds that function of the contents. -/
theorem kh3_v56_eq (W : Valuation τ sig (Elt Ideal)) :
    StableHlo.after (hostOps3 (F := Ideal)) W (Proc.devRef .tc main_v56)
      = kh3_v56 (W (Proc.devRef .tc main_arg11)) := by
  after_results_simp <;> first | rfl | (unfold kh3_v56; rfl)

/-- Buffer main_v58 as a function of main_arg10: the operations that build it, composed. -/
def kh3_v58 (arg10 : FVec Ideal S3x6x150 .f32) : FVec Ideal S150 .f32 :=
  (shapeCast S150 (((extractStridedSlice S1x1x150 ![0, 1, 0] · slices_S3x6x150_S1x1x150_0_1_0) : FVec Ideal S3x6x150 .f32 → FVec Ideal S1x1x150 .f32) arg10) shapeCasts_S1x1x150_S150)

set_option maxHeartbeats 40000000 in
/-- After the list, from any contents, main_v58 holds that function of the contents. -/
theorem kh3_v58_eq (W : Valuation τ sig (Elt Ideal)) :
    StableHlo.after (hostOps3 (F := Ideal)) W (Proc.devRef .tc main_v58)
      = kh3_v58 (W (Proc.devRef .tc main_arg10)) := by
  after_results_simp <;> first | rfl | (unfold kh3_v58; rfl)

/-- Buffer main_v60 as a function of main_arg10: the operations that build it, composed. -/
def kh3_v60 (arg10 : FVec Ideal S3x6x150 .f32) : FVec Ideal S150 .f32 :=
  (shapeCast S150 (((extractStridedSlice S1x1x150 ![0, 3, 0] · slices_S3x6x150_S1x1x150_0_3_0) : FVec Ideal S3x6x150 .f32 → FVec Ideal S1x1x150 .f32) arg10) shapeCasts_S1x1x150_S150)

set_option maxHeartbeats 40000000 in
/-- After the list, from any contents, main_v60 holds that function of the contents. -/
theorem kh3_v60_eq (W : Valuation τ sig (Elt Ideal)) :
    StableHlo.after (hostOps3 (F := Ideal)) W (Proc.devRef .tc main_v60)
      = kh3_v60 (W (Proc.devRef .tc main_arg10)) := by
  after_results_simp <;> first | rfl | (unfold kh3_v60; rfl)

/-- Buffer main_v66 as a function of main_arg10: the operations that build it, composed. -/
def kh3_v66 (arg10 : FVec Ideal S3x6x150 .f32) : FVec Ideal S1x150 .f32 :=
  (shapeCast S1x150 ((addf (F := Ideal) : FVec Ideal S150 .f32 → FVec Ideal S150 .f32 → FVec Ideal S150 .f32) (shapeCast S150 (((extractStridedSlice S1x1x150 ![0, 1, 0] · slices_S3x6x150_S1x1x150_0_1_0) : FVec Ideal S3x6x150 .f32 → FVec Ideal S1x1x150 .f32) arg10) shapeCasts_S1x1x150_S150) (shapeCast S150 (((extractStridedSlice S1x1x150 ![0, 3, 0] · slices_S3x6x150_S1x1x150_0_3_0) : FVec Ideal S3x6x150 .f32 → FVec Ideal S1x1x150 .f32) arg10) shapeCasts_S1x1x150_S150)) shapeCasts_S150_S1x150)

set_option maxHeartbeats 40000000 in
/-- After the list, from any contents, main_v66 holds that function of the contents. -/
theorem kh3_v66_eq (W : Valuation τ sig (Elt Ideal)) :
    StableHlo.after (hostOps3 (F := Ideal)) W (Proc.devRef .tc main_v66)
      = kh3_v66 (W (Proc.devRef .tc main_arg10)) := by
  after_results_simp <;> first | rfl | (unfold kh3_v66; rfl)

/-- main_v56's function is the operations above main_v53, main_v55, applied to those buffers' functions. -/
theorem kh3_v56_parts (arg11 : FVec Ideal S3x6x150x150 .f32) :
    kh3_v56 arg11
      = ((addf (F := Ideal) : FVec Ideal S150x150 .f32 → FVec Ideal S150x150 .f32 → FVec Ideal S150x150 .f32) (kh3_v53 arg11) (kh3_v55 arg11)) := rfl

/-- main_v66's function is the operations above main_v58, main_v60, applied to those buffers' functions. -/
theorem kh3_v66_parts (arg10 : FVec Ideal S3x6x150 .f32) :
    kh3_v66 arg10
      = (shapeCast S1x150 ((addf (F := Ideal) : FVec Ideal S150 .f32 → FVec Ideal S150 .f32 → FVec Ideal S150 .f32) (kh3_v58 arg10) (kh3_v60 arg10)) shapeCasts_S150_S1x150) := rfl

end Cert.KernelIdeal.Val

end
-- ==== Proof.KHost4.lean ====
/-
  What single buffers hold after a straight line of host operations, as functions of the buffers the line
  reads: each definition is the operations' own functions composed (their text as the list prints it, read at the
  extended reals), each lemma says the fold of the list at that buffer is that function of the starting contents.
-/
import proofs.«141689_j63058709840619_1_alg».proof.Proof.Gen.KernelIdeal.Launch
import proofs.«141689_j63058709840619_1_alg».proof.Proof.Spec
import Idealize.ShloMosaic.Lib.StableHlo.Run

set_option maxRecDepth 8192

noncomputable section

namespace Cert.KernelIdeal.Val

open Idealize.ShloMosaic Idealize.ShloMosaic.TcCoe Cert.KernelIdeal Cert.KernelIdeal.Gen Cert.Spec

/-! ## hostOps4: 73 operations -/

/-- Buffer main_v90 as a function of main_v1, main_arg25: the operations that build it, composed. -/
def kh4_v90 (v1 : FVec Ideal S50000x150 .f32) (arg25 : IVec S2x200000 32) : FVec Ideal S2000x150 .f32 :=
  ((Host.divf (F := Ideal) : FVec Ideal S2000x150 .f32 → FVec Ideal S2000x150 .f32 → FVec Ideal S2000x150 .f32) (((fun x i u => Host.scatterAdd (F := Ideal) scatter_S2000x150_S200000x1_S200000x150_1_0_0_1 x i u) : FVec Ideal S2000x150 .f32 → IVec S200000x1 32 → FVec Ideal S200000x150 .f32 → FVec Ideal S2000x150 .f32) ((broadcastInDim S2000x150 ![] bcast_S_S2000x150 : FVec Ideal S_ .f32 → FVec Ideal S2000x150 .f32) (constant (F := Ideal) S_ .f32 0x00000000#32)) ((broadcastInDim S200000x1 ![0] bcast_S200000_S200000x1_0 : IVec S200000 32 → IVec S200000x1 32) (shapeCast S200000 (((extractStridedSlice S1x200000 ![1, 0] · slices_S2x200000_S1x200000_1_0) : IVec S2x200000 32 → IVec S1x200000 32) arg25) shapeCasts_S1x200000_S200000)) (((fun x i => Host.gather gather_S50000x150_S200000x1_S200000x150_1_0_n_n_0_1_1150 x i) : FVec Ideal S50000x150 .f32 → IVec S200000x1 32 → FVec Ideal S200000x150 .f32) v1 ((broadcastInDim S200000x1 ![0] bcast_S200000_S200000x1_0 : IVec S200000 32 → IVec S200000x1 32) ((select : IVec S200000 1 → IVec S200000 32 → IVec S200000 32 → IVec S200000 32) ((cmpi .slt : IVec S200000 32 → IVec S200000 32 → IVec S200000 1) (shapeCast S200000 (((extractStridedSlice S1x200000 ![0, 0] · slices_S2x200000_S1x200000_0_0) : IVec S2x200000 32 → IVec S1x200000 32) arg25) shapeCasts_S1x200000_S200000) ((broadcastInDim S200000 ![] bcast_S_S200000 : IVec S_ 32 → IVec S200000 32) (constantI S_ 32 0#32))) ((addi : IVec S200000 32 → IVec S200000 32 → IVec S200000 32) (shapeCast S200000 (((extractStridedSlice S1x200000 ![0, 0] · slices_S2x200000_S1x200000_0_0) : IVec S2x200000 32 → IVec S1x200000 32) arg25) shapeCasts_S1x200000_S200000) ((broadcastInDim S200000 ![] bcast_S_S200000 : IVec S_ 32 → IVec S200000 32) (constantI S_ 32 50000#32))) (shapeCast S200000 (((extractStridedSlice S1x200000 ![0, 0] · slices_S2x200000_S1x200000_0_0) : IVec S2x200000 32 → IVec S1x200000 32) arg25) shapeCasts_S1x200000_S200000))))) ((broadcastInDim S2000x150 ![0, 1] bcast_S2000x1_S2000x150_0_1 : FVec Ideal S2000x1 .f32 → FVec Ideal S2000x150 .f32) ((broadcastInDim S2000x1 ![0] bcast_S2000_S2000x1_0 : FVec Ideal S2000 .f32 → FVec Ideal S2000x1 .f32) ((maximumf (F := Ideal) : FVec Ideal S2000 .f32 → FVec Ideal S2000 .f32 → FVec Ideal S2000 .f32) (((fun x i u => Host.scatterAdd (F := Ideal) scatter_S2000_S200000x1_S200000_n_0_0_1 x i u) : FVec Ideal S2000 .f32 → IVec S200000x1 32 → FVec Ideal S200000 .f32 → FVec Ideal S2000 .f32) ((broadcastInDim S2000 ![] bcast_S_S2000 : FVec Ideal S_ .f32 → FVec Ideal S2000 .f32) (constant (F := Ideal) S_ .f32 0x00000000#32)) ((broadcastInDim S200000x1 ![0] bcast_S200000_S200000x1_0 : IVec S200000 32 → IVec S200000x1 32) (shapeCast S200000 (((extractStridedSlice S1x200000 ![1, 0] · slices_S2x200000_S1x200000_1_0) : IVec S2x200000 32 → IVec S1x200000 32) arg25) shapeCasts_S1x200000_S200000)) ((broadcastInDim S200000 ![] bcast_S_S200000 : FVec Ideal S_ .f32 → FVec Ideal S200000 .f32) (constant (F := Ideal) S_ .f32 0x3F800000#32))) ((broadcastInDim S2000 ![] bcast_S_S2000 : FVec Ideal S_ .f32 → FVec Ideal S2000 .f32) (constant (F := Ideal) S_ .f32 0x3F800000#32))))))

set_option maxHeartbeats 40000000 in
/-- After the list, from any contents, main_v90 holds that function of the contents. -/
theorem kh4_v90_eq (W : Valuation τ sig (Elt Ideal)) :
    StableHlo.after (hostOps4 (F := Ideal)) W (Proc.devRef .tc main_v90)
      = kh4_v90 (W (Proc.devRef .tc main_v1)) (W (Proc.devRef .tc main_arg25)) := by
  after_results_simp <;> first | rfl | (unfold kh4_v90; rfl)

/-- Buffer main_v113 as a function of main_v5, main_arg26: the operations that build it, composed. -/
def kh4_v113 (v5 : FVec Ideal S20000x150 .f32) (arg26 : IVec S2x200000 32) : FVec Ideal S2000x150 .f32 :=
  ((Host.divf (F := Ideal) : FVec Ideal S2000x150 .f32 → FVec Ideal S2000x150 .f32 → FVec Ideal S2000x150 .f32) (((fun x i u => Host.scatterAdd (F := Ideal) scatter_S2000x150_S200000x1_S200000x150_1_0_0_1 x i u) : FVec Ideal S2000x150 .f32 → IVec S200000x1 32 → FVec Ideal S200000x150 .f32 → FVec Ideal S2000x150 .f32) ((broadcastInDim S2000x150 ![] bcast_S_S2000x150 : FVec Ideal S_ .f32 → FVec Ideal S2000x150 .f32) (constant (F := Ideal) S_ .f32 0x00000000#32)) ((broadcastInDim S200000x1 ![0] bcast_S200000_S200000x1_0 : IVec S200000 32 → IVec S200000x1 32) (shapeCast S200000 (((extractStridedSlice S1x200000 ![0, 0] · slices_S2x200000_S1x200000_0_0) : IVec S2x200000 32 → IVec S1x200000 32) arg26) shapeCasts_S1x200000_S200000)) (((fun x i => Host.gather gather_S20000x150_S200000x1_S200000x150_1_0_n_n_0_1_1150 x i) : FVec Ideal S20000x150 .f32 → IVec S200000x1 32 → FVec Ideal S200000x150 .f32) v5 ((broadcastInDim S200000x1 ![0] bcast_S200000_S200000x1_0 : IVec S200000 32 → IVec S200000x1 32) ((select : IVec S200000 1 → IVec S200000 32 → IVec S200000 32 → IVec S200000 32) ((cmpi .slt : IVec S200000 32 → IVec S200000 32 → IVec S200000 1) (shapeCast S200000 (((extractStridedSlice S1x200000 ![1, 0] · slices_S2x200000_S1x200000_1_0) : IVec S2x200000 32 → IVec S1x200000 32) arg26) shapeCasts_S1x200000_S200000) ((broadcastInDim S200000 ![] bcast_S_S200000 : IVec S_ 32 → IVec S200000 32) (constantI S_ 32 0#32))) ((addi : IVec S200000 32 → IVec S200000 32 → IVec S200000 32) (shapeCast S200000 (((extractStridedSlice S1x200000 ![1, 0] · slices_S2x200000_S1x200000_1_0) : IVec S2x200000 32 → IVec S1x200000 32) arg26) shapeCasts_S1x200000_S200000) ((broadcastInDim S200000 ![] bcast_S_S200000 : IVec S_ 32 → IVec S200000 32) (constantI S_ 32 20000#32))) (shapeCast S200000 (((extractStridedSlice S1x200000 ![1, 0] · slices_S2x200000_S1x200000_1_0) : IVec S2x200000 32 → IVec S1x200000 32) arg26) shapeCasts_S1x200000_S200000))))) ((broadcastInDim S2000x150 ![0, 1] bcast_S2000x1_S2000x150_0_1 : FVec Ideal S2000x1 .f32 → FVec Ideal S2000x150 .f32) ((broadcastInDim S2000x1 ![0] bcast_S2000_S2000x1_0 : FVec Ideal S2000 .f32 → FVec Ideal S2000x1 .f32) ((maximumf (F := Ideal) : FVec Ideal S2000 .f32 → FVec Ideal S2000 .f32 → FVec Ideal S2000 .f32) (((fun x i u => Host.scatterAdd (F := Ideal) scatter_S2000_S200000x1_S200000_n_0_0_1 x i u) : FVec Ideal S2000 .f32 → IVec S200000x1 32 → FVec Ideal S200000 .f32 → FVec Ideal S2000 .f32) ((broadcastInDim S2000 ![] bcast_S_S2000 : FVec Ideal S_ .f32 → FVec Ideal S2000 .f32) (constant (F := Ideal) S_ .f32 0x00000000#32)) ((broadcastInDim S200000x1 ![0] bcast_S200000_S200000x1_0 : IVec S200000 32 → IVec S200000x1 32) (shapeCast S200000 (((extractStridedSlice S1x200000 ![0, 0] · slices_S2x200000_S1x200000_0_0) : IVec S2x200000 32 → IVec S1x200000 32) arg26) shapeCasts_S1x200000_S200000)) ((broadcastInDim S200000 ![] bcast_S_S200000 : FVec Ideal S_ .f32 → FVec Ideal S200000 .f32) (constant (F := Ideal) S_ .f32 0x3F800000#32))) ((broadcastInDim S2000 ![] bcast_S_S2000 : FVec Ideal S_ .f32 → FVec Ideal S2000 .f32) (constant (F := Ideal) S_ .f32 0x3F800000#32))))))

set_option maxHeartbeats 40000000 in
/-- After the list, from any contents, main_v113 holds that function of the contents. -/
theorem kh4_v113_eq (W : Valuation τ sig (Elt Ideal)) :
    StableHlo.after (hostOps4 (F := Ideal)) W (Proc.devRef .tc main_v113)
      = kh4_v113 (W (Proc.devRef .tc main_v5)) (W (Proc.devRef .tc main_arg26)) := by
  after_results_simp <;> first | rfl | (unfold kh4_v113; rfl)

/-- Buffer main_v125 as a function of main_arg9: the operations that build it, composed. -/
def kh4_v125 (arg9 : FVec Ideal S3x6x150x150 .f32) : FVec Ideal S150x150 .f32 :=
  (shapeCast S150x150 (((extractStridedSlice S1x1x150x150 ![0, 2, 0, 0] · slices_S3x6x150x150_S1x1x150x150_0_2_0_0) : FVec Ideal S3x6x150x150 .f32 → FVec Ideal S1x1x150x150 .f32) arg9) shapeCasts_S1x1x150x150_S150x150)

set_option maxHeartbeats 40000000 in
/-- After the list, from any contents, main_v125 holds that function of the contents. -/
theorem kh4_v125_eq (W : Valuation τ sig (Elt Ideal)) :
    StableHlo.after (hostOps4 (F := Ideal)) W (Proc.devRef .tc main_v125)
      = kh4_v125 (W (Proc.devRef .tc main_arg9)) := by
  after_results_simp <;> first | rfl | (unfold kh4_v125; rfl)

/-- Buffer main_v127 as a function of main_arg9: the operations that build it, composed. -/
def kh4_v127 (arg9 : FVec Ideal S3x6x150x150 .f32) : FVec Ideal S150x150 .f32 :=
  (shapeCast S150x150 (((extractStridedSlice S1x1x150x150 ![0, 5, 0, 0] · slices_S3x6x150x150_S1x1x150x150_0_5_0_0) : FVec Ideal S3x6x150x150 .f32 → FVec Ideal S1x1x150x150 .f32) arg9) shapeCasts_S1x1x150x150_S150x150)

set_option maxHeartbeats 40000000 in
/-- After the list, from any contents, main_v127 holds that function of the contents. -/
theorem kh4_v127_eq (W : Valuation τ sig (Elt Ideal)) :
    StableHlo.after (hostOps4 (F := Ideal)) W (Proc.devRef .tc main_v127)
      = kh4_v127 (W (Proc.devRef .tc main_arg9)) := by
  after_results_simp <;> first | rfl | (unfold kh4_v127; rfl)

/-- Buffer main_v115 as a function of main_arg11: the operations that build it, composed. -/
def kh4_v115 (arg11 : FVec Ideal S3x6x150x150 .f32) : FVec Ideal S150x150 .f32 :=
  (shapeCast S150x150 (((extractStridedSlice S1x1x150x150 ![0, 2, 0, 0] · slices_S3x6x150x150_S1x1x150x150_0_2_0_0) : FVec Ideal S3x6x150x150 .f32 → FVec Ideal S1x1x150x150 .f32) arg11) shapeCasts_S1x1x150x150_S150x150)

set_option maxHeartbeats 40000000 in
/-- After the list, from any contents, main_v115 holds that function of the contents. -/
theorem kh4_v115_eq (W : Valuation τ sig (Elt Ideal)) :
    StableHlo.after (hostOps4 (F := Ideal)) W (Proc.devRef .tc main_v115)
      = kh4_v115 (W (Proc.devRef .tc main_arg11)) := by
  after_results_simp <;> first | rfl | (unfold kh4_v115; rfl)

/-- Buffer main_v117 as a function of main_arg11: the operations that build it, composed. -/
def kh4_v117 (arg11 : FVec Ideal S3x6x150x150 .f32) : FVec Ideal S150x150 .f32 :=
  (shapeCast S150x150 (((extractStridedSlice S1x1x150x150 ![0, 5, 0, 0] · slices_S3x6x150x150_S1x1x150x150_0_5_0_0) : FVec Ideal S3x6x150x150 .f32 → FVec Ideal S1x1x150x150 .f32) arg11) shapeCasts_S1x1x150x150_S150x150)

set_option maxHeartbeats 40000000 in
/-- After the list, from any contents, main_v117 holds that function of the contents. -/
theorem kh4_v117_eq (W : Valuation τ sig (Elt Ideal)) :
    StableHlo.after (hostOps4 (F := Ideal)) W (Proc.devRef .tc main_v117)
      = kh4_v117 (W (Proc.devRef .tc main_arg11)) := by
  after_results_simp <;> first | rfl | (unfold kh4_v117; rfl)

/-- Buffer main_v118 as a function of main_arg11: the operations that build it, composed. -/
def kh4_v118 (arg11 : FVec Ideal S3x6x150x150 .f32) : FVec Ideal S150x150 .f32 :=
  ((addf (F := Ideal) : FVec Ideal S150x150 .f32 → FVec Ideal S150x150 .f32 → FVec Ideal S150x150 .f32) (shapeCast S150x150 (((extractStridedSlice S1x1x150x150 ![0, 2, 0, 0] · slices_S3x6x150x150_S1x1x150x150_0_2_0_0) : FVec Ideal S3x6x150x150 .f32 → FVec Ideal S1x1x150x150 .f32) arg11) shapeCasts_S1x1x150x150_S150x150) (shapeCast S150x150 (((extractStridedSlice S1x1x150x150 ![0, 5, 0, 0] · slices_S3x6x150x150_S1x1x150x150_0_5_0_0) : FVec Ideal S3x6x150x150 .f32 → FVec Ideal S1x1x150x150 .f32) arg11) shapeCasts_S1x1x150x150_S150x150))

set_option maxHeartbeats 40000000 in
/-- After the list, from any contents, main_v118 holds that function of the contents. -/
theorem kh4_v118_eq (W : Valuation τ sig (Elt Ideal)) :
    StableHlo.after (hostOps4 (F := Ideal)) W (Proc.devRef .tc main_v118)
      = kh4_v118 (W (Proc.devRef .tc main_arg11)) := by
  after_results_simp <;> first | rfl | (unfold kh4_v118; rfl)

/-- Buffer main_v120 as a function of main_arg10: the operations that build it, composed. -/
def kh4_v120 (arg10 : FVec Ideal S3x6x150 .f32) : FVec Ideal S150 .f32 :=
  (shapeCast S150 (((extractStridedSlice S1x1x150 ![0, 2, 0] · slices_S3x6x150_S1x1x150_0_2_0) : FVec Ideal S3x6x150 .f32 → FVec Ideal S1x1x150 .f32) arg10) shapeCasts_S1x1x150_S150)

set_option maxHeartbeats 40000000 in
/-- After the list, from any contents, main_v120 holds that function of the contents. -/
theorem kh4_v120_eq (W : Valuation τ sig (Elt Ideal)) :
    StableHlo.after (hostOps4 (F := Ideal)) W (Proc.devRef .tc main_v120)
      = kh4_v120 (W (Proc.devRef .tc main_arg10)) := by
  after_results_simp <;> first | rfl | (unfold kh4_v120; rfl)

/-- Buffer main_v122 as a function of main_arg10: the operations that build it, composed. -/
def kh4_v122 (arg10 : FVec Ideal S3x6x150 .f32) : FVec Ideal S150 .f32 :=
  (shapeCast S150 (((extractStridedSlice S1x1x150 ![0, 5, 0] · slices_S3x6x150_S1x1x150_0_5_0) : FVec Ideal S3x6x150 .f32 → FVec Ideal S1x1x150 .f32) arg10) shapeCasts_S1x1x150_S150)

set_option maxHeartbeats 40000000 in
/-- After the list, from any contents, main_v122 holds that function of the contents. -/
theorem kh4_v122_eq (W : Valuation τ sig (Elt Ideal)) :
    StableHlo.after (hostOps4 (F := Ideal)) W (Proc.devRef .tc main_v122)
      = kh4_v122 (W (Proc.devRef .tc main_arg10)) := by
  after_results_simp <;> first | rfl | (unfold kh4_v122; rfl)

/-- Buffer main_v128 as a function of main_arg10: the operations that build it, composed. -/
def kh4_v128 (arg10 : FVec Ideal S3x6x150 .f32) : FVec Ideal S1x150 .f32 :=
  (shapeCast S1x150 ((addf (F := Ideal) : FVec Ideal S150 .f32 → FVec Ideal S150 .f32 → FVec Ideal S150 .f32) (shapeCast S150 (((extractStridedSlice S1x1x150 ![0, 2, 0] · slices_S3x6x150_S1x1x150_0_2_0) : FVec Ideal S3x6x150 .f32 → FVec Ideal S1x1x150 .f32) arg10) shapeCasts_S1x1x150_S150) (shapeCast S150 (((extractStridedSlice S1x1x150 ![0, 5, 0] · slices_S3x6x150_S1x1x150_0_5_0) : FVec Ideal S3x6x150 .f32 → FVec Ideal S1x1x150 .f32) arg10) shapeCasts_S1x1x150_S150)) shapeCasts_S150_S1x150)

set_option maxHeartbeats 40000000 in
/-- After the list, from any contents, main_v128 holds that function of the contents. -/
theorem kh4_v128_eq (W : Valuation τ sig (Elt Ideal)) :
    StableHlo.after (hostOps4 (F := Ideal)) W (Proc.devRef .tc main_v128)
      = kh4_v128 (W (Proc.devRef .tc main_arg10)) := by
  after_results_simp <;> first | rfl | (unfold kh4_v128; rfl)

/-- main_v118's function is the operations above main_v115, main_v117, applied to those buffers' functions. -/
theorem kh4_v118_parts (arg11 : FVec Ideal S3x6x150x150 .f32) :
    kh4_v118 arg11
      = ((addf (F := Ideal) : FVec Ideal S150x150 .f32 → FVec Ideal S150x150 .f32 → FVec Ideal S150x150 .f32) (kh4_v115 arg11) (kh4_v117 arg11)) := rfl

/-- main_v128's function is the operations above main_v120, main_v122, applied to those buffers' functions. -/
theorem kh4_v128_parts (arg10 : FVec Ideal S3x6x150 .f32) :
    kh4_v128 arg10
      = (shapeCast S1x150 ((addf (F := Ideal) : FVec Ideal S150 .f32 → FVec Ideal S150 .f32 → FVec Ideal S150 .f32) (kh4_v120 arg10) (kh4_v122 arg10)) shapeCasts_S150_S1x150) := rfl

end Cert.KernelIdeal.Val

end
-- ==== Proof.KHost5.lean ====
/-
  What single buffers hold after a straight line of host operations, as functions of the buffers the line
  reads: each definition is the operations' own functions composed (their text as the list prints it, read at the
  extended reals), each lemma says the fold of the list at that buffer is that function of the starting contents.
-/
import proofs.«141689_j63058709840619_1_alg».proof.Proof.Gen.KernelIdeal.Launch
import proofs.«141689_j63058709840619_1_alg».proof.Proof.Spec
import Idealize.ShloMosaic.Lib.StableHlo.Run

set_option maxRecDepth 8192

noncomputable section

namespace Cert.KernelIdeal.Val

open Idealize.ShloMosaic Idealize.ShloMosaic.TcCoe Cert.KernelIdeal Cert.KernelIdeal.Gen Cert.Spec

/-! ## hostOps5: 73 operations -/

/-- Buffer main_v152 as a function of main_v1, main_arg24: the operations that build it, composed. -/
def kh5_v152 (v1 : FVec Ideal S50000x150 .f32) (arg24 : IVec S2x500000 32) : FVec Ideal S20000x150 .f32 :=
  ((Host.divf (F := Ideal) : FVec Ideal S20000x150 .f32 → FVec Ideal S20000x150 .f32 → FVec Ideal S20000x150 .f32) (((fun x i u => Host.scatterAdd (F := Ideal) scatter_S20000x150_S500000x1_S500000x150_1_0_0_1 x i u) : FVec Ideal S20000x150 .f32 → IVec S500000x1 32 → FVec Ideal S500000x150 .f32 → FVec Ideal S20000x150 .f32) ((broadcastInDim S20000x150 ![] bcast_S_S20000x150 : FVec Ideal S_ .f32 → FVec Ideal S20000x150 .f32) (constant (F := Ideal) S_ .f32 0x00000000#32)) ((broadcastInDim S500000x1 ![0] bcast_S500000_S500000x1_0 : IVec S500000 32 → IVec S500000x1 32) (shapeCast S500000 (((extractStridedSlice S1x500000 ![1, 0] · slices_S2x500000_S1x500000_1_0) : IVec S2x500000 32 → IVec S1x500000 32) arg24) shapeCasts_S1x500000_S500000)) (((fun x i => Host.gather gather_S50000x150_S500000x1_S500000x150_1_0_n_n_0_1_1150 x i) : FVec Ideal S50000x150 .f32 → IVec S500000x1 32 → FVec Ideal S500000x150 .f32) v1 ((broadcastInDim S500000x1 ![0] bcast_S500000_S500000x1_0 : IVec S500000 32 → IVec S500000x1 32) ((select : IVec S500000 1 → IVec S500000 32 → IVec S500000 32 → IVec S500000 32) ((cmpi .slt : IVec S500000 32 → IVec S500000 32 → IVec S500000 1) (shapeCast S500000 (((extractStridedSlice S1x500000 ![0, 0] · slices_S2x500000_S1x500000_0_0) : IVec S2x500000 32 → IVec S1x500000 32) arg24) shapeCasts_S1x500000_S500000) ((broadcastInDim S500000 ![] bcast_S_S500000 : IVec S_ 32 → IVec S500000 32) (constantI S_ 32 0#32))) ((addi : IVec S500000 32 → IVec S500000 32 → IVec S500000 32) (shapeCast S500000 (((extractStridedSlice S1x500000 ![0, 0] · slices_S2x500000_S1x500000_0_0) : IVec S2x500000 32 → IVec S1x500000 32) arg24) shapeCasts_S1x500000_S500000) ((broadcastInDim S500000 ![] bcast_S_S500000 : IVec S_ 32 → IVec S500000 32) (constantI S_ 32 50000#32))) (shapeCast S500000 (((extractStridedSlice S1x500000 ![0, 0] · slices_S2x500000_S1x500000_0_0) : IVec S2x500000 32 → IVec S1x500000 32) arg24) shapeCasts_S1x500000_S500000))))) ((broadcastInDim S20000x150 ![0, 1] bcast_S20000x1_S20000x150_0_1 : FVec Ideal S20000x1 .f32 → FVec Ideal S20000x150 .f32) ((broadcastInDim S20000x1 ![0] bcast_S20000_S20000x1_0 : FVec Ideal S20000 .f32 → FVec Ideal S20000x1 .f32) ((maximumf (F := Ideal) : FVec Ideal S20000 .f32 → FVec Ideal S20000 .f32 → FVec Ideal S20000 .f32) (((fun x i u => Host.scatterAdd (F := Ideal) scatter_S20000_S500000x1_S500000_n_0_0_1 x i u) : FVec Ideal S20000 .f32 → IVec S500000x1 32 → FVec Ideal S500000 .f32 → FVec Ideal S20000 .f32) ((broadcastInDim S20000 ![] bcast_S_S20000 : FVec Ideal S_ .f32 → FVec Ideal S20000 .f32) (constant (F := Ideal) S_ .f32 0x00000000#32)) ((broadcastInDim S500000x1 ![0] bcast_S500000_S500000x1_0 : IVec S500000 32 → IVec S500000x1 32) (shapeCast S500000 (((extractStridedSlice S1x500000 ![1, 0] · slices_S2x500000_S1x500000_1_0) : IVec S2x500000 32 → IVec S1x500000 32) arg24) shapeCasts_S1x500000_S500000)) ((broadcastInDim S500000 ![] bcast_S_S500000 : FVec Ideal S_ .f32 → FVec Ideal S500000 .f32) (constant (F := Ideal) S_ .f32 0x3F800000#32))) ((broadcastInDim S20000 ![] bcast_S_S20000 : FVec Ideal S_ .f32 → FVec Ideal S20000 .f32) (constant (F := Ideal) S_ .f32 0x3F800000#32))))))

set_option maxHeartbeats 40000000 in
/-- After the list, from any contents, main_v152 holds that function of the contents. -/
theorem kh5_v152_eq (W : Valuation τ sig (Elt Ideal)) :
    StableHlo.after (hostOps5 (F := Ideal)) W (Proc.devRef .tc main_v152)
      = kh5_v152 (W (Proc.devRef .tc main_v1)) (W (Proc.devRef .tc main_arg24)) := by
  after_results_simp <;> first | rfl | (unfold kh5_v152; rfl)

/-- Buffer main_v175 as a function of main_v3, main_arg26: the operations that build it, composed. -/
def kh5_v175 (v3 : FVec Ideal S2000x150 .f32) (arg26 : IVec S2x200000 32) : FVec Ideal S20000x150 .f32 :=
  ((Host.divf (F := Ideal) : FVec Ideal S20000x150 .f32 → FVec Ideal S20000x150 .f32 → FVec Ideal S20000x150 .f32) (((fun x i u => Host.scatterAdd (F := Ideal) scatter_S20000x150_S200000x1_S200000x150_1_0_0_1 x i u) : FVec Ideal S20000x150 .f32 → IVec S200000x1 32 → FVec Ideal S200000x150 .f32 → FVec Ideal S20000x150 .f32) ((broadcastInDim S20000x150 ![] bcast_S_S20000x150 : FVec Ideal S_ .f32 → FVec Ideal S20000x150 .f32) (constant (F := Ideal) S_ .f32 0x00000000#32)) ((broadcastInDim S200000x1 ![0] bcast_S200000_S200000x1_0 : IVec S200000 32 → IVec S200000x1 32) (shapeCast S200000 (((extractStridedSlice S1x200000 ![1, 0] · slices_S2x200000_S1x200000_1_0) : IVec S2x200000 32 → IVec S1x200000 32) arg26) shapeCasts_S1x200000_S200000)) (((fun x i => Host.gather gather_S2000x150_S200000x1_S200000x150_1_0_n_n_0_1_1150 x i) : FVec Ideal S2000x150 .f32 → IVec S200000x1 32 → FVec Ideal S200000x150 .f32) v3 ((broadcastInDim S200000x1 ![0] bcast_S200000_S200000x1_0 : IVec S200000 32 → IVec S200000x1 32) ((select : IVec S200000 1 → IVec S200000 32 → IVec S200000 32 → IVec S200000 32) ((cmpi .slt : IVec S200000 32 → IVec S200000 32 → IVec S200000 1) (shapeCast S200000 (((extractStridedSlice S1x200000 ![0, 0] · slices_S2x200000_S1x200000_0_0) : IVec S2x200000 32 → IVec S1x200000 32) arg26) shapeCasts_S1x200000_S200000) ((broadcastInDim S200000 ![] bcast_S_S200000 : IVec S_ 32 → IVec S200000 32) (constantI S_ 32 0#32))) ((addi : IVec S200000 32 → IVec S200000 32 → IVec S200000 32) (shapeCast S200000 (((extractStridedSlice S1x200000 ![0, 0] · slices_S2x200000_S1x200000_0_0) : IVec S2x200000 32 → IVec S1x200000 32) arg26) shapeCasts_S1x200000_S200000) ((broadcastInDim S200000 ![] bcast_S_S200000 : IVec S_ 32 → IVec S200000 32) (constantI S_ 32 2000#32))) (shapeCast S200000 (((extractStridedSlice S1x200000 ![0, 0] · slices_S2x200000_S1x200000_0_0) : IVec S2x200000 32 → IVec S1x200000 32) arg26) shapeCasts_S1x200000_S200000))))) ((broadcastInDim S20000x150 ![0, 1] bcast_S20000x1_S20000x150_0_1 : FVec Ideal S20000x1 .f32 → FVec Ideal S20000x150 .f32) ((broadcastInDim S20000x1 ![0] bcast_S20000_S20000x1_0 : FVec Ideal S20000 .f32 → FVec Ideal S20000x1 .f32) ((maximumf (F := Ideal) : FVec Ideal S20000 .f32 → FVec Ideal S20000 .f32 → FVec Ideal S20000 .f32) (((fun x i u => Host.scatterAdd (F := Ideal) scatter_S20000_S200000x1_S200000_n_0_0_1 x i u) : FVec Ideal S20000 .f32 → IVec S200000x1 32 → FVec Ideal S200000 .f32 → FVec Ideal S20000 .f32) ((broadcastInDim S20000 ![] bcast_S_S20000 : FVec Ideal S_ .f32 → FVec Ideal S20000 .f32) (constant (F := Ideal) S_ .f32 0x00000000#32)) ((broadcastInDim S200000x1 ![0] bcast_S200000_S200000x1_0 : IVec S200000 32 → IVec S200000x1 32) (shapeCast S200000 (((extractStridedSlice S1x200000 ![1, 0] · slices_S2x200000_S1x200000_1_0) : IVec S2x200000 32 → IVec S1x200000 32) arg26) shapeCasts_S1x200000_S200000)) ((broadcastInDim S200000 ![] bcast_S_S200000 : FVec Ideal S_ .f32 → FVec Ideal S200000 .f32) (constant (F := Ideal) S_ .f32 0x3F800000#32))) ((broadcastInDim S20000 ![] bcast_S_S20000 : FVec Ideal S_ .f32 → FVec Ideal S20000 .f32) (constant (F := Ideal) S_ .f32 0x3F800000#32))))))

set_option maxHeartbeats 40000000 in
/-- After the list, from any contents, main_v175 holds that function of the contents. -/
theorem kh5_v175_eq (W : Valuation τ sig (Elt Ideal)) :
    StableHlo.after (hostOps5 (F := Ideal)) W (Proc.devRef .tc main_v175)
      = kh5_v175 (W (Proc.devRef .tc main_v3)) (W (Proc.devRef .tc main_arg26)) := by
  after_results_simp <;> first | rfl | (unfold kh5_v175; rfl)

/-- Buffer main_v187 as a function of main_arg9: the operations that build it, composed. -/
def kh5_v187 (arg9 : FVec Ideal S3x6x150x150 .f32) : FVec Ideal S150x150 .f32 :=
  (shapeCast S150x150 (((extractStridedSlice S1x1x150x150 ![0, 0, 0, 0] · slices_S3x6x150x150_S1x1x150x150_0_0_0_0) : FVec Ideal S3x6x150x150 .f32 → FVec Ideal S1x1x150x150 .f32) arg9) shapeCasts_S1x1x150x150_S150x150)

set_option maxHeartbeats 40000000 in
/-- After the list, from any contents, main_v187 holds that function of the contents. -/
theorem kh5_v187_eq (W : Valuation τ sig (Elt Ideal)) :
    StableHlo.after (hostOps5 (F := Ideal)) W (Proc.devRef .tc main_v187)
      = kh5_v187 (W (Proc.devRef .tc main_arg9)) := by
  after_results_simp <;> first | rfl | (unfold kh5_v187; rfl)

/-- Buffer main_v189 as a function of main_arg9: the operations that build it, composed. -/
def kh5_v189 (arg9 : FVec Ideal S3x6x150x150 .f32) : FVec Ideal S150x150 .f32 :=
  (shapeCast S150x150 (((extractStridedSlice S1x1x150x150 ![0, 4, 0, 0] · slices_S3x6x150x150_S1x1x150x150_0_4_0_0) : FVec Ideal S3x6x150x150 .f32 → FVec Ideal S1x1x150x150 .f32) arg9) shapeCasts_S1x1x150x150_S150x150)

set_option maxHeartbeats 40000000 in
/-- After the list, from any contents, main_v189 holds that function of the contents. -/
theorem kh5_v189_eq (W : Valuation τ sig (Elt Ideal)) :
    StableHlo.after (hostOps5 (F := Ideal)) W (Proc.devRef .tc main_v189)
      = kh5_v189 (W (Proc.devRef .tc main_arg9)) := by
  after_results_simp <;> first | rfl | (unfold kh5_v189; rfl)

/-- Buffer main_v177 as a function of main_arg11: the operations that build it, composed. -/
def kh5_v177 (arg11 : FVec Ideal S3x6x150x150 .f32) : FVec Ideal S150x150 .f32 :=
  (shapeCast S150x150 (((extractStridedSlice S1x1x150x150 ![0, 0, 0, 0] · slices_S3x6x150x150_S1x1x150x150_0_0_0_0) : FVec Ideal S3x6x150x150 .f32 → FVec Ideal S1x1x150x150 .f32) arg11) shapeCasts_S1x1x150x150_S150x150)

set_option maxHeartbeats 40000000 in
/-- After the list, from any contents, main_v177 holds that function of the contents. -/
theorem kh5_v177_eq (W : Valuation τ sig (Elt Ideal)) :
    StableHlo.after (hostOps5 (F := Ideal)) W (Proc.devRef .tc main_v177)
      = kh5_v177 (W (Proc.devRef .tc main_arg11)) := by
  after_results_simp <;> first | rfl | (unfold kh5_v177; rfl)

/-- Buffer main_v179 as a function of main_arg11: the operations that build it, composed. -/
def kh5_v179 (arg11 : FVec Ideal S3x6x150x150 .f32) : FVec Ideal S150x150 .f32 :=
  (shapeCast S150x150 (((extractStridedSlice S1x1x150x150 ![0, 4, 0, 0] · slices_S3x6x150x150_S1x1x150x150_0_4_0_0) : FVec Ideal S3x6x150x150 .f32 → FVec Ideal S1x1x150x150 .f32) arg11) shapeCasts_S1x1x150x150_S150x150)

set_option maxHeartbeats 40000000 in
/-- After the list, from any contents, main_v179 holds that function of the contents. -/
theorem kh5_v179_eq (W : Valuation τ sig (Elt Ideal)) :
    StableHlo.after (hostOps5 (F := Ideal)) W (Proc.devRef .tc main_v179)
      = kh5_v179 (W (Proc.devRef .tc main_arg11)) := by
  after_results_simp <;> first | rfl | (unfold kh5_v179; rfl)

/-- Buffer main_v180 as a function of main_arg11: the operations that build it, composed. -/
def kh5_v180 (arg11 : FVec Ideal S3x6x150x150 .f32) : FVec Ideal S150x150 .f32 :=
  ((addf (F := Ideal) : FVec Ideal S150x150 .f32 → FVec Ideal S150x150 .f32 → FVec Ideal S150x150 .f32) (shapeCast S150x150 (((extractStridedSlice S1x1x150x150 ![0, 0, 0, 0] · slices_S3x6x150x150_S1x1x150x150_0_0_0_0) : FVec Ideal S3x6x150x150 .f32 → FVec Ideal S1x1x150x150 .f32) arg11) shapeCasts_S1x1x150x150_S150x150) (shapeCast S150x150 (((extractStridedSlice S1x1x150x150 ![0, 4, 0, 0] · slices_S3x6x150x150_S1x1x150x150_0_4_0_0) : FVec Ideal S3x6x150x150 .f32 → FVec Ideal S1x1x150x150 .f32) arg11) shapeCasts_S1x1x150x150_S150x150))

set_option maxHeartbeats 40000000 in
/-- After the list, from any contents, main_v180 holds that function of the contents. -/
theorem kh5_v180_eq (W : Valuation τ sig (Elt Ideal)) :
    StableHlo.after (hostOps5 (F := Ideal)) W (Proc.devRef .tc main_v180)
      = kh5_v180 (W (Proc.devRef .tc main_arg11)) := by
  after_results_simp <;> first | rfl | (unfold kh5_v180; rfl)

/-- Buffer main_v182 as a function of main_arg10: the operations that build it, composed. -/
def kh5_v182 (arg10 : FVec Ideal S3x6x150 .f32) : FVec Ideal S150 .f32 :=
  (shapeCast S150 (((extractStridedSlice S1x1x150 ![0, 0, 0] · slices_S3x6x150_S1x1x150_0_0_0) : FVec Ideal S3x6x150 .f32 → FVec Ideal S1x1x150 .f32) arg10) shapeCasts_S1x1x150_S150)

set_option maxHeartbeats 40000000 in
/-- After the list, from any contents, main_v182 holds that function of the contents. -/
theorem kh5_v182_eq (W : Valuation τ sig (Elt Ideal)) :
    StableHlo.after (hostOps5 (F := Ideal)) W (Proc.devRef .tc main_v182)
      = kh5_v182 (W (Proc.devRef .tc main_arg10)) := by
  after_results_simp <;> first | rfl | (unfold kh5_v182; rfl)

/-- Buffer main_v184 as a function of main_arg10: the operations that build it, composed. -/
def kh5_v184 (arg10 : FVec Ideal S3x6x150 .f32) : FVec Ideal S150 .f32 :=
  (shapeCast S150 (((extractStridedSlice S1x1x150 ![0, 4, 0] · slices_S3x6x150_S1x1x150_0_4_0) : FVec Ideal S3x6x150 .f32 → FVec Ideal S1x1x150 .f32) arg10) shapeCasts_S1x1x150_S150)

set_option maxHeartbeats 40000000 in
/-- After the list, from any contents, main_v184 holds that function of the contents. -/
theorem kh5_v184_eq (W : Valuation τ sig (Elt Ideal)) :
    StableHlo.after (hostOps5 (F := Ideal)) W (Proc.devRef .tc main_v184)
      = kh5_v184 (W (Proc.devRef .tc main_arg10)) := by
  after_results_simp <;> first | rfl | (unfold kh5_v184; rfl)

/-- Buffer main_v190 as a function of main_arg10: the operations that build it, composed. -/
def kh5_v190 (arg10 : FVec Ideal S3x6x150 .f32) : FVec Ideal S1x150 .f32 :=
  (shapeCast S1x150 ((addf (F := Ideal) : FVec Ideal S150 .f32 → FVec Ideal S150 .f32 → FVec Ideal S150 .f32) (shapeCast S150 (((extractStridedSlice S1x1x150 ![0, 0, 0] · slices_S3x6x150_S1x1x150_0_0_0) : FVec Ideal S3x6x150 .f32 → FVec Ideal S1x1x150 .f32) arg10) shapeCasts_S1x1x150_S150) (shapeCast S150 (((extractStridedSlice S1x1x150 ![0, 4, 0] · slices_S3x6x150_S1x1x150_0_4_0) : FVec Ideal S3x6x150 .f32 → FVec Ideal S1x1x150 .f32) arg10) shapeCasts_S1x1x150_S150)) shapeCasts_S150_S1x150)

set_option maxHeartbeats 40000000 in
/-- After the list, from any contents, main_v190 holds that function of the contents. -/
theorem kh5_v190_eq (W : Valuation τ sig (Elt Ideal)) :
    StableHlo.after (hostOps5 (F := Ideal)) W (Proc.devRef .tc main_v190)
      = kh5_v190 (W (Proc.devRef .tc main_arg10)) := by
  after_results_simp <;> first | rfl | (unfold kh5_v190; rfl)

/-- main_v180's function is the operations above main_v177, main_v179, applied to those buffers' functions. -/
theorem kh5_v180_parts (arg11 : FVec Ideal S3x6x150x150 .f32) :
    kh5_v180 arg11
      = ((addf (F := Ideal) : FVec Ideal S150x150 .f32 → FVec Ideal S150x150 .f32 → FVec Ideal S150x150 .f32) (kh5_v177 arg11) (kh5_v179 arg11)) := rfl

/-- main_v190's function is the operations above main_v182, main_v184, applied to those buffers' functions. -/
theorem kh5_v190_parts (arg10 : FVec Ideal S3x6x150 .f32) :
    kh5_v190 arg10
      = (shapeCast S1x150 ((addf (F := Ideal) : FVec Ideal S150 .f32 → FVec Ideal S150 .f32 → FVec Ideal S150 .f32) (kh5_v182 arg10) (kh5_v184 arg10)) shapeCasts_S150_S1x150) := rfl

end Cert.KernelIdeal.Val

end
-- ==== Proof.KHost6.lean ====
/-
  What single buffers hold after a straight line of host operations, as functions of the buffers the line
  reads: each definition is the operations' own functions composed (their text as the list prints it, read at the
  extended reals), each lemma says the fold of the list at that buffer is that function of the starting contents.
-/
import proofs.«141689_j63058709840619_1_alg».proof.Proof.Gen.KernelIdeal.Launch
import proofs.«141689_j63058709840619_1_alg».proof.Proof.Spec
import Idealize.ShloMosaic.Lib.StableHlo.Run

set_option maxRecDepth 8192

noncomputable section

namespace Cert.KernelIdeal.Val

open Idealize.ShloMosaic Idealize.ShloMosaic.TcCoe Cert.KernelIdeal Cert.KernelIdeal.Gen Cert.Spec

/-! ## hostOps6: 73 operations -/

/-- Buffer main_v214 as a function of main_v191, main_arg24: the operations that build it, composed. -/
def kh6_v214 (v191 : FVec Ideal S20000x150 .f32) (arg24 : IVec S2x500000 32) : FVec Ideal S50000x150 .f32 :=
  ((Host.divf (F := Ideal) : FVec Ideal S50000x150 .f32 → FVec Ideal S50000x150 .f32 → FVec Ideal S50000x150 .f32) (((fun x i u => Host.scatterAdd (F := Ideal) scatter_S50000x150_S500000x1_S500000x150_1_0_0_1 x i u) : FVec Ideal S50000x150 .f32 → IVec S500000x1 32 → FVec Ideal S500000x150 .f32 → FVec Ideal S50000x150 .f32) ((broadcastInDim S50000x150 ![] bcast_S_S50000x150 : FVec Ideal S_ .f32 → FVec Ideal S50000x150 .f32) (constant (F := Ideal) S_ .f32 0x00000000#32)) ((broadcastInDim S500000x1 ![0] bcast_S500000_S500000x1_0 : IVec S500000 32 → IVec S500000x1 32) (shapeCast S500000 (((extractStridedSlice S1x500000 ![0, 0] · slices_S2x500000_S1x500000_0_0) : IVec S2x500000 32 → IVec S1x500000 32) arg24) shapeCasts_S1x500000_S500000)) (((fun x i => Host.gather gather_S20000x150_S500000x1_S500000x150_1_0_n_n_0_1_1150 x i) : FVec Ideal S20000x150 .f32 → IVec S500000x1 32 → FVec Ideal S500000x150 .f32) v191 ((broadcastInDim S500000x1 ![0] bcast_S500000_S500000x1_0 : IVec S500000 32 → IVec S500000x1 32) ((select : IVec S500000 1 → IVec S500000 32 → IVec S500000 32 → IVec S500000 32) ((cmpi .slt : IVec S500000 32 → IVec S500000 32 → IVec S500000 1) (shapeCast S500000 (((extractStridedSlice S1x500000 ![1, 0] · slices_S2x500000_S1x500000_1_0) : IVec S2x500000 32 → IVec S1x500000 32) arg24) shapeCasts_S1x500000_S500000) ((broadcastInDim S500000 ![] bcast_S_S500000 : IVec S_ 32 → IVec S500000 32) (constantI S_ 32 0#32))) ((addi : IVec S500000 32 → IVec S500000 32 → IVec S500000 32) (shapeCast S500000 (((extractStridedSlice S1x500000 ![1, 0] · slices_S2x500000_S1x500000_1_0) : IVec S2x500000 32 → IVec S1x500000 32) arg24) shapeCasts_S1x500000_S500000) ((broadcastInDim S500000 ![] bcast_S_S500000 : IVec S_ 32 → IVec S500000 32) (constantI S_ 32 20000#32))) (shapeCast S500000 (((extractStridedSlice S1x500000 ![1, 0] · slices_S2x500000_S1x500000_1_0) : IVec S2x500000 32 → IVec S1x500000 32) arg24) shapeCasts_S1x500000_S500000))))) ((broadcastInDim S50000x150 ![0, 1] bcast_S50000x1_S50000x150_0_1 : FVec Ideal S50000x1 .f32 → FVec Ideal S50000x150 .f32) ((broadcastInDim S50000x1 ![0] bcast_S50000_S50000x1_0 : FVec Ideal S50000 .f32 → FVec Ideal S50000x1 .f32) ((maximumf (F := Ideal) : FVec Ideal S50000 .f32 → FVec Ideal S50000 .f32 → FVec Ideal S50000 .f32) (((fun x i u => Host.scatterAdd (F := Ideal) scatter_S50000_S500000x1_S500000_n_0_0_1 x i u) : FVec Ideal S50000 .f32 → IVec S500000x1 32 → FVec Ideal S500000 .f32 → FVec Ideal S50000 .f32) ((broadcastInDim S50000 ![] bcast_S_S50000 : FVec Ideal S_ .f32 → FVec Ideal S50000 .f32) (constant (F := Ideal) S_ .f32 0x00000000#32)) ((broadcastInDim S500000x1 ![0] bcast_S500000_S500000x1_0 : IVec S500000 32 → IVec S500000x1 32) (shapeCast S500000 (((extractStridedSlice S1x500000 ![0, 0] · slices_S2x500000_S1x500000_0_0) : IVec S2x500000 32 → IVec S1x500000 32) arg24) shapeCasts_S1x500000_S500000)) ((broadcastInDim S500000 ![] bcast_S_S500000 : FVec Ideal S_ .f32 → FVec Ideal S500000 .f32) (constant (F := Ideal) S_ .f32 0x3F800000#32))) ((broadcastInDim S50000 ![] bcast_S_S50000 : FVec Ideal S_ .f32 → FVec Ideal S50000 .f32) (constant (F := Ideal) S_ .f32 0x3F800000#32))))))

set_option maxHeartbeats 40000000 in
/-- After the list, from any contents, main_v214 holds that function of the contents. -/
theorem kh6_v214_eq (W : Valuation τ sig (Elt Ideal)) :
    StableHlo.after (hostOps6 (F := Ideal)) W (Proc.devRef .tc main_v214)
      = kh6_v214 (W (Proc.devRef .tc main_v191)) (W (Proc.devRef .tc main_arg24)) := by
  after_results_simp <;> first | rfl | (unfold kh6_v214; rfl)

/-- Buffer main_v237 as a function of main_v129, main_arg25: the operations that build it, composed. -/
def kh6_v237 (v129 : FVec Ideal S2000x150 .f32) (arg25 : IVec S2x200000 32) : FVec Ideal S50000x150 .f32 :=
  ((Host.divf (F := Ideal) : FVec Ideal S50000x150 .f32 → FVec Ideal S50000x150 .f32 → FVec Ideal S50000x150 .f32) (((fun x i u => Host.scatterAdd (F := Ideal) scatter_S50000x150_S200000x1_S200000x150_1_0_0_1 x i u) : FVec Ideal S50000x150 .f32 → IVec S200000x1 32 → FVec Ideal S200000x150 .f32 → FVec Ideal S50000x150 .f32) ((broadcastInDim S50000x150 ![] bcast_S_S50000x150 : FVec Ideal S_ .f32 → FVec Ideal S50000x150 .f32) (constant (F := Ideal) S_ .f32 0x00000000#32)) ((broadcastInDim S200000x1 ![0] bcast_S200000_S200000x1_0 : IVec S200000 32 → IVec S200000x1 32) (shapeCast S200000 (((extractStridedSlice S1x200000 ![0, 0] · slices_S2x200000_S1x200000_0_0) : IVec S2x200000 32 → IVec S1x200000 32) arg25) shapeCasts_S1x200000_S200000)) (((fun x i => Host.gather gather_S2000x150_S200000x1_S200000x150_1_0_n_n_0_1_1150 x i) : FVec Ideal S2000x150 .f32 → IVec S200000x1 32 → FVec Ideal S200000x150 .f32) v129 ((broadcastInDim S200000x1 ![0] bcast_S200000_S200000x1_0 : IVec S200000 32 → IVec S200000x1 32) ((select : IVec S200000 1 → IVec S200000 32 → IVec S200000 32 → IVec S200000 32) ((cmpi .slt : IVec S200000 32 → IVec S200000 32 → IVec S200000 1) (shapeCast S200000 (((extractStridedSlice S1x200000 ![1, 0] · slices_S2x200000_S1x200000_1_0) : IVec S2x200000 32 → IVec S1x200000 32) arg25) shapeCasts_S1x200000_S200000) ((broadcastInDim S200000 ![] bcast_S_S200000 : IVec S_ 32 → IVec S200000 32) (constantI S_ 32 0#32))) ((addi : IVec S200000 32 → IVec S200000 32 → IVec S200000 32) (shapeCast S200000 (((extractStridedSlice S1x200000 ![1, 0] · slices_S2x200000_S1x200000_1_0) : IVec S2x200000 32 → IVec S1x200000 32) arg25) shapeCasts_S1x200000_S200000) ((broadcastInDim S200000 ![] bcast_S_S200000 : IVec S_ 32 → IVec S200000 32) (constantI S_ 32 2000#32))) (shapeCast S200000 (((extractStridedSlice S1x200000 ![1, 0] · slices_S2x200000_S1x200000_1_0) : IVec S2x200000 32 → IVec S1x200000 32) arg25) shapeCasts_S1x200000_S200000))))) ((broadcastInDim S50000x150 ![0, 1] bcast_S50000x1_S50000x150_0_1 : FVec Ideal S50000x1 .f32 → FVec Ideal S50000x150 .f32) ((broadcastInDim S50000x1 ![0] bcast_S50000_S50000x1_0 : FVec Ideal S50000 .f32 → FVec Ideal S50000x1 .f32) ((maximumf (F := Ideal) : FVec Ideal S50000 .f32 → FVec Ideal S50000 .f32 → FVec Ideal S50000 .f32) (((fun x i u => Host.scatterAdd (F := Ideal) scatter_S50000_S200000x1_S200000_n_0_0_1 x i u) : FVec Ideal S50000 .f32 → IVec S200000x1 32 → FVec Ideal S200000 .f32 → FVec Ideal S50000 .f32) ((broadcastInDim S50000 ![] bcast_S_S50000 : FVec Ideal S_ .f32 → FVec Ideal S50000 .f32) (constant (F := Ideal) S_ .f32 0x00000000#32)) ((broadcastInDim S200000x1 ![0] bcast_S200000_S200000x1_0 : IVec S200000 32 → IVec S200000x1 32) (shapeCast S200000 (((extractStridedSlice S1x200000 ![0, 0] · slices_S2x200000_S1x200000_0_0) : IVec S2x200000 32 → IVec S1x200000 32) arg25) shapeCasts_S1x200000_S200000)) ((broadcastInDim S200000 ![] bcast_S_S200000 : FVec Ideal S_ .f32 → FVec Ideal S200000 .f32) (constant (F := Ideal) S_ .f32 0x3F800000#32))) ((broadcastInDim S50000 ![] bcast_S_S50000 : FVec Ideal S_ .f32 → FVec Ideal S50000 .f32) (constant (F := Ideal) S_ .f32 0x3F800000#32))))))

set_option maxHeartbeats 40000000 in
/-- After the list, from any contents, main_v237 holds that function of the contents. -/
theorem kh6_v237_eq (W : Valuation τ sig (Elt Ideal)) :
    StableHlo.after (hostOps6 (F := Ideal)) W (Proc.devRef .tc main_v237)
      = kh6_v237 (W (Proc.devRef .tc main_v129)) (W (Proc.devRef .tc main_arg25)) := by
  after_results_simp <;> first | rfl | (unfold kh6_v237; rfl)

/-- Buffer main_v249 as a function of main_arg9: the operations that build it, composed. -/
def kh6_v249 (arg9 : FVec Ideal S3x6x150x150 .f32) : FVec Ideal S150x150 .f32 :=
  (shapeCast S150x150 (((extractStridedSlice S1x1x150x150 ![1, 1, 0, 0] · slices_S3x6x150x150_S1x1x150x150_1_1_0_0) : FVec Ideal S3x6x150x150 .f32 → FVec Ideal S1x1x150x150 .f32) arg9) shapeCasts_S1x1x150x150_S150x150)

set_option maxHeartbeats 40000000 in
/-- After the list, from any contents, main_v249 holds that function of the contents. -/
theorem kh6_v249_eq (W : Valuation τ sig (Elt Ideal)) :
    StableHlo.after (hostOps6 (F := Ideal)) W (Proc.devRef .tc main_v249)
      = kh6_v249 (W (Proc.devRef .tc main_arg9)) := by
  after_results_simp <;> first | rfl | (unfold kh6_v249; rfl)

/-- Buffer main_v251 as a function of main_arg9: the operations that build it, composed. -/
def kh6_v251 (arg9 : FVec Ideal S3x6x150x150 .f32) : FVec Ideal S150x150 .f32 :=
  (shapeCast S150x150 (((extractStridedSlice S1x1x150x150 ![1, 3, 0, 0] · slices_S3x6x150x150_S1x1x150x150_1_3_0_0) : FVec Ideal S3x6x150x150 .f32 → FVec Ideal S1x1x150x150 .f32) arg9) shapeCasts_S1x1x150x150_S150x150)

set_option maxHeartbeats 40000000 in
/-- After the list, from any contents, main_v251 holds that function of the contents. -/
theorem kh6_v251_eq (W : Valuation τ sig (Elt Ideal)) :
    StableHlo.after (hostOps6 (F := Ideal)) W (Proc.devRef .tc main_v251)
      = kh6_v251 (W (Proc.devRef .tc main_arg9)) := by
  after_results_simp <;> first | rfl | (unfold kh6_v251; rfl)

/-- Buffer main_v239 as a function of main_arg11: the operations that build it, composed. -/
def kh6_v239 (arg11 : FVec Ideal S3x6x150x150 .f32) : FVec Ideal S150x150 .f32 :=
  (shapeCast S150x150 (((extractStridedSlice S1x1x150x150 ![1, 1, 0, 0] · slices_S3x6x150x150_S1x1x150x150_1_1_0_0) : FVec Ideal S3x6x150x150 .f32 → FVec Ideal S1x1x150x150 .f32) arg11) shapeCasts_S1x1x150x150_S150x150)

set_option maxHeartbeats 40000000 in
/-- After the list, from any contents, main_v239 holds that function of the contents. -/
theorem kh6_v239_eq (W : Valuation τ sig (Elt Ideal)) :
    StableHlo.after (hostOps6 (F := Ideal)) W (Proc.devRef .tc main_v239)
      = kh6_v239 (W (Proc.devRef .tc main_arg11)) := by
  after_results_simp <;> first | rfl | (unfold kh6_v239; rfl)

/-- Buffer main_v241 as a function of main_arg11: the operations that build it, composed. -/
def kh6_v241 (arg11 : FVec Ideal S3x6x150x150 .f32) : FVec Ideal S150x150 .f32 :=
  (shapeCast S150x150 (((extractStridedSlice S1x1x150x150 ![1, 3, 0, 0] · slices_S3x6x150x150_S1x1x150x150_1_3_0_0) : FVec Ideal S3x6x150x150 .f32 → FVec Ideal S1x1x150x150 .f32) arg11) shapeCasts_S1x1x150x150_S150x150)

set_option maxHeartbeats 40000000 in
/-- After the list, from any contents, main_v241 holds that function of the contents. -/
theorem kh6_v241_eq (W : Valuation τ sig (Elt Ideal)) :
    StableHlo.after (hostOps6 (F := Ideal)) W (Proc.devRef .tc main_v241)
      = kh6_v241 (W (Proc.devRef .tc main_arg11)) := by
  after_results_simp <;> first | rfl | (unfold kh6_v241; rfl)

/-- Buffer main_v242 as a function of main_arg11: the operations that build it, composed. -/
def kh6_v242 (arg11 : FVec Ideal S3x6x150x150 .f32) : FVec Ideal S150x150 .f32 :=
  ((addf (F := Ideal) : FVec Ideal S150x150 .f32 → FVec Ideal S150x150 .f32 → FVec Ideal S150x150 .f32) (shapeCast S150x150 (((extractStridedSlice S1x1x150x150 ![1, 1, 0, 0] · slices_S3x6x150x150_S1x1x150x150_1_1_0_0) : FVec Ideal S3x6x150x150 .f32 → FVec Ideal S1x1x150x150 .f32) arg11) shapeCasts_S1x1x150x150_S150x150) (shapeCast S150x150 (((extractStridedSlice S1x1x150x150 ![1, 3, 0, 0] · slices_S3x6x150x150_S1x1x150x150_1_3_0_0) : FVec Ideal S3x6x150x150 .f32 → FVec Ideal S1x1x150x150 .f32) arg11) shapeCasts_S1x1x150x150_S150x150))

set_option maxHeartbeats 40000000 in
/-- After the list, from any contents, main_v242 holds that function of the contents. -/
theorem kh6_v242_eq (W : Valuation τ sig (Elt Ideal)) :
    StableHlo.after (hostOps6 (F := Ideal)) W (Proc.devRef .tc main_v242)
      = kh6_v242 (W (Proc.devRef .tc main_arg11)) := by
  after_results_simp <;> first | rfl | (unfold kh6_v242; rfl)

/-- Buffer main_v244 as a function of main_arg10: the operations that build it, composed. -/
def kh6_v244 (arg10 : FVec Ideal S3x6x150 .f32) : FVec Ideal S150 .f32 :=
  (shapeCast S150 (((extractStridedSlice S1x1x150 ![1, 1, 0] · slices_S3x6x150_S1x1x150_1_1_0) : FVec Ideal S3x6x150 .f32 → FVec Ideal S1x1x150 .f32) arg10) shapeCasts_S1x1x150_S150)

set_option maxHeartbeats 40000000 in
/-- After the list, from any contents, main_v244 holds that function of the contents. -/
theorem kh6_v244_eq (W : Valuation τ sig (Elt Ideal)) :
    StableHlo.after (hostOps6 (F := Ideal)) W (Proc.devRef .tc main_v244)
      = kh6_v244 (W (Proc.devRef .tc main_arg10)) := by
  after_results_simp <;> first | rfl | (unfold kh6_v244; rfl)

/-- Buffer main_v246 as a function of main_arg10: the operations that build it, composed. -/
def kh6_v246 (arg10 : FVec Ideal S3x6x150 .f32) : FVec Ideal S150 .f32 :=
  (shapeCast S150 (((extractStridedSlice S1x1x150 ![1, 3, 0] · slices_S3x6x150_S1x1x150_1_3_0) : FVec Ideal S3x6x150 .f32 → FVec Ideal S1x1x150 .f32) arg10) shapeCasts_S1x1x150_S150)

set_option maxHeartbeats 40000000 in
/-- After the list, from any contents, main_v246 holds that function of the contents. -/
theorem kh6_v246_eq (W : Valuation τ sig (Elt Ideal)) :
    StableHlo.after (hostOps6 (F := Ideal)) W (Proc.devRef .tc main_v246)
      = kh6_v246 (W (Proc.devRef .tc main_arg10)) := by
  after_results_simp <;> first | rfl | (unfold kh6_v246; rfl)

/-- Buffer main_v252 as a function of main_arg10: the operations that build it, composed. -/
def kh6_v252 (arg10 : FVec Ideal S3x6x150 .f32) : FVec Ideal S1x150 .f32 :=
  (shapeCast S1x150 ((addf (F := Ideal) : FVec Ideal S150 .f32 → FVec Ideal S150 .f32 → FVec Ideal S150 .f32) (shapeCast S150 (((extractStridedSlice S1x1x150 ![1, 1, 0] · slices_S3x6x150_S1x1x150_1_1_0) : FVec Ideal S3x6x150 .f32 → FVec Ideal S1x1x150 .f32) arg10) shapeCasts_S1x1x150_S150) (shapeCast S150 (((extractStridedSlice S1x1x150 ![1, 3, 0] · slices_S3x6x150_S1x1x150_1_3_0) : FVec Ideal S3x6x150 .f32 → FVec Ideal S1x1x150 .f32) arg10) shapeCasts_S1x1x150_S150)) shapeCasts_S150_S1x150)

set_option maxHeartbeats 40000000 in
/-- After the list, from any contents, main_v252 holds that function of the contents. -/
theorem kh6_v252_eq (W : Valuation τ sig (Elt Ideal)) :
    StableHlo.after (hostOps6 (F := Ideal)) W (Proc.devRef .tc main_v252)
      = kh6_v252 (W (Proc.devRef .tc main_arg10)) := by
  after_results_simp <;> first | rfl | (unfold kh6_v252; rfl)

/-- main_v242's function is the operations above main_v239, main_v241, applied to those buffers' functions. -/
theorem kh6_v242_parts (arg11 : FVec Ideal S3x6x150x150 .f32) :
    kh6_v242 arg11
      = ((addf (F := Ideal) : FVec Ideal S150x150 .f32 → FVec Ideal S150x150 .f32 → FVec Ideal S150x150 .f32) (kh6_v239 arg11) (kh6_v241 arg11)) := rfl

/-- main_v252's function is the operations above main_v244, main_v246, applied to those buffers' functions. -/
theorem kh6_v252_parts (arg10 : FVec Ideal S3x6x150 .f32) :
    kh6_v252 arg10
      = (shapeCast S1x150 ((addf (F := Ideal) : FVec Ideal S150 .f32 → FVec Ideal S150 .f32 → FVec Ideal S150 .f32) (kh6_v244 arg10) (kh6_v246 arg10)) shapeCasts_S150_S1x150) := rfl

end Cert.KernelIdeal.Val

end
-- ==== Proof.KHost7.lean ====
/-
  What single buffers hold after a straight line of host operations, as functions of the buffers the line
  reads: each definition is the operations' own functions composed (their text as the list prints it, read at the
  extended reals), each lemma says the fold of the list at that buffer is that function of the starting contents.
-/
import proofs.«141689_j63058709840619_1_alg».proof.Proof.Gen.KernelIdeal.Launch
import proofs.«141689_j63058709840619_1_alg».proof.Proof.Spec
import Idealize.ShloMosaic.Lib.StableHlo.Run

set_option maxRecDepth 8192

noncomputable section

namespace Cert.KernelIdeal.Val

open Idealize.ShloMosaic Idealize.ShloMosaic.TcCoe Cert.KernelIdeal Cert.KernelIdeal.Gen Cert.Spec

/-! ## hostOps7: 73 operations -/

/-- Buffer main_v276 as a function of main_v67, main_arg25: the operations that build it, composed. -/
def kh7_v276 (v67 : FVec Ideal S50000x150 .f32) (arg25 : IVec S2x200000 32) : FVec Ideal S2000x150 .f32 :=
  ((Host.divf (F := Ideal) : FVec Ideal S2000x150 .f32 → FVec Ideal S2000x150 .f32 → FVec Ideal S2000x150 .f32) (((fun x i u => Host.scatterAdd (F := Ideal) scatter_S2000x150_S200000x1_S200000x150_1_0_0_1 x i u) : FVec Ideal S2000x150 .f32 → IVec S200000x1 32 → FVec Ideal S200000x150 .f32 → FVec Ideal S2000x150 .f32) ((broadcastInDim S2000x150 ![] bcast_S_S2000x150 : FVec Ideal S_ .f32 → FVec Ideal S2000x150 .f32) (constant (F := Ideal) S_ .f32 0x00000000#32)) ((broadcastInDim S200000x1 ![0] bcast_S200000_S200000x1_0 : IVec S200000 32 → IVec S200000x1 32) (shapeCast S200000 (((extractStridedSlice S1x200000 ![1, 0] · slices_S2x200000_S1x200000_1_0) : IVec S2x200000 32 → IVec S1x200000 32) arg25) shapeCasts_S1x200000_S200000)) (((fun x i => Host.gather gather_S50000x150_S200000x1_S200000x150_1_0_n_n_0_1_1150 x i) : FVec Ideal S50000x150 .f32 → IVec S200000x1 32 → FVec Ideal S200000x150 .f32) v67 ((broadcastInDim S200000x1 ![0] bcast_S200000_S200000x1_0 : IVec S200000 32 → IVec S200000x1 32) ((select : IVec S200000 1 → IVec S200000 32 → IVec S200000 32 → IVec S200000 32) ((cmpi .slt : IVec S200000 32 → IVec S200000 32 → IVec S200000 1) (shapeCast S200000 (((extractStridedSlice S1x200000 ![0, 0] · slices_S2x200000_S1x200000_0_0) : IVec S2x200000 32 → IVec S1x200000 32) arg25) shapeCasts_S1x200000_S200000) ((broadcastInDim S200000 ![] bcast_S_S200000 : IVec S_ 32 → IVec S200000 32) (constantI S_ 32 0#32))) ((addi : IVec S200000 32 → IVec S200000 32 → IVec S200000 32) (shapeCast S200000 (((extractStridedSlice S1x200000 ![0, 0] · slices_S2x200000_S1x200000_0_0) : IVec S2x200000 32 → IVec S1x200000 32) arg25) shapeCasts_S1x200000_S200000) ((broadcastInDim S200000 ![] bcast_S_S200000 : IVec S_ 32 → IVec S200000 32) (constantI S_ 32 50000#32))) (shapeCast S200000 (((extractStridedSlice S1x200000 ![0, 0] · slices_S2x200000_S1x200000_0_0) : IVec S2x200000 32 → IVec S1x200000 32) arg25) shapeCasts_S1x200000_S200000))))) ((broadcastInDim S2000x150 ![0, 1] bcast_S2000x1_S2000x150_0_1 : FVec Ideal S2000x1 .f32 → FVec Ideal S2000x150 .f32) ((broadcastInDim S2000x1 ![0] bcast_S2000_S2000x1_0 : FVec Ideal S2000 .f32 → FVec Ideal S2000x1 .f32) ((maximumf (F := Ideal) : FVec Ideal S2000 .f32 → FVec Ideal S2000 .f32 → FVec Ideal S2000 .f32) (((fun x i u => Host.scatterAdd (F := Ideal) scatter_S2000_S200000x1_S200000_n_0_0_1 x i u) : FVec Ideal S2000 .f32 → IVec S200000x1 32 → FVec Ideal S200000 .f32 → FVec Ideal S2000 .f32) ((broadcastInDim S2000 ![] bcast_S_S2000 : FVec Ideal S_ .f32 → FVec Ideal S2000 .f32) (constant (F := Ideal) S_ .f32 0x00000000#32)) ((broadcastInDim S200000x1 ![0] bcast_S200000_S200000x1_0 : IVec S200000 32 → IVec S200000x1 32) (shapeCast S200000 (((extractStridedSlice S1x200000 ![1, 0] · slices_S2x200000_S1x200000_1_0) : IVec S2x200000 32 → IVec S1x200000 32) arg25) shapeCasts_S1x200000_S200000)) ((broadcastInDim S200000 ![] bcast_S_S200000 : FVec Ideal S_ .f32 → FVec Ideal S200000 .f32) (constant (F := Ideal) S_ .f32 0x3F800000#32))) ((broadcastInDim S2000 ![] bcast_S_S2000 : FVec Ideal S_ .f32 → FVec Ideal S2000 .f32) (constant (F := Ideal) S_ .f32 0x3F800000#32))))))

set_option maxHeartbeats 40000000 in
/-- After the list, from any contents, main_v276 holds that function of the contents. -/
theorem kh7_v276_eq (W : Valuation τ sig (Elt Ideal)) :
    StableHlo.after (hostOps7 (F := Ideal)) W (Proc.devRef .tc main_v276)
      = kh7_v276 (W (Proc.devRef .tc main_v67)) (W (Proc.devRef .tc main_arg25)) := by
  after_results_simp <;> first | rfl | (unfold kh7_v276; rfl)

/-- Buffer main_v299 as a function of main_v191, main_arg26: the operations that build it, composed. -/
def kh7_v299 (v191 : FVec Ideal S20000x150 .f32) (arg26 : IVec S2x200000 32) : FVec Ideal S2000x150 .f32 :=
  ((Host.divf (F := Ideal) : FVec Ideal S2000x150 .f32 → FVec Ideal S2000x150 .f32 → FVec Ideal S2000x150 .f32) (((fun x i u => Host.scatterAdd (F := Ideal) scatter_S2000x150_S200000x1_S200000x150_1_0_0_1 x i u) : FVec Ideal S2000x150 .f32 → IVec S200000x1 32 → FVec Ideal S200000x150 .f32 → FVec Ideal S2000x150 .f32) ((broadcastInDim S2000x150 ![] bcast_S_S2000x150 : FVec Ideal S_ .f32 → FVec Ideal S2000x150 .f32) (constant (F := Ideal) S_ .f32 0x00000000#32)) ((broadcastInDim S200000x1 ![0] bcast_S200000_S200000x1_0 : IVec S200000 32 → IVec S200000x1 32) (shapeCast S200000 (((extractStridedSlice S1x200000 ![0, 0] · slices_S2x200000_S1x200000_0_0) : IVec S2x200000 32 → IVec S1x200000 32) arg26) shapeCasts_S1x200000_S200000)) (((fun x i => Host.gather gather_S20000x150_S200000x1_S200000x150_1_0_n_n_0_1_1150 x i) : FVec Ideal S20000x150 .f32 → IVec S200000x1 32 → FVec Ideal S200000x150 .f32) v191 ((broadcastInDim S200000x1 ![0] bcast_S200000_S200000x1_0 : IVec S200000 32 → IVec S200000x1 32) ((select : IVec S200000 1 → IVec S200000 32 → IVec S200000 32 → IVec S200000 32) ((cmpi .slt : IVec S200000 32 → IVec S200000 32 → IVec S200000 1) (shapeCast S200000 (((extractStridedSlice S1x200000 ![1, 0] · slices_S2x200000_S1x200000_1_0) : IVec S2x200000 32 → IVec S1x200000 32) arg26) shapeCasts_S1x200000_S200000) ((broadcastInDim S200000 ![] bcast_S_S200000 : IVec S_ 32 → IVec S200000 32) (constantI S_ 32 0#32))) ((addi : IVec S200000 32 → IVec S200000 32 → IVec S200000 32) (shapeCast S200000 (((extractStridedSlice S1x200000 ![1, 0] · slices_S2x200000_S1x200000_1_0) : IVec S2x200000 32 → IVec S1x200000 32) arg26) shapeCasts_S1x200000_S200000) ((broadcastInDim S200000 ![] bcast_S_S200000 : IVec S_ 32 → IVec S200000 32) (constantI S_ 32 20000#32))) (shapeCast S200000 (((extractStridedSlice S1x200000 ![1, 0] · slices_S2x200000_S1x200000_1_0) : IVec S2x200000 32 → IVec S1x200000 32) arg26) shapeCasts_S1x200000_S200000))))) ((broadcastInDim S2000x150 ![0, 1] bcast_S2000x1_S2000x150_0_1 : FVec Ideal S2000x1 .f32 → FVec Ideal S2000x150 .f32) ((broadcastInDim S2000x1 ![0] bcast_S2000_S2000x1_0 : FVec Ideal S2000 .f32 → FVec Ideal S2000x1 .f32) ((maximumf (F := Ideal) : FVec Ideal S2000 .f32 → FVec Ideal S2000 .f32 → FVec Ideal S2000 .f32) (((fun x i u => Host.scatterAdd (F := Ideal) scatter_S2000_S200000x1_S200000_n_0_0_1 x i u) : FVec Ideal S2000 .f32 → IVec S200000x1 32 → FVec Ideal S200000 .f32 → FVec Ideal S2000 .f32) ((broadcastInDim S2000 ![] bcast_S_S2000 : FVec Ideal S_ .f32 → FVec Ideal S2000 .f32) (constant (F := Ideal) S_ .f32 0x00000000#32)) ((broadcastInDim S200000x1 ![0] bcast_S200000_S200000x1_0 : IVec S200000 32 → IVec S200000x1 32) (shapeCast S200000 (((extractStridedSlice S1x200000 ![0, 0] · slices_S2x200000_S1x200000_0_0) : IVec S2x200000 32 → IVec S1x200000 32) arg26) shapeCasts_S1x200000_S200000)) ((broadcastInDim S200000 ![] bcast_S_S200000 : FVec Ideal S_ .f32 → FVec Ideal S200000 .f32) (constant (F := Ideal) S_ .f32 0x3F800000#32))) ((broadcastInDim S2000 ![] bcast_S_S2000 : FVec Ideal S_ .f32 → FVec Ideal S2000 .f32) (constant (F := Ideal) S_ .f32 0x3F800000#32))))))

set_option maxHeartbeats 40000000 in
/-- After the list, from any contents, main_v299 holds that function of the contents. -/
theorem kh7_v299_eq (W : Valuation τ sig (Elt Ideal)) :
    StableHlo.after (hostOps7 (F := Ideal)) W (Proc.devRef .tc main_v299)
      = kh7_v299 (W (Proc.devRef .tc main_v191)) (W (Proc.devRef .tc main_arg26)) := by
  after_results_simp <;> first | rfl | (unfold kh7_v299; rfl)

/-- Buffer main_v311 as a function of main_arg9: the operations that build it, composed. -/
def kh7_v311 (arg9 : FVec Ideal S3x6x150x150 .f32) : FVec Ideal S150x150 .f32 :=
  (shapeCast S150x150 (((extractStridedSlice S1x1x150x150 ![1, 2, 0, 0] · slices_S3x6x150x150_S1x1x150x150_1_2_0_0) : FVec Ideal S3x6x150x150 .f32 → FVec Ideal S1x1x150x150 .f32) arg9) shapeCasts_S1x1x150x150_S150x150)

set_option maxHeartbeats 40000000 in
/-- After the list, from any contents, main_v311 holds that function of the contents. -/
theorem kh7_v311_eq (W : Valuation τ sig (Elt Ideal)) :
    StableHlo.after (hostOps7 (F := Ideal)) W (Proc.devRef .tc main_v311)
      = kh7_v311 (W (Proc.devRef .tc main_arg9)) := by
  after_results_simp <;> first | rfl | (unfold kh7_v311; rfl)

/-- Buffer main_v313 as a function of main_arg9: the operations that build it, composed. -/
def kh7_v313 (arg9 : FVec Ideal S3x6x150x150 .f32) : FVec Ideal S150x150 .f32 :=
  (shapeCast S150x150 (((extractStridedSlice S1x1x150x150 ![1, 5, 0, 0] · slices_S3x6x150x150_S1x1x150x150_1_5_0_0) : FVec Ideal S3x6x150x150 .f32 → FVec Ideal S1x1x150x150 .f32) arg9) shapeCasts_S1x1x150x150_S150x150)

set_option maxHeartbeats 40000000 in
/-- After the list, from any contents, main_v313 holds that function of the contents. -/
theorem kh7_v313_eq (W : Valuation τ sig (Elt Ideal)) :
    StableHlo.after (hostOps7 (F := Ideal)) W (Proc.devRef .tc main_v313)
      = kh7_v313 (W (Proc.devRef .tc main_arg9)) := by
  after_results_simp <;> first | rfl | (unfold kh7_v313; rfl)

/-- Buffer main_v301 as a function of main_arg11: the operations that build it, composed. -/
def kh7_v301 (arg11 : FVec Ideal S3x6x150x150 .f32) : FVec Ideal S150x150 .f32 :=
  (shapeCast S150x150 (((extractStridedSlice S1x1x150x150 ![1, 2, 0, 0] · slices_S3x6x150x150_S1x1x150x150_1_2_0_0) : FVec Ideal S3x6x150x150 .f32 → FVec Ideal S1x1x150x150 .f32) arg11) shapeCasts_S1x1x150x150_S150x150)

set_option maxHeartbeats 40000000 in
/-- After the list, from any contents, main_v301 holds that function of the contents. -/
theorem kh7_v301_eq (W : Valuation τ sig (Elt Ideal)) :
    StableHlo.after (hostOps7 (F := Ideal)) W (Proc.devRef .tc main_v301)
      = kh7_v301 (W (Proc.devRef .tc main_arg11)) := by
  after_results_simp <;> first | rfl | (unfold kh7_v301; rfl)

/-- Buffer main_v303 as a function of main_arg11: the operations that build it, composed. -/
def kh7_v303 (arg11 : FVec Ideal S3x6x150x150 .f32) : FVec Ideal S150x150 .f32 :=
  (shapeCast S150x150 (((extractStridedSlice S1x1x150x150 ![1, 5, 0, 0] · slices_S3x6x150x150_S1x1x150x150_1_5_0_0) : FVec Ideal S3x6x150x150 .f32 → FVec Ideal S1x1x150x150 .f32) arg11) shapeCasts_S1x1x150x150_S150x150)

set_option maxHeartbeats 40000000 in
/-- After the list, from any contents, main_v303 holds that function of the contents. -/
theorem kh7_v303_eq (W : Valuation τ sig (Elt Ideal)) :
    StableHlo.after (hostOps7 (F := Ideal)) W (Proc.devRef .tc main_v303)
      = kh7_v303 (W (Proc.devRef .tc main_arg11)) := by
  after_results_simp <;> first | rfl | (unfold kh7_v303; rfl)

/-- Buffer main_v304 as a function of main_arg11: the operations that build it, composed. -/
def kh7_v304 (arg11 : FVec Ideal S3x6x150x150 .f32) : FVec Ideal S150x150 .f32 :=
  ((addf (F := Ideal) : FVec Ideal S150x150 .f32 → FVec Ideal S150x150 .f32 → FVec Ideal S150x150 .f32) (shapeCast S150x150 (((extractStridedSlice S1x1x150x150 ![1, 2, 0, 0] · slices_S3x6x150x150_S1x1x150x150_1_2_0_0) : FVec Ideal S3x6x150x150 .f32 → FVec Ideal S1x1x150x150 .f32) arg11) shapeCasts_S1x1x150x150_S150x150) (shapeCast S150x150 (((extractStridedSlice S1x1x150x150 ![1, 5, 0, 0] · slices_S3x6x150x150_S1x1x150x150_1_5_0_0) : FVec Ideal S3x6x150x150 .f32 → FVec Ideal S1x1x150x150 .f32) arg11) shapeCasts_S1x1x150x150_S150x150))

set_option maxHeartbeats 40000000 in
/-- After the list, from any contents, main_v304 holds that function of the contents. -/
theorem kh7_v304_eq (W : Valuation τ sig (Elt Ideal)) :
    StableHlo.after (hostOps7 (F := Ideal)) W (Proc.devRef .tc main_v304)
      = kh7_v304 (W (Proc.devRef .tc main_arg11)) := by
  after_results_simp <;> first | rfl | (unfold kh7_v304; rfl)

/-- Buffer main_v306 as a function of main_arg10: the operations that build it, composed. -/
def kh7_v306 (arg10 : FVec Ideal S3x6x150 .f32) : FVec Ideal S150 .f32 :=
  (shapeCast S150 (((extractStridedSlice S1x1x150 ![1, 2, 0] · slices_S3x6x150_S1x1x150_1_2_0) : FVec Ideal S3x6x150 .f32 → FVec Ideal S1x1x150 .f32) arg10) shapeCasts_S1x1x150_S150)

set_option maxHeartbeats 40000000 in
/-- After the list, from any contents, main_v306 holds that function of the contents. -/
theorem kh7_v306_eq (W : Valuation τ sig (Elt Ideal)) :
    StableHlo.after (hostOps7 (F := Ideal)) W (Proc.devRef .tc main_v306)
      = kh7_v306 (W (Proc.devRef .tc main_arg10)) := by
  after_results_simp <;> first | rfl | (unfold kh7_v306; rfl)

/-- Buffer main_v308 as a function of main_arg10: the operations that build it, composed. -/
def kh7_v308 (arg10 : FVec Ideal S3x6x150 .f32) : FVec Ideal S150 .f32 :=
  (shapeCast S150 (((extractStridedSlice S1x1x150 ![1, 5, 0] · slices_S3x6x150_S1x1x150_1_5_0) : FVec Ideal S3x6x150 .f32 → FVec Ideal S1x1x150 .f32) arg10) shapeCasts_S1x1x150_S150)

set_option maxHeartbeats 40000000 in
/-- After the list, from any contents, main_v308 holds that function of the contents. -/
theorem kh7_v308_eq (W : Valuation τ sig (Elt Ideal)) :
    StableHlo.after (hostOps7 (F := Ideal)) W (Proc.devRef .tc main_v308)
      = kh7_v308 (W (Proc.devRef .tc main_arg10)) := by
  after_results_simp <;> first | rfl | (unfold kh7_v308; rfl)

/-- Buffer main_v314 as a function of main_arg10: the operations that build it, composed. -/
def kh7_v314 (arg10 : FVec Ideal S3x6x150 .f32) : FVec Ideal S1x150 .f32 :=
  (shapeCast S1x150 ((addf (F := Ideal) : FVec Ideal S150 .f32 → FVec Ideal S150 .f32 → FVec Ideal S150 .f32) (shapeCast S150 (((extractStridedSlice S1x1x150 ![1, 2, 0] · slices_S3x6x150_S1x1x150_1_2_0) : FVec Ideal S3x6x150 .f32 → FVec Ideal S1x1x150 .f32) arg10) shapeCasts_S1x1x150_S150) (shapeCast S150 (((extractStridedSlice S1x1x150 ![1, 5, 0] · slices_S3x6x150_S1x1x150_1_5_0) : FVec Ideal S3x6x150 .f32 → FVec Ideal S1x1x150 .f32) arg10) shapeCasts_S1x1x150_S150)) shapeCasts_S150_S1x150)

set_option maxHeartbeats 40000000 in
/-- After the list, from any contents, main_v314 holds that function of the contents. -/
theorem kh7_v314_eq (W : Valuation τ sig (Elt Ideal)) :
    StableHlo.after (hostOps7 (F := Ideal)) W (Proc.devRef .tc main_v314)
      = kh7_v314 (W (Proc.devRef .tc main_arg10)) := by
  after_results_simp <;> first | rfl | (unfold kh7_v314; rfl)

/-- main_v304's function is the operations above main_v301, main_v303, applied to those buffers' functions. -/
theorem kh7_v304_parts (arg11 : FVec Ideal S3x6x150x150 .f32) :
    kh7_v304 arg11
      = ((addf (F := Ideal) : FVec Ideal S150x150 .f32 → FVec Ideal S150x150 .f32 → FVec Ideal S150x150 .f32) (kh7_v301 arg11) (kh7_v303 arg11)) := rfl

/-- main_v314's function is the operations above main_v306, main_v308, applied to those buffers' functions. -/
theorem kh7_v314_parts (arg10 : FVec Ideal S3x6x150 .f32) :
    kh7_v314 arg10
      = (shapeCast S1x150 ((addf (F := Ideal) : FVec Ideal S150 .f32 → FVec Ideal S150 .f32 → FVec Ideal S150 .f32) (kh7_v306 arg10) (kh7_v308 arg10)) shapeCasts_S150_S1x150) := rfl

end Cert.KernelIdeal.Val

end
-- ==== Proof.KHost8.lean ====
/-
  What single buffers hold after a straight line of host operations, as functions of the buffers the line
  reads: each definition is the operations' own functions composed (their text as the list prints it, read at the
  extended reals), each lemma says the fold of the list at that buffer is that function of the starting contents.
-/
import proofs.«141689_j63058709840619_1_alg».proof.Proof.Gen.KernelIdeal.Launch
import proofs.«141689_j63058709840619_1_alg».proof.Proof.Spec
import Idealize.ShloMosaic.Lib.StableHlo.Run

set_option maxRecDepth 8192

noncomputable section

namespace Cert.KernelIdeal.Val

open Idealize.ShloMosaic Idealize.ShloMosaic.TcCoe Cert.KernelIdeal Cert.KernelIdeal.Gen Cert.Spec

/-! ## hostOps8: 73 operations -/

/-- Buffer main_v338 as a function of main_v67, main_arg24: the operations that build it, composed. -/
def kh8_v338 (v67 : FVec Ideal S50000x150 .f32) (arg24 : IVec S2x500000 32) : FVec Ideal S20000x150 .f32 :=
  ((Host.divf (F := Ideal) : FVec Ideal S20000x150 .f32 → FVec Ideal S20000x150 .f32 → FVec Ideal S20000x150 .f32) (((fun x i u => Host.scatterAdd (F := Ideal) scatter_S20000x150_S500000x1_S500000x150_1_0_0_1 x i u) : FVec Ideal S20000x150 .f32 → IVec S500000x1 32 → FVec Ideal S500000x150 .f32 → FVec Ideal S20000x150 .f32) ((broadcastInDim S20000x150 ![] bcast_S_S20000x150 : FVec Ideal S_ .f32 → FVec Ideal S20000x150 .f32) (constant (F := Ideal) S_ .f32 0x00000000#32)) ((broadcastInDim S500000x1 ![0] bcast_S500000_S500000x1_0 : IVec S500000 32 → IVec S500000x1 32) (shapeCast S500000 (((extractStridedSlice S1x500000 ![1, 0] · slices_S2x500000_S1x500000_1_0) : IVec S2x500000 32 → IVec S1x500000 32) arg24) shapeCasts_S1x500000_S500000)) (((fun x i => Host.gather gather_S50000x150_S500000x1_S500000x150_1_0_n_n_0_1_1150 x i) : FVec Ideal S50000x150 .f32 → IVec S500000x1 32 → FVec Ideal S500000x150 .f32) v67 ((broadcastInDim S500000x1 ![0] bcast_S500000_S500000x1_0 : IVec S500000 32 → IVec S500000x1 32) ((select : IVec S500000 1 → IVec S500000 32 → IVec S500000 32 → IVec S500000 32) ((cmpi .slt : IVec S500000 32 → IVec S500000 32 → IVec S500000 1) (shapeCast S500000 (((extractStridedSlice S1x500000 ![0, 0] · slices_S2x500000_S1x500000_0_0) : IVec S2x500000 32 → IVec S1x500000 32) arg24) shapeCasts_S1x500000_S500000) ((broadcastInDim S500000 ![] bcast_S_S500000 : IVec S_ 32 → IVec S500000 32) (constantI S_ 32 0#32))) ((addi : IVec S500000 32 → IVec S500000 32 → IVec S500000 32) (shapeCast S500000 (((extractStridedSlice S1x500000 ![0, 0] · slices_S2x500000_S1x500000_0_0) : IVec S2x500000 32 → IVec S1x500000 32) arg24) shapeCasts_S1x500000_S500000) ((broadcastInDim S500000 ![] bcast_S_S500000 : IVec S_ 32 → IVec S500000 32) (constantI S_ 32 50000#32))) (shapeCast S500000 (((extractStridedSlice S1x500000 ![0, 0] · slices_S2x500000_S1x500000_0_0) : IVec S2x500000 32 → IVec S1x500000 32) arg24) shapeCasts_S1x500000_S500000))))) ((broadcastInDim S20000x150 ![0, 1] bcast_S20000x1_S20000x150_0_1 : FVec Ideal S20000x1 .f32 → FVec Ideal S20000x150 .f32) ((broadcastInDim S20000x1 ![0] bcast_S20000_S20000x1_0 : FVec Ideal S20000 .f32 → FVec Ideal S20000x1 .f32) ((maximumf (F := Ideal) : FVec Ideal S20000 .f32 → FVec Ideal S20000 .f32 → FVec Ideal S20000 .f32) (((fun x i u => Host.scatterAdd (F := Ideal) scatter_S20000_S500000x1_S500000_n_0_0_1 x i u) : FVec Ideal S20000 .f32 → IVec S500000x1 32 → FVec Ideal S500000 .f32 → FVec Ideal S20000 .f32) ((broadcastInDim S20000 ![] bcast_S_S20000 : FVec Ideal S_ .f32 → FVec Ideal S20000 .f32) (constant (F := Ideal) S_ .f32 0x00000000#32)) ((broadcastInDim S500000x1 ![0] bcast_S500000_S500000x1_0 : IVec S500000 32 → IVec S500000x1 32) (shapeCast S500000 (((extractStridedSlice S1x500000 ![1, 0] · slices_S2x500000_S1x500000_1_0) : IVec S2x500000 32 → IVec S1x500000 32) arg24) shapeCasts_S1x500000_S500000)) ((broadcastInDim S500000 ![] bcast_S_S500000 : FVec Ideal S_ .f32 → FVec Ideal S500000 .f32) (constant (F := Ideal) S_ .f32 0x3F800000#32))) ((broadcastInDim S20000 ![] bcast_S_S20000 : FVec Ideal S_ .f32 → FVec Ideal S20000 .f32) (constant (F := Ideal) S_ .f32 0x3F800000#32))))))

set_option maxHeartbeats 40000000 in
/-- After the list, from any contents, main_v338 holds that function of the contents. -/
theorem kh8_v338_eq (W : Valuation τ sig (Elt Ideal)) :
    StableHlo.after (hostOps8 (F := Ideal)) W (Proc.devRef .tc main_v338)
      = kh8_v338 (W (Proc.devRef .tc main_v67)) (W (Proc.devRef .tc main_arg24)) := by
  after_results_simp <;> first | rfl | (unfold kh8_v338; rfl)

/-- Buffer main_v361 as a function of main_v129, main_arg26: the operations that build it, composed. -/
def kh8_v361 (v129 : FVec Ideal S2000x150 .f32) (arg26 : IVec S2x200000 32) : FVec Ideal S20000x150 .f32 :=
  ((Host.divf (F := Ideal) : FVec Ideal S20000x150 .f32 → FVec Ideal S20000x150 .f32 → FVec Ideal S20000x150 .f32) (((fun x i u => Host.scatterAdd (F := Ideal) scatter_S20000x150_S200000x1_S200000x150_1_0_0_1 x i u) : FVec Ideal S20000x150 .f32 → IVec S200000x1 32 → FVec Ideal S200000x150 .f32 → FVec Ideal S20000x150 .f32) ((broadcastInDim S20000x150 ![] bcast_S_S20000x150 : FVec Ideal S_ .f32 → FVec Ideal S20000x150 .f32) (constant (F := Ideal) S_ .f32 0x00000000#32)) ((broadcastInDim S200000x1 ![0] bcast_S200000_S200000x1_0 : IVec S200000 32 → IVec S200000x1 32) (shapeCast S200000 (((extractStridedSlice S1x200000 ![1, 0] · slices_S2x200000_S1x200000_1_0) : IVec S2x200000 32 → IVec S1x200000 32) arg26) shapeCasts_S1x200000_S200000)) (((fun x i => Host.gather gather_S2000x150_S200000x1_S200000x150_1_0_n_n_0_1_1150 x i) : FVec Ideal S2000x150 .f32 → IVec S200000x1 32 → FVec Ideal S200000x150 .f32) v129 ((broadcastInDim S200000x1 ![0] bcast_S200000_S200000x1_0 : IVec S200000 32 → IVec S200000x1 32) ((select : IVec S200000 1 → IVec S200000 32 → IVec S200000 32 → IVec S200000 32) ((cmpi .slt : IVec S200000 32 → IVec S200000 32 → IVec S200000 1) (shapeCast S200000 (((extractStridedSlice S1x200000 ![0, 0] · slices_S2x200000_S1x200000_0_0) : IVec S2x200000 32 → IVec S1x200000 32) arg26) shapeCasts_S1x200000_S200000) ((broadcastInDim S200000 ![] bcast_S_S200000 : IVec S_ 32 → IVec S200000 32) (constantI S_ 32 0#32))) ((addi : IVec S200000 32 → IVec S200000 32 → IVec S200000 32) (shapeCast S200000 (((extractStridedSlice S1x200000 ![0, 0] · slices_S2x200000_S1x200000_0_0) : IVec S2x200000 32 → IVec S1x200000 32) arg26) shapeCasts_S1x200000_S200000) ((broadcastInDim S200000 ![] bcast_S_S200000 : IVec S_ 32 → IVec S200000 32) (constantI S_ 32 2000#32))) (shapeCast S200000 (((extractStridedSlice S1x200000 ![0, 0] · slices_S2x200000_S1x200000_0_0) : IVec S2x200000 32 → IVec S1x200000 32) arg26) shapeCasts_S1x200000_S200000))))) ((broadcastInDim S20000x150 ![0, 1] bcast_S20000x1_S20000x150_0_1 : FVec Ideal S20000x1 .f32 → FVec Ideal S20000x150 .f32) ((broadcastInDim S20000x1 ![0] bcast_S20000_S20000x1_0 : FVec Ideal S20000 .f32 → FVec Ideal S20000x1 .f32) ((maximumf (F := Ideal) : FVec Ideal S20000 .f32 → FVec Ideal S20000 .f32 → FVec Ideal S20000 .f32) (((fun x i u => Host.scatterAdd (F := Ideal) scatter_S20000_S200000x1_S200000_n_0_0_1 x i u) : FVec Ideal S20000 .f32 → IVec S200000x1 32 → FVec Ideal S200000 .f32 → FVec Ideal S20000 .f32) ((broadcastInDim S20000 ![] bcast_S_S20000 : FVec Ideal S_ .f32 → FVec Ideal S20000 .f32) (constant (F := Ideal) S_ .f32 0x00000000#32)) ((broadcastInDim S200000x1 ![0] bcast_S200000_S200000x1_0 : IVec S200000 32 → IVec S200000x1 32) (shapeCast S200000 (((extractStridedSlice S1x200000 ![1, 0] · slices_S2x200000_S1x200000_1_0) : IVec S2x200000 32 → IVec S1x200000 32) arg26) shapeCasts_S1x200000_S200000)) ((broadcastInDim S200000 ![] bcast_S_S200000 : FVec Ideal S_ .f32 → FVec Ideal S200000 .f32) (constant (F := Ideal) S_ .f32 0x3F800000#32))) ((broadcastInDim S20000 ![] bcast_S_S20000 : FVec Ideal S_ .f32 → FVec Ideal S20000 .f32) (constant (F := Ideal) S_ .f32 0x3F800000#32))))))

set_option maxHeartbeats 40000000 in
/-- After the list, from any contents, main_v361 holds that function of the contents. -/
theorem kh8_v361_eq (W : Valuation τ sig (Elt Ideal)) :
    StableHlo.after (hostOps8 (F := Ideal)) W (Proc.devRef .tc main_v361)
      = kh8_v361 (W (Proc.devRef .tc main_v129)) (W (Proc.devRef .tc main_arg26)) := by
  after_results_simp <;> first | rfl | (unfold kh8_v361; rfl)

/-- Buffer main_v373 as a function of main_arg9: the operations that build it, composed. -/
def kh8_v373 (arg9 : FVec Ideal S3x6x150x150 .f32) : FVec Ideal S150x150 .f32 :=
  (shapeCast S150x150 (((extractStridedSlice S1x1x150x150 ![1, 0, 0, 0] · slices_S3x6x150x150_S1x1x150x150_1_0_0_0) : FVec Ideal S3x6x150x150 .f32 → FVec Ideal S1x1x150x150 .f32) arg9) shapeCasts_S1x1x150x150_S150x150)

set_option maxHeartbeats 40000000 in
/-- After the list, from any contents, main_v373 holds that function of the contents. -/
theorem kh8_v373_eq (W : Valuation τ sig (Elt Ideal)) :
    StableHlo.after (hostOps8 (F := Ideal)) W (Proc.devRef .tc main_v373)
      = kh8_v373 (W (Proc.devRef .tc main_arg9)) := by
  after_results_simp <;> first | rfl | (unfold kh8_v373; rfl)

/-- Buffer main_v375 as a function of main_arg9: the operations that build it, composed. -/
def kh8_v375 (arg9 : FVec Ideal S3x6x150x150 .f32) : FVec Ideal S150x150 .f32 :=
  (shapeCast S150x150 (((extractStridedSlice S1x1x150x150 ![1, 4, 0, 0] · slices_S3x6x150x150_S1x1x150x150_1_4_0_0) : FVec Ideal S3x6x150x150 .f32 → FVec Ideal S1x1x150x150 .f32) arg9) shapeCasts_S1x1x150x150_S150x150)

set_option maxHeartbeats 40000000 in
/-- After the list, from any contents, main_v375 holds that function of the contents. -/
theorem kh8_v375_eq (W : Valuation τ sig (Elt Ideal)) :
    StableHlo.after (hostOps8 (F := Ideal)) W (Proc.devRef .tc main_v375)
      = kh8_v375 (W (Proc.devRef .tc main_arg9)) := by
  after_results_simp <;> first | rfl | (unfold kh8_v375; rfl)

/-- Buffer main_v363 as a function of main_arg11: the operations that build it, composed. -/
def kh8_v363 (arg11 : FVec Ideal S3x6x150x150 .f32) : FVec Ideal S150x150 .f32 :=
  (shapeCast S150x150 (((extractStridedSlice S1x1x150x150 ![1, 0, 0, 0] · slices_S3x6x150x150_S1x1x150x150_1_0_0_0) : FVec Ideal S3x6x150x150 .f32 → FVec Ideal S1x1x150x150 .f32) arg11) shapeCasts_S1x1x150x150_S150x150)

set_option maxHeartbeats 40000000 in
/-- After the list, from any contents, main_v363 holds that function of the contents. -/
theorem kh8_v363_eq (W : Valuation τ sig (Elt Ideal)) :
    StableHlo.after (hostOps8 (F := Ideal)) W (Proc.devRef .tc main_v363)
      = kh8_v363 (W (Proc.devRef .tc main_arg11)) := by
  after_results_simp <;> first | rfl | (unfold kh8_v363; rfl)

/-- Buffer main_v365 as a function of main_arg11: the operations that build it, composed. -/
def kh8_v365 (arg11 : FVec Ideal S3x6x150x150 .f32) : FVec Ideal S150x150 .f32 :=
  (shapeCast S150x150 (((extractStridedSlice S1x1x150x150 ![1, 4, 0, 0] · slices_S3x6x150x150_S1x1x150x150_1_4_0_0) : FVec Ideal S3x6x150x150 .f32 → FVec Ideal S1x1x150x150 .f32) arg11) shapeCasts_S1x1x150x150_S150x150)

set_option maxHeartbeats 40000000 in
/-- After the list, from any contents, main_v365 holds that function of the contents. -/
theorem kh8_v365_eq (W : Valuation τ sig (Elt Ideal)) :
    StableHlo.after (hostOps8 (F := Ideal)) W (Proc.devRef .tc main_v365)
      = kh8_v365 (W (Proc.devRef .tc main_arg11)) := by
  after_results_simp <;> first | rfl | (unfold kh8_v365; rfl)

/-- Buffer main_v366 as a function of main_arg11: the operations that build it, composed. -/
def kh8_v366 (arg11 : FVec Ideal S3x6x150x150 .f32) : FVec Ideal S150x150 .f32 :=
  ((addf (F := Ideal) : FVec Ideal S150x150 .f32 → FVec Ideal S150x150 .f32 → FVec Ideal S150x150 .f32) (shapeCast S150x150 (((extractStridedSlice S1x1x150x150 ![1, 0, 0, 0] · slices_S3x6x150x150_S1x1x150x150_1_0_0_0) : FVec Ideal S3x6x150x150 .f32 → FVec Ideal S1x1x150x150 .f32) arg11) shapeCasts_S1x1x150x150_S150x150) (shapeCast S150x150 (((extractStridedSlice S1x1x150x150 ![1, 4, 0, 0] · slices_S3x6x150x150_S1x1x150x150_1_4_0_0) : FVec Ideal S3x6x150x150 .f32 → FVec Ideal S1x1x150x150 .f32) arg11) shapeCasts_S1x1x150x150_S150x150))

set_option maxHeartbeats 40000000 in
/-- After the list, from any contents, main_v366 holds that function of the contents. -/
theorem kh8_v366_eq (W : Valuation τ sig (Elt Ideal)) :
    StableHlo.after (hostOps8 (F := Ideal)) W (Proc.devRef .tc main_v366)
      = kh8_v366 (W (Proc.devRef .tc main_arg11)) := by
  after_results_simp <;> first | rfl | (unfold kh8_v366; rfl)

/-- Buffer main_v368 as a function of main_arg10: the operations that build it, composed. -/
def kh8_v368 (arg10 : FVec Ideal S3x6x150 .f32) : FVec Ideal S150 .f32 :=
  (shapeCast S150 (((extractStridedSlice S1x1x150 ![1, 0, 0] · slices_S3x6x150_S1x1x150_1_0_0) : FVec Ideal S3x6x150 .f32 → FVec Ideal S1x1x150 .f32) arg10) shapeCasts_S1x1x150_S150)

set_option maxHeartbeats 40000000 in
/-- After the list, from any contents, main_v368 holds that function of the contents. -/
theorem kh8_v368_eq (W : Valuation τ sig (Elt Ideal)) :
    StableHlo.after (hostOps8 (F := Ideal)) W (Proc.devRef .tc main_v368)
      = kh8_v368 (W (Proc.devRef .tc main_arg10)) := by
  after_results_simp <;> first | rfl | (unfold kh8_v368; rfl)

/-- Buffer main_v370 as a function of main_arg10: the operations that build it, composed. -/
def kh8_v370 (arg10 : FVec Ideal S3x6x150 .f32) : FVec Ideal S150 .f32 :=
  (shapeCast S150 (((extractStridedSlice S1x1x150 ![1, 4, 0] · slices_S3x6x150_S1x1x150_1_4_0) : FVec Ideal S3x6x150 .f32 → FVec Ideal S1x1x150 .f32) arg10) shapeCasts_S1x1x150_S150)

set_option maxHeartbeats 40000000 in
/-- After the list, from any contents, main_v370 holds that function of the contents. -/
theorem kh8_v370_eq (W : Valuation τ sig (Elt Ideal)) :
    StableHlo.after (hostOps8 (F := Ideal)) W (Proc.devRef .tc main_v370)
      = kh8_v370 (W (Proc.devRef .tc main_arg10)) := by
  after_results_simp <;> first | rfl | (unfold kh8_v370; rfl)

/-- Buffer main_v376 as a function of main_arg10: the operations that build it, composed. -/
def kh8_v376 (arg10 : FVec Ideal S3x6x150 .f32) : FVec Ideal S1x150 .f32 :=
  (shapeCast S1x150 ((addf (F := Ideal) : FVec Ideal S150 .f32 → FVec Ideal S150 .f32 → FVec Ideal S150 .f32) (shapeCast S150 (((extractStridedSlice S1x1x150 ![1, 0, 0] · slices_S3x6x150_S1x1x150_1_0_0) : FVec Ideal S3x6x150 .f32 → FVec Ideal S1x1x150 .f32) arg10) shapeCasts_S1x1x150_S150) (shapeCast S150 (((extractStridedSlice S1x1x150 ![1, 4, 0] · slices_S3x6x150_S1x1x150_1_4_0) : FVec Ideal S3x6x150 .f32 → FVec Ideal S1x1x150 .f32) arg10) shapeCasts_S1x1x150_S150)) shapeCasts_S150_S1x150)

set_option maxHeartbeats 40000000 in
/-- After the list, from any contents, main_v376 holds that function of the contents. -/
theorem kh8_v376_eq (W : Valuation τ sig (Elt Ideal)) :
    StableHlo.after (hostOps8 (F := Ideal)) W (Proc.devRef .tc main_v376)
      = kh8_v376 (W (Proc.devRef .tc main_arg10)) := by
  after_results_simp <;> first | rfl | (unfold kh8_v376; rfl)

/-- main_v366's function is the operations above main_v363, main_v365, applied to those buffers' functions. -/
theorem kh8_v366_parts (arg11 : FVec Ideal S3x6x150x150 .f32) :
    kh8_v366 arg11
      = ((addf (F := Ideal) : FVec Ideal S150x150 .f32 → FVec Ideal S150x150 .f32 → FVec Ideal S150x150 .f32) (kh8_v363 arg11) (kh8_v365 arg11)) := rfl

/-- main_v376's function is the operations above main_v368, main_v370, applied to those buffers' functions. -/
theorem kh8_v376_parts (arg10 : FVec Ideal S3x6x150 .f32) :
    kh8_v376 arg10
      = (shapeCast S1x150 ((addf (F := Ideal) : FVec Ideal S150 .f32 → FVec Ideal S150 .f32 → FVec Ideal S150 .f32) (kh8_v368 arg10) (kh8_v370 arg10)) shapeCasts_S150_S1x150) := rfl

end Cert.KernelIdeal.Val

end
-- ==== Proof.KHost9.lean ====
/-
  What single buffers hold after a straight line of host operations, as functions of the buffers the line
  reads: each definition is the operations' own functions composed (their text as the list prints it, read at the
  extended reals), each lemma says the fold of the list at that buffer is that function of the starting contents.
-/
import proofs.«141689_j63058709840619_1_alg».proof.Proof.Gen.KernelIdeal.Launch
import proofs.«141689_j63058709840619_1_alg».proof.Proof.Spec
import Idealize.ShloMosaic.Lib.StableHlo.Run

set_option maxRecDepth 8192

noncomputable section

namespace Cert.KernelIdeal.Val

open Idealize.ShloMosaic Idealize.ShloMosaic.TcCoe Cert.KernelIdeal Cert.KernelIdeal.Gen Cert.Spec

/-! ## hostOps9: 73 operations -/

/-- Buffer main_v400 as a function of main_v253, main_arg24: the operations that build it, composed. -/
def kh9_v400 (v253 : FVec Ideal S50000x150 .f32) (arg24 : IVec S2x500000 32) : FVec Ideal S20000x150 .f32 :=
  ((Host.divf (F := Ideal) : FVec Ideal S20000x150 .f32 → FVec Ideal S20000x150 .f32 → FVec Ideal S20000x150 .f32) (((fun x i u => Host.scatterAdd (F := Ideal) scatter_S20000x150_S500000x1_S500000x150_1_0_0_1 x i u) : FVec Ideal S20000x150 .f32 → IVec S500000x1 32 → FVec Ideal S500000x150 .f32 → FVec Ideal S20000x150 .f32) ((broadcastInDim S20000x150 ![] bcast_S_S20000x150 : FVec Ideal S_ .f32 → FVec Ideal S20000x150 .f32) (constant (F := Ideal) S_ .f32 0x00000000#32)) ((broadcastInDim S500000x1 ![0] bcast_S500000_S500000x1_0 : IVec S500000 32 → IVec S500000x1 32) (shapeCast S500000 (((extractStridedSlice S1x500000 ![1, 0] · slices_S2x500000_S1x500000_1_0) : IVec S2x500000 32 → IVec S1x500000 32) arg24) shapeCasts_S1x500000_S500000)) (((fun x i => Host.gather gather_S50000x150_S500000x1_S500000x150_1_0_n_n_0_1_1150 x i) : FVec Ideal S50000x150 .f32 → IVec S500000x1 32 → FVec Ideal S500000x150 .f32) v253 ((broadcastInDim S500000x1 ![0] bcast_S500000_S500000x1_0 : IVec S500000 32 → IVec S500000x1 32) ((select : IVec S500000 1 → IVec S500000 32 → IVec S500000 32 → IVec S500000 32) ((cmpi .slt : IVec S500000 32 → IVec S500000 32 → IVec S500000 1) (shapeCast S500000 (((extractStridedSlice S1x500000 ![0, 0] · slices_S2x500000_S1x500000_0_0) : IVec S2x500000 32 → IVec S1x500000 32) arg24) shapeCasts_S1x500000_S500000) ((broadcastInDim S500000 ![] bcast_S_S500000 : IVec S_ 32 → IVec S500000 32) (constantI S_ 32 0#32))) ((addi : IVec S500000 32 → IVec S500000 32 → IVec S500000 32) (shapeCast S500000 (((extractStridedSlice S1x500000 ![0, 0] · slices_S2x500000_S1x500000_0_0) : IVec S2x500000 32 → IVec S1x500000 32) arg24) shapeCasts_S1x500000_S500000) ((broadcastInDim S500000 ![] bcast_S_S500000 : IVec S_ 32 → IVec S500000 32) (constantI S_ 32 50000#32))) (shapeCast S500000 (((extractStridedSlice S1x500000 ![0, 0] · slices_S2x500000_S1x500000_0_0) : IVec S2x500000 32 → IVec S1x500000 32) arg24) shapeCasts_S1x500000_S500000))))) ((broadcastInDim S20000x150 ![0, 1] bcast_S20000x1_S20000x150_0_1 : FVec Ideal S20000x1 .f32 → FVec Ideal S20000x150 .f32) ((broadcastInDim S20000x1 ![0] bcast_S20000_S20000x1_0 : FVec Ideal S20000 .f32 → FVec Ideal S20000x1 .f32) ((maximumf (F := Ideal) : FVec Ideal S20000 .f32 → FVec Ideal S20000 .f32 → FVec Ideal S20000 .f32) (((fun x i u => Host.scatterAdd (F := Ideal) scatter_S20000_S500000x1_S500000_n_0_0_1 x i u) : FVec Ideal S20000 .f32 → IVec S500000x1 32 → FVec Ideal S500000 .f32 → FVec Ideal S20000 .f32) ((broadcastInDim S20000 ![] bcast_S_S20000 : FVec Ideal S_ .f32 → FVec Ideal S20000 .f32) (constant (F := Ideal) S_ .f32 0x00000000#32)) ((broadcastInDim S500000x1 ![0] bcast_S500000_S500000x1_0 : IVec S500000 32 → IVec S500000x1 32) (shapeCast S500000 (((extractStridedSlice S1x500000 ![1, 0] · slices_S2x500000_S1x500000_1_0) : IVec S2x500000 32 → IVec S1x500000 32) arg24) shapeCasts_S1x500000_S500000)) ((broadcastInDim S500000 ![] bcast_S_S500000 : FVec Ideal S_ .f32 → FVec Ideal S500000 .f32) (constant (F := Ideal) S_ .f32 0x3F800000#32))) ((broadcastInDim S20000 ![] bcast_S_S20000 : FVec Ideal S_ .f32 → FVec Ideal S20000 .f32) (constant (F := Ideal) S_ .f32 0x3F800000#32))))))

set_option maxHeartbeats 40000000 in
/-- After the list, from any contents, main_v400 holds that function of the contents. -/
theorem kh9_v400_eq (W : Valuation τ sig (Elt Ideal)) :
    StableHlo.after (hostOps9 (F := Ideal)) W (Proc.devRef .tc main_v400)
      = kh9_v400 (W (Proc.devRef .tc main_v253)) (W (Proc.devRef .tc main_arg24)) := by
  after_results_simp <;> first | rfl | (unfold kh9_v400; rfl)

/-- Buffer main_v423 as a function of main_v315, main_arg26: the operations that build it, composed. -/
def kh9_v423 (v315 : FVec Ideal S2000x150 .f32) (arg26 : IVec S2x200000 32) : FVec Ideal S20000x150 .f32 :=
  ((Host.divf (F := Ideal) : FVec Ideal S20000x150 .f32 → FVec Ideal S20000x150 .f32 → FVec Ideal S20000x150 .f32) (((fun x i u => Host.scatterAdd (F := Ideal) scatter_S20000x150_S200000x1_S200000x150_1_0_0_1 x i u) : FVec Ideal S20000x150 .f32 → IVec S200000x1 32 → FVec Ideal S200000x150 .f32 → FVec Ideal S20000x150 .f32) ((broadcastInDim S20000x150 ![] bcast_S_S20000x150 : FVec Ideal S_ .f32 → FVec Ideal S20000x150 .f32) (constant (F := Ideal) S_ .f32 0x00000000#32)) ((broadcastInDim S200000x1 ![0] bcast_S200000_S200000x1_0 : IVec S200000 32 → IVec S200000x1 32) (shapeCast S200000 (((extractStridedSlice S1x200000 ![1, 0] · slices_S2x200000_S1x200000_1_0) : IVec S2x200000 32 → IVec S1x200000 32) arg26) shapeCasts_S1x200000_S200000)) (((fun x i => Host.gather gather_S2000x150_S200000x1_S200000x150_1_0_n_n_0_1_1150 x i) : FVec Ideal S2000x150 .f32 → IVec S200000x1 32 → FVec Ideal S200000x150 .f32) v315 ((broadcastInDim S200000x1 ![0] bcast_S200000_S200000x1_0 : IVec S200000 32 → IVec S200000x1 32) ((select : IVec S200000 1 → IVec S200000 32 → IVec S200000 32 → IVec S200000 32) ((cmpi .slt : IVec S200000 32 → IVec S200000 32 → IVec S200000 1) (shapeCast S200000 (((extractStridedSlice S1x200000 ![0, 0] · slices_S2x200000_S1x200000_0_0) : IVec S2x200000 32 → IVec S1x200000 32) arg26) shapeCasts_S1x200000_S200000) ((broadcastInDim S200000 ![] bcast_S_S200000 : IVec S_ 32 → IVec S200000 32) (constantI S_ 32 0#32))) ((addi : IVec S200000 32 → IVec S200000 32 → IVec S200000 32) (shapeCast S200000 (((extractStridedSlice S1x200000 ![0, 0] · slices_S2x200000_S1x200000_0_0) : IVec S2x200000 32 → IVec S1x200000 32) arg26) shapeCasts_S1x200000_S200000) ((broadcastInDim S200000 ![] bcast_S_S200000 : IVec S_ 32 → IVec S200000 32) (constantI S_ 32 2000#32))) (shapeCast S200000 (((extractStridedSlice S1x200000 ![0, 0] · slices_S2x200000_S1x200000_0_0) : IVec S2x200000 32 → IVec S1x200000 32) arg26) shapeCasts_S1x200000_S200000))))) ((broadcastInDim S20000x150 ![0, 1] bcast_S20000x1_S20000x150_0_1 : FVec Ideal S20000x1 .f32 → FVec Ideal S20000x150 .f32) ((broadcastInDim S20000x1 ![0] bcast_S20000_S20000x1_0 : FVec Ideal S20000 .f32 → FVec Ideal S20000x1 .f32) ((maximumf (F := Ideal) : FVec Ideal S20000 .f32 → FVec Ideal S20000 .f32 → FVec Ideal S20000 .f32) (((fun x i u => Host.scatterAdd (F := Ideal) scatter_S20000_S200000x1_S200000_n_0_0_1 x i u) : FVec Ideal S20000 .f32 → IVec S200000x1 32 → FVec Ideal S200000 .f32 → FVec Ideal S20000 .f32) ((broadcastInDim S20000 ![] bcast_S_S20000 : FVec Ideal S_ .f32 → FVec Ideal S20000 .f32) (constant (F := Ideal) S_ .f32 0x00000000#32)) ((broadcastInDim S200000x1 ![0] bcast_S200000_S200000x1_0 : IVec S200000 32 → IVec S200000x1 32) (shapeCast S200000 (((extractStridedSlice S1x200000 ![1, 0] · slices_S2x200000_S1x200000_1_0) : IVec S2x200000 32 → IVec S1x200000 32) arg26) shapeCasts_S1x200000_S200000)) ((broadcastInDim S200000 ![] bcast_S_S200000 : FVec Ideal S_ .f32 → FVec Ideal S200000 .f32) (constant (F := Ideal) S_ .f32 0x3F800000#32))) ((broadcastInDim S20000 ![] bcast_S_S20000 : FVec Ideal S_ .f32 → FVec Ideal S20000 .f32) (constant (F := Ideal) S_ .f32 0x3F800000#32))))))

set_option maxHeartbeats 40000000 in
/-- After the list, from any contents, main_v423 holds that function of the contents. -/
theorem kh9_v423_eq (W : Valuation τ sig (Elt Ideal)) :
    StableHlo.after (hostOps9 (F := Ideal)) W (Proc.devRef .tc main_v423)
      = kh9_v423 (W (Proc.devRef .tc main_v315)) (W (Proc.devRef .tc main_arg26)) := by
  after_results_simp <;> first | rfl | (unfold kh9_v423; rfl)

/-- Buffer main_v435 as a function of main_arg9: the operations that build it, composed. -/
def kh9_v435 (arg9 : FVec Ideal S3x6x150x150 .f32) : FVec Ideal S150x150 .f32 :=
  (shapeCast S150x150 (((extractStridedSlice S1x1x150x150 ![2, 0, 0, 0] · slices_S3x6x150x150_S1x1x150x150_2_0_0_0) : FVec Ideal S3x6x150x150 .f32 → FVec Ideal S1x1x150x150 .f32) arg9) shapeCasts_S1x1x150x150_S150x150)

set_option maxHeartbeats 40000000 in
/-- After the list, from any contents, main_v435 holds that function of the contents. -/
theorem kh9_v435_eq (W : Valuation τ sig (Elt Ideal)) :
    StableHlo.after (hostOps9 (F := Ideal)) W (Proc.devRef .tc main_v435)
      = kh9_v435 (W (Proc.devRef .tc main_arg9)) := by
  after_results_simp <;> first | rfl | (unfold kh9_v435; rfl)

/-- Buffer main_v437 as a function of main_arg9: the operations that build it, composed. -/
def kh9_v437 (arg9 : FVec Ideal S3x6x150x150 .f32) : FVec Ideal S150x150 .f32 :=
  (shapeCast S150x150 (((extractStridedSlice S1x1x150x150 ![2, 4, 0, 0] · slices_S3x6x150x150_S1x1x150x150_2_4_0_0) : FVec Ideal S3x6x150x150 .f32 → FVec Ideal S1x1x150x150 .f32) arg9) shapeCasts_S1x1x150x150_S150x150)

set_option maxHeartbeats 40000000 in
/-- After the list, from any contents, main_v437 holds that function of the contents. -/
theorem kh9_v437_eq (W : Valuation τ sig (Elt Ideal)) :
    StableHlo.after (hostOps9 (F := Ideal)) W (Proc.devRef .tc main_v437)
      = kh9_v437 (W (Proc.devRef .tc main_arg9)) := by
  after_results_simp <;> first | rfl | (unfold kh9_v437; rfl)

/-- Buffer main_v425 as a function of main_arg11: the operations that build it, composed. -/
def kh9_v425 (arg11 : FVec Ideal S3x6x150x150 .f32) : FVec Ideal S150x150 .f32 :=
  (shapeCast S150x150 (((extractStridedSlice S1x1x150x150 ![2, 0, 0, 0] · slices_S3x6x150x150_S1x1x150x150_2_0_0_0) : FVec Ideal S3x6x150x150 .f32 → FVec Ideal S1x1x150x150 .f32) arg11) shapeCasts_S1x1x150x150_S150x150)

set_option maxHeartbeats 40000000 in
/-- After the list, from any contents, main_v425 holds that function of the contents. -/
theorem kh9_v425_eq (W : Valuation τ sig (Elt Ideal)) :
    StableHlo.after (hostOps9 (F := Ideal)) W (Proc.devRef .tc main_v425)
      = kh9_v425 (W (Proc.devRef .tc main_arg11)) := by
  after_results_simp <;> first | rfl | (unfold kh9_v425; rfl)

/-- Buffer main_v427 as a function of main_arg11: the operations that build it, composed. -/
def kh9_v427 (arg11 : FVec Ideal S3x6x150x150 .f32) : FVec Ideal S150x150 .f32 :=
  (shapeCast S150x150 (((extractStridedSlice S1x1x150x150 ![2, 4, 0, 0] · slices_S3x6x150x150_S1x1x150x150_2_4_0_0) : FVec Ideal S3x6x150x150 .f32 → FVec Ideal S1x1x150x150 .f32) arg11) shapeCasts_S1x1x150x150_S150x150)

set_option maxHeartbeats 40000000 in
/-- After the list, from any contents, main_v427 holds that function of the contents. -/
theorem kh9_v427_eq (W : Valuation τ sig (Elt Ideal)) :
    StableHlo.after (hostOps9 (F := Ideal)) W (Proc.devRef .tc main_v427)
      = kh9_v427 (W (Proc.devRef .tc main_arg11)) := by
  after_results_simp <;> first | rfl | (unfold kh9_v427; rfl)

/-- Buffer main_v428 as a function of main_arg11: the operations that build it, composed. -/
def kh9_v428 (arg11 : FVec Ideal S3x6x150x150 .f32) : FVec Ideal S150x150 .f32 :=
  ((addf (F := Ideal) : FVec Ideal S150x150 .f32 → FVec Ideal S150x150 .f32 → FVec Ideal S150x150 .f32) (shapeCast S150x150 (((extractStridedSlice S1x1x150x150 ![2, 0, 0, 0] · slices_S3x6x150x150_S1x1x150x150_2_0_0_0) : FVec Ideal S3x6x150x150 .f32 → FVec Ideal S1x1x150x150 .f32) arg11) shapeCasts_S1x1x150x150_S150x150) (shapeCast S150x150 (((extractStridedSlice S1x1x150x150 ![2, 4, 0, 0] · slices_S3x6x150x150_S1x1x150x150_2_4_0_0) : FVec Ideal S3x6x150x150 .f32 → FVec Ideal S1x1x150x150 .f32) arg11) shapeCasts_S1x1x150x150_S150x150))

set_option maxHeartbeats 40000000 in
/-- After the list, from any contents, main_v428 holds that function of the contents. -/
theorem kh9_v428_eq (W : Valuation τ sig (Elt Ideal)) :
    StableHlo.after (hostOps9 (F := Ideal)) W (Proc.devRef .tc main_v428)
      = kh9_v428 (W (Proc.devRef .tc main_arg11)) := by
  after_results_simp <;> first | rfl | (unfold kh9_v428; rfl)

/-- Buffer main_v430 as a function of main_arg10: the operations that build it, composed. -/
def kh9_v430 (arg10 : FVec Ideal S3x6x150 .f32) : FVec Ideal S150 .f32 :=
  (shapeCast S150 (((extractStridedSlice S1x1x150 ![2, 0, 0] · slices_S3x6x150_S1x1x150_2_0_0) : FVec Ideal S3x6x150 .f32 → FVec Ideal S1x1x150 .f32) arg10) shapeCasts_S1x1x150_S150)

set_option maxHeartbeats 40000000 in
/-- After the list, from any contents, main_v430 holds that function of the contents. -/
theorem kh9_v430_eq (W : Valuation τ sig (Elt Ideal)) :
    StableHlo.after (hostOps9 (F := Ideal)) W (Proc.devRef .tc main_v430)
      = kh9_v430 (W (Proc.devRef .tc main_arg10)) := by
  after_results_simp <;> first | rfl | (unfold kh9_v430; rfl)

/-- Buffer main_v432 as a function of main_arg10: the operations that build it, composed. -/
def kh9_v432 (arg10 : FVec Ideal S3x6x150 .f32) : FVec Ideal S150 .f32 :=
  (shapeCast S150 (((extractStridedSlice S1x1x150 ![2, 4, 0] · slices_S3x6x150_S1x1x150_2_4_0) : FVec Ideal S3x6x150 .f32 → FVec Ideal S1x1x150 .f32) arg10) shapeCasts_S1x1x150_S150)

set_option maxHeartbeats 40000000 in
/-- After the list, from any contents, main_v432 holds that function of the contents. -/
theorem kh9_v432_eq (W : Valuation τ sig (Elt Ideal)) :
    StableHlo.after (hostOps9 (F := Ideal)) W (Proc.devRef .tc main_v432)
      = kh9_v432 (W (Proc.devRef .tc main_arg10)) := by
  after_results_simp <;> first | rfl | (unfold kh9_v432; rfl)

/-- Buffer main_v438 as a function of main_arg10: the operations that build it, composed. -/
def kh9_v438 (arg10 : FVec Ideal S3x6x150 .f32) : FVec Ideal S1x150 .f32 :=
  (shapeCast S1x150 ((addf (F := Ideal) : FVec Ideal S150 .f32 → FVec Ideal S150 .f32 → FVec Ideal S150 .f32) (shapeCast S150 (((extractStridedSlice S1x1x150 ![2, 0, 0] · slices_S3x6x150_S1x1x150_2_0_0) : FVec Ideal S3x6x150 .f32 → FVec Ideal S1x1x150 .f32) arg10) shapeCasts_S1x1x150_S150) (shapeCast S150 (((extractStridedSlice S1x1x150 ![2, 4, 0] · slices_S3x6x150_S1x1x150_2_4_0) : FVec Ideal S3x6x150 .f32 → FVec Ideal S1x1x150 .f32) arg10) shapeCasts_S1x1x150_S150)) shapeCasts_S150_S1x150)

set_option maxHeartbeats 40000000 in
/-- After the list, from any contents, main_v438 holds that function of the contents. -/
theorem kh9_v438_eq (W : Valuation τ sig (Elt Ideal)) :
    StableHlo.after (hostOps9 (F := Ideal)) W (Proc.devRef .tc main_v438)
      = kh9_v438 (W (Proc.devRef .tc main_arg10)) := by
  after_results_simp <;> first | rfl | (unfold kh9_v438; rfl)

/-- main_v428's function is the operations above main_v425, main_v427, applied to those buffers' functions. -/
theorem kh9_v428_parts (arg11 : FVec Ideal S3x6x150x150 .f32) :
    kh9_v428 arg11
      = ((addf (F := Ideal) : FVec Ideal S150x150 .f32 → FVec Ideal S150x150 .f32 → FVec Ideal S150x150 .f32) (kh9_v425 arg11) (kh9_v427 arg11)) := rfl

/-- main_v438's function is the operations above main_v430, main_v432, applied to those buffers' functions. -/
theorem kh9_v438_parts (arg10 : FVec Ideal S3x6x150 .f32) :
    kh9_v438 arg10
      = (shapeCast S1x150 ((addf (F := Ideal) : FVec Ideal S150 .f32 → FVec Ideal S150 .f32 → FVec Ideal S150 .f32) (kh9_v430 arg10) (kh9_v432 arg10)) shapeCasts_S150_S1x150) := rfl

end Cert.KernelIdeal.Val

end
-- ==== Proof.KHost13.lean ====
/-
  What single buffers hold after a straight line of host operations, as functions of the buffers the line
  reads: each definition is the operations' own functions composed (their text as the list prints it, read at the
  extended reals), each lemma says the fold of the list at that buffer is that function of the starting contents.
-/
import proofs.«141689_j63058709840619_1_alg».proof.Proof.Gen.KernelIdeal.Launch
import proofs.«141689_j63058709840619_1_alg».proof.Proof.Spec
import Idealize.ShloMosaic.Lib.StableHlo.Run

set_option maxRecDepth 8192

noncomputable section

namespace Cert.KernelIdeal.Val

open Idealize.ShloMosaic Idealize.ShloMosaic.TcCoe Cert.KernelIdeal Cert.KernelIdeal.Gen Cert.Spec

/-! ## hostOps13: 24 operations -/

/-- Buffer main_v464 as a function of main_v445, main_v439, main_arg27: the operations that build it, composed. -/
def kh13_v464 (v445 : FVec Ideal S50000x150 .f32) (v439 : FVec Ideal S20000x150 .f32) (arg27 : IVec S2x500000 32) : FVec Ideal S500000x300 .f32 :=
  (((fun a b => concatenate S500000x300 1 [⟨S500000x150, a⟩, ⟨S500000x150, b⟩] concatenates_S500000x150_S500000x150_S500000x300_d1) : FVec Ideal S500000x150 .f32 → FVec Ideal S500000x150 .f32 → FVec Ideal S500000x300 .f32) (((fun x i => Host.gather gather_S50000x150_S500000x1_S500000x150_1_0_n_n_0_1_1150 x i) : FVec Ideal S50000x150 .f32 → IVec S500000x1 32 → FVec Ideal S500000x150 .f32) v445 ((broadcastInDim S500000x1 ![0] bcast_S500000_S500000x1_0 : IVec S500000 32 → IVec S500000x1 32) ((select : IVec S500000 1 → IVec S500000 32 → IVec S500000 32 → IVec S500000 32) ((cmpi .slt : IVec S500000 32 → IVec S500000 32 → IVec S500000 1) (shapeCast S500000 (((extractStridedSlice S1x500000 ![0, 0] · slices_S2x500000_S1x500000_0_0) : IVec S2x500000 32 → IVec S1x500000 32) arg27) shapeCasts_S1x500000_S500000) ((broadcastInDim S500000 ![] bcast_S_S500000 : IVec S_ 32 → IVec S500000 32) (constantI S_ 32 0#32))) ((addi : IVec S500000 32 → IVec S500000 32 → IVec S500000 32) (shapeCast S500000 (((extractStridedSlice S1x500000 ![0, 0] · slices_S2x500000_S1x500000_0_0) : IVec S2x500000 32 → IVec S1x500000 32) arg27) shapeCasts_S1x500000_S500000) ((broadcastInDim S500000 ![] bcast_S_S500000 : IVec S_ 32 → IVec S500000 32) (constantI S_ 32 50000#32))) (shapeCast S500000 (((extractStridedSlice S1x500000 ![0, 0] · slices_S2x500000_S1x500000_0_0) : IVec S2x500000 32 → IVec S1x500000 32) arg27) shapeCasts_S1x500000_S500000)))) (((fun x i => Host.gather gather_S20000x150_S500000x1_S500000x150_1_0_n_n_0_1_1150 x i) : FVec Ideal S20000x150 .f32 → IVec S500000x1 32 → FVec Ideal S500000x150 .f32) v439 ((broadcastInDim S500000x1 ![0] bcast_S500000_S500000x1_0 : IVec S500000 32 → IVec S500000x1 32) ((select : IVec S500000 1 → IVec S500000 32 → IVec S500000 32 → IVec S500000 32) ((cmpi .slt : IVec S500000 32 → IVec S500000 32 → IVec S500000 1) (shapeCast S500000 (((extractStridedSlice S1x500000 ![1, 0] · slices_S2x500000_S1x500000_1_0) : IVec S2x500000 32 → IVec S1x500000 32) arg27) shapeCasts_S1x500000_S500000) ((broadcastInDim S500000 ![] bcast_S_S500000 : IVec S_ 32 → IVec S500000 32) (constantI S_ 32 0#32))) ((addi : IVec S500000 32 → IVec S500000 32 → IVec S500000 32) (shapeCast S500000 (((extractStridedSlice S1x500000 ![1, 0] · slices_S2x500000_S1x500000_1_0) : IVec S2x500000 32 → IVec S1x500000 32) arg27) shapeCasts_S1x500000_S500000) ((broadcastInDim S500000 ![] bcast_S_S500000 : IVec S_ 32 → IVec S500000 32) (constantI S_ 32 20000#32))) (shapeCast S500000 (((extractStridedSlice S1x500000 ![1, 0] · slices_S2x500000_S1x500000_1_0) : IVec S2x500000 32 → IVec S1x500000 32) arg27) shapeCasts_S1x500000_S500000)))))

set_option maxHeartbeats 40000000 in
/-- After the list, from any contents, main_v464 holds that function of the contents. -/
theorem kh13_v464_eq (W : Valuation τ sig (Elt Ideal)) :
    StableHlo.after (hostOps13 (F := Ideal)) W (Proc.devRef .tc main_v464)
      = kh13_v464 (W (Proc.devRef .tc main_v445)) (W (Proc.devRef .tc main_v439)) (W (Proc.devRef .tc main_arg27)) := by
  after_results_simp <;> first | rfl | (unfold kh13_v464; rfl)

/-- Buffer main_v465 as a function of main_arg19: the operations that build it, composed. -/
def kh13_v465 (arg19 : FVec Ideal S150 .f32) : FVec Ideal S1x150 .f32 :=
  (shapeCast S1x150 arg19 shapeCasts_S150_S1x150)

set_option maxHeartbeats 40000000 in
/-- After the list, from any contents, main_v465 holds that function of the contents. -/
theorem kh13_v465_eq (W : Valuation τ sig (Elt Ideal)) :
    StableHlo.after (hostOps13 (F := Ideal)) W (Proc.devRef .tc main_v465)
      = kh13_v465 (W (Proc.devRef .tc main_arg19)) := by
  after_results_simp <;> first | rfl | (unfold kh13_v465; rfl)

end Cert.KernelIdeal.Val

end
-- ==== Proof.Model.lean ====
/- The network as one composition over the argument arrays: the three input projections, seven neighbourhood
   combines (each in the kernel's arrangement: two neighbourhood means times their weights, the destination features
   times the sum of the two root weights, the sum of the two biases), the node classifier, the gathered edge
   features and the edge classifier.  The neighbourhood means, the slices of the stacked weights and the gather are the
   functions the kernel program's host stretches compute. -/
import proofs.«141689_j63058709840619_1_alg».proof.Proof.Args
import proofs.«141689_j63058709840619_1_alg».proof.Proof.Algebra
import proofs.«141689_j63058709840619_1_alg».proof.Proof.KHost3
import proofs.«141689_j63058709840619_1_alg».proof.Proof.KHost4
import proofs.«141689_j63058709840619_1_alg».proof.Proof.KHost5
import proofs.«141689_j63058709840619_1_alg».proof.Proof.KHost6
import proofs.«141689_j63058709840619_1_alg».proof.Proof.KHost7
import proofs.«141689_j63058709840619_1_alg».proof.Proof.KHost8
import proofs.«141689_j63058709840619_1_alg».proof.Proof.KHost9
import proofs.«141689_j63058709840619_1_alg».proof.Proof.KHost13

noncomputable section

namespace Cert.KernelIdeal.Val

open Idealize.ShloMosaic Idealize.ShloMosaic.TcCoe Cert.KernelIdeal Cert.KernelIdeal.Gen Cert.Spec

/-- A row of 150 entries is a 1-by-150 matrix. -/
theorem hs150 : (⟨1, ![150]⟩ : Shape).ShapeCasts (⟨2, ![1, 150]⟩ : Shape) := by decide

/-- The three input projections. -/
def XL (a : ArgVals) : Mat 50000 150 := lin a.x_lnc a.W_lnc a.b_lnc
def XM (a : ArgVals) : Mat 2000 150 := lin a.x_mir a.W_mir a.b_mir
def XP (a : ArgVals) : Mat 20000 150 := lin a.x_pro a.W_pro a.b_pro

/-- Node features after combine 1 of 7 (clipped at zero). -/
def XL1 (a : ArgVals) : Mat 50000 150 :=
  relu (sageK (M := 50000) (K := 150) (N := 150) (kh3_v28 (XP a) a.e_lpi) (kh3_v63 a.Wl) (kh3_v51 (XM a) a.e_lmi) (kh3_v65 a.Wl) (XL a)
      (addf (kh3_v53 a.Wr) (kh3_v55 a.Wr)) (rowOf (shapeCast (⟨2, ![1, 150]⟩ : Shape) (addf (kh3_v58 a.bl) (kh3_v60 a.bl)) hs150)))

/-- Node features after combine 2 of 7 (clipped at zero). -/
def XM1 (a : ArgVals) : Mat 2000 150 :=
  relu (sageK (M := 2000) (K := 150) (N := 150) (kh4_v90 (XL a) a.e_lmi) (kh4_v125 a.Wl) (kh4_v113 (XP a) a.e_mpi) (kh4_v127 a.Wl) (XM a)
      (addf (kh4_v115 a.Wr) (kh4_v117 a.Wr)) (rowOf (shapeCast (⟨2, ![1, 150]⟩ : Shape) (addf (kh4_v120 a.bl) (kh4_v122 a.bl)) hs150)))

/-- Node features after combine 3 of 7 (clipped at zero). -/
def XP1 (a : ArgVals) : Mat 20000 150 :=
  relu (sageK (M := 20000) (K := 150) (N := 150) (kh5_v152 (XL a) a.e_lpi) (kh5_v187 a.Wl) (kh5_v175 (XM a) a.e_mpi) (kh5_v189 a.Wl) (XP a)
      (addf (kh5_v177 a.Wr) (kh5_v179 a.Wr)) (rowOf (shapeCast (⟨2, ![1, 150]⟩ : Shape) (addf (kh5_v182 a.bl) (kh5_v184 a.bl)) hs150)))

/-- Node features after combine 4 of 7 (clipped at zero). -/
def XL2 (a : ArgVals) : Mat 50000 150 :=
  relu (sageK (M := 50000) (K := 150) (N := 150) (kh6_v214 (XP1 a) a.e_lpi) (kh6_v249 a.Wl) (kh6_v237 (XM1 a) a.e_lmi) (kh6_v251 a.Wl) (XL1 a)
      (addf (kh6_v239 a.Wr) (kh6_v241 a.Wr)) (rowOf (shapeCast (⟨2, ![1, 150]⟩ : Shape) (addf (kh6_v244 a.bl) (kh6_v246 a.bl)) hs150)))

/-- Node features after combine 5 of 7 (clipped at zero). -/
def XM2 (a : ArgVals) : Mat 2000 150 :=
  relu (sageK (M := 2000) (K := 150) (N := 150) (kh7_v276 (XL1 a) a.e_lmi) (kh7_v311 a.Wl) (kh7_v299 (XP1 a) a.e_mpi) (kh7_v313 a.Wl) (XM1 a)
      (addf (kh7_v301 a.Wr) (kh7_v303 a.Wr)) (rowOf (shapeCast (⟨2, ![1, 150]⟩ : Shape) (addf (kh7_v306 a.bl) (kh7_v308 a.bl)) hs150)))

/-- Node features after combine 6 of 7 (clipped at zero). -/
def XP2 (a : ArgVals) : Mat 20000 150 :=
  relu (sageK (M := 20000) (K := 150) (N := 150) (kh8_v338 (XL1 a) a.e_lpi) (kh8_v373 a.Wl) (kh8_v361 (XM1 a) a.e_mpi) (kh8_v375 a.Wl) (XP1 a)
      (addf (kh8_v363 a.Wr) (kh8_v365 a.Wr)) (rowOf (shapeCast (⟨2, ![1, 150]⟩ : Shape) (addf (kh8_v368 a.bl) (kh8_v370 a.bl)) hs150)))

/-- Node features after combine 7 of 7 (not clipped: the last layer). -/
def XP3 (a : ArgVals) : Mat 20000 150 :=
  sageK (M := 20000) (K := 150) (N := 150) (kh9_v400 (XL2 a) a.e_lpi) (kh9_v435 a.Wl) (kh9_v423 (XM2 a) a.e_mpi) (kh9_v437 a.Wl) (XP2 a)
      (addf (kh9_v425 a.Wr) (kh9_v427 a.Wr)) (rowOf (shapeCast (⟨2, ![1, 150]⟩ : Shape) (addf (kh9_v430 a.bl) (kh9_v432 a.bl)) hs150))

/-- The node classifier on the raw features of the first node type. -/
def H1 (a : ArgVals) : Mat 50000 300 := relu (lin a.x_lnc a.cW1 a.cb1)
def H2 (a : ArgVals) : Mat 50000 200 := relu (lin (H1 a) a.cW2 a.cb2)
def H3 (a : ArgVals) : Mat 50000 150 := lin (H2 a) a.cW3 a.cb3

/-- The labelled edges' features: the classifier's row of the source beside the last layer's row of the target. -/
def EF0 (a : ArgVals) : Mat 500000 300 := kh13_v464 (H3 a) (XP3 a) a.e_lbl

/-- The edge classifier. -/
def EF1 (a : ArgVals) : Mat 500000 150 := relu (lin (EF0 a) a.hW1 a.hb1)
def EF2 (a : ArgVals) : Mat 500000 50 := relu (lin (EF1 a) a.hW2 a.hb2)
def OUT (a : ArgVals) : Mat 500000 3 := lin (EF2 a) a.hW3 a.hb3

end Cert.KernelIdeal.Val

end
-- ==== Proof.HostFin.lean ====
/-
  The host glue both programs share keeps finiteness: reading an array at other indices (a reshape, a slice, a copy
  along new axes) keeps every entry an entry of the operand; the neighbourhood mean (gather the sources' rows, add them
  into zeros at the destinations, divide by the larger of the in-degree and one) of a finite table is finite.  A row
  reshaped to a one-row matrix reads back as the row.
-/
import proofs.«141689_j63058709840619_1_alg».proof.Proof.Spec
import proofs.«141689_j63058709840619_1_alg».proof.Proof.Algebra
import Idealize.ShloMosaic.PureOps.ShapeOps
import Idealize.ShloMosaic.PureOps.Ideal.Laws
import Idealize.ShloMosaic.Lib.ValueIdx
import Idealize.ShloMosaic.Lib.Pipeline.Value

noncomputable section

namespace Cert.Spec

open Idealize.ShloMosaic Idealize.ShloMosaic.ValueIdx

variable {M K N : Nat}

/-! ## Re-indexings -/

/-- A reshape of a finite array is finite. -/
theorem fin_shapeCast {s : Shape} (t : Shape) (x : s.Idx → EReal) (h : s.ShapeCasts t) (hx : Fin' x) :
    Fin' (shapeCast t x h) :=
  fin_comp x (fun j => Shape.reshapeEquiv h j) hx

/-- A slice of a finite array is finite. -/
theorem fin_extractStridedSlice {s : Shape} (t : Shape) (off : Fin s.rank → Nat) (x : s.Idx → EReal) (h : s.Slices off t)
    (hx : Fin' x) : Fin' (extractStridedSlice t off x h) :=
  fun j => hx _

/-- What holds of every entry of an array holds of every entry of its copy along new or stretched axes. -/
theorem broadcastInDim_forall {s t : Shape} {α : Type} (P : α → Prop) (dims : Fin s.rank → Fin t.rank)
    (h : s.BroadcastsInDim t dims) (y : s.Idx → α) (hy : ∀ i, P (y i)) : ∀ j, P (broadcastInDim t dims h y j) :=
  fun _ => hy _

/-- A copy of a finite array along new or stretched axes is finite. -/
theorem fin_broadcastInDim {s : Shape} (t : Shape) (dims : Fin s.rank → Fin t.rank) (h : s.BroadcastsInDim t dims)
    (x : s.Idx → EReal) (hx : Fin' x) : Fin' (broadcastInDim t dims h x) :=
  fun _ => hx _

/-- The zero word copied to any shape is zero everywhere. -/
theorem bcast_zero_apply {z s : Shape} (dims : Fin z.rank → Fin s.rank) (h : z.BroadcastsInDim s dims) (i : s.Idx) :
    broadcastInDim s dims h (constant (F := Ideal) z .f32 0x00000000#32) i = 0 :=
  Ideal.ofBits_zero_f32

/-- The one word copied to any shape is one everywhere. -/
theorem bcast_one_apply {z s : Shape} (dims : Fin z.rank → Fin s.rank) (h : z.BroadcastsInDim s dims) (i : s.Idx) :
    broadcastInDim s dims h (constant (F := Ideal) z .f32 0x3F800000#32) i = 1 :=
  ofBits_one_f32

/-- The zero word copied to any shape is finite. -/
theorem fin_bcast_zero {z s : Shape} (dims : Fin z.rank → Fin s.rank) (h : z.BroadcastsInDim s dims) :
    Fin' (broadcastInDim s dims h (constant (F := Ideal) z .f32 0x00000000#32)) :=
  fun i => ⟨0, (bcast_zero_apply dims h i).trans EReal.coe_zero.symm⟩

/-- The entrywise sum of two finite arrays is finite. -/
theorem fin_addf {s : Shape} (a b : FVec Ideal s .f32) (ha : Fin' a) (hb : Fin' b) : Fin' (addf a b) := by
  intro i
  obtain ⟨p, hp⟩ := ha i
  obtain ⟨q, hq⟩ := hb i
  exact ⟨p + q, by show a i + b i = _; rw [hp, hq, EReal.coe_add]⟩

/-! ## The neighbourhood mean -/

/-- The neighbourhood mean of a finite table is finite, whatever the indices: the gathered rows are finite, their
    accumulation into zeros is finite, the in-degree (ones accumulated into zeros) is a real number at least zero, its
    maximum with one a real number at least one, and a finite array divided by such reals is finite. -/
theorem fin_agg {sx sj su s si s2 s1 si1 su1 z0 z1 z2 z3 : Shape} {wj w w1 : Nat}
    (gd : GatherDims sx sj su) (sd : ScatterDims s si su) (sd1 : ScatterDims s1 si1 su1)
    (x : FVec Ideal sx .f32) (J : IVec sj wj) (I : IVec si w) (I' : IVec si1 w1)
    (dz : Fin z0.rank → Fin s.rank) (hz : z0.BroadcastsInDim s dz)
    (d2 : Fin s2.rank → Fin s.rank) (hb2 : s2.BroadcastsInDim s d2)
    (d1 : Fin s1.rank → Fin s2.rank) (hb1 : s1.BroadcastsInDim s2 d1)
    (dz1 : Fin z1.rank → Fin s1.rank) (hz1 : z1.BroadcastsInDim s1 dz1)
    (do' : Fin z2.rank → Fin su1.rank) (ho : z2.BroadcastsInDim su1 do')
    (do1 : Fin z3.rank → Fin s1.rank) (ho1 : z3.BroadcastsInDim s1 do1)
    (hx : Fin' x) :
    Fin' (Host.divf
      (Host.scatterAdd (F := Ideal) sd (broadcastInDim s dz hz (constant (F := Ideal) z0 .f32 0x00000000#32)) I (Host.gather gd x J))
      (broadcastInDim s d2 hb2 (broadcastInDim s2 d1 hb1
        (maximumf
          (Host.scatterAdd (F := Ideal) sd1 (broadcastInDim s1 dz1 hz1 (constant (F := Ideal) z1 .f32 0x00000000#32)) I'
            (broadcastInDim su1 do' ho (constant (F := Ideal) z2 .f32 0x3F800000#32)))
          (broadcastInDim s1 do1 ho1 (constant (F := Ideal) z3 .f32 0x3F800000#32)))))) := by
  have hnum := fin_scatterAdd sd (broadcastInDim s dz hz (constant (F := Ideal) z0 .f32 0x00000000#32)) I (Host.gather gd x J)
    (fin_bcast_zero dz hz) (fin_gather gd x J hx)
  have hcnt := scatterAdd_count_nonneg sd1 I' (broadcastInDim s1 dz1 hz1 (constant (F := Ideal) z1 .f32 0x00000000#32))
    (broadcastInDim su1 do' ho (constant (F := Ideal) z2 .f32 0x3F800000#32)) (bcast_zero_apply dz1 hz1) (bcast_one_apply do' ho)
  have hmax := max_one_ge_one _ (broadcastInDim s1 do1 ho1 (constant (F := Ideal) z3 .f32 0x3F800000#32)) hcnt
    (bcast_one_apply do1 ho1)
  have hden := broadcastInDim_forall (fun v : EReal => ∃ r : ℝ, 1 ≤ r ∧ v = (r : EReal)) d2 hb2 _
    (broadcastInDim_forall (fun v : EReal => ∃ r : ℝ, 1 ≤ r ∧ v = (r : EReal)) d1 hb1 _ hmax)
  exact fin_divf_ge_one _ _ hnum hden

/-! ## A row reshaped to a one-row matrix -/

/-- The one row of a row reshaped to a one-row matrix is the row. -/
theorem rowOf_shapeCast (b : Row N) (h : (⟨1, ![N]⟩ : Shape).ShapeCasts ⟨2, ![1, N]⟩) :
    rowOf (shapeCast ⟨2, ![1, N]⟩ b h) = b := by
  funext j
  obtain ⟨c, rfl⟩ : ∃ c : Fin N, j = ix1 c := ⟨j 0, eq_ix1 j⟩
  show shapeCast ⟨2, ![1, N]⟩ b h (ix2 (0 : Fin 1) c) = b (ix1 c)
  refine shapeCast_apply b h (ix2 (0 : Fin 1) c) (ix1 c) ?_
  rw [Shape.rowMajor_val_one, Shape.rowMajor_val_two]
  show c.val = 0 * N + c.val
  omega

/-- The one row of the reshaped entrywise sum of two rows is their entrywise sum. -/
theorem rowOf_shapeCast_addf (a b : Row N) (h : (⟨1, ![N]⟩ : Shape).ShapeCasts ⟨2, ![1, N]⟩) :
    rowOf (shapeCast ⟨2, ![1, N]⟩ (addf a b) h) = radd a b := by
  rw [rowOf_shapeCast]
  rfl

/-- The entrywise sum of two matrices, as the programs print it. -/
theorem addf_eq_madd (a b : Mat M N) : addf a b = madd a b := rfl

/-- The entrywise sum of two rows, as the programs print it. -/
theorem addf_eq_radd (a b : Row N) : addf a b = radd a b := rfl

end Cert.Spec

end
-- ==== Proof.RefLayer.lean ====
/-
  How the reference's printed host operations read as the index-by-index functions of the specification, at the
  extended reals, as whole-array equations: a host product with one contracted axis is the row-by-column product; a
  row copied first to a one-row matrix and then to every row is the row read at the column; the sum of the two is a
  dense layer; the larger of an array and the all-zero array is the clip below at zero.
-/
import proofs.«141689_j63058709840619_1_alg».proof.ReferenceIdeal
import proofs.«141689_j63058709840619_1_alg».proof.Proof.Spec
import Idealize.ShloMosaic.PureOps.Ideal.Laws
import Idealize.ShloMosaic.Lib.ValueIdx
import Idealize.ShloMosaic.Lib.IdealHost
import Idealize.ShloMosaic.Lib.StackMember
import Idealize.ShloMosaic.Lib.Pipeline.Value

noncomputable section

namespace Cert.ReferenceIdeal.RefValue

open Idealize.ShloMosaic Idealize.ShloMosaic.ValueIdx Cert.ReferenceIdeal Cert.Spec

/-! ## The generic readings, over any sizes -/

/-- A host product whose dimension numbers are the plain ones (contract the left operand's columns with the right
    operand's rows) is the row-by-column product. -/
theorem dotGeneral_eq_mm {M K N : Nat} (d : DotDims ⟨2, ![M, K]⟩ ⟨2, ![K, N]⟩ ⟨2, ![M, N]⟩) (hd : d = DotDims.plain M K N)
    (x : Mat M K) (w : Mat K N) : Host.dotGeneral (F := Ideal) d none x w = mm x w := by
  subst hd
  funext j
  obtain ⟨a, c, rfl⟩ : ∃ (a : Fin M) (c : Fin N), j = ix2 a c := ⟨j 0, j 1, eq_ix2 j⟩
  rw [StackMember.dotGeneral_plain_apply]
  rfl

/-- A row copied to a one-row matrix and then to every row of a matrix reads, at (r, c), the row at c. -/
theorem bcast_row_eq {M N : Nat} (h1 : (⟨1, ![N]⟩ : Shape).BroadcastsInDim ⟨2, ![1, N]⟩ ![1])
    (h2 : (⟨2, ![1, N]⟩ : Shape).BroadcastsInDim ⟨2, ![M, N]⟩ ![0, 1]) (b : Row N) :
    broadcastInDim ⟨2, ![M, N]⟩ ![0, 1] h2 (broadcastInDim ⟨2, ![1, N]⟩ ![1] h1 b) = fun i => b (ix1 (i 1)) := by
  funext i
  obtain ⟨r, c, rfl⟩ : ∃ (r : Fin M) (c : Fin N), i = ix2 r c := ⟨i 0, i 1, eq_ix2 i⟩
  have hlt : c.val < N := c.isLt
  have e2 := broadcastInDim_apply (![0, 1]) h2 (broadcastInDim ⟨2, ![1, N]⟩ ![1] h1 b) (ix2 r c) (ix2 (0 : Fin 1) c) (by
    intro a
    match a with
    | ⟨0, _⟩ => exact (if_pos rfl).symm
    | ⟨1, _⟩ =>
      show c.val = if N = 1 then 0 else c.val
      split_ifs with hN
      · omega
      · rfl)
  have e1 := broadcastInDim_apply (![1]) h1 b (ix2 (0 : Fin 1) c) (ix1 c) (by
    intro a
    match a with
    | ⟨0, _⟩ =>
      show c.val = if N = 1 then 0 else c.val
      split_ifs with hN
      · omega
      · rfl)
  exact e2.trans e1

/-- The larger of an array and the all-zero array (the zero word copied everywhere) is the clip below at zero. -/
theorem max_zero_eq_relu {M N : Nat} (h : (⟨0, ![]⟩ : Shape).BroadcastsInDim ⟨2, ![M, N]⟩ ![]) (y : Mat M N) :
    maximumf y (broadcastInDim ⟨2, ![M, N]⟩ ![] h (constant (F := Ideal) ⟨0, ![]⟩ .f32 0x00000000#32)) = relu y := by
  funext i
  rw [maximumf_apply, broadcastInDim_scalar_apply]
  show max (y i) (Ideal.ofBits .f32 0x00000000#32) = max (y i) 0
  rw [Ideal.ofBits_zero_f32]

/-- A host product plus the row copied to every row is the dense layer. -/
theorem dot_add_eq_lin {M K N : Nat} (d : DotDims ⟨2, ![M, K]⟩ ⟨2, ![K, N]⟩ ⟨2, ![M, N]⟩) (hd : d = DotDims.plain M K N)
    (h1 : (⟨1, ![N]⟩ : Shape).BroadcastsInDim ⟨2, ![1, N]⟩ ![1])
    (h2 : (⟨2, ![1, N]⟩ : Shape).BroadcastsInDim ⟨2, ![M, N]⟩ ![0, 1]) (x : Mat M K) (w : Mat K N) (b : Row N) :
    addf (Host.dotGeneral (F := Ideal) d none x w) (broadcastInDim ⟨2, ![M, N]⟩ ![0, 1] h2 (broadcastInDim ⟨2, ![1, N]⟩ ![1] h1 b))
      = lin x w b := by
  rw [dotGeneral_eq_mm d hd, bcast_row_eq h1 h2 b]
  rfl

end Cert.ReferenceIdeal.RefValue

end
-- ==== Proof.StageAlg.lean ====
/-
  Per kind of stage, the step from the kernel's form of a stage (the specification's dense layer or combine of the
  inputs, the root weights and the biases summed first, the bias reshaped to a one-row matrix) to the reference's
  printed form (host products, a row copied to every row, entrywise sums, the larger of the result and the all-zero
  array), and finiteness of each stage's output in the kernel's form from finiteness of its inputs.
-/
import proofs.«141689_j63058709840619_1_alg».proof.Proof.Spec
import proofs.«141689_j63058709840619_1_alg».proof.Proof.Algebra
import proofs.«141689_j63058709840619_1_alg».proof.Proof.HostFin
import proofs.«141689_j63058709840619_1_alg».proof.Proof.RefLayer
import Idealize.ShloMosaic.PureOps.Ideal.Laws
import Idealize.ShloMosaic.Lib.ValueIdx
import Idealize.ShloMosaic.Lib.Pipeline.Value

noncomputable section

namespace Cert.Spec

open Idealize.ShloMosaic Idealize.ShloMosaic.ValueIdx Cert.ReferenceIdeal.RefValue

variable {M K N : Nat}

/-! ## A dense layer -/

/-- A dense layer whose bias is a row reshaped to a one-row matrix is the host product plus the row copied to every row. -/
theorem lin_stage (d : DotDims ⟨2, ![M, K]⟩ ⟨2, ![K, N]⟩ ⟨2, ![M, N]⟩) (hd : d = DotDims.plain M K N)
    (h1 : (⟨1, ![N]⟩ : Shape).BroadcastsInDim ⟨2, ![1, N]⟩ ![1])
    (h2 : (⟨2, ![1, N]⟩ : Shape).BroadcastsInDim ⟨2, ![M, N]⟩ ![0, 1])
    (hs : (⟨1, ![N]⟩ : Shape).ShapeCasts ⟨2, ![1, N]⟩) (x : Mat M K) (w : Mat K N) (b : Row N) :
    lin x w (rowOf (shapeCast ⟨2, ![1, N]⟩ b hs))
      = addf (Host.dotGeneral (F := Ideal) d none x w) (broadcastInDim ⟨2, ![M, N]⟩ ![0, 1] h2 (broadcastInDim ⟨2, ![1, N]⟩ ![1] h1 b)) := by
  rw [rowOf_shapeCast, dot_add_eq_lin d hd h1 h2]

/-- The same clipped below at zero: the larger of the reference's sum and the all-zero array. -/
theorem lin_relu_stage (d : DotDims ⟨2, ![M, K]⟩ ⟨2, ![K, N]⟩ ⟨2, ![M, N]⟩) (hd : d = DotDims.plain M K N)
    (h1 : (⟨1, ![N]⟩ : Shape).BroadcastsInDim ⟨2, ![1, N]⟩ ![1])
    (h2 : (⟨2, ![1, N]⟩ : Shape).BroadcastsInDim ⟨2, ![M, N]⟩ ![0, 1])
    (hz : (⟨0, ![]⟩ : Shape).BroadcastsInDim ⟨2, ![M, N]⟩ ![])
    (hs : (⟨1, ![N]⟩ : Shape).ShapeCasts ⟨2, ![1, N]⟩) (x : Mat M K) (w : Mat K N) (b : Row N) :
    relu (lin x w (rowOf (shapeCast ⟨2, ![1, N]⟩ b hs)))
      = maximumf (addf (Host.dotGeneral (F := Ideal) d none x w) (broadcastInDim ⟨2, ![M, N]⟩ ![0, 1] h2 (broadcastInDim ⟨2, ![1, N]⟩ ![1] h1 b)))
          (broadcastInDim ⟨2, ![M, N]⟩ ![] hz (constant (F := Ideal) ⟨0, ![]⟩ .f32 0x00000000#32)) := by
  rw [max_zero_eq_relu hz, lin_stage d hd h1 h2 hs]

/-! ## The neighbourhood combine -/

/-- The combine in the kernel's arrangement, the two root weights and the two biases summed first, is the reference's
    two convolutions added, each a host product plus its bias row copied to every row plus the root product, when the
    destination features and both root weights are finite. -/
theorem sage_stage (d : DotDims ⟨2, ![M, K]⟩ ⟨2, ![K, N]⟩ ⟨2, ![M, N]⟩) (hd : d = DotDims.plain M K N)
    (h1 : (⟨1, ![N]⟩ : Shape).BroadcastsInDim ⟨2, ![1, N]⟩ ![1])
    (h2 : (⟨2, ![1, N]⟩ : Shape).BroadcastsInDim ⟨2, ![M, N]⟩ ![0, 1])
    (hs : (⟨1, ![N]⟩ : Shape).ShapeCasts ⟨2, ![1, N]⟩)
    (a1 : Mat M K) (w1 : Mat K N) (b1 : Row N) (a2 : Mat M K) (w2 : Mat K N) (b2 : Row N) (xd : Mat M K) (wr1 wr2 : Mat K N)
    (hx : Fin' xd) (hw1 : Fin' wr1) (hw2 : Fin' wr2) :
    sageK a1 w1 a2 w2 xd (addf wr1 wr2) (rowOf (shapeCast ⟨2, ![1, N]⟩ (addf b1 b2) hs))
      = addf
          (addf (addf (Host.dotGeneral (F := Ideal) d none a1 w1) (broadcastInDim ⟨2, ![M, N]⟩ ![0, 1] h2 (broadcastInDim ⟨2, ![1, N]⟩ ![1] h1 b1)))
            (Host.dotGeneral (F := Ideal) d none xd wr1))
          (addf (addf (Host.dotGeneral (F := Ideal) d none a2 w2) (broadcastInDim ⟨2, ![M, N]⟩ ![0, 1] h2 (broadcastInDim ⟨2, ![1, N]⟩ ![1] h1 b2)))
            (Host.dotGeneral (F := Ideal) d none xd wr2)) := by
  rw [rowOf_shapeCast_addf, addf_eq_madd, sage_eq a1 w1 b1 a2 w2 b2 xd wr1 wr2 hx hw1 hw2,
    dotGeneral_eq_mm d hd a1 w1, dotGeneral_eq_mm d hd xd wr1, dotGeneral_eq_mm d hd a2 w2, dotGeneral_eq_mm d hd xd wr2,
    bcast_row_eq h1 h2 b1, bcast_row_eq h1 h2 b2]
  rfl

/-- The same clipped below at zero: the larger of the reference's sum and the all-zero array. -/
theorem sage_relu_stage (d : DotDims ⟨2, ![M, K]⟩ ⟨2, ![K, N]⟩ ⟨2, ![M, N]⟩) (hd : d = DotDims.plain M K N)
    (h1 : (⟨1, ![N]⟩ : Shape).BroadcastsInDim ⟨2, ![1, N]⟩ ![1])
    (h2 : (⟨2, ![1, N]⟩ : Shape).BroadcastsInDim ⟨2, ![M, N]⟩ ![0, 1])
    (hz : (⟨0, ![]⟩ : Shape).BroadcastsInDim ⟨2, ![M, N]⟩ ![])
    (hs : (⟨1, ![N]⟩ : Shape).ShapeCasts ⟨2, ![1, N]⟩)
    (a1 : Mat M K) (w1 : Mat K N) (b1 : Row N) (a2 : Mat M K) (w2 : Mat K N) (b2 : Row N) (xd : Mat M K) (wr1 wr2 : Mat K N)
    (hx : Fin' xd) (hw1 : Fin' wr1) (hw2 : Fin' wr2) :
    relu (sageK a1 w1 a2 w2 xd (addf wr1 wr2) (rowOf (shapeCast ⟨2, ![1, N]⟩ (addf b1 b2) hs)))
      = maximumf
          (addf
            (addf (addf (Host.dotGeneral (F := Ideal) d none a1 w1) (broadcastInDim ⟨2, ![M, N]⟩ ![0, 1] h2 (broadcastInDim ⟨2, ![1, N]⟩ ![1] h1 b1)))
              (Host.dotGeneral (F := Ideal) d none xd wr1))
            (addf (addf (Host.dotGeneral (F := Ideal) d none a2 w2) (broadcastInDim ⟨2, ![M, N]⟩ ![0, 1] h2 (broadcastInDim ⟨2, ![1, N]⟩ ![1] h1 b2)))
              (Host.dotGeneral (F := Ideal) d none xd wr2)))
          (broadcastInDim ⟨2, ![M, N]⟩ ![] hz (constant (F := Ideal) ⟨0, ![]⟩ .f32 0x00000000#32)) := by
  rw [max_zero_eq_relu hz, sage_stage d hd h1 h2 hs a1 w1 b1 a2 w2 b2 xd wr1 wr2 hx hw1 hw2]

/-! ## Finiteness of a stage's output -/

/-- A dense layer of finite inputs, its bias a row reshaped to a one-row matrix, is finite. -/
theorem fin_lin_stage (hs : (⟨1, ![N]⟩ : Shape).ShapeCasts ⟨2, ![1, N]⟩) (x : Mat M K) (w : Mat K N) (b : Row N)
    (hx : Fin' x) (hw : Fin' w) (hb : Fin' b) : Fin' (lin x w (rowOf (shapeCast ⟨2, ![1, N]⟩ b hs))) :=
  fin_lin x w _ hx hw (fin_rowOf _ (fin_shapeCast _ b hs hb))

/-- The same clipped below at zero. -/
theorem fin_lin_relu_stage (hs : (⟨1, ![N]⟩ : Shape).ShapeCasts ⟨2, ![1, N]⟩) (x : Mat M K) (w : Mat K N) (b : Row N)
    (hx : Fin' x) (hw : Fin' w) (hb : Fin' b) : Fin' (relu (lin x w (rowOf (shapeCast ⟨2, ![1, N]⟩ b hs)))) :=
  fin_relu _ (fin_lin_stage hs x w b hx hw hb)

/-- The combine of finite inputs, in the kernel's arrangement, is finite. -/
theorem fin_sage_stage (hs : (⟨1, ![N]⟩ : Shape).ShapeCasts ⟨2, ![1, N]⟩)
    (a1 : Mat M K) (w1 : Mat K N) (b1 : Row N) (a2 : Mat M K) (w2 : Mat K N) (b2 : Row N) (xd : Mat M K) (wr1 wr2 : Mat K N)
    (ha1 : Fin' a1) (hw1 : Fin' w1) (hb1 : Fin' b1) (ha2 : Fin' a2) (hw2 : Fin' w2) (hb2 : Fin' b2) (hx : Fin' xd)
    (hr1 : Fin' wr1) (hr2 : Fin' wr2) :
    Fin' (sageK a1 w1 a2 w2 xd (addf wr1 wr2) (rowOf (shapeCast ⟨2, ![1, N]⟩ (addf b1 b2) hs))) :=
  fin_sageK a1 w1 a2 w2 xd _ _ ha1 hw1 ha2 hw2 hx (fin_addf wr1 wr2 hr1 hr2)
    (fin_rowOf _ (fin_shapeCast _ (addf b1 b2) hs (fin_addf b1 b2 hb1 hb2)))

/-- The same clipped below at zero. -/
theorem fin_sage_relu_stage (hs : (⟨1, ![N]⟩ : Shape).ShapeCasts ⟨2, ![1, N]⟩)
    (a1 : Mat M K) (w1 : Mat K N) (b1 : Row N) (a2 : Mat M K) (w2 : Mat K N) (b2 : Row N) (xd : Mat M K) (wr1 wr2 : Mat K N)
    (ha1 : Fin' a1) (hw1 : Fin' w1) (hb1 : Fin' b1) (ha2 : Fin' a2) (hw2 : Fin' w2) (hb2 : Fin' b2) (hx : Fin' xd)
    (hr1 : Fin' wr1) (hr2 : Fin' wr2) :
    Fin' (relu (sageK a1 w1 a2 w2 xd (addf wr1 wr2) (rowOf (shapeCast ⟨2, ![1, N]⟩ (addf b1 b2) hs)))) :=
  fin_relu _ (fin_sage_stage hs a1 w1 b1 a2 w2 b2 xd wr1 wr2 ha1 hw1 hb1 ha2 hw2 hb2 hx hr1 hr2)

end Cert.Spec

end
-- ==== Proof.ModelFin.lean ====
/-
  Finiteness along the network: when every float argument array is finite, so is every node-feature matrix the model
  builds up to the sixth combine, and so are the two slices of the stacked root weights each combine adds.  A
  neighbourhood mean of a finite table is finite whatever the edges; a slice of a finite stack is finite; a dense
  layer and a combine of finite inputs are finite.
-/
import proofs.«141689_j63058709840619_1_alg».proof.Proof.Model
import proofs.«141689_j63058709840619_1_alg».proof.Proof.HostFin
import proofs.«141689_j63058709840619_1_alg».proof.Proof.StageAlg

set_option maxRecDepth 8192

noncomputable section

namespace Cert.KernelIdeal.Val

open Idealize.ShloMosaic Idealize.ShloMosaic.TcCoe Cert.KernelIdeal Cert.KernelIdeal.Gen Cert.Spec

/-- Every float argument array is finite. -/
structure AFin (a : ArgVals) : Prop where
  f0 : Fin' a.x_lnc
  f1 : Fin' a.x_mir
  f2 : Fin' a.x_pro
  f3 : Fin' a.W_lnc
  f4 : Fin' a.b_lnc
  f5 : Fin' a.W_mir
  f6 : Fin' a.b_mir
  f7 : Fin' a.W_pro
  f8 : Fin' a.b_pro
  f9 : Fin' a.Wl
  f10 : Fin' a.bl
  f11 : Fin' a.Wr
  f12 : Fin' a.cW1
  f13 : Fin' a.cb1
  f14 : Fin' a.cW2
  f15 : Fin' a.cb2
  f16 : Fin' a.cW3
  f17 : Fin' a.cb3
  f18 : Fin' a.hW1
  f19 : Fin' a.hb1
  f20 : Fin' a.hW2
  f21 : Fin' a.hb2
  f22 : Fin' a.hW3
  f23 : Fin' a.hb3

/-- A slice of a finite array, reshaped, is finite. -/
theorem fin_slice {s s' : Shape} (t : Shape) (off : Fin s.rank → Nat) (x : s.Idx → EReal) (h : s.Slices off s') (h' : s'.ShapeCasts t)
    (hx : Fin' x) : Fin' (shapeCast t (extractStridedSlice s' off x h) h') :=
  fin_shapeCast t _ h' (fin_extractStridedSlice s' off x h hx)

/-! ## The slices of the stacked root weights each combine adds -/

theorem fin_kh3_v53 (a : ArgVals) (hf : AFin a) : Fin' (kh3_v53 a.Wr) := by unfold kh3_v53; exact fin_slice _ _ _ _ _ hf.f11
theorem fin_kh3_v55 (a : ArgVals) (hf : AFin a) : Fin' (kh3_v55 a.Wr) := by unfold kh3_v55; exact fin_slice _ _ _ _ _ hf.f11
theorem fin_kh4_v115 (a : ArgVals) (hf : AFin a) : Fin' (kh4_v115 a.Wr) := by unfold kh4_v115; exact fin_slice _ _ _ _ _ hf.f11
theorem fin_kh4_v117 (a : ArgVals) (hf : AFin a) : Fin' (kh4_v117 a.Wr) := by unfold kh4_v117; exact fin_slice _ _ _ _ _ hf.f11
theorem fin_kh5_v177 (a : ArgVals) (hf : AFin a) : Fin' (kh5_v177 a.Wr) := by unfold kh5_v177; exact fin_slice _ _ _ _ _ hf.f11
theorem fin_kh5_v179 (a : ArgVals) (hf : AFin a) : Fin' (kh5_v179 a.Wr) := by unfold kh5_v179; exact fin_slice _ _ _ _ _ hf.f11
theorem fin_kh6_v239 (a : ArgVals) (hf : AFin a) : Fin' (kh6_v239 a.Wr) := by unfold kh6_v239; exact fin_slice _ _ _ _ _ hf.f11
theorem fin_kh6_v241 (a : ArgVals) (hf : AFin a) : Fin' (kh6_v241 a.Wr) := by unfold kh6_v241; exact fin_slice _ _ _ _ _ hf.f11
theorem fin_kh7_v301 (a : ArgVals) (hf : AFin a) : Fin' (kh7_v301 a.Wr) := by unfold kh7_v301; exact fin_slice _ _ _ _ _ hf.f11
theorem fin_kh7_v303 (a : ArgVals) (hf : AFin a) : Fin' (kh7_v303 a.Wr) := by unfold kh7_v303; exact fin_slice _ _ _ _ _ hf.f11
theorem fin_kh8_v363 (a : ArgVals) (hf : AFin a) : Fin' (kh8_v363 a.Wr) := by unfold kh8_v363; exact fin_slice _ _ _ _ _ hf.f11
theorem fin_kh8_v365 (a : ArgVals) (hf : AFin a) : Fin' (kh8_v365 a.Wr) := by unfold kh8_v365; exact fin_slice _ _ _ _ _ hf.f11
theorem fin_kh9_v425 (a : ArgVals) (hf : AFin a) : Fin' (kh9_v425 a.Wr) := by unfold kh9_v425; exact fin_slice _ _ _ _ _ hf.f11
theorem fin_kh9_v427 (a : ArgVals) (hf : AFin a) : Fin' (kh9_v427 a.Wr) := by unfold kh9_v427; exact fin_slice _ _ _ _ _ hf.f11

/-! ## The input projections -/

theorem fin_XL (a : ArgVals) (hf : AFin a) : Fin' (XL a) := fin_lin _ _ _ hf.f0 hf.f3 hf.f4
theorem fin_XM (a : ArgVals) (hf : AFin a) : Fin' (XM a) := fin_lin _ _ _ hf.f1 hf.f5 hf.f6
theorem fin_XP (a : ArgVals) (hf : AFin a) : Fin' (XP a) := fin_lin _ _ _ hf.f2 hf.f7 hf.f8

/-! ## The first layer of combines -/

theorem fin_XL1 (a : ArgVals) (hf : AFin a) : Fin' (XL1 a) := by
  unfold XL1
  refine fin_sage_relu_stage hs150 _ _ (kh3_v58 a.bl) _ _ (kh3_v60 a.bl) _ (kh3_v53 a.Wr) (kh3_v55 a.Wr) ?_ ?_ ?_ ?_ ?_ ?_ (fin_XL a hf) (fin_kh3_v53 a hf) (fin_kh3_v55 a hf)
  · unfold kh3_v28; exact fin_agg _ _ _ _ _ _ _ _ _ _ _ _ _ _ _ _ _ _ _ (fin_XP a hf)
  · unfold kh3_v63; exact fin_slice _ _ _ _ _ hf.f9
  · unfold kh3_v58; exact fin_slice _ _ _ _ _ hf.f10
  · unfold kh3_v51; exact fin_agg _ _ _ _ _ _ _ _ _ _ _ _ _ _ _ _ _ _ _ (fin_XM a hf)
  · unfold kh3_v65; exact fin_slice _ _ _ _ _ hf.f9
  · unfold kh3_v60; exact fin_slice _ _ _ _ _ hf.f10

theorem fin_XM1 (a : ArgVals) (hf : AFin a) : Fin' (XM1 a) := by
  unfold XM1
  refine fin_sage_relu_stage hs150 _ _ (kh4_v120 a.bl) _ _ (kh4_v122 a.bl) _ (kh4_v115 a.Wr) (kh4_v117 a.Wr) ?_ ?_ ?_ ?_ ?_ ?_ (fin_XM a hf) (fin_kh4_v115 a hf) (fin_kh4_v117 a hf)
  · unfold kh4_v90; exact fin_agg _ _ _ _ _ _ _ _ _ _ _ _ _ _ _ _ _ _ _ (fin_XL a hf)
  · unfold kh4_v125; exact fin_slice _ _ _ _ _ hf.f9
  · unfold kh4_v120; exact fin_slice _ _ _ _ _ hf.f10
  · unfold kh4_v113; exact fin_agg _ _ _ _ _ _ _ _ _ _ _ _ _ _ _ _ _ _ _ (fin_XP a hf)
  · unfold kh4_v127; exact fin_slice _ _ _ _ _ hf.f9
  · unfold kh4_v122; exact fin_slice _ _ _ _ _ hf.f10

theorem fin_XP1 (a : ArgVals) (hf : AFin a) : Fin' (XP1 a) := by
  unfold XP1
  refine fin_sage_relu_stage hs150 _ _ (kh5_v182 a.bl) _ _ (kh5_v184 a.bl) _ (kh5_v177 a.Wr) (kh5_v179 a.Wr) ?_ ?_ ?_ ?_ ?_ ?_ (fin_XP a hf) (fin_kh5_v177 a hf) (fin_kh5_v179 a hf)
  · unfold kh5_v152; exact fin_agg _ _ _ _ _ _ _ _ _ _ _ _ _ _ _ _ _ _ _ (fin_XL a hf)
  · unfold kh5_v187; exact fin_slice _ _ _ _ _ hf.f9
  · unfold kh5_v182; exact fin_slice _ _ _ _ _ hf.f10
  · unfold kh5_v175; exact fin_agg _ _ _ _ _ _ _ _ _ _ _ _ _ _ _ _ _ _ _ (fin_XM a hf)
  · unfold kh5_v189; exact fin_slice _ _ _ _ _ hf.f9
  · unfold kh5_v184; exact fin_slice _ _ _ _ _ hf.f10

/-! ## The second layer of combines -/

theorem fin_XL2 (a : ArgVals) (hf : AFin a) : Fin' (XL2 a) := by
  unfold XL2
  refine fin_sage_relu_stage hs150 _ _ (kh6_v244 a.bl) _ _ (kh6_v246 a.bl) _ (kh6_v239 a.Wr) (kh6_v241 a.Wr) ?_ ?_ ?_ ?_ ?_ ?_ (fin_XL1 a hf) (fin_kh6_v239 a hf) (fin_kh6_v241 a hf)
  · unfold kh6_v214; exact fin_agg _ _ _ _ _ _ _ _ _ _ _ _ _ _ _ _ _ _ _ (fin_XP1 a hf)
  · unfold kh6_v249; exact fin_slice _ _ _ _ _ hf.f9
  · unfold kh6_v244; exact fin_slice _ _ _ _ _ hf.f10
  · unfold kh6_v237; exact fin_agg _ _ _ _ _ _ _ _ _ _ _ _ _ _ _ _ _ _ _ (fin_XM1 a hf)
  · unfold kh6_v251; exact fin_slice _ _ _ _ _ hf.f9
  · unfold kh6_v246; exact fin_slice _ _ _ _ _ hf.f10

theorem fin_XM2 (a : ArgVals) (hf : AFin a) : Fin' (XM2 a) := by
  unfold XM2
  refine fin_sage_relu_stage hs150 _ _ (kh7_v306 a.bl) _ _ (kh7_v308 a.bl) _ (kh7_v301 a.Wr) (kh7_v303 a.Wr) ?_ ?_ ?_ ?_ ?_ ?_ (fin_XM1 a hf) (fin_kh7_v301 a hf) (fin_kh7_v303 a hf)
  · unfold kh7_v276; exact fin_agg _ _ _ _ _ _ _ _ _ _ _ _ _ _ _ _ _ _ _ (fin_XL1 a hf)
  · unfold kh7_v311; exact fin_slice _ _ _ _ _ hf.f9
  · unfold kh7_v306; exact fin_slice _ _ _ _ _ hf.f10
  · unfold kh7_v299; exact fin_agg _ _ _ _ _ _ _ _ _ _ _ _ _ _ _ _ _ _ _ (fin_XP1 a hf)
  · unfold kh7_v313; exact fin_slice _ _ _ _ _ hf.f9
  · unfold kh7_v308; exact fin_slice _ _ _ _ _ hf.f10

theorem fin_XP2 (a : ArgVals) (hf : AFin a) : Fin' (XP2 a) := by
  unfold XP2
  refine fin_sage_relu_stage hs150 _ _ (kh8_v368 a.bl) _ _ (kh8_v370 a.bl) _ (kh8_v363 a.Wr) (kh8_v365 a.Wr) ?_ ?_ ?_ ?_ ?_ ?_ (fin_XP1 a hf) (fin_kh8_v363 a hf) (fin_kh8_v365 a hf)
  · unfold kh8_v338; exact fin_agg _ _ _ _ _ _ _ _ _ _ _ _ _ _ _ _ _ _ _ (fin_XL1 a hf)
  · unfold kh8_v373; exact fin_slice _ _ _ _ _ hf.f9
  · unfold kh8_v368; exact fin_slice _ _ _ _ _ hf.f10
  · unfold kh8_v361; exact fin_agg _ _ _ _ _ _ _ _ _ _ _ _ _ _ _ _ _ _ _ (fin_XM1 a hf)
  · unfold kh8_v375; exact fin_slice _ _ _ _ _ hf.f9
  · unfold kh8_v370; exact fin_slice _ _ _ _ _ hf.f10

end Cert.KernelIdeal.Val

end
-- ==== Proof.Region0.lean ====
/-
  A dense layer. The output array (50000 × 150) after the last write-back is x · w + b for the input x (50000 × 768),
  the weight w (768 × 150) and the bias row b (1 × 150) as the region finds them. The grid has 25 points; point t
  writes the 2000 rows from row 2000 t on, computed from the same rows of x and the whole of w and b, and these
  row blocks tile the output.
-/
import proofs.«141689_j63058709840619_1_alg».proof.Proof.FrameKI
import proofs.«141689_j63058709840619_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Idealize.ShloMosaic Idealize.ShloMosaic.ValueIdx Cert.KernelIdeal Cert.KernelIdeal.Gen Cert.KernelIdeal.GenP Cert.Spec
open Idealize.ShloMosaic.TcCoe
open Idealize.ShloMosaic.Pipeline (Dat)

/-! ## The body's result at an index -/

/-- Left operand, row axis: the output's row. -/
theorem lhs0_row (j : S2000x150.Idx) (k : dot_S2000x768_S768x150_S2000x150_1_0_0_1_n_n.contr.Idx) :
    (dot_S2000x768_S768x150_S2000x150_1_0_0_1_n_n.lhsIdx j k 0).val = (j 0).val := by
  unfold DotDims.lhsIdx
  rw [dif_neg (show ¬(0 : Fin S2000x768.rank) ∈ dot_S2000x768_S768x150_S2000x150_1_0_0_1_n_n.lhsBatch by decide),
    dif_pos (show (0 : Fin S2000x768.rank) ∈ dot_S2000x768_S768x150_S2000x150_1_0_0_1_n_n.lhsNonContracting by decide)]
  rfl

/-- Left operand, column axis: the contraction position. -/
theorem lhs0_col (j : S2000x150.Idx) (k : dot_S2000x768_S768x150_S2000x150_1_0_0_1_n_n.contr.Idx) :
    (dot_S2000x768_S768x150_S2000x150_1_0_0_1_n_n.lhsIdx j k 1).val = (k ⟨0, by decide⟩).val :=
  dot_S2000x768_S768x150_S2000x150_1_0_0_1_n_n.lhsIdx_val_of_single (cl := 1) rfl j k

/-- Right operand, row axis: the contraction position. -/
theorem rhs0_row (j : S2000x150.Idx) (k : dot_S2000x768_S768x150_S2000x150_1_0_0_1_n_n.contr.Idx) :
    (dot_S2000x768_S768x150_S2000x150_1_0_0_1_n_n.rhsIdx j k 0).val = (k ⟨0, by decide⟩).val :=
  dot_S2000x768_S768x150_S2000x150_1_0_0_1_n_n.rhsIdx_val_of_single (cr := 0) rfl j k

/-- Right operand, column axis: the output's column. -/
theorem rhs0_col (j : S2000x150.Idx) (k : dot_S2000x768_S768x150_S2000x150_1_0_0_1_n_n.contr.Idx) :
    (dot_S2000x768_S768x150_S2000x150_1_0_0_1_n_n.rhsIdx j k 1).val = (j 1).val := by
  unfold DotDims.rhsIdx
  rw [dif_neg (show ¬(1 : Fin S768x150.rank) ∈ dot_S2000x768_S768x150_S2000x150_1_0_0_1_n_n.rhsBatch by decide),
    dif_pos (show (1 : Fin S768x150.rank) ∈ dot_S2000x768_S768x150_S2000x150_1_0_0_1_n_n.rhsNonContracting by decide)]
  rfl

/-- The block product at (p, q): the sum over the 768 shared positions. -/
theorem mm0_apply (a : FVec Ideal S2000x768 .bf16) (b : FVec Ideal S768x150 .bf16) (p : Fin 2000) (q : Fin 150) :
    matmul dot_S2000x768_S768x150_S2000x150_1_0_0_1_n_n none a b (constant (F := Ideal) S2000x150 .f32 0x00000000#32) (ix2 p q)
      = ∑ k : Fin 768, a (ix2 p k) * b (ix2 k q) := by
  show FloatOps.matmul dot_S2000x768_S768x150_S2000x150_1_0_0_1_n_n none a b (constant (F := Ideal) S2000x150 .f32 0x00000000#32) (ix2 p q) = _
  rw [Ideal.matmul_constant_zero_apply,
    ← Equiv.sum_comp (contrEquiv1 dot_S2000x768_S768x150_S2000x150_1_0_0_1_n_n 768 rfl rfl).symm]
  refine Finset.sum_congr rfl fun k _ => ?_
  have hk := contrEquiv1_symm_val dot_S2000x768_S768x150_S2000x150_1_0_0_1_n_n 768 rfl rfl k
  congr 2
  · funext ax; apply Fin.ext
    match ax with
    | ⟨0, _⟩ => exact lhs0_row _ _
    | ⟨1, _⟩ => exact (lhs0_col _ _).trans hk
  · funext ax; apply Fin.ext
    match ax with
    | ⟨0, _⟩ => exact (rhs0_row _ _).trans hk
    | ⟨1, _⟩ => exact rhs0_col _ _

/-- The body's result at (p, q): row p of the x block against column q of w, plus the bias at q. -/
theorem pay0_apply (x0 : Vec Ideal S2000x768 .f32) (x1 : Vec Ideal S768x150 .f32) (x2 : Vec Ideal S1x150 .f32)
    (p : Fin 2000) (q : Fin 150) :
    k0_pay1 x0 x1 x2 (ix2 p q) = (∑ k : Fin 768, x0 (ix2 p k) * x1 (ix2 k q)) + x2 (ix2 (0 : Fin 1) q) := by
  unfold k0_pay1
  rw [addf_apply, mm0_apply, broadcastTo_1b_ab_apply]
  simp only [shapeCast_self, truncf_apply]

/-- The dense layer at (r, q), written out. -/
theorem lin0_at (x : Mat 50000 768) (w : Mat 768 150) (b : Mat 1 150) (r : Fin 50000) (q : Fin 150) :
    lin x w (rowOf b) (ix2 r q) = (∑ k : Fin 768, x (ix2 r k) * w (ix2 k q)) + b (ix2 (0 : Fin 1) q) := rfl

/-! ## Where the blocks sit -/

variable (V : (c : Dev nD) → (b : Ref sig .tc) → Buf (Elt Ideal) ((c : Thread nD τ).loc b))

theorem zero_off0 : (![0, 0] : Fin 2 → Nat) = fun _ => 0 := funext fun a => by fin_cases a <;> rfl

/-- Over the grid: the x block and the output block of point t are block (t, 0); the w block and the bias block
    are block (0, 0). -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem pt_lt0 (t : Fin cfg0.N) : t.val < 25 := lt_of_lt_of_eq t.isLt N_0

/-- Row p of the x block at point t is row 2000 t + p of x. -/
theorem xblk0 (c : Dev nD) (t : Fin cfg0.N) (p : Fin 2000) (k : Fin 768) (r : Fin 50000)
    (hr : r.val = t.val * 2000 + p.val) :
    (iblk0 V c 0 t : Vec Ideal S2000x768 .f32) (ix2 p k) = (V c main_arg0 : S50000x768.Idx → Elt Ideal .f32) (ix2 r k) := by
  obtain ⟨e0, e1, -⟩ := idx0 t
  unfold iblk0
  rw [View.read_apply]
  show V c main_arg0 _ = V c main_arg0 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 768 + 1 * k.val = k.val; rw [e1]; omega

/-- The w block at every point is w. -/
theorem wblk0 (c : Dev nD) (t : Fin cfg0.N) (k : Fin 768) (q : Fin 150) :
    (iblk0 V c 1 t : Vec Ideal S768x150 .f32) (ix2 k q) = (V c main_arg3 : S768x150.Idx → Elt Ideal .f32) (ix2 k q) := by
  obtain ⟨-, -, e2, e3, -⟩ := idx0 t
  unfold iblk0
  rw [View.read_apply]
  show V c main_arg3 _ = V c main_arg3 _
  congr 1
  funext a
  apply Fin.ext
  match a with
  | ⟨0, _⟩ => show win0_1.index t (0 : Fin 2) * 768 + 1 * k.val = k.val; rw [e2]; omega
  | ⟨1, _⟩ => show win0_1.index t (1 : Fin 2) * 150 + 1 * q.val = q.val; rw [e3]; omega

/-- The bias block at every point is the bias. -/
theorem bblk0 (c : Dev nD) (t : Fin cfg0.N) (q : Fin 150) :
    (iblk0 V c 2 t : Vec Ideal S1x150 .f32) (ix2 (0 : Fin 1) q) = (V c main_v0 : S1x150.Idx → Elt Ideal .f32) (ix2 (0 : Fin 1) q) := by
  obtain ⟨-, -, -, -, e4, e5, -⟩ := idx0 t
  unfold iblk0
  rw [View.read_apply]
  show V c main_v0 _ = V c main_v0 _
  congr 1
  funext a
  apply Fin.ext
  match a with
  | ⟨0, _⟩ => show win0_2.index t (0 : Fin 2) * 1 + 1 * (0 : Fin 1).val = (0 : Fin 1).val; rw [e4]; rfl
  | ⟨1, _⟩ => show win0_2.index t (1 : Fin 2) * 150 + 1 * q.val = q.val; rw [e5]; omega

/-- Entry (p, q) of the output block at point t is entry (2000 t + p, q) of the output. -/
theorem oemb0 (t : Fin cfg0.N) (p : Fin 2000) (q : Fin 150) :
    ∃ r : Fin 50000, r.val = t.val * 2000 + p.val ∧ ((cfg0.win 3).blk t).view.emb (ix2 p q) = ix2 r q := by
  obtain ⟨-, -, -, -, -, -, e6, e7⟩ := idx0 t
  have ht := pt_lt0 t
  have hp := p.isLt
  refine ⟨⟨t.val * 2000 + p.val, by omega⟩, rfl, ?_⟩
  funext a
  apply Fin.ext
  match a with
  | ⟨0, _⟩ => show win0_3.index t (0 : Fin 2) * 2000 + 1 * p.val = t.val * 2000 + p.val; rw [e6]; omega
  | ⟨1, _⟩ => show win0_3.index t (1 : Fin 2) * 150 + 1 * q.val = q.val; rw [e7]; omega

/-! ## What a point writes back, and the array after the last point -/

/-- Point t writes back block t of the dense layer of the whole arrays. -/
theorem flushed0_eq (c : Dev nD) (t : Fin cfg0.N) :
    (dat0 (F := Ideal) V c).flushed 3 t
      = ((cfg0.win 3).blk t).view.read (Elt Ideal)
          (lin (M := 50000) (K := 768) (N := 150) (V c main_arg0) (V c main_arg3) (rowOf (V c main_v0))) := by
  show (cfg0.win 3).cut (grid0.coords t) ((dat0 V c).after 3 t) = _
  rw [after0_3]
  unfold out0_3
  rw [View.canon_unit_zero zero_off0]
  simp only [View.ld_unit_zero (S := S2000x768) zero_off0, View.ld_unit_zero (S := S768x150) zero_off0,
    View.ld_unit_zero (S := S1x150) zero_off0]
  funext j
  obtain ⟨p, q, rfl⟩ : ∃ (p : Fin 2000) (q : Fin 150), j = ix2 p q := ⟨j 0, j 1, eq_ix2 j⟩
  show k0_pay1 (iblk0 V c 0 t) (iblk0 V c 1 t) (iblk0 V c 2 t) (ix2 p q)
    = lin (M := 50000) (K := 768) (N := 150) (V c main_arg0) (V c main_arg3) (rowOf (V c main_v0))
        (((cfg0.win 3).blk t).view.emb (ix2 p q))
  obtain ⟨r, hr, he⟩ := oemb0 t p q
  rw [he]
  refine (pay0_apply _ _ _ p q).trans (Eq.trans ?_ (lin0_at _ _ _ r q).symm)
  exact congrArg₂ (· + ·)
    (Finset.sum_congr rfl fun k _ => congrArg₂ (· * ·) (xblk0 V c t p k r hr) (wblk0 V c t k q))
    (bblk0 V c t q)

/-- An index of the output is in point t's block iff each coordinate is in the block's range on its axis. -/
theorem mem_blk0 (t : Fin cfg0.N) (i : S50000x150.Idx) :
    i ∈ ((cfg0.win 3).blk t).view.set ↔ ∀ a : Fin 2, win0_3.index t a * S2000x150.size a ≤ (i a).val
      ∧ (i a).val < win0_3.index t a * S2000x150.size a + S2000x150.size a := by
  show i ∈ ((View.whole main_v1).slice (win0_3.rect t)).set ↔ _
  rw [View.set_slice_whole, Rect.mem_set_unit]
  exact Iff.rfl

/-- Row r of the output lies in the block of point r / 2000. -/
theorem cover0 (i : S50000x150.Idx) :
    ∃ t : Fin cfg0.N, (cfg0.win 3).flush t = true ∧ i ∈ ((cfg0.win 3).blk t).view.set := by
  have hi0 : (i 0).val < 50000 := (i 0).isLt
  have hi1 : (i 1).val < 150 := (i 1).isLt
  obtain ⟨t, ht⟩ : ∃ t : Fin cfg0.N, t.val = (i 0).val / 2000 :=
    ⟨⟨(i 0).val / 2000, lt_of_lt_of_eq (show (i 0).val / 2000 < 25 by omega) N_0.symm⟩, rfl⟩
  obtain ⟨-, -, -, -, -, -, e6, e7⟩ := idx0 t
  refine ⟨t, flush0_3 t, ?_⟩
  rw [mem_blk0]
  intro a
  match a with
  | ⟨0, _⟩ =>
    show win0_3.index t (0 : Fin 2) * 2000 ≤ (i 0).val ∧ (i 0).val < win0_3.index t (0 : Fin 2) * 2000 + 2000
    rw [e6, ht]; omega
  | ⟨1, _⟩ =>
    show win0_3.index t (1 : Fin 2) * 150 ≤ (i 1).val ∧ (i 1).val < win0_3.index t (1 : Fin 2) * 150 + 150
    rw [e7]; omega

/-- After the last write-back the output array is the dense layer x · w + b of the arrays the region found. -/
theorem final0 (c : Dev nD) :
    (dat0 (F := Ideal) V c).arrAt 3 cfg0.N
      = lin (M := 50000) (K := 768) (N := 150) (V c main_arg0) (V c main_arg3) (rowOf (V c main_v0)) :=
  (dat0 (F := Ideal) V c).arrAt_eq_of_cover 3 _ (fun t _ => flushed0_eq V c t) cover0

end Cert.KernelIdeal.Val

end
-- ==== Proof.Region1.lean ====
/-
  A dense layer. The output array (2000 × 150) after the last write-back is x · w + b for the input x (2000 × 768),
  the weight w (768 × 150) and the bias row b (1 × 150) as the region finds them. The grid has 1 points; point t
  writes the 2000 rows from row 2000 t on, computed from the same rows of x and the whole of w and b, and these
  row blocks tile the output.
-/
import proofs.«141689_j63058709840619_1_alg».proof.Proof.FrameKI
import proofs.«141689_j63058709840619_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Idealize.ShloMosaic Idealize.ShloMosaic.ValueIdx Cert.KernelIdeal Cert.KernelIdeal.Gen Cert.KernelIdeal.GenP Cert.Spec
open Idealize.ShloMosaic.TcCoe
open Idealize.ShloMosaic.Pipeline (Dat)

/-! ## The body's result at an index -/

/-- Left operand, row axis: the output's row. -/
theorem lhs1_row (j : S2000x150.Idx) (k : dot_S2000x768_S768x150_S2000x150_1_0_0_1_n_n.contr.Idx) :
    (dot_S2000x768_S768x150_S2000x150_1_0_0_1_n_n.lhsIdx j k 0).val = (j 0).val := by
  unfold DotDims.lhsIdx
  rw [dif_neg (show ¬(0 : Fin S2000x768.rank) ∈ dot_S2000x768_S768x150_S2000x150_1_0_0_1_n_n.lhsBatch by decide),
    dif_pos (show (0 : Fin S2000x768.rank) ∈ dot_S2000x768_S768x150_S2000x150_1_0_0_1_n_n.lhsNonContracting by decide)]
  rfl

/-- Left operand, column axis: the contraction position. -/
theorem lhs1_col (j : S2000x150.Idx) (k : dot_S2000x768_S768x150_S2000x150_1_0_0_1_n_n.contr.Idx) :
    (dot_S2000x768_S768x150_S2000x150_1_0_0_1_n_n.lhsIdx j k 1).val = (k ⟨0, by decide⟩).val :=
  dot_S2000x768_S768x150_S2000x150_1_0_0_1_n_n.lhsIdx_val_of_single (cl := 1) rfl j k

/-- Right operand, row axis: the contraction position. -/
theorem rhs1_row (j : S2000x150.Idx) (k : dot_S2000x768_S768x150_S2000x150_1_0_0_1_n_n.contr.Idx) :
    (dot_S2000x768_S768x150_S2000x150_1_0_0_1_n_n.rhsIdx j k 0).val = (k ⟨0, by decide⟩).val :=
  dot_S2000x768_S768x150_S2000x150_1_0_0_1_n_n.rhsIdx_val_of_single (cr := 0) rfl j k

/-- Right operand, column axis: the output's column. -/
theorem rhs1_col (j : S2000x150.Idx) (k : dot_S2000x768_S768x150_S2000x150_1_0_0_1_n_n.contr.Idx) :
    (dot_S2000x768_S768x150_S2000x150_1_0_0_1_n_n.rhsIdx j k 1).val = (j 1).val := by
  unfold DotDims.rhsIdx
  rw [dif_neg (show ¬(1 : Fin S768x150.rank) ∈ dot_S2000x768_S768x150_S2000x150_1_0_0_1_n_n.rhsBatch by decide),
    dif_pos (show (1 : Fin S768x150.rank) ∈ dot_S2000x768_S768x150_S2000x150_1_0_0_1_n_n.rhsNonContracting by decide)]
  rfl

/-- The block product at (p, q): the sum over the 768 shared positions. -/
theorem mm1_apply (a : FVec Ideal S2000x768 .bf16) (b : FVec Ideal S768x150 .bf16) (p : Fin 2000) (q : Fin 150) :
    matmul dot_S2000x768_S768x150_S2000x150_1_0_0_1_n_n none a b (constant (F := Ideal) S2000x150 .f32 0x00000000#32) (ix2 p q)
      = ∑ k : Fin 768, a (ix2 p k) * b (ix2 k q) := by
  show FloatOps.matmul dot_S2000x768_S768x150_S2000x150_1_0_0_1_n_n none a b (constant (F := Ideal) S2000x150 .f32 0x00000000#32) (ix2 p q) = _
  rw [Ideal.matmul_constant_zero_apply,
    ← Equiv.sum_comp (contrEquiv1 dot_S2000x768_S768x150_S2000x150_1_0_0_1_n_n 768 rfl rfl).symm]
  refine Finset.sum_congr rfl fun k _ => ?_
  have hk := contrEquiv1_symm_val dot_S2000x768_S768x150_S2000x150_1_0_0_1_n_n 768 rfl rfl k
  congr 2
  · funext ax; apply Fin.ext
    match ax with
    | ⟨0, _⟩ => exact lhs1_row _ _
    | ⟨1, _⟩ => exact (lhs1_col _ _).trans hk
  · funext ax; apply Fin.ext
    match ax with
    | ⟨0, _⟩ => exact (rhs1_row _ _).trans hk
    | ⟨1, _⟩ => exact rhs1_col _ _

/-- The body's result at (p, q): row p of the x block against column q of w, plus the bias at q. -/
theorem pay1_apply (x0 : Vec Ideal S2000x768 .f32) (x1 : Vec Ideal S768x150 .f32) (x2 : Vec Ideal S1x150 .f32)
    (p : Fin 2000) (q : Fin 150) :
    k1_pay1 x0 x1 x2 (ix2 p q) = (∑ k : Fin 768, x0 (ix2 p k) * x1 (ix2 k q)) + x2 (ix2 (0 : Fin 1) q) := by
  unfold k1_pay1
  rw [addf_apply, mm1_apply, broadcastTo_1b_ab_apply]
  simp only [shapeCast_self, truncf_apply]

/-- The dense layer at (r, q), written out. -/
theorem lin1_at (x : Mat 2000 768) (w : Mat 768 150) (b : Mat 1 150) (r : Fin 2000) (q : Fin 150) :
    lin x w (rowOf b) (ix2 r q) = (∑ k : Fin 768, x (ix2 r k) * w (ix2 k q)) + b (ix2 (0 : Fin 1) q) := rfl

/-! ## Where the blocks sit -/

variable (V : (c : Dev nD) → (b : Ref sig .tc) → Buf (Elt Ideal) ((c : Thread nD τ).loc b))

theorem zero_off1 : (![0, 0] : Fin 2 → Nat) = fun _ => 0 := funext fun a => by fin_cases a <;> rfl

/-- Over the grid: the x block and the output block of point t are block (t, 0); the w block and the bias block
    are block (0, 0). -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem pt_lt1 (t : Fin cfg1.N) : t.val < 1 := lt_of_lt_of_eq t.isLt N_1

/-- Row p of the x block at point t is row 2000 t + p of x. -/
theorem xblk1 (c : Dev nD) (t : Fin cfg1.N) (p : Fin 2000) (k : Fin 768) (r : Fin 2000)
    (hr : r.val = t.val * 2000 + p.val) :
    (iblk1 V c 0 t : Vec Ideal S2000x768 .f32) (ix2 p k) = (V c main_arg1 : S2000x768.Idx → Elt Ideal .f32) (ix2 r k) := by
  obtain ⟨e0, e1, -⟩ := idx1 t
  unfold iblk1
  rw [View.read_apply]
  show V c main_arg1 _ = V c main_arg1 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 768 + 1 * k.val = k.val; rw [e1]; omega

/-- The w block at every point is w. -/
theorem wblk1 (c : Dev nD) (t : Fin cfg1.N) (k : Fin 768) (q : Fin 150) :
    (iblk1 V c 1 t : Vec Ideal S768x150 .f32) (ix2 k q) = (V c main_arg5 : S768x150.Idx → Elt Ideal .f32) (ix2 k q) := by
  obtain ⟨-, -, e2, e3, -⟩ := idx1 t
  unfold iblk1
  rw [View.read_apply]
  show V c main_arg5 _ = V c main_arg5 _
  congr 1
  funext a
  apply Fin.ext
  match a with
  | ⟨0, _⟩ => show win1_1.index t (0 : Fin 2) * 768 + 1 * k.val = k.val; rw [e2]; omega
  | ⟨1, _⟩ => show win1_1.index t (1 : Fin 2) * 150 + 1 * q.val = q.val; rw [e3]; omega

/-- The bias block at every point is the bias. -/
theorem bblk1 (c : Dev nD) (t : Fin cfg1.N) (q : Fin 150) :
    (iblk1 V c 2 t : Vec Ideal S1x150 .f32) (ix2 (0 : Fin 1) q) = (V c main_v2 : S1x150.Idx → Elt Ideal .f32) (ix2 (0 : Fin 1) q) := by
  obtain ⟨-, -, -, -, e4, e5, -⟩ := idx1 t
  unfold iblk1
  rw [View.read_apply]
  show V c main_v2 _ = V c main_v2 _
  congr 1
  funext a
  apply Fin.ext
  match a with
  | ⟨0, _⟩ => show win1_2.index t (0 : Fin 2) * 1 + 1 * (0 : Fin 1).val = (0 : Fin 1).val; rw [e4]; rfl
  | ⟨1, _⟩ => show win1_2.index t (1 : Fin 2) * 150 + 1 * q.val = q.val; rw [e5]; omega

/-- Entry (p, q) of the output block at point t is entry (2000 t + p, q) of the output. -/
theorem oemb1 (t : Fin cfg1.N) (p : Fin 2000) (q : Fin 150) :
    ∃ r : Fin 2000, r.val = t.val * 2000 + p.val ∧ ((cfg1.win 3).blk t).view.emb (ix2 p q) = ix2 r q := by
  obtain ⟨-, -, -, -, -, -, e6, e7⟩ := idx1 t
  have ht := pt_lt1 t
  have hp := p.isLt
  refine ⟨⟨t.val * 2000 + p.val, by omega⟩, rfl, ?_⟩
  funext a
  apply Fin.ext
  match a with
  | ⟨0, _⟩ => show win1_3.index t (0 : Fin 2) * 2000 + 1 * p.val = t.val * 2000 + p.val; rw [e6]; omega
  | ⟨1, _⟩ => show win1_3.index t (1 : Fin 2) * 150 + 1 * q.val = q.val; rw [e7]; omega

/-! ## What a point writes back, and the array after the last point -/

/-- Point t writes back block t of the dense layer of the whole arrays. -/
theorem flushed1_eq (c : Dev nD) (t : Fin cfg1.N) :
    (dat1 (F := Ideal) V c).flushed 3 t
      = ((cfg1.win 3).blk t).view.read (Elt Ideal)
          (lin (M := 2000) (K := 768) (N := 150) (V c main_arg1) (V c main_arg5) (rowOf (V c main_v2))) := by
  show (cfg1.win 3).cut (grid1.coords t) ((dat1 V c).after 3 t) = _
  rw [after1_3]
  unfold out1_3
  rw [View.canon_unit_zero zero_off1]
  simp only [View.ld_unit_zero (S := S2000x768) zero_off1, View.ld_unit_zero (S := S768x150) zero_off1,
    View.ld_unit_zero (S := S1x150) zero_off1]
  funext j
  obtain ⟨p, q, rfl⟩ : ∃ (p : Fin 2000) (q : Fin 150), j = ix2 p q := ⟨j 0, j 1, eq_ix2 j⟩
  show k1_pay1 (iblk1 V c 0 t) (iblk1 V c 1 t) (iblk1 V c 2 t) (ix2 p q)
    = lin (M := 2000) (K := 768) (N := 150) (V c main_arg1) (V c main_arg5) (rowOf (V c main_v2))
        (((cfg1.win 3).blk t).view.emb (ix2 p q))
  obtain ⟨r, hr, he⟩ := oemb1 t p q
  rw [he]
  refine (pay1_apply _ _ _ p q).trans (Eq.trans ?_ (lin1_at _ _ _ r q).symm)
  exact congrArg₂ (· + ·)
    (Finset.sum_congr rfl fun k _ => congrArg₂ (· * ·) (xblk1 V c t p k r hr) (wblk1 V c t k q))
    (bblk1 V c t q)

/-- An index of the output is in point t's block iff each coordinate is in the block's range on its axis. -/
theorem mem_blk1 (t : Fin cfg1.N) (i : S2000x150.Idx) :
    i ∈ ((cfg1.win 3).blk t).view.set ↔ ∀ a : Fin 2, win1_3.index t a * S2000x150.size a ≤ (i a).val
      ∧ (i a).val < win1_3.index t a * S2000x150.size a + S2000x150.size a := by
  show i ∈ ((View.whole main_v3).slice (win1_3.rect t)).set ↔ _
  rw [View.set_slice_whole, Rect.mem_set_unit]
  exact Iff.rfl

/-- Row r of the output lies in the block of point r / 2000. -/
theorem cover1 (i : S2000x150.Idx) :
    ∃ t : Fin cfg1.N, (cfg1.win 3).flush t = true ∧ i ∈ ((cfg1.win 3).blk t).view.set := by
  have hi0 : (i 0).val < 2000 := (i 0).isLt
  have hi1 : (i 1).val < 150 := (i 1).isLt
  obtain ⟨t, ht⟩ : ∃ t : Fin cfg1.N, t.val = (i 0).val / 2000 :=
    ⟨⟨(i 0).val / 2000, lt_of_lt_of_eq (show (i 0).val / 2000 < 1 by omega) N_1.symm⟩, rfl⟩
  obtain ⟨-, -, -, -, -, -, e6, e7⟩ := idx1 t
  refine ⟨t, flush1_3 t, ?_⟩
  rw [mem_blk1]
  intro a
  match a with
  | ⟨0, _⟩ =>
    show win1_3.index t (0 : Fin 2) * 2000 ≤ (i 0).val ∧ (i 0).val < win1_3.index t (0 : Fin 2) * 2000 + 2000
    rw [e6, ht]; omega
  | ⟨1, _⟩ =>
    show win1_3.index t (1 : Fin 2) * 150 ≤ (i 1).val ∧ (i 1).val < win1_3.index t (1 : Fin 2) * 150 + 150
    rw [e7]; omega

/-- After the last write-back the output array is the dense layer x · w + b of the arrays the region found. -/
theorem final1 (c : Dev nD) :
    (dat1 (F := Ideal) V c).arrAt 3 cfg1.N
      = lin (M := 2000) (K := 768) (N := 150) (V c main_arg1) (V c main_arg5) (rowOf (V c main_v2)) :=
  (dat1 (F := Ideal) V c).arrAt_eq_of_cover 3 _ (fun t _ => flushed1_eq V c t) cover1

end Cert.KernelIdeal.Val

end
-- ==== Proof.Region2.lean ====
/-
  A dense layer. The output array (20000 × 150) after the last write-back is x · w + b for the input x (20000 × 1024),
  the weight w (1024 × 150) and the bias row b (1 × 150) as the region finds them. The grid has 10 points; point t
  writes the 2000 rows from row 2000 t on, computed from the same rows of x and the whole of w and b, and these
  row blocks tile the output.
-/
import proofs.«141689_j63058709840619_1_alg».proof.Proof.FrameKI
import proofs.«141689_j63058709840619_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Idealize.ShloMosaic Idealize.ShloMosaic.ValueIdx Cert.KernelIdeal Cert.KernelIdeal.Gen Cert.KernelIdeal.GenP Cert.Spec
open Idealize.ShloMosaic.TcCoe
open Idealize.ShloMosaic.Pipeline (Dat)

/-! ## The body's result at an index -/

/-- Left operand, row axis: the output's row. -/
theorem lhs2_row (j : S2000x150.Idx) (k : dot_S2000x1024_S1024x150_S2000x150_1_0_0_1_n_n.contr.Idx) :
    (dot_S2000x1024_S1024x150_S2000x150_1_0_0_1_n_n.lhsIdx j k 0).val = (j 0).val := by
  unfold DotDims.lhsIdx
  rw [dif_neg (show ¬(0 : Fin S2000x1024.rank) ∈ dot_S2000x1024_S1024x150_S2000x150_1_0_0_1_n_n.lhsBatch by decide),
    dif_pos (show (0 : Fin S2000x1024.rank) ∈ dot_S2000x1024_S1024x150_S2000x150_1_0_0_1_n_n.lhsNonContracting by decide)]
  rfl

/-- Left operand, column axis: the contraction position. -/
theorem lhs2_col (j : S2000x150.Idx) (k : dot_S2000x1024_S1024x150_S2000x150_1_0_0_1_n_n.contr.Idx) :
    (dot_S2000x1024_S1024x150_S2000x150_1_0_0_1_n_n.lhsIdx j k 1).val = (k ⟨0, by decide⟩).val :=
  dot_S2000x1024_S1024x150_S2000x150_1_0_0_1_n_n.lhsIdx_val_of_single (cl := 1) rfl j k

/-- Right operand, row axis: the contraction position. -/
theorem rhs2_row (j : S2000x150.Idx) (k : dot_S2000x1024_S1024x150_S2000x150_1_0_0_1_n_n.contr.Idx) :
    (dot_S2000x1024_S1024x150_S2000x150_1_0_0_1_n_n.rhsIdx j k 0).val = (k ⟨0, by decide⟩).val :=
  dot_S2000x1024_S1024x150_S2000x150_1_0_0_1_n_n.rhsIdx_val_of_single (cr := 0) rfl j k

/-- Right operand, column axis: the output's column. -/
theorem rhs2_col (j : S2000x150.Idx) (k : dot_S2000x1024_S1024x150_S2000x150_1_0_0_1_n_n.contr.Idx) :
    (dot_S2000x1024_S1024x150_S2000x150_1_0_0_1_n_n.rhsIdx j k 1).val = (j 1).val := by
  unfold DotDims.rhsIdx
  rw [dif_neg (show ¬(1 : Fin S1024x150.rank) ∈ dot_S2000x1024_S1024x150_S2000x150_1_0_0_1_n_n.rhsBatch by decide),
    dif_pos (show (1 : Fin S1024x150.rank) ∈ dot_S2000x1024_S1024x150_S2000x150_1_0_0_1_n_n.rhsNonContracting by decide)]
  rfl

/-- The block product at (p, q): the sum over the 1024 shared positions. -/
theorem mm2_apply (a : FVec Ideal S2000x1024 .bf16) (b : FVec Ideal S1024x150 .bf16) (p : Fin 2000) (q : Fin 150) :
    matmul dot_S2000x1024_S1024x150_S2000x150_1_0_0_1_n_n none a b (constant (F := Ideal) S2000x150 .f32 0x00000000#32) (ix2 p q)
      = ∑ k : Fin 1024, a (ix2 p k) * b (ix2 k q) := by
  show FloatOps.matmul dot_S2000x1024_S1024x150_S2000x150_1_0_0_1_n_n none a b (constant (F := Ideal) S2000x150 .f32 0x00000000#32) (ix2 p q) = _
  rw [Ideal.matmul_constant_zero_apply,
    ← Equiv.sum_comp (contrEquiv1 dot_S2000x1024_S1024x150_S2000x150_1_0_0_1_n_n 1024 rfl rfl).symm]
  refine Finset.sum_congr rfl fun k _ => ?_
  have hk := contrEquiv1_symm_val dot_S2000x1024_S1024x150_S2000x150_1_0_0_1_n_n 1024 rfl rfl k
  congr 2
  · funext ax; apply Fin.ext
    match ax with
    | ⟨0, _⟩ => exact lhs2_row _ _
    | ⟨1, _⟩ => exact (lhs2_col _ _).trans hk
  · funext ax; apply Fin.ext
    match ax with
    | ⟨0, _⟩ => exact (rhs2_row _ _).trans hk
    | ⟨1, _⟩ => exact rhs2_col _ _

/-- The body's result at (p, q): row p of the x block against column q of w, plus the bias at q. -/
theorem pay2_apply (x0 : Vec Ideal S2000x1024 .f32) (x1 : Vec Ideal S1024x150 .f32) (x2 : Vec Ideal S1x150 .f32)
    (p : Fin 2000) (q : Fin 150) :
    k2_pay1 x0 x1 x2 (ix2 p q) = (∑ k : Fin 1024, x0 (ix2 p k) * x1 (ix2 k q)) + x2 (ix2 (0 : Fin 1) q) := by
  unfold k2_pay1
  rw [addf_apply, mm2_apply, broadcastTo_1b_ab_apply]
  simp only [shapeCast_self, truncf_apply]

/-- The dense layer at (r, q), written out. -/
theorem lin2_at (x : Mat 20000 1024) (w : Mat 1024 150) (b : Mat 1 150) (r : Fin 20000) (q : Fin 150) :
    lin x w (rowOf b) (ix2 r q) = (∑ k : Fin 1024, x (ix2 r k) * w (ix2 k q)) + b (ix2 (0 : Fin 1) q) := rfl

/-! ## Where the blocks sit -/

variable (V : (c : Dev nD) → (b : Ref sig .tc) → Buf (Elt Ideal) ((c : Thread nD τ).loc b))

theorem zero_off2 : (![0, 0] : Fin 2 → Nat) = fun _ => 0 := funext fun a => by fin_cases a <;> rfl

/-- Over the grid: the x block and the output block of point t are block (t, 0); the w block and the bias block
    are block (0, 0). -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem pt_lt2 (t : Fin cfg2.N) : t.val < 10 := lt_of_lt_of_eq t.isLt N_2

/-- Row p of the x block at point t is row 2000 t + p of x. -/
theorem xblk2 (c : Dev nD) (t : Fin cfg2.N) (p : Fin 2000) (k : Fin 1024) (r : Fin 20000)
    (hr : r.val = t.val * 2000 + p.val) :
    (iblk2 V c 0 t : Vec Ideal S2000x1024 .f32) (ix2 p k) = (V c main_arg2 : S20000x1024.Idx → Elt Ideal .f32) (ix2 r k) := by
  obtain ⟨e0, e1, -⟩ := idx2 t
  unfold iblk2
  rw [View.read_apply]
  show V c main_arg2 _ = V c main_arg2 _
  congr 1
  funext a
  apply Fin.ext
  match a with
  | ⟨0, _⟩ => show win2_0.index t (0 : Fin 2) * 2000 + 1 * p.val = r.val; rw [e0, hr]; omega
  | ⟨1, _⟩ => show win2_0.index t (1 : Fin 2) * 1024 + 1 * k.val = k.val; rw [e1]; omega

/-- The w block at every point is w. -/
theorem wblk2 (c : Dev nD) (t : Fin cfg2.N) (k : Fin 1024) (q : Fin 150) :
    (iblk2 V c 1 t : Vec Ideal S1024x150 .f32) (ix2 k q) = (V c main_arg7 : S1024x150.Idx → Elt Ideal .f32) (ix2 k q) := by
  obtain ⟨-, -, e2, e3, -⟩ := idx2 t
  unfold iblk2
  rw [View.read_apply]
  show V c main_arg7 _ = V c main_arg7 _
  congr 1
  funext a
  apply Fin.ext
  match a with
  | ⟨0, _⟩ => show win2_1.index t (0 : Fin 2) * 1024 + 1 * k.val = k.val; rw [e2]; omega
  | ⟨1, _⟩ => show win2_1.index t (1 : Fin 2) * 150 + 1 * q.val = q.val; rw [e3]; omega

/-- The bias block at every point is the bias. -/
theorem bblk2 (c : Dev nD) (t : Fin cfg2.N) (q : Fin 150) :
    (iblk2 V c 2 t : Vec Ideal S1x150 .f32) (ix2 (0 : Fin 1) q) = (V c main_v4 : S1x150.Idx → Elt Ideal .f32) (ix2 (0 : Fin 1) q) := by
  obtain ⟨-, -, -, -, e4, e5, -⟩ := idx2 t
  unfold iblk2
  rw [View.read_apply]
  show V c main_v4 _ = V c main_v4 _
  congr 1
  funext a
  apply Fin.ext
  match a with
  | ⟨0, _⟩ => show win2_2.index t (0 : Fin 2) * 1 + 1 * (0 : Fin 1).val = (0 : Fin 1).val; rw [e4]; rfl
  | ⟨1, _⟩ => show win2_2.index t (1 : Fin 2) * 150 + 1 * q.val = q.val; rw [e5]; omega

/-- Entry (p, q) of the output block at point t is entry (2000 t + p, q) of the output. -/
theorem oemb2 (t : Fin cfg2.N) (p : Fin 2000) (q : Fin 150) :
    ∃ r : Fin 20000, r.val = t.val * 2000 + p.val ∧ ((cfg2.win 3).blk t).view.emb (ix2 p q) = ix2 r q := by
  obtain ⟨-, -, -, -, -, -, e6, e7⟩ := idx2 t
  have ht := pt_lt2 t
  have hp := p.isLt
  refine ⟨⟨t.val * 2000 + p.val, by omega⟩, rfl, ?_⟩
  funext a
  apply Fin.ext
  match a with
  | ⟨0, _⟩ => show win2_3.index t (0 : Fin 2) * 2000 + 1 * p.val = t.val * 2000 + p.val; rw [e6]; omega
  | ⟨1, _⟩ => show win2_3.index t (1 : Fin 2) * 150 + 1 * q.val = q.val; rw [e7]; omega

/-! ## What a point writes back, and the array after the last point -/

/-- Point t writes back block t of the dense layer of the whole arrays. -/
theorem flushed2_eq (c : Dev nD) (t : Fin cfg2.N) :
    (dat2 (F := Ideal) V c).flushed 3 t
      = ((cfg2.win 3).blk t).view.read (Elt Ideal)
          (lin (M := 20000) (K := 1024) (N := 150) (V c main_arg2) (V c main_arg7) (rowOf (V c main_v4))) := by
  show (cfg2.win 3).cut (grid2.coords t) ((dat2 V c).after 3 t) = _
  rw [after2_3]
  unfold out2_3
  rw [View.canon_unit_zero zero_off2]
  simp only [View.ld_unit_zero (S := S2000x1024) zero_off2, View.ld_unit_zero (S := S1024x150) zero_off2,
    View.ld_unit_zero (S := S1x150) zero_off2]
  funext j
  obtain ⟨p, q, rfl⟩ : ∃ (p : Fin 2000) (q : Fin 150), j = ix2 p q := ⟨j 0, j 1, eq_ix2 j⟩
  show k2_pay1 (iblk2 V c 0 t) (iblk2 V c 1 t) (iblk2 V c 2 t) (ix2 p q)
    = lin (M := 20000) (K := 1024) (N := 150) (V c main_arg2) (V c main_arg7) (rowOf (V c main_v4))
        (((cfg2.win 3).blk t).view.emb (ix2 p q))
  obtain ⟨r, hr, he⟩ := oemb2 t p q
  rw [he]
  refine (pay2_apply _ _ _ p q).trans (Eq.trans ?_ (lin2_at _ _ _ r q).symm)
  exact congrArg₂ (· + ·)
    (Finset.sum_congr rfl fun k _ => congrArg₂ (· * ·) (xblk2 V c t p k r hr) (wblk2 V c t k q))
    (bblk2 V c t q)

/-- An index of the output is in point t's block iff each coordinate is in the block's range on its axis. -/
theorem mem_blk2 (t : Fin cfg2.N) (i : S20000x150.Idx) :
    i ∈ ((cfg2.win 3).blk t).view.set ↔ ∀ a : Fin 2, win2_3.index t a * S2000x150.size a ≤ (i a).val
      ∧ (i a).val < win2_3.index t a * S2000x150.size a + S2000x150.size a := by
  show i ∈ ((View.whole main_v5).slice (win2_3.rect t)).set ↔ _
  rw [View.set_slice_whole, Rect.mem_set_unit]
  exact Iff.rfl

/-- Row r of the output lies in the block of point r / 2000. -/
theorem cover2 (i : S20000x150.Idx) :
    ∃ t : Fin cfg2.N, (cfg2.win 3).flush t = true ∧ i ∈ ((cfg2.win 3).blk t).view.set := by
  have hi0 : (i 0).val < 20000 := (i 0).isLt
  have hi1 : (i 1).val < 150 := (i 1).isLt
  obtain ⟨t, ht⟩ : ∃ t : Fin cfg2.N, t.val = (i 0).val / 2000 :=
    ⟨⟨(i 0).val / 2000, lt_of_lt_of_eq (show (i 0).val / 2000 < 10 by omega) N_2.symm⟩, rfl⟩
  obtain ⟨-, -, -, -, -, -, e6, e7⟩ := idx2 t
  refine ⟨t, flush2_3 t, ?_⟩
  rw [mem_blk2]
  intro a
  match a with
  | ⟨0, _⟩ =>
    show win2_3.index t (0 : Fin 2) * 2000 ≤ (i 0).val ∧ (i 0).val < win2_3.index t (0 : Fin 2) * 2000 + 2000
    rw [e6, ht]; omega
  | ⟨1, _⟩ =>
    show win2_3.index t (1 : Fin 2) * 150 ≤ (i 1).val ∧ (i 1).val < win2_3.index t (1 : Fin 2) * 150 + 150
    rw [e7]; omega

/-- After the last write-back the output array is the dense layer x · w + b of the arrays the region found. -/
theorem final2 (c : Dev nD) :
    (dat2 (F := Ideal) V c).arrAt 3 cfg2.N
      = lin (M := 20000) (K := 1024) (N := 150) (V c main_arg2) (V c main_arg7) (rowOf (V c main_v4)) :=
  (dat2 (F := Ideal) V c).arrAt_eq_of_cover 3 _ (fun t _ => flushed2_eq V c t) cover2

end Cert.KernelIdeal.Val

end
-- ==== Proof.TransportA.lean ====
/- A buffer that no segment between two boundaries writes holds at the later boundary what it held at the earlier
   one: a host stretch changes only the buffers its operations write, and a region only its output array. -/
import proofs.«141689_j63058709840619_1_alg».proof.Proof.FrameKI
import Idealize.ShloMosaic.PureOps.Ideal

set_option maxRecDepth 16384

noncomputable section

namespace Cert.KernelIdeal.Val

open Idealize.ShloMosaic Idealize.ShloMosaic.TcCoe Idealize.SL.Sem
open Cert.KernelIdeal Cert.KernelIdeal.Gen Cert.KernelIdeal.GenP

variable (m : (ℓ : Loc nD τ sig) → Buf (Elt Ideal) ℓ) (ρ : Dev nD → PrngReg)

theorem tr_main_arg0_1_0 (c : Dev nD) : W1 m ρ c (Proc.devRef .tc main_arg0) = W0 m ρ c (Proc.devRef .tc main_arg0) :=
  calc W1 m ρ c (Proc.devRef .tc main_arg0)
    _ = W0 m ρ c (Proc.devRef .tc main_arg0) := StableHlo.after_of_forall_not_mem (b := Proc.devRef .tc main_arg0) _ _ (by decide +kernel)
theorem at_main_arg0_1 (c : Dev nD) : W1 m ρ c (Proc.devRef .tc main_arg0) = W0 m ρ c (Proc.devRef .tc main_arg0) := tr_main_arg0_1_0 m ρ c

theorem tr_main_arg0_21_1 (c : Dev nD) : W21 m ρ c (Proc.devRef .tc main_arg0) = W1 m ρ c (Proc.devRef .tc main_arg0) :=
  calc W21 m ρ c (Proc.devRef .tc main_arg0)
    _ = W20 m ρ c (Proc.devRef .tc main_arg0) := StableHlo.after_of_forall_not_mem (b := Proc.devRef .tc main_arg0) _ _ (by decide +kernel)
    _ = W19 m ρ c (Proc.devRef .tc main_arg0) := W20_of_ne m ρ c main_arg0 (by decide)
    _ = W18 m ρ c (Proc.devRef .tc main_arg0) := StableHlo.after_of_forall_not_mem (b := Proc.devRef .tc main_arg0) _ _ (by decide +kernel)
    _ = W17 m ρ c (Proc.devRef .tc main_arg0) := W18_of_ne m ρ c main_arg0 (by decide)
    _ = W16 m ρ c (Proc.devRef .tc main_arg0) := StableHlo.after_of_forall_not_mem (b := Proc.devRef .tc main_arg0) _ _ (by decide +kernel)
    _ = W15 m ρ c (Proc.devRef .tc main_arg0) := W16_of_ne m ρ c main_arg0 (by decide)
    _ = W14 m ρ c (Proc.devRef .tc main_arg0) := StableHlo.after_of_forall_not_mem (b := Proc.devRef .tc main_arg0) _ _ (by decide +kernel)
    _ = W13 m ρ c (Proc.devRef .tc main_arg0) := W14_of_ne m ρ c main_arg0 (by decide)
    _ = W12 m ρ c (Proc.devRef .tc main_arg0) := StableHlo.after_of_forall_not_mem (b := Proc.devRef .tc main_arg0) _ _ (by decide +kernel)
    _ = W11 m ρ c (Proc.devRef .tc main_arg0) := W12_of_ne m ρ c main_arg0 (by decide)
    _ = W10 m ρ c (Proc.devRef .tc main_arg0) := StableHlo.after_of_forall_not_mem (b := Proc.devRef .tc main_arg0) _ _ (by decide +kernel)
    _ = W9 m ρ c (Proc.devRef .tc main_arg0) := W10_of_ne m ρ c main_arg0 (by decide)
    _ = W8 m ρ c (Proc.devRef .tc main_arg0) := StableHlo.after_of_forall_not_mem (b := Proc.devRef .tc main_arg0) _ _ (by decide +kernel)
    _ = W7 m ρ c (Proc.devRef .tc main_arg0) := W8_of_ne m ρ c main_arg0 (by decide)
    _ = W6 m ρ c (Proc.devRef .tc main_arg0) := StableHlo.after_of_forall_not_mem (b := Proc.devRef .tc main_arg0) _ _ (by decide +kernel)
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (by decide +kernel)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (by decide +kernel)
    _ = W1 m ρ c (Proc.devRef .tc main_arg0) := (W2_arr m ρ c 0).trans (((dat0 (V1 m ρ) c).arrAt_in 0 rfl _).trans (A_eq0 (V1 m ρ) c 0))
theorem at_main_arg0_21 (c : Dev nD) : W21 m ρ c (Proc.devRef .tc main_arg0) = W0 m ρ c (Proc.devRef .tc main_arg0) := (tr_main_arg0_21_1 m ρ c).trans (at_main_arg0_1 m ρ c)

theorem tr_main_arg3_1_0 (c : Dev nD) : W1 m ρ c (Proc.devRef .tc main_arg3) = W0 m ρ c (Proc.devRef .tc main_arg3) :=
  calc W1 m ρ c (Proc.devRef .tc main_arg3)
    _ = W0 m ρ c (Proc.devRef .tc main_arg3) := StableHlo.after_of_forall_not_mem (b := Proc.devRef .tc main_arg3) _ _ (by decide +kernel)
theorem at_main_arg3_1 (c : Dev nD) : W1 m ρ c (Proc.devRef .tc main_arg3) = W0 m ρ c (Proc.devRef .tc main_arg3) := tr_main_arg3_1_0 m ρ c

theorem tr_main_arg1_3_0 (c : Dev nD) : W3 m ρ c (Proc.devRef .tc main_arg1) = W0 m ρ c (Proc.devRef .tc main_arg1) :=
  calc W3 m ρ c (Proc.devRef .tc main_arg1)
    _ = W2 m ρ c (Proc.devRef .tc main_arg1) := StableHlo.after_of_forall_not_mem (b := Proc.devRef .tc main_arg1) _ _ (by decide +kernel)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (by decide +kernel)
theorem at_main_arg1_3 (c : Dev nD) : W3 m ρ c (Proc.devRef .tc main_arg1) = W0 m ρ c (Proc.devRef .tc main_arg1) := tr_main_arg1_3_0 m ρ c

theorem tr_main_arg5_3_0 (c : Dev nD) : W3 m ρ c (Proc.devRef .tc main_arg5) = W0 m ρ c (Proc.devRef .tc main_arg5) :=
  calc W3 m ρ c (Proc.devRef .tc main_arg5)
    _ = W2 m ρ c (Proc.devRef .tc main_arg5) := StableHlo.after_of_forall_not_mem (b := Proc.devRef .tc main_arg5) _ _ (by decide +kernel)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (by decide +kernel)
theorem at_main_arg5_3 (c : Dev nD) : W3 m ρ c (Proc.devRef .tc main_arg5) = W0 m ρ c (Proc.devRef .tc main_arg5) := tr_main_arg5_3_0 m ρ c

theorem tr_main_arg2_5_0 (c : Dev nD) : W5 m ρ c (Proc.devRef .tc main_arg2) = W0 m ρ c (Proc.devRef .tc main_arg2) :=
  calc W5 m ρ c (Proc.devRef .tc main_arg2)
    _ = W4 m ρ c (Proc.devRef .tc main_arg2) := StableHlo.after_of_forall_not_mem (b := Proc.devRef .tc main_arg2) _ _ (by decide +kernel)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (by decide +kernel)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (by decide +kernel)
theorem at_main_arg2_5 (c : Dev nD) : W5 m ρ c (Proc.devRef .tc main_arg2) = W0 m ρ c (Proc.devRef .tc main_arg2) := tr_main_arg2_5_0 m ρ c

theorem tr_main_arg7_5_0 (c : Dev nD) : W5 m ρ c (Proc.devRef .tc main_arg7) = W0 m ρ c (Proc.devRef .tc main_arg7) :=
  calc W5 m ρ c (Proc.devRef .tc main_arg7)
    _ = W4 m ρ c (Proc.devRef .tc main_arg7) := StableHlo.after_of_forall_not_mem (b := Proc.devRef .tc main_arg7) _ _ (by decide +kernel)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (by decide +kernel)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (by decide +kernel)
theorem at_main_arg7_5 (c : Dev nD) : W5 m ρ c (Proc.devRef .tc main_arg7) = W0 m ρ c (Proc.devRef .tc main_arg7) := tr_main_arg7_5_0 m ρ c

theorem tr_main_arg6_2_0 (c : Dev nD) : W2 m ρ c (Proc.devRef .tc main_arg6) = W0 m ρ c (Proc.devRef .tc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (by decide +kernel)
theorem at_main_arg6_2 (c : Dev nD) : W2 m ρ c (Proc.devRef .tc main_arg6) = W0 m ρ c (Proc.devRef .tc main_arg6) := tr_main_arg6_2_0 m ρ c

theorem tr_main_arg8_4_0 (c : Dev nD) : W4 m ρ c (Proc.devRef .tc main_arg8) = W0 m ρ c (Proc.devRef .tc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (by decide +kernel)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (by decide +kernel)
theorem at_main_arg8_4 (c : Dev nD) : W4 m ρ c (Proc.devRef .tc main_arg8) = W0 m ρ c (Proc.devRef .tc main_arg8) := tr_main_arg8_4_0 m ρ c

theorem tr_main_arg13_20_0 (c : Dev nD) : W20 m ρ c (Proc.devRef .tc main_arg13) = W0 m ρ c (Proc.devRef .tc main_arg13) :=
  calc W20 m ρ c (Proc.devRef .tc main_arg13)
    _ = W19 m ρ c (Proc.devRef .tc main_arg13) := W20_of_ne m ρ c main_arg13 (by decide)
    _ = W18 m ρ c (Proc.devRef .tc main_arg13) := StableHlo.after_of_forall_not_mem (b := Proc.devRef .tc main_arg13) _ _ (by decide +kernel)
    _ = W17 m ρ c (Proc.devRef .tc main_arg13) := W18_of_ne m ρ c main_arg13 (by decide)
    _ = W16 m ρ c (Proc.devRef .tc main_arg13) := StableHlo.after_of_forall_not_mem (b := Proc.devRef .tc main_arg13) _ _ (by decide +kernel)
    _ = W15 m ρ c (Proc.devRef .tc main_arg13) := W16_of_ne m ρ c main_arg13 (by decide)
    _ = W14 m ρ c (Proc.devRef .tc main_arg13) := StableHlo.after_of_forall_not_mem (b := Proc.devRef .tc main_arg13) _ _ (by decide +kernel)
    _ = W13 m ρ c (Proc.devRef .tc main_arg13) := W14_of_ne m ρ c main_arg13 (by decide)
    _ = W12 m ρ c (Proc.devRef .tc main_arg13) := StableHlo.after_of_forall_not_mem (b := Proc.devRef .tc main_arg13) _ _ (by decide +kernel)
    _ = W11 m ρ c (Proc.devRef .tc main_arg13) := W12_of_ne m ρ c main_arg13 (by decide)
    _ = W10 m ρ c (Proc.devRef .tc main_arg13) := StableHlo.after_of_forall_not_mem (b := Proc.devRef .tc main_arg13) _ _ (by decide +kernel)
    _ = W9 m ρ c (Proc.devRef .tc main_arg13) := W10_of_ne m ρ c main_arg13 (by decide)
    _ = W8 m ρ c (Proc.devRef .tc main_arg13) := StableHlo.after_of_forall_not_mem (b := Proc.devRef .tc main_arg13) _ _ (by decide +kernel)
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (by decide +kernel)
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (by decide +kernel)
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (by decide +kernel)
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (by decide +kernel)
theorem at_main_arg13_20 (c : Dev nD) : W20 m ρ c (Proc.devRef .tc main_arg13) = W0 m ρ c (Proc.devRef .tc main_arg13) := tr_main_arg13_20_0 m ρ c

theorem tr_main_arg12_21_0 (c : Dev nD) : W21 m ρ c (Proc.devRef .tc main_arg12) = W0 m ρ c (Proc.devRef .tc main_arg12) :=
  calc W21 m ρ c (Proc.devRef .tc main_arg12)
    _ = W20 m ρ c (Proc.devRef .tc main_arg12) := StableHlo.after_of_forall_not_mem (b := Proc.devRef .tc main_arg12) _ _ (by decide +kernel)
    _ = W19 m ρ c (Proc.devRef .tc main_arg12) := W20_of_ne m ρ c main_arg12 (by decide)
    _ = W18 m ρ c (Proc.devRef .tc main_arg12) := StableHlo.after_of_forall_not_mem (b := Proc.devRef .tc main_arg12) _ _ (by decide +kernel)
    _ = W17 m ρ c (Proc.devRef .tc main_arg12) := W18_of_ne m ρ c main_arg12 (by decide)
    _ = W16 m ρ c (Proc.devRef .tc main_arg12) := StableHlo.after_of_forall_not_mem (b := Proc.devRef .tc main_arg12) _ _ (by decide +kernel)
    _ = W15 m ρ c (Proc.devRef .tc main_arg12) := W16_of_ne m ρ c main_arg12 (by decide)
    _ = W14 m ρ c (Proc.devRef .tc main_arg12) := StableHlo.after_of_forall_not_mem (b := Proc.devRef .tc main_arg12) _ _ (by decide +kernel)
    _ = W13 m ρ c (Proc.devRef .tc main_arg12) := W14_of_ne m ρ c main_arg12 (by decide)
    _ = W12 m ρ c (Proc.devRef .tc main_arg12) := StableHlo.after_of_forall_not_mem (b := Proc.devRef .tc main_arg12) _ _ (by decide +kernel)
    _ = W11 m ρ c (Proc.devRef .tc main_arg12) := W12_of_ne m ρ c main_arg12 (by decide)
    _ = W10 m ρ c (Proc.devRef .tc main_arg12) := StableHlo.after_of_forall_not_mem (b := Proc.devRef .tc main_arg12) _ _ (by decide +kernel)
    _ = W9 m ρ c (Proc.devRef .tc main_arg12) := W10_of_ne m ρ c main_arg12 (by decide)
    _ = W8 m ρ c (Proc.devRef .tc main_arg12) := StableHlo.after_of_forall_not_mem (b := Proc.devRef .tc main_arg12) _ _ (by decide +kernel)
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (by decide +kernel)
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (by decide +kernel)
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (by decide +kernel)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (by decide +kernel)
theorem at_main_arg12_21 (c : Dev nD) : W21 m ρ c (Proc.devRef .tc main_arg12) = W0 m ρ c (Proc.devRef .tc main_arg12) := tr_main_arg12_21_0 m ρ c

theorem tr_main_arg15_22_0 (c : Dev nD) : W22 m ρ c (Proc.devRef .tc main_arg15) = W0 m ρ c (Proc.devRef .tc main_arg15) :=
  calc W22 m ρ c (Proc.devRef .tc main_arg15)
    _ = W21 m ρ c (Proc.devRef .tc main_arg15) := W22_of_ne m ρ c main_arg15 (by decide)
    _ = W20 m ρ c (Proc.devRef .tc main_arg15) := StableHlo.after_of_forall_not_mem (b := Proc.devRef .tc main_arg15) _ _ (by decide +kernel)
    _ = W19 m ρ c (Proc.devRef .tc main_arg15) := W20_of_ne m ρ c main_arg15 (by decide)
    _ = W18 m ρ c (Proc.devRef .tc main_arg15) := StableHlo.after_of_forall_not_mem (b := Proc.devRef .tc main_arg15) _ _ (by decide +kernel)
    _ = W17 m ρ c (Proc.devRef .tc main_arg15) := W18_of_ne m ρ c main_arg15 (by decide)
    _ = W16 m ρ c (Proc.devRef .tc main_arg15) := StableHlo.after_of_forall_not_mem (b := Proc.devRef .tc main_arg15) _ _ (by decide +kernel)
    _ = W15 m ρ c (Proc.devRef .tc main_arg15) := W16_of_ne m ρ c main_arg15 (by decide)
    _ = W14 m ρ c (Proc.devRef .tc main_arg15) := StableHlo.after_of_forall_not_mem (b := Proc.devRef .tc main_arg15) _ _ (by decide +kernel)
    _ = W13 m ρ c (Proc.devRef .tc main_arg15) := W14_of_ne m ρ c main_arg15 (by decide)
    _ = W12 m ρ c (Proc.devRef .tc main_arg15) := StableHlo.after_of_forall_not_mem (b := Proc.devRef .tc main_arg15) _ _ (by decide +kernel)
    _ = W11 m ρ c (Proc.devRef .tc main_arg15) := W12_of_ne m ρ c main_arg15 (by decide)
    _ = W10 m ρ c (Proc.devRef .tc main_arg15) := StableHlo.after_of_forall_not_mem (b := Proc.devRef .tc main_arg15) _ _ (by decide +kernel)
    _ = W9 m ρ c (Proc.devRef .tc main_arg15) := W10_of_ne m ρ c main_arg15 (by decide)
    _ = W8 m ρ c (Proc.devRef .tc main_arg15) := StableHlo.after_of_forall_not_mem (b := Proc.devRef .tc main_arg15) _ _ (by decide +kernel)
    _ = W7 m ρ c (Proc.devRef .tc main_arg15) := W8_of_ne m ρ c main_arg15 (by decide)
    _ = W6 m ρ c (Proc.devRef .tc main_arg15) := StableHlo.after_of_forall_not_mem (b := Proc.devRef .tc main_arg15) _ _ (by decide +kernel)
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (by decide +kernel)
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (by decide +kernel)
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (by decide +kernel)
theorem at_main_arg15_22 (c : Dev nD) : W22 m ρ c (Proc.devRef .tc main_arg15) = W0 m ρ c (Proc.devRef .tc main_arg15) := tr_main_arg15_22_0 m ρ c

theorem tr_main_arg14_23_0 (c : Dev nD) : W23 m ρ c (Proc.devRef .tc main_arg14) = W0 m ρ c (Proc.devRef .tc main_arg14) :=
  calc W23 m ρ c (Proc.devRef .tc main_arg14)
    _ = W22 m ρ c (Proc.devRef .tc main_arg14) := StableHlo.after_of_forall_not_mem (b := Proc.devRef .tc main_arg14) _ _ (by decide +kernel)
    _ = W21 m ρ c (Proc.devRef .tc main_arg14) := W22_of_ne m ρ c main_arg14 (by decide)
    _ = W20 m ρ c (Proc.devRef .tc main_arg14) := StableHlo.after_of_forall_not_mem (b := Proc.devRef .tc main_arg14) _ _ (by decide +kernel)
    _ = W19 m ρ c (Proc.devRef .tc main_arg14) := W20_of_ne m ρ c main_arg14 (by decide)
    _ = W18 m ρ c (Proc.devRef .tc main_arg14) := StableHlo.after_of_forall_not_mem (b := Proc.devRef .tc main_arg14) _ _ (by decide +kernel)
    _ = W17 m ρ c (Proc.devRef .tc main_arg14) := W18_of_ne m ρ c main_arg14 (by decide)
    _ = W16 m ρ c (Proc.devRef .tc main_arg14) := StableHlo.after_of_forall_not_mem (b := Proc.devRef .tc main_arg14) _ _ (by decide +kernel)
    _ = W15 m ρ c (Proc.devRef .tc main_arg14) := W16_of_ne m ρ c main_arg14 (by decide)
    _ = W14 m ρ c (Proc.devRef .tc main_arg14) := StableHlo.after_of_forall_not_mem (b := Proc.devRef .tc main_arg14) _ _ (by decide +kernel)
    _ = W13 m ρ c (Proc.devRef .tc main_arg14) := W14_of_ne m ρ c main_arg14 (by decide)
    _ = W12 m ρ c (Proc.devRef .tc main_arg14) := StableHlo.after_of_forall_not_mem (b := Proc.devRef .tc main_arg14) _ _ (by decide +kernel)
    _ = W11 m ρ c (Proc.devRef .tc main_arg14) := W12_of_ne m ρ c main_arg14 (by decide)
    _ = W10 m ρ c (Proc.devRef .tc main_arg14) := StableHlo.after_of_forall_not_mem (b := Proc.devRef .tc main_arg14) _ _ (by decide +kernel)
    _ = W9 m ρ c (Proc.devRef .tc main_arg14) := W10_of_ne m ρ c main_arg14 (by decide)
    _ = W8 m ρ c (Proc.devRef .tc main_arg14) := StableHlo.after_of_forall_not_mem (b := Proc.devRef .tc main_arg14) _ _ (by decide +kernel)
    _ = W7 m ρ c (Proc.devRef .tc main_arg14) := W8_of_ne m ρ c main_arg14 (by decide)
    _ = W6 m ρ c (Proc.devRef .tc main_arg14) := StableHlo.after_of_forall_not_mem (b := Proc.devRef .tc main_arg14) _ _ (by decide +kernel)
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (by decide +kernel)
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (by decide +kernel)
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (by decide +kernel)
theorem at_main_arg14_23 (c : Dev nD) : W23 m ρ c (Proc.devRef .tc main_arg14) = W0 m ρ c (Proc.devRef .tc main_arg14) := tr_main_arg14_23_0 m ρ c

theorem tr_main_arg17_24_0 (c : Dev nD) : W24 m ρ c (Proc.devRef .tc main_arg17) = W0 m ρ c (Proc.devRef .tc main_arg17) :=
  calc W24 m ρ c (Proc.devRef .tc main_arg17)
    _ = W23 m ρ c (Proc.devRef .tc main_arg17) := W24_of_ne m ρ c main_arg17 (by decide)
    _ = W22 m ρ c (Proc.devRef .tc main_arg17) := StableHlo.after_of_forall_not_mem (b := Proc.devRef .tc main_arg17) _ _ (by decide +kernel)
    _ = W21 m ρ c (Proc.devRef .tc main_arg17) := W22_of_ne m ρ c main_arg17 (by decide)
    _ = W20 m ρ c (Proc.devRef .tc main_arg17) := StableHlo.after_of_forall_not_mem (b := Proc.devRef .tc main_arg17) _ _ (by decide +kernel)
    _ = W19 m ρ c (Proc.devRef .tc main_arg17) := W20_of_ne m ρ c main_arg17 (by decide)
    _ = W18 m ρ c (Proc.devRef .tc main_arg17) := StableHlo.after_of_forall_not_mem (b := Proc.devRef .tc main_arg17) _ _ (by decide +kernel)
    _ = W17 m ρ c (Proc.devRef .tc main_arg17) := W18_of_ne m ρ c main_arg17 (by decide)
    _ = W16 m ρ c (Proc.devRef .tc main_arg17) := StableHlo.after_of_forall_not_mem (b := Proc.devRef .tc main_arg17) _ _ (by decide +kernel)
    _ = W15 m ρ c (Proc.devRef .tc main_arg17) := W16_of_ne m ρ c main_arg17 (by decide)
    _ = W14 m ρ c (Proc.devRef .tc main_arg17) := StableHlo.after_of_forall_not_mem (b := Proc.devRef .tc main_arg17) _ _ (by decide +kernel)
    _ = W13 m ρ c (Proc.devRef .tc main_arg17) := W14_of_ne m ρ c main_arg17 (by decide)
    _ = W12 m ρ c (Proc.devRef .tc main_arg17) := StableHlo.after_of_forall_not_mem (b := Proc.devRef .tc main_arg17) _ _ (by decide +kernel)
    _ = W11 m ρ c (Proc.devRef .tc main_arg17) := W12_of_ne m ρ c main_arg17 (by decide)
    _ = W10 m ρ c (Proc.devRef .tc main_arg17) := StableHlo.after_of_forall_not_mem (b := Proc.devRef .tc main_arg17) _ _ (by decide +kernel)
    _ = W9 m ρ c (Proc.devRef .tc main_arg17) := W10_of_ne m ρ c main_arg17 (by decide)
    _ = W8 m ρ c (Proc.devRef .tc main_arg17) := StableHlo.after_of_forall_not_mem (b := Proc.devRef .tc main_arg17) _ _ (by decide +kernel)
    _ = W7 m ρ c (Proc.devRef .tc main_arg17) := W8_of_ne m ρ c main_arg17 (by decide)
    _ = W6 m ρ c (Proc.devRef .tc main_arg17) := StableHlo.after_of_forall_not_mem (b := Proc.devRef .tc main_arg17) _ _ (by decide +kernel)
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (by decide +kernel)
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (by decide +kernel)
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (by decide +kernel)
theorem at_main_arg17_24 (c : Dev nD) : W24 m ρ c (Proc.devRef .tc main_arg17) = W0 m ρ c (Proc.devRef .tc main_arg17) := tr_main_arg17_24_0 m ρ c

theorem tr_main_arg16_25_0 (c : Dev nD) : W25 m ρ c (Proc.devRef .tc main_arg16) = W0 m ρ c (Proc.devRef .tc main_arg16) :=
  calc W25 m ρ c (Proc.devRef .tc main_arg16)
    _ = W24 m ρ c (Proc.devRef .tc main_arg16) := StableHlo.after_of_forall_not_mem (b := Proc.devRef .tc main_arg16) _ _ (by decide +kernel)
    _ = W23 m ρ c (Proc.devRef .tc main_arg16) := W24_of_ne m ρ c main_arg16 (by decide)
    _ = W22 m ρ c (Proc.devRef .tc main_arg16) := StableHlo.after_of_forall_not_mem (b := Proc.devRef .tc main_arg16) _ _ (by decide +kernel)
    _ = W21 m ρ c (Proc.devRef .tc main_arg16) := W22_of_ne m ρ c main_arg16 (by decide)
    _ = W20 m ρ c (Proc.devRef .tc main_arg16) := StableHlo.after_of_forall_not_mem (b := Proc.devRef .tc main_arg16) _ _ (by decide +kernel)
    _ = W19 m ρ c (Proc.devRef .tc main_arg16) := W20_of_ne m ρ c main_arg16 (by decide)
    _ = W18 m ρ c (Proc.devRef .tc main_arg16) := StableHlo.after_of_forall_not_mem (b := Proc.devRef .tc main_arg16) _ _ (by decide +kernel)
    _ = W17 m ρ c (Proc.devRef .tc main_arg16) := W18_of_ne m ρ c main_arg16 (by decide)
    _ = W16 m ρ c (Proc.devRef .tc main_arg16) := StableHlo.after_of_forall_not_mem (b := Proc.devRef .tc main_arg16) _ _ (by decide +kernel)
    _ = W15 m ρ c (Proc.devRef .tc main_arg16) := W16_of_ne m ρ c main_arg16 (by decide)
    _ = W14 m ρ c (Proc.devRef .tc main_arg16) := StableHlo.after_of_forall_not_mem (b := Proc.devRef .tc main_arg16) _ _ (by decide +kernel)
    _ = W13 m ρ c (Proc.devRef .tc main_arg16) := W14_of_ne m ρ c main_arg16 (by decide)
    _ = W12 m ρ c (Proc.devRef .tc main_arg16) := StableHlo.after_of_forall_not_mem (b := Proc.devRef .tc main_arg16) _ _ (by decide +kernel)
    _ = W11 m ρ c (Proc.devRef .tc main_arg16) := W12_of_ne m ρ c main_arg16 (by decide)
    _ = W10 m ρ c (Proc.devRef .tc main_arg16) := StableHlo.after_of_forall_not_mem (b := Proc.devRef .tc main_arg16) _ _ (by decide +kernel)
    _ = W9 m ρ c (Proc.devRef .tc main_arg16) := W10_of_ne m ρ c main_arg16 (by decide)
    _ = W8 m ρ c (Proc.devRef .tc main_arg16) := StableHlo.after_of_forall_not_mem (b := Proc.devRef .tc main_arg16) _ _ (by decide +kernel)
    _ = W7 m ρ c (Proc.devRef .tc main_arg16) := W8_of_ne m ρ c main_arg16 (by decide)
    _ = W6 m ρ c (Proc.devRef .tc main_arg16) := StableHlo.after_of_forall_not_mem (b := Proc.devRef .tc main_arg16) _ _ (by decide +kernel)
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (by decide +kernel)
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (by decide +kernel)
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (by decide +kernel)
theorem at_main_arg16_25 (c : Dev nD) : W25 m ρ c (Proc.devRef .tc main_arg16) = W0 m ρ c (Proc.devRef .tc main_arg16) := tr_main_arg16_25_0 m ρ c

end Cert.KernelIdeal.Val

end
-- ==== Proof.KHost0.lean ====
/-
  What single buffers hold after a straight line of host operations, as functions of the buffers the line
  reads: each definition is the operations' own functions composed (their text as the list prints it, read at the
  extended reals), each lemma says the fold of the list at that buffer is that function of the starting contents.
-/
import proofs.«141689_j63058709840619_1_alg».proof.Proof.Gen.KernelIdeal.Launch
import proofs.«141689_j63058709840619_1_alg».proof.Proof.Spec
import Idealize.ShloMosaic.Lib.StableHlo.Run

set_option maxRecDepth 8192

noncomputable section

namespace Cert.KernelIdeal.Val

open Idealize.ShloMosaic Idealize.ShloMosaic.TcCoe Cert.KernelIdeal Cert.KernelIdeal.Gen Cert.Spec

/-! ## hostOps0: 1 operations -/

/-- Buffer main_v0 as a function of main_arg4: the operations that build it, composed. -/
def kh0_v0 (arg4 : FVec Ideal S150 .f32) : FVec Ideal S1x150 .f32 :=
  (shapeCast S1x150 arg4 shapeCasts_S150_S1x150)

set_option maxHeartbeats 40000000 in
/-- After the list, from any contents, main_v0 holds that function of the contents. -/
theorem kh0_v0_eq (W : Valuation τ sig (Elt Ideal)) :
    StableHlo.after (hostOps0 (F := Ideal)) W (Proc.devRef .tc main_v0)
      = kh0_v0 (W (Proc.devRef .tc main_arg4)) := by
  after_results_simp <;> first | rfl | (unfold kh0_v0; rfl)

end Cert.KernelIdeal.Val

end
-- ==== Proof.KHost1.lean ====
/-
  What single buffers hold after a straight line of host operations, as functions of the buffers the line
  reads: each definition is the operations' own functions composed (their text as the list prints it, read at the
  extended reals), each lemma says the fold of the list at that buffer is that function of the starting contents.
-/
import proofs.«141689_j63058709840619_1_alg».proof.Proof.Gen.KernelIdeal.Launch
import proofs.«141689_j63058709840619_1_alg».proof.Proof.Spec
import Idealize.ShloMosaic.Lib.StableHlo.Run

set_option maxRecDepth 8192

noncomputable section

namespace Cert.KernelIdeal.Val

open Idealize.ShloMosaic Idealize.ShloMosaic.TcCoe Cert.KernelIdeal Cert.KernelIdeal.Gen Cert.Spec

/-! ## hostOps1: 1 operations -/

/-- Buffer main_v2 as a function of main_arg6: the operations that build it, composed. -/
def kh1_v2 (arg6 : FVec Ideal S150 .f32) : FVec Ideal S1x150 .f32 :=
  (shapeCast S1x150 arg6 shapeCasts_S150_S1x150)

set_option maxHeartbeats 40000000 in
/-- After the list, from any contents, main_v2 holds that function of the contents. -/
theorem kh1_v2_eq (W : Valuation τ sig (Elt Ideal)) :
    StableHlo.after (hostOps1 (F := Ideal)) W (Proc.devRef .tc main_v2)
      = kh1_v2 (W (Proc.devRef .tc main_arg6)) := by
  after_results_simp <;> first | rfl | (unfold kh1_v2; rfl)

end Cert.KernelIdeal.Val

end
-- ==== Proof.KHost2.lean ====
/-
  What single buffers hold after a straight line of host operations, as functions of the buffers the line
  reads: each definition is the operations' own functions composed (their text as the list prints it, read at the
  extended reals), each lemma says the fold of the list at that buffer is that function of the starting contents.
-/
import proofs.«141689_j63058709840619_1_alg».proof.Proof.Gen.KernelIdeal.Launch
import proofs.«141689_j63058709840619_1_alg».proof.Proof.Spec
import Idealize.ShloMosaic.Lib.StableHlo.Run

set_option maxRecDepth 8192

noncomputable section

namespace Cert.KernelIdeal.Val

open Idealize.ShloMosaic Idealize.ShloMosaic.TcCoe Cert.KernelIdeal Cert.KernelIdeal.Gen Cert.Spec

/-! ## hostOps2: 1 operations -/

/-- Buffer main_v4 as a function of main_arg8: the operations that build it, composed. -/
def kh2_v4 (arg8 : FVec Ideal S150 .f32) : FVec Ideal S1x150 .f32 :=
  (shapeCast S1x150 arg8 shapeCasts_S150_S1x150)

set_option maxHeartbeats 40000000 in
/-- After the list, from any contents, main_v4 holds that function of the contents. -/
theorem kh2_v4_eq (W : Valuation τ sig (Elt Ideal)) :
    StableHlo.after (hostOps2 (F := Ideal)) W (Proc.devRef .tc main_v4)
      = kh2_v4 (W (Proc.devRef .tc main_arg8)) := by
  after_results_simp <;> first | rfl | (unfold kh2_v4; rfl)

end Cert.KernelIdeal.Val

end
-- ==== Proof.KStage0.lean ====
/-
  The three input projections as the kernel program computes them: at the exit of each of the first three regions
  the region's output array is the dense layer x · w + b of the argument arrays. The bias reaches the region as a
  one-row matrix that the host stretch before it reshapes from the argument row; the input and the weight are the
  arguments themselves, unchanged since the launch.
-/
import proofs.«141689_j63058709840619_1_alg».proof.Proof.FrameKI
import proofs.«141689_j63058709840619_1_alg».proof.Proof.Model
import proofs.«141689_j63058709840619_1_alg».proof.Proof.HostFin
import proofs.«141689_j63058709840619_1_alg».proof.Proof.Region0
import proofs.«141689_j63058709840619_1_alg».proof.Proof.Region1
import proofs.«141689_j63058709840619_1_alg».proof.Proof.Region2
import proofs.«141689_j63058709840619_1_alg».proof.Proof.TransportA
import proofs.«141689_j63058709840619_1_alg».proof.Proof.KHost0
import proofs.«141689_j63058709840619_1_alg».proof.Proof.KHost1
import proofs.«141689_j63058709840619_1_alg».proof.Proof.KHost2

set_option maxRecDepth 16384

noncomputable section

namespace Cert.KernelIdeal.Val

open Idealize.ShloMosaic Idealize.ShloMosaic.TcCoe Idealize.SL.Sem
open Cert.KernelIdeal Cert.KernelIdeal.Gen Cert.KernelIdeal.GenP Cert.Spec

variable (m : (ℓ : Loc nD τ sig) → Buf (Elt Ideal) ℓ) (ρ : Dev nD → PrngReg)

/-- Equal arrays have equal dense layers. -/
theorem lin_congr {M K N : Nat} {x x' : Mat M K} {w w' : Mat K N} {b b' : Row N} (hx : x = x') (hw : w = w') (hb : b = b') :
    lin x w b = lin x' w' b' := by rw [hx, hw, hb]

/-- Equal arrays have equal clippings. -/
theorem relu_congr {M N : Nat} {y y' : Mat M N} (h : y = y') : relu y = relu y' := by rw [h]

/-- Equal arrays have equal combines. -/
theorem sageK_congr {M K N : Nat} {a1 a1' : Mat M K} {w1 w1' : Mat K N} {a2 a2' : Mat M K} {w2 w2' : Mat K N}
    {xd xd' : Mat M K} {wr wr' : Mat K N} {b b' : Row N}
    (h1 : a1 = a1') (h2 : w1 = w1') (h3 : a2 = a2') (h4 : w2 = w2') (h5 : xd = xd') (h6 : wr = wr') (h7 : b = b') :
    sageK a1 w1 a2 w2 xd wr b = sageK a1' w1' a2' w2' xd' wr' b' := by rw [h1, h2, h3, h4, h5, h6, h7]

/-- At the exit of region 0 its output array is the first input projection. -/
theorem k_XL (c : Dev nD) (a : ArgVals) (hk : KHolds m c a) :
    W2 m ρ c (Proc.devRef .tc main_v1) = XL a := by
  have ex : V1 m ρ c main_arg0 = a.x_lnc := (at_main_arg0_1 m ρ c).trans hk.h0
  have ew : V1 m ρ c main_arg3 = a.W_lnc := (at_main_arg3_1 m ρ c).trans hk.h3
  have eb : V1 m ρ c main_v0 = kh0_v0 a.b_lnc :=
    (kh0_v0_eq (W0 m ρ c)).trans (congrArg kh0_v0 hk.h4)
  have er : rowOf (kh0_v0 a.b_lnc) = a.b_lnc := by unfold kh0_v0; exact rowOf_shapeCast _ _
  refine ((W2_arr m ρ c 3).trans (final0 (V1 m ρ) c)).trans ?_
  exact lin_congr ex ew ((congrArg rowOf eb).trans er)

/-- At the exit of region 1 its output array is the second input projection. -/
theorem k_XM (c : Dev nD) (a : ArgVals) (hk : KHolds m c a) :
    W4 m ρ c (Proc.devRef .tc main_v3) = XM a := by
  have ex : V3 m ρ c main_arg1 = a.x_mir := (at_main_arg1_3 m ρ c).trans hk.h1
  have ew : V3 m ρ c main_arg5 = a.W_mir := (at_main_arg5_3 m ρ c).trans hk.h5
  have eb : V3 m ρ c main_v2 = kh1_v2 a.b_mir :=
    (kh1_v2_eq (W2 m ρ c)).trans (congrArg kh1_v2 ((at_main_arg6_2 m ρ c).trans hk.h6))
  have er : rowOf (kh1_v2 a.b_mir) = a.b_mir := by unfold kh1_v2; exact rowOf_shapeCast _ _
  refine ((W4_arr m ρ c 3).trans (final1 (V3 m ρ) c)).trans ?_
  exact lin_congr ex ew ((congrArg rowOf eb).trans er)

/-- At the exit of region 2 its output array is the third input projection. -/
theorem k_XP (c : Dev nD) (a : ArgVals) (hk : KHolds m c a) :
    W6 m ρ c (Proc.devRef .tc main_v5) = XP a := by
  have ex : V5 m ρ c main_arg2 = a.x_pro := (at_main_arg2_5 m ρ c).trans hk.h2
  have ew : V5 m ρ c main_arg7 = a.W_pro := (at_main_arg7_5 m ρ c).trans hk.h7
  have eb : V5 m ρ c main_v4 = kh2_v4 a.b_pro :=
    (kh2_v4_eq (W4 m ρ c)).trans (congrArg kh2_v4 ((at_main_arg8_4 m ρ c).trans hk.h8))
  have er : rowOf (kh2_v4 a.b_pro) = a.b_pro := by unfold kh2_v4; exact rowOf_shapeCast _ _
  refine ((W6_arr m ρ c 3).trans (final2 (V5 m ρ) c)).trans ?_
  exact lin_congr ex ew ((congrArg rowOf eb).trans er)

end Cert.KernelIdeal.Val

end
-- ==== Proof.Region3.lean ====
/-
  The two-relation neighbourhood combine on 50000 rows, in blocks of 5000 rows over a grid of size 10: every block of
  the result is the same block of relu ((a1 · w1 + a2 · w2 + xd · wr) + b), the three 150-by-150 weights and the bias row
  read whole at every point; the blocks tile the rows, so the whole result array is that one function of the seven inputs.
-/
import proofs.«141689_j63058709840619_1_alg».proof.Proof.FrameKI
import proofs.«141689_j63058709840619_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Cert.KernelIdeal Cert.KernelIdeal.Gen Cert.KernelIdeal.GenP Cert.Spec

/-! ## The body's payload at an index -/

/-- The left operand of a product is read at the result's row on axis 0. -/
theorem lhs3_0 (i : S5000x150.Idx) (q : dot_S5000x150_S150x150_S5000x150_1_0_0_1_n_n.contr.Idx) :
    (dot_S5000x150_S150x150_S5000x150_1_0_0_1_n_n.lhsIdx i q 0).val = (i 0).val := by
  unfold DotDims.lhsIdx
  rw [dif_neg (show ¬(0 : Fin S5000x150.rank) ∈ dot_S5000x150_S150x150_S5000x150_1_0_0_1_n_n.lhsBatch by decide), dif_pos (show (0 : Fin S5000x150.rank) ∈ dot_S5000x150_S150x150_S5000x150_1_0_0_1_n_n.lhsNonContracting by decide)]
  rfl
/-- The left operand of a product is read at the contraction position on axis 1. -/
theorem lhs3_1 (i : S5000x150.Idx) (q : dot_S5000x150_S150x150_S5000x150_1_0_0_1_n_n.contr.Idx) :
    (dot_S5000x150_S150x150_S5000x150_1_0_0_1_n_n.lhsIdx i q 1).val = (q ⟨0, by decide⟩).val :=
  dot_S5000x150_S150x150_S5000x150_1_0_0_1_n_n.lhsIdx_val_of_single rfl i q
/-- The right operand of a product is read at the contraction position on axis 0. -/
theorem rhs3_0 (i : S5000x150.Idx) (q : dot_S5000x150_S150x150_S5000x150_1_0_0_1_n_n.contr.Idx) :
    (dot_S5000x150_S150x150_S5000x150_1_0_0_1_n_n.rhsIdx i q 0).val = (q ⟨0, by decide⟩).val :=
  dot_S5000x150_S150x150_S5000x150_1_0_0_1_n_n.rhsIdx_val_of_single rfl i q
/-- The right operand of a product is read at the result's column on axis 1. -/
theorem rhs3_1 (i : S5000x150.Idx) (q : dot_S5000x150_S150x150_S5000x150_1_0_0_1_n_n.contr.Idx) :
    (dot_S5000x150_S150x150_S5000x150_1_0_0_1_n_n.rhsIdx i q 1).val = (i 1).val := by
  unfold DotDims.rhsIdx
  rw [dif_neg (show ¬(1 : Fin S150x150.rank) ∈ dot_S5000x150_S150x150_S5000x150_1_0_0_1_n_n.rhsBatch by decide), dif_pos (show (1 : Fin S150x150.rank) ∈ dot_S5000x150_S150x150_S5000x150_1_0_0_1_n_n.rhsNonContracting by decide)]
  rfl

/-- One product of the body into a zero accumulator, read at (p, q): the sum over k of x(p, k) · w(k, q). -/
theorem mm3_apply (x : FVec Ideal S5000x150 .bf16) (w : FVec Ideal S150x150 .bf16) (p : Fin 5000) (q : Fin 150) :
    matmul dot_S5000x150_S150x150_S5000x150_1_0_0_1_n_n none x w (constant (F := Ideal) S5000x150 .f32 0x00000000#32) (ix2 p q)
      = ∑ k : Fin 150, x (ix2 p k) * w (ix2 k q) := by
  show FloatOps.matmul dot_S5000x150_S150x150_S5000x150_1_0_0_1_n_n none x w (constant (F := Ideal) S5000x150 .f32 0x00000000#32) (ix2 p q) = _
  rw [Ideal.matmul_constant_zero_apply, ← Equiv.sum_comp (ValueIdx.contrEquiv1 dot_S5000x150_S150x150_S5000x150_1_0_0_1_n_n 150 rfl rfl).symm]
  refine Finset.sum_congr rfl fun k _ => ?_
  have hk := ValueIdx.contrEquiv1_symm_val dot_S5000x150_S150x150_S5000x150_1_0_0_1_n_n 150 rfl rfl k
  have el : dot_S5000x150_S150x150_S5000x150_1_0_0_1_n_n.lhsIdx (ix2 p q) ((ValueIdx.contrEquiv1 dot_S5000x150_S150x150_S5000x150_1_0_0_1_n_n 150 rfl rfl).symm k) = ix2 p k := funext fun a => Fin.ext (by
    match a with
    | ⟨0, _⟩ => exact lhs3_0 _ _
    | ⟨1, _⟩ => exact (lhs3_1 _ _).trans hk)
  have er : dot_S5000x150_S150x150_S5000x150_1_0_0_1_n_n.rhsIdx (ix2 p q) ((ValueIdx.contrEquiv1 dot_S5000x150_S150x150_S5000x150_1_0_0_1_n_n 150 rfl rfl).symm k) = ix2 k q := funext fun a => Fin.ext (by
    match a with
    | ⟨0, _⟩ => exact (rhs3_0 _ _).trans hk
    | ⟨1, _⟩ => exact rhs3_1 _ _)
  rw [el, er]

/-- The body's payload at (p, q): the three products summed left to right, plus the bias row at q, clipped below at zero. -/
theorem pay3_apply (x0 : Vec Ideal S5000x150 .f32) (x1 : Vec Ideal S150x150 .f32) (x2 : Vec Ideal S5000x150 .f32) (x3 : Vec Ideal S150x150 .f32)
    (x4 : Vec Ideal S5000x150 .f32) (x5 : Vec Ideal S150x150 .f32) (x6 : Vec Ideal S1x150 .f32) (p : Fin 5000) (q : Fin 150) :
    k3_pay1 x0 x1 x2 x3 x4 x5 x6 (ix2 p q)
      = max (((∑ k : Fin 150, x0 (ix2 p k) * x1 (ix2 k q)) + (∑ k : Fin 150, x2 (ix2 p k) * x3 (ix2 k q))
          + (∑ k : Fin 150, x4 (ix2 p k) * x5 (ix2 k q))) + x6 (ix2 (0 : Fin 1) q)) 0 := by
  unfold k3_pay1
  simp only [shapeCast_self]
  rw [maximumf_apply, addf_apply, addf_apply, addf_apply, mm3_apply, mm3_apply, mm3_apply, broadcastTo_1b_ab_apply, broadcast_apply]
  simp only [truncf_apply]
  rw [Ideal.ofBits_def, Ideal.ofBits_zero_f32]

/-- The payload of blocks that are the arrays' entries at row `r` is the combine of the arrays at (r, q). -/
theorem pay3_of_blocks (a1 a2 xd : Mat 50000 150) (w1 w2 wr : Mat 150 150) (b : Mat 1 150)
    (x0 : Vec Ideal S5000x150 .f32) (x1 : Vec Ideal S150x150 .f32) (x2 : Vec Ideal S5000x150 .f32) (x3 : Vec Ideal S150x150 .f32)
    (x4 : Vec Ideal S5000x150 .f32) (x5 : Vec Ideal S150x150 .f32) (x6 : Vec Ideal S1x150 .f32) (p : Fin 5000) (q : Fin 150) (r : Fin 50000)
    (h0 : ∀ k : Fin 150, x0 (ix2 p k) = a1 (ix2 r k)) (h1 : ∀ k : Fin 150, x1 (ix2 k q) = w1 (ix2 k q))
    (h2 : ∀ k : Fin 150, x2 (ix2 p k) = a2 (ix2 r k)) (h3 : ∀ k : Fin 150, x3 (ix2 k q) = w2 (ix2 k q))
    (h4 : ∀ k : Fin 150, x4 (ix2 p k) = xd (ix2 r k)) (h5 : ∀ k : Fin 150, x5 (ix2 k q) = wr (ix2 k q))
    (h6 : x6 (ix2 (0 : Fin 1) q) = b (ix2 (0 : Fin 1) q)) :
    k3_pay1 x0 x1 x2 x3 x4 x5 x6 (ix2 p q) = relu (sageK a1 w1 a2 w2 xd wr (rowOf b)) (ix2 r q) := by
  rw [pay3_apply]
  simp only [h0, h1, h2, h3, h4, h5, h6]
  rfl

/-! ## From blocks to the array -/

section
variable (V : (c : Dev nD) → (b : Ref sig .tc) → Buf (Elt Ideal) ((c : Thread nD τ).loc b))

theorem zero_off3 : (![0, 0] : Fin 2 → Nat) = fun _ => 0 := funext fun a => by fin_cases a <;> rfl

/-- The index maps, decided over the grid: the row-tiled windows (a1, a2, xd and the result) sit at block (t, 0), the
    weights and the bias at block (0, 0). -/
theorem idx_maps3 : ∀ t : Fin cfg3.N,
    (win3_0.index t (0 : Fin 2) = t.val ∧ win3_0.index t (1 : Fin 2) = 0)
    ∧ (win3_1.index t (0 : Fin 2) = 0 ∧ win3_1.index t (1 : Fin 2) = 0)
    ∧ (win3_2.index t (0 : Fin 2) = t.val ∧ win3_2.index t (1 : Fin 2) = 0)
    ∧ (win3_3.index t (0 : Fin 2) = 0 ∧ win3_3.index t (1 : Fin 2) = 0)
    ∧ (win3_4.index t (0 : Fin 2) = t.val ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = t.val ∧ win3_7.index t (1 : Fin 2) = 0) :=
  (by decide +kernel : ∀ t : Fin grid3.N, _)

/-- Block t of a1 is the 5000 rows of it from row 5000 t on. -/
theorem blk3_0 (c : Dev nD) (t : Fin cfg3.N) (y : S5000x150.Idx) (i : S50000x150.Idx)
    (h0 : (i 0).val = t.val * 5000 + (y 0).val) (h1 : (i 1).val = (y 1).val) :
    (iblk3 V c 0 t : Vec Ideal S5000x150 .f32) y = (V c main_v28 : Mat 50000 150) i := by
  obtain ⟨⟨e0, e1⟩, -⟩ := idx_maps3 t
  unfold iblk3
  rw [View.read_apply]
  show V c main_v28 (((cfg3.win 0).blk t).view.emb y) = V c main_v28 i
  refine congrArg _ (funext fun a => Fin.ext ?_)
  match a with
  | ⟨0, _⟩ => show win3_0.index t (0 : Fin 2) * 5000 + 1 * (y 0).val = (i 0).val; omega
  | ⟨1, _⟩ => show win3_0.index t (1 : Fin 2) * 150 + 1 * (y 1).val = (i 1).val; omega

/-- The one block of w1 is the whole of it. -/
theorem blk3_1 (c : Dev nD) (t : Fin cfg3.N) (y : S150x150.Idx) :
    (iblk3 V c 1 t : Vec Ideal S150x150 .f32) y = (V c main_v63 : Mat 150 150) y := by
  obtain ⟨-, ⟨e0, e1⟩, -⟩ := idx_maps3 t
  unfold iblk3
  rw [View.read_apply]
  show V c main_v63 (((cfg3.win 1).blk t).view.emb y) = V c main_v63 y
  refine congrArg _ (funext fun a => Fin.ext ?_)
  match a with
  | ⟨0, _⟩ => show win3_1.index t (0 : Fin 2) * 150 + 1 * (y 0).val = (y 0).val; omega
  | ⟨1, _⟩ => show win3_1.index t (1 : Fin 2) * 150 + 1 * (y 1).val = (y 1).val; omega

/-- Block t of a2 is the 5000 rows of it from row 5000 t on. -/
theorem blk3_2 (c : Dev nD) (t : Fin cfg3.N) (y : S5000x150.Idx) (i : S50000x150.Idx)
    (h0 : (i 0).val = t.val * 5000 + (y 0).val) (h1 : (i 1).val = (y 1).val) :
    (iblk3 V c 2 t : Vec Ideal S5000x150 .f32) y = (V c main_v51 : Mat 50000 150) i := by
  obtain ⟨-, -, ⟨e0, e1⟩, -⟩ := idx_maps3 t
  unfold iblk3
  rw [View.read_apply]
  show V c main_v51 (((cfg3.win 2).blk t).view.emb y) = V c main_v51 i
  refine congrArg _ (funext fun a => Fin.ext ?_)
  match a with
  | ⟨0, _⟩ => show win3_2.index t (0 : Fin 2) * 5000 + 1 * (y 0).val = (i 0).val; omega
  | ⟨1, _⟩ => show win3_2.index t (1 : Fin 2) * 150 + 1 * (y 1).val = (i 1).val; omega

/-- The one block of w2 is the whole of it. -/
theorem blk3_3 (c : Dev nD) (t : Fin cfg3.N) (y : S150x150.Idx) :
    (iblk3 V c 3 t : Vec Ideal S150x150 .f32) y = (V c main_v65 : Mat 150 150) y := by
  obtain ⟨-, -, -, ⟨e0, e1⟩, -⟩ := idx_maps3 t
  unfold iblk3
  rw [View.read_apply]
  show V c main_v65 (((cfg3.win 3).blk t).view.emb y) = V c main_v65 y
  refine congrArg _ (funext fun a => Fin.ext ?_)
  match a with
  | ⟨0, _⟩ => show win3_3.index t (0 : Fin 2) * 150 + 1 * (y 0).val = (y 0).val; omega
  | ⟨1, _⟩ => show win3_3.index t (1 : Fin 2) * 150 + 1 * (y 1).val = (y 1).val; omega

/-- Block t of xd is the 5000 rows of it from row 5000 t on. -/
theorem blk3_4 (c : Dev nD) (t : Fin cfg3.N) (y : S5000x150.Idx) (i : S50000x150.Idx)
    (h0 : (i 0).val = t.val * 5000 + (y 0).val) (h1 : (i 1).val = (y 1).val) :
    (iblk3 V c 4 t : Vec Ideal S5000x150 .f32) y = (V c main_v1 : Mat 50000 150) i := by
  obtain ⟨-, -, -, -, ⟨e0, e1⟩, -⟩ := idx_maps3 t
  unfold iblk3
  rw [View.read_apply]
  show V c main_v1 (((cfg3.win 4).blk t).view.emb y) = V c main_v1 i
  refine congrArg _ (funext fun a => Fin.ext ?_)
  match a with
  | ⟨0, _⟩ => show win3_4.index t (0 : Fin 2) * 5000 + 1 * (y 0).val = (i 0).val; omega
  | ⟨1, _⟩ => show win3_4.index t (1 : Fin 2) * 150 + 1 * (y 1).val = (i 1).val; omega

/-- The one block of wr is the whole of it. -/
theorem blk3_5 (c : Dev nD) (t : Fin cfg3.N) (y : S150x150.Idx) :
    (iblk3 V c 5 t : Vec Ideal S150x150 .f32) y = (V c main_v56 : Mat 150 150) y := by
  obtain ⟨-, -, -, -, -, ⟨e0, e1⟩, -⟩ := idx_maps3 t
  unfold iblk3
  rw [View.read_apply]
  show V c main_v56 (((cfg3.win 5).blk t).view.emb y) = V c main_v56 y
  refine congrArg _ (funext fun a => Fin.ext ?_)
  match a with
  | ⟨0, _⟩ => show win3_5.index t (0 : Fin 2) * 150 + 1 * (y 0).val = (y 0).val; omega
  | ⟨1, _⟩ => show win3_5.index t (1 : Fin 2) * 150 + 1 * (y 1).val = (y 1).val; omega

/-- The one block of the bias is the whole of it. -/
theorem blk3_6 (c : Dev nD) (t : Fin cfg3.N) (y : S1x150.Idx) :
    (iblk3 V c 6 t : Vec Ideal S1x150 .f32) y = (V c main_v66 : Mat 1 150) y := by
  obtain ⟨-, -, -, -, -, -, ⟨e0, e1⟩, -⟩ := idx_maps3 t
  unfold iblk3
  rw [View.read_apply]
  show V c main_v66 (((cfg3.win 6).blk t).view.emb y) = V c main_v66 y
  refine congrArg _ (funext fun a => Fin.ext ?_)
  match a with
  | ⟨0, _⟩ => show win3_6.index t (0 : Fin 2) * 1 + 1 * (y 0).val = (y 0).val; omega
  | ⟨1, _⟩ => show win3_6.index t (1 : Fin 2) * 150 + 1 * (y 1).val = (y 1).val; omega

/-- The combine of the seven arrays as the region finds them. -/
abbrev combine3 (c : Dev nD) : Mat 50000 150 :=
  relu (sageK (M := 50000) (K := 150) (N := 150) (V c main_v28) (V c main_v63) (V c main_v51) (V c main_v65) (V c main_v1) (V c main_v56) (rowOf (V c main_v66)))

/-- What point t writes back is block t of the combine. -/
theorem flushed3_eq (c : Dev nD) (t : Fin cfg3.N) :
    (dat3 (F := Ideal) V c).flushed 7 t = ((cfg3.win 7).blk t).view.read (Elt Ideal) (combine3 V c) := by
  show (cfg3.win 7).cut (grid3.coords t) ((dat3 (F := Ideal) V c).after 7 t) = _
  rw [after3_7]
  unfold out3_7
  rw [View.canon_unit_zero zero_off3]
  simp only [View.ld_unit_zero (S := S5000x150) zero_off3, View.ld_unit_zero (S := S150x150) zero_off3, View.ld_unit_zero (S := S1x150) zero_off3]
  obtain ⟨-, -, -, -, -, -, -, ⟨e0, e1⟩⟩ := idx_maps3 t
  have hN : cfg3.N = 10 := N_3
  have ht : t.val < 10 := hN ▸ t.isLt
  refine funext fun (j : S5000x150.Idx) => ?_
  obtain ⟨p, q, rfl⟩ : ∃ (p : Fin 5000) (q : Fin 150), j = ix2 p q := ⟨j 0, j 1, eq_ix2 j⟩
  have hp : p.val < 5000 := p.isLt
  rw [View.read_apply]
  have hi : ((cfg3.win 7).blk t).view.emb (ix2 p q) = (ix2 (⟨t.val * 5000 + p.val, by omega⟩ : Fin 50000) q : S50000x150.Idx) := by
    refine funext fun a => Fin.ext ?_
    match a with
    | ⟨0, _⟩ => show win3_7.index t (0 : Fin 2) * 5000 + 1 * p.val = t.val * 5000 + p.val; omega
    | ⟨1, _⟩ => show win3_7.index t (1 : Fin 2) * 150 + 1 * q.val = q.val; omega
  rw [hi]
  exact pay3_of_blocks (V c main_v28) (V c main_v51) (V c main_v1) (V c main_v63) (V c main_v65) (V c main_v56) (V c main_v66)
    (iblk3 V c 0 t) (iblk3 V c 1 t) (iblk3 V c 2 t) (iblk3 V c 3 t) (iblk3 V c 4 t) (iblk3 V c 5 t) (iblk3 V c 6 t) p q ⟨t.val * 5000 + p.val, by omega⟩
    (fun k => blk3_0 V c t _ _ rfl rfl) (fun k => blk3_1 V c t _)
    (fun k => blk3_2 V c t _ _ rfl rfl) (fun k => blk3_3 V c t _)
    (fun k => blk3_4 V c t _ _ rfl rfl) (fun k => blk3_5 V c t _)
    (blk3_6 V c t _)

/-- An index of the array is in point t's block iff each coordinate is in the block's range on its axis. -/
theorem mem_blk3 (t : Fin cfg3.N) (i : S50000x150.Idx) :
    i ∈ ((cfg3.win 7).blk t).view.set ↔ ∀ a : Fin 2, win3_7.index t a * S5000x150.size a ≤ (i a).val ∧ (i a).val < win3_7.index t a * S5000x150.size a + S5000x150.size a := by
  show i ∈ ((View.whole main_v67).slice (win3_7.rect t)).set ↔ _
  rw [View.set_slice_whole, Rect.mem_set_unit]
  exact Iff.rfl

/-- Row r lies in the block of point r / 5000: the blocks cover the array. -/
theorem cover3 (i : S50000x150.Idx) : ∃ t : Fin cfg3.N, (cfg3.win 7).flush t = true ∧ i ∈ ((cfg3.win 7).blk t).view.set := by
  have hN : cfg3.N = 10 := N_3
  have hi0 : (i 0).val < 50000 := (i 0).isLt
  have hi1 : (i 1).val < 150 := (i 1).isLt
  obtain ⟨t, ht⟩ : ∃ t : Fin cfg3.N, t.val = (i 0).val / 5000 := ⟨⟨(i 0).val / 5000, by rw [hN]; omega⟩, rfl⟩
  obtain ⟨-, -, -, -, -, -, -, ⟨e0, e1⟩⟩ := idx_maps3 t
  refine ⟨t, flush3_7 t, ?_⟩
  rw [mem_blk3]
  intro a
  match a with
  | ⟨0, _⟩ => show win3_7.index t (0 : Fin 2) * 5000 ≤ (i 0).val ∧ (i 0).val < win3_7.index t (0 : Fin 2) * 5000 + 5000; omega
  | ⟨1, _⟩ => show win3_7.index t (1 : Fin 2) * 150 ≤ (i 1).val ∧ (i 1).val < win3_7.index t (1 : Fin 2) * 150 + 150; omega

/-- THE ARRAY after the region: the combine of the seven input arrays as the region finds them. -/
theorem final3 (c : Dev nD) :
    (dat3 (F := Ideal) V c).arrAt 7 cfg3.N = relu (sageK (M := 50000) (K := 150) (N := 150) (V c main_v28) (V c main_v63) (V c main_v51) (V c main_v65) (V c main_v1) (V c main_v56) (rowOf (V c main_v66))) :=
  (dat3 (F := Ideal) V c).arrAt_eq_of_cover 7 (combine3 V c) (fun t _ => flushed3_eq V c t) cover3

end

end Cert.KernelIdeal.Val

end
-- ==== Proof.Region4.lean ====
/-
  The two-relation neighbourhood combine on 2000 rows, in blocks of 2000 rows over a grid of size 1: every block of
  the result is the same block of relu ((a1 · w1 + a2 · w2 + xd · wr) + b), the three 150-by-150 weights and the bias row
  read whole at every point; the blocks tile the rows, so the whole result array is that one function of the seven inputs.
-/
import proofs.«141689_j63058709840619_1_alg».proof.Proof.FrameKI
import proofs.«141689_j63058709840619_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Cert.KernelIdeal Cert.KernelIdeal.Gen Cert.KernelIdeal.GenP Cert.Spec

/-! ## The body's payload at an index -/

/-- The left operand of a product is read at the result's row on axis 0. -/
theorem lhs4_0 (i : S2000x150.Idx) (q : dot_S2000x150_S150x150_S2000x150_1_0_0_1_n_n.contr.Idx) :
    (dot_S2000x150_S150x150_S2000x150_1_0_0_1_n_n.lhsIdx i q 0).val = (i 0).val := by
  unfold DotDims.lhsIdx
  rw [dif_neg (show ¬(0 : Fin S2000x150.rank) ∈ dot_S2000x150_S150x150_S2000x150_1_0_0_1_n_n.lhsBatch by decide), dif_pos (show (0 : Fin S2000x150.rank) ∈ dot_S2000x150_S150x150_S2000x150_1_0_0_1_n_n.lhsNonContracting by decide)]
  rfl
/-- The left operand of a product is read at the contraction position on axis 1. -/
theorem lhs4_1 (i : S2000x150.Idx) (q : dot_S2000x150_S150x150_S2000x150_1_0_0_1_n_n.contr.Idx) :
    (dot_S2000x150_S150x150_S2000x150_1_0_0_1_n_n.lhsIdx i q 1).val = (q ⟨0, by decide⟩).val :=
  dot_S2000x150_S150x150_S2000x150_1_0_0_1_n_n.lhsIdx_val_of_single rfl i q
/-- The right operand of a product is read at the contraction position on axis 0. -/
theorem rhs4_0 (i : S2000x150.Idx) (q : dot_S2000x150_S150x150_S2000x150_1_0_0_1_n_n.contr.Idx) :
    (dot_S2000x150_S150x150_S2000x150_1_0_0_1_n_n.rhsIdx i q 0).val = (q ⟨0, by decide⟩).val :=
  dot_S2000x150_S150x150_S2000x150_1_0_0_1_n_n.rhsIdx_val_of_single rfl i q
/-- The right operand of a product is read at the result's column on axis 1. -/
theorem rhs4_1 (i : S2000x150.Idx) (q : dot_S2000x150_S150x150_S2000x150_1_0_0_1_n_n.contr.Idx) :
    (dot_S2000x150_S150x150_S2000x150_1_0_0_1_n_n.rhsIdx i q 1).val = (i 1).val := by
  unfold DotDims.rhsIdx
  rw [dif_neg (show ¬(1 : Fin S150x150.rank) ∈ dot_S2000x150_S150x150_S2000x150_1_0_0_1_n_n.rhsBatch by decide), dif_pos (show (1 : Fin S150x150.rank) ∈ dot_S2000x150_S150x150_S2000x150_1_0_0_1_n_n.rhsNonContracting by decide)]
  rfl

/-- One product of the body into a zero accumulator, read at (p, q): the sum over k of x(p, k) · w(k, q). -/
theorem mm4_apply (x : FVec Ideal S2000x150 .bf16) (w : FVec Ideal S150x150 .bf16) (p : Fin 2000) (q : Fin 150) :
    matmul dot_S2000x150_S150x150_S2000x150_1_0_0_1_n_n none x w (constant (F := Ideal) S2000x150 .f32 0x00000000#32) (ix2 p q)
      = ∑ k : Fin 150, x (ix2 p k) * w (ix2 k q) := by
  show FloatOps.matmul dot_S2000x150_S150x150_S2000x150_1_0_0_1_n_n none x w (constant (F := Ideal) S2000x150 .f32 0x00000000#32) (ix2 p q) = _
  rw [Ideal.matmul_constant_zero_apply, ← Equiv.sum_comp (ValueIdx.contrEquiv1 dot_S2000x150_S150x150_S2000x150_1_0_0_1_n_n 150 rfl rfl).symm]
  refine Finset.sum_congr rfl fun k _ => ?_
  have hk := ValueIdx.contrEquiv1_symm_val dot_S2000x150_S150x150_S2000x150_1_0_0_1_n_n 150 rfl rfl k
  have el : dot_S2000x150_S150x150_S2000x150_1_0_0_1_n_n.lhsIdx (ix2 p q) ((ValueIdx.contrEquiv1 dot_S2000x150_S150x150_S2000x150_1_0_0_1_n_n 150 rfl rfl).symm k) = ix2 p k := funext fun a => Fin.ext (by
    match a with
    | ⟨0, _⟩ => exact lhs4_0 _ _
    | ⟨1, _⟩ => exact (lhs4_1 _ _).trans hk)
  have er : dot_S2000x150_S150x150_S2000x150_1_0_0_1_n_n.rhsIdx (ix2 p q) ((ValueIdx.contrEquiv1 dot_S2000x150_S150x150_S2000x150_1_0_0_1_n_n 150 rfl rfl).symm k) = ix2 k q := funext fun a => Fin.ext (by
    match a with
    | ⟨0, _⟩ => exact (rhs4_0 _ _).trans hk
    | ⟨1, _⟩ => exact rhs4_1 _ _)
  rw [el, er]

/-- The body's payload at (p, q): the three products summed left to right, plus the bias row at q, clipped below at zero. -/
theorem pay4_apply (x0 : Vec Ideal S2000x150 .f32) (x1 : Vec Ideal S150x150 .f32) (x2 : Vec Ideal S2000x150 .f32) (x3 : Vec Ideal S150x150 .f32)
    (x4 : Vec Ideal S2000x150 .f32) (x5 : Vec Ideal S150x150 .f32) (x6 : Vec Ideal S1x150 .f32) (p : Fin 2000) (q : Fin 150) :
    k4_pay1 x0 x1 x2 x3 x4 x5 x6 (ix2 p q)
      = max (((∑ k : Fin 150, x0 (ix2 p k) * x1 (ix2 k q)) + (∑ k : Fin 150, x2 (ix2 p k) * x3 (ix2 k q))
          + (∑ k : Fin 150, x4 (ix2 p k) * x5 (ix2 k q))) + x6 (ix2 (0 : Fin 1) q)) 0 := by
  unfold k4_pay1
  simp only [shapeCast_self]
  rw [maximumf_apply, addf_apply, addf_apply, addf_apply, mm4_apply, mm4_apply, mm4_apply, broadcastTo_1b_ab_apply, broadcast_apply]
  simp only [truncf_apply]
  rw [Ideal.ofBits_def, Ideal.ofBits_zero_f32]

/-- The payload of blocks that are the arrays' entries at row `r` is the combine of the arrays at (r, q). -/
theorem pay4_of_blocks (a1 a2 xd : Mat 2000 150) (w1 w2 wr : Mat 150 150) (b : Mat 1 150)
    (x0 : Vec Ideal S2000x150 .f32) (x1 : Vec Ideal S150x150 .f32) (x2 : Vec Ideal S2000x150 .f32) (x3 : Vec Ideal S150x150 .f32)
    (x4 : Vec Ideal S2000x150 .f32) (x5 : Vec Ideal S150x150 .f32) (x6 : Vec Ideal S1x150 .f32) (p : Fin 2000) (q : Fin 150) (r : Fin 2000)
    (h0 : ∀ k : Fin 150, x0 (ix2 p k) = a1 (ix2 r k)) (h1 : ∀ k : Fin 150, x1 (ix2 k q) = w1 (ix2 k q))
    (h2 : ∀ k : Fin 150, x2 (ix2 p k) = a2 (ix2 r k)) (h3 : ∀ k : Fin 150, x3 (ix2 k q) = w2 (ix2 k q))
    (h4 : ∀ k : Fin 150, x4 (ix2 p k) = xd (ix2 r k)) (h5 : ∀ k : Fin 150, x5 (ix2 k q) = wr (ix2 k q))
    (h6 : x6 (ix2 (0 : Fin 1) q) = b (ix2 (0 : Fin 1) q)) :
    k4_pay1 x0 x1 x2 x3 x4 x5 x6 (ix2 p q) = relu (sageK a1 w1 a2 w2 xd wr (rowOf b)) (ix2 r q) := by
  rw [pay4_apply]
  simp only [h0, h1, h2, h3, h4, h5, h6]
  rfl

/-! ## From blocks to the array -/

section
variable (V : (c : Dev nD) → (b : Ref sig .tc) → Buf (Elt Ideal) ((c : Thread nD τ).loc b))

theorem zero_off4 : (![0, 0] : Fin 2 → Nat) = fun _ => 0 := funext fun a => by fin_cases a <;> rfl

/-- The index maps, decided over the grid: the row-tiled windows (a1, a2, xd and the result) sit at block (t, 0), the
    weights and the bias at block (0, 0). -/
theorem idx_maps4 : ∀ t : Fin cfg4.N,
    (win4_0.index t (0 : Fin 2) = t.val ∧ win4_0.index t (1 : Fin 2) = 0)
    ∧ (win4_1.index t (0 : Fin 2) = 0 ∧ win4_1.index t (1 : Fin 2) = 0)
    ∧ (win4_2.index t (0 : Fin 2) = t.val ∧ win4_2.index t (1 : Fin 2) = 0)
    ∧ (win4_3.index t (0 : Fin 2) = 0 ∧ win4_3.index t (1 : Fin 2) = 0)
    ∧ (win4_4.index t (0 : Fin 2) = t.val ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = t.val ∧ win4_7.index t (1 : Fin 2) = 0) :=
  (by decide +kernel : ∀ t : Fin grid4.N, _)

/-- Block t of a1 is the 2000 rows of it from row 2000 t on. -/
theorem blk4_0 (c : Dev nD) (t : Fin cfg4.N) (y : S2000x150.Idx) (i : S2000x150.Idx)
    (h0 : (i 0).val = t.val * 2000 + (y 0).val) (h1 : (i 1).val = (y 1).val) :
    (iblk4 V c 0 t : Vec Ideal S2000x150 .f32) y = (V c main_v90 : Mat 2000 150) i := by
  obtain ⟨⟨e0, e1⟩, -⟩ := idx_maps4 t
  unfold iblk4
  rw [View.read_apply]
  show V c main_v90 (((cfg4.win 0).blk t).view.emb y) = V c main_v90 i
  refine congrArg _ (funext fun a => Fin.ext ?_)
  match a with
  | ⟨0, _⟩ => show win4_0.index t (0 : Fin 2) * 2000 + 1 * (y 0).val = (i 0).val; omega
  | ⟨1, _⟩ => show win4_0.index t (1 : Fin 2) * 150 + 1 * (y 1).val = (i 1).val; omega

/-- The one block of w1 is the whole of it. -/
theorem blk4_1 (c : Dev nD) (t : Fin cfg4.N) (y : S150x150.Idx) :
    (iblk4 V c 1 t : Vec Ideal S150x150 .f32) y = (V c main_v125 : Mat 150 150) y := by
  obtain ⟨-, ⟨e0, e1⟩, -⟩ := idx_maps4 t
  unfold iblk4
  rw [View.read_apply]
  show V c main_v125 (((cfg4.win 1).blk t).view.emb y) = V c main_v125 y
  refine congrArg _ (funext fun a => Fin.ext ?_)
  match a with
  | ⟨0, _⟩ => show win4_1.index t (0 : Fin 2) * 150 + 1 * (y 0).val = (y 0).val; omega
  | ⟨1, _⟩ => show win4_1.index t (1 : Fin 2) * 150 + 1 * (y 1).val = (y 1).val; omega

/-- Block t of a2 is the 2000 rows of it from row 2000 t on. -/
theorem blk4_2 (c : Dev nD) (t : Fin cfg4.N) (y : S2000x150.Idx) (i : S2000x150.Idx)
    (h0 : (i 0).val = t.val * 2000 + (y 0).val) (h1 : (i 1).val = (y 1).val) :
    (iblk4 V c 2 t : Vec Ideal S2000x150 .f32) y = (V c main_v113 : Mat 2000 150) i := by
  obtain ⟨-, -, ⟨e0, e1⟩, -⟩ := idx_maps4 t
  unfold iblk4
  rw [View.read_apply]
  show V c main_v113 (((cfg4.win 2).blk t).view.emb y) = V c main_v113 i
  refine congrArg _ (funext fun a => Fin.ext ?_)
  match a with
  | ⟨0, _⟩ => show win4_2.index t (0 : Fin 2) * 2000 + 1 * (y 0).val = (i 0).val; omega
  | ⟨1, _⟩ => show win4_2.index t (1 : Fin 2) * 150 + 1 * (y 1).val = (i 1).val; omega

/-- The one block of w2 is the whole of it. -/
theorem blk4_3 (c : Dev nD) (t : Fin cfg4.N) (y : S150x150.Idx) :
    (iblk4 V c 3 t : Vec Ideal S150x150 .f32) y = (V c main_v127 : Mat 150 150) y := by
  obtain ⟨-, -, -, ⟨e0, e1⟩, -⟩ := idx_maps4 t
  unfold iblk4
  rw [View.read_apply]
  show V c main_v127 (((cfg4.win 3).blk t).view.emb y) = V c main_v127 y
  refine congrArg _ (funext fun a => Fin.ext ?_)
  match a with
  | ⟨0, _⟩ => show win4_3.index t (0 : Fin 2) * 150 + 1 * (y 0).val = (y 0).val; omega
  | ⟨1, _⟩ => show win4_3.index t (1 : Fin 2) * 150 + 1 * (y 1).val = (y 1).val; omega

/-- Block t of xd is the 2000 rows of it from row 2000 t on. -/
theorem blk4_4 (c : Dev nD) (t : Fin cfg4.N) (y : S2000x150.Idx) (i : S2000x150.Idx)
    (h0 : (i 0).val = t.val * 2000 + (y 0).val) (h1 : (i 1).val = (y 1).val) :
    (iblk4 V c 4 t : Vec Ideal S2000x150 .f32) y = (V c main_v3 : Mat 2000 150) i := by
  obtain ⟨-, -, -, -, ⟨e0, e1⟩, -⟩ := idx_maps4 t
  unfold iblk4
  rw [View.read_apply]
  show V c main_v3 (((cfg4.win 4).blk t).view.emb y) = V c main_v3 i
  refine congrArg _ (funext fun a => Fin.ext ?_)
  match a with
  | ⟨0, _⟩ => show win4_4.index t (0 : Fin 2) * 2000 + 1 * (y 0).val = (i 0).val; omega
  | ⟨1, _⟩ => show win4_4.index t (1 : Fin 2) * 150 + 1 * (y 1).val = (i 1).val; omega

/-- The one block of wr is the whole of it. -/
theorem blk4_5 (c : Dev nD) (t : Fin cfg4.N) (y : S150x150.Idx) :
    (iblk4 V c 5 t : Vec Ideal S150x150 .f32) y = (V c main_v118 : Mat 150 150) y := by
  obtain ⟨-, -, -, -, -, ⟨e0, e1⟩, -⟩ := idx_maps4 t
  unfold iblk4
  rw [View.read_apply]
  show V c main_v118 (((cfg4.win 5).blk t).view.emb y) = V c main_v118 y
  refine congrArg _ (funext fun a => Fin.ext ?_)
  match a with
  | ⟨0, _⟩ => show win4_5.index t (0 : Fin 2) * 150 + 1 * (y 0).val = (y 0).val; omega
  | ⟨1, _⟩ => show win4_5.index t (1 : Fin 2) * 150 + 1 * (y 1).val = (y 1).val; omega

/-- The one block of the bias is the whole of it. -/
theorem blk4_6 (c : Dev nD) (t : Fin cfg4.N) (y : S1x150.Idx) :
    (iblk4 V c 6 t : Vec Ideal S1x150 .f32) y = (V c main_v128 : Mat 1 150) y := by
  obtain ⟨-, -, -, -, -, -, ⟨e0, e1⟩, -⟩ := idx_maps4 t
  unfold iblk4
  rw [View.read_apply]
  show V c main_v128 (((cfg4.win 6).blk t).view.emb y) = V c main_v128 y
  refine congrArg _ (funext fun a => Fin.ext ?_)
  match a with
  | ⟨0, _⟩ => show win4_6.index t (0 : Fin 2) * 1 + 1 * (y 0).val = (y 0).val; omega
  | ⟨1, _⟩ => show win4_6.index t (1 : Fin 2) * 150 + 1 * (y 1).val = (y 1).val; omega

/-- The combine of the seven arrays as the region finds them. -/
abbrev combine4 (c : Dev nD) : Mat 2000 150 :=
  relu (sageK (M := 2000) (K := 150) (N := 150) (V c main_v90) (V c main_v125) (V c main_v113) (V c main_v127) (V c main_v3) (V c main_v118) (rowOf (V c main_v128)))

/-- What point t writes back is block t of the combine. -/
theorem flushed4_eq (c : Dev nD) (t : Fin cfg4.N) :
    (dat4 (F := Ideal) V c).flushed 7 t = ((cfg4.win 7).blk t).view.read (Elt Ideal) (combine4 V c) := by
  show (cfg4.win 7).cut (grid4.coords t) ((dat4 (F := Ideal) V c).after 7 t) = _
  rw [after4_7]
  unfold out4_7
  rw [View.canon_unit_zero zero_off4]
  simp only [View.ld_unit_zero (S := S2000x150) zero_off4, View.ld_unit_zero (S := S150x150) zero_off4, View.ld_unit_zero (S := S1x150) zero_off4]
  obtain ⟨-, -, -, -, -, -, -, ⟨e0, e1⟩⟩ := idx_maps4 t
  have hN : cfg4.N = 1 := N_4
  have ht : t.val < 1 := hN ▸ t.isLt
  refine funext fun (j : S2000x150.Idx) => ?_
  obtain ⟨p, q, rfl⟩ : ∃ (p : Fin 2000) (q : Fin 150), j = ix2 p q := ⟨j 0, j 1, eq_ix2 j⟩
  have hp : p.val < 2000 := p.isLt
  rw [View.read_apply]
  have hi : ((cfg4.win 7).blk t).view.emb (ix2 p q) = (ix2 (⟨t.val * 2000 + p.val, by omega⟩ : Fin 2000) q : S2000x150.Idx) := by
    refine funext fun a => Fin.ext ?_
    match a with
    | ⟨0, _⟩ => show win4_7.index t (0 : Fin 2) * 2000 + 1 * p.val = t.val * 2000 + p.val; omega
    | ⟨1, _⟩ => show win4_7.index t (1 : Fin 2) * 150 + 1 * q.val = q.val; omega
  rw [hi]
  exact pay4_of_blocks (V c main_v90) (V c main_v113) (V c main_v3) (V c main_v125) (V c main_v127) (V c main_v118) (V c main_v128)
    (iblk4 V c 0 t) (iblk4 V c 1 t) (iblk4 V c 2 t) (iblk4 V c 3 t) (iblk4 V c 4 t) (iblk4 V c 5 t) (iblk4 V c 6 t) p q ⟨t.val * 2000 + p.val, by omega⟩
    (fun k => blk4_0 V c t _ _ rfl rfl) (fun k => blk4_1 V c t _)
    (fun k => blk4_2 V c t _ _ rfl rfl) (fun k => blk4_3 V c t _)
    (fun k => blk4_4 V c t _ _ rfl rfl) (fun k => blk4_5 V c t _)
    (blk4_6 V c t _)

/-- An index of the array is in point t's block iff each coordinate is in the block's range on its axis. -/
theorem mem_blk4 (t : Fin cfg4.N) (i : S2000x150.Idx) :
    i ∈ ((cfg4.win 7).blk t).view.set ↔ ∀ a : Fin 2, win4_7.index t a * S2000x150.size a ≤ (i a).val ∧ (i a).val < win4_7.index t a * S2000x150.size a + S2000x150.size a := by
  show i ∈ ((View.whole main_v129).slice (win4_7.rect t)).set ↔ _
  rw [View.set_slice_whole, Rect.mem_set_unit]
  exact Iff.rfl

/-- Row r lies in the block of point r / 2000: the blocks cover the array. -/
theorem cover4 (i : S2000x150.Idx) : ∃ t : Fin cfg4.N, (cfg4.win 7).flush t = true ∧ i ∈ ((cfg4.win 7).blk t).view.set := by
  have hN : cfg4.N = 1 := N_4
  have hi0 : (i 0).val < 2000 := (i 0).isLt
  have hi1 : (i 1).val < 150 := (i 1).isLt
  obtain ⟨t, ht⟩ : ∃ t : Fin cfg4.N, t.val = (i 0).val / 2000 := ⟨⟨(i 0).val / 2000, by rw [hN]; omega⟩, rfl⟩
  obtain ⟨-, -, -, -, -, -, -, ⟨e0, e1⟩⟩ := idx_maps4 t
  refine ⟨t, flush4_7 t, ?_⟩
  rw [mem_blk4]
  intro a
  match a with
  | ⟨0, _⟩ => show win4_7.index t (0 : Fin 2) * 2000 ≤ (i 0).val ∧ (i 0).val < win4_7.index t (0 : Fin 2) * 2000 + 2000; omega
  | ⟨1, _⟩ => show win4_7.index t (1 : Fin 2) * 150 ≤ (i 1).val ∧ (i 1).val < win4_7.index t (1 : Fin 2) * 150 + 150; omega

/-- THE ARRAY after the region: the combine of the seven input arrays as the region finds them. -/
theorem final4 (c : Dev nD) :
    (dat4 (F := Ideal) V c).arrAt 7 cfg4.N = relu (sageK (M := 2000) (K := 150) (N := 150) (V c main_v90) (V c main_v125) (V c main_v113) (V c main_v127) (V c main_v3) (V c main_v118) (rowOf (V c main_v128))) :=
  (dat4 (F := Ideal) V c).arrAt_eq_of_cover 7 (combine4 V c) (fun t _ => flushed4_eq V c t) cover4

end

end Cert.KernelIdeal.Val

end
-- ==== Proof.Region5.lean ====
/-
  The two-relation neighbourhood combine on 20000 rows, in blocks of 5000 rows over a grid of size 4: every block of
  the result is the same block of relu ((a1 · w1 + a2 · w2 + xd · wr) + b), the three 150-by-150 weights and the bias row
  read whole at every point; the blocks tile the rows, so the whole result array is that one function of the seven inputs.
-/
import proofs.«141689_j63058709840619_1_alg».proof.Proof.FrameKI
import proofs.«141689_j63058709840619_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Cert.KernelIdeal Cert.KernelIdeal.Gen Cert.KernelIdeal.GenP Cert.Spec

/-! ## The body's payload at an index -/

/-- The left operand of a product is read at the result's row on axis 0. -/
theorem lhs5_0 (i : S5000x150.Idx) (q : dot_S5000x150_S150x150_S5000x150_1_0_0_1_n_n.contr.Idx) :
    (dot_S5000x150_S150x150_S5000x150_1_0_0_1_n_n.lhsIdx i q 0).val = (i 0).val := by
  unfold DotDims.lhsIdx
  rw [dif_neg (show ¬(0 : Fin S5000x150.rank) ∈ dot_S5000x150_S150x150_S5000x150_1_0_0_1_n_n.lhsBatch by decide), dif_pos (show (0 : Fin S5000x150.rank) ∈ dot_S5000x150_S150x150_S5000x150_1_0_0_1_n_n.lhsNonContracting by decide)]
  rfl
/-- The left operand of a product is read at the contraction position on axis 1. -/
theorem lhs5_1 (i : S5000x150.Idx) (q : dot_S5000x150_S150x150_S5000x150_1_0_0_1_n_n.contr.Idx) :
    (dot_S5000x150_S150x150_S5000x150_1_0_0_1_n_n.lhsIdx i q 1).val = (q ⟨0, by decide⟩).val :=
  dot_S5000x150_S150x150_S5000x150_1_0_0_1_n_n.lhsIdx_val_of_single rfl i q
/-- The right operand of a product is read at the contraction position on axis 0. -/
theorem rhs5_0 (i : S5000x150.Idx) (q : dot_S5000x150_S150x150_S5000x150_1_0_0_1_n_n.contr.Idx) :
    (dot_S5000x150_S150x150_S5000x150_1_0_0_1_n_n.rhsIdx i q 0).val = (q ⟨0, by decide⟩).val :=
  dot_S5000x150_S150x150_S5000x150_1_0_0_1_n_n.rhsIdx_val_of_single rfl i q
/-- The right operand of a product is read at the result's column on axis 1. -/
theorem rhs5_1 (i : S5000x150.Idx) (q : dot_S5000x150_S150x150_S5000x150_1_0_0_1_n_n.contr.Idx) :
    (dot_S5000x150_S150x150_S5000x150_1_0_0_1_n_n.rhsIdx i q 1).val = (i 1).val := by
  unfold DotDims.rhsIdx
  rw [dif_neg (show ¬(1 : Fin S150x150.rank) ∈ dot_S5000x150_S150x150_S5000x150_1_0_0_1_n_n.rhsBatch by decide), dif_pos (show (1 : Fin S150x150.rank) ∈ dot_S5000x150_S150x150_S5000x150_1_0_0_1_n_n.rhsNonContracting by decide)]
  rfl

/-- One product of the body into a zero accumulator, read at (p, q): the sum over k of x(p, k) · w(k, q). -/
theorem mm5_apply (x : FVec Ideal S5000x150 .bf16) (w : FVec Ideal S150x150 .bf16) (p : Fin 5000) (q : Fin 150) :
    matmul dot_S5000x150_S150x150_S5000x150_1_0_0_1_n_n none x w (constant (F := Ideal) S5000x150 .f32 0x00000000#32) (ix2 p q)
      = ∑ k : Fin 150, x (ix2 p k) * w (ix2 k q) := by
  show FloatOps.matmul dot_S5000x150_S150x150_S5000x150_1_0_0_1_n_n none x w (constant (F := Ideal) S5000x150 .f32 0x00000000#32) (ix2 p q) = _
  rw [Ideal.matmul_constant_zero_apply, ← Equiv.sum_comp (ValueIdx.contrEquiv1 dot_S5000x150_S150x150_S5000x150_1_0_0_1_n_n 150 rfl rfl).symm]
  refine Finset.sum_congr rfl fun k _ => ?_
  have hk := ValueIdx.contrEquiv1_symm_val dot_S5000x150_S150x150_S5000x150_1_0_0_1_n_n 150 rfl rfl k
  have el : dot_S5000x150_S150x150_S5000x150_1_0_0_1_n_n.lhsIdx (ix2 p q) ((ValueIdx.contrEquiv1 dot_S5000x150_S150x150_S5000x150_1_0_0_1_n_n 150 rfl rfl).symm k) = ix2 p k := funext fun a => Fin.ext (by
    match a with
    | ⟨0, _⟩ => exact lhs5_0 _ _
    | ⟨1, _⟩ => exact (lhs5_1 _ _).trans hk)
  have er : dot_S5000x150_S150x150_S5000x150_1_0_0_1_n_n.rhsIdx (ix2 p q) ((ValueIdx.contrEquiv1 dot_S5000x150_S150x150_S5000x150_1_0_0_1_n_n 150 rfl rfl).symm k) = ix2 k q := funext fun a => Fin.ext (by
    match a with
    | ⟨0, _⟩ => exact (rhs5_0 _ _).trans hk
    | ⟨1, _⟩ => exact rhs5_1 _ _)
  rw [el, er]

/-- The body's payload at (p, q): the three products summed left to right, plus the bias row at q, clipped below at zero. -/
theorem pay5_apply (x0 : Vec Ideal S5000x150 .f32) (x1 : Vec Ideal S150x150 .f32) (x2 : Vec Ideal S5000x150 .f32) (x3 : Vec Ideal S150x150 .f32)
    (x4 : Vec Ideal S5000x150 .f32) (x5 : Vec Ideal S150x150 .f32) (x6 : Vec Ideal S1x150 .f32) (p : Fin 5000) (q : Fin 150) :
    k5_pay1 x0 x1 x2 x3 x4 x5 x6 (ix2 p q)
      = max (((∑ k : Fin 150, x0 (ix2 p k) * x1 (ix2 k q)) + (∑ k : Fin 150, x2 (ix2 p k) * x3 (ix2 k q))
          + (∑ k : Fin 150, x4 (ix2 p k) * x5 (ix2 k q))) + x6 (ix2 (0 : Fin 1) q)) 0 := by
  unfold k5_pay1
  simp only [shapeCast_self]
  rw [maximumf_apply, addf_apply, addf_apply, addf_apply, mm5_apply, mm5_apply, mm5_apply, broadcastTo_1b_ab_apply, broadcast_apply]
  simp only [truncf_apply]
  rw [Ideal.ofBits_def, Ideal.ofBits_zero_f32]

/-- The payload of blocks that are the arrays' entries at row `r` is the combine of the arrays at (r, q). -/
theorem pay5_of_blocks (a1 a2 xd : Mat 20000 150) (w1 w2 wr : Mat 150 150) (b : Mat 1 150)
    (x0 : Vec Ideal S5000x150 .f32) (x1 : Vec Ideal S150x150 .f32) (x2 : Vec Ideal S5000x150 .f32) (x3 : Vec Ideal S150x150 .f32)
    (x4 : Vec Ideal S5000x150 .f32) (x5 : Vec Ideal S150x150 .f32) (x6 : Vec Ideal S1x150 .f32) (p : Fin 5000) (q : Fin 150) (r : Fin 20000)
    (h0 : ∀ k : Fin 150, x0 (ix2 p k) = a1 (ix2 r k)) (h1 : ∀ k : Fin 150, x1 (ix2 k q) = w1 (ix2 k q))
    (h2 : ∀ k : Fin 150, x2 (ix2 p k) = a2 (ix2 r k)) (h3 : ∀ k : Fin 150, x3 (ix2 k q) = w2 (ix2 k q))
    (h4 : ∀ k : Fin 150, x4 (ix2 p k) = xd (ix2 r k)) (h5 : ∀ k : Fin 150, x5 (ix2 k q) = wr (ix2 k q))
    (h6 : x6 (ix2 (0 : Fin 1) q) = b (ix2 (0 : Fin 1) q)) :
    k5_pay1 x0 x1 x2 x3 x4 x5 x6 (ix2 p q) = relu (sageK a1 w1 a2 w2 xd wr (rowOf b)) (ix2 r q) := by
  rw [pay5_apply]
  simp only [h0, h1, h2, h3, h4, h5, h6]
  rfl

/-! ## From blocks to the array -/

section
variable (V : (c : Dev nD) → (b : Ref sig .tc) → Buf (Elt Ideal) ((c : Thread nD τ).loc b))

theorem zero_off5 : (![0, 0] : Fin 2 → Nat) = fun _ => 0 := funext fun a => by fin_cases a <;> rfl

/-- The index maps, decided over the grid: the row-tiled windows (a1, a2, xd and the result) sit at block (t, 0), the
    weights and the bias at block (0, 0). -/
theorem idx_maps5 : ∀ t : Fin cfg5.N,
    (win5_0.index t (0 : Fin 2) = t.val ∧ win5_0.index t (1 : Fin 2) = 0)
    ∧ (win5_1.index t (0 : Fin 2) = 0 ∧ win5_1.index t (1 : Fin 2) = 0)
    ∧ (win5_2.index t (0 : Fin 2) = t.val ∧ win5_2.index t (1 : Fin 2) = 0)
    ∧ (win5_3.index t (0 : Fin 2) = 0 ∧ win5_3.index t (1 : Fin 2) = 0)
    ∧ (win5_4.index t (0 : Fin 2) = t.val ∧ win5_4.index t (1 : Fin 2) = 0)
    ∧ (win5_5.index t (0 : Fin 2) = 0 ∧ win5_5.index t (1 : Fin 2) = 0)
    ∧ (win5_6.index t (0 : Fin 2) = 0 ∧ win5_6.index t (1 : Fin 2) = 0)
    ∧ (win5_7.index t (0 : Fin 2) = t.val ∧ win5_7.index t (1 : Fin 2) = 0) :=
  (by decide +kernel : ∀ t : Fin grid5.N, _)

/-- Block t of a1 is the 5000 rows of it from row 5000 t on. -/
theorem blk5_0 (c : Dev nD) (t : Fin cfg5.N) (y : S5000x150.Idx) (i : S20000x150.Idx)
    (h0 : (i 0).val = t.val * 5000 + (y 0).val) (h1 : (i 1).val = (y 1).val) :
    (iblk5 V c 0 t : Vec Ideal S5000x150 .f32) y = (V c main_v152 : Mat 20000 150) i := by
  obtain ⟨⟨e0, e1⟩, -⟩ := idx_maps5 t
  unfold iblk5
  rw [View.read_apply]
  show V c main_v152 (((cfg5.win 0).blk t).view.emb y) = V c main_v152 i
  refine congrArg _ (funext fun a => Fin.ext ?_)
  match a with
  | ⟨0, _⟩ => show win5_0.index t (0 : Fin 2) * 5000 + 1 * (y 0).val = (i 0).val; omega
  | ⟨1, _⟩ => show win5_0.index t (1 : Fin 2) * 150 + 1 * (y 1).val = (i 1).val; omega

/-- The one block of w1 is the whole of it. -/
theorem blk5_1 (c : Dev nD) (t : Fin cfg5.N) (y : S150x150.Idx) :
    (iblk5 V c 1 t : Vec Ideal S150x150 .f32) y = (V c main_v187 : Mat 150 150) y := by
  obtain ⟨-, ⟨e0, e1⟩, -⟩ := idx_maps5 t
  unfold iblk5
  rw [View.read_apply]
  show V c main_v187 (((cfg5.win 1).blk t).view.emb y) = V c main_v187 y
  refine congrArg _ (funext fun a => Fin.ext ?_)
  match a with
  | ⟨0, _⟩ => show win5_1.index t (0 : Fin 2) * 150 + 1 * (y 0).val = (y 0).val; omega
  | ⟨1, _⟩ => show win5_1.index t (1 : Fin 2) * 150 + 1 * (y 1).val = (y 1).val; omega

/-- Block t of a2 is the 5000 rows of it from row 5000 t on. -/
theorem blk5_2 (c : Dev nD) (t : Fin cfg5.N) (y : S5000x150.Idx) (i : S20000x150.Idx)
    (h0 : (i 0).val = t.val * 5000 + (y 0).val) (h1 : (i 1).val = (y 1).val) :
    (iblk5 V c 2 t : Vec Ideal S5000x150 .f32) y = (V c main_v175 : Mat 20000 150) i := by
  obtain ⟨-, -, ⟨e0, e1⟩, -⟩ := idx_maps5 t
  unfold iblk5
  rw [View.read_apply]
  show V c main_v175 (((cfg5.win 2).blk t).view.emb y) = V c main_v175 i
  refine congrArg _ (funext fun a => Fin.ext ?_)
  match a with
  | ⟨0, _⟩ => show win5_2.index t (0 : Fin 2) * 5000 + 1 * (y 0).val = (i 0).val; omega
  | ⟨1, _⟩ => show win5_2.index t (1 : Fin 2) * 150 + 1 * (y 1).val = (i 1).val; omega

/-- The one block of w2 is the whole of it. -/
theorem blk5_3 (c : Dev nD) (t : Fin cfg5.N) (y : S150x150.Idx) :
    (iblk5 V c 3 t : Vec Ideal S150x150 .f32) y = (V c main_v189 : Mat 150 150) y := by
  obtain ⟨-, -, -, ⟨e0, e1⟩, -⟩ := idx_maps5 t
  unfold iblk5
  rw [View.read_apply]
  show V c main_v189 (((cfg5.win 3).blk t).view.emb y) = V c main_v189 y
  refine congrArg _ (funext fun a => Fin.ext ?_)
  match a with
  | ⟨0, _⟩ => show win5_3.index t (0 : Fin 2) * 150 + 1 * (y 0).val = (y 0).val; omega
  | ⟨1, _⟩ => show win5_3.index t (1 : Fin 2) * 150 + 1 * (y 1).val = (y 1).val; omega

/-- Block t of xd is the 5000 rows of it from row 5000 t on. -/
theorem blk5_4 (c : Dev nD) (t : Fin cfg5.N) (y : S5000x150.Idx) (i : S20000x150.Idx)
    (h0 : (i 0).val = t.val * 5000 + (y 0).val) (h1 : (i 1).val = (y 1).val) :
    (iblk5 V c 4 t : Vec Ideal S5000x150 .f32) y = (V c main_v5 : Mat 20000 150) i := by
  obtain ⟨-, -, -, -, ⟨e0, e1⟩, -⟩ := idx_maps5 t
  unfold iblk5
  rw [View.read_apply]
  show V c main_v5 (((cfg5.win 4).blk t).view.emb y) = V c main_v5 i
  refine congrArg _ (funext fun a => Fin.ext ?_)
  match a with
  | ⟨0, _⟩ => show win5_4.index t (0 : Fin 2) * 5000 + 1 * (y 0).val = (i 0).val; omega
  | ⟨1, _⟩ => show win5_4.index t (1 : Fin 2) * 150 + 1 * (y 1).val = (i 1).val; omega

/-- The one block of wr is the whole of it. -/
theorem blk5_5 (c : Dev nD) (t : Fin cfg5.N) (y : S150x150.Idx) :
    (iblk5 V c 5 t : Vec Ideal S150x150 .f32) y = (V c main_v180 : Mat 150 150) y := by
  obtain ⟨-, -, -, -, -, ⟨e0, e1⟩, -⟩ := idx_maps5 t
  unfold iblk5
  rw [View.read_apply]
  show V c main_v180 (((cfg5.win 5).blk t).view.emb y) = V c main_v180 y
  refine congrArg _ (funext fun a => Fin.ext ?_)
  match a with
  | ⟨0, _⟩ => show win5_5.index t (0 : Fin 2) * 150 + 1 * (y 0).val = (y 0).val; omega
  | ⟨1, _⟩ => show win5_5.index t (1 : Fin 2) * 150 + 1 * (y 1).val = (y 1).val; omega

/-- The one block of the bias is the whole of it. -/
theorem blk5_6 (c : Dev nD) (t : Fin cfg5.N) (y : S1x150.Idx) :
    (iblk5 V c 6 t : Vec Ideal S1x150 .f32) y = (V c main_v190 : Mat 1 150) y := by
  obtain ⟨-, -, -, -, -, -, ⟨e0, e1⟩, -⟩ := idx_maps5 t
  unfold iblk5
  rw [View.read_apply]
  show V c main_v190 (((cfg5.win 6).blk t).view.emb y) = V c main_v190 y
  refine congrArg _ (funext fun a => Fin.ext ?_)
  match a with
  | ⟨0, _⟩ => show win5_6.index t (0 : Fin 2) * 1 + 1 * (y 0).val = (y 0).val; omega
  | ⟨1, _⟩ => show win5_6.index t (1 : Fin 2) * 150 + 1 * (y 1).val = (y 1).val; omega

/-- The combine of the seven arrays as the region finds them. -/
abbrev combine5 (c : Dev nD) : Mat 20000 150 :=
  relu (sageK (M := 20000) (K := 150) (N := 150) (V c main_v152) (V c main_v187) (V c main_v175) (V c main_v189) (V c main_v5) (V c main_v180) (rowOf (V c main_v190)))

/-- What point t writes back is block t of the combine. -/
theorem flushed5_eq (c : Dev nD) (t : Fin cfg5.N) :
    (dat5 (F := Ideal) V c).flushed 7 t = ((cfg5.win 7).blk t).view.read (Elt Ideal) (combine5 V c) := by
  show (cfg5.win 7).cut (grid5.coords t) ((dat5 (F := Ideal) V c).after 7 t) = _
  rw [after5_7]
  unfold out5_7
  rw [View.canon_unit_zero zero_off5]
  simp only [View.ld_unit_zero (S := S5000x150) zero_off5, View.ld_unit_zero (S := S150x150) zero_off5, View.ld_unit_zero (S := S1x150) zero_off5]
  obtain ⟨-, -, -, -, -, -, -, ⟨e0, e1⟩⟩ := idx_maps5 t
  have hN : cfg5.N = 4 := N_5
  have ht : t.val < 4 := hN ▸ t.isLt
  refine funext fun (j : S5000x150.Idx) => ?_
  obtain ⟨p, q, rfl⟩ : ∃ (p : Fin 5000) (q : Fin 150), j = ix2 p q := ⟨j 0, j 1, eq_ix2 j⟩
  have hp : p.val < 5000 := p.isLt
  rw [View.read_apply]
  have hi : ((cfg5.win 7).blk t).view.emb (ix2 p q) = (ix2 (⟨t.val * 5000 + p.val, by omega⟩ : Fin 20000) q : S20000x150.Idx) := by
    refine funext fun a => Fin.ext ?_
    match a with
    | ⟨0, _⟩ => show win5_7.index t (0 : Fin 2) * 5000 + 1 * p.val = t.val * 5000 + p.val; omega
    | ⟨1, _⟩ => show win5_7.index t (1 : Fin 2) * 150 + 1 * q.val = q.val; omega
  rw [hi]
  exact pay5_of_blocks (V c main_v152) (V c main_v175) (V c main_v5) (V c main_v187) (V c main_v189) (V c main_v180) (V c main_v190)
    (iblk5 V c 0 t) (iblk5 V c 1 t) (iblk5 V c 2 t) (iblk5 V c 3 t) (iblk5 V c 4 t) (iblk5 V c 5 t) (iblk5 V c 6 t) p q ⟨t.val * 5000 + p.val, by omega⟩
    (fun k => blk5_0 V c t _ _ rfl rfl) (fun k => blk5_1 V c t _)
    (fun k => blk5_2 V c t _ _ rfl rfl) (fun k => blk5_3 V c t _)
    (fun k => blk5_4 V c t _ _ rfl rfl) (fun k => blk5_5 V c t _)
    (blk5_6 V c t _)

/-- An index of the array is in point t's block iff each coordinate is in the block's range on its axis. -/
theorem mem_blk5 (t : Fin cfg5.N) (i : S20000x150.Idx) :
    i ∈ ((cfg5.win 7).blk t).view.set ↔ ∀ a : Fin 2, win5_7.index t a * S5000x150.size a ≤ (i a).val ∧ (i a).val < win5_7.index t a * S5000x150.size a + S5000x150.size a := by
  show i ∈ ((View.whole main_v191).slice (win5_7.rect t)).set ↔ _
  rw [View.set_slice_whole, Rect.mem_set_unit]
  exact Iff.rfl

/-- Row r lies in the block of point r / 5000: the blocks cover the array. -/
theorem cover5 (i : S20000x150.Idx) : ∃ t : Fin cfg5.N, (cfg5.win 7).flush t = true ∧ i ∈ ((cfg5.win 7).blk t).view.set := by
  have hN : cfg5.N = 4 := N_5
  have hi0 : (i 0).val < 20000 := (i 0).isLt
  have hi1 : (i 1).val < 150 := (i 1).isLt
  obtain ⟨t, ht⟩ : ∃ t : Fin cfg5.N, t.val = (i 0).val / 5000 := ⟨⟨(i 0).val / 5000, by rw [hN]; omega⟩, rfl⟩
  obtain ⟨-, -, -, -, -, -, -, ⟨e0, e1⟩⟩ := idx_maps5 t
  refine ⟨t, flush5_7 t, ?_⟩
  rw [mem_blk5]
  intro a
  match a with
  | ⟨0, _⟩ => show win5_7.index t (0 : Fin 2) * 5000 ≤ (i 0).val ∧ (i 0).val < win5_7.index t (0 : Fin 2) * 5000 + 5000; omega
  | ⟨1, _⟩ => show win5_7.index t (1 : Fin 2) * 150 ≤ (i 1).val ∧ (i 1).val < win5_7.index t (1 : Fin 2) * 150 + 150; omega

/-- THE ARRAY after the region: the combine of the seven input arrays as the region finds them. -/
theorem final5 (c : Dev nD) :
    (dat5 (F := Ideal) V c).arrAt 7 cfg5.N = relu (sageK (M := 20000) (K := 150) (N := 150) (V c main_v152) (V c main_v187) (V c main_v175) (V c main_v189) (V c main_v5) (V c main_v180) (rowOf (V c main_v190))) :=
  (dat5 (F := Ideal) V c).arrAt_eq_of_cover 7 (combine5 V c) (fun t _ => flushed5_eq V c t) cover5

end

end Cert.KernelIdeal.Val

end
-- ==== Proof.TransportB.lean ====
/- A buffer that no segment between two boundaries writes holds at the later boundary what it held at the earlier
   one: a host stretch changes only the buffers its operations write, and a region only its output array. -/
import proofs.«141689_j63058709840619_1_alg».proof.Proof.FrameKI
import Idealize.ShloMosaic.PureOps.Ideal

set_option maxRecDepth 16384

noncomputable section

namespace Cert.KernelIdeal.Val

open Idealize.ShloMosaic Idealize.ShloMosaic.TcCoe Idealize.SL.Sem
open Cert.KernelIdeal Cert.KernelIdeal.Gen Cert.KernelIdeal.GenP

variable (m : (ℓ : Loc nD τ sig) → Buf (Elt Ideal) ℓ) (ρ : Dev nD → PrngReg)

theorem tr_main_arg24_6_0 (c : Dev nD) : W6 m ρ c (Proc.devRef .tc main_arg24) = W0 m ρ c (Proc.devRef .tc main_arg24) :=
  calc W6 m ρ c (Proc.devRef .tc main_arg24)
    _ = W5 m ρ c (Proc.devRef .tc main_arg24) := W6_of_ne m ρ c main_arg24 (by decide)
    _ = W4 m ρ c (Proc.devRef .tc main_arg24) := StableHlo.after_of_forall_not_mem (b := Proc.devRef .tc main_arg24) _ _ (by decide +kernel)
    _ = W3 m ρ c (Proc.devRef .tc main_arg24) := W4_of_ne m ρ c main_arg24 (by decide)
    _ = W2 m ρ c (Proc.devRef .tc main_arg24) := StableHlo.after_of_forall_not_mem (b := Proc.devRef .tc main_arg24) _ _ (by decide +kernel)
    _ = W1 m ρ c (Proc.devRef .tc main_arg24) := W2_of_ne m ρ c main_arg24 (by decide)
    _ = W0 m ρ c (Proc.devRef .tc main_arg24) := StableHlo.after_of_forall_not_mem (b := Proc.devRef .tc main_arg24) _ _ (by decide +kernel)
theorem at_main_arg24_6 (c : Dev nD) : W6 m ρ c (Proc.devRef .tc main_arg24) = W0 m ρ c (Proc.devRef .tc main_arg24) := tr_main_arg24_6_0 m ρ c

theorem tr_main_arg24_10_6 (c : Dev nD) : W10 m ρ c (Proc.devRef .tc main_arg24) = W6 m ρ c (Proc.devRef .tc main_arg24) :=
  calc W10 m ρ c (Proc.devRef .tc main_arg24)
    _ = W9 m ρ c (Proc.devRef .tc main_arg24) := W10_of_ne m ρ c main_arg24 (by decide)
    _ = W8 m ρ c (Proc.devRef .tc main_arg24) := StableHlo.after_of_forall_not_mem (b := Proc.devRef .tc main_arg24) _ _ (by decide +kernel)
    _ = W7 m ρ c (Proc.devRef .tc main_arg24) := W8_of_ne m ρ c main_arg24 (by decide)
    _ = W6 m ρ c (Proc.devRef .tc main_arg24) := StableHlo.after_of_forall_not_mem (b := Proc.devRef .tc main_arg24) _ _ (by decide +kernel)
theorem at_main_arg24_10 (c : Dev nD) : W10 m ρ c (Proc.devRef .tc main_arg24) = W0 m ρ c (Proc.devRef .tc main_arg24) := (tr_main_arg24_10_6 m ρ c).trans (at_main_arg24_6 m ρ c)

theorem tr_main_arg24_12_10 (c : Dev nD) : W12 m ρ c (Proc.devRef .tc main_arg24) = W10 m ρ c (Proc.devRef .tc main_arg24) :=
  calc W12 m ρ c (Proc.devRef .tc main_arg24)
    _ = W11 m ρ c (Proc.devRef .tc main_arg24) := W12_of_ne m ρ c main_arg24 (by decide)
    _ = W10 m ρ c (Proc.devRef .tc main_arg24) := StableHlo.after_of_forall_not_mem (b := Proc.devRef .tc main_arg24) _ _ (by decide +kernel)
theorem at_main_arg24_12 (c : Dev nD) : W12 m ρ c (Proc.devRef .tc main_arg24) = W0 m ρ c (Proc.devRef .tc main_arg24) := (tr_main_arg24_12_10 m ρ c).trans (at_main_arg24_10 m ρ c)

theorem tr_main_arg24_16_12 (c : Dev nD) : W16 m ρ c (Proc.devRef .tc main_arg24) = W12 m ρ c (Proc.devRef .tc main_arg24) :=
  calc W16 m ρ c (Proc.devRef .tc main_arg24)
    _ = W15 m ρ c (Proc.devRef .tc main_arg24) := W16_of_ne m ρ c main_arg24 (by decide)
    _ = W14 m ρ c (Proc.devRef .tc main_arg24) := StableHlo.after_of_forall_not_mem (b := Proc.devRef .tc main_arg24) _ _ (by decide +kernel)
    _ = W13 m ρ c (Proc.devRef .tc main_arg24) := W14_of_ne m ρ c main_arg24 (by decide)
    _ = W12 m ρ c (Proc.devRef .tc main_arg24) := StableHlo.after_of_forall_not_mem (b := Proc.devRef .tc main_arg24) _ _ (by decide +kernel)
theorem at_main_arg24_16 (c : Dev nD) : W16 m ρ c (Proc.devRef .tc main_arg24) = W0 m ρ c (Proc.devRef .tc main_arg24) := (tr_main_arg24_16_12 m ρ c).trans (at_main_arg24_12 m ρ c)

theorem tr_main_arg24_18_16 (c : Dev nD) : W18 m ρ c (Proc.devRef .tc main_arg24) = W16 m ρ c (Proc.devRef .tc main_arg24) :=
  calc W18 m ρ c (Proc.devRef .tc main_arg24)
    _ = W17 m ρ c (Proc.devRef .tc main_arg24) := W18_of_ne m ρ c main_arg24 (by decide)
    _ = W16 m ρ c (Proc.devRef .tc main_arg24) := StableHlo.after_of_forall_not_mem (b := Proc.devRef .tc main_arg24) _ _ (by decide +kernel)
theorem at_main_arg24_18 (c : Dev nD) : W18 m ρ c (Proc.devRef .tc main_arg24) = W0 m ρ c (Proc.devRef .tc main_arg24) := (tr_main_arg24_18_16 m ρ c).trans (at_main_arg24_16 m ρ c)

theorem tr_main_arg25_6_0 (c : Dev nD) : W6 m ρ c (Proc.devRef .tc main_arg25) = W0 m ρ c (Proc.devRef .tc main_arg25) :=
  calc W6 m ρ c (Proc.devRef .tc main_arg25)
    _ = W5 m ρ c (Proc.devRef .tc main_arg25) := W6_of_ne m ρ c main_arg25 (by decide)
    _ = W4 m ρ c (Proc.devRef .tc main_arg25) := StableHlo.after_of_forall_not_mem (b := Proc.devRef .tc main_arg25) _ _ (by decide +kernel)
    _ = W3 m ρ c (Proc.devRef .tc main_arg25) := W4_of_ne m ρ c main_arg25 (by decide)
    _ = W2 m ρ c (Proc.devRef .tc main_arg25) := StableHlo.after_of_forall_not_mem (b := Proc.devRef .tc main_arg25) _ _ (by decide +kernel)
    _ = W1 m ρ c (Proc.devRef .tc main_arg25) := W2_of_ne m ρ c main_arg25 (by decide)
    _ = W0 m ρ c (Proc.devRef .tc main_arg25) := StableHlo.after_of_forall_not_mem (b := Proc.devRef .tc main_arg25) _ _ (by decide +kernel)
theorem at_main_arg25_6 (c : Dev nD) : W6 m ρ c (Proc.devRef .tc main_arg25) = W0 m ρ c (Proc.devRef .tc main_arg25) := tr_main_arg25_6_0 m ρ c

theorem tr_main_arg25_8_6 (c : Dev nD) : W8 m ρ c (Proc.devRef .tc main_arg25) = W6 m ρ c (Proc.devRef .tc main_arg25) :=
  calc W8 m ρ c (Proc.devRef .tc main_arg25)
    _ = W7 m ρ c (Proc.devRef .tc main_arg25) := W8_of_ne m ρ c main_arg25 (by decide)
    _ = W6 m ρ c (Proc.devRef .tc main_arg25) := StableHlo.after_of_forall_not_mem (b := Proc.devRef .tc main_arg25) _ _ (by decide +kernel)
theorem at_main_arg25_8 (c : Dev nD) : W8 m ρ c (Proc.devRef .tc main_arg25) = W0 m ρ c (Proc.devRef .tc main_arg25) := (tr_main_arg25_8_6 m ρ c).trans (at_main_arg25_6 m ρ c)

theorem tr_main_arg25_12_8 (c : Dev nD) : W12 m ρ c (Proc.devRef .tc main_arg25) = W8 m ρ c (Proc.devRef .tc main_arg25) :=
  calc W12 m ρ c (Proc.devRef .tc main_arg25)
    _ = W11 m ρ c (Proc.devRef .tc main_arg25) := W12_of_ne m ρ c main_arg25 (by decide)
    _ = W10 m ρ c (Proc.devRef .tc main_arg25) := StableHlo.after_of_forall_not_mem (b := Proc.devRef .tc main_arg25) _ _ (by decide +kernel)
    _ = W9 m ρ c (Proc.devRef .tc main_arg25) := W10_of_ne m ρ c main_arg25 (by decide)
    _ = W8 m ρ c (Proc.devRef .tc main_arg25) := StableHlo.after_of_forall_not_mem (b := Proc.devRef .tc main_arg25) _ _ (by decide +kernel)
theorem at_main_arg25_12 (c : Dev nD) : W12 m ρ c (Proc.devRef .tc main_arg25) = W0 m ρ c (Proc.devRef .tc main_arg25) := (tr_main_arg25_12_8 m ρ c).trans (at_main_arg25_8 m ρ c)

theorem tr_main_arg25_14_12 (c : Dev nD) : W14 m ρ c (Proc.devRef .tc main_arg25) = W12 m ρ c (Proc.devRef .tc main_arg25) :=
  calc W14 m ρ c (Proc.devRef .tc main_arg25)
    _ = W13 m ρ c (Proc.devRef .tc main_arg25) := W14_of_ne m ρ c main_arg25 (by decide)
    _ = W12 m ρ c (Proc.devRef .tc main_arg25) := StableHlo.after_of_forall_not_mem (b := Proc.devRef .tc main_arg25) _ _ (by decide +kernel)
theorem at_main_arg25_14 (c : Dev nD) : W14 m ρ c (Proc.devRef .tc main_arg25) = W0 m ρ c (Proc.devRef .tc main_arg25) := (tr_main_arg25_14_12 m ρ c).trans (at_main_arg25_12 m ρ c)

theorem tr_main_arg26_8_0 (c : Dev nD) : W8 m ρ c (Proc.devRef .tc main_arg26) = W0 m ρ c (Proc.devRef .tc main_arg26) :=
  calc W8 m ρ c (Proc.devRef .tc main_arg26)
    _ = W7 m ρ c (Proc.devRef .tc main_arg26) := W8_of_ne m ρ c main_arg26 (by decide)
    _ = W6 m ρ c (Proc.devRef .tc main_arg26) := StableHlo.after_of_forall_not_mem (b := Proc.devRef .tc main_arg26) _ _ (by decide +kernel)
    _ = W5 m ρ c (Proc.devRef .tc main_arg26) := W6_of_ne m ρ c main_arg26 (by decide)
    _ = W4 m ρ c (Proc.devRef .tc main_arg26) := StableHlo.after_of_forall_not_mem (b := Proc.devRef .tc main_arg26) _ _ (by decide +kernel)
    _ = W3 m ρ c (Proc.devRef .tc main_arg26) := W4_of_ne m ρ c main_arg26 (by decide)
    _ = W2 m ρ c (Proc.devRef .tc main_arg26) := StableHlo.after_of_forall_not_mem (b := Proc.devRef .tc main_arg26) _ _ (by decide +kernel)
    _ = W1 m ρ c (Proc.devRef .tc main_arg26) := W2_of_ne m ρ c main_arg26 (by decide)
    _ = W0 m ρ c (Proc.devRef .tc main_arg26) := StableHlo.after_of_forall_not_mem (b := Proc.devRef .tc main_arg26) _ _ (by decide +kernel)
theorem at_main_arg26_8 (c : Dev nD) : W8 m ρ c (Proc.devRef .tc main_arg26) = W0 m ρ c (Proc.devRef .tc main_arg26) := tr_main_arg26_8_0 m ρ c

theorem tr_main_arg26_10_8 (c : Dev nD) : W10 m ρ c (Proc.devRef .tc main_arg26) = W8 m ρ c (Proc.devRef .tc main_arg26) :=
  calc W10 m ρ c (Proc.devRef .tc main_arg26)
    _ = W9 m ρ c (Proc.devRef .tc main_arg26) := W10_of_ne m ρ c main_arg26 (by decide)
    _ = W8 m ρ c (Proc.devRef .tc main_arg26) := StableHlo.after_of_forall_not_mem (b := Proc.devRef .tc main_arg26) _ _ (by decide +kernel)
theorem at_main_arg26_10 (c : Dev nD) : W10 m ρ c (Proc.devRef .tc main_arg26) = W0 m ρ c (Proc.devRef .tc main_arg26) := (tr_main_arg26_10_8 m ρ c).trans (at_main_arg26_8 m ρ c)

theorem tr_main_arg26_14_10 (c : Dev nD) : W14 m ρ c (Proc.devRef .tc main_arg26) = W10 m ρ c (Proc.devRef .tc main_arg26) :=
  calc W14 m ρ c (Proc.devRef .tc main_arg26)
    _ = W13 m ρ c (Proc.devRef .tc main_arg26) := W14_of_ne m ρ c main_arg26 (by decide)
    _ = W12 m ρ c (Proc.devRef .tc main_arg26) := StableHlo.after_of_forall_not_mem (b := Proc.devRef .tc main_arg26) _ _ (by decide +kernel)
    _ = W11 m ρ c (Proc.devRef .tc main_arg26) := W12_of_ne m ρ c main_arg26 (by decide)
    _ = W10 m ρ c (Proc.devRef .tc main_arg26) := StableHlo.after_of_forall_not_mem (b := Proc.devRef .tc main_arg26) _ _ (by decide +kernel)
theorem at_main_arg26_14 (c : Dev nD) : W14 m ρ c (Proc.devRef .tc main_arg26) = W0 m ρ c (Proc.devRef .tc main_arg26) := (tr_main_arg26_14_10 m ρ c).trans (at_main_arg26_10 m ρ c)

theorem tr_main_arg26_16_14 (c : Dev nD) : W16 m ρ c (Proc.devRef .tc main_arg26) = W14 m ρ c (Proc.devRef .tc main_arg26) :=
  calc W16 m ρ c (Proc.devRef .tc main_arg26)
    _ = W15 m ρ c (Proc.devRef .tc main_arg26) := W16_of_ne m ρ c main_arg26 (by decide)
    _ = W14 m ρ c (Proc.devRef .tc main_arg26) := StableHlo.after_of_forall_not_mem (b := Proc.devRef .tc main_arg26) _ _ (by decide +kernel)
theorem at_main_arg26_16 (c : Dev nD) : W16 m ρ c (Proc.devRef .tc main_arg26) = W0 m ρ c (Proc.devRef .tc main_arg26) := (tr_main_arg26_16_14 m ρ c).trans (at_main_arg26_14 m ρ c)

theorem tr_main_arg26_18_16 (c : Dev nD) : W18 m ρ c (Proc.devRef .tc main_arg26) = W16 m ρ c (Proc.devRef .tc main_arg26) :=
  calc W18 m ρ c (Proc.devRef .tc main_arg26)
    _ = W17 m ρ c (Proc.devRef .tc main_arg26) := W18_of_ne m ρ c main_arg26 (by decide)
    _ = W16 m ρ c (Proc.devRef .tc main_arg26) := StableHlo.after_of_forall_not_mem (b := Proc.devRef .tc main_arg26) _ _ (by decide +kernel)
theorem at_main_arg26_18 (c : Dev nD) : W18 m ρ c (Proc.devRef .tc main_arg26) = W0 m ρ c (Proc.devRef .tc main_arg26) := (tr_main_arg26_18_16 m ρ c).trans (at_main_arg26_16 m ρ c)

end Cert.KernelIdeal.Val

end
-- ==== Proof.TransportC.lean ====
/- A buffer that no segment between two boundaries writes holds at the later boundary what it held at the earlier
   one: a host stretch changes only the buffers its operations write, and a region only its output array. -/
import proofs.«141689_j63058709840619_1_alg».proof.Proof.FrameKI
import Idealize.ShloMosaic.PureOps.Ideal

set_option maxRecDepth 16384

noncomputable section

namespace Cert.KernelIdeal.Val

open Idealize.ShloMosaic Idealize.ShloMosaic.TcCoe Idealize.SL.Sem
open Cert.KernelIdeal Cert.KernelIdeal.Gen Cert.KernelIdeal.GenP

variable (m : (ℓ : Loc nD τ sig) → Buf (Elt Ideal) ℓ) (ρ : Dev nD → PrngReg)

theorem tr_main_arg9_6_0 (c : Dev nD) : W6 m ρ c (Proc.devRef .tc main_arg9) = W0 m ρ c (Proc.devRef .tc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (by decide +kernel)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (by decide +kernel)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (by decide +kernel)
theorem at_main_arg9_6 (c : Dev nD) : W6 m ρ c (Proc.devRef .tc main_arg9) = W0 m ρ c (Proc.devRef .tc main_arg9) := tr_main_arg9_6_0 m ρ c

theorem tr_main_arg9_8_6 (c : Dev nD) : W8 m ρ c (Proc.devRef .tc main_arg9) = W6 m ρ c (Proc.devRef .tc main_arg9) :=
  calc W8 m ρ c (Proc.devRef .tc main_arg9)
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (by decide +kernel)
theorem at_main_arg9_8 (c : Dev nD) : W8 m ρ c (Proc.devRef .tc main_arg9) = W0 m ρ c (Proc.devRef .tc main_arg9) := (tr_main_arg9_8_6 m ρ c).trans (at_main_arg9_6 m ρ c)

theorem tr_main_arg9_10_8 (c : Dev nD) : W10 m ρ c (Proc.devRef .tc main_arg9) = W8 m ρ c (Proc.devRef .tc main_arg9) :=
  calc W10 m ρ c (Proc.devRef .tc main_arg9)
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (by decide +kernel)
theorem at_main_arg9_10 (c : Dev nD) : W10 m ρ c (Proc.devRef .tc main_arg9) = W0 m ρ c (Proc.devRef .tc main_arg9) := (tr_main_arg9_10_8 m ρ c).trans (at_main_arg9_8 m ρ c)

theorem tr_main_arg9_12_10 (c : Dev nD) : W12 m ρ c (Proc.devRef .tc main_arg9) = W10 m ρ c (Proc.devRef .tc main_arg9) :=
  calc W12 m ρ c (Proc.devRef .tc main_arg9)
    _ = W11 m ρ c (Proc.devRef .tc main_arg9) := W12_of_ne m ρ c main_arg9 (by decide)
    _ = W10 m ρ c (Proc.devRef .tc main_arg9) := StableHlo.after_of_forall_not_mem (b := Proc.devRef .tc main_arg9) _ _ (by decide +kernel)
theorem at_main_arg9_12 (c : Dev nD) : W12 m ρ c (Proc.devRef .tc main_arg9) = W0 m ρ c (Proc.devRef .tc main_arg9) := (tr_main_arg9_12_10 m ρ c).trans (at_main_arg9_10 m ρ c)

theorem tr_main_arg9_14_12 (c : Dev nD) : W14 m ρ c (Proc.devRef .tc main_arg9) = W12 m ρ c (Proc.devRef .tc main_arg9) :=
  calc W14 m ρ c (Proc.devRef .tc main_arg9)
    _ = W13 m ρ c (Proc.devRef .tc main_arg9) := W14_of_ne m ρ c main_arg9 (by decide)
    _ = W12 m ρ c (Proc.devRef .tc main_arg9) := StableHlo.after_of_forall_not_mem (b := Proc.devRef .tc main_arg9) _ _ (by decide +kernel)
theorem at_main_arg9_14 (c : Dev nD) : W14 m ρ c (Proc.devRef .tc main_arg9) = W0 m ρ c (Proc.devRef .tc main_arg9) := (tr_main_arg9_14_12 m ρ c).trans (at_main_arg9_12 m ρ c)

theorem tr_main_arg9_16_14 (c : Dev nD) : W16 m ρ c (Proc.devRef .tc main_arg9) = W14 m ρ c (Proc.devRef .tc main_arg9) :=
  calc W16 m ρ c (Proc.devRef .tc main_arg9)
    _ = W15 m ρ c (Proc.devRef .tc main_arg9) := W16_of_ne m ρ c main_arg9 (by decide)
    _ = W14 m ρ c (Proc.devRef .tc main_arg9) := StableHlo.after_of_forall_not_mem (b := Proc.devRef .tc main_arg9) _ _ (by decide +kernel)
theorem at_main_arg9_16 (c : Dev nD) : W16 m ρ c (Proc.devRef .tc main_arg9) = W0 m ρ c (Proc.devRef .tc main_arg9) := (tr_main_arg9_16_14 m ρ c).trans (at_main_arg9_14 m ρ c)

theorem tr_main_arg9_18_16 (c : Dev nD) : W18 m ρ c (Proc.devRef .tc main_arg9) = W16 m ρ c (Proc.devRef .tc main_arg9) :=
  calc W18 m ρ c (Proc.devRef .tc main_arg9)
    _ = W17 m ρ c (Proc.devRef .tc main_arg9) := W18_of_ne m ρ c main_arg9 (by decide)
    _ = W16 m ρ c (Proc.devRef .tc main_arg9) := StableHlo.after_of_forall_not_mem (b := Proc.devRef .tc main_arg9) _ _ (by decide +kernel)
theorem at_main_arg9_18 (c : Dev nD) : W18 m ρ c (Proc.devRef .tc main_arg9) = W0 m ρ c (Proc.devRef .tc main_arg9) := (tr_main_arg9_18_16 m ρ c).trans (at_main_arg9_16 m ρ c)

theorem tr_main_arg10_6_0 (c : Dev nD) : W6 m ρ c (Proc.devRef .tc main_arg10) = W0 m ρ c (Proc.devRef .tc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (by decide +kernel)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (by decide +kernel)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (by decide +kernel)
theorem at_main_arg10_6 (c : Dev nD) : W6 m ρ c (Proc.devRef .tc main_arg10) = W0 m ρ c (Proc.devRef .tc main_arg10) := tr_main_arg10_6_0 m ρ c

theorem tr_main_arg10_8_6 (c : Dev nD) : W8 m ρ c (Proc.devRef .tc main_arg10) = W6 m ρ c (Proc.devRef .tc main_arg10) :=
  calc W8 m ρ c (Proc.devRef .tc main_arg10)
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (by decide +kernel)
theorem at_main_arg10_8 (c : Dev nD) : W8 m ρ c (Proc.devRef .tc main_arg10) = W0 m ρ c (Proc.devRef .tc main_arg10) := (tr_main_arg10_8_6 m ρ c).trans (at_main_arg10_6 m ρ c)

theorem tr_main_arg10_10_8 (c : Dev nD) : W10 m ρ c (Proc.devRef .tc main_arg10) = W8 m ρ c (Proc.devRef .tc main_arg10) :=
  calc W10 m ρ c (Proc.devRef .tc main_arg10)
    _ = W9 m ρ c (Proc.devRef .tc main_arg10) := W10_of_ne m ρ c main_arg10 (by decide)
    _ = W8 m ρ c (Proc.devRef .tc main_arg10) := StableHlo.after_of_forall_not_mem (b := Proc.devRef .tc main_arg10) _ _ (by decide +kernel)
theorem at_main_arg10_10 (c : Dev nD) : W10 m ρ c (Proc.devRef .tc main_arg10) = W0 m ρ c (Proc.devRef .tc main_arg10) := (tr_main_arg10_10_8 m ρ c).trans (at_main_arg10_8 m ρ c)

theorem tr_main_arg10_12_10 (c : Dev nD) : W12 m ρ c (Proc.devRef .tc main_arg10) = W10 m ρ c (Proc.devRef .tc main_arg10) :=
  calc W12 m ρ c (Proc.devRef .tc main_arg10)
    _ = W11 m ρ c (Proc.devRef .tc main_arg10) := W12_of_ne m ρ c main_arg10 (by decide)
    _ = W10 m ρ c (Proc.devRef .tc main_arg10) := StableHlo.after_of_forall_not_mem (b := Proc.devRef .tc main_arg10) _ _ (by decide +kernel)
theorem at_main_arg10_12 (c : Dev nD) : W12 m ρ c (Proc.devRef .tc main_arg10) = W0 m ρ c (Proc.devRef .tc main_arg10) := (tr_main_arg10_12_10 m ρ c).trans (at_main_arg10_10 m ρ c)

theorem tr_main_arg10_14_12 (c : Dev nD) : W14 m ρ c (Proc.devRef .tc main_arg10) = W12 m ρ c (Proc.devRef .tc main_arg10) :=
  calc W14 m ρ c (Proc.devRef .tc main_arg10)
    _ = W13 m ρ c (Proc.devRef .tc main_arg10) := W14_of_ne m ρ c main_arg10 (by decide)
    _ = W12 m ρ c (Proc.devRef .tc main_arg10) := StableHlo.after_of_forall_not_mem (b := Proc.devRef .tc main_arg10) _ _ (by decide +kernel)
theorem at_main_arg10_14 (c : Dev nD) : W14 m ρ c (Proc.devRef .tc main_arg10) = W0 m ρ c (Proc.devRef .tc main_arg10) := (tr_main_arg10_14_12 m ρ c).trans (at_main_arg10_12 m ρ c)

theorem tr_main_arg10_16_14 (c : Dev nD) : W16 m ρ c (Proc.devRef .tc main_arg10) = W14 m ρ c (Proc.devRef .tc main_arg10) :=
  calc W16 m ρ c (Proc.devRef .tc main_arg10)
    _ = W15 m ρ c (Proc.devRef .tc main_arg10) := W16_of_ne m ρ c main_arg10 (by decide)
    _ = W14 m ρ c (Proc.devRef .tc main_arg10) := StableHlo.after_of_forall_not_mem (b := Proc.devRef .tc main_arg10) _ _ (by decide +kernel)
theorem at_main_arg10_16 (c : Dev nD) : W16 m ρ c (Proc.devRef .tc main_arg10) = W0 m ρ c (Proc.devRef .tc main_arg10) := (tr_main_arg10_16_14 m ρ c).trans (at_main_arg10_14 m ρ c)

theorem tr_main_arg10_18_16 (c : Dev nD) : W18 m ρ c (Proc.devRef .tc main_arg10) = W16 m ρ c (Proc.devRef .tc main_arg10) :=
  calc W18 m ρ c (Proc.devRef .tc main_arg10)
    _ = W17 m ρ c (Proc.devRef .tc main_arg10) := W18_of_ne m ρ c main_arg10 (by decide)
    _ = W16 m ρ c (Proc.devRef .tc main_arg10) := StableHlo.after_of_forall_not_mem (b := Proc.devRef .tc main_arg10) _ _ (by decide +kernel)
theorem at_main_arg10_18 (c : Dev nD) : W18 m ρ c (Proc.devRef .tc main_arg10) = W0 m ρ c (Proc.devRef .tc main_arg10) := (tr_main_arg10_18_16 m ρ c).trans (at_main_arg10_16 m ρ c)

theorem tr_main_arg11_6_0 (c : Dev nD) : W6 m ρ c (Proc.devRef .tc main_arg11) = W0 m ρ c (Proc.devRef .tc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (by decide +kernel)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (by decide +kernel)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (by decide +kernel)
theorem at_main_arg11_6 (c : Dev nD) : W6 m ρ c (Proc.devRef .tc main_arg11) = W0 m ρ c (Proc.devRef .tc main_arg11) := tr_main_arg11_6_0 m ρ c

theorem tr_main_arg11_8_6 (c : Dev nD) : W8 m ρ c (Proc.devRef .tc main_arg11) = W6 m ρ c (Proc.devRef .tc main_arg11) :=
  calc W8 m ρ c (Proc.devRef .tc main_arg11)
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (by decide +kernel)
theorem at_main_arg11_8 (c : Dev nD) : W8 m ρ c (Proc.devRef .tc main_arg11) = W0 m ρ c (Proc.devRef .tc main_arg11) := (tr_main_arg11_8_6 m ρ c).trans (at_main_arg11_6 m ρ c)

theorem tr_main_arg11_10_8 (c : Dev nD) : W10 m ρ c (Proc.devRef .tc main_arg11) = W8 m ρ c (Proc.devRef .tc main_arg11) :=
  calc W10 m ρ c (Proc.devRef .tc main_arg11)
    _ = W9 m ρ c (Proc.devRef .tc main_arg11) := W10_of_ne m ρ c main_arg11 (by decide)
    _ = W8 m ρ c (Proc.devRef .tc main_arg11) := StableHlo.after_of_forall_not_mem (b := Proc.devRef .tc main_arg11) _ _ (by decide +kernel)
theorem at_main_arg11_10 (c : Dev nD) : W10 m ρ c (Proc.devRef .tc main_arg11) = W0 m ρ c (Proc.devRef .tc main_arg11) := (tr_main_arg11_10_8 m ρ c).trans (at_main_arg11_8 m ρ c)

theorem tr_main_arg11_12_10 (c : Dev nD) : W12 m ρ c (Proc.devRef .tc main_arg11) = W10 m ρ c (Proc.devRef .tc main_arg11) :=
  calc W12 m ρ c (Proc.devRef .tc main_arg11)
    _ = W11 m ρ c (Proc.devRef .tc main_arg11) := W12_of_ne m ρ c main_arg11 (by decide)
    _ = W10 m ρ c (Proc.devRef .tc main_arg11) := StableHlo.after_of_forall_not_mem (b := Proc.devRef .tc main_arg11) _ _ (by decide +kernel)
theorem at_main_arg11_12 (c : Dev nD) : W12 m ρ c (Proc.devRef .tc main_arg11) = W0 m ρ c (Proc.devRef .tc main_arg11) := (tr_main_arg11_12_10 m ρ c).trans (at_main_arg11_10 m ρ c)

theorem tr_main_arg11_14_12 (c : Dev nD) : W14 m ρ c (Proc.devRef .tc main_arg11) = W12 m ρ c (Proc.devRef .tc main_arg11) :=
  calc W14 m ρ c (Proc.devRef .tc main_arg11)
    _ = W13 m ρ c (Proc.devRef .tc main_arg11) := W14_of_ne m ρ c main_arg11 (by decide)
    _ = W12 m ρ c (Proc.devRef .tc main_arg11) := StableHlo.after_of_forall_not_mem (b := Proc.devRef .tc main_arg11) _ _ (by decide +kernel)
theorem at_main_arg11_14 (c : Dev nD) : W14 m ρ c (Proc.devRef .tc main_arg11) = W0 m ρ c (Proc.devRef .tc main_arg11) := (tr_main_arg11_14_12 m ρ c).trans (at_main_arg11_12 m ρ c)

theorem tr_main_arg11_16_14 (c : Dev nD) : W16 m ρ c (Proc.devRef .tc main_arg11) = W14 m ρ c (Proc.devRef .tc main_arg11) :=
  calc W16 m ρ c (Proc.devRef .tc main_arg11)
    _ = W15 m ρ c (Proc.devRef .tc main_arg11) := W16_of_ne m ρ c main_arg11 (by decide)
    _ = W14 m ρ c (Proc.devRef .tc main_arg11) := StableHlo.after_of_forall_not_mem (b := Proc.devRef .tc main_arg11) _ _ (by decide +kernel)
theorem at_main_arg11_16 (c : Dev nD) : W16 m ρ c (Proc.devRef .tc main_arg11) = W0 m ρ c (Proc.devRef .tc main_arg11) := (tr_main_arg11_16_14 m ρ c).trans (at_main_arg11_14 m ρ c)

theorem tr_main_arg11_18_16 (c : Dev nD) : W18 m ρ c (Proc.devRef .tc main_arg11) = W16 m ρ c (Proc.devRef .tc main_arg11) :=
  calc W18 m ρ c (Proc.devRef .tc main_arg11)
    _ = W17 m ρ c (Proc.devRef .tc main_arg11) := W18_of_ne m ρ c main_arg11 (by decide)
    _ = W16 m ρ c (Proc.devRef .tc main_arg11) := StableHlo.after_of_forall_not_mem (b := Proc.devRef .tc main_arg11) _ _ (by decide +kernel)
theorem at_main_arg11_18 (c : Dev nD) : W18 m ρ c (Proc.devRef .tc main_arg11) = W0 m ρ c (Proc.devRef .tc main_arg11) := (tr_main_arg11_18_16 m ρ c).trans (at_main_arg11_16 m ρ c)

end Cert.KernelIdeal.Val

end
-- ==== Proof.TransportE.lean ====
/- A buffer that no segment between two boundaries writes holds at the later boundary what it held at the earlier
   one: a host stretch changes only the buffers its operations write, and a region only its output array. -/
import proofs.«141689_j63058709840619_1_alg».proof.Proof.FrameKI
import Idealize.ShloMosaic.PureOps.Ideal

set_option maxRecDepth 16384

noncomputable section

namespace Cert.KernelIdeal.Val

open Idealize.ShloMosaic Idealize.ShloMosaic.TcCoe Idealize.SL.Sem
open Cert.KernelIdeal Cert.KernelIdeal.Gen Cert.KernelIdeal.GenP

variable (m : (ℓ : Loc nD τ sig) → Buf (Elt Ideal) ℓ) (ρ : Dev nD → PrngReg)

theorem tr_main_v1_7_2 (c : Dev nD) : W7 m ρ c (Proc.devRef .tc main_v1) = W2 m ρ c (Proc.devRef .tc main_v1) :=
  calc W7 m ρ c (Proc.devRef .tc main_v1)
    _ = W6 m ρ c (Proc.devRef .tc main_v1) := StableHlo.after_of_forall_not_mem (b := Proc.devRef .tc main_v1) _ _ (by decide +kernel)
    _ = W5 m ρ c (Proc.devRef .tc main_v1) := W6_of_ne m ρ c main_v1 (by decide)
    _ = W4 m ρ c (Proc.devRef .tc main_v1) := StableHlo.after_of_forall_not_mem (b := Proc.devRef .tc main_v1) _ _ (by decide +kernel)
    _ = W3 m ρ c (Proc.devRef .tc main_v1) := W4_of_ne m ρ c main_v1 (by decide)
    _ = W2 m ρ c (Proc.devRef .tc main_v1) := StableHlo.after_of_forall_not_mem (b := Proc.devRef .tc main_v1) _ _ (by decide +kernel)
theorem at_main_v1_7 (c : Dev nD) : W7 m ρ c (Proc.devRef .tc main_v1) = W2 m ρ c (Proc.devRef .tc main_v1) := tr_main_v1_7_2 m ρ c

theorem tr_main_v1_8_7 (c : Dev nD) : W8 m ρ c (Proc.devRef .tc main_v1) = W7 m ρ c (Proc.devRef .tc main_v1) :=
  calc W8 m ρ c (Proc.devRef .tc main_v1)
    _ = W7 m ρ c (Proc.devRef .tc main_v1) := (W8_arr m ρ c 4).trans (((dat3 (V7 m ρ) c).arrAt_in 4 rfl _).trans (A_eq3 (V7 m ρ) c 4))
theorem at_main_v1_8 (c : Dev nD) : W8 m ρ c (Proc.devRef .tc main_v1) = W2 m ρ c (Proc.devRef .tc main_v1) := (tr_main_v1_8_7 m ρ c).trans (at_main_v1_7 m ρ c)

theorem tr_main_v1_10_8 (c : Dev nD) : W10 m ρ c (Proc.devRef .tc main_v1) = W8 m ρ c (Proc.devRef .tc main_v1) :=
  calc W10 m ρ c (Proc.devRef .tc main_v1)
    _ = W9 m ρ c (Proc.devRef .tc main_v1) := W10_of_ne m ρ c main_v1 (by decide)
    _ = W8 m ρ c (Proc.devRef .tc main_v1) := StableHlo.after_of_forall_not_mem (b := Proc.devRef .tc main_v1) _ _ (by decide +kernel)
theorem at_main_v1_10 (c : Dev nD) : W10 m ρ c (Proc.devRef .tc main_v1) = W2 m ρ c (Proc.devRef .tc main_v1) := (tr_main_v1_10_8 m ρ c).trans (at_main_v1_8 m ρ c)

theorem tr_main_v3_6_4 (c : Dev nD) : W6 m ρ c (Proc.devRef .tc main_v3) = W4 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (by decide +kernel)
theorem at_main_v3_6 (c : Dev nD) : W6 m ρ c (Proc.devRef .tc main_v3) = W4 m ρ c (Proc.devRef .tc main_v3) := tr_main_v3_6_4 m ρ c

theorem tr_main_v3_9_6 (c : Dev nD) : W9 m ρ c (Proc.devRef .tc main_v3) = W6 m ρ c (Proc.devRef .tc main_v3) :=
  calc W9 m ρ c (Proc.devRef .tc main_v3)
    _ = W8 m ρ c (Proc.devRef .tc main_v3) := StableHlo.after_of_forall_not_mem (b := Proc.devRef .tc main_v3) _ _ (by decide +kernel)
    _ = W7 m ρ c (Proc.devRef .tc main_v3) := W8_of_ne m ρ c main_v3 (by decide)
    _ = W6 m ρ c (Proc.devRef .tc main_v3) := StableHlo.after_of_forall_not_mem (b := Proc.devRef .tc main_v3) _ _ (by decide +kernel)
theorem at_main_v3_9 (c : Dev nD) : W9 m ρ c (Proc.devRef .tc main_v3) = W4 m ρ c (Proc.devRef .tc main_v3) := (tr_main_v3_9_6 m ρ c).trans (at_main_v3_6 m ρ c)

theorem tr_main_v3_10_9 (c : Dev nD) : W10 m ρ c (Proc.devRef .tc main_v3) = W9 m ρ c (Proc.devRef .tc main_v3) :=
  calc W10 m ρ c (Proc.devRef .tc main_v3)
    _ = W9 m ρ c (Proc.devRef .tc main_v3) := (W10_arr m ρ c 4).trans (((dat4 (V9 m ρ) c).arrAt_in 4 rfl _).trans (A_eq4 (V9 m ρ) c 4))
theorem at_main_v3_10 (c : Dev nD) : W10 m ρ c (Proc.devRef .tc main_v3) = W4 m ρ c (Proc.devRef .tc main_v3) := (tr_main_v3_10_9 m ρ c).trans (at_main_v3_9 m ρ c)

theorem tr_main_v5_8_6 (c : Dev nD) : W8 m ρ c (Proc.devRef .tc main_v5) = W6 m ρ c (Proc.devRef .tc main_v5) :=
  calc W8 m ρ c (Proc.devRef .tc main_v5)
    _ = W7 m ρ c (Proc.devRef .tc main_v5) := W8_of_ne m ρ c main_v5 (by decide)
    _ = W6 m ρ c (Proc.devRef .tc main_v5) := StableHlo.after_of_forall_not_mem (b := Proc.devRef .tc main_v5) _ _ (by decide +kernel)
theorem at_main_v5_8 (c : Dev nD) : W8 m ρ c (Proc.devRef .tc main_v5) = W6 m ρ c (Proc.devRef .tc main_v5) := tr_main_v5_8_6 m ρ c

theorem tr_main_v5_11_8 (c : Dev nD) : W11 m ρ c (Proc.devRef .tc main_v5) = W8 m ρ c (Proc.devRef .tc main_v5) :=
  calc W11 m ρ c (Proc.devRef .tc main_v5)
    _ = W10 m ρ c (Proc.devRef .tc main_v5) := StableHlo.after_of_forall_not_mem (b := Proc.devRef .tc main_v5) _ _ (by decide +kernel)
    _ = W9 m ρ c (Proc.devRef .tc main_v5) := W10_of_ne m ρ c main_v5 (by decide)
    _ = W8 m ρ c (Proc.devRef .tc main_v5) := StableHlo.after_of_forall_not_mem (b := Proc.devRef .tc main_v5) _ _ (by decide +kernel)
theorem at_main_v5_11 (c : Dev nD) : W11 m ρ c (Proc.devRef .tc main_v5) = W6 m ρ c (Proc.devRef .tc main_v5) := (tr_main_v5_11_8 m ρ c).trans (at_main_v5_8 m ρ c)

theorem tr_main_v67_13_8 (c : Dev nD) : W13 m ρ c (Proc.devRef .tc main_v67) = W8 m ρ c (Proc.devRef .tc main_v67) :=
  calc W13 m ρ c (Proc.devRef .tc main_v67)
    _ = W12 m ρ c (Proc.devRef .tc main_v67) := StableHlo.after_of_forall_not_mem (b := Proc.devRef .tc main_v67) _ _ (by decide +kernel)
    _ = W11 m ρ c (Proc.devRef .tc main_v67) := W12_of_ne m ρ c main_v67 (by decide)
    _ = W10 m ρ c (Proc.devRef .tc main_v67) := StableHlo.after_of_forall_not_mem (b := Proc.devRef .tc main_v67) _ _ (by decide +kernel)
    _ = W9 m ρ c (Proc.devRef .tc main_v67) := W10_of_ne m ρ c main_v67 (by decide)
    _ = W8 m ρ c (Proc.devRef .tc main_v67) := StableHlo.after_of_forall_not_mem (b := Proc.devRef .tc main_v67) _ _ (by decide +kernel)
theorem at_main_v67_13 (c : Dev nD) : W13 m ρ c (Proc.devRef .tc main_v67) = W8 m ρ c (Proc.devRef .tc main_v67) := tr_main_v67_13_8 m ρ c

theorem tr_main_v67_14_13 (c : Dev nD) : W14 m ρ c (Proc.devRef .tc main_v67) = W13 m ρ c (Proc.devRef .tc main_v67) :=
  calc W14 m ρ c (Proc.devRef .tc main_v67)
    _ = W13 m ρ c (Proc.devRef .tc main_v67) := (W14_arr m ρ c 4).trans (((dat6 (V13 m ρ) c).arrAt_in 4 rfl _).trans (A_eq6 (V13 m ρ) c 4))
theorem at_main_v67_14 (c : Dev nD) : W14 m ρ c (Proc.devRef .tc main_v67) = W8 m ρ c (Proc.devRef .tc main_v67) := (tr_main_v67_14_13 m ρ c).trans (at_main_v67_13 m ρ c)

theorem tr_main_v67_16_14 (c : Dev nD) : W16 m ρ c (Proc.devRef .tc main_v67) = W14 m ρ c (Proc.devRef .tc main_v67) :=
  calc W16 m ρ c (Proc.devRef .tc main_v67)
    _ = W15 m ρ c (Proc.devRef .tc main_v67) := W16_of_ne m ρ c main_v67 (by decide)
    _ = W14 m ρ c (Proc.devRef .tc main_v67) := StableHlo.after_of_forall_not_mem (b := Proc.devRef .tc main_v67) _ _ (by decide +kernel)
theorem at_main_v67_16 (c : Dev nD) : W16 m ρ c (Proc.devRef .tc main_v67) = W8 m ρ c (Proc.devRef .tc main_v67) := (tr_main_v67_16_14 m ρ c).trans (at_main_v67_14 m ρ c)

theorem tr_main_v129_12_10 (c : Dev nD) : W12 m ρ c (Proc.devRef .tc main_v129) = W10 m ρ c (Proc.devRef .tc main_v129) :=
  calc W12 m ρ c (Proc.devRef .tc main_v129)
    _ = W11 m ρ c (Proc.devRef .tc main_v129) := W12_of_ne m ρ c main_v129 (by decide)
    _ = W10 m ρ c (Proc.devRef .tc main_v129) := StableHlo.after_of_forall_not_mem (b := Proc.devRef .tc main_v129) _ _ (by decide +kernel)
theorem at_main_v129_12 (c : Dev nD) : W12 m ρ c (Proc.devRef .tc main_v129) = W10 m ρ c (Proc.devRef .tc main_v129) := tr_main_v129_12_10 m ρ c

theorem tr_main_v129_15_12 (c : Dev nD) : W15 m ρ c (Proc.devRef .tc main_v129) = W12 m ρ c (Proc.devRef .tc main_v129) :=
  calc W15 m ρ c (Proc.devRef .tc main_v129)
    _ = W14 m ρ c (Proc.devRef .tc main_v129) := StableHlo.after_of_forall_not_mem (b := Proc.devRef .tc main_v129) _ _ (by decide +kernel)
    _ = W13 m ρ c (Proc.devRef .tc main_v129) := W14_of_ne m ρ c main_v129 (by decide)
    _ = W12 m ρ c (Proc.devRef .tc main_v129) := StableHlo.after_of_forall_not_mem (b := Proc.devRef .tc main_v129) _ _ (by decide +kernel)
theorem at_main_v129_15 (c : Dev nD) : W15 m ρ c (Proc.devRef .tc main_v129) = W10 m ρ c (Proc.devRef .tc main_v129) := (tr_main_v129_15_12 m ρ c).trans (at_main_v129_12 m ρ c)

theorem tr_main_v129_16_15 (c : Dev nD) : W16 m ρ c (Proc.devRef .tc main_v129) = W15 m ρ c (Proc.devRef .tc main_v129) :=
  calc W16 m ρ c (Proc.devRef .tc main_v129)
    _ = W15 m ρ c (Proc.devRef .tc main_v129) := (W16_arr m ρ c 4).trans (((dat7 (V15 m ρ) c).arrAt_in 4 rfl _).trans (A_eq7 (V15 m ρ) c 4))
theorem at_main_v129_16 (c : Dev nD) : W16 m ρ c (Proc.devRef .tc main_v129) = W10 m ρ c (Proc.devRef .tc main_v129) := (tr_main_v129_16_15 m ρ c).trans (at_main_v129_15 m ρ c)

theorem tr_main_v191_14_12 (c : Dev nD) : W14 m ρ c (Proc.devRef .tc main_v191) = W12 m ρ c (Proc.devRef .tc main_v191) :=
  calc W14 m ρ c (Proc.devRef .tc main_v191)
    _ = W13 m ρ c (Proc.devRef .tc main_v191) := W14_of_ne m ρ c main_v191 (by decide)
    _ = W12 m ρ c (Proc.devRef .tc main_v191) := StableHlo.after_of_forall_not_mem (b := Proc.devRef .tc main_v191) _ _ (by decide +kernel)
theorem at_main_v191_14 (c : Dev nD) : W14 m ρ c (Proc.devRef .tc main_v191) = W12 m ρ c (Proc.devRef .tc main_v191) := tr_main_v191_14_12 m ρ c

theorem tr_main_v191_17_14 (c : Dev nD) : W17 m ρ c (Proc.devRef .tc main_v191) = W14 m ρ c (Proc.devRef .tc main_v191) :=
  calc W17 m ρ c (Proc.devRef .tc main_v191)
    _ = W16 m ρ c (Proc.devRef .tc main_v191) := StableHlo.after_of_forall_not_mem (b := Proc.devRef .tc main_v191) _ _ (by decide +kernel)
    _ = W15 m ρ c (Proc.devRef .tc main_v191) := W16_of_ne m ρ c main_v191 (by decide)
    _ = W14 m ρ c (Proc.devRef .tc main_v191) := StableHlo.after_of_forall_not_mem (b := Proc.devRef .tc main_v191) _ _ (by decide +kernel)
theorem at_main_v191_17 (c : Dev nD) : W17 m ρ c (Proc.devRef .tc main_v191) = W12 m ρ c (Proc.devRef .tc main_v191) := (tr_main_v191_17_14 m ρ c).trans (at_main_v191_14 m ρ c)

theorem tr_main_v253_18_14 (c : Dev nD) : W18 m ρ c (Proc.devRef .tc main_v253) = W14 m ρ c (Proc.devRef .tc main_v253) :=
  calc W18 m ρ c (Proc.devRef .tc main_v253)
    _ = W17 m ρ c (Proc.devRef .tc main_v253) := W18_of_ne m ρ c main_v253 (by decide)
    _ = W16 m ρ c (Proc.devRef .tc main_v253) := StableHlo.after_of_forall_not_mem (b := Proc.devRef .tc main_v253) _ _ (by decide +kernel)
    _ = W15 m ρ c (Proc.devRef .tc main_v253) := W16_of_ne m ρ c main_v253 (by decide)
    _ = W14 m ρ c (Proc.devRef .tc main_v253) := StableHlo.after_of_forall_not_mem (b := Proc.devRef .tc main_v253) _ _ (by decide +kernel)
theorem at_main_v253_18 (c : Dev nD) : W18 m ρ c (Proc.devRef .tc main_v253) = W14 m ρ c (Proc.devRef .tc main_v253) := tr_main_v253_18_14 m ρ c

theorem tr_main_v315_18_16 (c : Dev nD) : W18 m ρ c (Proc.devRef .tc main_v315) = W16 m ρ c (Proc.devRef .tc main_v315) :=
  calc W18 m ρ c (Proc.devRef .tc main_v315)
    _ = W17 m ρ c (Proc.devRef .tc main_v315) := W18_of_ne m ρ c main_v315 (by decide)
    _ = W16 m ρ c (Proc.devRef .tc main_v315) := StableHlo.after_of_forall_not_mem (b := Proc.devRef .tc main_v315) _ _ (by decide +kernel)
theorem at_main_v315_18 (c : Dev nD) : W18 m ρ c (Proc.devRef .tc main_v315) = W16 m ρ c (Proc.devRef .tc main_v315) := tr_main_v315_18_16 m ρ c

theorem tr_main_v377_19_18 (c : Dev nD) : W19 m ρ c (Proc.devRef .tc main_v377) = W18 m ρ c (Proc.devRef .tc main_v377) :=
  calc W19 m ρ c (Proc.devRef .tc main_v377)
    _ = W18 m ρ c (Proc.devRef .tc main_v377) := StableHlo.after_of_forall_not_mem (b := Proc.devRef .tc main_v377) _ _ (by decide +kernel)
theorem at_main_v377_19 (c : Dev nD) : W19 m ρ c (Proc.devRef .tc main_v377) = W18 m ρ c (Proc.devRef .tc main_v377) := tr_main_v377_19_18 m ρ c

theorem tr_main_v439_26_20 (c : Dev nD) : W26 m ρ c (Proc.devRef .tc main_v439) = W20 m ρ c (Proc.devRef .tc main_v439) :=
  calc W26 m ρ c (Proc.devRef .tc main_v439)
    _ = W25 m ρ c (Proc.devRef .tc main_v439) := W26_of_ne m ρ c main_v439 (by decide)
    _ = W24 m ρ c (Proc.devRef .tc main_v439) := StableHlo.after_of_forall_not_mem (b := Proc.devRef .tc main_v439) _ _ (by decide +kernel)
    _ = W23 m ρ c (Proc.devRef .tc main_v439) := W24_of_ne m ρ c main_v439 (by decide)
    _ = W22 m ρ c (Proc.devRef .tc main_v439) := StableHlo.after_of_forall_not_mem (b := Proc.devRef .tc main_v439) _ _ (by decide +kernel)
    _ = W21 m ρ c (Proc.devRef .tc main_v439) := W22_of_ne m ρ c main_v439 (by decide)
    _ = W20 m ρ c (Proc.devRef .tc main_v439) := StableHlo.after_of_forall_not_mem (b := Proc.devRef .tc main_v439) _ _ (by decide +kernel)
theorem at_main_v439_26 (c : Dev nD) : W26 m ρ c (Proc.devRef .tc main_v439) = W20 m ρ c (Proc.devRef .tc main_v439) := tr_main_v439_26_20 m ρ c

theorem tr_main_v441_23_22 (c : Dev nD) : W23 m ρ c (Proc.devRef .tc main_v441) = W22 m ρ c (Proc.devRef .tc main_v441) :=
  calc W23 m ρ c (Proc.devRef .tc main_v441)
    _ = W22 m ρ c (Proc.devRef .tc main_v441) := StableHlo.after_of_forall_not_mem (b := Proc.devRef .tc main_v441) _ _ (by decide +kernel)
theorem at_main_v441_23 (c : Dev nD) : W23 m ρ c (Proc.devRef .tc main_v441) = W22 m ρ c (Proc.devRef .tc main_v441) := tr_main_v441_23_22 m ρ c

theorem tr_main_v443_25_24 (c : Dev nD) : W25 m ρ c (Proc.devRef .tc main_v443) = W24 m ρ c (Proc.devRef .tc main_v443) :=
  calc W25 m ρ c (Proc.devRef .tc main_v443)
    _ = W24 m ρ c (Proc.devRef .tc main_v443) := StableHlo.after_of_forall_not_mem (b := Proc.devRef .tc main_v443) _ _ (by decide +kernel)
theorem at_main_v443_25 (c : Dev nD) : W25 m ρ c (Proc.devRef .tc main_v443) = W24 m ρ c (Proc.devRef .tc main_v443) := tr_main_v443_25_24 m ρ c

theorem tr_main_v466_29_28 (c : Dev nD) : W29 m ρ c (Proc.devRef .tc main_v466) = W28 m ρ c (Proc.devRef .tc main_v466) :=
  calc W29 m ρ c (Proc.devRef .tc main_v466)
    _ = W28 m ρ c (Proc.devRef .tc main_v466) := StableHlo.after_of_forall_not_mem (b := Proc.devRef .tc main_v466) _ _ (by decide +kernel)
theorem at_main_v466_29 (c : Dev nD) : W29 m ρ c (Proc.devRef .tc main_v466) = W28 m ρ c (Proc.devRef .tc main_v466) := tr_main_v466_29_28 m ρ c

theorem tr_main_v468_31_30 (c : Dev nD) : W31 m ρ c (Proc.devRef .tc main_v468) = W30 m ρ c (Proc.devRef .tc main_v468) :=
  calc W31 m ρ c (Proc.devRef .tc main_v468)
    _ = W30 m ρ c (Proc.devRef .tc main_v468) := StableHlo.after_of_forall_not_mem (b := Proc.devRef .tc main_v468) _ _ (by decide +kernel)
theorem at_main_v468_31 (c : Dev nD) : W31 m ρ c (Proc.devRef .tc main_v468) = W30 m ρ c (Proc.devRef .tc main_v468) := tr_main_v468_31_30 m ρ c

end Cert.KernelIdeal.Val

end
-- ==== Proof.KStage1.lean ====
/-
  The node features after the first round of neighbourhood combines (1 to 3 of 7) as the kernel program computes them:
  at the exit of each region its output array is the clipped combine of the model. The two neighbourhood means, the
  two slices of the stacked weights, the sum of the two root weights and the reshaped sum of the two biases reach the
  region as buffers the host stretch before it computes from earlier regions' outputs and from the arguments; the
  destination features are an earlier region's output, unchanged since that region's exit.
-/
import proofs.«141689_j63058709840619_1_alg».proof.Proof.KStage0
import proofs.«141689_j63058709840619_1_alg».proof.Proof.FrameKI
import proofs.«141689_j63058709840619_1_alg».proof.Proof.Model
import proofs.«141689_j63058709840619_1_alg».proof.Proof.Region3
import proofs.«141689_j63058709840619_1_alg».proof.Proof.Region4
import proofs.«141689_j63058709840619_1_alg».proof.Proof.Region5
import proofs.«141689_j63058709840619_1_alg».proof.Proof.TransportB
import proofs.«141689_j63058709840619_1_alg».proof.Proof.TransportC
import proofs.«141689_j63058709840619_1_alg».proof.Proof.TransportE
import proofs.«141689_j63058709840619_1_alg».proof.Proof.KHost3
import proofs.«141689_j63058709840619_1_alg».proof.Proof.KHost4
import proofs.«141689_j63058709840619_1_alg».proof.Proof.KHost5

set_option maxRecDepth 16384

noncomputable section

namespace Cert.KernelIdeal.Val

open Idealize.ShloMosaic Idealize.ShloMosaic.TcCoe Idealize.SL.Sem
open Cert.KernelIdeal Cert.KernelIdeal.Gen Cert.KernelIdeal.GenP Cert.Spec

variable (m : (ℓ : Loc nD τ sig) → Buf (Elt Ideal) ℓ) (ρ : Dev nD → PrngReg)

/-- At the exit of region 3 its output array is the first node type's features after combine 1 of 7. -/
theorem k_XL1 (c : Dev nD) (a : ArgVals) (hk : KHolds m c a) :
    W8 m ρ c (Proc.devRef .tc main_v67) = XL1 a := by
  have e1 : V7 m ρ c main_v28 = kh3_v28 (XP a) a.e_lpi :=
    (kh3_v28_eq (W6 m ρ c)).trans (congrArg₂ kh3_v28 (k_XP m ρ c a hk) ((at_main_arg24_6 m ρ c).trans hk.h24))
  have e2 : V7 m ρ c main_v63 = kh3_v63 a.Wl :=
    (kh3_v63_eq (W6 m ρ c)).trans (congrArg kh3_v63 ((at_main_arg9_6 m ρ c).trans hk.h9))
  have e3 : V7 m ρ c main_v51 = kh3_v51 (XM a) a.e_lmi :=
    (kh3_v51_eq (W6 m ρ c)).trans (congrArg₂ kh3_v51 ((at_main_v3_6 m ρ c).trans (k_XM m ρ c a hk)) ((at_main_arg25_6 m ρ c).trans hk.h25))
  have e4 : V7 m ρ c main_v65 = kh3_v65 a.Wl :=
    (kh3_v65_eq (W6 m ρ c)).trans (congrArg kh3_v65 ((at_main_arg9_6 m ρ c).trans hk.h9))
  have e5 : V7 m ρ c main_v1 = XL a := (at_main_v1_7 m ρ c).trans (k_XL m ρ c a hk)
  have e6 : V7 m ρ c main_v56 = addf (kh3_v53 a.Wr) (kh3_v55 a.Wr) :=
    ((kh3_v56_eq (W6 m ρ c)).trans (congrArg kh3_v56 ((at_main_arg11_6 m ρ c).trans hk.h11))).trans (kh3_v56_parts a.Wr)
  have e7 : V7 m ρ c main_v66 = shapeCast (⟨2, ![1, 150]⟩ : Shape) (addf (kh3_v58 a.bl) (kh3_v60 a.bl)) hs150 :=
    ((kh3_v66_eq (W6 m ρ c)).trans (congrArg kh3_v66 ((at_main_arg10_6 m ρ c).trans hk.h10))).trans (kh3_v66_parts a.bl)
  refine ((W8_arr m ρ c 7).trans (final3 (V7 m ρ) c)).trans ?_
  exact relu_congr (sageK_congr e1 e2 e3 e4 e5 e6 (congrArg rowOf e7))

/-- At the exit of region 4 its output array is the second node type's features after combine 2 of 7. -/
theorem k_XM1 (c : Dev nD) (a : ArgVals) (hk : KHolds m c a) :
    W10 m ρ c (Proc.devRef .tc main_v129) = XM1 a := by
  have e1 : V9 m ρ c main_v90 = kh4_v90 (XL a) a.e_lmi :=
    (kh4_v90_eq (W8 m ρ c)).trans (congrArg₂ kh4_v90 ((at_main_v1_8 m ρ c).trans (k_XL m ρ c a hk)) ((at_main_arg25_8 m ρ c).trans hk.h25))
  have e2 : V9 m ρ c main_v125 = kh4_v125 a.Wl :=
    (kh4_v125_eq (W8 m ρ c)).trans (congrArg kh4_v125 ((at_main_arg9_8 m ρ c).trans hk.h9))
  have e3 : V9 m ρ c main_v113 = kh4_v113 (XP a) a.e_mpi :=
    (kh4_v113_eq (W8 m ρ c)).trans (congrArg₂ kh4_v113 ((at_main_v5_8 m ρ c).trans (k_XP m ρ c a hk)) ((at_main_arg26_8 m ρ c).trans hk.h26))
  have e4 : V9 m ρ c main_v127 = kh4_v127 a.Wl :=
    (kh4_v127_eq (W8 m ρ c)).trans (congrArg kh4_v127 ((at_main_arg9_8 m ρ c).trans hk.h9))
  have e5 : V9 m ρ c main_v3 = XM a := (at_main_v3_9 m ρ c).trans (k_XM m ρ c a hk)
  have e6 : V9 m ρ c main_v118 = addf (kh4_v115 a.Wr) (kh4_v117 a.Wr) :=
    ((kh4_v118_eq (W8 m ρ c)).trans (congrArg kh4_v118 ((at_main_arg11_8 m ρ c).trans hk.h11))).trans (kh4_v118_parts a.Wr)
  have e7 : V9 m ρ c main_v128 = shapeCast (⟨2, ![1, 150]⟩ : Shape) (addf (kh4_v120 a.bl) (kh4_v122 a.bl)) hs150 :=
    ((kh4_v128_eq (W8 m ρ c)).trans (congrArg kh4_v128 ((at_main_arg10_8 m ρ c).trans hk.h10))).trans (kh4_v128_parts a.bl)
  refine ((W10_arr m ρ c 7).trans (final4 (V9 m ρ) c)).trans ?_
  exact relu_congr (sageK_congr e1 e2 e3 e4 e5 e6 (congrArg rowOf e7))

/-- At the exit of region 5 its output array is the third node type's features after combine 3 of 7. -/
theorem k_XP1 (c : Dev nD) (a : ArgVals) (hk : KHolds m c a) :
    W12 m ρ c (Proc.devRef .tc main_v191) = XP1 a := by
  have e1 : V11 m ρ c main_v152 = kh5_v152 (XL a) a.e_lpi :=
    (kh5_v152_eq (W10 m ρ c)).trans (congrArg₂ kh5_v152 ((at_main_v1_10 m ρ c).trans (k_XL m ρ c a hk)) ((at_main_arg24_10 m ρ c).trans hk.h24))
  have e2 : V11 m ρ c main_v187 = kh5_v187 a.Wl :=
    (kh5_v187_eq (W10 m ρ c)).trans (congrArg kh5_v187 ((at_main_arg9_10 m ρ c).trans hk.h9))
  have e3 : V11 m ρ c main_v175 = kh5_v175 (XM a) a.e_mpi :=
    (kh5_v175_eq (W10 m ρ c)).trans (congrArg₂ kh5_v175 ((at_main_v3_10 m ρ c).trans (k_XM m ρ c a hk)) ((at_main_arg26_10 m ρ c).trans hk.h26))
  have e4 : V11 m ρ c main_v189 = kh5_v189 a.Wl :=
    (kh5_v189_eq (W10 m ρ c)).trans (congrArg kh5_v189 ((at_main_arg9_10 m ρ c).trans hk.h9))
  have e5 : V11 m ρ c main_v5 = XP a := (at_main_v5_11 m ρ c).trans (k_XP m ρ c a hk)
  have e6 : V11 m ρ c main_v180 = addf (kh5_v177 a.Wr) (kh5_v179 a.Wr) :=
    ((kh5_v180_eq (W10 m ρ c)).trans (congrArg kh5_v180 ((at_main_arg11_10 m ρ c).trans hk.h11))).trans (kh5_v180_parts a.Wr)
  have e7 : V11 m ρ c main_v190 = shapeCast (⟨2, ![1, 150]⟩ : Shape) (addf (kh5_v182 a.bl) (kh5_v184 a.bl)) hs150 :=
    ((kh5_v190_eq (W10 m ρ c)).trans (congrArg kh5_v190 ((at_main_arg10_10 m ρ c).trans hk.h10))).trans (kh5_v190_parts a.bl)
  refine ((W12_arr m ρ c 7).trans (final5 (V11 m ρ) c)).trans ?_
  exact relu_congr (sageK_congr e1 e2 e3 e4 e5 e6 (congrArg rowOf e7))

end Cert.KernelIdeal.Val

end
-- ==== Proof.Region6.lean ====
/-
  The two-relation neighbourhood combine on 50000 rows, in blocks of 5000 rows over a grid of size 10: every block of
  the result is the same block of relu ((a1 · w1 + a2 · w2 + xd · wr) + b), the three 150-by-150 weights and the bias row
  read whole at every point; the blocks tile the rows, so the whole result array is that one function of the seven inputs.
-/
import proofs.«141689_j63058709840619_1_alg».proof.Proof.FrameKI
import proofs.«141689_j63058709840619_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Cert.KernelIdeal Cert.KernelIdeal.Gen Cert.KernelIdeal.GenP Cert.Spec

/-! ## The body's payload at an index -/

/-- The left operand of a product is read at the result's row on axis 0. -/
theorem lhs6_0 (i : S5000x150.Idx) (q : dot_S5000x150_S150x150_S5000x150_1_0_0_1_n_n.contr.Idx) :
    (dot_S5000x150_S150x150_S5000x150_1_0_0_1_n_n.lhsIdx i q 0).val = (i 0).val := by
  unfold DotDims.lhsIdx
  rw [dif_neg (show ¬(0 : Fin S5000x150.rank) ∈ dot_S5000x150_S150x150_S5000x150_1_0_0_1_n_n.lhsBatch by decide), dif_pos (show (0 : Fin S5000x150.rank) ∈ dot_S5000x150_S150x150_S5000x150_1_0_0_1_n_n.lhsNonContracting by decide)]
  rfl
/-- The left operand of a product is read at the contraction position on axis 1. -/
theorem lhs6_1 (i : S5000x150.Idx) (q : dot_S5000x150_S150x150_S5000x150_1_0_0_1_n_n.contr.Idx) :
    (dot_S5000x150_S150x150_S5000x150_1_0_0_1_n_n.lhsIdx i q 1).val = (q ⟨0, by decide⟩).val :=
  dot_S5000x150_S150x150_S5000x150_1_0_0_1_n_n.lhsIdx_val_of_single rfl i q
/-- The right operand of a product is read at the contraction position on axis 0. -/
theorem rhs6_0 (i : S5000x150.Idx) (q : dot_S5000x150_S150x150_S5000x150_1_0_0_1_n_n.contr.Idx) :
    (dot_S5000x150_S150x150_S5000x150_1_0_0_1_n_n.rhsIdx i q 0).val = (q ⟨0, by decide⟩).val :=
  dot_S5000x150_S150x150_S5000x150_1_0_0_1_n_n.rhsIdx_val_of_single rfl i q
/-- The right operand of a product is read at the result's column on axis 1. -/
theorem rhs6_1 (i : S5000x150.Idx) (q : dot_S5000x150_S150x150_S5000x150_1_0_0_1_n_n.contr.Idx) :
    (dot_S5000x150_S150x150_S5000x150_1_0_0_1_n_n.rhsIdx i q 1).val = (i 1).val := by
  unfold DotDims.rhsIdx
  rw [dif_neg (show ¬(1 : Fin S150x150.rank) ∈ dot_S5000x150_S150x150_S5000x150_1_0_0_1_n_n.rhsBatch by decide), dif_pos (show (1 : Fin S150x150.rank) ∈ dot_S5000x150_S150x150_S5000x150_1_0_0_1_n_n.rhsNonContracting by decide)]
  rfl

/-- One product of the body into a zero accumulator, read at (p, q): the sum over k of x(p, k) · w(k, q). -/
theorem mm6_apply (x : FVec Ideal S5000x150 .bf16) (w : FVec Ideal S150x150 .bf16) (p : Fin 5000) (q : Fin 150) :
    matmul dot_S5000x150_S150x150_S5000x150_1_0_0_1_n_n none x w (constant (F := Ideal) S5000x150 .f32 0x00000000#32) (ix2 p q)
      = ∑ k : Fin 150, x (ix2 p k) * w (ix2 k q) := by
  show FloatOps.matmul dot_S5000x150_S150x150_S5000x150_1_0_0_1_n_n none x w (constant (F := Ideal) S5000x150 .f32 0x00000000#32) (ix2 p q) = _
  rw [Ideal.matmul_constant_zero_apply, ← Equiv.sum_comp (ValueIdx.contrEquiv1 dot_S5000x150_S150x150_S5000x150_1_0_0_1_n_n 150 rfl rfl).symm]
  refine Finset.sum_congr rfl fun k _ => ?_
  have hk := ValueIdx.contrEquiv1_symm_val dot_S5000x150_S150x150_S5000x150_1_0_0_1_n_n 150 rfl rfl k
  have el : dot_S5000x150_S150x150_S5000x150_1_0_0_1_n_n.lhsIdx (ix2 p q) ((ValueIdx.contrEquiv1 dot_S5000x150_S150x150_S5000x150_1_0_0_1_n_n 150 rfl rfl).symm k) = ix2 p k := funext fun a => Fin.ext (by
    match a with
    | ⟨0, _⟩ => exact lhs6_0 _ _
    | ⟨1, _⟩ => exact (lhs6_1 _ _).trans hk)
  have er : dot_S5000x150_S150x150_S5000x150_1_0_0_1_n_n.rhsIdx (ix2 p q) ((ValueIdx.contrEquiv1 dot_S5000x150_S150x150_S5000x150_1_0_0_1_n_n 150 rfl rfl).symm k) = ix2 k q := funext fun a => Fin.ext (by
    match a with
    | ⟨0, _⟩ => exact (rhs6_0 _ _).trans hk
    | ⟨1, _⟩ => exact rhs6_1 _ _)
  rw [el, er]

/-- The body's payload at (p, q): the three products summed left to right, plus the bias row at q, clipped below at zero. -/
theorem pay6_apply (x0 : Vec Ideal S5000x150 .f32) (x1 : Vec Ideal S150x150 .f32) (x2 : Vec Ideal S5000x150 .f32) (x3 : Vec Ideal S150x150 .f32)
    (x4 : Vec Ideal S5000x150 .f32) (x5 : Vec Ideal S150x150 .f32) (x6 : Vec Ideal S1x150 .f32) (p : Fin 5000) (q : Fin 150) :
    k6_pay1 x0 x1 x2 x3 x4 x5 x6 (ix2 p q)
      = max (((∑ k : Fin 150, x0 (ix2 p k) * x1 (ix2 k q)) + (∑ k : Fin 150, x2 (ix2 p k) * x3 (ix2 k q))
          + (∑ k : Fin 150, x4 (ix2 p k) * x5 (ix2 k q))) + x6 (ix2 (0 : Fin 1) q)) 0 := by
  unfold k6_pay1
  simp only [shapeCast_self]
  rw [maximumf_apply, addf_apply, addf_apply, addf_apply, mm6_apply, mm6_apply, mm6_apply, broadcastTo_1b_ab_apply, broadcast_apply]
  simp only [truncf_apply]
  rw [Ideal.ofBits_def, Ideal.ofBits_zero_f32]

/-- The payload of blocks that are the arrays' entries at row `r` is the combine of the arrays at (r, q). -/
theorem pay6_of_blocks (a1 a2 xd : Mat 50000 150) (w1 w2 wr : Mat 150 150) (b : Mat 1 150)
    (x0 : Vec Ideal S5000x150 .f32) (x1 : Vec Ideal S150x150 .f32) (x2 : Vec Ideal S5000x150 .f32) (x3 : Vec Ideal S150x150 .f32)
    (x4 : Vec Ideal S5000x150 .f32) (x5 : Vec Ideal S150x150 .f32) (x6 : Vec Ideal S1x150 .f32) (p : Fin 5000) (q : Fin 150) (r : Fin 50000)
    (h0 : ∀ k : Fin 150, x0 (ix2 p k) = a1 (ix2 r k)) (h1 : ∀ k : Fin 150, x1 (ix2 k q) = w1 (ix2 k q))
    (h2 : ∀ k : Fin 150, x2 (ix2 p k) = a2 (ix2 r k)) (h3 : ∀ k : Fin 150, x3 (ix2 k q) = w2 (ix2 k q))
    (h4 : ∀ k : Fin 150, x4 (ix2 p k) = xd (ix2 r k)) (h5 : ∀ k : Fin 150, x5 (ix2 k q) = wr (ix2 k q))
    (h6 : x6 (ix2 (0 : Fin 1) q) = b (ix2 (0 : Fin 1) q)) :
    k6_pay1 x0 x1 x2 x3 x4 x5 x6 (ix2 p q) = relu (sageK a1 w1 a2 w2 xd wr (rowOf b)) (ix2 r q) := by
  rw [pay6_apply]
  simp only [h0, h1, h2, h3, h4, h5, h6]
  rfl

/-! ## From blocks to the array -/

section
variable (V : (c : Dev nD) → (b : Ref sig .tc) → Buf (Elt Ideal) ((c : Thread nD τ).loc b))

theorem zero_off6 : (![0, 0] : Fin 2 → Nat) = fun _ => 0 := funext fun a => by fin_cases a <;> rfl

/-- The index maps, decided over the grid: the row-tiled windows (a1, a2, xd and the result) sit at block (t, 0), the
    weights and the bias at block (0, 0). -/
theorem idx_maps6 : ∀ t : Fin cfg6.N,
    (win6_0.index t (0 : Fin 2) = t.val ∧ win6_0.index t (1 : Fin 2) = 0)
    ∧ (win6_1.index t (0 : Fin 2) = 0 ∧ win6_1.index t (1 : Fin 2) = 0)
    ∧ (win6_2.index t (0 : Fin 2) = t.val ∧ win6_2.index t (1 : Fin 2) = 0)
    ∧ (win6_3.index t (0 : Fin 2) = 0 ∧ win6_3.index t (1 : Fin 2) = 0)
    ∧ (win6_4.index t (0 : Fin 2) = t.val ∧ win6_4.index t (1 : Fin 2) = 0)
    ∧ (win6_5.index t (0 : Fin 2) = 0 ∧ win6_5.index t (1 : Fin 2) = 0)
    ∧ (win6_6.index t (0 : Fin 2) = 0 ∧ win6_6.index t (1 : Fin 2) = 0)
    ∧ (win6_7.index t (0 : Fin 2) = t.val ∧ win6_7.index t (1 : Fin 2) = 0) :=
  (by decide +kernel : ∀ t : Fin grid6.N, _)

/-- Block t of a1 is the 5000 rows of it from row 5000 t on. -/
theorem blk6_0 (c : Dev nD) (t : Fin cfg6.N) (y : S5000x150.Idx) (i : S50000x150.Idx)
    (h0 : (i 0).val = t.val * 5000 + (y 0).val) (h1 : (i 1).val = (y 1).val) :
    (iblk6 V c 0 t : Vec Ideal S5000x150 .f32) y = (V c main_v214 : Mat 50000 150) i := by
  obtain ⟨⟨e0, e1⟩, -⟩ := idx_maps6 t
  unfold iblk6
  rw [View.read_apply]
  show V c main_v214 (((cfg6.win 0).blk t).view.emb y) = V c main_v214 i
  refine congrArg _ (funext fun a => Fin.ext ?_)
  match a with
  | ⟨0, _⟩ => show win6_0.index t (0 : Fin 2) * 5000 + 1 * (y 0).val = (i 0).val; omega
  | ⟨1, _⟩ => show win6_0.index t (1 : Fin 2) * 150 + 1 * (y 1).val = (i 1).val; omega

/-- The one block of w1 is the whole of it. -/
theorem blk6_1 (c : Dev nD) (t : Fin cfg6.N) (y : S150x150.Idx) :
    (iblk6 V c 1 t : Vec Ideal S150x150 .f32) y = (V c main_v249 : Mat 150 150) y := by
  obtain ⟨-, ⟨e0, e1⟩, -⟩ := idx_maps6 t
  unfold iblk6
  rw [View.read_apply]
  show V c main_v249 (((cfg6.win 1).blk t).view.emb y) = V c main_v249 y
  refine congrArg _ (funext fun a => Fin.ext ?_)
  match a with
  | ⟨0, _⟩ => show win6_1.index t (0 : Fin 2) * 150 + 1 * (y 0).val = (y 0).val; omega
  | ⟨1, _⟩ => show win6_1.index t (1 : Fin 2) * 150 + 1 * (y 1).val = (y 1).val; omega

/-- Block t of a2 is the 5000 rows of it from row 5000 t on. -/
theorem blk6_2 (c : Dev nD) (t : Fin cfg6.N) (y : S5000x150.Idx) (i : S50000x150.Idx)
    (h0 : (i 0).val = t.val * 5000 + (y 0).val) (h1 : (i 1).val = (y 1).val) :
    (iblk6 V c 2 t : Vec Ideal S5000x150 .f32) y = (V c main_v237 : Mat 50000 150) i := by
  obtain ⟨-, -, ⟨e0, e1⟩, -⟩ := idx_maps6 t
  unfold iblk6
  rw [View.read_apply]
  show V c main_v237 (((cfg6.win 2).blk t).view.emb y) = V c main_v237 i
  refine congrArg _ (funext fun a => Fin.ext ?_)
  match a with
  | ⟨0, _⟩ => show win6_2.index t (0 : Fin 2) * 5000 + 1 * (y 0).val = (i 0).val; omega
  | ⟨1, _⟩ => show win6_2.index t (1 : Fin 2) * 150 + 1 * (y 1).val = (i 1).val; omega

/-- The one block of w2 is the whole of it. -/
theorem blk6_3 (c : Dev nD) (t : Fin cfg6.N) (y : S150x150.Idx) :
    (iblk6 V c 3 t : Vec Ideal S150x150 .f32) y = (V c main_v251 : Mat 150 150) y := by
  obtain ⟨-, -, -, ⟨e0, e1⟩, -⟩ := idx_maps6 t
  unfold iblk6
  rw [View.read_apply]
  show V c main_v251 (((cfg6.win 3).blk t).view.emb y) = V c main_v251 y
  refine congrArg _ (funext fun a => Fin.ext ?_)
  match a with
  | ⟨0, _⟩ => show win6_3.index t (0 : Fin 2) * 150 + 1 * (y 0).val = (y 0).val; omega
  | ⟨1, _⟩ => show win6_3.index t (1 : Fin 2) * 150 + 1 * (y 1).val = (y 1).val; omega

/-- Block t of xd is the 5000 rows of it from row 5000 t on. -/
theorem blk6_4 (c : Dev nD) (t : Fin cfg6.N) (y : S5000x150.Idx) (i : S50000x150.Idx)
    (h0 : (i 0).val = t.val * 5000 + (y 0).val) (h1 : (i 1).val = (y 1).val) :
    (iblk6 V c 4 t : Vec Ideal S5000x150 .f32) y = (V c main_v67 : Mat 50000 150) i := by
  obtain ⟨-, -, -, -, ⟨e0, e1⟩, -⟩ := idx_maps6 t
  unfold iblk6
  rw [View.read_apply]
  show V c main_v67 (((cfg6.win 4).blk t).view.emb y) = V c main_v67 i
  refine congrArg _ (funext fun a => Fin.ext ?_)
  match a with
  | ⟨0, _⟩ => show win6_4.index t (0 : Fin 2) * 5000 + 1 * (y 0).val = (i 0).val; omega
  | ⟨1, _⟩ => show win6_4.index t (1 : Fin 2) * 150 + 1 * (y 1).val = (i 1).val; omega

/-- The one block of wr is the whole of it. -/
theorem blk6_5 (c : Dev nD) (t : Fin cfg6.N) (y : S150x150.Idx) :
    (iblk6 V c 5 t : Vec Ideal S150x150 .f32) y = (V c main_v242 : Mat 150 150) y := by
  obtain ⟨-, -, -, -, -, ⟨e0, e1⟩, -⟩ := idx_maps6 t
  unfold iblk6
  rw [View.read_apply]
  show V c main_v242 (((cfg6.win 5).blk t).view.emb y) = V c main_v242 y
  refine congrArg _ (funext fun a => Fin.ext ?_)
  match a with
  | ⟨0, _⟩ => show win6_5.index t (0 : Fin 2) * 150 + 1 * (y 0).val = (y 0).val; omega
  | ⟨1, _⟩ => show win6_5.index t (1 : Fin 2) * 150 + 1 * (y 1).val = (y 1).val; omega

/-- The one block of the bias is the whole of it. -/
theorem blk6_6 (c : Dev nD) (t : Fin cfg6.N) (y : S1x150.Idx) :
    (iblk6 V c 6 t : Vec Ideal S1x150 .f32) y = (V c main_v252 : Mat 1 150) y := by
  obtain ⟨-, -, -, -, -, -, ⟨e0, e1⟩, -⟩ := idx_maps6 t
  unfold iblk6
  rw [View.read_apply]
  show V c main_v252 (((cfg6.win 6).blk t).view.emb y) = V c main_v252 y
  refine congrArg _ (funext fun a => Fin.ext ?_)
  match a with
  | ⟨0, _⟩ => show win6_6.index t (0 : Fin 2) * 1 + 1 * (y 0).val = (y 0).val; omega
  | ⟨1, _⟩ => show win6_6.index t (1 : Fin 2) * 150 + 1 * (y 1).val = (y 1).val; omega

/-- The combine of the seven arrays as the region finds them. -/
abbrev combine6 (c : Dev nD) : Mat 50000 150 :=
  relu (sageK (M := 50000) (K := 150) (N := 150) (V c main_v214) (V c main_v249) (V c main_v237) (V c main_v251) (V c main_v67) (V c main_v242) (rowOf (V c main_v252)))

/-- What point t writes back is block t of the combine. -/
theorem flushed6_eq (c : Dev nD) (t : Fin cfg6.N) :
    (dat6 (F := Ideal) V c).flushed 7 t = ((cfg6.win 7).blk t).view.read (Elt Ideal) (combine6 V c) := by
  show (cfg6.win 7).cut (grid6.coords t) ((dat6 (F := Ideal) V c).after 7 t) = _
  rw [after6_7]
  unfold out6_7
  rw [View.canon_unit_zero zero_off6]
  simp only [View.ld_unit_zero (S := S5000x150) zero_off6, View.ld_unit_zero (S := S150x150) zero_off6, View.ld_unit_zero (S := S1x150) zero_off6]
  obtain ⟨-, -, -, -, -, -, -, ⟨e0, e1⟩⟩ := idx_maps6 t
  have hN : cfg6.N = 10 := N_6
  have ht : t.val < 10 := hN ▸ t.isLt
  refine funext fun (j : S5000x150.Idx) => ?_
  obtain ⟨p, q, rfl⟩ : ∃ (p : Fin 5000) (q : Fin 150), j = ix2 p q := ⟨j 0, j 1, eq_ix2 j⟩
  have hp : p.val < 5000 := p.isLt
  rw [View.read_apply]
  have hi : ((cfg6.win 7).blk t).view.emb (ix2 p q) = (ix2 (⟨t.val * 5000 + p.val, by omega⟩ : Fin 50000) q : S50000x150.Idx) := by
    refine funext fun a => Fin.ext ?_
    match a with
    | ⟨0, _⟩ => show win6_7.index t (0 : Fin 2) * 5000 + 1 * p.val = t.val * 5000 + p.val; omega
    | ⟨1, _⟩ => show win6_7.index t (1 : Fin 2) * 150 + 1 * q.val = q.val; omega
  rw [hi]
  exact pay6_of_blocks (V c main_v214) (V c main_v237) (V c main_v67) (V c main_v249) (V c main_v251) (V c main_v242) (V c main_v252)
    (iblk6 V c 0 t) (iblk6 V c 1 t) (iblk6 V c 2 t) (iblk6 V c 3 t) (iblk6 V c 4 t) (iblk6 V c 5 t) (iblk6 V c 6 t) p q ⟨t.val * 5000 + p.val, by omega⟩
    (fun k => blk6_0 V c t _ _ rfl rfl) (fun k => blk6_1 V c t _)
    (fun k => blk6_2 V c t _ _ rfl rfl) (fun k => blk6_3 V c t _)
    (fun k => blk6_4 V c t _ _ rfl rfl) (fun k => blk6_5 V c t _)
    (blk6_6 V c t _)

/-- An index of the array is in point t's block iff each coordinate is in the block's range on its axis. -/
theorem mem_blk6 (t : Fin cfg6.N) (i : S50000x150.Idx) :
    i ∈ ((cfg6.win 7).blk t).view.set ↔ ∀ a : Fin 2, win6_7.index t a * S5000x150.size a ≤ (i a).val ∧ (i a).val < win6_7.index t a * S5000x150.size a + S5000x150.size a := by
  show i ∈ ((View.whole main_v253).slice (win6_7.rect t)).set ↔ _
  rw [View.set_slice_whole, Rect.mem_set_unit]
  exact Iff.rfl

/-- Row r lies in the block of point r / 5000: the blocks cover the array. -/
theorem cover6 (i : S50000x150.Idx) : ∃ t : Fin cfg6.N, (cfg6.win 7).flush t = true ∧ i ∈ ((cfg6.win 7).blk t).view.set := by
  have hN : cfg6.N = 10 := N_6
  have hi0 : (i 0).val < 50000 := (i 0).isLt
  have hi1 : (i 1).val < 150 := (i 1).isLt
  obtain ⟨t, ht⟩ : ∃ t : Fin cfg6.N, t.val = (i 0).val / 5000 := ⟨⟨(i 0).val / 5000, by rw [hN]; omega⟩, rfl⟩
  obtain ⟨-, -, -, -, -, -, -, ⟨e0, e1⟩⟩ := idx_maps6 t
  refine ⟨t, flush6_7 t, ?_⟩
  rw [mem_blk6]
  intro a
  match a with
  | ⟨0, _⟩ => show win6_7.index t (0 : Fin 2) * 5000 ≤ (i 0).val ∧ (i 0).val < win6_7.index t (0 : Fin 2) * 5000 + 5000; omega
  | ⟨1, _⟩ => show win6_7.index t (1 : Fin 2) * 150 ≤ (i 1).val ∧ (i 1).val < win6_7.index t (1 : Fin 2) * 150 + 150; omega

/-- THE ARRAY after the region: the combine of the seven input arrays as the region finds them. -/
theorem final6 (c : Dev nD) :
    (dat6 (F := Ideal) V c).arrAt 7 cfg6.N = relu (sageK (M := 50000) (K := 150) (N := 150) (V c main_v214) (V c main_v249) (V c main_v237) (V c main_v251) (V c main_v67) (V c main_v242) (rowOf (V c main_v252))) :=
  (dat6 (F := Ideal) V c).arrAt_eq_of_cover 7 (combine6 V c) (fun t _ => flushed6_eq V c t) cover6

end

end Cert.KernelIdeal.Val

end
-- ==== Proof.Region7.lean ====
/-
  The two-relation neighbourhood combine on 2000 rows, in blocks of 2000 rows over a grid of size 1: every block of
  the result is the same block of relu ((a1 · w1 + a2 · w2 + xd · wr) + b), the three 150-by-150 weights and the bias row
  read whole at every point; the blocks tile the rows, so the whole result array is that one function of the seven inputs.
-/
import proofs.«141689_j63058709840619_1_alg».proof.Proof.FrameKI
import proofs.«141689_j63058709840619_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Cert.KernelIdeal Cert.KernelIdeal.Gen Cert.KernelIdeal.GenP Cert.Spec

/-! ## The body's payload at an index -/

/-- The left operand of a product is read at the result's row on axis 0. -/
theorem lhs7_0 (i : S2000x150.Idx) (q : dot_S2000x150_S150x150_S2000x150_1_0_0_1_n_n.contr.Idx) :
    (dot_S2000x150_S150x150_S2000x150_1_0_0_1_n_n.lhsIdx i q 0).val = (i 0).val := by
  unfold DotDims.lhsIdx
  rw [dif_neg (show ¬(0 : Fin S2000x150.rank) ∈ dot_S2000x150_S150x150_S2000x150_1_0_0_1_n_n.lhsBatch by decide), dif_pos (show (0 : Fin S2000x150.rank) ∈ dot_S2000x150_S150x150_S2000x150_1_0_0_1_n_n.lhsNonContracting by decide)]
  rfl
/-- The left operand of a product is read at the contraction position on axis 1. -/
theorem lhs7_1 (i : S2000x150.Idx) (q : dot_S2000x150_S150x150_S2000x150_1_0_0_1_n_n.contr.Idx) :
    (dot_S2000x150_S150x150_S2000x150_1_0_0_1_n_n.lhsIdx i q 1).val = (q ⟨0, by decide⟩).val :=
  dot_S2000x150_S150x150_S2000x150_1_0_0_1_n_n.lhsIdx_val_of_single rfl i q
/-- The right operand of a product is read at the contraction position on axis 0. -/
theorem rhs7_0 (i : S2000x150.Idx) (q : dot_S2000x150_S150x150_S2000x150_1_0_0_1_n_n.contr.Idx) :
    (dot_S2000x150_S150x150_S2000x150_1_0_0_1_n_n.rhsIdx i q 0).val = (q ⟨0, by decide⟩).val :=
  dot_S2000x150_S150x150_S2000x150_1_0_0_1_n_n.rhsIdx_val_of_single rfl i q
/-- The right operand of a product is read at the result's column on axis 1. -/
theorem rhs7_1 (i : S2000x150.Idx) (q : dot_S2000x150_S150x150_S2000x150_1_0_0_1_n_n.contr.Idx) :
    (dot_S2000x150_S150x150_S2000x150_1_0_0_1_n_n.rhsIdx i q 1).val = (i 1).val := by
  unfold DotDims.rhsIdx
  rw [dif_neg (show ¬(1 : Fin S150x150.rank) ∈ dot_S2000x150_S150x150_S2000x150_1_0_0_1_n_n.rhsBatch by decide), dif_pos (show (1 : Fin S150x150.rank) ∈ dot_S2000x150_S150x150_S2000x150_1_0_0_1_n_n.rhsNonContracting by decide)]
  rfl

/-- One product of the body into a zero accumulator, read at (p, q): the sum over k of x(p, k) · w(k, q). -/
theorem mm7_apply (x : FVec Ideal S2000x150 .bf16) (w : FVec Ideal S150x150 .bf16) (p : Fin 2000) (q : Fin 150) :
    matmul dot_S2000x150_S150x150_S2000x150_1_0_0_1_n_n none x w (constant (F := Ideal) S2000x150 .f32 0x00000000#32) (ix2 p q)
      = ∑ k : Fin 150, x (ix2 p k) * w (ix2 k q) := by
  show FloatOps.matmul dot_S2000x150_S150x150_S2000x150_1_0_0_1_n_n none x w (constant (F := Ideal) S2000x150 .f32 0x00000000#32) (ix2 p q) = _
  rw [Ideal.matmul_constant_zero_apply, ← Equiv.sum_comp (ValueIdx.contrEquiv1 dot_S2000x150_S150x150_S2000x150_1_0_0_1_n_n 150 rfl rfl).symm]
  refine Finset.sum_congr rfl fun k _ => ?_
  have hk := ValueIdx.contrEquiv1_symm_val dot_S2000x150_S150x150_S2000x150_1_0_0_1_n_n 150 rfl rfl k
  have el : dot_S2000x150_S150x150_S2000x150_1_0_0_1_n_n.lhsIdx (ix2 p q) ((ValueIdx.contrEquiv1 dot_S2000x150_S150x150_S2000x150_1_0_0_1_n_n 150 rfl rfl).symm k) = ix2 p k := funext fun a => Fin.ext (by
    match a with
    | ⟨0, _⟩ => exact lhs7_0 _ _
    | ⟨1, _⟩ => exact (lhs7_1 _ _).trans hk)
  have er : dot_S2000x150_S150x150_S2000x150_1_0_0_1_n_n.rhsIdx (ix2 p q) ((ValueIdx.contrEquiv1 dot_S2000x150_S150x150_S2000x150_1_0_0_1_n_n 150 rfl rfl).symm k) = ix2 k q := funext fun a => Fin.ext (by
    match a with
    | ⟨0, _⟩ => exact (rhs7_0 _ _).trans hk
    | ⟨1, _⟩ => exact rhs7_1 _ _)
  rw [el, er]

/-- The body's payload at (p, q): the three products summed left to right, plus the bias row at q, clipped below at zero. -/
theorem pay7_apply (x0 : Vec Ideal S2000x150 .f32) (x1 : Vec Ideal S150x150 .f32) (x2 : Vec Ideal S2000x150 .f32) (x3 : Vec Ideal S150x150 .f32)
    (x4 : Vec Ideal S2000x150 .f32) (x5 : Vec Ideal S150x150 .f32) (x6 : Vec Ideal S1x150 .f32) (p : Fin 2000) (q : Fin 150) :
    k7_pay1 x0 x1 x2 x3 x4 x5 x6 (ix2 p q)
      = max (((∑ k : Fin 150, x0 (ix2 p k) * x1 (ix2 k q)) + (∑ k : Fin 150, x2 (ix2 p k) * x3 (ix2 k q))
          + (∑ k : Fin 150, x4 (ix2 p k) * x5 (ix2 k q))) + x6 (ix2 (0 : Fin 1) q)) 0 := by
  unfold k7_pay1
  simp only [shapeCast_self]
  rw [maximumf_apply, addf_apply, addf_apply, addf_apply, mm7_apply, mm7_apply, mm7_apply, broadcastTo_1b_ab_apply, broadcast_apply]
  simp only [truncf_apply]
  rw [Ideal.ofBits_def, Ideal.ofBits_zero_f32]

/-- The payload of blocks that are the arrays' entries at row `r` is the combine of the arrays at (r, q). -/
theorem pay7_of_blocks (a1 a2 xd : Mat 2000 150) (w1 w2 wr : Mat 150 150) (b : Mat 1 150)
    (x0 : Vec Ideal S2000x150 .f32) (x1 : Vec Ideal S150x150 .f32) (x2 : Vec Ideal S2000x150 .f32) (x3 : Vec Ideal S150x150 .f32)
    (x4 : Vec Ideal S2000x150 .f32) (x5 : Vec Ideal S150x150 .f32) (x6 : Vec Ideal S1x150 .f32) (p : Fin 2000) (q : Fin 150) (r : Fin 2000)
    (h0 : ∀ k : Fin 150, x0 (ix2 p k) = a1 (ix2 r k)) (h1 : ∀ k : Fin 150, x1 (ix2 k q) = w1 (ix2 k q))
    (h2 : ∀ k : Fin 150, x2 (ix2 p k) = a2 (ix2 r k)) (h3 : ∀ k : Fin 150, x3 (ix2 k q) = w2 (ix2 k q))
    (h4 : ∀ k : Fin 150, x4 (ix2 p k) = xd (ix2 r k)) (h5 : ∀ k : Fin 150, x5 (ix2 k q) = wr (ix2 k q))
    (h6 : x6 (ix2 (0 : Fin 1) q) = b (ix2 (0 : Fin 1) q)) :
    k7_pay1 x0 x1 x2 x3 x4 x5 x6 (ix2 p q) = relu (sageK a1 w1 a2 w2 xd wr (rowOf b)) (ix2 r q) := by
  rw [pay7_apply]
  simp only [h0, h1, h2, h3, h4, h5, h6]
  rfl

/-! ## From blocks to the array -/

section
variable (V : (c : Dev nD) → (b : Ref sig .tc) → Buf (Elt Ideal) ((c : Thread nD τ).loc b))

theorem zero_off7 : (![0, 0] : Fin 2 → Nat) = fun _ => 0 := funext fun a => by fin_cases a <;> rfl

/-- The index maps, decided over the grid: the row-tiled windows (a1, a2, xd and the result) sit at block (t, 0), the
    weights and the bias at block (0, 0). -/
theorem idx_maps7 : ∀ t : Fin cfg7.N,
    (win7_0.index t (0 : Fin 2) = t.val ∧ win7_0.index t (1 : Fin 2) = 0)
    ∧ (win7_1.index t (0 : Fin 2) = 0 ∧ win7_1.index t (1 : Fin 2) = 0)
    ∧ (win7_2.index t (0 : Fin 2) = t.val ∧ win7_2.index t (1 : Fin 2) = 0)
    ∧ (win7_3.index t (0 : Fin 2) = 0 ∧ win7_3.index t (1 : Fin 2) = 0)
    ∧ (win7_4.index t (0 : Fin 2) = t.val ∧ win7_4.index t (1 : Fin 2) = 0)
    ∧ (win7_5.index t (0 : Fin 2) = 0 ∧ win7_5.index t (1 : Fin 2) = 0)
    ∧ (win7_6.index t (0 : Fin 2) = 0 ∧ win7_6.index t (1 : Fin 2) = 0)
    ∧ (win7_7.index t (0 : Fin 2) = t.val ∧ win7_7.index t (1 : Fin 2) = 0) :=
  (by decide +kernel : ∀ t : Fin grid7.N, _)

/-- Block t of a1 is the 2000 rows of it from row 2000 t on. -/
theorem blk7_0 (c : Dev nD) (t : Fin cfg7.N) (y : S2000x150.Idx) (i : S2000x150.Idx)
    (h0 : (i 0).val = t.val * 2000 + (y 0).val) (h1 : (i 1).val = (y 1).val) :
    (iblk7 V c 0 t : Vec Ideal S2000x150 .f32) y = (V c main_v276 : Mat 2000 150) i := by
  obtain ⟨⟨e0, e1⟩, -⟩ := idx_maps7 t
  unfold iblk7
  rw [View.read_apply]
  show V c main_v276 (((cfg7.win 0).blk t).view.emb y) = V c main_v276 i
  refine congrArg _ (funext fun a => Fin.ext ?_)
  match a with
  | ⟨0, _⟩ => show win7_0.index t (0 : Fin 2) * 2000 + 1 * (y 0).val = (i 0).val; omega
  | ⟨1, _⟩ => show win7_0.index t (1 : Fin 2) * 150 + 1 * (y 1).val = (i 1).val; omega

/-- The one block of w1 is the whole of it. -/
theorem blk7_1 (c : Dev nD) (t : Fin cfg7.N) (y : S150x150.Idx) :
    (iblk7 V c 1 t : Vec Ideal S150x150 .f32) y = (V c main_v311 : Mat 150 150) y := by
  obtain ⟨-, ⟨e0, e1⟩, -⟩ := idx_maps7 t
  unfold iblk7
  rw [View.read_apply]
  show V c main_v311 (((cfg7.win 1).blk t).view.emb y) = V c main_v311 y
  refine congrArg _ (funext fun a => Fin.ext ?_)
  match a with
  | ⟨0, _⟩ => show win7_1.index t (0 : Fin 2) * 150 + 1 * (y 0).val = (y 0).val; omega
  | ⟨1, _⟩ => show win7_1.index t (1 : Fin 2) * 150 + 1 * (y 1).val = (y 1).val; omega

/-- Block t of a2 is the 2000 rows of it from row 2000 t on. -/
theorem blk7_2 (c : Dev nD) (t : Fin cfg7.N) (y : S2000x150.Idx) (i : S2000x150.Idx)
    (h0 : (i 0).val = t.val * 2000 + (y 0).val) (h1 : (i 1).val = (y 1).val) :
    (iblk7 V c 2 t : Vec Ideal S2000x150 .f32) y = (V c main_v299 : Mat 2000 150) i := by
  obtain ⟨-, -, ⟨e0, e1⟩, -⟩ := idx_maps7 t
  unfold iblk7
  rw [View.read_apply]
  show V c main_v299 (((cfg7.win 2).blk t).view.emb y) = V c main_v299 i
  refine congrArg _ (funext fun a => Fin.ext ?_)
  match a with
  | ⟨0, _⟩ => show win7_2.index t (0 : Fin 2) * 2000 + 1 * (y 0).val = (i 0).val; omega
  | ⟨1, _⟩ => show win7_2.index t (1 : Fin 2) * 150 + 1 * (y 1).val = (i 1).val; omega

/-- The one block of w2 is the whole of it. -/
theorem blk7_3 (c : Dev nD) (t : Fin cfg7.N) (y : S150x150.Idx) :
    (iblk7 V c 3 t : Vec Ideal S150x150 .f32) y = (V c main_v313 : Mat 150 150) y := by
  obtain ⟨-, -, -, ⟨e0, e1⟩, -⟩ := idx_maps7 t
  unfold iblk7
  rw [View.read_apply]
  show V c main_v313 (((cfg7.win 3).blk t).view.emb y) = V c main_v313 y
  refine congrArg _ (funext fun a => Fin.ext ?_)
  match a with
  | ⟨0, _⟩ => show win7_3.index t (0 : Fin 2) * 150 + 1 * (y 0).val = (y 0).val; omega
  | ⟨1, _⟩ => show win7_3.index t (1 : Fin 2) * 150 + 1 * (y 1).val = (y 1).val; omega

/-- Block t of xd is the 2000 rows of it from row 2000 t on. -/
theorem blk7_4 (c : Dev nD) (t : Fin cfg7.N) (y : S2000x150.Idx) (i : S2000x150.Idx)
    (h0 : (i 0).val = t.val * 2000 + (y 0).val) (h1 : (i 1).val = (y 1).val) :
    (iblk7 V c 4 t : Vec Ideal S2000x150 .f32) y = (V c main_v129 : Mat 2000 150) i := by
  obtain ⟨-, -, -, -, ⟨e0, e1⟩, -⟩ := idx_maps7 t
  unfold iblk7
  rw [View.read_apply]
  show V c main_v129 (((cfg7.win 4).blk t).view.emb y) = V c main_v129 i
  refine congrArg _ (funext fun a => Fin.ext ?_)
  match a with
  | ⟨0, _⟩ => show win7_4.index t (0 : Fin 2) * 2000 + 1 * (y 0).val = (i 0).val; omega
  | ⟨1, _⟩ => show win7_4.index t (1 : Fin 2) * 150 + 1 * (y 1).val = (i 1).val; omega

/-- The one block of wr is the whole of it. -/
theorem blk7_5 (c : Dev nD) (t : Fin cfg7.N) (y : S150x150.Idx) :
    (iblk7 V c 5 t : Vec Ideal S150x150 .f32) y = (V c main_v304 : Mat 150 150) y := by
  obtain ⟨-, -, -, -, -, ⟨e0, e1⟩, -⟩ := idx_maps7 t
  unfold iblk7
  rw [View.read_apply]
  show V c main_v304 (((cfg7.win 5).blk t).view.emb y) = V c main_v304 y
  refine congrArg _ (funext fun a => Fin.ext ?_)
  match a with
  | ⟨0, _⟩ => show win7_5.index t (0 : Fin 2) * 150 + 1 * (y 0).val = (y 0).val; omega
  | ⟨1, _⟩ => show win7_5.index t (1 : Fin 2) * 150 + 1 * (y 1).val = (y 1).val; omega

/-- The one block of the bias is the whole of it. -/
theorem blk7_6 (c : Dev nD) (t : Fin cfg7.N) (y : S1x150.Idx) :
    (iblk7 V c 6 t : Vec Ideal S1x150 .f32) y = (V c main_v314 : Mat 1 150) y := by
  obtain ⟨-, -, -, -, -, -, ⟨e0, e1⟩, -⟩ := idx_maps7 t
  unfold iblk7
  rw [View.read_apply]
  show V c main_v314 (((cfg7.win 6).blk t).view.emb y) = V c main_v314 y
  refine congrArg _ (funext fun a => Fin.ext ?_)
  match a with
  | ⟨0, _⟩ => show win7_6.index t (0 : Fin 2) * 1 + 1 * (y 0).val = (y 0).val; omega
  | ⟨1, _⟩ => show win7_6.index t (1 : Fin 2) * 150 + 1 * (y 1).val = (y 1).val; omega

/-- The combine of the seven arrays as the region finds them. -/
abbrev combine7 (c : Dev nD) : Mat 2000 150 :=
  relu (sageK (M := 2000) (K := 150) (N := 150) (V c main_v276) (V c main_v311) (V c main_v299) (V c main_v313) (V c main_v129) (V c main_v304) (rowOf (V c main_v314)))

/-- What point t writes back is block t of the combine. -/
theorem flushed7_eq (c : Dev nD) (t : Fin cfg7.N) :
    (dat7 (F := Ideal) V c).flushed 7 t = ((cfg7.win 7).blk t).view.read (Elt Ideal) (combine7 V c) := by
  show (cfg7.win 7).cut (grid7.coords t) ((dat7 (F := Ideal) V c).after 7 t) = _
  rw [after7_7]
  unfold out7_7
  rw [View.canon_unit_zero zero_off7]
  simp only [View.ld_unit_zero (S := S2000x150) zero_off7, View.ld_unit_zero (S := S150x150) zero_off7, View.ld_unit_zero (S := S1x150) zero_off7]
  obtain ⟨-, -, -, -, -, -, -, ⟨e0, e1⟩⟩ := idx_maps7 t
  have hN : cfg7.N = 1 := N_7
  have ht : t.val < 1 := hN ▸ t.isLt
  refine funext fun (j : S2000x150.Idx) => ?_
  obtain ⟨p, q, rfl⟩ : ∃ (p : Fin 2000) (q : Fin 150), j = ix2 p q := ⟨j 0, j 1, eq_ix2 j⟩
  have hp : p.val < 2000 := p.isLt
  rw [View.read_apply]
  have hi : ((cfg7.win 7).blk t).view.emb (ix2 p q) = (ix2 (⟨t.val * 2000 + p.val, by omega⟩ : Fin 2000) q : S2000x150.Idx) := by
    refine funext fun a => Fin.ext ?_
    match a with
    | ⟨0, _⟩ => show win7_7.index t (0 : Fin 2) * 2000 + 1 * p.val = t.val * 2000 + p.val; omega
    | ⟨1, _⟩ => show win7_7.index t (1 : Fin 2) * 150 + 1 * q.val = q.val; omega
  rw [hi]
  exact pay7_of_blocks (V c main_v276) (V c main_v299) (V c main_v129) (V c main_v311) (V c main_v313) (V c main_v304) (V c main_v314)
    (iblk7 V c 0 t) (iblk7 V c 1 t) (iblk7 V c 2 t) (iblk7 V c 3 t) (iblk7 V c 4 t) (iblk7 V c 5 t) (iblk7 V c 6 t) p q ⟨t.val * 2000 + p.val, by omega⟩
    (fun k => blk7_0 V c t _ _ rfl rfl) (fun k => blk7_1 V c t _)
    (fun k => blk7_2 V c t _ _ rfl rfl) (fun k => blk7_3 V c t _)
    (fun k => blk7_4 V c t _ _ rfl rfl) (fun k => blk7_5 V c t _)
    (blk7_6 V c t _)

/-- An index of the array is in point t's block iff each coordinate is in the block's range on its axis. -/
theorem mem_blk7 (t : Fin cfg7.N) (i : S2000x150.Idx) :
    i ∈ ((cfg7.win 7).blk t).view.set ↔ ∀ a : Fin 2, win7_7.index t a * S2000x150.size a ≤ (i a).val ∧ (i a).val < win7_7.index t a * S2000x150.size a + S2000x150.size a := by
  show i ∈ ((View.whole main_v315).slice (win7_7.rect t)).set ↔ _
  rw [View.set_slice_whole, Rect.mem_set_unit]
  exact Iff.rfl

/-- Row r lies in the block of point r / 2000: the blocks cover the array. -/
theorem cover7 (i : S2000x150.Idx) : ∃ t : Fin cfg7.N, (cfg7.win 7).flush t = true ∧ i ∈ ((cfg7.win 7).blk t).view.set := by
  have hN : cfg7.N = 1 := N_7
  have hi0 : (i 0).val < 2000 := (i 0).isLt
  have hi1 : (i 1).val < 150 := (i 1).isLt
  obtain ⟨t, ht⟩ : ∃ t : Fin cfg7.N, t.val = (i 0).val / 2000 := ⟨⟨(i 0).val / 2000, by rw [hN]; omega⟩, rfl⟩
  obtain ⟨-, -, -, -, -, -, -, ⟨e0, e1⟩⟩ := idx_maps7 t
  refine ⟨t, flush7_7 t, ?_⟩
  rw [mem_blk7]
  intro a
  match a with
  | ⟨0, _⟩ => show win7_7.index t (0 : Fin 2) * 2000 ≤ (i 0).val ∧ (i 0).val < win7_7.index t (0 : Fin 2) * 2000 + 2000; omega
  | ⟨1, _⟩ => show win7_7.index t (1 : Fin 2) * 150 ≤ (i 1).val ∧ (i 1).val < win7_7.index t (1 : Fin 2) * 150 + 150; omega

/-- THE ARRAY after the region: the combine of the seven input arrays as the region finds them. -/
theorem final7 (c : Dev nD) :
    (dat7 (F := Ideal) V c).arrAt 7 cfg7.N = relu (sageK (M := 2000) (K := 150) (N := 150) (V c main_v276) (V c main_v311) (V c main_v299) (V c main_v313) (V c main_v129) (V c main_v304) (rowOf (V c main_v314))) :=
  (dat7 (F := Ideal) V c).arrAt_eq_of_cover 7 (combine7 V c) (fun t _ => flushed7_eq V c t) cover7

end

end Cert.KernelIdeal.Val

end
-- ==== Proof.Region8.lean ====
/-
  The two-relation neighbourhood combine on 20000 rows, in blocks of 5000 rows over a grid of size 4: every block of
  the result is the same block of relu ((a1 · w1 + a2 · w2 + xd · wr) + b), the three 150-by-150 weights and the bias row
  read whole at every point; the blocks tile the rows, so the whole result array is that one function of the seven inputs.
-/
import proofs.«141689_j63058709840619_1_alg».proof.Proof.FrameKI
import proofs.«141689_j63058709840619_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Cert.KernelIdeal Cert.KernelIdeal.Gen Cert.KernelIdeal.GenP Cert.Spec

/-! ## The body's payload at an index -/

/-- The left operand of a product is read at the result's row on axis 0. -/
theorem lhs8_0 (i : S5000x150.Idx) (q : dot_S5000x150_S150x150_S5000x150_1_0_0_1_n_n.contr.Idx) :
    (dot_S5000x150_S150x150_S5000x150_1_0_0_1_n_n.lhsIdx i q 0).val = (i 0).val := by
  unfold DotDims.lhsIdx
  rw [dif_neg (show ¬(0 : Fin S5000x150.rank) ∈ dot_S5000x150_S150x150_S5000x150_1_0_0_1_n_n.lhsBatch by decide), dif_pos (show (0 : Fin S5000x150.rank) ∈ dot_S5000x150_S150x150_S5000x150_1_0_0_1_n_n.lhsNonContracting by decide)]
  rfl
/-- The left operand of a product is read at the contraction position on axis 1. -/
theorem lhs8_1 (i : S5000x150.Idx) (q : dot_S5000x150_S150x150_S5000x150_1_0_0_1_n_n.contr.Idx) :
    (dot_S5000x150_S150x150_S5000x150_1_0_0_1_n_n.lhsIdx i q 1).val = (q ⟨0, by decide⟩).val :=
  dot_S5000x150_S150x150_S5000x150_1_0_0_1_n_n.lhsIdx_val_of_single rfl i q
/-- The right operand of a product is read at the contraction position on axis 0. -/
theorem rhs8_0 (i : S5000x150.Idx) (q : dot_S5000x150_S150x150_S5000x150_1_0_0_1_n_n.contr.Idx) :
    (dot_S5000x150_S150x150_S5000x150_1_0_0_1_n_n.rhsIdx i q 0).val = (q ⟨0, by decide⟩).val :=
  dot_S5000x150_S150x150_S5000x150_1_0_0_1_n_n.rhsIdx_val_of_single rfl i q
/-- The right operand of a product is read at the result's column on axis 1. -/
theorem rhs8_1 (i : S5000x150.Idx) (q : dot_S5000x150_S150x150_S5000x150_1_0_0_1_n_n.contr.Idx) :
    (dot_S5000x150_S150x150_S5000x150_1_0_0_1_n_n.rhsIdx i q 1).val = (i 1).val := by
  unfold DotDims.rhsIdx
  rw [dif_neg (show ¬(1 : Fin S150x150.rank) ∈ dot_S5000x150_S150x150_S5000x150_1_0_0_1_n_n.rhsBatch by decide), dif_pos (show (1 : Fin S150x150.rank) ∈ dot_S5000x150_S150x150_S5000x150_1_0_0_1_n_n.rhsNonContracting by decide)]
  rfl

/-- One product of the body into a zero accumulator, read at (p, q): the sum over k of x(p, k) · w(k, q). -/
theorem mm8_apply (x : FVec Ideal S5000x150 .bf16) (w : FVec Ideal S150x150 .bf16) (p : Fin 5000) (q : Fin 150) :
    matmul dot_S5000x150_S150x150_S5000x150_1_0_0_1_n_n none x w (constant (F := Ideal) S5000x150 .f32 0x00000000#32) (ix2 p q)
      = ∑ k : Fin 150, x (ix2 p k) * w (ix2 k q) := by
  show FloatOps.matmul dot_S5000x150_S150x150_S5000x150_1_0_0_1_n_n none x w (constant (F := Ideal) S5000x150 .f32 0x00000000#32) (ix2 p q) = _
  rw [Ideal.matmul_constant_zero_apply, ← Equiv.sum_comp (ValueIdx.contrEquiv1 dot_S5000x150_S150x150_S5000x150_1_0_0_1_n_n 150 rfl rfl).symm]
  refine Finset.sum_congr rfl fun k _ => ?_
  have hk := ValueIdx.contrEquiv1_symm_val dot_S5000x150_S150x150_S5000x150_1_0_0_1_n_n 150 rfl rfl k
  have el : dot_S5000x150_S150x150_S5000x150_1_0_0_1_n_n.lhsIdx (ix2 p q) ((ValueIdx.contrEquiv1 dot_S5000x150_S150x150_S5000x150_1_0_0_1_n_n 150 rfl rfl).symm k) = ix2 p k := funext fun a => Fin.ext (by
    match a with
    | ⟨0, _⟩ => exact lhs8_0 _ _
    | ⟨1, _⟩ => exact (lhs8_1 _ _).trans hk)
  have er : dot_S5000x150_S150x150_S5000x150_1_0_0_1_n_n.rhsIdx (ix2 p q) ((ValueIdx.contrEquiv1 dot_S5000x150_S150x150_S5000x150_1_0_0_1_n_n 150 rfl rfl).symm k) = ix2 k q := funext fun a => Fin.ext (by
    match a with
    | ⟨0, _⟩ => exact (rhs8_0 _ _).trans hk
    | ⟨1, _⟩ => exact rhs8_1 _ _)
  rw [el, er]

/-- The body's payload at (p, q): the three products summed left to right, plus the bias row at q, clipped below at zero. -/
theorem pay8_apply (x0 : Vec Ideal S5000x150 .f32) (x1 : Vec Ideal S150x150 .f32) (x2 : Vec Ideal S5000x150 .f32) (x3 : Vec Ideal S150x150 .f32)
    (x4 : Vec Ideal S5000x150 .f32) (x5 : Vec Ideal S150x150 .f32) (x6 : Vec Ideal S1x150 .f32) (p : Fin 5000) (q : Fin 150) :
    k8_pay1 x0 x1 x2 x3 x4 x5 x6 (ix2 p q)
      = max (((∑ k : Fin 150, x0 (ix2 p k) * x1 (ix2 k q)) + (∑ k : Fin 150, x2 (ix2 p k) * x3 (ix2 k q))
          + (∑ k : Fin 150, x4 (ix2 p k) * x5 (ix2 k q))) + x6 (ix2 (0 : Fin 1) q)) 0 := by
  unfold k8_pay1
  simp only [shapeCast_self]
  rw [maximumf_apply, addf_apply, addf_apply, addf_apply, mm8_apply, mm8_apply, mm8_apply, broadcastTo_1b_ab_apply, broadcast_apply]
  simp only [truncf_apply]
  rw [Ideal.ofBits_def, Ideal.ofBits_zero_f32]

/-- The payload of blocks that are the arrays' entries at row `r` is the combine of the arrays at (r, q). -/
theorem pay8_of_blocks (a1 a2 xd : Mat 20000 150) (w1 w2 wr : Mat 150 150) (b : Mat 1 150)
    (x0 : Vec Ideal S5000x150 .f32) (x1 : Vec Ideal S150x150 .f32) (x2 : Vec Ideal S5000x150 .f32) (x3 : Vec Ideal S150x150 .f32)
    (x4 : Vec Ideal S5000x150 .f32) (x5 : Vec Ideal S150x150 .f32) (x6 : Vec Ideal S1x150 .f32) (p : Fin 5000) (q : Fin 150) (r : Fin 20000)
    (h0 : ∀ k : Fin 150, x0 (ix2 p k) = a1 (ix2 r k)) (h1 : ∀ k : Fin 150, x1 (ix2 k q) = w1 (ix2 k q))
    (h2 : ∀ k : Fin 150, x2 (ix2 p k) = a2 (ix2 r k)) (h3 : ∀ k : Fin 150, x3 (ix2 k q) = w2 (ix2 k q))
    (h4 : ∀ k : Fin 150, x4 (ix2 p k) = xd (ix2 r k)) (h5 : ∀ k : Fin 150, x5 (ix2 k q) = wr (ix2 k q))
    (h6 : x6 (ix2 (0 : Fin 1) q) = b (ix2 (0 : Fin 1) q)) :
    k8_pay1 x0 x1 x2 x3 x4 x5 x6 (ix2 p q) = relu (sageK a1 w1 a2 w2 xd wr (rowOf b)) (ix2 r q) := by
  rw [pay8_apply]
  simp only [h0, h1, h2, h3, h4, h5, h6]
  rfl

/-! ## From blocks to the array -/

section
variable (V : (c : Dev nD) → (b : Ref sig .tc) → Buf (Elt Ideal) ((c : Thread nD τ).loc b))

theorem zero_off8 : (![0, 0] : Fin 2 → Nat) = fun _ => 0 := funext fun a => by fin_cases a <;> rfl

/-- The index maps, decided over the grid: the row-tiled windows (a1, a2, xd and the result) sit at block (t, 0), the
    weights and the bias at block (0, 0). -/
theorem idx_maps8 : ∀ t : Fin cfg8.N,
    (win8_0.index t (0 : Fin 2) = t.val ∧ win8_0.index t (1 : Fin 2) = 0)
    ∧ (win8_1.index t (0 : Fin 2) = 0 ∧ win8_1.index t (1 : Fin 2) = 0)
    ∧ (win8_2.index t (0 : Fin 2) = t.val ∧ win8_2.index t (1 : Fin 2) = 0)
    ∧ (win8_3.index t (0 : Fin 2) = 0 ∧ win8_3.index t (1 : Fin 2) = 0)
    ∧ (win8_4.index t (0 : Fin 2) = t.val ∧ win8_4.index t (1 : Fin 2) = 0)
    ∧ (win8_5.index t (0 : Fin 2) = 0 ∧ win8_5.index t (1 : Fin 2) = 0)
    ∧ (win8_6.index t (0 : Fin 2) = 0 ∧ win8_6.index t (1 : Fin 2) = 0)
    ∧ (win8_7.index t (0 : Fin 2) = t.val ∧ win8_7.index t (1 : Fin 2) = 0) :=
  (by decide +kernel : ∀ t : Fin grid8.N, _)

/-- Block t of a1 is the 5000 rows of it from row 5000 t on. -/
theorem blk8_0 (c : Dev nD) (t : Fin cfg8.N) (y : S5000x150.Idx) (i : S20000x150.Idx)
    (h0 : (i 0).val = t.val * 5000 + (y 0).val) (h1 : (i 1).val = (y 1).val) :
    (iblk8 V c 0 t : Vec Ideal S5000x150 .f32) y = (V c main_v338 : Mat 20000 150) i := by
  obtain ⟨⟨e0, e1⟩, -⟩ := idx_maps8 t
  unfold iblk8
  rw [View.read_apply]
  show V c main_v338 (((cfg8.win 0).blk t).view.emb y) = V c main_v338 i
  refine congrArg _ (funext fun a => Fin.ext ?_)
  match a with
  | ⟨0, _⟩ => show win8_0.index t (0 : Fin 2) * 5000 + 1 * (y 0).val = (i 0).val; omega
  | ⟨1, _⟩ => show win8_0.index t (1 : Fin 2) * 150 + 1 * (y 1).val = (i 1).val; omega

/-- The one block of w1 is the whole of it. -/
theorem blk8_1 (c : Dev nD) (t : Fin cfg8.N) (y : S150x150.Idx) :
    (iblk8 V c 1 t : Vec Ideal S150x150 .f32) y = (V c main_v373 : Mat 150 150) y := by
  obtain ⟨-, ⟨e0, e1⟩, -⟩ := idx_maps8 t
  unfold iblk8
  rw [View.read_apply]
  show V c main_v373 (((cfg8.win 1).blk t).view.emb y) = V c main_v373 y
  refine congrArg _ (funext fun a => Fin.ext ?_)
  match a with
  | ⟨0, _⟩ => show win8_1.index t (0 : Fin 2) * 150 + 1 * (y 0).val = (y 0).val; omega
  | ⟨1, _⟩ => show win8_1.index t (1 : Fin 2) * 150 + 1 * (y 1).val = (y 1).val; omega

/-- Block t of a2 is the 5000 rows of it from row 5000 t on. -/
theorem blk8_2 (c : Dev nD) (t : Fin cfg8.N) (y : S5000x150.Idx) (i : S20000x150.Idx)
    (h0 : (i 0).val = t.val * 5000 + (y 0).val) (h1 : (i 1).val = (y 1).val) :
    (iblk8 V c 2 t : Vec Ideal S5000x150 .f32) y = (V c main_v361 : Mat 20000 150) i := by
  obtain ⟨-, -, ⟨e0, e1⟩, -⟩ := idx_maps8 t
  unfold iblk8
  rw [View.read_apply]
  show V c main_v361 (((cfg8.win 2).blk t).view.emb y) = V c main_v361 i
  refine congrArg _ (funext fun a => Fin.ext ?_)
  match a with
  | ⟨0, _⟩ => show win8_2.index t (0 : Fin 2) * 5000 + 1 * (y 0).val = (i 0).val; omega
  | ⟨1, _⟩ => show win8_2.index t (1 : Fin 2) * 150 + 1 * (y 1).val = (i 1).val; omega

/-- The one block of w2 is the whole of it. -/
theorem blk8_3 (c : Dev nD) (t : Fin cfg8.N) (y : S150x150.Idx) :
    (iblk8 V c 3 t : Vec Ideal S150x150 .f32) y = (V c main_v375 : Mat 150 150) y := by
  obtain ⟨-, -, -, ⟨e0, e1⟩, -⟩ := idx_maps8 t
  unfold iblk8
  rw [View.read_apply]
  show V c main_v375 (((cfg8.win 3).blk t).view.emb y) = V c main_v375 y
  refine congrArg _ (funext fun a => Fin.ext ?_)
  match a with
  | ⟨0, _⟩ => show win8_3.index t (0 : Fin 2) * 150 + 1 * (y 0).val = (y 0).val; omega
  | ⟨1, _⟩ => show win8_3.index t (1 : Fin 2) * 150 + 1 * (y 1).val = (y 1).val; omega

/-- Block t of xd is the 5000 rows of it from row 5000 t on. -/
theorem blk8_4 (c : Dev nD) (t : Fin cfg8.N) (y : S5000x150.Idx) (i : S20000x150.Idx)
    (h0 : (i 0).val = t.val * 5000 + (y 0).val) (h1 : (i 1).val = (y 1).val) :
    (iblk8 V c 4 t : Vec Ideal S5000x150 .f32) y = (V c main_v191 : Mat 20000 150) i := by
  obtain ⟨-, -, -, -, ⟨e0, e1⟩, -⟩ := idx_maps8 t
  unfold iblk8
  rw [View.read_apply]
  show V c main_v191 (((cfg8.win 4).blk t).view.emb y) = V c main_v191 i
  refine congrArg _ (funext fun a => Fin.ext ?_)
  match a with
  | ⟨0, _⟩ => show win8_4.index t (0 : Fin 2) * 5000 + 1 * (y 0).val = (i 0).val; omega
  | ⟨1, _⟩ => show win8_4.index t (1 : Fin 2) * 150 + 1 * (y 1).val = (i 1).val; omega

/-- The one block of wr is the whole of it. -/
theorem blk8_5 (c : Dev nD) (t : Fin cfg8.N) (y : S150x150.Idx) :
    (iblk8 V c 5 t : Vec Ideal S150x150 .f32) y = (V c main_v366 : Mat 150 150) y := by
  obtain ⟨-, -, -, -, -, ⟨e0, e1⟩, -⟩ := idx_maps8 t
  unfold iblk8
  rw [View.read_apply]
  show V c main_v366 (((cfg8.win 5).blk t).view.emb y) = V c main_v366 y
  refine congrArg _ (funext fun a => Fin.ext ?_)
  match a with
  | ⟨0, _⟩ => show win8_5.index t (0 : Fin 2) * 150 + 1 * (y 0).val = (y 0).val; omega
  | ⟨1, _⟩ => show win8_5.index t (1 : Fin 2) * 150 + 1 * (y 1).val = (y 1).val; omega

/-- The one block of the bias is the whole of it. -/
theorem blk8_6 (c : Dev nD) (t : Fin cfg8.N) (y : S1x150.Idx) :
    (iblk8 V c 6 t : Vec Ideal S1x150 .f32) y = (V c main_v376 : Mat 1 150) y := by
  obtain ⟨-, -, -, -, -, -, ⟨e0, e1⟩, -⟩ := idx_maps8 t
  unfold iblk8
  rw [View.read_apply]
  show V c main_v376 (((cfg8.win 6).blk t).view.emb y) = V c main_v376 y
  refine congrArg _ (funext fun a => Fin.ext ?_)
  match a with
  | ⟨0, _⟩ => show win8_6.index t (0 : Fin 2) * 1 + 1 * (y 0).val = (y 0).val; omega
  | ⟨1, _⟩ => show win8_6.index t (1 : Fin 2) * 150 + 1 * (y 1).val = (y 1).val; omega

/-- The combine of the seven arrays as the region finds them. -/
abbrev combine8 (c : Dev nD) : Mat 20000 150 :=
  relu (sageK (M := 20000) (K := 150) (N := 150) (V c main_v338) (V c main_v373) (V c main_v361) (V c main_v375) (V c main_v191) (V c main_v366) (rowOf (V c main_v376)))

/-- What point t writes back is block t of the combine. -/
theorem flushed8_eq (c : Dev nD) (t : Fin cfg8.N) :
    (dat8 (F := Ideal) V c).flushed 7 t = ((cfg8.win 7).blk t).view.read (Elt Ideal) (combine8 V c) := by
  show (cfg8.win 7).cut (grid8.coords t) ((dat8 (F := Ideal) V c).after 7 t) = _
  rw [after8_7]
  unfold out8_7
  rw [View.canon_unit_zero zero_off8]
  simp only [View.ld_unit_zero (S := S5000x150) zero_off8, View.ld_unit_zero (S := S150x150) zero_off8, View.ld_unit_zero (S := S1x150) zero_off8]
  obtain ⟨-, -, -, -, -, -, -, ⟨e0, e1⟩⟩ := idx_maps8 t
  have hN : cfg8.N = 4 := N_8
  have ht : t.val < 4 := hN ▸ t.isLt
  refine funext fun (j : S5000x150.Idx) => ?_
  obtain ⟨p, q, rfl⟩ : ∃ (p : Fin 5000) (q : Fin 150), j = ix2 p q := ⟨j 0, j 1, eq_ix2 j⟩
  have hp : p.val < 5000 := p.isLt
  rw [View.read_apply]
  have hi : ((cfg8.win 7).blk t).view.emb (ix2 p q) = (ix2 (⟨t.val * 5000 + p.val, by omega⟩ : Fin 20000) q : S20000x150.Idx) := by
    refine funext fun a => Fin.ext ?_
    match a with
    | ⟨0, _⟩ => show win8_7.index t (0 : Fin 2) * 5000 + 1 * p.val = t.val * 5000 + p.val; omega
    | ⟨1, _⟩ => show win8_7.index t (1 : Fin 2) * 150 + 1 * q.val = q.val; omega
  rw [hi]
  exact pay8_of_blocks (V c main_v338) (V c main_v361) (V c main_v191) (V c main_v373) (V c main_v375) (V c main_v366) (V c main_v376)
    (iblk8 V c 0 t) (iblk8 V c 1 t) (iblk8 V c 2 t) (iblk8 V c 3 t) (iblk8 V c 4 t) (iblk8 V c 5 t) (iblk8 V c 6 t) p q ⟨t.val * 5000 + p.val, by omega⟩
    (fun k => blk8_0 V c t _ _ rfl rfl) (fun k => blk8_1 V c t _)
    (fun k => blk8_2 V c t _ _ rfl rfl) (fun k => blk8_3 V c t _)
    (fun k => blk8_4 V c t _ _ rfl rfl) (fun k => blk8_5 V c t _)
    (blk8_6 V c t _)

/-- An index of the array is in point t's block iff each coordinate is in the block's range on its axis. -/
theorem mem_blk8 (t : Fin cfg8.N) (i : S20000x150.Idx) :
    i ∈ ((cfg8.win 7).blk t).view.set ↔ ∀ a : Fin 2, win8_7.index t a * S5000x150.size a ≤ (i a).val ∧ (i a).val < win8_7.index t a * S5000x150.size a + S5000x150.size a := by
  show i ∈ ((View.whole main_v377).slice (win8_7.rect t)).set ↔ _
  rw [View.set_slice_whole, Rect.mem_set_unit]
  exact Iff.rfl

/-- Row r lies in the block of point r / 5000: the blocks cover the array. -/
theorem cover8 (i : S20000x150.Idx) : ∃ t : Fin cfg8.N, (cfg8.win 7).flush t = true ∧ i ∈ ((cfg8.win 7).blk t).view.set := by
  have hN : cfg8.N = 4 := N_8
  have hi0 : (i 0).val < 20000 := (i 0).isLt
  have hi1 : (i 1).val < 150 := (i 1).isLt
  obtain ⟨t, ht⟩ : ∃ t : Fin cfg8.N, t.val = (i 0).val / 5000 := ⟨⟨(i 0).val / 5000, by rw [hN]; omega⟩, rfl⟩
  obtain ⟨-, -, -, -, -, -, -, ⟨e0, e1⟩⟩ := idx_maps8 t
  refine ⟨t, flush8_7 t, ?_⟩
  rw [mem_blk8]
  intro a
  match a with
  | ⟨0, _⟩ => show win8_7.index t (0 : Fin 2) * 5000 ≤ (i 0).val ∧ (i 0).val < win8_7.index t (0 : Fin 2) * 5000 + 5000; omega
  | ⟨1, _⟩ => show win8_7.index t (1 : Fin 2) * 150 ≤ (i 1).val ∧ (i 1).val < win8_7.index t (1 : Fin 2) * 150 + 150; omega

/-- THE ARRAY after the region: the combine of the seven input arrays as the region finds them. -/
theorem final8 (c : Dev nD) :
    (dat8 (F := Ideal) V c).arrAt 7 cfg8.N = relu (sageK (M := 20000) (K := 150) (N := 150) (V c main_v338) (V c main_v373) (V c main_v361) (V c main_v375) (V c main_v191) (V c main_v366) (rowOf (V c main_v376))) :=
  (dat8 (F := Ideal) V c).arrAt_eq_of_cover 7 (combine8 V c) (fun t _ => flushed8_eq V c t) cover8

end

end Cert.KernelIdeal.Val

end
-- ==== Proof.KStage2.lean ====
/-
  The node features after the second round of neighbourhood combines (4 to 6 of 7) as the kernel program computes them:
  at the exit of each region its output array is the clipped combine of the model. The two neighbourhood means, the
  two slices of the stacked weights, the sum of the two root weights and the reshaped sum of the two biases reach the
  region as buffers the host stretch before it computes from earlier regions' outputs and from the arguments; the
  destination features are an earlier region's output, unchanged since that region's exit.
-/
import proofs.«141689_j63058709840619_1_alg».proof.Proof.KStage1
import proofs.«141689_j63058709840619_1_alg».proof.Proof.FrameKI
import proofs.«141689_j63058709840619_1_alg».proof.Proof.Model
import proofs.«141689_j63058709840619_1_alg».proof.Proof.Region6
import proofs.«141689_j63058709840619_1_alg».proof.Proof.Region7
import proofs.«141689_j63058709840619_1_alg».proof.Proof.Region8
import proofs.«141689_j63058709840619_1_alg».proof.Proof.TransportB
import proofs.«141689_j63058709840619_1_alg».proof.Proof.TransportC
import proofs.«141689_j63058709840619_1_alg».proof.Proof.TransportE
import proofs.«141689_j63058709840619_1_alg».proof.Proof.KHost6
import proofs.«141689_j63058709840619_1_alg».proof.Proof.KHost7
import proofs.«141689_j63058709840619_1_alg».proof.Proof.KHost8

set_option maxRecDepth 16384

noncomputable section

namespace Cert.KernelIdeal.Val

open Idealize.ShloMosaic Idealize.ShloMosaic.TcCoe Idealize.SL.Sem
open Cert.KernelIdeal Cert.KernelIdeal.Gen Cert.KernelIdeal.GenP Cert.Spec

variable (m : (ℓ : Loc nD τ sig) → Buf (Elt Ideal) ℓ) (ρ : Dev nD → PrngReg)

/-- At the exit of region 6 its output array is the first node type's features after combine 4 of 7. -/
theorem k_XL2 (c : Dev nD) (a : ArgVals) (hk : KHolds m c a) :
    W14 m ρ c (Proc.devRef .tc main_v253) = XL2 a := by
  have e1 : V13 m ρ c main_v214 = kh6_v214 (XP1 a) a.e_lpi :=
    (kh6_v214_eq (W12 m ρ c)).trans (congrArg₂ kh6_v214 (k_XP1 m ρ c a hk) ((at_main_arg24_12 m ρ c).trans hk.h24))
  have e2 : V13 m ρ c main_v249 = kh6_v249 a.Wl :=
    (kh6_v249_eq (W12 m ρ c)).trans (congrArg kh6_v249 ((at_main_arg9_12 m ρ c).trans hk.h9))
  have e3 : V13 m ρ c main_v237 = kh6_v237 (XM1 a) a.e_lmi :=
    (kh6_v237_eq (W12 m ρ c)).trans (congrArg₂ kh6_v237 ((at_main_v129_12 m ρ c).trans (k_XM1 m ρ c a hk)) ((at_main_arg25_12 m ρ c).trans hk.h25))
  have e4 : V13 m ρ c main_v251 = kh6_v251 a.Wl :=
    (kh6_v251_eq (W12 m ρ c)).trans (congrArg kh6_v251 ((at_main_arg9_12 m ρ c).trans hk.h9))
  have e5 : V13 m ρ c main_v67 = XL1 a := (at_main_v67_13 m ρ c).trans (k_XL1 m ρ c a hk)
  have e6 : V13 m ρ c main_v242 = addf (kh6_v239 a.Wr) (kh6_v241 a.Wr) :=
    ((kh6_v242_eq (W12 m ρ c)).trans (congrArg kh6_v242 ((at_main_arg11_12 m ρ c).trans hk.h11))).trans (kh6_v242_parts a.Wr)
  have e7 : V13 m ρ c main_v252 = shapeCast (⟨2, ![1, 150]⟩ : Shape) (addf (kh6_v244 a.bl) (kh6_v246 a.bl)) hs150 :=
    ((kh6_v252_eq (W12 m ρ c)).trans (congrArg kh6_v252 ((at_main_arg10_12 m ρ c).trans hk.h10))).trans (kh6_v252_parts a.bl)
  refine ((W14_arr m ρ c 7).trans (final6 (V13 m ρ) c)).trans ?_
  exact relu_congr (sageK_congr e1 e2 e3 e4 e5 e6 (congrArg rowOf e7))

/-- At the exit of region 7 its output array is the second node type's features after combine 5 of 7. -/
theorem k_XM2 (c : Dev nD) (a : ArgVals) (hk : KHolds m c a) :
    W16 m ρ c (Proc.devRef .tc main_v315) = XM2 a := by
  have e1 : V15 m ρ c main_v276 = kh7_v276 (XL1 a) a.e_lmi :=
    (kh7_v276_eq (W14 m ρ c)).trans (congrArg₂ kh7_v276 ((at_main_v67_14 m ρ c).trans (k_XL1 m ρ c a hk)) ((at_main_arg25_14 m ρ c).trans hk.h25))
  have e2 : V15 m ρ c main_v311 = kh7_v311 a.Wl :=
    (kh7_v311_eq (W14 m ρ c)).trans (congrArg kh7_v311 ((at_main_arg9_14 m ρ c).trans hk.h9))
  have e3 : V15 m ρ c main_v299 = kh7_v299 (XP1 a) a.e_mpi :=
    (kh7_v299_eq (W14 m ρ c)).trans (congrArg₂ kh7_v299 ((at_main_v191_14 m ρ c).trans (k_XP1 m ρ c a hk)) ((at_main_arg26_14 m ρ c).trans hk.h26))
  have e4 : V15 m ρ c main_v313 = kh7_v313 a.Wl :=
    (kh7_v313_eq (W14 m ρ c)).trans (congrArg kh7_v313 ((at_main_arg9_14 m ρ c).trans hk.h9))
  have e5 : V15 m ρ c main_v129 = XM1 a := (at_main_v129_15 m ρ c).trans (k_XM1 m ρ c a hk)
  have e6 : V15 m ρ c main_v304 = addf (kh7_v301 a.Wr) (kh7_v303 a.Wr) :=
    ((kh7_v304_eq (W14 m ρ c)).trans (congrArg kh7_v304 ((at_main_arg11_14 m ρ c).trans hk.h11))).trans (kh7_v304_parts a.Wr)
  have e7 : V15 m ρ c main_v314 = shapeCast (⟨2, ![1, 150]⟩ : Shape) (addf (kh7_v306 a.bl) (kh7_v308 a.bl)) hs150 :=
    ((kh7_v314_eq (W14 m ρ c)).trans (congrArg kh7_v314 ((at_main_arg10_14 m ρ c).trans hk.h10))).trans (kh7_v314_parts a.bl)
  refine ((W16_arr m ρ c 7).trans (final7 (V15 m ρ) c)).trans ?_
  exact relu_congr (sageK_congr e1 e2 e3 e4 e5 e6 (congrArg rowOf e7))

/-- At the exit of region 8 its output array is the third node type's features after combine 6 of 7. -/
theorem k_XP2 (c : Dev nD) (a : ArgVals) (hk : KHolds m c a) :
    W18 m ρ c (Proc.devRef .tc main_v377) = XP2 a := by
  have e1 : V17 m ρ c main_v338 = kh8_v338 (XL1 a) a.e_lpi :=
    (kh8_v338_eq (W16 m ρ c)).trans (congrArg₂ kh8_v338 ((at_main_v67_16 m ρ c).trans (k_XL1 m ρ c a hk)) ((at_main_arg24_16 m ρ c).trans hk.h24))
  have e2 : V17 m ρ c main_v373 = kh8_v373 a.Wl :=
    (kh8_v373_eq (W16 m ρ c)).trans (congrArg kh8_v373 ((at_main_arg9_16 m ρ c).trans hk.h9))
  have e3 : V17 m ρ c main_v361 = kh8_v361 (XM1 a) a.e_mpi :=
    (kh8_v361_eq (W16 m ρ c)).trans (congrArg₂ kh8_v361 ((at_main_v129_16 m ρ c).trans (k_XM1 m ρ c a hk)) ((at_main_arg26_16 m ρ c).trans hk.h26))
  have e4 : V17 m ρ c main_v375 = kh8_v375 a.Wl :=
    (kh8_v375_eq (W16 m ρ c)).trans (congrArg kh8_v375 ((at_main_arg9_16 m ρ c).trans hk.h9))
  have e5 : V17 m ρ c main_v191 = XP1 a := (at_main_v191_17 m ρ c).trans (k_XP1 m ρ c a hk)
  have e6 : V17 m ρ c main_v366 = addf (kh8_v363 a.Wr) (kh8_v365 a.Wr) :=
    ((kh8_v366_eq (W16 m ρ c)).trans (congrArg kh8_v366 ((at_main_arg11_16 m ρ c).trans hk.h11))).trans (kh8_v366_parts a.Wr)
  have e7 : V17 m ρ c main_v376 = shapeCast (⟨2, ![1, 150]⟩ : Shape) (addf (kh8_v368 a.bl) (kh8_v370 a.bl)) hs150 :=
    ((kh8_v376_eq (W16 m ρ c)).trans (congrArg kh8_v376 ((at_main_arg10_16 m ρ c).trans hk.h10))).trans (kh8_v376_parts a.bl)
  refine ((W18_arr m ρ c 7).trans (final8 (V17 m ρ) c)).trans ?_
  exact relu_congr (sageK_congr e1 e2 e3 e4 e5 e6 (congrArg rowOf e7))

end Cert.KernelIdeal.Val

end
-- ==== Proof.Region9.lean ====
/-
  The two-relation neighbourhood combine on 20000 rows, in blocks of 5000 rows over a grid of size 4: every block of
  the result is the same block of (a1 · w1 + a2 · w2 + xd · wr) + b, the three 150-by-150 weights and the bias row
  read whole at every point; the blocks tile the rows, so the whole result array is that one function of the seven inputs.
-/
import proofs.«141689_j63058709840619_1_alg».proof.Proof.FrameKI
import proofs.«141689_j63058709840619_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Cert.KernelIdeal Cert.KernelIdeal.Gen Cert.KernelIdeal.GenP Cert.Spec

/-! ## The body's payload at an index -/

/-- The left operand of a product is read at the result's row on axis 0. -/
theorem lhs9_0 (i : S5000x150.Idx) (q : dot_S5000x150_S150x150_S5000x150_1_0_0_1_n_n.contr.Idx) :
    (dot_S5000x150_S150x150_S5000x150_1_0_0_1_n_n.lhsIdx i q 0).val = (i 0).val := by
  unfold DotDims.lhsIdx
  rw [dif_neg (show ¬(0 : Fin S5000x150.rank) ∈ dot_S5000x150_S150x150_S5000x150_1_0_0_1_n_n.lhsBatch by decide), dif_pos (show (0 : Fin S5000x150.rank) ∈ dot_S5000x150_S150x150_S5000x150_1_0_0_1_n_n.lhsNonContracting by decide)]
  rfl
/-- The left operand of a product is read at the contraction position on axis 1. -/
theorem lhs9_1 (i : S5000x150.Idx) (q : dot_S5000x150_S150x150_S5000x150_1_0_0_1_n_n.contr.Idx) :
    (dot_S5000x150_S150x150_S5000x150_1_0_0_1_n_n.lhsIdx i q 1).val = (q ⟨0, by decide⟩).val :=
  dot_S5000x150_S150x150_S5000x150_1_0_0_1_n_n.lhsIdx_val_of_single rfl i q
/-- The right operand of a product is read at the contraction position on axis 0. -/
theorem rhs9_0 (i : S5000x150.Idx) (q : dot_S5000x150_S150x150_S5000x150_1_0_0_1_n_n.contr.Idx) :
    (dot_S5000x150_S150x150_S5000x150_1_0_0_1_n_n.rhsIdx i q 0).val = (q ⟨0, by decide⟩).val :=
  dot_S5000x150_S150x150_S5000x150_1_0_0_1_n_n.rhsIdx_val_of_single rfl i q
/-- The right operand of a product is read at the result's column on axis 1. -/
theorem rhs9_1 (i : S5000x150.Idx) (q : dot_S5000x150_S150x150_S5000x150_1_0_0_1_n_n.contr.Idx) :
    (dot_S5000x150_S150x150_S5000x150_1_0_0_1_n_n.rhsIdx i q 1).val = (i 1).val := by
  unfold DotDims.rhsIdx
  rw [dif_neg (show ¬(1 : Fin S150x150.rank) ∈ dot_S5000x150_S150x150_S5000x150_1_0_0_1_n_n.rhsBatch by decide), dif_pos (show (1 : Fin S150x150.rank) ∈ dot_S5000x150_S150x150_S5000x150_1_0_0_1_n_n.rhsNonContracting by decide)]
  rfl

/-- One product of the body into a zero accumulator, read at (p, q): the sum over k of x(p, k) · w(k, q). -/
theorem mm9_apply (x : FVec Ideal S5000x150 .bf16) (w : FVec Ideal S150x150 .bf16) (p : Fin 5000) (q : Fin 150) :
    matmul dot_S5000x150_S150x150_S5000x150_1_0_0_1_n_n none x w (constant (F := Ideal) S5000x150 .f32 0x00000000#32) (ix2 p q)
      = ∑ k : Fin 150, x (ix2 p k) * w (ix2 k q) := by
  show FloatOps.matmul dot_S5000x150_S150x150_S5000x150_1_0_0_1_n_n none x w (constant (F := Ideal) S5000x150 .f32 0x00000000#32) (ix2 p q) = _
  rw [Ideal.matmul_constant_zero_apply, ← Equiv.sum_comp (ValueIdx.contrEquiv1 dot_S5000x150_S150x150_S5000x150_1_0_0_1_n_n 150 rfl rfl).symm]
  refine Finset.sum_congr rfl fun k _ => ?_
  have hk := ValueIdx.contrEquiv1_symm_val dot_S5000x150_S150x150_S5000x150_1_0_0_1_n_n 150 rfl rfl k
  have el : dot_S5000x150_S150x150_S5000x150_1_0_0_1_n_n.lhsIdx (ix2 p q) ((ValueIdx.contrEquiv1 dot_S5000x150_S150x150_S5000x150_1_0_0_1_n_n 150 rfl rfl).symm k) = ix2 p k := funext fun a => Fin.ext (by
    match a with
    | ⟨0, _⟩ => exact lhs9_0 _ _
    | ⟨1, _⟩ => exact (lhs9_1 _ _).trans hk)
  have er : dot_S5000x150_S150x150_S5000x150_1_0_0_1_n_n.rhsIdx (ix2 p q) ((ValueIdx.contrEquiv1 dot_S5000x150_S150x150_S5000x150_1_0_0_1_n_n 150 rfl rfl).symm k) = ix2 k q := funext fun a => Fin.ext (by
    match a with
    | ⟨0, _⟩ => exact (rhs9_0 _ _).trans hk
    | ⟨1, _⟩ => exact rhs9_1 _ _)
  rw [el, er]

/-- The body's payload at (p, q): the three products summed left to right, plus the bias row at q. -/
theorem pay9_apply (x0 : Vec Ideal S5000x150 .f32) (x1 : Vec Ideal S150x150 .f32) (x2 : Vec Ideal S5000x150 .f32) (x3 : Vec Ideal S150x150 .f32)
    (x4 : Vec Ideal S5000x150 .f32) (x5 : Vec Ideal S150x150 .f32) (x6 : Vec Ideal S1x150 .f32) (p : Fin 5000) (q : Fin 150) :
    k9_pay1 x0 x1 x2 x3 x4 x5 x6 (ix2 p q)
      = ((∑ k : Fin 150, x0 (ix2 p k) * x1 (ix2 k q)) + (∑ k : Fin 150, x2 (ix2 p k) * x3 (ix2 k q))
          + (∑ k : Fin 150, x4 (ix2 p k) * x5 (ix2 k q))) + x6 (ix2 (0 : Fin 1) q) := by
  unfold k9_pay1
  simp only [shapeCast_self]
  rw [addf_apply, addf_apply, addf_apply, mm9_apply, mm9_apply, mm9_apply, broadcastTo_1b_ab_apply]
  simp only [truncf_apply]

/-- The payload of blocks that are the arrays' entries at row `r` is the combine of the arrays at (r, q). -/
theorem pay9_of_blocks (a1 a2 xd : Mat 20000 150) (w1 w2 wr : Mat 150 150) (b : Mat 1 150)
    (x0 : Vec Ideal S5000x150 .f32) (x1 : Vec Ideal S150x150 .f32) (x2 : Vec Ideal S5000x150 .f32) (x3 : Vec Ideal S150x150 .f32)
    (x4 : Vec Ideal S5000x150 .f32) (x5 : Vec Ideal S150x150 .f32) (x6 : Vec Ideal S1x150 .f32) (p : Fin 5000) (q : Fin 150) (r : Fin 20000)
    (h0 : ∀ k : Fin 150, x0 (ix2 p k) = a1 (ix2 r k)) (h1 : ∀ k : Fin 150, x1 (ix2 k q) = w1 (ix2 k q))
    (h2 : ∀ k : Fin 150, x2 (ix2 p k) = a2 (ix2 r k)) (h3 : ∀ k : Fin 150, x3 (ix2 k q) = w2 (ix2 k q))
    (h4 : ∀ k : Fin 150, x4 (ix2 p k) = xd (ix2 r k)) (h5 : ∀ k : Fin 150, x5 (ix2 k q) = wr (ix2 k q))
    (h6 : x6 (ix2 (0 : Fin 1) q) = b (ix2 (0 : Fin 1) q)) :
    k9_pay1 x0 x1 x2 x3 x4 x5 x6 (ix2 p q) = sageK a1 w1 a2 w2 xd wr (rowOf b) (ix2 r q) := by
  rw [pay9_apply]
  simp only [h0, h1, h2, h3, h4, h5, h6]
  rfl

/-! ## From blocks to the array -/

section
variable (V : (c : Dev nD) → (b : Ref sig .tc) → Buf (Elt Ideal) ((c : Thread nD τ).loc b))

theorem zero_off9 : (![0, 0] : Fin 2 → Nat) = fun _ => 0 := funext fun a => by fin_cases a <;> rfl

/-- The index maps, decided over the grid: the row-tiled windows (a1, a2, xd and the result) sit at block (t, 0), the
    weights and the bias at block (0, 0). -/
theorem idx_maps9 : ∀ t : Fin cfg9.N,
    (win9_0.index t (0 : Fin 2) = t.val ∧ win9_0.index t (1 : Fin 2) = 0)
    ∧ (win9_1.index t (0 : Fin 2) = 0 ∧ win9_1.index t (1 : Fin 2) = 0)
    ∧ (win9_2.index t (0 : Fin 2) = t.val ∧ win9_2.index t (1 : Fin 2) = 0)
    ∧ (win9_3.index t (0 : Fin 2) = 0 ∧ win9_3.index t (1 : Fin 2) = 0)
    ∧ (win9_4.index t (0 : Fin 2) = t.val ∧ win9_4.index t (1 : Fin 2) = 0)
    ∧ (win9_5.index t (0 : Fin 2) = 0 ∧ win9_5.index t (1 : Fin 2) = 0)
    ∧ (win9_6.index t (0 : Fin 2) = 0 ∧ win9_6.index t (1 : Fin 2) = 0)
    ∧ (win9_7.index t (0 : Fin 2) = t.val ∧ win9_7.index t (1 : Fin 2) = 0) :=
  (by decide +kernel : ∀ t : Fin grid9.N, _)

/-- Block t of a1 is the 5000 rows of it from row 5000 t on. -/
theorem blk9_0 (c : Dev nD) (t : Fin cfg9.N) (y : S5000x150.Idx) (i : S20000x150.Idx)
    (h0 : (i 0).val = t.val * 5000 + (y 0).val) (h1 : (i 1).val = (y 1).val) :
    (iblk9 V c 0 t : Vec Ideal S5000x150 .f32) y = (V c main_v400 : Mat 20000 150) i := by
  obtain ⟨⟨e0, e1⟩, -⟩ := idx_maps9 t
  unfold iblk9
  rw [View.read_apply]
  show V c main_v400 (((cfg9.win 0).blk t).view.emb y) = V c main_v400 i
  refine congrArg _ (funext fun a => Fin.ext ?_)
  match a with
  | ⟨0, _⟩ => show win9_0.index t (0 : Fin 2) * 5000 + 1 * (y 0).val = (i 0).val; omega
  | ⟨1, _⟩ => show win9_0.index t (1 : Fin 2) * 150 + 1 * (y 1).val = (i 1).val; omega

/-- The one block of w1 is the whole of it. -/
theorem blk9_1 (c : Dev nD) (t : Fin cfg9.N) (y : S150x150.Idx) :
    (iblk9 V c 1 t : Vec Ideal S150x150 .f32) y = (V c main_v435 : Mat 150 150) y := by
  obtain ⟨-, ⟨e0, e1⟩, -⟩ := idx_maps9 t
  unfold iblk9
  rw [View.read_apply]
  show V c main_v435 (((cfg9.win 1).blk t).view.emb y) = V c main_v435 y
  refine congrArg _ (funext fun a => Fin.ext ?_)
  match a with
  | ⟨0, _⟩ => show win9_1.index t (0 : Fin 2) * 150 + 1 * (y 0).val = (y 0).val; omega
  | ⟨1, _⟩ => show win9_1.index t (1 : Fin 2) * 150 + 1 * (y 1).val = (y 1).val; omega

/-- Block t of a2 is the 5000 rows of it from row 5000 t on. -/
theorem blk9_2 (c : Dev nD) (t : Fin cfg9.N) (y : S5000x150.Idx) (i : S20000x150.Idx)
    (h0 : (i 0).val = t.val * 5000 + (y 0).val) (h1 : (i 1).val = (y 1).val) :
    (iblk9 V c 2 t : Vec Ideal S5000x150 .f32) y = (V c main_v423 : Mat 20000 150) i := by
  obtain ⟨-, -, ⟨e0, e1⟩, -⟩ := idx_maps9 t
  unfold iblk9
  rw [View.read_apply]
  show V c main_v423 (((cfg9.win 2).blk t).view.emb y) = V c main_v423 i
  refine congrArg _ (funext fun a => Fin.ext ?_)
  match a with
  | ⟨0, _⟩ => show win9_2.index t (0 : Fin 2) * 5000 + 1 * (y 0).val = (i 0).val; omega
  | ⟨1, _⟩ => show win9_2.index t (1 : Fin 2) * 150 + 1 * (y 1).val = (i 1).val; omega

/-- The one block of w2 is the whole of it. -/
theorem blk9_3 (c : Dev nD) (t : Fin cfg9.N) (y : S150x150.Idx) :
    (iblk9 V c 3 t : Vec Ideal S150x150 .f32) y = (V c main_v437 : Mat 150 150) y := by
  obtain ⟨-, -, -, ⟨e0, e1⟩, -⟩ := idx_maps9 t
  unfold iblk9
  rw [View.read_apply]
  show V c main_v437 (((cfg9.win 3).blk t).view.emb y) = V c main_v437 y
  refine congrArg _ (funext fun a => Fin.ext ?_)
  match a with
  | ⟨0, _⟩ => show win9_3.index t (0 : Fin 2) * 150 + 1 * (y 0).val = (y 0).val; omega
  | ⟨1, _⟩ => show win9_3.index t (1 : Fin 2) * 150 + 1 * (y 1).val = (y 1).val; omega

/-- Block t of xd is the 5000 rows of it from row 5000 t on. -/
theorem blk9_4 (c : Dev nD) (t : Fin cfg9.N) (y : S5000x150.Idx) (i : S20000x150.Idx)
    (h0 : (i 0).val = t.val * 5000 + (y 0).val) (h1 : (i 1).val = (y 1).val) :
    (iblk9 V c 4 t : Vec Ideal S5000x150 .f32) y = (V c main_v377 : Mat 20000 150) i := by
  obtain ⟨-, -, -, -, ⟨e0, e1⟩, -⟩ := idx_maps9 t
  unfold iblk9
  rw [View.read_apply]
  show V c main_v377 (((cfg9.win 4).blk t).view.emb y) = V c main_v377 i
  refine congrArg _ (funext fun a => Fin.ext ?_)
  match a with
  | ⟨0, _⟩ => show win9_4.index t (0 : Fin 2) * 5000 + 1 * (y 0).val = (i 0).val; omega
  | ⟨1, _⟩ => show win9_4.index t (1 : Fin 2) * 150 + 1 * (y 1).val = (i 1).val; omega

/-- The one block of wr is the whole of it. -/
theorem blk9_5 (c : Dev nD) (t : Fin cfg9.N) (y : S150x150.Idx) :
    (iblk9 V c 5 t : Vec Ideal S150x150 .f32) y = (V c main_v428 : Mat 150 150) y := by
  obtain ⟨-, -, -, -, -, ⟨e0, e1⟩, -⟩ := idx_maps9 t
  unfold iblk9
  rw [View.read_apply]
  show V c main_v428 (((cfg9.win 5).blk t).view.emb y) = V c main_v428 y
  refine congrArg _ (funext fun a => Fin.ext ?_)
  match a with
  | ⟨0, _⟩ => show win9_5.index t (0 : Fin 2) * 150 + 1 * (y 0).val = (y 0).val; omega
  | ⟨1, _⟩ => show win9_5.index t (1 : Fin 2) * 150 + 1 * (y 1).val = (y 1).val; omega

/-- The one block of the bias is the whole of it. -/
theorem blk9_6 (c : Dev nD) (t : Fin cfg9.N) (y : S1x150.Idx) :
    (iblk9 V c 6 t : Vec Ideal S1x150 .f32) y = (V c main_v438 : Mat 1 150) y := by
  obtain ⟨-, -, -, -, -, -, ⟨e0, e1⟩, -⟩ := idx_maps9 t
  unfold iblk9
  rw [View.read_apply]
  show V c main_v438 (((cfg9.win 6).blk t).view.emb y) = V c main_v438 y
  refine congrArg _ (funext fun a => Fin.ext ?_)
  match a with
  | ⟨0, _⟩ => show win9_6.index t (0 : Fin 2) * 1 + 1 * (y 0).val = (y 0).val; omega
  | ⟨1, _⟩ => show win9_6.index t (1 : Fin 2) * 150 + 1 * (y 1).val = (y 1).val; omega

/-- The combine of the seven arrays as the region finds them. -/
abbrev combine9 (c : Dev nD) : Mat 20000 150 :=
  sageK (M := 20000) (K := 150) (N := 150) (V c main_v400) (V c main_v435) (V c main_v423) (V c main_v437) (V c main_v377) (V c main_v428) (rowOf (V c main_v438))

/-- What point t writes back is block t of the combine. -/
theorem flushed9_eq (c : Dev nD) (t : Fin cfg9.N) :
    (dat9 (F := Ideal) V c).flushed 7 t = ((cfg9.win 7).blk t).view.read (Elt Ideal) (combine9 V c) := by
  show (cfg9.win 7).cut (grid9.coords t) ((dat9 (F := Ideal) V c).after 7 t) = _
  rw [after9_7]
  unfold out9_7
  rw [View.canon_unit_zero zero_off9]
  simp only [View.ld_unit_zero (S := S5000x150) zero_off9, View.ld_unit_zero (S := S150x150) zero_off9, View.ld_unit_zero (S := S1x150) zero_off9]
  obtain ⟨-, -, -, -, -, -, -, ⟨e0, e1⟩⟩ := idx_maps9 t
  have hN : cfg9.N = 4 := N_9
  have ht : t.val < 4 := hN ▸ t.isLt
  refine funext fun (j : S5000x150.Idx) => ?_
  obtain ⟨p, q, rfl⟩ : ∃ (p : Fin 5000) (q : Fin 150), j = ix2 p q := ⟨j 0, j 1, eq_ix2 j⟩
  have hp : p.val < 5000 := p.isLt
  rw [View.read_apply]
  have hi : ((cfg9.win 7).blk t).view.emb (ix2 p q) = (ix2 (⟨t.val * 5000 + p.val, by omega⟩ : Fin 20000) q : S20000x150.Idx) := by
    refine funext fun a => Fin.ext ?_
    match a with
    | ⟨0, _⟩ => show win9_7.index t (0 : Fin 2) * 5000 + 1 * p.val = t.val * 5000 + p.val; omega
    | ⟨1, _⟩ => show win9_7.index t (1 : Fin 2) * 150 + 1 * q.val = q.val; omega
  rw [hi]
  exact pay9_of_blocks (V c main_v400) (V c main_v423) (V c main_v377) (V c main_v435) (V c main_v437) (V c main_v428) (V c main_v438)
    (iblk9 V c 0 t) (iblk9 V c 1 t) (iblk9 V c 2 t) (iblk9 V c 3 t) (iblk9 V c 4 t) (iblk9 V c 5 t) (iblk9 V c 6 t) p q ⟨t.val * 5000 + p.val, by omega⟩
    (fun k => blk9_0 V c t _ _ rfl rfl) (fun k => blk9_1 V c t _)
    (fun k => blk9_2 V c t _ _ rfl rfl) (fun k => blk9_3 V c t _)
    (fun k => blk9_4 V c t _ _ rfl rfl) (fun k => blk9_5 V c t _)
    (blk9_6 V c t _)

/-- An index of the array is in point t's block iff each coordinate is in the block's range on its axis. -/
theorem mem_blk9 (t : Fin cfg9.N) (i : S20000x150.Idx) :
    i ∈ ((cfg9.win 7).blk t).view.set ↔ ∀ a : Fin 2, win9_7.index t a * S5000x150.size a ≤ (i a).val ∧ (i a).val < win9_7.index t a * S5000x150.size a + S5000x150.size a := by
  show i ∈ ((View.whole main_v439).slice (win9_7.rect t)).set ↔ _
  rw [View.set_slice_whole, Rect.mem_set_unit]
  exact Iff.rfl

/-- Row r lies in the block of point r / 5000: the blocks cover the array. -/
theorem cover9 (i : S20000x150.Idx) : ∃ t : Fin cfg9.N, (cfg9.win 7).flush t = true ∧ i ∈ ((cfg9.win 7).blk t).view.set := by
  have hN : cfg9.N = 4 := N_9
  have hi0 : (i 0).val < 20000 := (i 0).isLt
  have hi1 : (i 1).val < 150 := (i 1).isLt
  obtain ⟨t, ht⟩ : ∃ t : Fin cfg9.N, t.val = (i 0).val / 5000 := ⟨⟨(i 0).val / 5000, by rw [hN]; omega⟩, rfl⟩
  obtain ⟨-, -, -, -, -, -, -, ⟨e0, e1⟩⟩ := idx_maps9 t
  refine ⟨t, flush9_7 t, ?_⟩
  rw [mem_blk9]
  intro a
  match a with
  | ⟨0, _⟩ => show win9_7.index t (0 : Fin 2) * 5000 ≤ (i 0).val ∧ (i 0).val < win9_7.index t (0 : Fin 2) * 5000 + 5000; omega
  | ⟨1, _⟩ => show win9_7.index t (1 : Fin 2) * 150 ≤ (i 1).val ∧ (i 1).val < win9_7.index t (1 : Fin 2) * 150 + 150; omega

/-- THE ARRAY after the region: the combine of the seven input arrays as the region finds them. -/
theorem final9 (c : Dev nD) :
    (dat9 (F := Ideal) V c).arrAt 7 cfg9.N = sageK (M := 20000) (K := 150) (N := 150) (V c main_v400) (V c main_v435) (V c main_v423) (V c main_v437) (V c main_v377) (V c main_v428) (rowOf (V c main_v438)) :=
  (dat9 (F := Ideal) V c).arrAt_eq_of_cover 7 (combine9 V c) (fun t _ => flushed9_eq V c t) cover9

end

end Cert.KernelIdeal.Val

end
-- ==== Proof.Region10.lean ====
/-
  A dense layer clipped below at zero. The output array (50000 × 300) after the last write-back is max(x · w + b, 0),
  entry by entry, for the input x (50000 × 768), the weight w (768 × 300) and the bias row b (1 × 300) as the region
  finds them. The grid has 25 points; point t writes the 2000 rows from row 2000 t on, computed from the same rows
  of x and the whole of w and b, and these row blocks tile the output.
-/
import proofs.«141689_j63058709840619_1_alg».proof.Proof.FrameKI
import proofs.«141689_j63058709840619_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Idealize.ShloMosaic Idealize.ShloMosaic.ValueIdx Cert.KernelIdeal Cert.KernelIdeal.Gen Cert.KernelIdeal.GenP Cert.Spec
open Idealize.ShloMosaic.TcCoe
open Idealize.ShloMosaic.Pipeline (Dat)

/-! ## The body's result at an index -/

/-- Left operand, row axis: the output's row. -/
theorem lhs10_row (j : S2000x300.Idx) (k : dot_S2000x768_S768x300_S2000x300_1_0_0_1_n_n.contr.Idx) :
    (dot_S2000x768_S768x300_S2000x300_1_0_0_1_n_n.lhsIdx j k 0).val = (j 0).val := by
  unfold DotDims.lhsIdx
  rw [dif_neg (show ¬(0 : Fin S2000x768.rank) ∈ dot_S2000x768_S768x300_S2000x300_1_0_0_1_n_n.lhsBatch by decide),
    dif_pos (show (0 : Fin S2000x768.rank) ∈ dot_S2000x768_S768x300_S2000x300_1_0_0_1_n_n.lhsNonContracting by decide)]
  rfl

/-- Left operand, column axis: the contraction position. -/
theorem lhs10_col (j : S2000x300.Idx) (k : dot_S2000x768_S768x300_S2000x300_1_0_0_1_n_n.contr.Idx) :
    (dot_S2000x768_S768x300_S2000x300_1_0_0_1_n_n.lhsIdx j k 1).val = (k ⟨0, by decide⟩).val :=
  dot_S2000x768_S768x300_S2000x300_1_0_0_1_n_n.lhsIdx_val_of_single (cl := 1) rfl j k

/-- Right operand, row axis: the contraction position. -/
theorem rhs10_row (j : S2000x300.Idx) (k : dot_S2000x768_S768x300_S2000x300_1_0_0_1_n_n.contr.Idx) :
    (dot_S2000x768_S768x300_S2000x300_1_0_0_1_n_n.rhsIdx j k 0).val = (k ⟨0, by decide⟩).val :=
  dot_S2000x768_S768x300_S2000x300_1_0_0_1_n_n.rhsIdx_val_of_single (cr := 0) rfl j k

/-- Right operand, column axis: the output's column. -/
theorem rhs10_col (j : S2000x300.Idx) (k : dot_S2000x768_S768x300_S2000x300_1_0_0_1_n_n.contr.Idx) :
    (dot_S2000x768_S768x300_S2000x300_1_0_0_1_n_n.rhsIdx j k 1).val = (j 1).val := by
  unfold DotDims.rhsIdx
  rw [dif_neg (show ¬(1 : Fin S768x300.rank) ∈ dot_S2000x768_S768x300_S2000x300_1_0_0_1_n_n.rhsBatch by decide),
    dif_pos (show (1 : Fin S768x300.rank) ∈ dot_S2000x768_S768x300_S2000x300_1_0_0_1_n_n.rhsNonContracting by decide)]
  rfl

/-- The block product at (p, q): the sum over the 768 shared positions. -/
theorem mm10_apply (a : FVec Ideal S2000x768 .bf16) (b : FVec Ideal S768x300 .bf16) (p : Fin 2000) (q : Fin 300) :
    matmul dot_S2000x768_S768x300_S2000x300_1_0_0_1_n_n none a b (constant (F := Ideal) S2000x300 .f32 0x00000000#32) (ix2 p q)
      = ∑ k : Fin 768, a (ix2 p k) * b (ix2 k q) := by
  show FloatOps.matmul dot_S2000x768_S768x300_S2000x300_1_0_0_1_n_n none a b (constant (F := Ideal) S2000x300 .f32 0x00000000#32) (ix2 p q) = _
  rw [Ideal.matmul_constant_zero_apply,
    ← Equiv.sum_comp (contrEquiv1 dot_S2000x768_S768x300_S2000x300_1_0_0_1_n_n 768 rfl rfl).symm]
  refine Finset.sum_congr rfl fun k _ => ?_
  have hk := contrEquiv1_symm_val dot_S2000x768_S768x300_S2000x300_1_0_0_1_n_n 768 rfl rfl k
  congr 2
  · funext ax; apply Fin.ext
    match ax with
    | ⟨0, _⟩ => exact lhs10_row _ _
    | ⟨1, _⟩ => exact (lhs10_col _ _).trans hk
  · funext ax; apply Fin.ext
    match ax with
    | ⟨0, _⟩ => exact (rhs10_row _ _).trans hk
    | ⟨1, _⟩ => exact rhs10_col _ _

/-- The body's result at (p, q): row p of the x block against column q of w, plus the bias at q, clipped below at zero. -/
theorem pay10_apply (x0 : Vec Ideal S2000x768 .f32) (x1 : Vec Ideal S768x300 .f32) (x2 : Vec Ideal S1x300 .f32)
    (p : Fin 2000) (q : Fin 300) :
    k10_pay1 x0 x1 x2 (ix2 p q) = max ((∑ k : Fin 768, x0 (ix2 p k) * x1 (ix2 k q)) + x2 (ix2 (0 : Fin 1) q)) 0 := by
  unfold k10_pay1
  rw [maximumf_apply, broadcast_apply, addf_apply, mm10_apply, broadcastTo_1b_ab_apply]
  simp only [shapeCast_self, truncf_apply]
  show max ((∑ k : Fin 768, x0 (ix2 p k) * x1 (ix2 k q)) + x2 (ix2 (0 : Fin 1) q)) (Ideal.ofBits .f32 0x00000000#32) = _
  rw [Ideal.ofBits_zero_f32]

/-- The clipped dense layer at (r, q), written out. -/
theorem lin10_at (x : Mat 50000 768) (w : Mat 768 300) (b : Mat 1 300) (r : Fin 50000) (q : Fin 300) :
    relu (lin x w (rowOf b)) (ix2 r q) = max ((∑ k : Fin 768, x (ix2 r k) * w (ix2 k q)) + b (ix2 (0 : Fin 1) q)) 0 := rfl

/-! ## Where the blocks sit -/

variable (V : (c : Dev nD) → (b : Ref sig .tc) → Buf (Elt Ideal) ((c : Thread nD τ).loc b))

theorem zero_off10 : (![0, 0] : Fin 2 → Nat) = fun _ => 0 := funext fun a => by fin_cases a <;> rfl

/-- Over the grid: the x block and the output block of point t are block (t, 0); the w block and the bias block
    are block (0, 0). -/
theorem idx10 : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)

theorem pt_lt10 (t : Fin cfg10.N) : t.val < 25 := lt_of_lt_of_eq t.isLt N_10

/-- Row p of the x block at point t is row 2000 t + p of x. -/
theorem xblk10 (c : Dev nD) (t : Fin cfg10.N) (p : Fin 2000) (k : Fin 768) (r : Fin 50000)
    (hr : r.val = t.val * 2000 + p.val) :
    (iblk10 V c 0 t : Vec Ideal S2000x768 .f32) (ix2 p k) = (V c main_arg0 : S50000x768.Idx → Elt Ideal .f32) (ix2 r k) := by
  obtain ⟨e0, e1, -⟩ := idx10 t
  unfold iblk10
  rw [View.read_apply]
  show V c main_arg0 _ = V c main_arg0 _
  congr 1
  funext a
  apply Fin.ext
  match a with
  | ⟨0, _⟩ => show win10_0.index t (0 : Fin 2) * 2000 + 1 * p.val = r.val; rw [e0, hr]; omega
  | ⟨1, _⟩ => show win10_0.index t (1 : Fin 2) * 768 + 1 * k.val = k.val; rw [e1]; omega

/-- The w block at every point is w. -/
theorem wblk10 (c : Dev nD) (t : Fin cfg10.N) (k : Fin 768) (q : Fin 300) :
    (iblk10 V c 1 t : Vec Ideal S768x300 .f32) (ix2 k q) = (V c main_arg12 : S768x300.Idx → Elt Ideal .f32) (ix2 k q) := by
  obtain ⟨-, -, e2, e3, -⟩ := idx10 t
  unfold iblk10
  rw [View.read_apply]
  show V c main_arg12 _ = V c main_arg12 _
  congr 1
  funext a
  apply Fin.ext
  match a with
  | ⟨0, _⟩ => show win10_1.index t (0 : Fin 2) * 768 + 1 * k.val = k.val; rw [e2]; omega
  | ⟨1, _⟩ => show win10_1.index t (1 : Fin 2) * 300 + 1 * q.val = q.val; rw [e3]; omega

/-- The bias block at every point is the bias. -/
theorem bblk10 (c : Dev nD) (t : Fin cfg10.N) (q : Fin 300) :
    (iblk10 V c 2 t : Vec Ideal S1x300 .f32) (ix2 (0 : Fin 1) q) = (V c main_v440 : S1x300.Idx → Elt Ideal .f32) (ix2 (0 : Fin 1) q) := by
  obtain ⟨-, -, -, -, e4, e5, -⟩ := idx10 t
  unfold iblk10
  rw [View.read_apply]
  show V c main_v440 _ = V c main_v440 _
  congr 1
  funext a
  apply Fin.ext
  match a with
  | ⟨0, _⟩ => show win10_2.index t (0 : Fin 2) * 1 + 1 * (0 : Fin 1).val = (0 : Fin 1).val; rw [e4]; rfl
  | ⟨1, _⟩ => show win10_2.index t (1 : Fin 2) * 300 + 1 * q.val = q.val; rw [e5]; omega

/-- Entry (p, q) of the output block at point t is entry (2000 t + p, q) of the output. -/
theorem oemb10 (t : Fin cfg10.N) (p : Fin 2000) (q : Fin 300) :
    ∃ r : Fin 50000, r.val = t.val * 2000 + p.val ∧ ((cfg10.win 3).blk t).view.emb (ix2 p q) = ix2 r q := by
  obtain ⟨-, -, -, -, -, -, e6, e7⟩ := idx10 t
  have ht := pt_lt10 t
  have hp := p.isLt
  refine ⟨⟨t.val * 2000 + p.val, by omega⟩, rfl, ?_⟩
  funext a
  apply Fin.ext
  match a with
  | ⟨0, _⟩ => show win10_3.index t (0 : Fin 2) * 2000 + 1 * p.val = t.val * 2000 + p.val; rw [e6]; omega
  | ⟨1, _⟩ => show win10_3.index t (1 : Fin 2) * 300 + 1 * q.val = q.val; rw [e7]; omega

/-! ## What a point writes back, and the array after the last point -/

/-- Point t writes back block t of the clipped dense layer of the whole arrays. -/
theorem flushed10_eq (c : Dev nD) (t : Fin cfg10.N) :
    (dat10 (F := Ideal) V c).flushed 3 t
      = ((cfg10.win 3).blk t).view.read (Elt Ideal)
          (relu (lin (M := 50000) (K := 768) (N := 300) (V c main_arg0) (V c main_arg12) (rowOf (V c main_v440)))) := by
  show (cfg10.win 3).cut (grid10.coords t) ((dat10 V c).after 3 t) = _
  rw [after10_3]
  unfold out10_3
  rw [View.canon_unit_zero zero_off10]
  simp only [View.ld_unit_zero (S := S2000x768) zero_off10, View.ld_unit_zero (S := S768x300) zero_off10,
    View.ld_unit_zero (S := S1x300) zero_off10]
  funext j
  obtain ⟨p, q, rfl⟩ : ∃ (p : Fin 2000) (q : Fin 300), j = ix2 p q := ⟨j 0, j 1, eq_ix2 j⟩
  show k10_pay1 (iblk10 V c 0 t) (iblk10 V c 1 t) (iblk10 V c 2 t) (ix2 p q)
    = relu (lin (M := 50000) (K := 768) (N := 300) (V c main_arg0) (V c main_arg12) (rowOf (V c main_v440)))
        (((cfg10.win 3).blk t).view.emb (ix2 p q))
  obtain ⟨r, hr, he⟩ := oemb10 t p q
  rw [he]
  refine (pay10_apply _ _ _ p q).trans (Eq.trans ?_ (lin10_at _ _ _ r q).symm)
  exact congrArg (fun y => max y 0) (congrArg₂ (· + ·)
    (Finset.sum_congr rfl fun k _ => congrArg₂ (· * ·) (xblk10 V c t p k r hr) (wblk10 V c t k q))
    (bblk10 V c t q))

/-- An index of the output is in point t's block iff each coordinate is in the block's range on its axis. -/
theorem mem_blk10 (t : Fin cfg10.N) (i : S50000x300.Idx) :
    i ∈ ((cfg10.win 3).blk t).view.set ↔ ∀ a : Fin 2, win10_3.index t a * S2000x300.size a ≤ (i a).val
      ∧ (i a).val < win10_3.index t a * S2000x300.size a + S2000x300.size a := by
  show i ∈ ((View.whole main_v441).slice (win10_3.rect t)).set ↔ _
  rw [View.set_slice_whole, Rect.mem_set_unit]
  exact Iff.rfl

/-- Row r of the output lies in the block of point r / 2000. -/
theorem cover10 (i : S50000x300.Idx) :
    ∃ t : Fin cfg10.N, (cfg10.win 3).flush t = true ∧ i ∈ ((cfg10.win 3).blk t).view.set := by
  have hi0 : (i 0).val < 50000 := (i 0).isLt
  have hi1 : (i 1).val < 300 := (i 1).isLt
  obtain ⟨t, ht⟩ : ∃ t : Fin cfg10.N, t.val = (i 0).val / 2000 :=
    ⟨⟨(i 0).val / 2000, lt_of_lt_of_eq (show (i 0).val / 2000 < 25 by omega) N_10.symm⟩, rfl⟩
  obtain ⟨-, -, -, -, -, -, e6, e7⟩ := idx10 t
  refine ⟨t, flush10_3 t, ?_⟩
  rw [mem_blk10]
  intro a
  match a with
  | ⟨0, _⟩ =>
    show win10_3.index t (0 : Fin 2) * 2000 ≤ (i 0).val ∧ (i 0).val < win10_3.index t (0 : Fin 2) * 2000 + 2000
    rw [e6, ht]; omega
  | ⟨1, _⟩ =>
    show win10_3.index t (1 : Fin 2) * 300 ≤ (i 1).val ∧ (i 1).val < win10_3.index t (1 : Fin 2) * 300 + 300
    rw [e7]; omega

/-- After the last write-back the output array is max(x · w + b, 0) of the arrays the region found. -/
theorem final10 (c : Dev nD) :
    (dat10 (F := Ideal) V c).arrAt 3 cfg10.N
      = relu (lin (M := 50000) (K := 768) (N := 300) (V c main_arg0) (V c main_arg12) (rowOf (V c main_v440))) :=
  (dat10 (F := Ideal) V c).arrAt_eq_of_cover 3 _ (fun t _ => flushed10_eq V c t) cover10

end Cert.KernelIdeal.Val

end
-- ==== Proof.Region11.lean ====
/-
  A dense layer clipped below at zero. The output array (50000 × 200) after the last write-back is max(x · w + b, 0),
  entry by entry, for the input x (50000 × 300), the weight w (300 × 200) and the bias row b (1 × 200) as the region
  finds them. The grid has 25 points; point t writes the 2000 rows from row 2000 t on, computed from the same rows
  of x and the whole of w and b, and these row blocks tile the output.
-/
import proofs.«141689_j63058709840619_1_alg».proof.Proof.FrameKI
import proofs.«141689_j63058709840619_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Idealize.ShloMosaic Idealize.ShloMosaic.ValueIdx Cert.KernelIdeal Cert.KernelIdeal.Gen Cert.KernelIdeal.GenP Cert.Spec
open Idealize.ShloMosaic.TcCoe
open Idealize.ShloMosaic.Pipeline (Dat)

/-! ## The body's result at an index -/

/-- Left operand, row axis: the output's row. -/
theorem lhs11_row (j : S2000x200.Idx) (k : dot_S2000x300_S300x200_S2000x200_1_0_0_1_n_n.contr.Idx) :
    (dot_S2000x300_S300x200_S2000x200_1_0_0_1_n_n.lhsIdx j k 0).val = (j 0).val := by
  unfold DotDims.lhsIdx
  rw [dif_neg (show ¬(0 : Fin S2000x300.rank) ∈ dot_S2000x300_S300x200_S2000x200_1_0_0_1_n_n.lhsBatch by decide),
    dif_pos (show (0 : Fin S2000x300.rank) ∈ dot_S2000x300_S300x200_S2000x200_1_0_0_1_n_n.lhsNonContracting by decide)]
  rfl

/-- Left operand, column axis: the contraction position. -/
theorem lhs11_col (j : S2000x200.Idx) (k : dot_S2000x300_S300x200_S2000x200_1_0_0_1_n_n.contr.Idx) :
    (dot_S2000x300_S300x200_S2000x200_1_0_0_1_n_n.lhsIdx j k 1).val = (k ⟨0, by decide⟩).val :=
  dot_S2000x300_S300x200_S2000x200_1_0_0_1_n_n.lhsIdx_val_of_single (cl := 1) rfl j k

/-- Right operand, row axis: the contraction position. -/
theorem rhs11_row (j : S2000x200.Idx) (k : dot_S2000x300_S300x200_S2000x200_1_0_0_1_n_n.contr.Idx) :
    (dot_S2000x300_S300x200_S2000x200_1_0_0_1_n_n.rhsIdx j k 0).val = (k ⟨0, by decide⟩).val :=
  dot_S2000x300_S300x200_S2000x200_1_0_0_1_n_n.rhsIdx_val_of_single (cr := 0) rfl j k

/-- Right operand, column axis: the output's column. -/
theorem rhs11_col (j : S2000x200.Idx) (k : dot_S2000x300_S300x200_S2000x200_1_0_0_1_n_n.contr.Idx) :
    (dot_S2000x300_S300x200_S2000x200_1_0_0_1_n_n.rhsIdx j k 1).val = (j 1).val := by
  unfold DotDims.rhsIdx
  rw [dif_neg (show ¬(1 : Fin S300x200.rank) ∈ dot_S2000x300_S300x200_S2000x200_1_0_0_1_n_n.rhsBatch by decide),
    dif_pos (show (1 : Fin S300x200.rank) ∈ dot_S2000x300_S300x200_S2000x200_1_0_0_1_n_n.rhsNonContracting by decide)]
  rfl

/-- The block product at (p, q): the sum over the 300 shared positions. -/
theorem mm11_apply (a : FVec Ideal S2000x300 .bf16) (b : FVec Ideal S300x200 .bf16) (p : Fin 2000) (q : Fin 200) :
    matmul dot_S2000x300_S300x200_S2000x200_1_0_0_1_n_n none a b (constant (F := Ideal) S2000x200 .f32 0x00000000#32) (ix2 p q)
      = ∑ k : Fin 300, a (ix2 p k) * b (ix2 k q) := by
  show FloatOps.matmul dot_S2000x300_S300x200_S2000x200_1_0_0_1_n_n none a b (constant (F := Ideal) S2000x200 .f32 0x00000000#32) (ix2 p q) = _
  rw [Ideal.matmul_constant_zero_apply,
    ← Equiv.sum_comp (contrEquiv1 dot_S2000x300_S300x200_S2000x200_1_0_0_1_n_n 300 rfl rfl).symm]
  refine Finset.sum_congr rfl fun k _ => ?_
  have hk := contrEquiv1_symm_val dot_S2000x300_S300x200_S2000x200_1_0_0_1_n_n 300 rfl rfl k
  congr 2
  · funext ax; apply Fin.ext
    match ax with
    | ⟨0, _⟩ => exact lhs11_row _ _
    | ⟨1, _⟩ => exact (lhs11_col _ _).trans hk
  · funext ax; apply Fin.ext
    match ax with
    | ⟨0, _⟩ => exact (rhs11_row _ _).trans hk
    | ⟨1, _⟩ => exact rhs11_col _ _

/-- The body's result at (p, q): row p of the x block against column q of w, plus the bias at q, clipped below at zero. -/
theorem pay11_apply (x0 : Vec Ideal S2000x300 .f32) (x1 : Vec Ideal S300x200 .f32) (x2 : Vec Ideal S1x200 .f32)
    (p : Fin 2000) (q : Fin 200) :
    k11_pay1 x0 x1 x2 (ix2 p q) = max ((∑ k : Fin 300, x0 (ix2 p k) * x1 (ix2 k q)) + x2 (ix2 (0 : Fin 1) q)) 0 := by
  unfold k11_pay1
  rw [maximumf_apply, broadcast_apply, addf_apply, mm11_apply, broadcastTo_1b_ab_apply]
  simp only [shapeCast_self, truncf_apply]
  show max ((∑ k : Fin 300, x0 (ix2 p k) * x1 (ix2 k q)) + x2 (ix2 (0 : Fin 1) q)) (Ideal.ofBits .f32 0x00000000#32) = _
  rw [Ideal.ofBits_zero_f32]

/-- The clipped dense layer at (r, q), written out. -/
theorem lin11_at (x : Mat 50000 300) (w : Mat 300 200) (b : Mat 1 200) (r : Fin 50000) (q : Fin 200) :
    relu (lin x w (rowOf b)) (ix2 r q) = max ((∑ k : Fin 300, x (ix2 r k) * w (ix2 k q)) + b (ix2 (0 : Fin 1) q)) 0 := rfl

/-! ## Where the blocks sit -/

variable (V : (c : Dev nD) → (b : Ref sig .tc) → Buf (Elt Ideal) ((c : Thread nD τ).loc b))

theorem zero_off11 : (![0, 0] : Fin 2 → Nat) = fun _ => 0 := funext fun a => by fin_cases a <;> rfl

/-- Over the grid: the x block and the output block of point t are block (t, 0); the w block and the bias block
    are block (0, 0). -/
theorem idx11 : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0 :=
  (by decide +kernel : ∀ t : Fin grid11.N, _)

theorem pt_lt11 (t : Fin cfg11.N) : t.val < 25 := lt_of_lt_of_eq t.isLt N_11

/-- Row p of the x block at point t is row 2000 t + p of x. -/
theorem xblk11 (c : Dev nD) (t : Fin cfg11.N) (p : Fin 2000) (k : Fin 300) (r : Fin 50000)
    (hr : r.val = t.val * 2000 + p.val) :
    (iblk11 V c 0 t : Vec Ideal S2000x300 .f32) (ix2 p k) = (V c main_v441 : S50000x300.Idx → Elt Ideal .f32) (ix2 r k) := by
  obtain ⟨e0, e1, -⟩ := idx11 t
  unfold iblk11
  rw [View.read_apply]
  show V c main_v441 _ = V c main_v441 _
  congr 1
  funext a
  apply Fin.ext
  match a with
  | ⟨0, _⟩ => show win11_0.index t (0 : Fin 2) * 2000 + 1 * p.val = r.val; rw [e0, hr]; omega
  | ⟨1, _⟩ => show win11_0.index t (1 : Fin 2) * 300 + 1 * k.val = k.val; rw [e1]; omega

/-- The w block at every point is w. -/
theorem wblk11 (c : Dev nD) (t : Fin cfg11.N) (k : Fin 300) (q : Fin 200) :
    (iblk11 V c 1 t : Vec Ideal S300x200 .f32) (ix2 k q) = (V c main_arg14 : S300x200.Idx → Elt Ideal .f32) (ix2 k q) := by
  obtain ⟨-, -, e2, e3, -⟩ := idx11 t
  unfold iblk11
  rw [View.read_apply]
  show V c main_arg14 _ = V c main_arg14 _
  congr 1
  funext a
  apply Fin.ext
  match a with
  | ⟨0, _⟩ => show win11_1.index t (0 : Fin 2) * 300 + 1 * k.val = k.val; rw [e2]; omega
  | ⟨1, _⟩ => show win11_1.index t (1 : Fin 2) * 200 + 1 * q.val = q.val; rw [e3]; omega

/-- The bias block at every point is the bias. -/
theorem bblk11 (c : Dev nD) (t : Fin cfg11.N) (q : Fin 200) :
    (iblk11 V c 2 t : Vec Ideal S1x200 .f32) (ix2 (0 : Fin 1) q) = (V c main_v442 : S1x200.Idx → Elt Ideal .f32) (ix2 (0 : Fin 1) q) := by
  obtain ⟨-, -, -, -, e4, e5, -⟩ := idx11 t
  unfold iblk11
  rw [View.read_apply]
  show V c main_v442 _ = V c main_v442 _
  congr 1
  funext a
  apply Fin.ext
  match a with
  | ⟨0, _⟩ => show win11_2.index t (0 : Fin 2) * 1 + 1 * (0 : Fin 1).val = (0 : Fin 1).val; rw [e4]; rfl
  | ⟨1, _⟩ => show win11_2.index t (1 : Fin 2) * 200 + 1 * q.val = q.val; rw [e5]; omega

/-- Entry (p, q) of the output block at point t is entry (2000 t + p, q) of the output. -/
theorem oemb11 (t : Fin cfg11.N) (p : Fin 2000) (q : Fin 200) :
    ∃ r : Fin 50000, r.val = t.val * 2000 + p.val ∧ ((cfg11.win 3).blk t).view.emb (ix2 p q) = ix2 r q := by
  obtain ⟨-, -, -, -, -, -, e6, e7⟩ := idx11 t
  have ht := pt_lt11 t
  have hp := p.isLt
  refine ⟨⟨t.val * 2000 + p.val, by omega⟩, rfl, ?_⟩
  funext a
  apply Fin.ext
  match a with
  | ⟨0, _⟩ => show win11_3.index t (0 : Fin 2) * 2000 + 1 * p.val = t.val * 2000 + p.val; rw [e6]; omega
  | ⟨1, _⟩ => show win11_3.index t (1 : Fin 2) * 200 + 1 * q.val = q.val; rw [e7]; omega

/-! ## What a point writes back, and the array after the last point -/

/-- Point t writes back block t of the clipped dense layer of the whole arrays. -/
theorem flushed11_eq (c : Dev nD) (t : Fin cfg11.N) :
    (dat11 (F := Ideal) V c).flushed 3 t
      = ((cfg11.win 3).blk t).view.read (Elt Ideal)
          (relu (lin (M := 50000) (K := 300) (N := 200) (V c main_v441) (V c main_arg14) (rowOf (V c main_v442)))) := by
  show (cfg11.win 3).cut (grid11.coords t) ((dat11 V c).after 3 t) = _
  rw [after11_3]
  unfold out11_3
  rw [View.canon_unit_zero zero_off11]
  simp only [View.ld_unit_zero (S := S2000x300) zero_off11, View.ld_unit_zero (S := S300x200) zero_off11,
    View.ld_unit_zero (S := S1x200) zero_off11]
  funext j
  obtain ⟨p, q, rfl⟩ : ∃ (p : Fin 2000) (q : Fin 200), j = ix2 p q := ⟨j 0, j 1, eq_ix2 j⟩
  show k11_pay1 (iblk11 V c 0 t) (iblk11 V c 1 t) (iblk11 V c 2 t) (ix2 p q)
    = relu (lin (M := 50000) (K := 300) (N := 200) (V c main_v441) (V c main_arg14) (rowOf (V c main_v442)))
        (((cfg11.win 3).blk t).view.emb (ix2 p q))
  obtain ⟨r, hr, he⟩ := oemb11 t p q
  rw [he]
  refine (pay11_apply _ _ _ p q).trans (Eq.trans ?_ (lin11_at _ _ _ r q).symm)
  exact congrArg (fun y => max y 0) (congrArg₂ (· + ·)
    (Finset.sum_congr rfl fun k _ => congrArg₂ (· * ·) (xblk11 V c t p k r hr) (wblk11 V c t k q))
    (bblk11 V c t q))

/-- An index of the output is in point t's block iff each coordinate is in the block's range on its axis. -/
theorem mem_blk11 (t : Fin cfg11.N) (i : S50000x200.Idx) :
    i ∈ ((cfg11.win 3).blk t).view.set ↔ ∀ a : Fin 2, win11_3.index t a * S2000x200.size a ≤ (i a).val
      ∧ (i a).val < win11_3.index t a * S2000x200.size a + S2000x200.size a := by
  show i ∈ ((View.whole main_v443).slice (win11_3.rect t)).set ↔ _
  rw [View.set_slice_whole, Rect.mem_set_unit]
  exact Iff.rfl

/-- Row r of the output lies in the block of point r / 2000. -/
theorem cover11 (i : S50000x200.Idx) :
    ∃ t : Fin cfg11.N, (cfg11.win 3).flush t = true ∧ i ∈ ((cfg11.win 3).blk t).view.set := by
  have hi0 : (i 0).val < 50000 := (i 0).isLt
  have hi1 : (i 1).val < 200 := (i 1).isLt
  obtain ⟨t, ht⟩ : ∃ t : Fin cfg11.N, t.val = (i 0).val / 2000 :=
    ⟨⟨(i 0).val / 2000, lt_of_lt_of_eq (show (i 0).val / 2000 < 25 by omega) N_11.symm⟩, rfl⟩
  obtain ⟨-, -, -, -, -, -, e6, e7⟩ := idx11 t
  refine ⟨t, flush11_3 t, ?_⟩
  rw [mem_blk11]
  intro a
  match a with
  | ⟨0, _⟩ =>
    show win11_3.index t (0 : Fin 2) * 2000 ≤ (i 0).val ∧ (i 0).val < win11_3.index t (0 : Fin 2) * 2000 + 2000
    rw [e6, ht]; omega
  | ⟨1, _⟩ =>
    show win11_3.index t (1 : Fin 2) * 200 ≤ (i 1).val ∧ (i 1).val < win11_3.index t (1 : Fin 2) * 200 + 200
    rw [e7]; omega

/-- After the last write-back the output array is max(x · w + b, 0) of the arrays the region found. -/
theorem final11 (c : Dev nD) :
    (dat11 (F := Ideal) V c).arrAt 3 cfg11.N
      = relu (lin (M := 50000) (K := 300) (N := 200) (V c main_v441) (V c main_arg14) (rowOf (V c main_v442))) :=
  (dat11 (F := Ideal) V c).arrAt_eq_of_cover 3 _ (fun t _ => flushed11_eq V c t) cover11

end Cert.KernelIdeal.Val

end
-- ==== Proof.Region12.lean ====
/-
  A dense layer. The output array (50000 × 150) after the last write-back is x · w + b for the input x (50000 × 200),
  the weight w (200 × 150) and the bias row b (1 × 150) as the region finds them. The grid has 25 points; point t
  writes the 2000 rows from row 2000 t on, computed from the same rows of x and the whole of w and b, and these
  row blocks tile the output.
-/
import proofs.«141689_j63058709840619_1_alg».proof.Proof.FrameKI
import proofs.«141689_j63058709840619_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Idealize.ShloMosaic Idealize.ShloMosaic.ValueIdx Cert.KernelIdeal Cert.KernelIdeal.Gen Cert.KernelIdeal.GenP Cert.Spec
open Idealize.ShloMosaic.TcCoe
open Idealize.ShloMosaic.Pipeline (Dat)

/-! ## The body's result at an index -/

/-- Left operand, row axis: the output's row. -/
theorem lhs12_row (j : S2000x150.Idx) (k : dot_S2000x200_S200x150_S2000x150_1_0_0_1_n_n.contr.Idx) :
    (dot_S2000x200_S200x150_S2000x150_1_0_0_1_n_n.lhsIdx j k 0).val = (j 0).val := by
  unfold DotDims.lhsIdx
  rw [dif_neg (show ¬(0 : Fin S2000x200.rank) ∈ dot_S2000x200_S200x150_S2000x150_1_0_0_1_n_n.lhsBatch by decide),
    dif_pos (show (0 : Fin S2000x200.rank) ∈ dot_S2000x200_S200x150_S2000x150_1_0_0_1_n_n.lhsNonContracting by decide)]
  rfl

/-- Left operand, column axis: the contraction position. -/
theorem lhs12_col (j : S2000x150.Idx) (k : dot_S2000x200_S200x150_S2000x150_1_0_0_1_n_n.contr.Idx) :
    (dot_S2000x200_S200x150_S2000x150_1_0_0_1_n_n.lhsIdx j k 1).val = (k ⟨0, by decide⟩).val :=
  dot_S2000x200_S200x150_S2000x150_1_0_0_1_n_n.lhsIdx_val_of_single (cl := 1) rfl j k

/-- Right operand, row axis: the contraction position. -/
theorem rhs12_row (j : S2000x150.Idx) (k : dot_S2000x200_S200x150_S2000x150_1_0_0_1_n_n.contr.Idx) :
    (dot_S2000x200_S200x150_S2000x150_1_0_0_1_n_n.rhsIdx j k 0).val = (k ⟨0, by decide⟩).val :=
  dot_S2000x200_S200x150_S2000x150_1_0_0_1_n_n.rhsIdx_val_of_single (cr := 0) rfl j k

/-- Right operand, column axis: the output's column. -/
theorem rhs12_col (j : S2000x150.Idx) (k : dot_S2000x200_S200x150_S2000x150_1_0_0_1_n_n.contr.Idx) :
    (dot_S2000x200_S200x150_S2000x150_1_0_0_1_n_n.rhsIdx j k 1).val = (j 1).val := by
  unfold DotDims.rhsIdx
  rw [dif_neg (show ¬(1 : Fin S200x150.rank) ∈ dot_S2000x200_S200x150_S2000x150_1_0_0_1_n_n.rhsBatch by decide),
    dif_pos (show (1 : Fin S200x150.rank) ∈ dot_S2000x200_S200x150_S2000x150_1_0_0_1_n_n.rhsNonContracting by decide)]
  rfl

/-- The block product at (p, q): the sum over the 200 shared positions. -/
theorem mm12_apply (a : FVec Ideal S2000x200 .bf16) (b : FVec Ideal S200x150 .bf16) (p : Fin 2000) (q : Fin 150) :
    matmul dot_S2000x200_S200x150_S2000x150_1_0_0_1_n_n none a b (constant (F := Ideal) S2000x150 .f32 0x00000000#32) (ix2 p q)
      = ∑ k : Fin 200, a (ix2 p k) * b (ix2 k q) := by
  show FloatOps.matmul dot_S2000x200_S200x150_S2000x150_1_0_0_1_n_n none a b (constant (F := Ideal) S2000x150 .f32 0x00000000#32) (ix2 p q) = _
  rw [Ideal.matmul_constant_zero_apply,
    ← Equiv.sum_comp (contrEquiv1 dot_S2000x200_S200x150_S2000x150_1_0_0_1_n_n 200 rfl rfl).symm]
  refine Finset.sum_congr rfl fun k _ => ?_
  have hk := contrEquiv1_symm_val dot_S2000x200_S200x150_S2000x150_1_0_0_1_n_n 200 rfl rfl k
  congr 2
  · funext ax; apply Fin.ext
    match ax with
    | ⟨0, _⟩ => exact lhs12_row _ _
    | ⟨1, _⟩ => exact (lhs12_col _ _).trans hk
  · funext ax; apply Fin.ext
    match ax with
    | ⟨0, _⟩ => exact (rhs12_row _ _).trans hk
    | ⟨1, _⟩ => exact rhs12_col _ _

/-- The body's result at (p, q): row p of the x block against column q of w, plus the bias at q. -/
theorem pay12_apply (x0 : Vec Ideal S2000x200 .f32) (x1 : Vec Ideal S200x150 .f32) (x2 : Vec Ideal S1x150 .f32)
    (p : Fin 2000) (q : Fin 150) :
    k12_pay1 x0 x1 x2 (ix2 p q) = (∑ k : Fin 200, x0 (ix2 p k) * x1 (ix2 k q)) + x2 (ix2 (0 : Fin 1) q) := by
  unfold k12_pay1
  rw [addf_apply, mm12_apply, broadcastTo_1b_ab_apply]
  simp only [shapeCast_self, truncf_apply]

/-- The dense layer at (r, q), written out. -/
theorem lin12_at (x : Mat 50000 200) (w : Mat 200 150) (b : Mat 1 150) (r : Fin 50000) (q : Fin 150) :
    lin x w (rowOf b) (ix2 r q) = (∑ k : Fin 200, x (ix2 r k) * w (ix2 k q)) + b (ix2 (0 : Fin 1) q) := rfl

/-! ## Where the blocks sit -/

variable (V : (c : Dev nD) → (b : Ref sig .tc) → Buf (Elt Ideal) ((c : Thread nD τ).loc b))

theorem zero_off12 : (![0, 0] : Fin 2 → Nat) = fun _ => 0 := funext fun a => by fin_cases a <;> rfl

/-- Over the grid: the x block and the output block of point t are block (t, 0); the w block and the bias block
    are block (0, 0). -/
theorem idx12 : ∀ t : Fin cfg12.N,
    win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0 :=
  (by decide +kernel : ∀ t : Fin grid12.N, _)

theorem pt_lt12 (t : Fin cfg12.N) : t.val < 25 := lt_of_lt_of_eq t.isLt N_12

/-- Row p of the x block at point t is row 2000 t + p of x. -/
theorem xblk12 (c : Dev nD) (t : Fin cfg12.N) (p : Fin 2000) (k : Fin 200) (r : Fin 50000)
    (hr : r.val = t.val * 2000 + p.val) :
    (iblk12 V c 0 t : Vec Ideal S2000x200 .f32) (ix2 p k) = (V c main_v443 : S50000x200.Idx → Elt Ideal .f32) (ix2 r k) := by
  obtain ⟨e0, e1, -⟩ := idx12 t
  unfold iblk12
  rw [View.read_apply]
  show V c main_v443 _ = V c main_v443 _
  congr 1
  funext a
  apply Fin.ext
  match a with
  | ⟨0, _⟩ => show win12_0.index t (0 : Fin 2) * 2000 + 1 * p.val = r.val; rw [e0, hr]; omega
  | ⟨1, _⟩ => show win12_0.index t (1 : Fin 2) * 200 + 1 * k.val = k.val; rw [e1]; omega

/-- The w block at every point is w. -/
theorem wblk12 (c : Dev nD) (t : Fin cfg12.N) (k : Fin 200) (q : Fin 150) :
    (iblk12 V c 1 t : Vec Ideal S200x150 .f32) (ix2 k q) = (V c main_arg16 : S200x150.Idx → Elt Ideal .f32) (ix2 k q) := by
  obtain ⟨-, -, e2, e3, -⟩ := idx12 t
  unfold iblk12
  rw [View.read_apply]
  show V c main_arg16 _ = V c main_arg16 _
  congr 1
  funext a
  apply Fin.ext
  match a with
  | ⟨0, _⟩ => show win12_1.index t (0 : Fin 2) * 200 + 1 * k.val = k.val; rw [e2]; omega
  | ⟨1, _⟩ => show win12_1.index t (1 : Fin 2) * 150 + 1 * q.val = q.val; rw [e3]; omega

/-- The bias block at every point is the bias. -/
theorem bblk12 (c : Dev nD) (t : Fin cfg12.N) (q : Fin 150) :
    (iblk12 V c 2 t : Vec Ideal S1x150 .f32) (ix2 (0 : Fin 1) q) = (V c main_v444 : S1x150.Idx → Elt Ideal .f32) (ix2 (0 : Fin 1) q) := by
  obtain ⟨-, -, -, -, e4, e5, -⟩ := idx12 t
  unfold iblk12
  rw [View.read_apply]
  show V c main_v444 _ = V c main_v444 _
  congr 1
  funext a
  apply Fin.ext
  match a with
  | ⟨0, _⟩ => show win12_2.index t (0 : Fin 2) * 1 + 1 * (0 : Fin 1).val = (0 : Fin 1).val; rw [e4]; rfl
  | ⟨1, _⟩ => show win12_2.index t (1 : Fin 2) * 150 + 1 * q.val = q.val; rw [e5]; omega

/-- Entry (p, q) of the output block at point t is entry (2000 t + p, q) of the output. -/
theorem oemb12 (t : Fin cfg12.N) (p : Fin 2000) (q : Fin 150) :
    ∃ r : Fin 50000, r.val = t.val * 2000 + p.val ∧ ((cfg12.win 3).blk t).view.emb (ix2 p q) = ix2 r q := by
  obtain ⟨-, -, -, -, -, -, e6, e7⟩ := idx12 t
  have ht := pt_lt12 t
  have hp := p.isLt
  refine ⟨⟨t.val * 2000 + p.val, by omega⟩, rfl, ?_⟩
  funext a
  apply Fin.ext
  match a with
  | ⟨0, _⟩ => show win12_3.index t (0 : Fin 2) * 2000 + 1 * p.val = t.val * 2000 + p.val; rw [e6]; omega
  | ⟨1, _⟩ => show win12_3.index t (1 : Fin 2) * 150 + 1 * q.val = q.val; rw [e7]; omega

/-! ## What a point writes back, and the array after the last point -/

/-- Point t writes back block t of the dense layer of the whole arrays. -/
theorem flushed12_eq (c : Dev nD) (t : Fin cfg12.N) :
    (dat12 (F := Ideal) V c).flushed 3 t
      = ((cfg12.win 3).blk t).view.read (Elt Ideal)
          (lin (M := 50000) (K := 200) (N := 150) (V c main_v443) (V c main_arg16) (rowOf (V c main_v444))) := by
  show (cfg12.win 3).cut (grid12.coords t) ((dat12 V c).after 3 t) = _
  rw [after12_3]
  unfold out12_3
  rw [View.canon_unit_zero zero_off12]
  simp only [View.ld_unit_zero (S := S2000x200) zero_off12, View.ld_unit_zero (S := S200x150) zero_off12,
    View.ld_unit_zero (S := S1x150) zero_off12]
  funext j
  obtain ⟨p, q, rfl⟩ : ∃ (p : Fin 2000) (q : Fin 150), j = ix2 p q := ⟨j 0, j 1, eq_ix2 j⟩
  show k12_pay1 (iblk12 V c 0 t) (iblk12 V c 1 t) (iblk12 V c 2 t) (ix2 p q)
    = lin (M := 50000) (K := 200) (N := 150) (V c main_v443) (V c main_arg16) (rowOf (V c main_v444))
        (((cfg12.win 3).blk t).view.emb (ix2 p q))
  obtain ⟨r, hr, he⟩ := oemb12 t p q
  rw [he]
  refine (pay12_apply _ _ _ p q).trans (Eq.trans ?_ (lin12_at _ _ _ r q).symm)
  exact congrArg₂ (· + ·)
    (Finset.sum_congr rfl fun k _ => congrArg₂ (· * ·) (xblk12 V c t p k r hr) (wblk12 V c t k q))
    (bblk12 V c t q)

/-- An index of the output is in point t's block iff each coordinate is in the block's range on its axis. -/
theorem mem_blk12 (t : Fin cfg12.N) (i : S50000x150.Idx) :
    i ∈ ((cfg12.win 3).blk t).view.set ↔ ∀ a : Fin 2, win12_3.index t a * S2000x150.size a ≤ (i a).val
      ∧ (i a).val < win12_3.index t a * S2000x150.size a + S2000x150.size a := by
  show i ∈ ((View.whole main_v445).slice (win12_3.rect t)).set ↔ _
  rw [View.set_slice_whole, Rect.mem_set_unit]
  exact Iff.rfl

/-- Row r of the output lies in the block of point r / 2000. -/
theorem cover12 (i : S50000x150.Idx) :
    ∃ t : Fin cfg12.N, (cfg12.win 3).flush t = true ∧ i ∈ ((cfg12.win 3).blk t).view.set := by
  have hi0 : (i 0).val < 50000 := (i 0).isLt
  have hi1 : (i 1).val < 150 := (i 1).isLt
  obtain ⟨t, ht⟩ : ∃ t : Fin cfg12.N, t.val = (i 0).val / 2000 :=
    ⟨⟨(i 0).val / 2000, lt_of_lt_of_eq (show (i 0).val / 2000 < 25 by omega) N_12.symm⟩, rfl⟩
  obtain ⟨-, -, -, -, -, -, e6, e7⟩ := idx12 t
  refine ⟨t, flush12_3 t, ?_⟩
  rw [mem_blk12]
  intro a
  match a with
  | ⟨0, _⟩ =>
    show win12_3.index t (0 : Fin 2) * 2000 ≤ (i 0).val ∧ (i 0).val < win12_3.index t (0 : Fin 2) * 2000 + 2000
    rw [e6, ht]; omega
  | ⟨1, _⟩ =>
    show win12_3.index t (1 : Fin 2) * 150 ≤ (i 1).val ∧ (i 1).val < win12_3.index t (1 : Fin 2) * 150 + 150
    rw [e7]; omega

/-- After the last write-back the output array is the dense layer x · w + b of the arrays the region found. -/
theorem final12 (c : Dev nD) :
    (dat12 (F := Ideal) V c).arrAt 3 cfg12.N
      = lin (M := 50000) (K := 200) (N := 150) (V c main_v443) (V c main_arg16) (rowOf (V c main_v444)) :=
  (dat12 (F := Ideal) V c).arrAt_eq_of_cover 3 _ (fun t _ => flushed12_eq V c t) cover12

end Cert.KernelIdeal.Val

end
-- ==== Proof.KHost10.lean ====
/-
  What single buffers hold after a straight line of host operations, as functions of the buffers the line
  reads: each definition is the operations' own functions composed (their text as the list prints it, read at the
  extended reals), each lemma says the fold of the list at that buffer is that function of the starting contents.
-/
import proofs.«141689_j63058709840619_1_alg».proof.Proof.Gen.KernelIdeal.Launch
import proofs.«141689_j63058709840619_1_alg».proof.Proof.Spec
import Idealize.ShloMosaic.Lib.StableHlo.Run

set_option maxRecDepth 8192

noncomputable section

namespace Cert.KernelIdeal.Val

open Idealize.ShloMosaic Idealize.ShloMosaic.TcCoe Cert.KernelIdeal Cert.KernelIdeal.Gen Cert.Spec

/-! ## hostOps10: 1 operations -/

/-- Buffer main_v440 as a function of main_arg13: the operations that build it, composed. -/
def kh10_v440 (arg13 : FVec Ideal S300 .f32) : FVec Ideal S1x300 .f32 :=
  (shapeCast S1x300 arg13 shapeCasts_S300_S1x300)

set_option maxHeartbeats 40000000 in
/-- After the list, from any contents, main_v440 holds that function of the contents. -/
theorem kh10_v440_eq (W : Valuation τ sig (Elt Ideal)) :
    StableHlo.after (hostOps10 (F := Ideal)) W (Proc.devRef .tc main_v440)
      = kh10_v440 (W (Proc.devRef .tc main_arg13)) := by
  after_results_simp <;> first | rfl | (unfold kh10_v440; rfl)

end Cert.KernelIdeal.Val

end
-- ==== Proof.KHost11.lean ====
/-
  What single buffers hold after a straight line of host operations, as functions of the buffers the line
  reads: each definition is the operations' own functions composed (their text as the list prints it, read at the
  extended reals), each lemma says the fold of the list at that buffer is that function of the starting contents.
-/
import proofs.«141689_j63058709840619_1_alg».proof.Proof.Gen.KernelIdeal.Launch
import proofs.«141689_j63058709840619_1_alg».proof.Proof.Spec
import Idealize.ShloMosaic.Lib.StableHlo.Run

set_option maxRecDepth 8192

noncomputable section

namespace Cert.KernelIdeal.Val

open Idealize.ShloMosaic Idealize.ShloMosaic.TcCoe Cert.KernelIdeal Cert.KernelIdeal.Gen Cert.Spec

/-! ## hostOps11: 1 operations -/

/-- Buffer main_v442 as a function of main_arg15: the operations that build it, composed. -/
def kh11_v442 (arg15 : FVec Ideal S200 .f32) : FVec Ideal S1x200 .f32 :=
  (shapeCast S1x200 arg15 shapeCasts_S200_S1x200)

set_option maxHeartbeats 40000000 in
/-- After the list, from any contents, main_v442 holds that function of the contents. -/
theorem kh11_v442_eq (W : Valuation τ sig (Elt Ideal)) :
    StableHlo.after (hostOps11 (F := Ideal)) W (Proc.devRef .tc main_v442)
      = kh11_v442 (W (Proc.devRef .tc main_arg15)) := by
  after_results_simp <;> first | rfl | (unfold kh11_v442; rfl)

end Cert.KernelIdeal.Val

end
-- ==== Proof.KHost12.lean ====
/-
  What single buffers hold after a straight line of host operations, as functions of the buffers the line
  reads: each definition is the operations' own functions composed (their text as the list prints it, read at the
  extended reals), each lemma says the fold of the list at that buffer is that function of the starting contents.
-/
import proofs.«141689_j63058709840619_1_alg».proof.Proof.Gen.KernelIdeal.Launch
import proofs.«141689_j63058709840619_1_alg».proof.Proof.Spec
import Idealize.ShloMosaic.Lib.StableHlo.Run

set_option maxRecDepth 8192

noncomputable section

namespace Cert.KernelIdeal.Val

open Idealize.ShloMosaic Idealize.ShloMosaic.TcCoe Cert.KernelIdeal Cert.KernelIdeal.Gen Cert.Spec

/-! ## hostOps12: 1 operations -/

/-- Buffer main_v444 as a function of main_arg17: the operations that build it, composed. -/
def kh12_v444 (arg17 : FVec Ideal S150 .f32) : FVec Ideal S1x150 .f32 :=
  (shapeCast S1x150 arg17 shapeCasts_S150_S1x150)

set_option maxHeartbeats 40000000 in
/-- After the list, from any contents, main_v444 holds that function of the contents. -/
theorem kh12_v444_eq (W : Valuation τ sig (Elt Ideal)) :
    StableHlo.after (hostOps12 (F := Ideal)) W (Proc.devRef .tc main_v444)
      = kh12_v444 (W (Proc.devRef .tc main_arg17)) := by
  after_results_simp <;> first | rfl | (unfold kh12_v444; rfl)

end Cert.KernelIdeal.Val

end
-- ==== Proof.KStage3.lean ====
/-
  The last neighbourhood combine (7 of 7, not clipped) and the node classifier's three dense layers as the kernel
  program computes them: at the exit of each region its output array is the model's term. The classifier reads the
  raw features of the first node type, unchanged since the launch, and then its own earlier layers.
-/
import proofs.«141689_j63058709840619_1_alg».proof.Proof.KStage2
import proofs.«141689_j63058709840619_1_alg».proof.Proof.FrameKI
import proofs.«141689_j63058709840619_1_alg».proof.Proof.Model
import proofs.«141689_j63058709840619_1_alg».proof.Proof.HostFin
import proofs.«141689_j63058709840619_1_alg».proof.Proof.Region9
import proofs.«141689_j63058709840619_1_alg».proof.Proof.Region10
import proofs.«141689_j63058709840619_1_alg».proof.Proof.Region11
import proofs.«141689_j63058709840619_1_alg».proof.Proof.Region12
import proofs.«141689_j63058709840619_1_alg».proof.Proof.TransportA
import proofs.«141689_j63058709840619_1_alg».proof.Proof.TransportB
import proofs.«141689_j63058709840619_1_alg».proof.Proof.TransportC
import proofs.«141689_j63058709840619_1_alg».proof.Proof.TransportE
import proofs.«141689_j63058709840619_1_alg».proof.Proof.KHost9
import proofs.«141689_j63058709840619_1_alg».proof.Proof.KHost10
import proofs.«141689_j63058709840619_1_alg».proof.Proof.KHost11
import proofs.«141689_j63058709840619_1_alg».proof.Proof.KHost12

set_option maxRecDepth 16384

noncomputable section

namespace Cert.KernelIdeal.Val

open Idealize.ShloMosaic Idealize.ShloMosaic.TcCoe Idealize.SL.Sem
open Cert.KernelIdeal Cert.KernelIdeal.Gen Cert.KernelIdeal.GenP Cert.Spec

variable (m : (ℓ : Loc nD τ sig) → Buf (Elt Ideal) ℓ) (ρ : Dev nD → PrngReg)

/-- At the exit of region 9 its output array is the third node type's features after combine 7 of 7, the last layer. -/
theorem k_XP3 (c : Dev nD) (a : ArgVals) (hk : KHolds m c a) :
    W20 m ρ c (Proc.devRef .tc main_v439) = XP3 a := by
  have e1 : V19 m ρ c main_v400 = kh9_v400 (XL2 a) a.e_lpi :=
    (kh9_v400_eq (W18 m ρ c)).trans (congrArg₂ kh9_v400 ((at_main_v253_18 m ρ c).trans (k_XL2 m ρ c a hk)) ((at_main_arg24_18 m ρ c).trans hk.h24))
  have e2 : V19 m ρ c main_v435 = kh9_v435 a.Wl :=
    (kh9_v435_eq (W18 m ρ c)).trans (congrArg kh9_v435 ((at_main_arg9_18 m ρ c).trans hk.h9))
  have e3 : V19 m ρ c main_v423 = kh9_v423 (XM2 a) a.e_mpi :=
    (kh9_v423_eq (W18 m ρ c)).trans (congrArg₂ kh9_v423 ((at_main_v315_18 m ρ c).trans (k_XM2 m ρ c a hk)) ((at_main_arg26_18 m ρ c).trans hk.h26))
  have e4 : V19 m ρ c main_v437 = kh9_v437 a.Wl :=
    (kh9_v437_eq (W18 m ρ c)).trans (congrArg kh9_v437 ((at_main_arg9_18 m ρ c).trans hk.h9))
  have e5 : V19 m ρ c main_v377 = XP2 a := (at_main_v377_19 m ρ c).trans (k_XP2 m ρ c a hk)
  have e6 : V19 m ρ c main_v428 = addf (kh9_v425 a.Wr) (kh9_v427 a.Wr) :=
    ((kh9_v428_eq (W18 m ρ c)).trans (congrArg kh9_v428 ((at_main_arg11_18 m ρ c).trans hk.h11))).trans (kh9_v428_parts a.Wr)
  have e7 : V19 m ρ c main_v438 = shapeCast (⟨2, ![1, 150]⟩ : Shape) (addf (kh9_v430 a.bl) (kh9_v432 a.bl)) hs150 :=
    ((kh9_v438_eq (W18 m ρ c)).trans (congrArg kh9_v438 ((at_main_arg10_18 m ρ c).trans hk.h10))).trans (kh9_v438_parts a.bl)
  refine ((W20_arr m ρ c 7).trans (final9 (V19 m ρ) c)).trans ?_
  exact sageK_congr e1 e2 e3 e4 e5 e6 (congrArg rowOf e7)

/-- At the exit of region 10 its output array is the node classifier's first layer. -/
theorem k_H1 (c : Dev nD) (a : ArgVals) (hk : KHolds m c a) :
    W22 m ρ c (Proc.devRef .tc main_v441) = H1 a := by
  have ex : V21 m ρ c main_arg0 = a.x_lnc := (at_main_arg0_21 m ρ c).trans hk.h0
  have ew : V21 m ρ c main_arg12 = a.cW1 := (at_main_arg12_21 m ρ c).trans hk.h12
  have eb : V21 m ρ c main_v440 = kh10_v440 a.cb1 :=
    (kh10_v440_eq (W20 m ρ c)).trans (congrArg kh10_v440 ((at_main_arg13_20 m ρ c).trans hk.h13))
  have er : rowOf (kh10_v440 a.cb1) = a.cb1 := by unfold kh10_v440; exact rowOf_shapeCast _ _
  refine ((W22_arr m ρ c 3).trans (final10 (V21 m ρ) c)).trans ?_
  exact relu_congr (lin_congr ex ew ((congrArg rowOf eb).trans er))

/-- At the exit of region 11 its output array is the node classifier's second layer. -/
theorem k_H2 (c : Dev nD) (a : ArgVals) (hk : KHolds m c a) :
    W24 m ρ c (Proc.devRef .tc main_v443) = H2 a := by
  have ex : V23 m ρ c main_v441 = H1 a := (at_main_v441_23 m ρ c).trans (k_H1 m ρ c a hk)
  have ew : V23 m ρ c main_arg14 = a.cW2 := (at_main_arg14_23 m ρ c).trans hk.h14
  have eb : V23 m ρ c main_v442 = kh11_v442 a.cb2 :=
    (kh11_v442_eq (W22 m ρ c)).trans (congrArg kh11_v442 ((at_main_arg15_22 m ρ c).trans hk.h15))
  have er : rowOf (kh11_v442 a.cb2) = a.cb2 := by unfold kh11_v442; exact rowOf_shapeCast _ _
  refine ((W24_arr m ρ c 3).trans (final11 (V23 m ρ) c)).trans ?_
  exact relu_congr (lin_congr ex ew ((congrArg rowOf eb).trans er))

/-- At the exit of region 12 its output array is the node classifier's last layer. -/
theorem k_H3 (c : Dev nD) (a : ArgVals) (hk : KHolds m c a) :
    W26 m ρ c (Proc.devRef .tc main_v445) = H3 a := by
  have ex : V25 m ρ c main_v443 = H2 a := (at_main_v443_25 m ρ c).trans (k_H2 m ρ c a hk)
  have ew : V25 m ρ c main_arg16 = a.cW3 := (at_main_arg16_25 m ρ c).trans hk.h16
  have eb : V25 m ρ c main_v444 = kh12_v444 a.cb3 :=
    (kh12_v444_eq (W24 m ρ c)).trans (congrArg kh12_v444 ((at_main_arg17_24 m ρ c).trans hk.h17))
  have er : rowOf (kh12_v444 a.cb3) = a.cb3 := by unfold kh12_v444; exact rowOf_shapeCast _ _
  refine ((W26_arr m ρ c 3).trans (final12 (V25 m ρ) c)).trans ?_
  exact lin_congr ex ew ((congrArg rowOf eb).trans er)

end Cert.KernelIdeal.Val

end
-- ==== Proof.Region13.lean ====
/-
  A dense layer clipped below at zero. The output array (500000 × 150) after the last write-back is max(x · w + b, 0),
  entry by entry, for the input x (500000 × 300), the weight w (300 × 150) and the bias row b (1 × 150) as the region
  finds them. The grid has 50 points; point t writes the 10000 rows from row 10000 t on, computed from the same rows
  of x and the whole of w and b, and these row blocks tile the output.
-/
import proofs.«141689_j63058709840619_1_alg».proof.Proof.FrameKI
import proofs.«141689_j63058709840619_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Idealize.ShloMosaic Idealize.ShloMosaic.ValueIdx Cert.KernelIdeal Cert.KernelIdeal.Gen Cert.KernelIdeal.GenP Cert.Spec
open Idealize.ShloMosaic.TcCoe
open Idealize.ShloMosaic.Pipeline (Dat)

/-! ## The body's result at an index -/

/-- Left operand, row axis: the output's row. -/
theorem lhs13_row (j : S10000x150.Idx) (k : dot_S10000x300_S300x150_S10000x150_1_0_0_1_n_n.contr.Idx) :
    (dot_S10000x300_S300x150_S10000x150_1_0_0_1_n_n.lhsIdx j k 0).val = (j 0).val := by
  unfold DotDims.lhsIdx
  rw [dif_neg (show ¬(0 : Fin S10000x300.rank) ∈ dot_S10000x300_S300x150_S10000x150_1_0_0_1_n_n.lhsBatch by decide),
    dif_pos (show (0 : Fin S10000x300.rank) ∈ dot_S10000x300_S300x150_S10000x150_1_0_0_1_n_n.lhsNonContracting by decide)]
  rfl

/-- Left operand, column axis: the contraction position. -/
theorem lhs13_col (j : S10000x150.Idx) (k : dot_S10000x300_S300x150_S10000x150_1_0_0_1_n_n.contr.Idx) :
    (dot_S10000x300_S300x150_S10000x150_1_0_0_1_n_n.lhsIdx j k 1).val = (k ⟨0, by decide⟩).val :=
  dot_S10000x300_S300x150_S10000x150_1_0_0_1_n_n.lhsIdx_val_of_single (cl := 1) rfl j k

/-- Right operand, row axis: the contraction position. -/
theorem rhs13_row (j : S10000x150.Idx) (k : dot_S10000x300_S300x150_S10000x150_1_0_0_1_n_n.contr.Idx) :
    (dot_S10000x300_S300x150_S10000x150_1_0_0_1_n_n.rhsIdx j k 0).val = (k ⟨0, by decide⟩).val :=
  dot_S10000x300_S300x150_S10000x150_1_0_0_1_n_n.rhsIdx_val_of_single (cr := 0) rfl j k

/-- Right operand, column axis: the output's column. -/
theorem rhs13_col (j : S10000x150.Idx) (k : dot_S10000x300_S300x150_S10000x150_1_0_0_1_n_n.contr.Idx) :
    (dot_S10000x300_S300x150_S10000x150_1_0_0_1_n_n.rhsIdx j k 1).val = (j 1).val := by
  unfold DotDims.rhsIdx
  rw [dif_neg (show ¬(1 : Fin S300x150.rank) ∈ dot_S10000x300_S300x150_S10000x150_1_0_0_1_n_n.rhsBatch by decide),
    dif_pos (show (1 : Fin S300x150.rank) ∈ dot_S10000x300_S300x150_S10000x150_1_0_0_1_n_n.rhsNonContracting by decide)]
  rfl

/-- The block product at (p, q): the sum over the 300 shared positions. -/
theorem mm13_apply (a : FVec Ideal S10000x300 .bf16) (b : FVec Ideal S300x150 .bf16) (p : Fin 10000) (q : Fin 150) :
    matmul dot_S10000x300_S300x150_S10000x150_1_0_0_1_n_n none a b (constant (F := Ideal) S10000x150 .f32 0x00000000#32) (ix2 p q)
      = ∑ k : Fin 300, a (ix2 p k) * b (ix2 k q) := by
  show FloatOps.matmul dot_S10000x300_S300x150_S10000x150_1_0_0_1_n_n none a b (constant (F := Ideal) S10000x150 .f32 0x00000000#32) (ix2 p q) = _
  rw [Ideal.matmul_constant_zero_apply,
    ← Equiv.sum_comp (contrEquiv1 dot_S10000x300_S300x150_S10000x150_1_0_0_1_n_n 300 rfl rfl).symm]
  refine Finset.sum_congr rfl fun k _ => ?_
  have hk := contrEquiv1_symm_val dot_S10000x300_S300x150_S10000x150_1_0_0_1_n_n 300 rfl rfl k
  congr 2
  · funext ax; apply Fin.ext
    match ax with
    | ⟨0, _⟩ => exact lhs13_row _ _
    | ⟨1, _⟩ => exact (lhs13_col _ _).trans hk
  · funext ax; apply Fin.ext
    match ax with
    | ⟨0, _⟩ => exact (rhs13_row _ _).trans hk
    | ⟨1, _⟩ => exact rhs13_col _ _

/-- The body's result at (p, q): row p of the x block against column q of w, plus the bias at q, clipped below at zero. -/
theorem pay13_apply (x0 : Vec Ideal S10000x300 .f32) (x1 : Vec Ideal S300x150 .f32) (x2 : Vec Ideal S1x150 .f32)
    (p : Fin 10000) (q : Fin 150) :
    k13_pay1 x0 x1 x2 (ix2 p q) = max ((∑ k : Fin 300, x0 (ix2 p k) * x1 (ix2 k q)) + x2 (ix2 (0 : Fin 1) q)) 0 := by
  unfold k13_pay1
  rw [maximumf_apply, broadcast_apply, addf_apply, mm13_apply, broadcastTo_1b_ab_apply]
  simp only [shapeCast_self, truncf_apply]
  show max ((∑ k : Fin 300, x0 (ix2 p k) * x1 (ix2 k q)) + x2 (ix2 (0 : Fin 1) q)) (Ideal.ofBits .f32 0x00000000#32) = _
  rw [Ideal.ofBits_zero_f32]

/-- The clipped dense layer at (r, q), written out. -/
theorem lin13_at (x : Mat 500000 300) (w : Mat 300 150) (b : Mat 1 150) (r : Fin 500000) (q : Fin 150) :
    relu (lin x w (rowOf b)) (ix2 r q) = max ((∑ k : Fin 300, x (ix2 r k) * w (ix2 k q)) + b (ix2 (0 : Fin 1) q)) 0 := rfl

/-! ## Where the blocks sit -/

variable (V : (c : Dev nD) → (b : Ref sig .tc) → Buf (Elt Ideal) ((c : Thread nD τ).loc b))

theorem zero_off13 : (![0, 0] : Fin 2 → Nat) = fun _ => 0 := funext fun a => by fin_cases a <;> rfl

/-- Over the grid: the x block and the output block of point t are block (t, 0); the w block and the bias block
    are block (0, 0). -/
theorem idx13 : ∀ t : Fin cfg13.N,
    win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = t.val ∧ win13_3.index t (1 : Fin 2) = 0 :=
  (by decide +kernel : ∀ t : Fin grid13.N, _)

theorem pt_lt13 (t : Fin cfg13.N) : t.val < 50 := lt_of_lt_of_eq t.isLt N_13

/-- Row p of the x block at point t is row 10000 t + p of x. -/
theorem xblk13 (c : Dev nD) (t : Fin cfg13.N) (p : Fin 10000) (k : Fin 300) (r : Fin 500000)
    (hr : r.val = t.val * 10000 + p.val) :
    (iblk13 V c 0 t : Vec Ideal S10000x300 .f32) (ix2 p k) = (V c main_v464 : S500000x300.Idx → Elt Ideal .f32) (ix2 r k) := by
  obtain ⟨e0, e1, -⟩ := idx13 t
  unfold iblk13
  rw [View.read_apply]
  show V c main_v464 _ = V c main_v464 _
  congr 1
  funext a
  apply Fin.ext
  match a with
  | ⟨0, _⟩ => show win13_0.index t (0 : Fin 2) * 10000 + 1 * p.val = r.val; rw [e0, hr]; omega
  | ⟨1, _⟩ => show win13_0.index t (1 : Fin 2) * 300 + 1 * k.val = k.val; rw [e1]; omega

/-- The w block at every point is w. -/
theorem wblk13 (c : Dev nD) (t : Fin cfg13.N) (k : Fin 300) (q : Fin 150) :
    (iblk13 V c 1 t : Vec Ideal S300x150 .f32) (ix2 k q) = (V c main_arg18 : S300x150.Idx → Elt Ideal .f32) (ix2 k q) := by
  obtain ⟨-, -, e2, e3, -⟩ := idx13 t
  unfold iblk13
  rw [View.read_apply]
  show V c main_arg18 _ = V c main_arg18 _
  congr 1
  funext a
  apply Fin.ext
  match a with
  | ⟨0, _⟩ => show win13_1.index t (0 : Fin 2) * 300 + 1 * k.val = k.val; rw [e2]; omega
  | ⟨1, _⟩ => show win13_1.index t (1 : Fin 2) * 150 + 1 * q.val = q.val; rw [e3]; omega

/-- The bias block at every point is the bias. -/
theorem bblk13 (c : Dev nD) (t : Fin cfg13.N) (q : Fin 150) :
    (iblk13 V c 2 t : Vec Ideal S1x150 .f32) (ix2 (0 : Fin 1) q) = (V c main_v465 : S1x150.Idx → Elt Ideal .f32) (ix2 (0 : Fin 1) q) := by
  obtain ⟨-, -, -, -, e4, e5, -⟩ := idx13 t
  unfold iblk13
  rw [View.read_apply]
  show V c main_v465 _ = V c main_v465 _
  congr 1
  funext a
  apply Fin.ext
  match a with
  | ⟨0, _⟩ => show win13_2.index t (0 : Fin 2) * 1 + 1 * (0 : Fin 1).val = (0 : Fin 1).val; rw [e4]; rfl
  | ⟨1, _⟩ => show win13_2.index t (1 : Fin 2) * 150 + 1 * q.val = q.val; rw [e5]; omega

/-- Entry (p, q) of the output block at point t is entry (10000 t + p, q) of the output. -/
theorem oemb13 (t : Fin cfg13.N) (p : Fin 10000) (q : Fin 150) :
    ∃ r : Fin 500000, r.val = t.val * 10000 + p.val ∧ ((cfg13.win 3).blk t).view.emb (ix2 p q) = ix2 r q := by
  obtain ⟨-, -, -, -, -, -, e6, e7⟩ := idx13 t
  have ht := pt_lt13 t
  have hp := p.isLt
  refine ⟨⟨t.val * 10000 + p.val, by omega⟩, rfl, ?_⟩
  funext a
  apply Fin.ext
  match a with
  | ⟨0, _⟩ => show win13_3.index t (0 : Fin 2) * 10000 + 1 * p.val = t.val * 10000 + p.val; rw [e6]; omega
  | ⟨1, _⟩ => show win13_3.index t (1 : Fin 2) * 150 + 1 * q.val = q.val; rw [e7]; omega

/-! ## What a point writes back, and the array after the last point -/

/-- Point t writes back block t of the clipped dense layer of the whole arrays. -/
theorem flushed13_eq (c : Dev nD) (t : Fin cfg13.N) :
    (dat13 (F := Ideal) V c).flushed 3 t
      = ((cfg13.win 3).blk t).view.read (Elt Ideal)
          (relu (lin (M := 500000) (K := 300) (N := 150) (V c main_v464) (V c main_arg18) (rowOf (V c main_v465)))) := by
  show (cfg13.win 3).cut (grid13.coords t) ((dat13 V c).after 3 t) = _
  rw [after13_3]
  unfold out13_3
  rw [View.canon_unit_zero zero_off13]
  simp only [View.ld_unit_zero (S := S10000x300) zero_off13, View.ld_unit_zero (S := S300x150) zero_off13,
    View.ld_unit_zero (S := S1x150) zero_off13]
  funext j
  obtain ⟨p, q, rfl⟩ : ∃ (p : Fin 10000) (q : Fin 150), j = ix2 p q := ⟨j 0, j 1, eq_ix2 j⟩
  show k13_pay1 (iblk13 V c 0 t) (iblk13 V c 1 t) (iblk13 V c 2 t) (ix2 p q)
    = relu (lin (M := 500000) (K := 300) (N := 150) (V c main_v464) (V c main_arg18) (rowOf (V c main_v465)))
        (((cfg13.win 3).blk t).view.emb (ix2 p q))
  obtain ⟨r, hr, he⟩ := oemb13 t p q
  rw [he]
  refine (pay13_apply _ _ _ p q).trans (Eq.trans ?_ (lin13_at _ _ _ r q).symm)
  exact congrArg (fun y => max y 0) (congrArg₂ (· + ·)
    (Finset.sum_congr rfl fun k _ => congrArg₂ (· * ·) (xblk13 V c t p k r hr) (wblk13 V c t k q))
    (bblk13 V c t q))

/-- An index of the output is in point t's block iff each coordinate is in the block's range on its axis. -/
theorem mem_blk13 (t : Fin cfg13.N) (i : S500000x150.Idx) :
    i ∈ ((cfg13.win 3).blk t).view.set ↔ ∀ a : Fin 2, win13_3.index t a * S10000x150.size a ≤ (i a).val
      ∧ (i a).val < win13_3.index t a * S10000x150.size a + S10000x150.size a := by
  show i ∈ ((View.whole main_v466).slice (win13_3.rect t)).set ↔ _
  rw [View.set_slice_whole, Rect.mem_set_unit]
  exact Iff.rfl

/-- Row r of the output lies in the block of point r / 10000. -/
theorem cover13 (i : S500000x150.Idx) :
    ∃ t : Fin cfg13.N, (cfg13.win 3).flush t = true ∧ i ∈ ((cfg13.win 3).blk t).view.set := by
  have hi0 : (i 0).val < 500000 := (i 0).isLt
  have hi1 : (i 1).val < 150 := (i 1).isLt
  obtain ⟨t, ht⟩ : ∃ t : Fin cfg13.N, t.val = (i 0).val / 10000 :=
    ⟨⟨(i 0).val / 10000, lt_of_lt_of_eq (show (i 0).val / 10000 < 50 by omega) N_13.symm⟩, rfl⟩
  obtain ⟨-, -, -, -, -, -, e6, e7⟩ := idx13 t
  refine ⟨t, flush13_3 t, ?_⟩
  rw [mem_blk13]
  intro a
  match a with
  | ⟨0, _⟩ =>
    show win13_3.index t (0 : Fin 2) * 10000 ≤ (i 0).val ∧ (i 0).val < win13_3.index t (0 : Fin 2) * 10000 + 10000
    rw [e6, ht]; omega
  | ⟨1, _⟩ =>
    show win13_3.index t (1 : Fin 2) * 150 ≤ (i 1).val ∧ (i 1).val < win13_3.index t (1 : Fin 2) * 150 + 150
    rw [e7]; omega

/-- After the last write-back the output array is max(x · w + b, 0) of the arrays the region found. -/
theorem final13 (c : Dev nD) :
    (dat13 (F := Ideal) V c).arrAt 3 cfg13.N
      = relu (lin (M := 500000) (K := 300) (N := 150) (V c main_v464) (V c main_arg18) (rowOf (V c main_v465))) :=
  (dat13 (F := Ideal) V c).arrAt_eq_of_cover 3 _ (fun t _ => flushed13_eq V c t) cover13

end Cert.KernelIdeal.Val

end
-- ==== Proof.Region14.lean ====
/-
  A dense layer clipped below at zero. The output array (500000 × 50) after the last write-back is max(x · w + b, 0),
  entry by entry, for the input x (500000 × 150), the weight w (150 × 50) and the bias row b (1 × 50) as the region
  finds them. The grid has 50 points; point t writes the 10000 rows from row 10000 t on, computed from the same rows
  of x and the whole of w and b, and these row blocks tile the output.
-/
import proofs.«141689_j63058709840619_1_alg».proof.Proof.FrameKI
import proofs.«141689_j63058709840619_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Idealize.ShloMosaic Idealize.ShloMosaic.ValueIdx Cert.KernelIdeal Cert.KernelIdeal.Gen Cert.KernelIdeal.GenP Cert.Spec
open Idealize.ShloMosaic.TcCoe
open Idealize.ShloMosaic.Pipeline (Dat)

/-! ## The body's result at an index -/

/-- Left operand, row axis: the output's row. -/
theorem lhs14_row (j : S10000x50.Idx) (k : dot_S10000x150_S150x50_S10000x50_1_0_0_1_n_n.contr.Idx) :
    (dot_S10000x150_S150x50_S10000x50_1_0_0_1_n_n.lhsIdx j k 0).val = (j 0).val := by
  unfold DotDims.lhsIdx
  rw [dif_neg (show ¬(0 : Fin S10000x150.rank) ∈ dot_S10000x150_S150x50_S10000x50_1_0_0_1_n_n.lhsBatch by decide),
    dif_pos (show (0 : Fin S10000x150.rank) ∈ dot_S10000x150_S150x50_S10000x50_1_0_0_1_n_n.lhsNonContracting by decide)]
  rfl

/-- Left operand, column axis: the contraction position. -/
theorem lhs14_col (j : S10000x50.Idx) (k : dot_S10000x150_S150x50_S10000x50_1_0_0_1_n_n.contr.Idx) :
    (dot_S10000x150_S150x50_S10000x50_1_0_0_1_n_n.lhsIdx j k 1).val = (k ⟨0, by decide⟩).val :=
  dot_S10000x150_S150x50_S10000x50_1_0_0_1_n_n.lhsIdx_val_of_single (cl := 1) rfl j k

/-- Right operand, row axis: the contraction position. -/
theorem rhs14_row (j : S10000x50.Idx) (k : dot_S10000x150_S150x50_S10000x50_1_0_0_1_n_n.contr.Idx) :
    (dot_S10000x150_S150x50_S10000x50_1_0_0_1_n_n.rhsIdx j k 0).val = (k ⟨0, by decide⟩).val :=
  dot_S10000x150_S150x50_S10000x50_1_0_0_1_n_n.rhsIdx_val_of_single (cr := 0) rfl j k

/-- Right operand, column axis: the output's column. -/
theorem rhs14_col (j : S10000x50.Idx) (k : dot_S10000x150_S150x50_S10000x50_1_0_0_1_n_n.contr.Idx) :
    (dot_S10000x150_S150x50_S10000x50_1_0_0_1_n_n.rhsIdx j k 1).val = (j 1).val := by
  unfold DotDims.rhsIdx
  rw [dif_neg (show ¬(1 : Fin S150x50.rank) ∈ dot_S10000x150_S150x50_S10000x50_1_0_0_1_n_n.rhsBatch by decide),
    dif_pos (show (1 : Fin S150x50.rank) ∈ dot_S10000x150_S150x50_S10000x50_1_0_0_1_n_n.rhsNonContracting by decide)]
  rfl

/-- The block product at (p, q): the sum over the 150 shared positions. -/
theorem mm14_apply (a : FVec Ideal S10000x150 .bf16) (b : FVec Ideal S150x50 .bf16) (p : Fin 10000) (q : Fin 50) :
    matmul dot_S10000x150_S150x50_S10000x50_1_0_0_1_n_n none a b (constant (F := Ideal) S10000x50 .f32 0x00000000#32) (ix2 p q)
      = ∑ k : Fin 150, a (ix2 p k) * b (ix2 k q) := by
  show FloatOps.matmul dot_S10000x150_S150x50_S10000x50_1_0_0_1_n_n none a b (constant (F := Ideal) S10000x50 .f32 0x00000000#32) (ix2 p q) = _
  rw [Ideal.matmul_constant_zero_apply,
    ← Equiv.sum_comp (contrEquiv1 dot_S10000x150_S150x50_S10000x50_1_0_0_1_n_n 150 rfl rfl).symm]
  refine Finset.sum_congr rfl fun k _ => ?_
  have hk := contrEquiv1_symm_val dot_S10000x150_S150x50_S10000x50_1_0_0_1_n_n 150 rfl rfl k
  congr 2
  · funext ax; apply Fin.ext
    match ax with
    | ⟨0, _⟩ => exact lhs14_row _ _
    | ⟨1, _⟩ => exact (lhs14_col _ _).trans hk
  · funext ax; apply Fin.ext
    match ax with
    | ⟨0, _⟩ => exact (rhs14_row _ _).trans hk
    | ⟨1, _⟩ => exact rhs14_col _ _

/-- The body's result at (p, q): row p of the x block against column q of w, plus the bias at q, clipped below at zero. -/
theorem pay14_apply (x0 : Vec Ideal S10000x150 .f32) (x1 : Vec Ideal S150x50 .f32) (x2 : Vec Ideal S1x50 .f32)
    (p : Fin 10000) (q : Fin 50) :
    k14_pay1 x0 x1 x2 (ix2 p q) = max ((∑ k : Fin 150, x0 (ix2 p k) * x1 (ix2 k q)) + x2 (ix2 (0 : Fin 1) q)) 0 := by
  unfold k14_pay1
  rw [maximumf_apply, broadcast_apply, addf_apply, mm14_apply, broadcastTo_1b_ab_apply]
  simp only [shapeCast_self, truncf_apply]
  show max ((∑ k : Fin 150, x0 (ix2 p k) * x1 (ix2 k q)) + x2 (ix2 (0 : Fin 1) q)) (Ideal.ofBits .f32 0x00000000#32) = _
  rw [Ideal.ofBits_zero_f32]

/-- The clipped dense layer at (r, q), written out. -/
theorem lin14_at (x : Mat 500000 150) (w : Mat 150 50) (b : Mat 1 50) (r : Fin 500000) (q : Fin 50) :
    relu (lin x w (rowOf b)) (ix2 r q) = max ((∑ k : Fin 150, x (ix2 r k) * w (ix2 k q)) + b (ix2 (0 : Fin 1) q)) 0 := rfl

/-! ## Where the blocks sit -/

variable (V : (c : Dev nD) → (b : Ref sig .tc) → Buf (Elt Ideal) ((c : Thread nD τ).loc b))

theorem zero_off14 : (![0, 0] : Fin 2 → Nat) = fun _ => 0 := funext fun a => by fin_cases a <;> rfl

/-- Over the grid: the x block and the output block of point t are block (t, 0); the w block and the bias block
    are block (0, 0). -/
theorem idx14 : ∀ t : Fin cfg14.N,
    win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = t.val ∧ win14_3.index t (1 : Fin 2) = 0 :=
  (by decide +kernel : ∀ t : Fin grid14.N, _)

theorem pt_lt14 (t : Fin cfg14.N) : t.val < 50 := lt_of_lt_of_eq t.isLt N_14

/-- Row p of the x block at point t is row 10000 t + p of x. -/
theorem xblk14 (c : Dev nD) (t : Fin cfg14.N) (p : Fin 10000) (k : Fin 150) (r : Fin 500000)
    (hr : r.val = t.val * 10000 + p.val) :
    (iblk14 V c 0 t : Vec Ideal S10000x150 .f32) (ix2 p k) = (V c main_v466 : S500000x150.Idx → Elt Ideal .f32) (ix2 r k) := by
  obtain ⟨e0, e1, -⟩ := idx14 t
  unfold iblk14
  rw [View.read_apply]
  show V c main_v466 _ = V c main_v466 _
  congr 1
  funext a
  apply Fin.ext
  match a with
  | ⟨0, _⟩ => show win14_0.index t (0 : Fin 2) * 10000 + 1 * p.val = r.val; rw [e0, hr]; omega
  | ⟨1, _⟩ => show win14_0.index t (1 : Fin 2) * 150 + 1 * k.val = k.val; rw [e1]; omega

/-- The w block at every point is w. -/
theorem wblk14 (c : Dev nD) (t : Fin cfg14.N) (k : Fin 150) (q : Fin 50) :
    (iblk14 V c 1 t : Vec Ideal S150x50 .f32) (ix2 k q) = (V c main_arg20 : S150x50.Idx → Elt Ideal .f32) (ix2 k q) := by
  obtain ⟨-, -, e2, e3, -⟩ := idx14 t
  unfold iblk14
  rw [View.read_apply]
  show V c main_arg20 _ = V c main_arg20 _
  congr 1
  funext a
  apply Fin.ext
  match a with
  | ⟨0, _⟩ => show win14_1.index t (0 : Fin 2) * 150 + 1 * k.val = k.val; rw [e2]; omega
  | ⟨1, _⟩ => show win14_1.index t (1 : Fin 2) * 50 + 1 * q.val = q.val; rw [e3]; omega

/-- The bias block at every point is the bias. -/
theorem bblk14 (c : Dev nD) (t : Fin cfg14.N) (q : Fin 50) :
    (iblk14 V c 2 t : Vec Ideal S1x50 .f32) (ix2 (0 : Fin 1) q) = (V c main_v467 : S1x50.Idx → Elt Ideal .f32) (ix2 (0 : Fin 1) q) := by
  obtain ⟨-, -, -, -, e4, e5, -⟩ := idx14 t
  unfold iblk14
  rw [View.read_apply]
  show V c main_v467 _ = V c main_v467 _
  congr 1
  funext a
  apply Fin.ext
  match a with
  | ⟨0, _⟩ => show win14_2.index t (0 : Fin 2) * 1 + 1 * (0 : Fin 1).val = (0 : Fin 1).val; rw [e4]; rfl
  | ⟨1, _⟩ => show win14_2.index t (1 : Fin 2) * 50 + 1 * q.val = q.val; rw [e5]; omega

/-- Entry (p, q) of the output block at point t is entry (10000 t + p, q) of the output. -/
theorem oemb14 (t : Fin cfg14.N) (p : Fin 10000) (q : Fin 50) :
    ∃ r : Fin 500000, r.val = t.val * 10000 + p.val ∧ ((cfg14.win 3).blk t).view.emb (ix2 p q) = ix2 r q := by
  obtain ⟨-, -, -, -, -, -, e6, e7⟩ := idx14 t
  have ht := pt_lt14 t
  have hp := p.isLt
  refine ⟨⟨t.val * 10000 + p.val, by omega⟩, rfl, ?_⟩
  funext a
  apply Fin.ext
  match a with
  | ⟨0, _⟩ => show win14_3.index t (0 : Fin 2) * 10000 + 1 * p.val = t.val * 10000 + p.val; rw [e6]; omega
  | ⟨1, _⟩ => show win14_3.index t (1 : Fin 2) * 50 + 1 * q.val = q.val; rw [e7]; omega

/-! ## What a point writes back, and the array after the last point -/

/-- Point t writes back block t of the clipped dense layer of the whole arrays. -/
theorem flushed14_eq (c : Dev nD) (t : Fin cfg14.N) :
    (dat14 (F := Ideal) V c).flushed 3 t
      = ((cfg14.win 3).blk t).view.read (Elt Ideal)
          (relu (lin (M := 500000) (K := 150) (N := 50) (V c main_v466) (V c main_arg20) (rowOf (V c main_v467)))) := by
  show (cfg14.win 3).cut (grid14.coords t) ((dat14 V c).after 3 t) = _
  rw [after14_3]
  unfold out14_3
  rw [View.canon_unit_zero zero_off14]
  simp only [View.ld_unit_zero (S := S10000x150) zero_off14, View.ld_unit_zero (S := S150x50) zero_off14,
    View.ld_unit_zero (S := S1x50) zero_off14]
  funext j
  obtain ⟨p, q, rfl⟩ : ∃ (p : Fin 10000) (q : Fin 50), j = ix2 p q := ⟨j 0, j 1, eq_ix2 j⟩
  show k14_pay1 (iblk14 V c 0 t) (iblk14 V c 1 t) (iblk14 V c 2 t) (ix2 p q)
    = relu (lin (M := 500000) (K := 150) (N := 50) (V c main_v466) (V c main_arg20) (rowOf (V c main_v467)))
        (((cfg14.win 3).blk t).view.emb (ix2 p q))
  obtain ⟨r, hr, he⟩ := oemb14 t p q
  rw [he]
  refine (pay14_apply _ _ _ p q).trans (Eq.trans ?_ (lin14_at _ _ _ r q).symm)
  exact congrArg (fun y => max y 0) (congrArg₂ (· + ·)
    (Finset.sum_congr rfl fun k _ => congrArg₂ (· * ·) (xblk14 V c t p k r hr) (wblk14 V c t k q))
    (bblk14 V c t q))

/-- An index of the output is in point t's block iff each coordinate is in the block's range on its axis. -/
theorem mem_blk14 (t : Fin cfg14.N) (i : S500000x50.Idx) :
    i ∈ ((cfg14.win 3).blk t).view.set ↔ ∀ a : Fin 2, win14_3.index t a * S10000x50.size a ≤ (i a).val
      ∧ (i a).val < win14_3.index t a * S10000x50.size a + S10000x50.size a := by
  show i ∈ ((View.whole main_v468).slice (win14_3.rect t)).set ↔ _
  rw [View.set_slice_whole, Rect.mem_set_unit]
  exact Iff.rfl

/-- Row r of the output lies in the block of point r / 10000. -/
theorem cover14 (i : S500000x50.Idx) :
    ∃ t : Fin cfg14.N, (cfg14.win 3).flush t = true ∧ i ∈ ((cfg14.win 3).blk t).view.set := by
  have hi0 : (i 0).val < 500000 := (i 0).isLt
  have hi1 : (i 1).val < 50 := (i 1).isLt
  obtain ⟨t, ht⟩ : ∃ t : Fin cfg14.N, t.val = (i 0).val / 10000 :=
    ⟨⟨(i 0).val / 10000, lt_of_lt_of_eq (show (i 0).val / 10000 < 50 by omega) N_14.symm⟩, rfl⟩
  obtain ⟨-, -, -, -, -, -, e6, e7⟩ := idx14 t
  refine ⟨t, flush14_3 t, ?_⟩
  rw [mem_blk14]
  intro a
  match a with
  | ⟨0, _⟩ =>
    show win14_3.index t (0 : Fin 2) * 10000 ≤ (i 0).val ∧ (i 0).val < win14_3.index t (0 : Fin 2) * 10000 + 10000
    rw [e6, ht]; omega
  | ⟨1, _⟩ =>
    show win14_3.index t (1 : Fin 2) * 50 ≤ (i 1).val ∧ (i 1).val < win14_3.index t (1 : Fin 2) * 50 + 50
    rw [e7]; omega

/-- After the last write-back the output array is max(x · w + b, 0) of the arrays the region found. -/
theorem final14 (c : Dev nD) :
    (dat14 (F := Ideal) V c).arrAt 3 cfg14.N
      = relu (lin (M := 500000) (K := 150) (N := 50) (V c main_v466) (V c main_arg20) (rowOf (V c main_v467))) :=
  (dat14 (F := Ideal) V c).arrAt_eq_of_cover 3 _ (fun t _ => flushed14_eq V c t) cover14

end Cert.KernelIdeal.Val

end
-- ==== Proof.Region15.lean ====
/-
  A dense layer. The output array (500000 × 3) after the last write-back is x · w + b for the input x (500000 × 50),
  the weight w (50 × 3) and the bias row b (1 × 3) as the region finds them. The grid has 50 points; point t
  writes the 10000 rows from row 10000 t on, computed from the same rows of x and the whole of w and b, and these
  row blocks tile the output.
-/
import proofs.«141689_j63058709840619_1_alg».proof.Proof.FrameKI
import proofs.«141689_j63058709840619_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Idealize.ShloMosaic Idealize.ShloMosaic.ValueIdx Cert.KernelIdeal Cert.KernelIdeal.Gen Cert.KernelIdeal.GenP Cert.Spec
open Idealize.ShloMosaic.TcCoe
open Idealize.ShloMosaic.Pipeline (Dat)

/-! ## The body's result at an index -/

/-- Left operand, row axis: the output's row. -/
theorem lhs15_row (j : S10000x3.Idx) (k : dot_S10000x50_S50x3_S10000x3_1_0_0_1_n_n.contr.Idx) :
    (dot_S10000x50_S50x3_S10000x3_1_0_0_1_n_n.lhsIdx j k 0).val = (j 0).val := by
  unfold DotDims.lhsIdx
  rw [dif_neg (show ¬(0 : Fin S10000x50.rank) ∈ dot_S10000x50_S50x3_S10000x3_1_0_0_1_n_n.lhsBatch by decide),
    dif_pos (show (0 : Fin S10000x50.rank) ∈ dot_S10000x50_S50x3_S10000x3_1_0_0_1_n_n.lhsNonContracting by decide)]
  rfl

/-- Left operand, column axis: the contraction position. -/
theorem lhs15_col (j : S10000x3.Idx) (k : dot_S10000x50_S50x3_S10000x3_1_0_0_1_n_n.contr.Idx) :
    (dot_S10000x50_S50x3_S10000x3_1_0_0_1_n_n.lhsIdx j k 1).val = (k ⟨0, by decide⟩).val :=
  dot_S10000x50_S50x3_S10000x3_1_0_0_1_n_n.lhsIdx_val_of_single (cl := 1) rfl j k

/-- Right operand, row axis: the contraction position. -/
theorem rhs15_row (j : S10000x3.Idx) (k : dot_S10000x50_S50x3_S10000x3_1_0_0_1_n_n.contr.Idx) :
    (dot_S10000x50_S50x3_S10000x3_1_0_0_1_n_n.rhsIdx j k 0).val = (k ⟨0, by decide⟩).val :=
  dot_S10000x50_S50x3_S10000x3_1_0_0_1_n_n.rhsIdx_val_of_single (cr := 0) rfl j k

/-- Right operand, column axis: the output's column. -/
theorem rhs15_col (j : S10000x3.Idx) (k : dot_S10000x50_S50x3_S10000x3_1_0_0_1_n_n.contr.Idx) :
    (dot_S10000x50_S50x3_S10000x3_1_0_0_1_n_n.rhsIdx j k 1).val = (j 1).val := by
  unfold DotDims.rhsIdx
  rw [dif_neg (show ¬(1 : Fin S50x3.rank) ∈ dot_S10000x50_S50x3_S10000x3_1_0_0_1_n_n.rhsBatch by decide),
    dif_pos (show (1 : Fin S50x3.rank) ∈ dot_S10000x50_S50x3_S10000x3_1_0_0_1_n_n.rhsNonContracting by decide)]
  rfl

/-- The block product at (p, q): the sum over the 50 shared positions. -/
theorem mm15_apply (a : FVec Ideal S10000x50 .bf16) (b : FVec Ideal S50x3 .bf16) (p : Fin 10000) (q : Fin 3) :
    matmul dot_S10000x50_S50x3_S10000x3_1_0_0_1_n_n none a b (constant (F := Ideal) S10000x3 .f32 0x00000000#32) (ix2 p q)
      = ∑ k : Fin 50, a (ix2 p k) * b (ix2 k q) := by
  show FloatOps.matmul dot_S10000x50_S50x3_S10000x3_1_0_0_1_n_n none a b (constant (F := Ideal) S10000x3 .f32 0x00000000#32) (ix2 p q) = _
  rw [Ideal.matmul_constant_zero_apply,
    ← Equiv.sum_comp (contrEquiv1 dot_S10000x50_S50x3_S10000x3_1_0_0_1_n_n 50 rfl rfl).symm]
  refine Finset.sum_congr rfl fun k _ => ?_
  have hk := contrEquiv1_symm_val dot_S10000x50_S50x3_S10000x3_1_0_0_1_n_n 50 rfl rfl k
  congr 2
  · funext ax; apply Fin.ext
    match ax with
    | ⟨0, _⟩ => exact lhs15_row _ _
    | ⟨1, _⟩ => exact (lhs15_col _ _).trans hk
  · funext ax; apply Fin.ext
    match ax with
    | ⟨0, _⟩ => exact (rhs15_row _ _).trans hk
    | ⟨1, _⟩ => exact rhs15_col _ _

/-- The body's result at (p, q): row p of the x block against column q of w, plus the bias at q. -/
theorem pay15_apply (x0 : Vec Ideal S10000x50 .f32) (x1 : Vec Ideal S50x3 .f32) (x2 : Vec Ideal S1x3 .f32)
    (p : Fin 10000) (q : Fin 3) :
    k15_pay1 x0 x1 x2 (ix2 p q) = (∑ k : Fin 50, x0 (ix2 p k) * x1 (ix2 k q)) + x2 (ix2 (0 : Fin 1) q) := by
  unfold k15_pay1
  rw [addf_apply, mm15_apply, broadcastTo_1b_ab_apply]
  simp only [shapeCast_self, truncf_apply]

/-- The dense layer at (r, q), written out. -/
theorem lin15_at (x : Mat 500000 50) (w : Mat 50 3) (b : Mat 1 3) (r : Fin 500000) (q : Fin 3) :
    lin x w (rowOf b) (ix2 r q) = (∑ k : Fin 50, x (ix2 r k) * w (ix2 k q)) + b (ix2 (0 : Fin 1) q) := rfl

/-! ## Where the blocks sit -/

variable (V : (c : Dev nD) → (b : Ref sig .tc) → Buf (Elt Ideal) ((c : Thread nD τ).loc b))

theorem zero_off15 : (![0, 0] : Fin 2 → Nat) = fun _ => 0 := funext fun a => by fin_cases a <;> rfl

/-- Over the grid: the x block and the output block of point t are block (t, 0); the w block and the bias block
    are block (0, 0). -/
theorem idx15 : ∀ t : Fin cfg15.N,
    win15_0.index t (0 : Fin 2) = t.val ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = t.val ∧ win15_3.index t (1 : Fin 2) = 0 :=
  (by decide +kernel : ∀ t : Fin grid15.N, _)

theorem pt_lt15 (t : Fin cfg15.N) : t.val < 50 := lt_of_lt_of_eq t.isLt N_15

/-- Row p of the x block at point t is row 10000 t + p of x. -/
theorem xblk15 (c : Dev nD) (t : Fin cfg15.N) (p : Fin 10000) (k : Fin 50) (r : Fin 500000)
    (hr : r.val = t.val * 10000 + p.val) :
    (iblk15 V c 0 t : Vec Ideal S10000x50 .f32) (ix2 p k) = (V c main_v468 : S500000x50.Idx → Elt Ideal .f32) (ix2 r k) := by
  obtain ⟨e0, e1, -⟩ := idx15 t
  unfold iblk15
  rw [View.read_apply]
  show V c main_v468 _ = V c main_v468 _
  congr 1
  funext a
  apply Fin.ext
  match a with
  | ⟨0, _⟩ => show win15_0.index t (0 : Fin 2) * 10000 + 1 * p.val = r.val; rw [e0, hr]; omega
  | ⟨1, _⟩ => show win15_0.index t (1 : Fin 2) * 50 + 1 * k.val = k.val; rw [e1]; omega

/-- The w block at every point is w. -/
theorem wblk15 (c : Dev nD) (t : Fin cfg15.N) (k : Fin 50) (q : Fin 3) :
    (iblk15 V c 1 t : Vec Ideal S50x3 .f32) (ix2 k q) = (V c main_arg22 : S50x3.Idx → Elt Ideal .f32) (ix2 k q) := by
  obtain ⟨-, -, e2, e3, -⟩ := idx15 t
  unfold iblk15
  rw [View.read_apply]
  show V c main_arg22 _ = V c main_arg22 _
  congr 1
  funext a
  apply Fin.ext
  match a with
  | ⟨0, _⟩ => show win15_1.index t (0 : Fin 2) * 50 + 1 * k.val = k.val; rw [e2]; omega
  | ⟨1, _⟩ => show win15_1.index t (1 : Fin 2) * 3 + 1 * q.val = q.val; rw [e3]; omega

/-- The bias block at every point is the bias. -/
theorem bblk15 (c : Dev nD) (t : Fin cfg15.N) (q : Fin 3) :
    (iblk15 V c 2 t : Vec Ideal S1x3 .f32) (ix2 (0 : Fin 1) q) = (V c main_v469 : S1x3.Idx → Elt Ideal .f32) (ix2 (0 : Fin 1) q) := by
  obtain ⟨-, -, -, -, e4, e5, -⟩ := idx15 t
  unfold iblk15
  rw [View.read_apply]
  show V c main_v469 _ = V c main_v469 _
  congr 1
  funext a
  apply Fin.ext
  match a with
  | ⟨0, _⟩ => show win15_2.index t (0 : Fin 2) * 1 + 1 * (0 : Fin 1).val = (0 : Fin 1).val; rw [e4]; rfl
  | ⟨1, _⟩ => show win15_2.index t (1 : Fin 2) * 3 + 1 * q.val = q.val; rw [e5]; omega

/-- Entry (p, q) of the output block at point t is entry (10000 t + p, q) of the output. -/
theorem oemb15 (t : Fin cfg15.N) (p : Fin 10000) (q : Fin 3) :
    ∃ r : Fin 500000, r.val = t.val * 10000 + p.val ∧ ((cfg15.win 3).blk t).view.emb (ix2 p q) = ix2 r q := by
  obtain ⟨-, -, -, -, -, -, e6, e7⟩ := idx15 t
  have ht := pt_lt15 t
  have hp := p.isLt
  refine ⟨⟨t.val * 10000 + p.val, by omega⟩, rfl, ?_⟩
  funext a
  apply Fin.ext
  match a with
  | ⟨0, _⟩ => show win15_3.index t (0 : Fin 2) * 10000 + 1 * p.val = t.val * 10000 + p.val; rw [e6]; omega
  | ⟨1, _⟩ => show win15_3.index t (1 : Fin 2) * 3 + 1 * q.val = q.val; rw [e7]; omega

/-! ## What a point writes back, and the array after the last point -/

/-- Point t writes back block t of the dense layer of the whole arrays. -/
theorem flushed15_eq (c : Dev nD) (t : Fin cfg15.N) :
    (dat15 (F := Ideal) V c).flushed 3 t
      = ((cfg15.win 3).blk t).view.read (Elt Ideal)
          (lin (M := 500000) (K := 50) (N := 3) (V c main_v468) (V c main_arg22) (rowOf (V c main_v469))) := by
  show (cfg15.win 3).cut (grid15.coords t) ((dat15 V c).after 3 t) = _
  rw [after15_3]
  unfold out15_3
  rw [View.canon_unit_zero zero_off15]
  simp only [View.ld_unit_zero (S := S10000x50) zero_off15, View.ld_unit_zero (S := S50x3) zero_off15,
    View.ld_unit_zero (S := S1x3) zero_off15]
  funext j
  obtain ⟨p, q, rfl⟩ : ∃ (p : Fin 10000) (q : Fin 3), j = ix2 p q := ⟨j 0, j 1, eq_ix2 j⟩
  show k15_pay1 (iblk15 V c 0 t) (iblk15 V c 1 t) (iblk15 V c 2 t) (ix2 p q)
    = lin (M := 500000) (K := 50) (N := 3) (V c main_v468) (V c main_arg22) (rowOf (V c main_v469))
        (((cfg15.win 3).blk t).view.emb (ix2 p q))
  obtain ⟨r, hr, he⟩ := oemb15 t p q
  rw [he]
  refine (pay15_apply _ _ _ p q).trans (Eq.trans ?_ (lin15_at _ _ _ r q).symm)
  exact congrArg₂ (· + ·)
    (Finset.sum_congr rfl fun k _ => congrArg₂ (· * ·) (xblk15 V c t p k r hr) (wblk15 V c t k q))
    (bblk15 V c t q)

/-- An index of the output is in point t's block iff each coordinate is in the block's range on its axis. -/
theorem mem_blk15 (t : Fin cfg15.N) (i : S500000x3.Idx) :
    i ∈ ((cfg15.win 3).blk t).view.set ↔ ∀ a : Fin 2, win15_3.index t a * S10000x3.size a ≤ (i a).val
      ∧ (i a).val < win15_3.index t a * S10000x3.size a + S10000x3.size a := by
  show i ∈ ((View.whole main_v470).slice (win15_3.rect t)).set ↔ _
  rw [View.set_slice_whole, Rect.mem_set_unit]
  exact Iff.rfl

/-- Row r of the output lies in the block of point r / 10000. -/
theorem cover15 (i : S500000x3.Idx) :
    ∃ t : Fin cfg15.N, (cfg15.win 3).flush t = true ∧ i ∈ ((cfg15.win 3).blk t).view.set := by
  have hi0 : (i 0).val < 500000 := (i 0).isLt
  have hi1 : (i 1).val < 3 := (i 1).isLt
  obtain ⟨t, ht⟩ : ∃ t : Fin cfg15.N, t.val = (i 0).val / 10000 :=
    ⟨⟨(i 0).val / 10000, lt_of_lt_of_eq (show (i 0).val / 10000 < 50 by omega) N_15.symm⟩, rfl⟩
  obtain ⟨-, -, -, -, -, -, e6, e7⟩ := idx15 t
  refine ⟨t, flush15_3 t, ?_⟩
  rw [mem_blk15]
  intro a
  match a with
  | ⟨0, _⟩ =>
    show win15_3.index t (0 : Fin 2) * 10000 ≤ (i 0).val ∧ (i 0).val < win15_3.index t (0 : Fin 2) * 10000 + 10000
    rw [e6, ht]; omega
  | ⟨1, _⟩ =>
    show win15_3.index t (1 : Fin 2) * 3 ≤ (i 1).val ∧ (i 1).val < win15_3.index t (1 : Fin 2) * 3 + 3
    rw [e7]; omega

/-- After the last write-back the output array is the dense layer x · w + b of the arrays the region found. -/
theorem final15 (c : Dev nD) :
    (dat15 (F := Ideal) V c).arrAt 3 cfg15.N
      = lin (M := 500000) (K := 50) (N := 3) (V c main_v468) (V c main_arg22) (rowOf (V c main_v469)) :=
  (dat15 (F := Ideal) V c).arrAt_eq_of_cover 3 _ (fun t _ => flushed15_eq V c t) cover15

end Cert.KernelIdeal.Val

end
-- ==== Proof.TransportD.lean ====
/- A buffer that no segment between two boundaries writes holds at the later boundary what it held at the earlier
   one: a host stretch changes only the buffers its operations write, and a region only its output array. -/
import proofs.«141689_j63058709840619_1_alg».proof.Proof.FrameKI
import Idealize.ShloMosaic.PureOps.Ideal

set_option maxRecDepth 16384

noncomputable section

namespace Cert.KernelIdeal.Val

open Idealize.ShloMosaic Idealize.ShloMosaic.TcCoe Idealize.SL.Sem
open Cert.KernelIdeal Cert.KernelIdeal.Gen Cert.KernelIdeal.GenP

variable (m : (ℓ : Loc nD τ sig) → Buf (Elt Ideal) ℓ) (ρ : Dev nD → PrngReg)

theorem tr_main_arg27_26_0 (c : Dev nD) : W26 m ρ c (Proc.devRef .tc main_arg27) = W0 m ρ c (Proc.devRef .tc main_arg27) :=
  calc W26 m ρ c (Proc.devRef .tc main_arg27)
    _ = W25 m ρ c (Proc.devRef .tc main_arg27) := W26_of_ne m ρ c main_arg27 (by decide)
    _ = W24 m ρ c (Proc.devRef .tc main_arg27) := StableHlo.after_of_forall_not_mem (b := Proc.devRef .tc main_arg27) _ _ (by decide +kernel)
    _ = W23 m ρ c (Proc.devRef .tc main_arg27) := W24_of_ne m ρ c main_arg27 (by decide)
    _ = W22 m ρ c (Proc.devRef .tc main_arg27) := StableHlo.after_of_forall_not_mem (b := Proc.devRef .tc main_arg27) _ _ (by decide +kernel)
    _ = W21 m ρ c (Proc.devRef .tc main_arg27) := W22_of_ne m ρ c main_arg27 (by decide)
    _ = W20 m ρ c (Proc.devRef .tc main_arg27) := StableHlo.after_of_forall_not_mem (b := Proc.devRef .tc main_arg27) _ _ (by decide +kernel)
    _ = W19 m ρ c (Proc.devRef .tc main_arg27) := W20_of_ne m ρ c main_arg27 (by decide)
    _ = W18 m ρ c (Proc.devRef .tc main_arg27) := StableHlo.after_of_forall_not_mem (b := Proc.devRef .tc main_arg27) _ _ (by decide +kernel)
    _ = W17 m ρ c (Proc.devRef .tc main_arg27) := W18_of_ne m ρ c main_arg27 (by decide)
    _ = W16 m ρ c (Proc.devRef .tc main_arg27) := StableHlo.after_of_forall_not_mem (b := Proc.devRef .tc main_arg27) _ _ (by decide +kernel)
    _ = W15 m ρ c (Proc.devRef .tc main_arg27) := W16_of_ne m ρ c main_arg27 (by decide)
    _ = W14 m ρ c (Proc.devRef .tc main_arg27) := StableHlo.after_of_forall_not_mem (b := Proc.devRef .tc main_arg27) _ _ (by decide +kernel)
    _ = W13 m ρ c (Proc.devRef .tc main_arg27) := W14_of_ne m ρ c main_arg27 (by decide)
    _ = W12 m ρ c (Proc.devRef .tc main_arg27) := StableHlo.after_of_forall_not_mem (b := Proc.devRef .tc main_arg27) _ _ (by decide +kernel)
    _ = W11 m ρ c (Proc.devRef .tc main_arg27) := W12_of_ne m ρ c main_arg27 (by decide)
    _ = W10 m ρ c (Proc.devRef .tc main_arg27) := StableHlo.after_of_forall_not_mem (b := Proc.devRef .tc main_arg27) _ _ (by decide +kernel)
    _ = W9 m ρ c (Proc.devRef .tc main_arg27) := W10_of_ne m ρ c main_arg27 (by decide)
    _ = W8 m ρ c (Proc.devRef .tc main_arg27) := StableHlo.after_of_forall_not_mem (b := Proc.devRef .tc main_arg27) _ _ (by decide +kernel)
    _ = W7 m ρ c (Proc.devRef .tc main_arg27) := W8_of_ne m ρ c main_arg27 (by decide)
    _ = W6 m ρ c (Proc.devRef .tc main_arg27) := StableHlo.after_of_forall_not_mem (b := Proc.devRef .tc main_arg27) _ _ (by decide +kernel)
    _ = W5 m ρ c (Proc.devRef .tc main_arg27) := W6_of_ne m ρ c main_arg27 (by decide)
    _ = W4 m ρ c (Proc.devRef .tc main_arg27) := StableHlo.after_of_forall_not_mem (b := Proc.devRef .tc main_arg27) _ _ (by decide +kernel)
    _ = W3 m ρ c (Proc.devRef .tc main_arg27) := W4_of_ne m ρ c main_arg27 (by decide)
    _ = W2 m ρ c (Proc.devRef .tc main_arg27) := StableHlo.after_of_forall_not_mem (b := Proc.devRef .tc main_arg27) _ _ (by decide +kernel)
    _ = W1 m ρ c (Proc.devRef .tc main_arg27) := W2_of_ne m ρ c main_arg27 (by decide)
    _ = W0 m ρ c (Proc.devRef .tc main_arg27) := StableHlo.after_of_forall_not_mem (b := Proc.devRef .tc main_arg27) _ _ (by decide +kernel)
theorem at_main_arg27_26 (c : Dev nD) : W26 m ρ c (Proc.devRef .tc main_arg27) = W0 m ρ c (Proc.devRef .tc main_arg27) := tr_main_arg27_26_0 m ρ c

theorem tr_main_arg19_26_0 (c : Dev nD) : W26 m ρ c (Proc.devRef .tc main_arg19) = W0 m ρ c (Proc.devRef .tc main_arg19) :=
  calc W26 m ρ c (Proc.devRef .tc main_arg19)
    _ = W25 m ρ c (Proc.devRef .tc main_arg19) := W26_of_ne m ρ c main_arg19 (by decide)
    _ = W24 m ρ c (Proc.devRef .tc main_arg19) := StableHlo.after_of_forall_not_mem (b := Proc.devRef .tc main_arg19) _ _ (by decide +kernel)
    _ = W23 m ρ c (Proc.devRef .tc main_arg19) := W24_of_ne m ρ c main_arg19 (by decide)
    _ = W22 m ρ c (Proc.devRef .tc main_arg19) := StableHlo.after_of_forall_not_mem (b := Proc.devRef .tc main_arg19) _ _ (by decide +kernel)
    _ = W21 m ρ c (Proc.devRef .tc main_arg19) := W22_of_ne m ρ c main_arg19 (by decide)
    _ = W20 m ρ c (Proc.devRef .tc main_arg19) := StableHlo.after_of_forall_not_mem (b := Proc.devRef .tc main_arg19) _ _ (by decide +kernel)
    _ = W19 m ρ c (Proc.devRef .tc main_arg19) := W20_of_ne m ρ c main_arg19 (by decide)
    _ = W18 m ρ c (Proc.devRef .tc main_arg19) := StableHlo.after_of_forall_not_mem (b := Proc.devRef .tc main_arg19) _ _ (by decide +kernel)
    _ = W17 m ρ c (Proc.devRef .tc main_arg19) := W18_of_ne m ρ c main_arg19 (by decide)
    _ = W16 m ρ c (Proc.devRef .tc main_arg19) := StableHlo.after_of_forall_not_mem (b := Proc.devRef .tc main_arg19) _ _ (by decide +kernel)
    _ = W15 m ρ c (Proc.devRef .tc main_arg19) := W16_of_ne m ρ c main_arg19 (by decide)
    _ = W14 m ρ c (Proc.devRef .tc main_arg19) := StableHlo.after_of_forall_not_mem (b := Proc.devRef .tc main_arg19) _ _ (by decide +kernel)
    _ = W13 m ρ c (Proc.devRef .tc main_arg19) := W14_of_ne m ρ c main_arg19 (by decide)
    _ = W12 m ρ c (Proc.devRef .tc main_arg19) := StableHlo.after_of_forall_not_mem (b := Proc.devRef .tc main_arg19) _ _ (by decide +kernel)
    _ = W11 m ρ c (Proc.devRef .tc main_arg19) := W12_of_ne m ρ c main_arg19 (by decide)
    _ = W10 m ρ c (Proc.devRef .tc main_arg19) := StableHlo.after_of_forall_not_mem (b := Proc.devRef .tc main_arg19) _ _ (by decide +kernel)
    _ = W9 m ρ c (Proc.devRef .tc main_arg19) := W10_of_ne m ρ c main_arg19 (by decide)
    _ = W8 m ρ c (Proc.devRef .tc main_arg19) := StableHlo.after_of_forall_not_mem (b := Proc.devRef .tc main_arg19) _ _ (by decide +kernel)
    _ = W7 m ρ c (Proc.devRef .tc main_arg19) := W8_of_ne m ρ c main_arg19 (by decide)
    _ = W6 m ρ c (Proc.devRef .tc main_arg19) := StableHlo.after_of_forall_not_mem (b := Proc.devRef .tc main_arg19) _ _ (by decide +kernel)
    _ = W5 m ρ c (Proc.devRef .tc main_arg19) := W6_of_ne m ρ c main_arg19 (by decide)
    _ = W4 m ρ c (Proc.devRef .tc main_arg19) := StableHlo.after_of_forall_not_mem (b := Proc.devRef .tc main_arg19) _ _ (by decide +kernel)
    _ = W3 m ρ c (Proc.devRef .tc main_arg19) := W4_of_ne m ρ c main_arg19 (by decide)
    _ = W2 m ρ c (Proc.devRef .tc main_arg19) := StableHlo.after_of_forall_not_mem (b := Proc.devRef .tc main_arg19) _ _ (by decide +kernel)
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (by decide +kernel)
theorem at_main_arg19_26 (c : Dev nD) : W26 m ρ c (Proc.devRef .tc main_arg19) = W0 m ρ c (Proc.devRef .tc main_arg19) := tr_main_arg19_26_0 m ρ c

theorem tr_main_arg18_27_0 (c : Dev nD) : W27 m ρ c (Proc.devRef .tc main_arg18) = W0 m ρ c (Proc.devRef .tc main_arg18) :=
  calc W27 m ρ c (Proc.devRef .tc main_arg18)
    _ = W26 m ρ c (Proc.devRef .tc main_arg18) := StableHlo.after_of_forall_not_mem (b := Proc.devRef .tc main_arg18) _ _ (by decide +kernel)
    _ = W25 m ρ c (Proc.devRef .tc main_arg18) := W26_of_ne m ρ c main_arg18 (by decide)
    _ = W24 m ρ c (Proc.devRef .tc main_arg18) := StableHlo.after_of_forall_not_mem (b := Proc.devRef .tc main_arg18) _ _ (by decide +kernel)
    _ = W23 m ρ c (Proc.devRef .tc main_arg18) := W24_of_ne m ρ c main_arg18 (by decide)
    _ = W22 m ρ c (Proc.devRef .tc main_arg18) := StableHlo.after_of_forall_not_mem (b := Proc.devRef .tc main_arg18) _ _ (by decide +kernel)
    _ = W21 m ρ c (Proc.devRef .tc main_arg18) := W22_of_ne m ρ c main_arg18 (by decide)
    _ = W20 m ρ c (Proc.devRef .tc main_arg18) := StableHlo.after_of_forall_not_mem (b := Proc.devRef .tc main_arg18) _ _ (by decide +kernel)
    _ = W19 m ρ c (Proc.devRef .tc main_arg18) := W20_of_ne m ρ c main_arg18 (by decide)
    _ = W18 m ρ c (Proc.devRef .tc main_arg18) := StableHlo.after_of_forall_not_mem (b := Proc.devRef .tc main_arg18) _ _ (by decide +kernel)
    _ = W17 m ρ c (Proc.devRef .tc main_arg18) := W18_of_ne m ρ c main_arg18 (by decide)
    _ = W16 m ρ c (Proc.devRef .tc main_arg18) := StableHlo.after_of_forall_not_mem (b := Proc.devRef .tc main_arg18) _ _ (by decide +kernel)
    _ = W15 m ρ c (Proc.devRef .tc main_arg18) := W16_of_ne m ρ c main_arg18 (by decide)
    _ = W14 m ρ c (Proc.devRef .tc main_arg18) := StableHlo.after_of_forall_not_mem (b := Proc.devRef .tc main_arg18) _ _ (by decide +kernel)
    _ = W13 m ρ c (Proc.devRef .tc main_arg18) := W14_of_ne m ρ c main_arg18 (by decide)
    _ = W12 m ρ c (Proc.devRef .tc main_arg18) := StableHlo.after_of_forall_not_mem (b := Proc.devRef .tc main_arg18) _ _ (by decide +kernel)
    _ = W11 m ρ c (Proc.devRef .tc main_arg18) := W12_of_ne m ρ c main_arg18 (by decide)
    _ = W10 m ρ c (Proc.devRef .tc main_arg18) := StableHlo.after_of_forall_not_mem (b := Proc.devRef .tc main_arg18) _ _ (by decide +kernel)
    _ = W9 m ρ c (Proc.devRef .tc main_arg18) := W10_of_ne m ρ c main_arg18 (by decide)
    _ = W8 m ρ c (Proc.devRef .tc main_arg18) := StableHlo.after_of_forall_not_mem (b := Proc.devRef .tc main_arg18) _ _ (by decide +kernel)
    _ = W7 m ρ c (Proc.devRef .tc main_arg18) := W8_of_ne m ρ c main_arg18 (by decide)
    _ = W6 m ρ c (Proc.devRef .tc main_arg18) := StableHlo.after_of_forall_not_mem (b := Proc.devRef .tc main_arg18) _ _ (by decide +kernel)
    _ = W5 m ρ c (Proc.devRef .tc main_arg18) := W6_of_ne m ρ c main_arg18 (by decide)
    _ = W4 m ρ c (Proc.devRef .tc main_arg18) := StableHlo.after_of_forall_not_mem (b := Proc.devRef .tc main_arg18) _ _ (by decide +kernel)
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (by decide +kernel)
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (by decide +kernel)
theorem at_main_arg18_27 (c : Dev nD) : W27 m ρ c (Proc.devRef .tc main_arg18) = W0 m ρ c (Proc.devRef .tc main_arg18) := tr_main_arg18_27_0 m ρ c

theorem tr_main_arg21_28_0 (c : Dev nD) : W28 m ρ c (Proc.devRef .tc main_arg21) = W0 m ρ c (Proc.devRef .tc main_arg21) :=
  calc W28 m ρ c (Proc.devRef .tc main_arg21)
    _ = W27 m ρ c (Proc.devRef .tc main_arg21) := W28_of_ne m ρ c main_arg21 (by decide)
    _ = W26 m ρ c (Proc.devRef .tc main_arg21) := StableHlo.after_of_forall_not_mem (b := Proc.devRef .tc main_arg21) _ _ (by decide +kernel)
    _ = W25 m ρ c (Proc.devRef .tc main_arg21) := W26_of_ne m ρ c main_arg21 (by decide)
    _ = W24 m ρ c (Proc.devRef .tc main_arg21) := StableHlo.after_of_forall_not_mem (b := Proc.devRef .tc main_arg21) _ _ (by decide +kernel)
    _ = W23 m ρ c (Proc.devRef .tc main_arg21) := W24_of_ne m ρ c main_arg21 (by decide)
    _ = W22 m ρ c (Proc.devRef .tc main_arg21) := StableHlo.after_of_forall_not_mem (b := Proc.devRef .tc main_arg21) _ _ (by decide +kernel)
    _ = W21 m ρ c (Proc.devRef .tc main_arg21) := W22_of_ne m ρ c main_arg21 (by decide)
    _ = W20 m ρ c (Proc.devRef .tc main_arg21) := StableHlo.after_of_forall_not_mem (b := Proc.devRef .tc main_arg21) _ _ (by decide +kernel)
    _ = W19 m ρ c (Proc.devRef .tc main_arg21) := W20_of_ne m ρ c main_arg21 (by decide)
    _ = W18 m ρ c (Proc.devRef .tc main_arg21) := StableHlo.after_of_forall_not_mem (b := Proc.devRef .tc main_arg21) _ _ (by decide +kernel)
    _ = W17 m ρ c (Proc.devRef .tc main_arg21) := W18_of_ne m ρ c main_arg21 (by decide)
    _ = W16 m ρ c (Proc.devRef .tc main_arg21) := StableHlo.after_of_forall_not_mem (b := Proc.devRef .tc main_arg21) _ _ (by decide +kernel)
    _ = W15 m ρ c (Proc.devRef .tc main_arg21) := W16_of_ne m ρ c main_arg21 (by decide)
    _ = W14 m ρ c (Proc.devRef .tc main_arg21) := StableHlo.after_of_forall_not_mem (b := Proc.devRef .tc main_arg21) _ _ (by decide +kernel)
    _ = W13 m ρ c (Proc.devRef .tc main_arg21) := W14_of_ne m ρ c main_arg21 (by decide)
    _ = W12 m ρ c (Proc.devRef .tc main_arg21) := StableHlo.after_of_forall_not_mem (b := Proc.devRef .tc main_arg21) _ _ (by decide +kernel)
    _ = W11 m ρ c (Proc.devRef .tc main_arg21) := W12_of_ne m ρ c main_arg21 (by decide)
    _ = W10 m ρ c (Proc.devRef .tc main_arg21) := StableHlo.after_of_forall_not_mem (b := Proc.devRef .tc main_arg21) _ _ (by decide +kernel)
    _ = W9 m ρ c (Proc.devRef .tc main_arg21) := W10_of_ne m ρ c main_arg21 (by decide)
    _ = W8 m ρ c (Proc.devRef .tc main_arg21) := StableHlo.after_of_forall_not_mem (b := Proc.devRef .tc main_arg21) _ _ (by decide +kernel)
    _ = W7 m ρ c (Proc.devRef .tc main_arg21) := W8_of_ne m ρ c main_arg21 (by decide)
    _ = W6 m ρ c (Proc.devRef .tc main_arg21) := StableHlo.after_of_forall_not_mem (b := Proc.devRef .tc main_arg21) _ _ (by decide +kernel)
    _ = W5 m ρ c (Proc.devRef .tc main_arg21) := W6_of_ne m ρ c main_arg21 (by decide)
    _ = W4 m ρ c (Proc.devRef .tc main_arg21) := StableHlo.after_of_forall_not_mem (b := Proc.devRef .tc main_arg21) _ _ (by decide +kernel)
    _ = W3 m ρ c (Proc.devRef .tc main_arg21) := W4_of_ne m ρ c main_arg21 (by decide)
    _ = W2 m ρ c (Proc.devRef .tc main_arg21) := StableHlo.after_of_forall_not_mem (b := Proc.devRef .tc main_arg21) _ _ (by decide +kernel)
    _ = W1 m ρ c (Proc.devRef .tc main_arg21) := W2_of_ne m ρ c main_arg21 (by decide)
    _ = W0 m ρ c (Proc.devRef .tc main_arg21) := StableHlo.after_of_forall_not_mem (b := Proc.devRef .tc main_arg21) _ _ (by decide +kernel)
theorem at_main_arg21_28 (c : Dev nD) : W28 m ρ c (Proc.devRef .tc main_arg21) = W0 m ρ c (Proc.devRef .tc main_arg21) := tr_main_arg21_28_0 m ρ c

theorem tr_main_arg20_29_0 (c : Dev nD) : W29 m ρ c (Proc.devRef .tc main_arg20) = W0 m ρ c (Proc.devRef .tc main_arg20) :=
  calc W29 m ρ c (Proc.devRef .tc main_arg20)
    _ = W28 m ρ c (Proc.devRef .tc main_arg20) := StableHlo.after_of_forall_not_mem (b := Proc.devRef .tc main_arg20) _ _ (by decide +kernel)
    _ = W27 m ρ c (Proc.devRef .tc main_arg20) := W28_of_ne m ρ c main_arg20 (by decide)
    _ = W26 m ρ c (Proc.devRef .tc main_arg20) := StableHlo.after_of_forall_not_mem (b := Proc.devRef .tc main_arg20) _ _ (by decide +kernel)
    _ = W25 m ρ c (Proc.devRef .tc main_arg20) := W26_of_ne m ρ c main_arg20 (by decide)
    _ = W24 m ρ c (Proc.devRef .tc main_arg20) := StableHlo.after_of_forall_not_mem (b := Proc.devRef .tc main_arg20) _ _ (by decide +kernel)
    _ = W23 m ρ c (Proc.devRef .tc main_arg20) := W24_of_ne m ρ c main_arg20 (by decide)
    _ = W22 m ρ c (Proc.devRef .tc main_arg20) := StableHlo.after_of_forall_not_mem (b := Proc.devRef .tc main_arg20) _ _ (by decide +kernel)
    _ = W21 m ρ c (Proc.devRef .tc main_arg20) := W22_of_ne m ρ c main_arg20 (by decide)
    _ = W20 m ρ c (Proc.devRef .tc main_arg20) := StableHlo.after_of_forall_not_mem (b := Proc.devRef .tc main_arg20) _ _ (by decide +kernel)
    _ = W19 m ρ c (Proc.devRef .tc main_arg20) := W20_of_ne m ρ c main_arg20 (by decide)
    _ = W18 m ρ c (Proc.devRef .tc main_arg20) := StableHlo.after_of_forall_not_mem (b := Proc.devRef .tc main_arg20) _ _ (by decide +kernel)
    _ = W17 m ρ c (Proc.devRef .tc main_arg20) := W18_of_ne m ρ c main_arg20 (by decide)
    _ = W16 m ρ c (Proc.devRef .tc main_arg20) := StableHlo.after_of_forall_not_mem (b := Proc.devRef .tc main_arg20) _ _ (by decide +kernel)
    _ = W15 m ρ c (Proc.devRef .tc main_arg20) := W16_of_ne m ρ c main_arg20 (by decide)
    _ = W14 m ρ c (Proc.devRef .tc main_arg20) := StableHlo.after_of_forall_not_mem (b := Proc.devRef .tc main_arg20) _ _ (by decide +kernel)
    _ = W13 m ρ c (Proc.devRef .tc main_arg20) := W14_of_ne m ρ c main_arg20 (by decide)
    _ = W12 m ρ c (Proc.devRef .tc main_arg20) := StableHlo.after_of_forall_not_mem (b := Proc.devRef .tc main_arg20) _ _ (by decide +kernel)
    _ = W11 m ρ c (Proc.devRef .tc main_arg20) := W12_of_ne m ρ c main_arg20 (by decide)
    _ = W10 m ρ c (Proc.devRef .tc main_arg20) := StableHlo.after_of_forall_not_mem (b := Proc.devRef .tc main_arg20) _ _ (by decide +kernel)
    _ = W9 m ρ c (Proc.devRef .tc main_arg20) := W10_of_ne m ρ c main_arg20 (by decide)
    _ = W8 m ρ c (Proc.devRef .tc main_arg20) := StableHlo.after_of_forall_not_mem (b := Proc.devRef .tc main_arg20) _ _ (by decide +kernel)
    _ = W7 m ρ c (Proc.devRef .tc main_arg20) := W8_of_ne m ρ c main_arg20 (by decide)
    _ = W6 m ρ c (Proc.devRef .tc main_arg20) := StableHlo.after_of_forall_not_mem (b := Proc.devRef .tc main_arg20) _ _ (by decide +kernel)
    _ = W5 m ρ c (Proc.devRef .tc main_arg20) := W6_of_ne m ρ c main_arg20 (by decide)
    _ = W4 m ρ c (Proc.devRef .tc main_arg20) := StableHlo.after_of_forall_not_mem (b := Proc.devRef .tc main_arg20) _ _ (by decide +kernel)
    _ = W3 m ρ c (Proc.devRef .tc main_arg20) := W4_of_ne m ρ c main_arg20 (by decide)
    _ = W2 m ρ c (Proc.devRef .tc main_arg20) := StableHlo.after_of_forall_not_mem (b := Proc.devRef .tc main_arg20) _ _ (by decide +kernel)
    _ = W1 m ρ c (Proc.devRef .tc main_arg20) := W2_of_ne m ρ c main_arg20 (by decide)
    _ = W0 m ρ c (Proc.devRef .tc main_arg20) := StableHlo.after_of_forall_not_mem (b := Proc.devRef .tc main_arg20) _ _ (by decide +kernel)
theorem at_main_arg20_29 (c : Dev nD) : W29 m ρ c (Proc.devRef .tc main_arg20) = W0 m ρ c (Proc.devRef .tc main_arg20) := tr_main_arg20_29_0 m ρ c

theorem tr_main_arg23_30_0 (c : Dev nD) : W30 m ρ c (Proc.devRef .tc main_arg23) = W0 m ρ c (Proc.devRef .tc main_arg23) :=
  calc W30 m ρ c (Proc.devRef .tc main_arg23)
    _ = W29 m ρ c (Proc.devRef .tc main_arg23) := W30_of_ne m ρ c main_arg23 (by decide)
    _ = W28 m ρ c (Proc.devRef .tc main_arg23) := StableHlo.after_of_forall_not_mem (b := Proc.devRef .tc main_arg23) _ _ (by decide +kernel)
    _ = W27 m ρ c (Proc.devRef .tc main_arg23) := W28_of_ne m ρ c main_arg23 (by decide)
    _ = W26 m ρ c (Proc.devRef .tc main_arg23) := StableHlo.after_of_forall_not_mem (b := Proc.devRef .tc main_arg23) _ _ (by decide +kernel)
    _ = W25 m ρ c (Proc.devRef .tc main_arg23) := W26_of_ne m ρ c main_arg23 (by decide)
    _ = W24 m ρ c (Proc.devRef .tc main_arg23) := StableHlo.after_of_forall_not_mem (b := Proc.devRef .tc main_arg23) _ _ (by decide +kernel)
    _ = W23 m ρ c (Proc.devRef .tc main_arg23) := W24_of_ne m ρ c main_arg23 (by decide)
    _ = W22 m ρ c (Proc.devRef .tc main_arg23) := StableHlo.after_of_forall_not_mem (b := Proc.devRef .tc main_arg23) _ _ (by decide +kernel)
    _ = W21 m ρ c (Proc.devRef .tc main_arg23) := W22_of_ne m ρ c main_arg23 (by decide)
    _ = W20 m ρ c (Proc.devRef .tc main_arg23) := StableHlo.after_of_forall_not_mem (b := Proc.devRef .tc main_arg23) _ _ (by decide +kernel)
    _ = W19 m ρ c (Proc.devRef .tc main_arg23) := W20_of_ne m ρ c main_arg23 (by decide)
    _ = W18 m ρ c (Proc.devRef .tc main_arg23) := StableHlo.after_of_forall_not_mem (b := Proc.devRef .tc main_arg23) _ _ (by decide +kernel)
    _ = W17 m ρ c (Proc.devRef .tc main_arg23) := W18_of_ne m ρ c main_arg23 (by decide)
    _ = W16 m ρ c (Proc.devRef .tc main_arg23) := StableHlo.after_of_forall_not_mem (b := Proc.devRef .tc main_arg23) _ _ (by decide +kernel)
    _ = W15 m ρ c (Proc.devRef .tc main_arg23) := W16_of_ne m ρ c main_arg23 (by decide)
    _ = W14 m ρ c (Proc.devRef .tc main_arg23) := StableHlo.after_of_forall_not_mem (b := Proc.devRef .tc main_arg23) _ _ (by decide +kernel)
    _ = W13 m ρ c (Proc.devRef .tc main_arg23) := W14_of_ne m ρ c main_arg23 (by decide)
    _ = W12 m ρ c (Proc.devRef .tc main_arg23) := StableHlo.after_of_forall_not_mem (b := Proc.devRef .tc main_arg23) _ _ (by decide +kernel)
    _ = W11 m ρ c (Proc.devRef .tc main_arg23) := W12_of_ne m ρ c main_arg23 (by decide)
    _ = W10 m ρ c (Proc.devRef .tc main_arg23) := StableHlo.after_of_forall_not_mem (b := Proc.devRef .tc main_arg23) _ _ (by decide +kernel)
    _ = W9 m ρ c (Proc.devRef .tc main_arg23) := W10_of_ne m ρ c main_arg23 (by decide)
    _ = W8 m ρ c (Proc.devRef .tc main_arg23) := StableHlo.after_of_forall_not_mem (b := Proc.devRef .tc main_arg23) _ _ (by decide +kernel)
    _ = W7 m ρ c (Proc.devRef .tc main_arg23) := W8_of_ne m ρ c main_arg23 (by decide)
    _ = W6 m ρ c (Proc.devRef .tc main_arg23) := StableHlo.after_of_forall_not_mem (b := Proc.devRef .tc main_arg23) _ _ (by decide +kernel)
    _ = W5 m ρ c (Proc.devRef .tc main_arg23) := W6_of_ne m ρ c main_arg23 (by decide)
    _ = W4 m ρ c (Proc.devRef .tc main_arg23) := StableHlo.after_of_forall_not_mem (b := Proc.devRef .tc main_arg23) _ _ (by decide +kernel)
    _ = W3 m ρ c (Proc.devRef .tc main_arg23) := W4_of_ne m ρ c main_arg23 (by decide)
    _ = W2 m ρ c (Proc.devRef .tc main_arg23) := StableHlo.after_of_forall_not_mem (b := Proc.devRef .tc main_arg23) _ _ (by decide +kernel)
    _ = W1 m ρ c (Proc.devRef .tc main_arg23) := W2_of_ne m ρ c main_arg23 (by decide)
    _ = W0 m ρ c (Proc.devRef .tc main_arg23) := StableHlo.after_of_forall_not_mem (b := Proc.devRef .tc main_arg23) _ _ (by decide +kernel)
theorem at_main_arg23_30 (c : Dev nD) : W30 m ρ c (Proc.devRef .tc main_arg23) = W0 m ρ c (Proc.devRef .tc main_arg23) := tr_main_arg23_30_0 m ρ c

theorem tr_main_arg22_31_0 (c : Dev nD) : W31 m ρ c (Proc.devRef .tc main_arg22) = W0 m ρ c (Proc.devRef .tc main_arg22) :=
  calc W31 m ρ c (Proc.devRef .tc main_arg22)
    _ = W30 m ρ c (Proc.devRef .tc main_arg22) := StableHlo.after_of_forall_not_mem (b := Proc.devRef .tc main_arg22) _ _ (by decide +kernel)
    _ = W29 m ρ c (Proc.devRef .tc main_arg22) := W30_of_ne m ρ c main_arg22 (by decide)
    _ = W28 m ρ c (Proc.devRef .tc main_arg22) := StableHlo.after_of_forall_not_mem (b := Proc.devRef .tc main_arg22) _ _ (by decide +kernel)
    _ = W27 m ρ c (Proc.devRef .tc main_arg22) := W28_of_ne m ρ c main_arg22 (by decide)
    _ = W26 m ρ c (Proc.devRef .tc main_arg22) := StableHlo.after_of_forall_not_mem (b := Proc.devRef .tc main_arg22) _ _ (by decide +kernel)
    _ = W25 m ρ c (Proc.devRef .tc main_arg22) := W26_of_ne m ρ c main_arg22 (by decide)
    _ = W24 m ρ c (Proc.devRef .tc main_arg22) := StableHlo.after_of_forall_not_mem (b := Proc.devRef .tc main_arg22) _ _ (by decide +kernel)
    _ = W23 m ρ c (Proc.devRef .tc main_arg22) := W24_of_ne m ρ c main_arg22 (by decide)
    _ = W22 m ρ c (Proc.devRef .tc main_arg22) := StableHlo.after_of_forall_not_mem (b := Proc.devRef .tc main_arg22) _ _ (by decide +kernel)
    _ = W21 m ρ c (Proc.devRef .tc main_arg22) := W22_of_ne m ρ c main_arg22 (by decide)
    _ = W20 m ρ c (Proc.devRef .tc main_arg22) := StableHlo.after_of_forall_not_mem (b := Proc.devRef .tc main_arg22) _ _ (by decide +kernel)
    _ = W19 m ρ c (Proc.devRef .tc main_arg22) := W20_of_ne m ρ c main_arg22 (by decide)
    _ = W18 m ρ c (Proc.devRef .tc main_arg22) := StableHlo.after_of_forall_not_mem (b := Proc.devRef .tc main_arg22) _ _ (by decide +kernel)
    _ = W17 m ρ c (Proc.devRef .tc main_arg22) := W18_of_ne m ρ c main_arg22 (by decide)
    _ = W16 m ρ c (Proc.devRef .tc main_arg22) := StableHlo.after_of_forall_not_mem (b := Proc.devRef .tc main_arg22) _ _ (by decide +kernel)
    _ = W15 m ρ c (Proc.devRef .tc main_arg22) := W16_of_ne m ρ c main_arg22 (by decide)
    _ = W14 m ρ c (Proc.devRef .tc main_arg22) := StableHlo.after_of_forall_not_mem (b := Proc.devRef .tc main_arg22) _ _ (by decide +kernel)
    _ = W13 m ρ c (Proc.devRef .tc main_arg22) := W14_of_ne m ρ c main_arg22 (by decide)
    _ = W12 m ρ c (Proc.devRef .tc main_arg22) := StableHlo.after_of_forall_not_mem (b := Proc.devRef .tc main_arg22) _ _ (by decide +kernel)
    _ = W11 m ρ c (Proc.devRef .tc main_arg22) := W12_of_ne m ρ c main_arg22 (by decide)
    _ = W10 m ρ c (Proc.devRef .tc main_arg22) := StableHlo.after_of_forall_not_mem (b := Proc.devRef .tc main_arg22) _ _ (by decide +kernel)
    _ = W9 m ρ c (Proc.devRef .tc main_arg22) := W10_of_ne m ρ c main_arg22 (by decide)
    _ = W8 m ρ c (Proc.devRef .tc main_arg22) := StableHlo.after_of_forall_not_mem (b := Proc.devRef .tc main_arg22) _ _ (by decide +kernel)
    _ = W7 m ρ c (Proc.devRef .tc main_arg22) := W8_of_ne m ρ c main_arg22 (by decide)
    _ = W6 m ρ c (Proc.devRef .tc main_arg22) := StableHlo.after_of_forall_not_mem (b := Proc.devRef .tc main_arg22) _ _ (by decide +kernel)
    _ = W5 m ρ c (Proc.devRef .tc main_arg22) := W6_of_ne m ρ c main_arg22 (by decide)
    _ = W4 m ρ c (Proc.devRef .tc main_arg22) := StableHlo.after_of_forall_not_mem (b := Proc.devRef .tc main_arg22) _ _ (by decide +kernel)
    _ = W3 m ρ c (Proc.devRef .tc main_arg22) := W4_of_ne m ρ c main_arg22 (by decide)
    _ = W2 m ρ c (Proc.devRef .tc main_arg22) := StableHlo.after_of_forall_not_mem (b := Proc.devRef .tc main_arg22) _ _ (by decide +kernel)
    _ = W1 m ρ c (Proc.devRef .tc main_arg22) := W2_of_ne m ρ c main_arg22 (by decide)
    _ = W0 m ρ c (Proc.devRef .tc main_arg22) := StableHlo.after_of_forall_not_mem (b := Proc.devRef .tc main_arg22) _ _ (by decide +kernel)
theorem at_main_arg22_31 (c : Dev nD) : W31 m ρ c (Proc.devRef .tc main_arg22) = W0 m ρ c (Proc.devRef .tc main_arg22) := tr_main_arg22_31_0 m ρ c

end Cert.KernelIdeal.Val

end
-- ==== Proof.KHost14.lean ====
/-
  What single buffers hold after a straight line of host operations, as functions of the buffers the line
  reads: each definition is the operations' own functions composed (their text as the list prints it, read at the
  extended reals), each lemma says the fold of the list at that buffer is that function of the starting contents.
-/
import proofs.«141689_j63058709840619_1_alg».proof.Proof.Gen.KernelIdeal.Launch
import proofs.«141689_j63058709840619_1_alg».proof.Proof.Spec
import Idealize.ShloMosaic.Lib.StableHlo.Run

set_option maxRecDepth 8192

noncomputable section

namespace Cert.KernelIdeal.Val

open Idealize.ShloMosaic Idealize.ShloMosaic.TcCoe Cert.KernelIdeal Cert.KernelIdeal.Gen Cert.Spec

/-! ## hostOps14: 1 operations -/

/-- Buffer main_v467 as a function of main_arg21: the operations that build it, composed. -/
def kh14_v467 (arg21 : FVec Ideal S50 .f32) : FVec Ideal S1x50 .f32 :=
  (shapeCast S1x50 arg21 shapeCasts_S50_S1x50)

set_option maxHeartbeats 40000000 in
/-- After the list, from any contents, main_v467 holds that function of the contents. -/
theorem kh14_v467_eq (W : Valuation τ sig (Elt Ideal)) :
    StableHlo.after (hostOps14 (F := Ideal)) W (Proc.devRef .tc main_v467)
      = kh14_v467 (W (Proc.devRef .tc main_arg21)) := by
  after_results_simp <;> first | rfl | (unfold kh14_v467; rfl)

end Cert.KernelIdeal.Val

end
-- ==== Proof.KHost15.lean ====
/-
  What single buffers hold after a straight line of host operations, as functions of the buffers the line
  reads: each definition is the operations' own functions composed (their text as the list prints it, read at the
  extended reals), each lemma says the fold of the list at that buffer is that function of the starting contents.
-/
import proofs.«141689_j63058709840619_1_alg».proof.Proof.Gen.KernelIdeal.Launch
import proofs.«141689_j63058709840619_1_alg».proof.Proof.Spec
import Idealize.ShloMosaic.Lib.StableHlo.Run

set_option maxRecDepth 8192

noncomputable section

namespace Cert.KernelIdeal.Val

open Idealize.ShloMosaic Idealize.ShloMosaic.TcCoe Cert.KernelIdeal Cert.KernelIdeal.Gen Cert.Spec

/-! ## hostOps15: 1 operations -/

/-- Buffer main_v469 as a function of main_arg23: the operations that build it, composed. -/
def kh15_v469 (arg23 : FVec Ideal S3 .f32) : FVec Ideal S1x3 .f32 :=
  (shapeCast S1x3 arg23 shapeCasts_S3_S1x3)

set_option maxHeartbeats 40000000 in
/-- After the list, from any contents, main_v469 holds that function of the contents. -/
theorem kh15_v469_eq (W : Valuation τ sig (Elt Ideal)) :
    StableHlo.after (hostOps15 (F := Ideal)) W (Proc.devRef .tc main_v469)
      = kh15_v469 (W (Proc.devRef .tc main_arg23)) := by
  after_results_simp <;> first | rfl | (unfold kh15_v469; rfl)

end Cert.KernelIdeal.Val

end
-- ==== Proof.KStage4.lean ====
/-
  The edge classifier as the kernel program computes it: the labelled edges' features are gathered by the host
  stretch before region 13 from the node classifier's last layer and the last combine, and the three dense layers
  follow; at the exit of the last region its output array is the network's result.
-/
import proofs.«141689_j63058709840619_1_alg».proof.Proof.KStage3
import proofs.«141689_j63058709840619_1_alg».proof.Proof.FrameKI
import proofs.«141689_j63058709840619_1_alg».proof.Proof.Model
import proofs.«141689_j63058709840619_1_alg».proof.Proof.HostFin
import proofs.«141689_j63058709840619_1_alg».proof.Proof.Region13
import proofs.«141689_j63058709840619_1_alg».proof.Proof.Region14
import proofs.«141689_j63058709840619_1_alg».proof.Proof.Region15
import proofs.«141689_j63058709840619_1_alg».proof.Proof.TransportD
import proofs.«141689_j63058709840619_1_alg».proof.Proof.TransportE
import proofs.«141689_j63058709840619_1_alg».proof.Proof.KHost13
import proofs.«141689_j63058709840619_1_alg».proof.Proof.KHost14
import proofs.«141689_j63058709840619_1_alg».proof.Proof.KHost15

set_option maxRecDepth 16384

noncomputable section

namespace Cert.KernelIdeal.Val

open Idealize.ShloMosaic Idealize.ShloMosaic.TcCoe Idealize.SL.Sem
open Cert.KernelIdeal Cert.KernelIdeal.Gen Cert.KernelIdeal.GenP Cert.Spec

variable (m : (ℓ : Loc nD τ sig) → Buf (Elt Ideal) ℓ) (ρ : Dev nD → PrngReg)

/-- Equal arrays have equal gathered edge features. -/
theorem kh13_v464_congr {x x' : FVec Ideal S50000x150 .f32} {y y' : FVec Ideal S20000x150 .f32} {e e' : IVec S2x500000 32}
    (hx : x = x') (hy : y = y') (he : e = e') : kh13_v464 x y e = kh13_v464 x' y' e' := by rw [hx, hy, he]

/-- At the exit of region 13 its output array is the edge classifier's first layer on the gathered edge features. -/
theorem k_EF1 (c : Dev nD) (a : ArgVals) (hk : KHolds m c a) :
    W28 m ρ c (Proc.devRef .tc main_v466) = EF1 a := by
  have ex : V27 m ρ c main_v464 = EF0 a := (kh13_v464_eq (W26 m ρ c)).trans
    (kh13_v464_congr (k_H3 m ρ c a hk) ((at_main_v439_26 m ρ c).trans (k_XP3 m ρ c a hk)) ((at_main_arg27_26 m ρ c).trans hk.h27))
  have ew : V27 m ρ c main_arg18 = a.hW1 := (at_main_arg18_27 m ρ c).trans hk.h18
  have eb : V27 m ρ c main_v465 = kh13_v465 a.hb1 :=
    (kh13_v465_eq (W26 m ρ c)).trans (congrArg kh13_v465 ((at_main_arg19_26 m ρ c).trans hk.h19))
  have er : rowOf (kh13_v465 a.hb1) = a.hb1 := by unfold kh13_v465; exact rowOf_shapeCast _ _
  refine ((W28_arr m ρ c 3).trans (final13 (V27 m ρ) c)).trans ?_
  exact relu_congr (lin_congr ex ew ((congrArg rowOf eb).trans er))

/-- At the exit of region 14 its output array is the edge classifier's second layer. -/
theorem k_EF2 (c : Dev nD) (a : ArgVals) (hk : KHolds m c a) :
    W30 m ρ c (Proc.devRef .tc main_v468) = EF2 a := by
  have ex : V29 m ρ c main_v466 = EF1 a := (at_main_v466_29 m ρ c).trans (k_EF1 m ρ c a hk)
  have ew : V29 m ρ c main_arg20 = a.hW2 := (at_main_arg20_29 m ρ c).trans hk.h20
  have eb : V29 m ρ c main_v467 = kh14_v467 a.hb2 :=
    (kh14_v467_eq (W28 m ρ c)).trans (congrArg kh14_v467 ((at_main_arg21_28 m ρ c).trans hk.h21))
  have er : rowOf (kh14_v467 a.hb2) = a.hb2 := by unfold kh14_v467; exact rowOf_shapeCast _ _
  refine ((W30_arr m ρ c 3).trans (final14 (V29 m ρ) c)).trans ?_
  exact relu_congr (lin_congr ex ew ((congrArg rowOf eb).trans er))

/-- At the exit of region 15, the last, its output array is the network's result. -/
theorem k_OUT (c : Dev nD) (a : ArgVals) (hk : KHolds m c a) :
    W32 m ρ c (Proc.devRef .tc main_v470) = OUT a := by
  have ex : V31 m ρ c main_v468 = EF2 a := (at_main_v468_31 m ρ c).trans (k_EF2 m ρ c a hk)
  have ew : V31 m ρ c main_arg22 = a.hW3 := (at_main_arg22_31 m ρ c).trans hk.h22
  have eb : V31 m ρ c main_v469 = kh15_v469 a.hb3 :=
    (kh15_v469_eq (W30 m ρ c)).trans (congrArg kh15_v469 ((at_main_arg23_30 m ρ c).trans hk.h23))
  have er : rowOf (kh15_v469 a.hb3) = a.hb3 := by unfold kh15_v469; exact rowOf_shapeCast _ _
  refine ((W32_arr m ρ c 3).trans (final15 (V31 m ρ) c)).trans ?_
  exact lin_congr ex ew ((congrArg rowOf eb).trans er)

end Cert.KernelIdeal.Val

end
-- ==== Proof.RVals.lean ====
/-
  The reference's run read stage by stage: the contents after each chunk of its operations, from the launch contents
  on; the fold over all the operations is the last of them; a buffer that a chunk does not write is carried through it.
-/
import proofs.«141689_j63058709840619_1_alg».proof.Proof.RefRunP
import Idealize.ShloMosaic.PureOps.Ideal
import Idealize.ShloMosaic.Lib.Pipeline.Frame

set_option maxRecDepth 8192

noncomputable section

namespace Cert.ReferenceIdeal.ValueP

open Cert.ReferenceIdeal Cert.ReferenceIdeal.Gen Idealize.ShloMosaic Idealize.ShloMosaic.TcCoe Idealize.SL.Sem Idealize.ShloMosaic.StableHlo

variable (m' : (ℓ : Loc nD τ sig) → Buf (Elt Ideal) ℓ)

/-! ## The contents after each chunk -/

def RV0 (c : Dev nD) : Valuation τ sig (Elt Ideal) := launchContents m' c
def RV1 (c : Dev nD) : Valuation τ sig (Elt Ideal) := StableHlo.after (st0 (F := Ideal)) (RV0 m' c)
def RV2 (c : Dev nD) : Valuation τ sig (Elt Ideal) := StableHlo.after (st1 (F := Ideal)) (RV1 m' c)
def RV3 (c : Dev nD) : Valuation τ sig (Elt Ideal) := StableHlo.after (st2 (F := Ideal)) (RV2 m' c)
def RV4 (c : Dev nD) : Valuation τ sig (Elt Ideal) := StableHlo.after (st3 (F := Ideal)) (RV3 m' c)
def RV5 (c : Dev nD) : Valuation τ sig (Elt Ideal) := StableHlo.after (st4 (F := Ideal)) (RV4 m' c)
def RV6 (c : Dev nD) : Valuation τ sig (Elt Ideal) := StableHlo.after (st5 (F := Ideal)) (RV5 m' c)
def RV7 (c : Dev nD) : Valuation τ sig (Elt Ideal) := StableHlo.after (st6 (F := Ideal)) (RV6 m' c)
def RV8 (c : Dev nD) : Valuation τ sig (Elt Ideal) := StableHlo.after (st7 (F := Ideal)) (RV7 m' c)
def RV9 (c : Dev nD) : Valuation τ sig (Elt Ideal) := StableHlo.after (st8 (F := Ideal)) (RV8 m' c)
def RV10 (c : Dev nD) : Valuation τ sig (Elt Ideal) := StableHlo.after (st9 (F := Ideal)) (RV9 m' c)
def RV11 (c : Dev nD) : Valuation τ sig (Elt Ideal) := StableHlo.after (st10 (F := Ideal)) (RV10 m' c)
def RV12 (c : Dev nD) : Valuation τ sig (Elt Ideal) := StableHlo.after (st11 (F := Ideal)) (RV11 m' c)
def RV13 (c : Dev nD) : Valuation τ sig (Elt Ideal) := StableHlo.after (st12 (F := Ideal)) (RV12 m' c)
def RV14 (c : Dev nD) : Valuation τ sig (Elt Ideal) := StableHlo.after (st13 (F := Ideal)) (RV13 m' c)

/-- The fold over all the operations is the contents after the last chunk. -/
theorem fold_eq (c : Dev nD) : StableHlo.after (ops (F := Ideal)) (launchContents m' c) = RV14 m' c := by
  unfold RV14 RV13 RV12 RV11 RV10 RV9 RV8 RV7 RV6 RV5 RV4 RV3 RV2 RV1 RV0
  show StableHlo.after (st0 ++ st1 ++ st2 ++ st3 ++ st4 ++ st5 ++ st6 ++ st7 ++ st8 ++ st9 ++ st10 ++ st11 ++ st12 ++ st13) _ = _
  rw [StableHlo.after_append, StableHlo.after_append, StableHlo.after_append, StableHlo.after_append, StableHlo.after_append,
    StableHlo.after_append, StableHlo.after_append, StableHlo.after_append, StableHlo.after_append, StableHlo.after_append,
    StableHlo.after_append, StableHlo.after_append, StableHlo.after_append]

/-! ## Carrying a buffer through the chunks that do not write it -/

/-- A buffer that no operation of a chunk writes holds after the chunk what it held before. -/
theorem carry {b : DevRef τ sig} (l : List (HloOp τ sig (Elt Ideal))) (V : Valuation τ sig (Elt Ideal))
    (h : ∀ op ∈ l, b ∉ op.writes) : StableHlo.after l V b = V b :=
  after_of_forall_not_mem l V h

/-- The launch contents of a buffer are the launch memory at its location. -/
theorem RV0_apply (c : Dev nD) (b : Ref sig .tc) : RV0 m' c (Proc.devRef .tc b) = m' ((c.tc : Thread nD τ).loc b) := rfl

end Cert.ReferenceIdeal.ValueP

end
-- ==== Proof.RHost0.lean ====
/-
  What single buffers hold after a straight line of host operations, as functions of the buffers the line
  reads: each definition is the operations' own functions composed (their text as the list prints it, read at the
  extended reals), each lemma says the fold of the list at that buffer is that function of the starting contents.
-/
import proofs.«141689_j63058709840619_1_alg».proof.Proof.RefRunP
import proofs.«141689_j63058709840619_1_alg».proof.Proof.Spec
import Idealize.ShloMosaic.Lib.StableHlo.Run

set_option maxRecDepth 8192

noncomputable section

namespace Cert.ReferenceIdeal.ValueP

open Idealize.ShloMosaic Idealize.ShloMosaic.TcCoe Cert.ReferenceIdeal Cert.ReferenceIdeal.Gen Cert.Spec

/-! ## st0: 12 operations -/

/-- Buffer main_v3 as a function of main_arg0, main_arg3, main_arg4: the operations that build it, composed. -/
def rst0_v3 (arg0 : FVec Ideal S50000x768 .f32) (arg3 : FVec Ideal S768x150 .f32) (arg4 : FVec Ideal S150 .f32) : FVec Ideal S50000x150 .f32 :=
  ((addf (F := Ideal) : FVec Ideal S50000x150 .f32 → FVec Ideal S50000x150 .f32 → FVec Ideal S50000x150 .f32) (((fun l r => Host.dotGeneral (F := Ideal) dot_S50000x768_S768x150_S50000x150_1_0_0_1_n_n none l r) : FVec Ideal S50000x768 .f32 → FVec Ideal S768x150 .f32 → FVec Ideal S50000x150 .f32) arg0 arg3) ((broadcastInDim S50000x150 ![0, 1] bcast_S1x150_S50000x150_0_1 : FVec Ideal S1x150 .f32 → FVec Ideal S50000x150 .f32) ((broadcastInDim S1x150 ![1] bcast_S150_S1x150_1 : FVec Ideal S150 .f32 → FVec Ideal S1x150 .f32) arg4)))

set_option maxHeartbeats 40000000 in
/-- After the list, from any contents, main_v3 holds that function of the contents. -/
theorem rst0_v3_eq (W : Valuation τ sig (Elt Ideal)) :
    StableHlo.after (st0 (F := Ideal)) W (Proc.devRef .tc main_v3)
      = rst0_v3 (W (Proc.devRef .tc main_arg0)) (W (Proc.devRef .tc main_arg3)) (W (Proc.devRef .tc main_arg4)) := by
  after_results_simp <;> first | rfl | (unfold rst0_v3; rfl)

/-- Buffer main_v7 as a function of main_arg1, main_arg5, main_arg6: the operations that build it, composed. -/
def rst0_v7 (arg1 : FVec Ideal S2000x768 .f32) (arg5 : FVec Ideal S768x150 .f32) (arg6 : FVec Ideal S150 .f32) : FVec Ideal S2000x150 .f32 :=
  ((addf (F := Ideal) : FVec Ideal S2000x150 .f32 → FVec Ideal S2000x150 .f32 → FVec Ideal S2000x150 .f32) (((fun l r => Host.dotGeneral (F := Ideal) dot_S2000x768_S768x150_S2000x150_1_0_0_1_n_n none l r) : FVec Ideal S2000x768 .f32 → FVec Ideal S768x150 .f32 → FVec Ideal S2000x150 .f32) arg1 arg5) ((broadcastInDim S2000x150 ![0, 1] bcast_S1x150_S2000x150_0_1 : FVec Ideal S1x150 .f32 → FVec Ideal S2000x150 .f32) ((broadcastInDim S1x150 ![1] bcast_S150_S1x150_1 : FVec Ideal S150 .f32 → FVec Ideal S1x150 .f32) arg6)))

set_option maxHeartbeats 40000000 in
/-- After the list, from any contents, main_v7 holds that function of the contents. -/
theorem rst0_v7_eq (W : Valuation τ sig (Elt Ideal)) :
    StableHlo.after (st0 (F := Ideal)) W (Proc.devRef .tc main_v7)
      = rst0_v7 (W (Proc.devRef .tc main_arg1)) (W (Proc.devRef .tc main_arg5)) (W (Proc.devRef .tc main_arg6)) := by
  after_results_simp <;> first | rfl | (unfold rst0_v7; rfl)

/-- Buffer main_v11 as a function of main_arg2, main_arg7, main_arg8: the operations that build it, composed. -/
def rst0_v11 (arg2 : FVec Ideal S20000x1024 .f32) (arg7 : FVec Ideal S1024x150 .f32) (arg8 : FVec Ideal S150 .f32) : FVec Ideal S20000x150 .f32 :=
  ((addf (F := Ideal) : FVec Ideal S20000x150 .f32 → FVec Ideal S20000x150 .f32 → FVec Ideal S20000x150 .f32) (((fun l r => Host.dotGeneral (F := Ideal) dot_S20000x1024_S1024x150_S20000x150_1_0_0_1_n_n none l r) : FVec Ideal S20000x1024 .f32 → FVec Ideal S1024x150 .f32 → FVec Ideal S20000x150 .f32) arg2 arg7) ((broadcastInDim S20000x150 ![0, 1] bcast_S1x150_S20000x150_0_1 : FVec Ideal S1x150 .f32 → FVec Ideal S20000x150 .f32) ((broadcastInDim S1x150 ![1] bcast_S150_S1x150_1 : FVec Ideal S150 .f32 → FVec Ideal S1x150 .f32) arg8)))

set_option maxHeartbeats 40000000 in
/-- After the list, from any contents, main_v11 holds that function of the contents. -/
theorem rst0_v11_eq (W : Valuation τ sig (Elt Ideal)) :
    StableHlo.after (st0 (F := Ideal)) W (Proc.devRef .tc main_v11)
      = rst0_v11 (W (Proc.devRef .tc main_arg2)) (W (Proc.devRef .tc main_arg7)) (W (Proc.devRef .tc main_arg8)) := by
  after_results_simp <;> first | rfl | (unfold rst0_v11; rfl)

end Cert.ReferenceIdeal.ValueP

end
-- ==== Proof.RHost1.lean ====
/-
  What single buffers hold after a straight line of host operations, as functions of the buffers the line
  reads: each definition is the operations' own functions composed (their text as the list prints it, read at the
  extended reals), each lemma says the fold of the list at that buffer is that function of the starting contents.
-/
import proofs.«141689_j63058709840619_1_alg».proof.Proof.RefRunP
import proofs.«141689_j63058709840619_1_alg».proof.Proof.Spec
import Idealize.ShloMosaic.Lib.StableHlo.Run

set_option maxRecDepth 8192

noncomputable section

namespace Cert.ReferenceIdeal.ValueP

open Idealize.ShloMosaic Idealize.ShloMosaic.TcCoe Cert.ReferenceIdeal Cert.ReferenceIdeal.Gen Cert.Spec

/-! ## st1: 83 operations -/

/-- Buffer main_v82 as a function of main_v3, main_v7, main_v11, main_arg9, main_arg10, main_arg11, main_arg24, main_arg25: the operations that build it, composed. -/
def rst1_v82 (v3 : FVec Ideal S50000x150 .f32) (v7 : FVec Ideal S2000x150 .f32) (v11 : FVec Ideal S20000x150 .f32) (arg9 : FVec Ideal S3x6x150x150 .f32) (arg10 : FVec Ideal S3x6x150 .f32) (arg11 : FVec Ideal S3x6x150x150 .f32) (arg24 : IVec S2x500000 32) (arg25 : IVec S2x200000 32) : FVec Ideal S50000x150 .f32 :=
  ((addf (F := Ideal) : FVec Ideal S50000x150 .f32 → FVec Ideal S50000x150 .f32 → FVec Ideal S50000x150 .f32) ((addf (F := Ideal) : FVec Ideal S50000x150 .f32 → FVec Ideal S50000x150 .f32 → FVec Ideal S50000x150 .f32) ((addf (F := Ideal) : FVec Ideal S50000x150 .f32 → FVec Ideal S50000x150 .f32 → FVec Ideal S50000x150 .f32) (((fun l r => Host.dotGeneral (F := Ideal) dot_S50000x150_S150x150_S50000x150_1_0_0_1_n_n none l r) : FVec Ideal S50000x150 .f32 → FVec Ideal S150x150 .f32 → FVec Ideal S50000x150 .f32) ((Host.divf (F := Ideal) : FVec Ideal S50000x150 .f32 → FVec Ideal S50000x150 .f32 → FVec Ideal S50000x150 .f32) (((fun x i u => Host.scatterAdd (F := Ideal) scatter_S50000x150_S500000x1_S500000x150_1_0_0_1 x i u) : FVec Ideal S50000x150 .f32 → IVec S500000x1 32 → FVec Ideal S500000x150 .f32 → FVec Ideal S50000x150 .f32) ((broadcastInDim S50000x150 ![] bcast_S_S50000x150 : FVec Ideal S_ .f32 → FVec Ideal S50000x150 .f32) (constant (F := Ideal) S_ .f32 0x00000000#32)) ((broadcastInDim S500000x1 ![0] bcast_S500000_S500000x1_0 : IVec S500000 32 → IVec S500000x1 32) (shapeCast S500000 (((extractStridedSlice S1x500000 ![0, 0] · slices_S2x500000_S1x500000_0_0) : IVec S2x500000 32 → IVec S1x500000 32) arg24) shapeCasts_S1x500000_S500000)) (((fun x i => Host.gather gather_S20000x150_S500000x1_S500000x150_1_0_n_n_0_1_1150 x i) : FVec Ideal S20000x150 .f32 → IVec S500000x1 32 → FVec Ideal S500000x150 .f32) v11 ((broadcastInDim S500000x1 ![0] bcast_S500000_S500000x1_0 : IVec S500000 32 → IVec S500000x1 32) ((select : IVec S500000 1 → IVec S500000 32 → IVec S500000 32 → IVec S500000 32) ((cmpi .slt : IVec S500000 32 → IVec S500000 32 → IVec S500000 1) (shapeCast S500000 (((extractStridedSlice S1x500000 ![1, 0] · slices_S2x500000_S1x500000_1_0) : IVec S2x500000 32 → IVec S1x500000 32) arg24) shapeCasts_S1x500000_S500000) ((broadcastInDim S500000 ![] bcast_S_S500000 : IVec S_ 32 → IVec S500000 32) (constantI S_ 32 0#32))) ((addi : IVec S500000 32 → IVec S500000 32 → IVec S500000 32) (shapeCast S500000 (((extractStridedSlice S1x500000 ![1, 0] · slices_S2x500000_S1x500000_1_0) : IVec S2x500000 32 → IVec S1x500000 32) arg24) shapeCasts_S1x500000_S500000) ((broadcastInDim S500000 ![] bcast_S_S500000 : IVec S_ 32 → IVec S500000 32) (constantI S_ 32 20000#32))) (shapeCast S500000 (((extractStridedSlice S1x500000 ![1, 0] · slices_S2x500000_S1x500000_1_0) : IVec S2x500000 32 → IVec S1x500000 32) arg24) shapeCasts_S1x500000_S500000))))) ((broadcastInDim S50000x150 ![0, 1] bcast_S50000x1_S50000x150_0_1 : FVec Ideal S50000x1 .f32 → FVec Ideal S50000x150 .f32) ((broadcastInDim S50000x1 ![0] bcast_S50000_S50000x1_0 : FVec Ideal S50000 .f32 → FVec Ideal S50000x1 .f32) ((maximumf (F := Ideal) : FVec Ideal S50000 .f32 → FVec Ideal S50000 .f32 → FVec Ideal S50000 .f32) (((fun x i u => Host.scatterAdd (F := Ideal) scatter_S50000_S500000x1_S500000_n_0_0_1 x i u) : FVec Ideal S50000 .f32 → IVec S500000x1 32 → FVec Ideal S500000 .f32 → FVec Ideal S50000 .f32) ((broadcastInDim S50000 ![] bcast_S_S50000 : FVec Ideal S_ .f32 → FVec Ideal S50000 .f32) (constant (F := Ideal) S_ .f32 0x00000000#32)) ((broadcastInDim S500000x1 ![0] bcast_S500000_S500000x1_0 : IVec S500000 32 → IVec S500000x1 32) (shapeCast S500000 (((extractStridedSlice S1x500000 ![0, 0] · slices_S2x500000_S1x500000_0_0) : IVec S2x500000 32 → IVec S1x500000 32) arg24) shapeCasts_S1x500000_S500000)) ((broadcastInDim S500000 ![] bcast_S_S500000 : FVec Ideal S_ .f32 → FVec Ideal S500000 .f32) (constant (F := Ideal) S_ .f32 0x3F800000#32))) ((broadcastInDim S50000 ![] bcast_S_S50000 : FVec Ideal S_ .f32 → FVec Ideal S50000 .f32) (constant (F := Ideal) S_ .f32 0x3F800000#32)))))) (shapeCast S150x150 (((extractStridedSlice S1x1x150x150 ![0, 1, 0, 0] · slices_S3x6x150x150_S1x1x150x150_0_1_0_0) : FVec Ideal S3x6x150x150 .f32 → FVec Ideal S1x1x150x150 .f32) arg9) shapeCasts_S1x1x150x150_S150x150)) ((broadcastInDim S50000x150 ![0, 1] bcast_S1x150_S50000x150_0_1 : FVec Ideal S1x150 .f32 → FVec Ideal S50000x150 .f32) ((broadcastInDim S1x150 ![1] bcast_S150_S1x150_1 : FVec Ideal S150 .f32 → FVec Ideal S1x150 .f32) (shapeCast S150 (((extractStridedSlice S1x1x150 ![0, 1, 0] · slices_S3x6x150_S1x1x150_0_1_0) : FVec Ideal S3x6x150 .f32 → FVec Ideal S1x1x150 .f32) arg10) shapeCasts_S1x1x150_S150)))) (((fun l r => Host.dotGeneral (F := Ideal) dot_S50000x150_S150x150_S50000x150_1_0_0_1_n_n none l r) : FVec Ideal S50000x150 .f32 → FVec Ideal S150x150 .f32 → FVec Ideal S50000x150 .f32) v3 (shapeCast S150x150 (((extractStridedSlice S1x1x150x150 ![0, 1, 0, 0] · slices_S3x6x150x150_S1x1x150x150_0_1_0_0) : FVec Ideal S3x6x150x150 .f32 → FVec Ideal S1x1x150x150 .f32) arg11) shapeCasts_S1x1x150x150_S150x150))) ((addf (F := Ideal) : FVec Ideal S50000x150 .f32 → FVec Ideal S50000x150 .f32 → FVec Ideal S50000x150 .f32) ((addf (F := Ideal) : FVec Ideal S50000x150 .f32 → FVec Ideal S50000x150 .f32 → FVec Ideal S50000x150 .f32) (((fun l r => Host.dotGeneral (F := Ideal) dot_S50000x150_S150x150_S50000x150_1_0_0_1_n_n none l r) : FVec Ideal S50000x150 .f32 → FVec Ideal S150x150 .f32 → FVec Ideal S50000x150 .f32) ((Host.divf (F := Ideal) : FVec Ideal S50000x150 .f32 → FVec Ideal S50000x150 .f32 → FVec Ideal S50000x150 .f32) (((fun x i u => Host.scatterAdd (F := Ideal) scatter_S50000x150_S200000x1_S200000x150_1_0_0_1 x i u) : FVec Ideal S50000x150 .f32 → IVec S200000x1 32 → FVec Ideal S200000x150 .f32 → FVec Ideal S50000x150 .f32) ((broadcastInDim S50000x150 ![] bcast_S_S50000x150 : FVec Ideal S_ .f32 → FVec Ideal S50000x150 .f32) (constant (F := Ideal) S_ .f32 0x00000000#32)) ((broadcastInDim S200000x1 ![0] bcast_S200000_S200000x1_0 : IVec S200000 32 → IVec S200000x1 32) (shapeCast S200000 (((extractStridedSlice S1x200000 ![0, 0] · slices_S2x200000_S1x200000_0_0) : IVec S2x200000 32 → IVec S1x200000 32) arg25) shapeCasts_S1x200000_S200000)) (((fun x i => Host.gather gather_S2000x150_S200000x1_S200000x150_1_0_n_n_0_1_1150 x i) : FVec Ideal S2000x150 .f32 → IVec S200000x1 32 → FVec Ideal S200000x150 .f32) v7 ((broadcastInDim S200000x1 ![0] bcast_S200000_S200000x1_0 : IVec S200000 32 → IVec S200000x1 32) ((select : IVec S200000 1 → IVec S200000 32 → IVec S200000 32 → IVec S200000 32) ((cmpi .slt : IVec S200000 32 → IVec S200000 32 → IVec S200000 1) (shapeCast S200000 (((extractStridedSlice S1x200000 ![1, 0] · slices_S2x200000_S1x200000_1_0) : IVec S2x200000 32 → IVec S1x200000 32) arg25) shapeCasts_S1x200000_S200000) ((broadcastInDim S200000 ![] bcast_S_S200000 : IVec S_ 32 → IVec S200000 32) (constantI S_ 32 0#32))) ((addi : IVec S200000 32 → IVec S200000 32 → IVec S200000 32) (shapeCast S200000 (((extractStridedSlice S1x200000 ![1, 0] · slices_S2x200000_S1x200000_1_0) : IVec S2x200000 32 → IVec S1x200000 32) arg25) shapeCasts_S1x200000_S200000) ((broadcastInDim S200000 ![] bcast_S_S200000 : IVec S_ 32 → IVec S200000 32) (constantI S_ 32 2000#32))) (shapeCast S200000 (((extractStridedSlice S1x200000 ![1, 0] · slices_S2x200000_S1x200000_1_0) : IVec S2x200000 32 → IVec S1x200000 32) arg25) shapeCasts_S1x200000_S200000))))) ((broadcastInDim S50000x150 ![0, 1] bcast_S50000x1_S50000x150_0_1 : FVec Ideal S50000x1 .f32 → FVec Ideal S50000x150 .f32) ((broadcastInDim S50000x1 ![0] bcast_S50000_S50000x1_0 : FVec Ideal S50000 .f32 → FVec Ideal S50000x1 .f32) ((maximumf (F := Ideal) : FVec Ideal S50000 .f32 → FVec Ideal S50000 .f32 → FVec Ideal S50000 .f32) (((fun x i u => Host.scatterAdd (F := Ideal) scatter_S50000_S200000x1_S200000_n_0_0_1 x i u) : FVec Ideal S50000 .f32 → IVec S200000x1 32 → FVec Ideal S200000 .f32 → FVec Ideal S50000 .f32) ((broadcastInDim S50000 ![] bcast_S_S50000 : FVec Ideal S_ .f32 → FVec Ideal S50000 .f32) (constant (F := Ideal) S_ .f32 0x00000000#32)) ((broadcastInDim S200000x1 ![0] bcast_S200000_S200000x1_0 : IVec S200000 32 → IVec S200000x1 32) (shapeCast S200000 (((extractStridedSlice S1x200000 ![0, 0] · slices_S2x200000_S1x200000_0_0) : IVec S2x200000 32 → IVec S1x200000 32) arg25) shapeCasts_S1x200000_S200000)) ((broadcastInDim S200000 ![] bcast_S_S200000 : FVec Ideal S_ .f32 → FVec Ideal S200000 .f32) (constant (F := Ideal) S_ .f32 0x3F800000#32))) ((broadcastInDim S50000 ![] bcast_S_S50000 : FVec Ideal S_ .f32 → FVec Ideal S50000 .f32) (constant (F := Ideal) S_ .f32 0x3F800000#32)))))) (shapeCast S150x150 (((extractStridedSlice S1x1x150x150 ![0, 3, 0, 0] · slices_S3x6x150x150_S1x1x150x150_0_3_0_0) : FVec Ideal S3x6x150x150 .f32 → FVec Ideal S1x1x150x150 .f32) arg9) shapeCasts_S1x1x150x150_S150x150)) ((broadcastInDim S50000x150 ![0, 1] bcast_S1x150_S50000x150_0_1 : FVec Ideal S1x150 .f32 → FVec Ideal S50000x150 .f32) ((broadcastInDim S1x150 ![1] bcast_S150_S1x150_1 : FVec Ideal S150 .f32 → FVec Ideal S1x150 .f32) (shapeCast S150 (((extractStridedSlice S1x1x150 ![0, 3, 0] · slices_S3x6x150_S1x1x150_0_3_0) : FVec Ideal S3x6x150 .f32 → FVec Ideal S1x1x150 .f32) arg10) shapeCasts_S1x1x150_S150)))) (((fun l r => Host.dotGeneral (F := Ideal) dot_S50000x150_S150x150_S50000x150_1_0_0_1_n_n none l r) : FVec Ideal S50000x150 .f32 → FVec Ideal S150x150 .f32 → FVec Ideal S50000x150 .f32) v3 (shapeCast S150x150 (((extractStridedSlice S1x1x150x150 ![0, 3, 0, 0] · slices_S3x6x150x150_S1x1x150x150_0_3_0_0) : FVec Ideal S3x6x150x150 .f32 → FVec Ideal S1x1x150x150 .f32) arg11) shapeCasts_S1x1x150x150_S150x150))))

set_option maxHeartbeats 40000000 in
/-- After the list, from any contents, main_v82 holds that function of the contents. -/
theorem rst1_v82_eq (W : Valuation τ sig (Elt Ideal)) :
    StableHlo.after (st1 (F := Ideal)) W (Proc.devRef .tc main_v82)
      = rst1_v82 (W (Proc.devRef .tc main_v3)) (W (Proc.devRef .tc main_v7)) (W (Proc.devRef .tc main_v11)) (W (Proc.devRef .tc main_arg9)) (W (Proc.devRef .tc main_arg10)) (W (Proc.devRef .tc main_arg11)) (W (Proc.devRef .tc main_arg24)) (W (Proc.devRef .tc main_arg25)) := by
  after_results_simp <;> first | rfl | (unfold rst1_v82; rfl)

end Cert.ReferenceIdeal.ValueP

end
-- ==== Proof.RHost2.lean ====
/-
  What single buffers hold after a straight line of host operations, as functions of the buffers the line
  reads: each definition is the operations' own functions composed (their text as the list prints it, read at the
  extended reals), each lemma says the fold of the list at that buffer is that function of the starting contents.
-/
import proofs.«141689_j63058709840619_1_alg».proof.Proof.RefRunP
import proofs.«141689_j63058709840619_1_alg».proof.Proof.Spec
import Idealize.ShloMosaic.Lib.StableHlo.Run

set_option maxRecDepth 8192

noncomputable section

namespace Cert.ReferenceIdeal.ValueP

open Idealize.ShloMosaic Idealize.ShloMosaic.TcCoe Cert.ReferenceIdeal Cert.ReferenceIdeal.Gen Cert.Spec

/-! ## st2: 83 operations -/

/-- Buffer main_v153 as a function of main_v3, main_v7, main_v11, main_arg9, main_arg10, main_arg11, main_arg25, main_arg26: the operations that build it, composed. -/
def rst2_v153 (v3 : FVec Ideal S50000x150 .f32) (v7 : FVec Ideal S2000x150 .f32) (v11 : FVec Ideal S20000x150 .f32) (arg9 : FVec Ideal S3x6x150x150 .f32) (arg10 : FVec Ideal S3x6x150 .f32) (arg11 : FVec Ideal S3x6x150x150 .f32) (arg25 : IVec S2x200000 32) (arg26 : IVec S2x200000 32) : FVec Ideal S2000x150 .f32 :=
  ((addf (F := Ideal) : FVec Ideal S2000x150 .f32 → FVec Ideal S2000x150 .f32 → FVec Ideal S2000x150 .f32) ((addf (F := Ideal) : FVec Ideal S2000x150 .f32 → FVec Ideal S2000x150 .f32 → FVec Ideal S2000x150 .f32) ((addf (F := Ideal) : FVec Ideal S2000x150 .f32 → FVec Ideal S2000x150 .f32 → FVec Ideal S2000x150 .f32) (((fun l r => Host.dotGeneral (F := Ideal) dot_S2000x150_S150x150_S2000x150_1_0_0_1_n_n none l r) : FVec Ideal S2000x150 .f32 → FVec Ideal S150x150 .f32 → FVec Ideal S2000x150 .f32) ((Host.divf (F := Ideal) : FVec Ideal S2000x150 .f32 → FVec Ideal S2000x150 .f32 → FVec Ideal S2000x150 .f32) (((fun x i u => Host.scatterAdd (F := Ideal) scatter_S2000x150_S200000x1_S200000x150_1_0_0_1 x i u) : FVec Ideal S2000x150 .f32 → IVec S200000x1 32 → FVec Ideal S200000x150 .f32 → FVec Ideal S2000x150 .f32) ((broadcastInDim S2000x150 ![] bcast_S_S2000x150 : FVec Ideal S_ .f32 → FVec Ideal S2000x150 .f32) (constant (F := Ideal) S_ .f32 0x00000000#32)) ((broadcastInDim S200000x1 ![0] bcast_S200000_S200000x1_0 : IVec S200000 32 → IVec S200000x1 32) (shapeCast S200000 (((extractStridedSlice S1x200000 ![1, 0] · slices_S2x200000_S1x200000_1_0) : IVec S2x200000 32 → IVec S1x200000 32) arg25) shapeCasts_S1x200000_S200000)) (((fun x i => Host.gather gather_S50000x150_S200000x1_S200000x150_1_0_n_n_0_1_1150 x i) : FVec Ideal S50000x150 .f32 → IVec S200000x1 32 → FVec Ideal S200000x150 .f32) v3 ((broadcastInDim S200000x1 ![0] bcast_S200000_S200000x1_0 : IVec S200000 32 → IVec S200000x1 32) ((select : IVec S200000 1 → IVec S200000 32 → IVec S200000 32 → IVec S200000 32) ((cmpi .slt : IVec S200000 32 → IVec S200000 32 → IVec S200000 1) (shapeCast S200000 (((extractStridedSlice S1x200000 ![0, 0] · slices_S2x200000_S1x200000_0_0) : IVec S2x200000 32 → IVec S1x200000 32) arg25) shapeCasts_S1x200000_S200000) ((broadcastInDim S200000 ![] bcast_S_S200000 : IVec S_ 32 → IVec S200000 32) (constantI S_ 32 0#32))) ((addi : IVec S200000 32 → IVec S200000 32 → IVec S200000 32) (shapeCast S200000 (((extractStridedSlice S1x200000 ![0, 0] · slices_S2x200000_S1x200000_0_0) : IVec S2x200000 32 → IVec S1x200000 32) arg25) shapeCasts_S1x200000_S200000) ((broadcastInDim S200000 ![] bcast_S_S200000 : IVec S_ 32 → IVec S200000 32) (constantI S_ 32 50000#32))) (shapeCast S200000 (((extractStridedSlice S1x200000 ![0, 0] · slices_S2x200000_S1x200000_0_0) : IVec S2x200000 32 → IVec S1x200000 32) arg25) shapeCasts_S1x200000_S200000))))) ((broadcastInDim S2000x150 ![0, 1] bcast_S2000x1_S2000x150_0_1 : FVec Ideal S2000x1 .f32 → FVec Ideal S2000x150 .f32) ((broadcastInDim S2000x1 ![0] bcast_S2000_S2000x1_0 : FVec Ideal S2000 .f32 → FVec Ideal S2000x1 .f32) ((maximumf (F := Ideal) : FVec Ideal S2000 .f32 → FVec Ideal S2000 .f32 → FVec Ideal S2000 .f32) (((fun x i u => Host.scatterAdd (F := Ideal) scatter_S2000_S200000x1_S200000_n_0_0_1 x i u) : FVec Ideal S2000 .f32 → IVec S200000x1 32 → FVec Ideal S200000 .f32 → FVec Ideal S2000 .f32) ((broadcastInDim S2000 ![] bcast_S_S2000 : FVec Ideal S_ .f32 → FVec Ideal S2000 .f32) (constant (F := Ideal) S_ .f32 0x00000000#32)) ((broadcastInDim S200000x1 ![0] bcast_S200000_S200000x1_0 : IVec S200000 32 → IVec S200000x1 32) (shapeCast S200000 (((extractStridedSlice S1x200000 ![1, 0] · slices_S2x200000_S1x200000_1_0) : IVec S2x200000 32 → IVec S1x200000 32) arg25) shapeCasts_S1x200000_S200000)) ((broadcastInDim S200000 ![] bcast_S_S200000 : FVec Ideal S_ .f32 → FVec Ideal S200000 .f32) (constant (F := Ideal) S_ .f32 0x3F800000#32))) ((broadcastInDim S2000 ![] bcast_S_S2000 : FVec Ideal S_ .f32 → FVec Ideal S2000 .f32) (constant (F := Ideal) S_ .f32 0x3F800000#32)))))) (shapeCast S150x150 (((extractStridedSlice S1x1x150x150 ![0, 2, 0, 0] · slices_S3x6x150x150_S1x1x150x150_0_2_0_0) : FVec Ideal S3x6x150x150 .f32 → FVec Ideal S1x1x150x150 .f32) arg9) shapeCasts_S1x1x150x150_S150x150)) ((broadcastInDim S2000x150 ![0, 1] bcast_S1x150_S2000x150_0_1 : FVec Ideal S1x150 .f32 → FVec Ideal S2000x150 .f32) ((broadcastInDim S1x150 ![1] bcast_S150_S1x150_1 : FVec Ideal S150 .f32 → FVec Ideal S1x150 .f32) (shapeCast S150 (((extractStridedSlice S1x1x150 ![0, 2, 0] · slices_S3x6x150_S1x1x150_0_2_0) : FVec Ideal S3x6x150 .f32 → FVec Ideal S1x1x150 .f32) arg10) shapeCasts_S1x1x150_S150)))) (((fun l r => Host.dotGeneral (F := Ideal) dot_S2000x150_S150x150_S2000x150_1_0_0_1_n_n none l r) : FVec Ideal S2000x150 .f32 → FVec Ideal S150x150 .f32 → FVec Ideal S2000x150 .f32) v7 (shapeCast S150x150 (((extractStridedSlice S1x1x150x150 ![0, 2, 0, 0] · slices_S3x6x150x150_S1x1x150x150_0_2_0_0) : FVec Ideal S3x6x150x150 .f32 → FVec Ideal S1x1x150x150 .f32) arg11) shapeCasts_S1x1x150x150_S150x150))) ((addf (F := Ideal) : FVec Ideal S2000x150 .f32 → FVec Ideal S2000x150 .f32 → FVec Ideal S2000x150 .f32) ((addf (F := Ideal) : FVec Ideal S2000x150 .f32 → FVec Ideal S2000x150 .f32 → FVec Ideal S2000x150 .f32) (((fun l r => Host.dotGeneral (F := Ideal) dot_S2000x150_S150x150_S2000x150_1_0_0_1_n_n none l r) : FVec Ideal S2000x150 .f32 → FVec Ideal S150x150 .f32 → FVec Ideal S2000x150 .f32) ((Host.divf (F := Ideal) : FVec Ideal S2000x150 .f32 → FVec Ideal S2000x150 .f32 → FVec Ideal S2000x150 .f32) (((fun x i u => Host.scatterAdd (F := Ideal) scatter_S2000x150_S200000x1_S200000x150_1_0_0_1 x i u) : FVec Ideal S2000x150 .f32 → IVec S200000x1 32 → FVec Ideal S200000x150 .f32 → FVec Ideal S2000x150 .f32) ((broadcastInDim S2000x150 ![] bcast_S_S2000x150 : FVec Ideal S_ .f32 → FVec Ideal S2000x150 .f32) (constant (F := Ideal) S_ .f32 0x00000000#32)) ((broadcastInDim S200000x1 ![0] bcast_S200000_S200000x1_0 : IVec S200000 32 → IVec S200000x1 32) (shapeCast S200000 (((extractStridedSlice S1x200000 ![0, 0] · slices_S2x200000_S1x200000_0_0) : IVec S2x200000 32 → IVec S1x200000 32) arg26) shapeCasts_S1x200000_S200000)) (((fun x i => Host.gather gather_S20000x150_S200000x1_S200000x150_1_0_n_n_0_1_1150 x i) : FVec Ideal S20000x150 .f32 → IVec S200000x1 32 → FVec Ideal S200000x150 .f32) v11 ((broadcastInDim S200000x1 ![0] bcast_S200000_S200000x1_0 : IVec S200000 32 → IVec S200000x1 32) ((select : IVec S200000 1 → IVec S200000 32 → IVec S200000 32 → IVec S200000 32) ((cmpi .slt : IVec S200000 32 → IVec S200000 32 → IVec S200000 1) (shapeCast S200000 (((extractStridedSlice S1x200000 ![1, 0] · slices_S2x200000_S1x200000_1_0) : IVec S2x200000 32 → IVec S1x200000 32) arg26) shapeCasts_S1x200000_S200000) ((broadcastInDim S200000 ![] bcast_S_S200000 : IVec S_ 32 → IVec S200000 32) (constantI S_ 32 0#32))) ((addi : IVec S200000 32 → IVec S200000 32 → IVec S200000 32) (shapeCast S200000 (((extractStridedSlice S1x200000 ![1, 0] · slices_S2x200000_S1x200000_1_0) : IVec S2x200000 32 → IVec S1x200000 32) arg26) shapeCasts_S1x200000_S200000) ((broadcastInDim S200000 ![] bcast_S_S200000 : IVec S_ 32 → IVec S200000 32) (constantI S_ 32 20000#32))) (shapeCast S200000 (((extractStridedSlice S1x200000 ![1, 0] · slices_S2x200000_S1x200000_1_0) : IVec S2x200000 32 → IVec S1x200000 32) arg26) shapeCasts_S1x200000_S200000))))) ((broadcastInDim S2000x150 ![0, 1] bcast_S2000x1_S2000x150_0_1 : FVec Ideal S2000x1 .f32 → FVec Ideal S2000x150 .f32) ((broadcastInDim S2000x1 ![0] bcast_S2000_S2000x1_0 : FVec Ideal S2000 .f32 → FVec Ideal S2000x1 .f32) ((maximumf (F := Ideal) : FVec Ideal S2000 .f32 → FVec Ideal S2000 .f32 → FVec Ideal S2000 .f32) (((fun x i u => Host.scatterAdd (F := Ideal) scatter_S2000_S200000x1_S200000_n_0_0_1 x i u) : FVec Ideal S2000 .f32 → IVec S200000x1 32 → FVec Ideal S200000 .f32 → FVec Ideal S2000 .f32) ((broadcastInDim S2000 ![] bcast_S_S2000 : FVec Ideal S_ .f32 → FVec Ideal S2000 .f32) (constant (F := Ideal) S_ .f32 0x00000000#32)) ((broadcastInDim S200000x1 ![0] bcast_S200000_S200000x1_0 : IVec S200000 32 → IVec S200000x1 32) (shapeCast S200000 (((extractStridedSlice S1x200000 ![0, 0] · slices_S2x200000_S1x200000_0_0) : IVec S2x200000 32 → IVec S1x200000 32) arg26) shapeCasts_S1x200000_S200000)) ((broadcastInDim S200000 ![] bcast_S_S200000 : FVec Ideal S_ .f32 → FVec Ideal S200000 .f32) (constant (F := Ideal) S_ .f32 0x3F800000#32))) ((broadcastInDim S2000 ![] bcast_S_S2000 : FVec Ideal S_ .f32 → FVec Ideal S2000 .f32) (constant (F := Ideal) S_ .f32 0x3F800000#32)))))) (shapeCast S150x150 (((extractStridedSlice S1x1x150x150 ![0, 5, 0, 0] · slices_S3x6x150x150_S1x1x150x150_0_5_0_0) : FVec Ideal S3x6x150x150 .f32 → FVec Ideal S1x1x150x150 .f32) arg9) shapeCasts_S1x1x150x150_S150x150)) ((broadcastInDim S2000x150 ![0, 1] bcast_S1x150_S2000x150_0_1 : FVec Ideal S1x150 .f32 → FVec Ideal S2000x150 .f32) ((broadcastInDim S1x150 ![1] bcast_S150_S1x150_1 : FVec Ideal S150 .f32 → FVec Ideal S1x150 .f32) (shapeCast S150 (((extractStridedSlice S1x1x150 ![0, 5, 0] · slices_S3x6x150_S1x1x150_0_5_0) : FVec Ideal S3x6x150 .f32 → FVec Ideal S1x1x150 .f32) arg10) shapeCasts_S1x1x150_S150)))) (((fun l r => Host.dotGeneral (F := Ideal) dot_S2000x150_S150x150_S2000x150_1_0_0_1_n_n none l r) : FVec Ideal S2000x150 .f32 → FVec Ideal S150x150 .f32 → FVec Ideal S2000x150 .f32) v7 (shapeCast S150x150 (((extractStridedSlice S1x1x150x150 ![0, 5, 0, 0] · slices_S3x6x150x150_S1x1x150x150_0_5_0_0) : FVec Ideal S3x6x150x150 .f32 → FVec Ideal S1x1x150x150 .f32) arg11) shapeCasts_S1x1x150x150_S150x150))))

set_option maxHeartbeats 40000000 in
/-- After the list, from any contents, main_v153 holds that function of the contents. -/
theorem rst2_v153_eq (W : Valuation τ sig (Elt Ideal)) :
    StableHlo.after (st2 (F := Ideal)) W (Proc.devRef .tc main_v153)
      = rst2_v153 (W (Proc.devRef .tc main_v3)) (W (Proc.devRef .tc main_v7)) (W (Proc.devRef .tc main_v11)) (W (Proc.devRef .tc main_arg9)) (W (Proc.devRef .tc main_arg10)) (W (Proc.devRef .tc main_arg11)) (W (Proc.devRef .tc main_arg25)) (W (Proc.devRef .tc main_arg26)) := by
  after_results_simp <;> first | rfl | (unfold rst2_v153; rfl)

end Cert.ReferenceIdeal.ValueP

end
-- ==== Proof.RHost3.lean ====
/-
  What single buffers hold after a straight line of host operations, as functions of the buffers the line
  reads: each definition is the operations' own functions composed (their text as the list prints it, read at the
  extended reals), each lemma says the fold of the list at that buffer is that function of the starting contents.
-/
import proofs.«141689_j63058709840619_1_alg».proof.Proof.RefRunP
import proofs.«141689_j63058709840619_1_alg».proof.Proof.Spec
import Idealize.ShloMosaic.Lib.StableHlo.Run

set_option maxRecDepth 8192

noncomputable section

namespace Cert.ReferenceIdeal.ValueP

open Idealize.ShloMosaic Idealize.ShloMosaic.TcCoe Cert.ReferenceIdeal Cert.ReferenceIdeal.Gen Cert.Spec

/-! ## st3: 83 operations -/

/-- Buffer main_v224 as a function of main_v3, main_v7, main_v11, main_arg9, main_arg10, main_arg11, main_arg24, main_arg26: the operations that build it, composed. -/
def rst3_v224 (v3 : FVec Ideal S50000x150 .f32) (v7 : FVec Ideal S2000x150 .f32) (v11 : FVec Ideal S20000x150 .f32) (arg9 : FVec Ideal S3x6x150x150 .f32) (arg10 : FVec Ideal S3x6x150 .f32) (arg11 : FVec Ideal S3x6x150x150 .f32) (arg24 : IVec S2x500000 32) (arg26 : IVec S2x200000 32) : FVec Ideal S20000x150 .f32 :=
  ((addf (F := Ideal) : FVec Ideal S20000x150 .f32 → FVec Ideal S20000x150 .f32 → FVec Ideal S20000x150 .f32) ((addf (F := Ideal) : FVec Ideal S20000x150 .f32 → FVec Ideal S20000x150 .f32 → FVec Ideal S20000x150 .f32) ((addf (F := Ideal) : FVec Ideal S20000x150 .f32 → FVec Ideal S20000x150 .f32 → FVec Ideal S20000x150 .f32) (((fun l r => Host.dotGeneral (F := Ideal) dot_S20000x150_S150x150_S20000x150_1_0_0_1_n_n none l r) : FVec Ideal S20000x150 .f32 → FVec Ideal S150x150 .f32 → FVec Ideal S20000x150 .f32) ((Host.divf (F := Ideal) : FVec Ideal S20000x150 .f32 → FVec Ideal S20000x150 .f32 → FVec Ideal S20000x150 .f32) (((fun x i u => Host.scatterAdd (F := Ideal) scatter_S20000x150_S500000x1_S500000x150_1_0_0_1 x i u) : FVec Ideal S20000x150 .f32 → IVec S500000x1 32 → FVec Ideal S500000x150 .f32 → FVec Ideal S20000x150 .f32) ((broadcastInDim S20000x150 ![] bcast_S_S20000x150 : FVec Ideal S_ .f32 → FVec Ideal S20000x150 .f32) (constant (F := Ideal) S_ .f32 0x00000000#32)) ((broadcastInDim S500000x1 ![0] bcast_S500000_S500000x1_0 : IVec S500000 32 → IVec S500000x1 32) (shapeCast S500000 (((extractStridedSlice S1x500000 ![1, 0] · slices_S2x500000_S1x500000_1_0) : IVec S2x500000 32 → IVec S1x500000 32) arg24) shapeCasts_S1x500000_S500000)) (((fun x i => Host.gather gather_S50000x150_S500000x1_S500000x150_1_0_n_n_0_1_1150 x i) : FVec Ideal S50000x150 .f32 → IVec S500000x1 32 → FVec Ideal S500000x150 .f32) v3 ((broadcastInDim S500000x1 ![0] bcast_S500000_S500000x1_0 : IVec S500000 32 → IVec S500000x1 32) ((select : IVec S500000 1 → IVec S500000 32 → IVec S500000 32 → IVec S500000 32) ((cmpi .slt : IVec S500000 32 → IVec S500000 32 → IVec S500000 1) (shapeCast S500000 (((extractStridedSlice S1x500000 ![0, 0] · slices_S2x500000_S1x500000_0_0) : IVec S2x500000 32 → IVec S1x500000 32) arg24) shapeCasts_S1x500000_S500000) ((broadcastInDim S500000 ![] bcast_S_S500000 : IVec S_ 32 → IVec S500000 32) (constantI S_ 32 0#32))) ((addi : IVec S500000 32 → IVec S500000 32 → IVec S500000 32) (shapeCast S500000 (((extractStridedSlice S1x500000 ![0, 0] · slices_S2x500000_S1x500000_0_0) : IVec S2x500000 32 → IVec S1x500000 32) arg24) shapeCasts_S1x500000_S500000) ((broadcastInDim S500000 ![] bcast_S_S500000 : IVec S_ 32 → IVec S500000 32) (constantI S_ 32 50000#32))) (shapeCast S500000 (((extractStridedSlice S1x500000 ![0, 0] · slices_S2x500000_S1x500000_0_0) : IVec S2x500000 32 → IVec S1x500000 32) arg24) shapeCasts_S1x500000_S500000))))) ((broadcastInDim S20000x150 ![0, 1] bcast_S20000x1_S20000x150_0_1 : FVec Ideal S20000x1 .f32 → FVec Ideal S20000x150 .f32) ((broadcastInDim S20000x1 ![0] bcast_S20000_S20000x1_0 : FVec Ideal S20000 .f32 → FVec Ideal S20000x1 .f32) ((maximumf (F := Ideal) : FVec Ideal S20000 .f32 → FVec Ideal S20000 .f32 → FVec Ideal S20000 .f32) (((fun x i u => Host.scatterAdd (F := Ideal) scatter_S20000_S500000x1_S500000_n_0_0_1 x i u) : FVec Ideal S20000 .f32 → IVec S500000x1 32 → FVec Ideal S500000 .f32 → FVec Ideal S20000 .f32) ((broadcastInDim S20000 ![] bcast_S_S20000 : FVec Ideal S_ .f32 → FVec Ideal S20000 .f32) (constant (F := Ideal) S_ .f32 0x00000000#32)) ((broadcastInDim S500000x1 ![0] bcast_S500000_S500000x1_0 : IVec S500000 32 → IVec S500000x1 32) (shapeCast S500000 (((extractStridedSlice S1x500000 ![1, 0] · slices_S2x500000_S1x500000_1_0) : IVec S2x500000 32 → IVec S1x500000 32) arg24) shapeCasts_S1x500000_S500000)) ((broadcastInDim S500000 ![] bcast_S_S500000 : FVec Ideal S_ .f32 → FVec Ideal S500000 .f32) (constant (F := Ideal) S_ .f32 0x3F800000#32))) ((broadcastInDim S20000 ![] bcast_S_S20000 : FVec Ideal S_ .f32 → FVec Ideal S20000 .f32) (constant (F := Ideal) S_ .f32 0x3F800000#32)))))) (shapeCast S150x150 (((extractStridedSlice S1x1x150x150 ![0, 0, 0, 0] · slices_S3x6x150x150_S1x1x150x150_0_0_0_0) : FVec Ideal S3x6x150x150 .f32 → FVec Ideal S1x1x150x150 .f32) arg9) shapeCasts_S1x1x150x150_S150x150)) ((broadcastInDim S20000x150 ![0, 1] bcast_S1x150_S20000x150_0_1 : FVec Ideal S1x150 .f32 → FVec Ideal S20000x150 .f32) ((broadcastInDim S1x150 ![1] bcast_S150_S1x150_1 : FVec Ideal S150 .f32 → FVec Ideal S1x150 .f32) (shapeCast S150 (((extractStridedSlice S1x1x150 ![0, 0, 0] · slices_S3x6x150_S1x1x150_0_0_0) : FVec Ideal S3x6x150 .f32 → FVec Ideal S1x1x150 .f32) arg10) shapeCasts_S1x1x150_S150)))) (((fun l r => Host.dotGeneral (F := Ideal) dot_S20000x150_S150x150_S20000x150_1_0_0_1_n_n none l r) : FVec Ideal S20000x150 .f32 → FVec Ideal S150x150 .f32 → FVec Ideal S20000x150 .f32) v11 (shapeCast S150x150 (((extractStridedSlice S1x1x150x150 ![0, 0, 0, 0] · slices_S3x6x150x150_S1x1x150x150_0_0_0_0) : FVec Ideal S3x6x150x150 .f32 → FVec Ideal S1x1x150x150 .f32) arg11) shapeCasts_S1x1x150x150_S150x150))) ((addf (F := Ideal) : FVec Ideal S20000x150 .f32 → FVec Ideal S20000x150 .f32 → FVec Ideal S20000x150 .f32) ((addf (F := Ideal) : FVec Ideal S20000x150 .f32 → FVec Ideal S20000x150 .f32 → FVec Ideal S20000x150 .f32) (((fun l r => Host.dotGeneral (F := Ideal) dot_S20000x150_S150x150_S20000x150_1_0_0_1_n_n none l r) : FVec Ideal S20000x150 .f32 → FVec Ideal S150x150 .f32 → FVec Ideal S20000x150 .f32) ((Host.divf (F := Ideal) : FVec Ideal S20000x150 .f32 → FVec Ideal S20000x150 .f32 → FVec Ideal S20000x150 .f32) (((fun x i u => Host.scatterAdd (F := Ideal) scatter_S20000x150_S200000x1_S200000x150_1_0_0_1 x i u) : FVec Ideal S20000x150 .f32 → IVec S200000x1 32 → FVec Ideal S200000x150 .f32 → FVec Ideal S20000x150 .f32) ((broadcastInDim S20000x150 ![] bcast_S_S20000x150 : FVec Ideal S_ .f32 → FVec Ideal S20000x150 .f32) (constant (F := Ideal) S_ .f32 0x00000000#32)) ((broadcastInDim S200000x1 ![0] bcast_S200000_S200000x1_0 : IVec S200000 32 → IVec S200000x1 32) (shapeCast S200000 (((extractStridedSlice S1x200000 ![1, 0] · slices_S2x200000_S1x200000_1_0) : IVec S2x200000 32 → IVec S1x200000 32) arg26) shapeCasts_S1x200000_S200000)) (((fun x i => Host.gather gather_S2000x150_S200000x1_S200000x150_1_0_n_n_0_1_1150 x i) : FVec Ideal S2000x150 .f32 → IVec S200000x1 32 → FVec Ideal S200000x150 .f32) v7 ((broadcastInDim S200000x1 ![0] bcast_S200000_S200000x1_0 : IVec S200000 32 → IVec S200000x1 32) ((select : IVec S200000 1 → IVec S200000 32 → IVec S200000 32 → IVec S200000 32) ((cmpi .slt : IVec S200000 32 → IVec S200000 32 → IVec S200000 1) (shapeCast S200000 (((extractStridedSlice S1x200000 ![0, 0] · slices_S2x200000_S1x200000_0_0) : IVec S2x200000 32 → IVec S1x200000 32) arg26) shapeCasts_S1x200000_S200000) ((broadcastInDim S200000 ![] bcast_S_S200000 : IVec S_ 32 → IVec S200000 32) (constantI S_ 32 0#32))) ((addi : IVec S200000 32 → IVec S200000 32 → IVec S200000 32) (shapeCast S200000 (((extractStridedSlice S1x200000 ![0, 0] · slices_S2x200000_S1x200000_0_0) : IVec S2x200000 32 → IVec S1x200000 32) arg26) shapeCasts_S1x200000_S200000) ((broadcastInDim S200000 ![] bcast_S_S200000 : IVec S_ 32 → IVec S200000 32) (constantI S_ 32 2000#32))) (shapeCast S200000 (((extractStridedSlice S1x200000 ![0, 0] · slices_S2x200000_S1x200000_0_0) : IVec S2x200000 32 → IVec S1x200000 32) arg26) shapeCasts_S1x200000_S200000))))) ((broadcastInDim S20000x150 ![0, 1] bcast_S20000x1_S20000x150_0_1 : FVec Ideal S20000x1 .f32 → FVec Ideal S20000x150 .f32) ((broadcastInDim S20000x1 ![0] bcast_S20000_S20000x1_0 : FVec Ideal S20000 .f32 → FVec Ideal S20000x1 .f32) ((maximumf (F := Ideal) : FVec Ideal S20000 .f32 → FVec Ideal S20000 .f32 → FVec Ideal S20000 .f32) (((fun x i u => Host.scatterAdd (F := Ideal) scatter_S20000_S200000x1_S200000_n_0_0_1 x i u) : FVec Ideal S20000 .f32 → IVec S200000x1 32 → FVec Ideal S200000 .f32 → FVec Ideal S20000 .f32) ((broadcastInDim S20000 ![] bcast_S_S20000 : FVec Ideal S_ .f32 → FVec Ideal S20000 .f32) (constant (F := Ideal) S_ .f32 0x00000000#32)) ((broadcastInDim S200000x1 ![0] bcast_S200000_S200000x1_0 : IVec S200000 32 → IVec S200000x1 32) (shapeCast S200000 (((extractStridedSlice S1x200000 ![1, 0] · slices_S2x200000_S1x200000_1_0) : IVec S2x200000 32 → IVec S1x200000 32) arg26) shapeCasts_S1x200000_S200000)) ((broadcastInDim S200000 ![] bcast_S_S200000 : FVec Ideal S_ .f32 → FVec Ideal S200000 .f32) (constant (F := Ideal) S_ .f32 0x3F800000#32))) ((broadcastInDim S20000 ![] bcast_S_S20000 : FVec Ideal S_ .f32 → FVec Ideal S20000 .f32) (constant (F := Ideal) S_ .f32 0x3F800000#32)))))) (shapeCast S150x150 (((extractStridedSlice S1x1x150x150 ![0, 4, 0, 0] · slices_S3x6x150x150_S1x1x150x150_0_4_0_0) : FVec Ideal S3x6x150x150 .f32 → FVec Ideal S1x1x150x150 .f32) arg9) shapeCasts_S1x1x150x150_S150x150)) ((broadcastInDim S20000x150 ![0, 1] bcast_S1x150_S20000x150_0_1 : FVec Ideal S1x150 .f32 → FVec Ideal S20000x150 .f32) ((broadcastInDim S1x150 ![1] bcast_S150_S1x150_1 : FVec Ideal S150 .f32 → FVec Ideal S1x150 .f32) (shapeCast S150 (((extractStridedSlice S1x1x150 ![0, 4, 0] · slices_S3x6x150_S1x1x150_0_4_0) : FVec Ideal S3x6x150 .f32 → FVec Ideal S1x1x150 .f32) arg10) shapeCasts_S1x1x150_S150)))) (((fun l r => Host.dotGeneral (F := Ideal) dot_S20000x150_S150x150_S20000x150_1_0_0_1_n_n none l r) : FVec Ideal S20000x150 .f32 → FVec Ideal S150x150 .f32 → FVec Ideal S20000x150 .f32) v11 (shapeCast S150x150 (((extractStridedSlice S1x1x150x150 ![0, 4, 0, 0] · slices_S3x6x150x150_S1x1x150x150_0_4_0_0) : FVec Ideal S3x6x150x150 .f32 → FVec Ideal S1x1x150x150 .f32) arg11) shapeCasts_S1x1x150x150_S150x150))))

set_option maxHeartbeats 40000000 in
/-- After the list, from any contents, main_v224 holds that function of the contents. -/
theorem rst3_v224_eq (W : Valuation τ sig (Elt Ideal)) :
    StableHlo.after (st3 (F := Ideal)) W (Proc.devRef .tc main_v224)
      = rst3_v224 (W (Proc.devRef .tc main_v3)) (W (Proc.devRef .tc main_v7)) (W (Proc.devRef .tc main_v11)) (W (Proc.devRef .tc main_arg9)) (W (Proc.devRef .tc main_arg10)) (W (Proc.devRef .tc main_arg11)) (W (Proc.devRef .tc main_arg24)) (W (Proc.devRef .tc main_arg26)) := by
  after_results_simp <;> first | rfl | (unfold rst3_v224; rfl)

end Cert.ReferenceIdeal.ValueP

end
-- ==== Proof.RHost4.lean ====
/-
  What single buffers hold after a straight line of host operations, as functions of the buffers the line
  reads: each definition is the operations' own functions composed (their text as the list prints it, read at the
  extended reals), each lemma says the fold of the list at that buffer is that function of the starting contents.
-/
import proofs.«141689_j63058709840619_1_alg».proof.Proof.RefRunP
import proofs.«141689_j63058709840619_1_alg».proof.Proof.Spec
import Idealize.ShloMosaic.Lib.StableHlo.Run

set_option maxRecDepth 8192

noncomputable section

namespace Cert.ReferenceIdeal.ValueP

open Idealize.ShloMosaic Idealize.ShloMosaic.TcCoe Cert.ReferenceIdeal Cert.ReferenceIdeal.Gen Cert.Spec

/-! ## st4: 9 operations -/

/-- Buffer main_v225 as a function of main_v82: the operations that build it, composed. -/
def rst4_v225 (v82 : FVec Ideal S50000x150 .f32) : FVec Ideal S50000x150 .f32 :=
  ((maximumf (F := Ideal) : FVec Ideal S50000x150 .f32 → FVec Ideal S50000x150 .f32 → FVec Ideal S50000x150 .f32) v82 (((broadcastInDim S50000x150 ![] bcast_S_S50000x150) : FVec Ideal S_ .f32 → FVec Ideal S50000x150 .f32) (constant (F := Ideal) S_ .f32 0x00000000#32)))

set_option maxHeartbeats 40000000 in
/-- After the list, from any contents, main_v225 holds that function of the contents. -/
theorem rst4_v225_eq (W : Valuation τ sig (Elt Ideal)) :
    StableHlo.after (st4 (F := Ideal)) W (Proc.devRef .tc main_v225)
      = rst4_v225 (W (Proc.devRef .tc main_v82)) := by
  after_results_simp <;> first | rfl | (unfold rst4_v225; rfl)

/-- Buffer main_v226 as a function of main_v153: the operations that build it, composed. -/
def rst4_v226 (v153 : FVec Ideal S2000x150 .f32) : FVec Ideal S2000x150 .f32 :=
  ((maximumf (F := Ideal) : FVec Ideal S2000x150 .f32 → FVec Ideal S2000x150 .f32 → FVec Ideal S2000x150 .f32) v153 (((broadcastInDim S2000x150 ![] bcast_S_S2000x150) : FVec Ideal S_ .f32 → FVec Ideal S2000x150 .f32) (constant (F := Ideal) S_ .f32 0x00000000#32)))

set_option maxHeartbeats 40000000 in
/-- After the list, from any contents, main_v226 holds that function of the contents. -/
theorem rst4_v226_eq (W : Valuation τ sig (Elt Ideal)) :
    StableHlo.after (st4 (F := Ideal)) W (Proc.devRef .tc main_v226)
      = rst4_v226 (W (Proc.devRef .tc main_v153)) := by
  after_results_simp <;> first | rfl | (unfold rst4_v226; rfl)

/-- Buffer main_v227 as a function of main_v224: the operations that build it, composed. -/
def rst4_v227 (v224 : FVec Ideal S20000x150 .f32) : FVec Ideal S20000x150 .f32 :=
  ((maximumf (F := Ideal) : FVec Ideal S20000x150 .f32 → FVec Ideal S20000x150 .f32 → FVec Ideal S20000x150 .f32) v224 (((broadcastInDim S20000x150 ![] bcast_S_S20000x150) : FVec Ideal S_ .f32 → FVec Ideal S20000x150 .f32) (constant (F := Ideal) S_ .f32 0x00000000#32)))

set_option maxHeartbeats 40000000 in
/-- After the list, from any contents, main_v227 holds that function of the contents. -/
theorem rst4_v227_eq (W : Valuation τ sig (Elt Ideal)) :
    StableHlo.after (st4 (F := Ideal)) W (Proc.devRef .tc main_v227)
      = rst4_v227 (W (Proc.devRef .tc main_v224)) := by
  after_results_simp <;> first | rfl | (unfold rst4_v227; rfl)

end Cert.ReferenceIdeal.ValueP

end
-- ==== Proof.RHost5.lean ====
/-
  What single buffers hold after a straight line of host operations, as functions of the buffers the line
  reads: each definition is the operations' own functions composed (their text as the list prints it, read at the
  extended reals), each lemma says the fold of the list at that buffer is that function of the starting contents.
-/
import proofs.«141689_j63058709840619_1_alg».proof.Proof.RefRunP
import proofs.«141689_j63058709840619_1_alg».proof.Proof.Spec
import Idealize.ShloMosaic.Lib.StableHlo.Run

set_option maxRecDepth 8192

noncomputable section

namespace Cert.ReferenceIdeal.ValueP

open Idealize.ShloMosaic Idealize.ShloMosaic.TcCoe Cert.ReferenceIdeal Cert.ReferenceIdeal.Gen Cert.Spec

/-! ## st5: 83 operations -/

/-- Buffer main_v298 as a function of main_v225, main_v226, main_v227, main_arg9, main_arg10, main_arg11, main_arg24, main_arg25: the operations that build it, composed. -/
def rst5_v298 (v225 : FVec Ideal S50000x150 .f32) (v226 : FVec Ideal S2000x150 .f32) (v227 : FVec Ideal S20000x150 .f32) (arg9 : FVec Ideal S3x6x150x150 .f32) (arg10 : FVec Ideal S3x6x150 .f32) (arg11 : FVec Ideal S3x6x150x150 .f32) (arg24 : IVec S2x500000 32) (arg25 : IVec S2x200000 32) : FVec Ideal S50000x150 .f32 :=
  ((addf (F := Ideal) : FVec Ideal S50000x150 .f32 → FVec Ideal S50000x150 .f32 → FVec Ideal S50000x150 .f32) ((addf (F := Ideal) : FVec Ideal S50000x150 .f32 → FVec Ideal S50000x150 .f32 → FVec Ideal S50000x150 .f32) ((addf (F := Ideal) : FVec Ideal S50000x150 .f32 → FVec Ideal S50000x150 .f32 → FVec Ideal S50000x150 .f32) (((fun l r => Host.dotGeneral (F := Ideal) dot_S50000x150_S150x150_S50000x150_1_0_0_1_n_n none l r) : FVec Ideal S50000x150 .f32 → FVec Ideal S150x150 .f32 → FVec Ideal S50000x150 .f32) ((Host.divf (F := Ideal) : FVec Ideal S50000x150 .f32 → FVec Ideal S50000x150 .f32 → FVec Ideal S50000x150 .f32) (((fun x i u => Host.scatterAdd (F := Ideal) scatter_S50000x150_S500000x1_S500000x150_1_0_0_1 x i u) : FVec Ideal S50000x150 .f32 → IVec S500000x1 32 → FVec Ideal S500000x150 .f32 → FVec Ideal S50000x150 .f32) ((broadcastInDim S50000x150 ![] bcast_S_S50000x150 : FVec Ideal S_ .f32 → FVec Ideal S50000x150 .f32) (constant (F := Ideal) S_ .f32 0x00000000#32)) ((broadcastInDim S500000x1 ![0] bcast_S500000_S500000x1_0 : IVec S500000 32 → IVec S500000x1 32) (shapeCast S500000 (((extractStridedSlice S1x500000 ![0, 0] · slices_S2x500000_S1x500000_0_0) : IVec S2x500000 32 → IVec S1x500000 32) arg24) shapeCasts_S1x500000_S500000)) (((fun x i => Host.gather gather_S20000x150_S500000x1_S500000x150_1_0_n_n_0_1_1150 x i) : FVec Ideal S20000x150 .f32 → IVec S500000x1 32 → FVec Ideal S500000x150 .f32) v227 ((broadcastInDim S500000x1 ![0] bcast_S500000_S500000x1_0 : IVec S500000 32 → IVec S500000x1 32) ((select : IVec S500000 1 → IVec S500000 32 → IVec S500000 32 → IVec S500000 32) ((cmpi .slt : IVec S500000 32 → IVec S500000 32 → IVec S500000 1) (shapeCast S500000 (((extractStridedSlice S1x500000 ![1, 0] · slices_S2x500000_S1x500000_1_0) : IVec S2x500000 32 → IVec S1x500000 32) arg24) shapeCasts_S1x500000_S500000) ((broadcastInDim S500000 ![] bcast_S_S500000 : IVec S_ 32 → IVec S500000 32) (constantI S_ 32 0#32))) ((addi : IVec S500000 32 → IVec S500000 32 → IVec S500000 32) (shapeCast S500000 (((extractStridedSlice S1x500000 ![1, 0] · slices_S2x500000_S1x500000_1_0) : IVec S2x500000 32 → IVec S1x500000 32) arg24) shapeCasts_S1x500000_S500000) ((broadcastInDim S500000 ![] bcast_S_S500000 : IVec S_ 32 → IVec S500000 32) (constantI S_ 32 20000#32))) (shapeCast S500000 (((extractStridedSlice S1x500000 ![1, 0] · slices_S2x500000_S1x500000_1_0) : IVec S2x500000 32 → IVec S1x500000 32) arg24) shapeCasts_S1x500000_S500000))))) ((broadcastInDim S50000x150 ![0, 1] bcast_S50000x1_S50000x150_0_1 : FVec Ideal S50000x1 .f32 → FVec Ideal S50000x150 .f32) ((broadcastInDim S50000x1 ![0] bcast_S50000_S50000x1_0 : FVec Ideal S50000 .f32 → FVec Ideal S50000x1 .f32) ((maximumf (F := Ideal) : FVec Ideal S50000 .f32 → FVec Ideal S50000 .f32 → FVec Ideal S50000 .f32) (((fun x i u => Host.scatterAdd (F := Ideal) scatter_S50000_S500000x1_S500000_n_0_0_1 x i u) : FVec Ideal S50000 .f32 → IVec S500000x1 32 → FVec Ideal S500000 .f32 → FVec Ideal S50000 .f32) ((broadcastInDim S50000 ![] bcast_S_S50000 : FVec Ideal S_ .f32 → FVec Ideal S50000 .f32) (constant (F := Ideal) S_ .f32 0x00000000#32)) ((broadcastInDim S500000x1 ![0] bcast_S500000_S500000x1_0 : IVec S500000 32 → IVec S500000x1 32) (shapeCast S500000 (((extractStridedSlice S1x500000 ![0, 0] · slices_S2x500000_S1x500000_0_0) : IVec S2x500000 32 → IVec S1x500000 32) arg24) shapeCasts_S1x500000_S500000)) ((broadcastInDim S500000 ![] bcast_S_S500000 : FVec Ideal S_ .f32 → FVec Ideal S500000 .f32) (constant (F := Ideal) S_ .f32 0x3F800000#32))) ((broadcastInDim S50000 ![] bcast_S_S50000 : FVec Ideal S_ .f32 → FVec Ideal S50000 .f32) (constant (F := Ideal) S_ .f32 0x3F800000#32)))))) (shapeCast S150x150 (((extractStridedSlice S1x1x150x150 ![1, 1, 0, 0] · slices_S3x6x150x150_S1x1x150x150_1_1_0_0) : FVec Ideal S3x6x150x150 .f32 → FVec Ideal S1x1x150x150 .f32) arg9) shapeCasts_S1x1x150x150_S150x150)) ((broadcastInDim S50000x150 ![0, 1] bcast_S1x150_S50000x150_0_1 : FVec Ideal S1x150 .f32 → FVec Ideal S50000x150 .f32) ((broadcastInDim S1x150 ![1] bcast_S150_S1x150_1 : FVec Ideal S150 .f32 → FVec Ideal S1x150 .f32) (shapeCast S150 (((extractStridedSlice S1x1x150 ![1, 1, 0] · slices_S3x6x150_S1x1x150_1_1_0) : FVec Ideal S3x6x150 .f32 → FVec Ideal S1x1x150 .f32) arg10) shapeCasts_S1x1x150_S150)))) (((fun l r => Host.dotGeneral (F := Ideal) dot_S50000x150_S150x150_S50000x150_1_0_0_1_n_n none l r) : FVec Ideal S50000x150 .f32 → FVec Ideal S150x150 .f32 → FVec Ideal S50000x150 .f32) v225 (shapeCast S150x150 (((extractStridedSlice S1x1x150x150 ![1, 1, 0, 0] · slices_S3x6x150x150_S1x1x150x150_1_1_0_0) : FVec Ideal S3x6x150x150 .f32 → FVec Ideal S1x1x150x150 .f32) arg11) shapeCasts_S1x1x150x150_S150x150))) ((addf (F := Ideal) : FVec Ideal S50000x150 .f32 → FVec Ideal S50000x150 .f32 → FVec Ideal S50000x150 .f32) ((addf (F := Ideal) : FVec Ideal S50000x150 .f32 → FVec Ideal S50000x150 .f32 → FVec Ideal S50000x150 .f32) (((fun l r => Host.dotGeneral (F := Ideal) dot_S50000x150_S150x150_S50000x150_1_0_0_1_n_n none l r) : FVec Ideal S50000x150 .f32 → FVec Ideal S150x150 .f32 → FVec Ideal S50000x150 .f32) ((Host.divf (F := Ideal) : FVec Ideal S50000x150 .f32 → FVec Ideal S50000x150 .f32 → FVec Ideal S50000x150 .f32) (((fun x i u => Host.scatterAdd (F := Ideal) scatter_S50000x150_S200000x1_S200000x150_1_0_0_1 x i u) : FVec Ideal S50000x150 .f32 → IVec S200000x1 32 → FVec Ideal S200000x150 .f32 → FVec Ideal S50000x150 .f32) ((broadcastInDim S50000x150 ![] bcast_S_S50000x150 : FVec Ideal S_ .f32 → FVec Ideal S50000x150 .f32) (constant (F := Ideal) S_ .f32 0x00000000#32)) ((broadcastInDim S200000x1 ![0] bcast_S200000_S200000x1_0 : IVec S200000 32 → IVec S200000x1 32) (shapeCast S200000 (((extractStridedSlice S1x200000 ![0, 0] · slices_S2x200000_S1x200000_0_0) : IVec S2x200000 32 → IVec S1x200000 32) arg25) shapeCasts_S1x200000_S200000)) (((fun x i => Host.gather gather_S2000x150_S200000x1_S200000x150_1_0_n_n_0_1_1150 x i) : FVec Ideal S2000x150 .f32 → IVec S200000x1 32 → FVec Ideal S200000x150 .f32) v226 ((broadcastInDim S200000x1 ![0] bcast_S200000_S200000x1_0 : IVec S200000 32 → IVec S200000x1 32) ((select : IVec S200000 1 → IVec S200000 32 → IVec S200000 32 → IVec S200000 32) ((cmpi .slt : IVec S200000 32 → IVec S200000 32 → IVec S200000 1) (shapeCast S200000 (((extractStridedSlice S1x200000 ![1, 0] · slices_S2x200000_S1x200000_1_0) : IVec S2x200000 32 → IVec S1x200000 32) arg25) shapeCasts_S1x200000_S200000) ((broadcastInDim S200000 ![] bcast_S_S200000 : IVec S_ 32 → IVec S200000 32) (constantI S_ 32 0#32))) ((addi : IVec S200000 32 → IVec S200000 32 → IVec S200000 32) (shapeCast S200000 (((extractStridedSlice S1x200000 ![1, 0] · slices_S2x200000_S1x200000_1_0) : IVec S2x200000 32 → IVec S1x200000 32) arg25) shapeCasts_S1x200000_S200000) ((broadcastInDim S200000 ![] bcast_S_S200000 : IVec S_ 32 → IVec S200000 32) (constantI S_ 32 2000#32))) (shapeCast S200000 (((extractStridedSlice S1x200000 ![1, 0] · slices_S2x200000_S1x200000_1_0) : IVec S2x200000 32 → IVec S1x200000 32) arg25) shapeCasts_S1x200000_S200000))))) ((broadcastInDim S50000x150 ![0, 1] bcast_S50000x1_S50000x150_0_1 : FVec Ideal S50000x1 .f32 → FVec Ideal S50000x150 .f32) ((broadcastInDim S50000x1 ![0] bcast_S50000_S50000x1_0 : FVec Ideal S50000 .f32 → FVec Ideal S50000x1 .f32) ((maximumf (F := Ideal) : FVec Ideal S50000 .f32 → FVec Ideal S50000 .f32 → FVec Ideal S50000 .f32) (((fun x i u => Host.scatterAdd (F := Ideal) scatter_S50000_S200000x1_S200000_n_0_0_1 x i u) : FVec Ideal S50000 .f32 → IVec S200000x1 32 → FVec Ideal S200000 .f32 → FVec Ideal S50000 .f32) ((broadcastInDim S50000 ![] bcast_S_S50000 : FVec Ideal S_ .f32 → FVec Ideal S50000 .f32) (constant (F := Ideal) S_ .f32 0x00000000#32)) ((broadcastInDim S200000x1 ![0] bcast_S200000_S200000x1_0 : IVec S200000 32 → IVec S200000x1 32) (shapeCast S200000 (((extractStridedSlice S1x200000 ![0, 0] · slices_S2x200000_S1x200000_0_0) : IVec S2x200000 32 → IVec S1x200000 32) arg25) shapeCasts_S1x200000_S200000)) ((broadcastInDim S200000 ![] bcast_S_S200000 : FVec Ideal S_ .f32 → FVec Ideal S200000 .f32) (constant (F := Ideal) S_ .f32 0x3F800000#32))) ((broadcastInDim S50000 ![] bcast_S_S50000 : FVec Ideal S_ .f32 → FVec Ideal S50000 .f32) (constant (F := Ideal) S_ .f32 0x3F800000#32)))))) (shapeCast S150x150 (((extractStridedSlice S1x1x150x150 ![1, 3, 0, 0] · slices_S3x6x150x150_S1x1x150x150_1_3_0_0) : FVec Ideal S3x6x150x150 .f32 → FVec Ideal S1x1x150x150 .f32) arg9) shapeCasts_S1x1x150x150_S150x150)) ((broadcastInDim S50000x150 ![0, 1] bcast_S1x150_S50000x150_0_1 : FVec Ideal S1x150 .f32 → FVec Ideal S50000x150 .f32) ((broadcastInDim S1x150 ![1] bcast_S150_S1x150_1 : FVec Ideal S150 .f32 → FVec Ideal S1x150 .f32) (shapeCast S150 (((extractStridedSlice S1x1x150 ![1, 3, 0] · slices_S3x6x150_S1x1x150_1_3_0) : FVec Ideal S3x6x150 .f32 → FVec Ideal S1x1x150 .f32) arg10) shapeCasts_S1x1x150_S150)))) (((fun l r => Host.dotGeneral (F := Ideal) dot_S50000x150_S150x150_S50000x150_1_0_0_1_n_n none l r) : FVec Ideal S50000x150 .f32 → FVec Ideal S150x150 .f32 → FVec Ideal S50000x150 .f32) v225 (shapeCast S150x150 (((extractStridedSlice S1x1x150x150 ![1, 3, 0, 0] · slices_S3x6x150x150_S1x1x150x150_1_3_0_0) : FVec Ideal S3x6x150x150 .f32 → FVec Ideal S1x1x150x150 .f32) arg11) shapeCasts_S1x1x150x150_S150x150))))

set_option maxHeartbeats 40000000 in
/-- After the list, from any contents, main_v298 holds that function of the contents. -/
theorem rst5_v298_eq (W : Valuation τ sig (Elt Ideal)) :
    StableHlo.after (st5 (F := Ideal)) W (Proc.devRef .tc main_v298)
      = rst5_v298 (W (Proc.devRef .tc main_v225)) (W (Proc.devRef .tc main_v226)) (W (Proc.devRef .tc main_v227)) (W (Proc.devRef .tc main_arg9)) (W (Proc.devRef .tc main_arg10)) (W (Proc.devRef .tc main_arg11)) (W (Proc.devRef .tc main_arg24)) (W (Proc.devRef .tc main_arg25)) := by
  after_results_simp <;> first | rfl | (unfold rst5_v298; rfl)

end Cert.ReferenceIdeal.ValueP

end
-- ==== Proof.RHost6.lean ====
/-
  What single buffers hold after a straight line of host operations, as functions of the buffers the line
  reads: each definition is the operations' own functions composed (their text as the list prints it, read at the
  extended reals), each lemma says the fold of the list at that buffer is that function of the starting contents.
-/
import proofs.«141689_j63058709840619_1_alg».proof.Proof.RefRunP
import proofs.«141689_j63058709840619_1_alg».proof.Proof.Spec
import Idealize.ShloMosaic.Lib.StableHlo.Run

set_option maxRecDepth 8192

noncomputable section

namespace Cert.ReferenceIdeal.ValueP

open Idealize.ShloMosaic Idealize.ShloMosaic.TcCoe Cert.ReferenceIdeal Cert.ReferenceIdeal.Gen Cert.Spec

/-! ## st6: 83 operations -/

/-- Buffer main_v369 as a function of main_v225, main_v226, main_v227, main_arg9, main_arg10, main_arg11, main_arg25, main_arg26: the operations that build it, composed. -/
def rst6_v369 (v225 : FVec Ideal S50000x150 .f32) (v226 : FVec Ideal S2000x150 .f32) (v227 : FVec Ideal S20000x150 .f32) (arg9 : FVec Ideal S3x6x150x150 .f32) (arg10 : FVec Ideal S3x6x150 .f32) (arg11 : FVec Ideal S3x6x150x150 .f32) (arg25 : IVec S2x200000 32) (arg26 : IVec S2x200000 32) : FVec Ideal S2000x150 .f32 :=
  ((addf (F := Ideal) : FVec Ideal S2000x150 .f32 → FVec Ideal S2000x150 .f32 → FVec Ideal S2000x150 .f32) ((addf (F := Ideal) : FVec Ideal S2000x150 .f32 → FVec Ideal S2000x150 .f32 → FVec Ideal S2000x150 .f32) ((addf (F := Ideal) : FVec Ideal S2000x150 .f32 → FVec Ideal S2000x150 .f32 → FVec Ideal S2000x150 .f32) (((fun l r => Host.dotGeneral (F := Ideal) dot_S2000x150_S150x150_S2000x150_1_0_0_1_n_n none l r) : FVec Ideal S2000x150 .f32 → FVec Ideal S150x150 .f32 → FVec Ideal S2000x150 .f32) ((Host.divf (F := Ideal) : FVec Ideal S2000x150 .f32 → FVec Ideal S2000x150 .f32 → FVec Ideal S2000x150 .f32) (((fun x i u => Host.scatterAdd (F := Ideal) scatter_S2000x150_S200000x1_S200000x150_1_0_0_1 x i u) : FVec Ideal S2000x150 .f32 → IVec S200000x1 32 → FVec Ideal S200000x150 .f32 → FVec Ideal S2000x150 .f32) ((broadcastInDim S2000x150 ![] bcast_S_S2000x150 : FVec Ideal S_ .f32 → FVec Ideal S2000x150 .f32) (constant (F := Ideal) S_ .f32 0x00000000#32)) ((broadcastInDim S200000x1 ![0] bcast_S200000_S200000x1_0 : IVec S200000 32 → IVec S200000x1 32) (shapeCast S200000 (((extractStridedSlice S1x200000 ![1, 0] · slices_S2x200000_S1x200000_1_0) : IVec S2x200000 32 → IVec S1x200000 32) arg25) shapeCasts_S1x200000_S200000)) (((fun x i => Host.gather gather_S50000x150_S200000x1_S200000x150_1_0_n_n_0_1_1150 x i) : FVec Ideal S50000x150 .f32 → IVec S200000x1 32 → FVec Ideal S200000x150 .f32) v225 ((broadcastInDim S200000x1 ![0] bcast_S200000_S200000x1_0 : IVec S200000 32 → IVec S200000x1 32) ((select : IVec S200000 1 → IVec S200000 32 → IVec S200000 32 → IVec S200000 32) ((cmpi .slt : IVec S200000 32 → IVec S200000 32 → IVec S200000 1) (shapeCast S200000 (((extractStridedSlice S1x200000 ![0, 0] · slices_S2x200000_S1x200000_0_0) : IVec S2x200000 32 → IVec S1x200000 32) arg25) shapeCasts_S1x200000_S200000) ((broadcastInDim S200000 ![] bcast_S_S200000 : IVec S_ 32 → IVec S200000 32) (constantI S_ 32 0#32))) ((addi : IVec S200000 32 → IVec S200000 32 → IVec S200000 32) (shapeCast S200000 (((extractStridedSlice S1x200000 ![0, 0] · slices_S2x200000_S1x200000_0_0) : IVec S2x200000 32 → IVec S1x200000 32) arg25) shapeCasts_S1x200000_S200000) ((broadcastInDim S200000 ![] bcast_S_S200000 : IVec S_ 32 → IVec S200000 32) (constantI S_ 32 50000#32))) (shapeCast S200000 (((extractStridedSlice S1x200000 ![0, 0] · slices_S2x200000_S1x200000_0_0) : IVec S2x200000 32 → IVec S1x200000 32) arg25) shapeCasts_S1x200000_S200000))))) ((broadcastInDim S2000x150 ![0, 1] bcast_S2000x1_S2000x150_0_1 : FVec Ideal S2000x1 .f32 → FVec Ideal S2000x150 .f32) ((broadcastInDim S2000x1 ![0] bcast_S2000_S2000x1_0 : FVec Ideal S2000 .f32 → FVec Ideal S2000x1 .f32) ((maximumf (F := Ideal) : FVec Ideal S2000 .f32 → FVec Ideal S2000 .f32 → FVec Ideal S2000 .f32) (((fun x i u => Host.scatterAdd (F := Ideal) scatter_S2000_S200000x1_S200000_n_0_0_1 x i u) : FVec Ideal S2000 .f32 → IVec S200000x1 32 → FVec Ideal S200000 .f32 → FVec Ideal S2000 .f32) ((broadcastInDim S2000 ![] bcast_S_S2000 : FVec Ideal S_ .f32 → FVec Ideal S2000 .f32) (constant (F := Ideal) S_ .f32 0x00000000#32)) ((broadcastInDim S200000x1 ![0] bcast_S200000_S200000x1_0 : IVec S200000 32 → IVec S200000x1 32) (shapeCast S200000 (((extractStridedSlice S1x200000 ![1, 0] · slices_S2x200000_S1x200000_1_0) : IVec S2x200000 32 → IVec S1x200000 32) arg25) shapeCasts_S1x200000_S200000)) ((broadcastInDim S200000 ![] bcast_S_S200000 : FVec Ideal S_ .f32 → FVec Ideal S200000 .f32) (constant (F := Ideal) S_ .f32 0x3F800000#32))) ((broadcastInDim S2000 ![] bcast_S_S2000 : FVec Ideal S_ .f32 → FVec Ideal S2000 .f32) (constant (F := Ideal) S_ .f32 0x3F800000#32)))))) (shapeCast S150x150 (((extractStridedSlice S1x1x150x150 ![1, 2, 0, 0] · slices_S3x6x150x150_S1x1x150x150_1_2_0_0) : FVec Ideal S3x6x150x150 .f32 → FVec Ideal S1x1x150x150 .f32) arg9) shapeCasts_S1x1x150x150_S150x150)) ((broadcastInDim S2000x150 ![0, 1] bcast_S1x150_S2000x150_0_1 : FVec Ideal S1x150 .f32 → FVec Ideal S2000x150 .f32) ((broadcastInDim S1x150 ![1] bcast_S150_S1x150_1 : FVec Ideal S150 .f32 → FVec Ideal S1x150 .f32) (shapeCast S150 (((extractStridedSlice S1x1x150 ![1, 2, 0] · slices_S3x6x150_S1x1x150_1_2_0) : FVec Ideal S3x6x150 .f32 → FVec Ideal S1x1x150 .f32) arg10) shapeCasts_S1x1x150_S150)))) (((fun l r => Host.dotGeneral (F := Ideal) dot_S2000x150_S150x150_S2000x150_1_0_0_1_n_n none l r) : FVec Ideal S2000x150 .f32 → FVec Ideal S150x150 .f32 → FVec Ideal S2000x150 .f32) v226 (shapeCast S150x150 (((extractStridedSlice S1x1x150x150 ![1, 2, 0, 0] · slices_S3x6x150x150_S1x1x150x150_1_2_0_0) : FVec Ideal S3x6x150x150 .f32 → FVec Ideal S1x1x150x150 .f32) arg11) shapeCasts_S1x1x150x150_S150x150))) ((addf (F := Ideal) : FVec Ideal S2000x150 .f32 → FVec Ideal S2000x150 .f32 → FVec Ideal S2000x150 .f32) ((addf (F := Ideal) : FVec Ideal S2000x150 .f32 → FVec Ideal S2000x150 .f32 → FVec Ideal S2000x150 .f32) (((fun l r => Host.dotGeneral (F := Ideal) dot_S2000x150_S150x150_S2000x150_1_0_0_1_n_n none l r) : FVec Ideal S2000x150 .f32 → FVec Ideal S150x150 .f32 → FVec Ideal S2000x150 .f32) ((Host.divf (F := Ideal) : FVec Ideal S2000x150 .f32 → FVec Ideal S2000x150 .f32 → FVec Ideal S2000x150 .f32) (((fun x i u => Host.scatterAdd (F := Ideal) scatter_S2000x150_S200000x1_S200000x150_1_0_0_1 x i u) : FVec Ideal S2000x150 .f32 → IVec S200000x1 32 → FVec Ideal S200000x150 .f32 → FVec Ideal S2000x150 .f32) ((broadcastInDim S2000x150 ![] bcast_S_S2000x150 : FVec Ideal S_ .f32 → FVec Ideal S2000x150 .f32) (constant (F := Ideal) S_ .f32 0x00000000#32)) ((broadcastInDim S200000x1 ![0] bcast_S200000_S200000x1_0 : IVec S200000 32 → IVec S200000x1 32) (shapeCast S200000 (((extractStridedSlice S1x200000 ![0, 0] · slices_S2x200000_S1x200000_0_0) : IVec S2x200000 32 → IVec S1x200000 32) arg26) shapeCasts_S1x200000_S200000)) (((fun x i => Host.gather gather_S20000x150_S200000x1_S200000x150_1_0_n_n_0_1_1150 x i) : FVec Ideal S20000x150 .f32 → IVec S200000x1 32 → FVec Ideal S200000x150 .f32) v227 ((broadcastInDim S200000x1 ![0] bcast_S200000_S200000x1_0 : IVec S200000 32 → IVec S200000x1 32) ((select : IVec S200000 1 → IVec S200000 32 → IVec S200000 32 → IVec S200000 32) ((cmpi .slt : IVec S200000 32 → IVec S200000 32 → IVec S200000 1) (shapeCast S200000 (((extractStridedSlice S1x200000 ![1, 0] · slices_S2x200000_S1x200000_1_0) : IVec S2x200000 32 → IVec S1x200000 32) arg26) shapeCasts_S1x200000_S200000) ((broadcastInDim S200000 ![] bcast_S_S200000 : IVec S_ 32 → IVec S200000 32) (constantI S_ 32 0#32))) ((addi : IVec S200000 32 → IVec S200000 32 → IVec S200000 32) (shapeCast S200000 (((extractStridedSlice S1x200000 ![1, 0] · slices_S2x200000_S1x200000_1_0) : IVec S2x200000 32 → IVec S1x200000 32) arg26) shapeCasts_S1x200000_S200000) ((broadcastInDim S200000 ![] bcast_S_S200000 : IVec S_ 32 → IVec S200000 32) (constantI S_ 32 20000#32))) (shapeCast S200000 (((extractStridedSlice S1x200000 ![1, 0] · slices_S2x200000_S1x200000_1_0) : IVec S2x200000 32 → IVec S1x200000 32) arg26) shapeCasts_S1x200000_S200000))))) ((broadcastInDim S2000x150 ![0, 1] bcast_S2000x1_S2000x150_0_1 : FVec Ideal S2000x1 .f32 → FVec Ideal S2000x150 .f32) ((broadcastInDim S2000x1 ![0] bcast_S2000_S2000x1_0 : FVec Ideal S2000 .f32 → FVec Ideal S2000x1 .f32) ((maximumf (F := Ideal) : FVec Ideal S2000 .f32 → FVec Ideal S2000 .f32 → FVec Ideal S2000 .f32) (((fun x i u => Host.scatterAdd (F := Ideal) scatter_S2000_S200000x1_S200000_n_0_0_1 x i u) : FVec Ideal S2000 .f32 → IVec S200000x1 32 → FVec Ideal S200000 .f32 → FVec Ideal S2000 .f32) ((broadcastInDim S2000 ![] bcast_S_S2000 : FVec Ideal S_ .f32 → FVec Ideal S2000 .f32) (constant (F := Ideal) S_ .f32 0x00000000#32)) ((broadcastInDim S200000x1 ![0] bcast_S200000_S200000x1_0 : IVec S200000 32 → IVec S200000x1 32) (shapeCast S200000 (((extractStridedSlice S1x200000 ![0, 0] · slices_S2x200000_S1x200000_0_0) : IVec S2x200000 32 → IVec S1x200000 32) arg26) shapeCasts_S1x200000_S200000)) ((broadcastInDim S200000 ![] bcast_S_S200000 : FVec Ideal S_ .f32 → FVec Ideal S200000 .f32) (constant (F := Ideal) S_ .f32 0x3F800000#32))) ((broadcastInDim S2000 ![] bcast_S_S2000 : FVec Ideal S_ .f32 → FVec Ideal S2000 .f32) (constant (F := Ideal) S_ .f32 0x3F800000#32)))))) (shapeCast S150x150 (((extractStridedSlice S1x1x150x150 ![1, 5, 0, 0] · slices_S3x6x150x150_S1x1x150x150_1_5_0_0) : FVec Ideal S3x6x150x150 .f32 → FVec Ideal S1x1x150x150 .f32) arg9) shapeCasts_S1x1x150x150_S150x150)) ((broadcastInDim S2000x150 ![0, 1] bcast_S1x150_S2000x150_0_1 : FVec Ideal S1x150 .f32 → FVec Ideal S2000x150 .f32) ((broadcastInDim S1x150 ![1] bcast_S150_S1x150_1 : FVec Ideal S150 .f32 → FVec Ideal S1x150 .f32) (shapeCast S150 (((extractStridedSlice S1x1x150 ![1, 5, 0] · slices_S3x6x150_S1x1x150_1_5_0) : FVec Ideal S3x6x150 .f32 → FVec Ideal S1x1x150 .f32) arg10) shapeCasts_S1x1x150_S150)))) (((fun l r => Host.dotGeneral (F := Ideal) dot_S2000x150_S150x150_S2000x150_1_0_0_1_n_n none l r) : FVec Ideal S2000x150 .f32 → FVec Ideal S150x150 .f32 → FVec Ideal S2000x150 .f32) v226 (shapeCast S150x150 (((extractStridedSlice S1x1x150x150 ![1, 5, 0, 0] · slices_S3x6x150x150_S1x1x150x150_1_5_0_0) : FVec Ideal S3x6x150x150 .f32 → FVec Ideal S1x1x150x150 .f32) arg11) shapeCasts_S1x1x150x150_S150x150))))

set_option maxHeartbeats 40000000 in
/-- After the list, from any contents, main_v369 holds that function of the contents. -/
theorem rst6_v369_eq (W : Valuation τ sig (Elt Ideal)) :
    StableHlo.after (st6 (F := Ideal)) W (Proc.devRef .tc main_v369)
      = rst6_v369 (W (Proc.devRef .tc main_v225)) (W (Proc.devRef .tc main_v226)) (W (Proc.devRef .tc main_v227)) (W (Proc.devRef .tc main_arg9)) (W (Proc.devRef .tc main_arg10)) (W (Proc.devRef .tc main_arg11)) (W (Proc.devRef .tc main_arg25)) (W (Proc.devRef .tc main_arg26)) := by
  after_results_simp <;> first | rfl | (unfold rst6_v369; rfl)

end Cert.ReferenceIdeal.ValueP

end
-- ==== Proof.RHost7.lean ====
/-
  What single buffers hold after a straight line of host operations, as functions of the buffers the line
  reads: each definition is the operations' own functions composed (their text as the list prints it, read at the
  extended reals), each lemma says the fold of the list at that buffer is that function of the starting contents.
-/
import proofs.«141689_j63058709840619_1_alg».proof.Proof.RefRunP
import proofs.«141689_j63058709840619_1_alg».proof.Proof.Spec
import Idealize.ShloMosaic.Lib.StableHlo.Run

set_option maxRecDepth 8192

noncomputable section

namespace Cert.ReferenceIdeal.ValueP

open Idealize.ShloMosaic Idealize.ShloMosaic.TcCoe Cert.ReferenceIdeal Cert.ReferenceIdeal.Gen Cert.Spec

/-! ## st7: 83 operations -/

/-- Buffer main_v440 as a function of main_v225, main_v226, main_v227, main_arg9, main_arg10, main_arg11, main_arg24, main_arg26: the operations that build it, composed. -/
def rst7_v440 (v225 : FVec Ideal S50000x150 .f32) (v226 : FVec Ideal S2000x150 .f32) (v227 : FVec Ideal S20000x150 .f32) (arg9 : FVec Ideal S3x6x150x150 .f32) (arg10 : FVec Ideal S3x6x150 .f32) (arg11 : FVec Ideal S3x6x150x150 .f32) (arg24 : IVec S2x500000 32) (arg26 : IVec S2x200000 32) : FVec Ideal S20000x150 .f32 :=
  ((addf (F := Ideal) : FVec Ideal S20000x150 .f32 → FVec Ideal S20000x150 .f32 → FVec Ideal S20000x150 .f32) ((addf (F := Ideal) : FVec Ideal S20000x150 .f32 → FVec Ideal S20000x150 .f32 → FVec Ideal S20000x150 .f32) ((addf (F := Ideal) : FVec Ideal S20000x150 .f32 → FVec Ideal S20000x150 .f32 → FVec Ideal S20000x150 .f32) (((fun l r => Host.dotGeneral (F := Ideal) dot_S20000x150_S150x150_S20000x150_1_0_0_1_n_n none l r) : FVec Ideal S20000x150 .f32 → FVec Ideal S150x150 .f32 → FVec Ideal S20000x150 .f32) ((Host.divf (F := Ideal) : FVec Ideal S20000x150 .f32 → FVec Ideal S20000x150 .f32 → FVec Ideal S20000x150 .f32) (((fun x i u => Host.scatterAdd (F := Ideal) scatter_S20000x150_S500000x1_S500000x150_1_0_0_1 x i u) : FVec Ideal S20000x150 .f32 → IVec S500000x1 32 → FVec Ideal S500000x150 .f32 → FVec Ideal S20000x150 .f32) ((broadcastInDim S20000x150 ![] bcast_S_S20000x150 : FVec Ideal S_ .f32 → FVec Ideal S20000x150 .f32) (constant (F := Ideal) S_ .f32 0x00000000#32)) ((broadcastInDim S500000x1 ![0] bcast_S500000_S500000x1_0 : IVec S500000 32 → IVec S500000x1 32) (shapeCast S500000 (((extractStridedSlice S1x500000 ![1, 0] · slices_S2x500000_S1x500000_1_0) : IVec S2x500000 32 → IVec S1x500000 32) arg24) shapeCasts_S1x500000_S500000)) (((fun x i => Host.gather gather_S50000x150_S500000x1_S500000x150_1_0_n_n_0_1_1150 x i) : FVec Ideal S50000x150 .f32 → IVec S500000x1 32 → FVec Ideal S500000x150 .f32) v225 ((broadcastInDim S500000x1 ![0] bcast_S500000_S500000x1_0 : IVec S500000 32 → IVec S500000x1 32) ((select : IVec S500000 1 → IVec S500000 32 → IVec S500000 32 → IVec S500000 32) ((cmpi .slt : IVec S500000 32 → IVec S500000 32 → IVec S500000 1) (shapeCast S500000 (((extractStridedSlice S1x500000 ![0, 0] · slices_S2x500000_S1x500000_0_0) : IVec S2x500000 32 → IVec S1x500000 32) arg24) shapeCasts_S1x500000_S500000) ((broadcastInDim S500000 ![] bcast_S_S500000 : IVec S_ 32 → IVec S500000 32) (constantI S_ 32 0#32))) ((addi : IVec S500000 32 → IVec S500000 32 → IVec S500000 32) (shapeCast S500000 (((extractStridedSlice S1x500000 ![0, 0] · slices_S2x500000_S1x500000_0_0) : IVec S2x500000 32 → IVec S1x500000 32) arg24) shapeCasts_S1x500000_S500000) ((broadcastInDim S500000 ![] bcast_S_S500000 : IVec S_ 32 → IVec S500000 32) (constantI S_ 32 50000#32))) (shapeCast S500000 (((extractStridedSlice S1x500000 ![0, 0] · slices_S2x500000_S1x500000_0_0) : IVec S2x500000 32 → IVec S1x500000 32) arg24) shapeCasts_S1x500000_S500000))))) ((broadcastInDim S20000x150 ![0, 1] bcast_S20000x1_S20000x150_0_1 : FVec Ideal S20000x1 .f32 → FVec Ideal S20000x150 .f32) ((broadcastInDim S20000x1 ![0] bcast_S20000_S20000x1_0 : FVec Ideal S20000 .f32 → FVec Ideal S20000x1 .f32) ((maximumf (F := Ideal) : FVec Ideal S20000 .f32 → FVec Ideal S20000 .f32 → FVec Ideal S20000 .f32) (((fun x i u => Host.scatterAdd (F := Ideal) scatter_S20000_S500000x1_S500000_n_0_0_1 x i u) : FVec Ideal S20000 .f32 → IVec S500000x1 32 → FVec Ideal S500000 .f32 → FVec Ideal S20000 .f32) ((broadcastInDim S20000 ![] bcast_S_S20000 : FVec Ideal S_ .f32 → FVec Ideal S20000 .f32) (constant (F := Ideal) S_ .f32 0x00000000#32)) ((broadcastInDim S500000x1 ![0] bcast_S500000_S500000x1_0 : IVec S500000 32 → IVec S500000x1 32) (shapeCast S500000 (((extractStridedSlice S1x500000 ![1, 0] · slices_S2x500000_S1x500000_1_0) : IVec S2x500000 32 → IVec S1x500000 32) arg24) shapeCasts_S1x500000_S500000)) ((broadcastInDim S500000 ![] bcast_S_S500000 : FVec Ideal S_ .f32 → FVec Ideal S500000 .f32) (constant (F := Ideal) S_ .f32 0x3F800000#32))) ((broadcastInDim S20000 ![] bcast_S_S20000 : FVec Ideal S_ .f32 → FVec Ideal S20000 .f32) (constant (F := Ideal) S_ .f32 0x3F800000#32)))))) (shapeCast S150x150 (((extractStridedSlice S1x1x150x150 ![1, 0, 0, 0] · slices_S3x6x150x150_S1x1x150x150_1_0_0_0) : FVec Ideal S3x6x150x150 .f32 → FVec Ideal S1x1x150x150 .f32) arg9) shapeCasts_S1x1x150x150_S150x150)) ((broadcastInDim S20000x150 ![0, 1] bcast_S1x150_S20000x150_0_1 : FVec Ideal S1x150 .f32 → FVec Ideal S20000x150 .f32) ((broadcastInDim S1x150 ![1] bcast_S150_S1x150_1 : FVec Ideal S150 .f32 → FVec Ideal S1x150 .f32) (shapeCast S150 (((extractStridedSlice S1x1x150 ![1, 0, 0] · slices_S3x6x150_S1x1x150_1_0_0) : FVec Ideal S3x6x150 .f32 → FVec Ideal S1x1x150 .f32) arg10) shapeCasts_S1x1x150_S150)))) (((fun l r => Host.dotGeneral (F := Ideal) dot_S20000x150_S150x150_S20000x150_1_0_0_1_n_n none l r) : FVec Ideal S20000x150 .f32 → FVec Ideal S150x150 .f32 → FVec Ideal S20000x150 .f32) v227 (shapeCast S150x150 (((extractStridedSlice S1x1x150x150 ![1, 0, 0, 0] · slices_S3x6x150x150_S1x1x150x150_1_0_0_0) : FVec Ideal S3x6x150x150 .f32 → FVec Ideal S1x1x150x150 .f32) arg11) shapeCasts_S1x1x150x150_S150x150))) ((addf (F := Ideal) : FVec Ideal S20000x150 .f32 → FVec Ideal S20000x150 .f32 → FVec Ideal S20000x150 .f32) ((addf (F := Ideal) : FVec Ideal S20000x150 .f32 → FVec Ideal S20000x150 .f32 → FVec Ideal S20000x150 .f32) (((fun l r => Host.dotGeneral (F := Ideal) dot_S20000x150_S150x150_S20000x150_1_0_0_1_n_n none l r) : FVec Ideal S20000x150 .f32 → FVec Ideal S150x150 .f32 → FVec Ideal S20000x150 .f32) ((Host.divf (F := Ideal) : FVec Ideal S20000x150 .f32 → FVec Ideal S20000x150 .f32 → FVec Ideal S20000x150 .f32) (((fun x i u => Host.scatterAdd (F := Ideal) scatter_S20000x150_S200000x1_S200000x150_1_0_0_1 x i u) : FVec Ideal S20000x150 .f32 → IVec S200000x1 32 → FVec Ideal S200000x150 .f32 → FVec Ideal S20000x150 .f32) ((broadcastInDim S20000x150 ![] bcast_S_S20000x150 : FVec Ideal S_ .f32 → FVec Ideal S20000x150 .f32) (constant (F := Ideal) S_ .f32 0x00000000#32)) ((broadcastInDim S200000x1 ![0] bcast_S200000_S200000x1_0 : IVec S200000 32 → IVec S200000x1 32) (shapeCast S200000 (((extractStridedSlice S1x200000 ![1, 0] · slices_S2x200000_S1x200000_1_0) : IVec S2x200000 32 → IVec S1x200000 32) arg26) shapeCasts_S1x200000_S200000)) (((fun x i => Host.gather gather_S2000x150_S200000x1_S200000x150_1_0_n_n_0_1_1150 x i) : FVec Ideal S2000x150 .f32 → IVec S200000x1 32 → FVec Ideal S200000x150 .f32) v226 ((broadcastInDim S200000x1 ![0] bcast_S200000_S200000x1_0 : IVec S200000 32 → IVec S200000x1 32) ((select : IVec S200000 1 → IVec S200000 32 → IVec S200000 32 → IVec S200000 32) ((cmpi .slt : IVec S200000 32 → IVec S200000 32 → IVec S200000 1) (shapeCast S200000 (((extractStridedSlice S1x200000 ![0, 0] · slices_S2x200000_S1x200000_0_0) : IVec S2x200000 32 → IVec S1x200000 32) arg26) shapeCasts_S1x200000_S200000) ((broadcastInDim S200000 ![] bcast_S_S200000 : IVec S_ 32 → IVec S200000 32) (constantI S_ 32 0#32))) ((addi : IVec S200000 32 → IVec S200000 32 → IVec S200000 32) (shapeCast S200000 (((extractStridedSlice S1x200000 ![0, 0] · slices_S2x200000_S1x200000_0_0) : IVec S2x200000 32 → IVec S1x200000 32) arg26) shapeCasts_S1x200000_S200000) ((broadcastInDim S200000 ![] bcast_S_S200000 : IVec S_ 32 → IVec S200000 32) (constantI S_ 32 2000#32))) (shapeCast S200000 (((extractStridedSlice S1x200000 ![0, 0] · slices_S2x200000_S1x200000_0_0) : IVec S2x200000 32 → IVec S1x200000 32) arg26) shapeCasts_S1x200000_S200000))))) ((broadcastInDim S20000x150 ![0, 1] bcast_S20000x1_S20000x150_0_1 : FVec Ideal S20000x1 .f32 → FVec Ideal S20000x150 .f32) ((broadcastInDim S20000x1 ![0] bcast_S20000_S20000x1_0 : FVec Ideal S20000 .f32 → FVec Ideal S20000x1 .f32) ((maximumf (F := Ideal) : FVec Ideal S20000 .f32 → FVec Ideal S20000 .f32 → FVec Ideal S20000 .f32) (((fun x i u => Host.scatterAdd (F := Ideal) scatter_S20000_S200000x1_S200000_n_0_0_1 x i u) : FVec Ideal S20000 .f32 → IVec S200000x1 32 → FVec Ideal S200000 .f32 → FVec Ideal S20000 .f32) ((broadcastInDim S20000 ![] bcast_S_S20000 : FVec Ideal S_ .f32 → FVec Ideal S20000 .f32) (constant (F := Ideal) S_ .f32 0x00000000#32)) ((broadcastInDim S200000x1 ![0] bcast_S200000_S200000x1_0 : IVec S200000 32 → IVec S200000x1 32) (shapeCast S200000 (((extractStridedSlice S1x200000 ![1, 0] · slices_S2x200000_S1x200000_1_0) : IVec S2x200000 32 → IVec S1x200000 32) arg26) shapeCasts_S1x200000_S200000)) ((broadcastInDim S200000 ![] bcast_S_S200000 : FVec Ideal S_ .f32 → FVec Ideal S200000 .f32) (constant (F := Ideal) S_ .f32 0x3F800000#32))) ((broadcastInDim S20000 ![] bcast_S_S20000 : FVec Ideal S_ .f32 → FVec Ideal S20000 .f32) (constant (F := Ideal) S_ .f32 0x3F800000#32)))))) (shapeCast S150x150 (((extractStridedSlice S1x1x150x150 ![1, 4, 0, 0] · slices_S3x6x150x150_S1x1x150x150_1_4_0_0) : FVec Ideal S3x6x150x150 .f32 → FVec Ideal S1x1x150x150 .f32) arg9) shapeCasts_S1x1x150x150_S150x150)) ((broadcastInDim S20000x150 ![0, 1] bcast_S1x150_S20000x150_0_1 : FVec Ideal S1x150 .f32 → FVec Ideal S20000x150 .f32) ((broadcastInDim S1x150 ![1] bcast_S150_S1x150_1 : FVec Ideal S150 .f32 → FVec Ideal S1x150 .f32) (shapeCast S150 (((extractStridedSlice S1x1x150 ![1, 4, 0] · slices_S3x6x150_S1x1x150_1_4_0) : FVec Ideal S3x6x150 .f32 → FVec Ideal S1x1x150 .f32) arg10) shapeCasts_S1x1x150_S150)))) (((fun l r => Host.dotGeneral (F := Ideal) dot_S20000x150_S150x150_S20000x150_1_0_0_1_n_n none l r) : FVec Ideal S20000x150 .f32 → FVec Ideal S150x150 .f32 → FVec Ideal S20000x150 .f32) v227 (shapeCast S150x150 (((extractStridedSlice S1x1x150x150 ![1, 4, 0, 0] · slices_S3x6x150x150_S1x1x150x150_1_4_0_0) : FVec Ideal S3x6x150x150 .f32 → FVec Ideal S1x1x150x150 .f32) arg11) shapeCasts_S1x1x150x150_S150x150))))

set_option maxHeartbeats 40000000 in
/-- After the list, from any contents, main_v440 holds that function of the contents. -/
theorem rst7_v440_eq (W : Valuation τ sig (Elt Ideal)) :
    StableHlo.after (st7 (F := Ideal)) W (Proc.devRef .tc main_v440)
      = rst7_v440 (W (Proc.devRef .tc main_v225)) (W (Proc.devRef .tc main_v226)) (W (Proc.devRef .tc main_v227)) (W (Proc.devRef .tc main_arg9)) (W (Proc.devRef .tc main_arg10)) (W (Proc.devRef .tc main_arg11)) (W (Proc.devRef .tc main_arg24)) (W (Proc.devRef .tc main_arg26)) := by
  after_results_simp <;> first | rfl | (unfold rst7_v440; rfl)

end Cert.ReferenceIdeal.ValueP

end
-- ==== Proof.RHost8.lean ====
/-
  What single buffers hold after a straight line of host operations, as functions of the buffers the line
  reads: each definition is the operations' own functions composed (their text as the list prints it, read at the
  extended reals), each lemma says the fold of the list at that buffer is that function of the starting contents.
-/
import proofs.«141689_j63058709840619_1_alg».proof.Proof.RefRunP
import proofs.«141689_j63058709840619_1_alg».proof.Proof.Spec
import Idealize.ShloMosaic.Lib.StableHlo.Run

set_option maxRecDepth 8192

noncomputable section

namespace Cert.ReferenceIdeal.ValueP

open Idealize.ShloMosaic Idealize.ShloMosaic.TcCoe Cert.ReferenceIdeal Cert.ReferenceIdeal.Gen Cert.Spec

/-! ## st8: 9 operations -/

/-- Buffer main_v441 as a function of main_v298: the operations that build it, composed. -/
def rst8_v441 (v298 : FVec Ideal S50000x150 .f32) : FVec Ideal S50000x150 .f32 :=
  ((maximumf (F := Ideal) : FVec Ideal S50000x150 .f32 → FVec Ideal S50000x150 .f32 → FVec Ideal S50000x150 .f32) v298 (((broadcastInDim S50000x150 ![] bcast_S_S50000x150) : FVec Ideal S_ .f32 → FVec Ideal S50000x150 .f32) (constant (F := Ideal) S_ .f32 0x00000000#32)))

set_option maxHeartbeats 40000000 in
/-- After the list, from any contents, main_v441 holds that function of the contents. -/
theorem rst8_v441_eq (W : Valuation τ sig (Elt Ideal)) :
    StableHlo.after (st8 (F := Ideal)) W (Proc.devRef .tc main_v441)
      = rst8_v441 (W (Proc.devRef .tc main_v298)) := by
  after_results_simp <;> first | rfl | (unfold rst8_v441; rfl)

/-- Buffer main_v442 as a function of main_v369: the operations that build it, composed. -/
def rst8_v442 (v369 : FVec Ideal S2000x150 .f32) : FVec Ideal S2000x150 .f32 :=
  ((maximumf (F := Ideal) : FVec Ideal S2000x150 .f32 → FVec Ideal S2000x150 .f32 → FVec Ideal S2000x150 .f32) v369 (((broadcastInDim S2000x150 ![] bcast_S_S2000x150) : FVec Ideal S_ .f32 → FVec Ideal S2000x150 .f32) (constant (F := Ideal) S_ .f32 0x00000000#32)))

set_option maxHeartbeats 40000000 in
/-- After the list, from any contents, main_v442 holds that function of the contents. -/
theorem rst8_v442_eq (W : Valuation τ sig (Elt Ideal)) :
    StableHlo.after (st8 (F := Ideal)) W (Proc.devRef .tc main_v442)
      = rst8_v442 (W (Proc.devRef .tc main_v369)) := by
  after_results_simp <;> first | rfl | (unfold rst8_v442; rfl)

/-- Buffer main_v443 as a function of main_v440: the operations that build it, composed. -/
def rst8_v443 (v440 : FVec Ideal S20000x150 .f32) : FVec Ideal S20000x150 .f32 :=
  ((maximumf (F := Ideal) : FVec Ideal S20000x150 .f32 → FVec Ideal S20000x150 .f32 → FVec Ideal S20000x150 .f32) v440 (((broadcastInDim S20000x150 ![] bcast_S_S20000x150) : FVec Ideal S_ .f32 → FVec Ideal S20000x150 .f32) (constant (F := Ideal) S_ .f32 0x00000000#32)))

set_option maxHeartbeats 40000000 in
/-- After the list, from any contents, main_v443 holds that function of the contents. -/
theorem rst8_v443_eq (W : Valuation τ sig (Elt Ideal)) :
    StableHlo.after (st8 (F := Ideal)) W (Proc.devRef .tc main_v443)
      = rst8_v443 (W (Proc.devRef .tc main_v440)) := by
  after_results_simp <;> first | rfl | (unfold rst8_v443; rfl)

end Cert.ReferenceIdeal.ValueP

end
-- ==== Proof.RHost11.lean ====
/-
  What single buffers hold after a straight line of host operations, as functions of the buffers the line
  reads: each definition is the operations' own functions composed (their text as the list prints it, read at the
  extended reals), each lemma says the fold of the list at that buffer is that function of the starting contents.
-/
import proofs.«141689_j63058709840619_1_alg».proof.Proof.RefRunP
import proofs.«141689_j63058709840619_1_alg».proof.Proof.Spec
import Idealize.ShloMosaic.Lib.StableHlo.Run

set_option maxRecDepth 8192

noncomputable section

namespace Cert.ReferenceIdeal.ValueP

open Idealize.ShloMosaic Idealize.ShloMosaic.TcCoe Cert.ReferenceIdeal Cert.ReferenceIdeal.Gen Cert.Spec

/-! ## st11: 83 operations -/

/-- Buffer main_v656 as a function of main_v441, main_v442, main_v443, main_arg9, main_arg10, main_arg11, main_arg24, main_arg26: the operations that build it, composed. -/
def rst11_v656 (v441 : FVec Ideal S50000x150 .f32) (v442 : FVec Ideal S2000x150 .f32) (v443 : FVec Ideal S20000x150 .f32) (arg9 : FVec Ideal S3x6x150x150 .f32) (arg10 : FVec Ideal S3x6x150 .f32) (arg11 : FVec Ideal S3x6x150x150 .f32) (arg24 : IVec S2x500000 32) (arg26 : IVec S2x200000 32) : FVec Ideal S20000x150 .f32 :=
  ((addf (F := Ideal) : FVec Ideal S20000x150 .f32 → FVec Ideal S20000x150 .f32 → FVec Ideal S20000x150 .f32) ((addf (F := Ideal) : FVec Ideal S20000x150 .f32 → FVec Ideal S20000x150 .f32 → FVec Ideal S20000x150 .f32) ((addf (F := Ideal) : FVec Ideal S20000x150 .f32 → FVec Ideal S20000x150 .f32 → FVec Ideal S20000x150 .f32) (((fun l r => Host.dotGeneral (F := Ideal) dot_S20000x150_S150x150_S20000x150_1_0_0_1_n_n none l r) : FVec Ideal S20000x150 .f32 → FVec Ideal S150x150 .f32 → FVec Ideal S20000x150 .f32) ((Host.divf (F := Ideal) : FVec Ideal S20000x150 .f32 → FVec Ideal S20000x150 .f32 → FVec Ideal S20000x150 .f32) (((fun x i u => Host.scatterAdd (F := Ideal) scatter_S20000x150_S500000x1_S500000x150_1_0_0_1 x i u) : FVec Ideal S20000x150 .f32 → IVec S500000x1 32 → FVec Ideal S500000x150 .f32 → FVec Ideal S20000x150 .f32) ((broadcastInDim S20000x150 ![] bcast_S_S20000x150 : FVec Ideal S_ .f32 → FVec Ideal S20000x150 .f32) (constant (F := Ideal) S_ .f32 0x00000000#32)) ((broadcastInDim S500000x1 ![0] bcast_S500000_S500000x1_0 : IVec S500000 32 → IVec S500000x1 32) (shapeCast S500000 (((extractStridedSlice S1x500000 ![1, 0] · slices_S2x500000_S1x500000_1_0) : IVec S2x500000 32 → IVec S1x500000 32) arg24) shapeCasts_S1x500000_S500000)) (((fun x i => Host.gather gather_S50000x150_S500000x1_S500000x150_1_0_n_n_0_1_1150 x i) : FVec Ideal S50000x150 .f32 → IVec S500000x1 32 → FVec Ideal S500000x150 .f32) v441 ((broadcastInDim S500000x1 ![0] bcast_S500000_S500000x1_0 : IVec S500000 32 → IVec S500000x1 32) ((select : IVec S500000 1 → IVec S500000 32 → IVec S500000 32 → IVec S500000 32) ((cmpi .slt : IVec S500000 32 → IVec S500000 32 → IVec S500000 1) (shapeCast S500000 (((extractStridedSlice S1x500000 ![0, 0] · slices_S2x500000_S1x500000_0_0) : IVec S2x500000 32 → IVec S1x500000 32) arg24) shapeCasts_S1x500000_S500000) ((broadcastInDim S500000 ![] bcast_S_S500000 : IVec S_ 32 → IVec S500000 32) (constantI S_ 32 0#32))) ((addi : IVec S500000 32 → IVec S500000 32 → IVec S500000 32) (shapeCast S500000 (((extractStridedSlice S1x500000 ![0, 0] · slices_S2x500000_S1x500000_0_0) : IVec S2x500000 32 → IVec S1x500000 32) arg24) shapeCasts_S1x500000_S500000) ((broadcastInDim S500000 ![] bcast_S_S500000 : IVec S_ 32 → IVec S500000 32) (constantI S_ 32 50000#32))) (shapeCast S500000 (((extractStridedSlice S1x500000 ![0, 0] · slices_S2x500000_S1x500000_0_0) : IVec S2x500000 32 → IVec S1x500000 32) arg24) shapeCasts_S1x500000_S500000))))) ((broadcastInDim S20000x150 ![0, 1] bcast_S20000x1_S20000x150_0_1 : FVec Ideal S20000x1 .f32 → FVec Ideal S20000x150 .f32) ((broadcastInDim S20000x1 ![0] bcast_S20000_S20000x1_0 : FVec Ideal S20000 .f32 → FVec Ideal S20000x1 .f32) ((maximumf (F := Ideal) : FVec Ideal S20000 .f32 → FVec Ideal S20000 .f32 → FVec Ideal S20000 .f32) (((fun x i u => Host.scatterAdd (F := Ideal) scatter_S20000_S500000x1_S500000_n_0_0_1 x i u) : FVec Ideal S20000 .f32 → IVec S500000x1 32 → FVec Ideal S500000 .f32 → FVec Ideal S20000 .f32) ((broadcastInDim S20000 ![] bcast_S_S20000 : FVec Ideal S_ .f32 → FVec Ideal S20000 .f32) (constant (F := Ideal) S_ .f32 0x00000000#32)) ((broadcastInDim S500000x1 ![0] bcast_S500000_S500000x1_0 : IVec S500000 32 → IVec S500000x1 32) (shapeCast S500000 (((extractStridedSlice S1x500000 ![1, 0] · slices_S2x500000_S1x500000_1_0) : IVec S2x500000 32 → IVec S1x500000 32) arg24) shapeCasts_S1x500000_S500000)) ((broadcastInDim S500000 ![] bcast_S_S500000 : FVec Ideal S_ .f32 → FVec Ideal S500000 .f32) (constant (F := Ideal) S_ .f32 0x3F800000#32))) ((broadcastInDim S20000 ![] bcast_S_S20000 : FVec Ideal S_ .f32 → FVec Ideal S20000 .f32) (constant (F := Ideal) S_ .f32 0x3F800000#32)))))) (shapeCast S150x150 (((extractStridedSlice S1x1x150x150 ![2, 0, 0, 0] · slices_S3x6x150x150_S1x1x150x150_2_0_0_0) : FVec Ideal S3x6x150x150 .f32 → FVec Ideal S1x1x150x150 .f32) arg9) shapeCasts_S1x1x150x150_S150x150)) ((broadcastInDim S20000x150 ![0, 1] bcast_S1x150_S20000x150_0_1 : FVec Ideal S1x150 .f32 → FVec Ideal S20000x150 .f32) ((broadcastInDim S1x150 ![1] bcast_S150_S1x150_1 : FVec Ideal S150 .f32 → FVec Ideal S1x150 .f32) (shapeCast S150 (((extractStridedSlice S1x1x150 ![2, 0, 0] · slices_S3x6x150_S1x1x150_2_0_0) : FVec Ideal S3x6x150 .f32 → FVec Ideal S1x1x150 .f32) arg10) shapeCasts_S1x1x150_S150)))) (((fun l r => Host.dotGeneral (F := Ideal) dot_S20000x150_S150x150_S20000x150_1_0_0_1_n_n none l r) : FVec Ideal S20000x150 .f32 → FVec Ideal S150x150 .f32 → FVec Ideal S20000x150 .f32) v443 (shapeCast S150x150 (((extractStridedSlice S1x1x150x150 ![2, 0, 0, 0] · slices_S3x6x150x150_S1x1x150x150_2_0_0_0) : FVec Ideal S3x6x150x150 .f32 → FVec Ideal S1x1x150x150 .f32) arg11) shapeCasts_S1x1x150x150_S150x150))) ((addf (F := Ideal) : FVec Ideal S20000x150 .f32 → FVec Ideal S20000x150 .f32 → FVec Ideal S20000x150 .f32) ((addf (F := Ideal) : FVec Ideal S20000x150 .f32 → FVec Ideal S20000x150 .f32 → FVec Ideal S20000x150 .f32) (((fun l r => Host.dotGeneral (F := Ideal) dot_S20000x150_S150x150_S20000x150_1_0_0_1_n_n none l r) : FVec Ideal S20000x150 .f32 → FVec Ideal S150x150 .f32 → FVec Ideal S20000x150 .f32) ((Host.divf (F := Ideal) : FVec Ideal S20000x150 .f32 → FVec Ideal S20000x150 .f32 → FVec Ideal S20000x150 .f32) (((fun x i u => Host.scatterAdd (F := Ideal) scatter_S20000x150_S200000x1_S200000x150_1_0_0_1 x i u) : FVec Ideal S20000x150 .f32 → IVec S200000x1 32 → FVec Ideal S200000x150 .f32 → FVec Ideal S20000x150 .f32) ((broadcastInDim S20000x150 ![] bcast_S_S20000x150 : FVec Ideal S_ .f32 → FVec Ideal S20000x150 .f32) (constant (F := Ideal) S_ .f32 0x00000000#32)) ((broadcastInDim S200000x1 ![0] bcast_S200000_S200000x1_0 : IVec S200000 32 → IVec S200000x1 32) (shapeCast S200000 (((extractStridedSlice S1x200000 ![1, 0] · slices_S2x200000_S1x200000_1_0) : IVec S2x200000 32 → IVec S1x200000 32) arg26) shapeCasts_S1x200000_S200000)) (((fun x i => Host.gather gather_S2000x150_S200000x1_S200000x150_1_0_n_n_0_1_1150 x i) : FVec Ideal S2000x150 .f32 → IVec S200000x1 32 → FVec Ideal S200000x150 .f32) v442 ((broadcastInDim S200000x1 ![0] bcast_S200000_S200000x1_0 : IVec S200000 32 → IVec S200000x1 32) ((select : IVec S200000 1 → IVec S200000 32 → IVec S200000 32 → IVec S200000 32) ((cmpi .slt : IVec S200000 32 → IVec S200000 32 → IVec S200000 1) (shapeCast S200000 (((extractStridedSlice S1x200000 ![0, 0] · slices_S2x200000_S1x200000_0_0) : IVec S2x200000 32 → IVec S1x200000 32) arg26) shapeCasts_S1x200000_S200000) ((broadcastInDim S200000 ![] bcast_S_S200000 : IVec S_ 32 → IVec S200000 32) (constantI S_ 32 0#32))) ((addi : IVec S200000 32 → IVec S200000 32 → IVec S200000 32) (shapeCast S200000 (((extractStridedSlice S1x200000 ![0, 0] · slices_S2x200000_S1x200000_0_0) : IVec S2x200000 32 → IVec S1x200000 32) arg26) shapeCasts_S1x200000_S200000) ((broadcastInDim S200000 ![] bcast_S_S200000 : IVec S_ 32 → IVec S200000 32) (constantI S_ 32 2000#32))) (shapeCast S200000 (((extractStridedSlice S1x200000 ![0, 0] · slices_S2x200000_S1x200000_0_0) : IVec S2x200000 32 → IVec S1x200000 32) arg26) shapeCasts_S1x200000_S200000))))) ((broadcastInDim S20000x150 ![0, 1] bcast_S20000x1_S20000x150_0_1 : FVec Ideal S20000x1 .f32 → FVec Ideal S20000x150 .f32) ((broadcastInDim S20000x1 ![0] bcast_S20000_S20000x1_0 : FVec Ideal S20000 .f32 → FVec Ideal S20000x1 .f32) ((maximumf (F := Ideal) : FVec Ideal S20000 .f32 → FVec Ideal S20000 .f32 → FVec Ideal S20000 .f32) (((fun x i u => Host.scatterAdd (F := Ideal) scatter_S20000_S200000x1_S200000_n_0_0_1 x i u) : FVec Ideal S20000 .f32 → IVec S200000x1 32 → FVec Ideal S200000 .f32 → FVec Ideal S20000 .f32) ((broadcastInDim S20000 ![] bcast_S_S20000 : FVec Ideal S_ .f32 → FVec Ideal S20000 .f32) (constant (F := Ideal) S_ .f32 0x00000000#32)) ((broadcastInDim S200000x1 ![0] bcast_S200000_S200000x1_0 : IVec S200000 32 → IVec S200000x1 32) (shapeCast S200000 (((extractStridedSlice S1x200000 ![1, 0] · slices_S2x200000_S1x200000_1_0) : IVec S2x200000 32 → IVec S1x200000 32) arg26) shapeCasts_S1x200000_S200000)) ((broadcastInDim S200000 ![] bcast_S_S200000 : FVec Ideal S_ .f32 → FVec Ideal S200000 .f32) (constant (F := Ideal) S_ .f32 0x3F800000#32))) ((broadcastInDim S20000 ![] bcast_S_S20000 : FVec Ideal S_ .f32 → FVec Ideal S20000 .f32) (constant (F := Ideal) S_ .f32 0x3F800000#32)))))) (shapeCast S150x150 (((extractStridedSlice S1x1x150x150 ![2, 4, 0, 0] · slices_S3x6x150x150_S1x1x150x150_2_4_0_0) : FVec Ideal S3x6x150x150 .f32 → FVec Ideal S1x1x150x150 .f32) arg9) shapeCasts_S1x1x150x150_S150x150)) ((broadcastInDim S20000x150 ![0, 1] bcast_S1x150_S20000x150_0_1 : FVec Ideal S1x150 .f32 → FVec Ideal S20000x150 .f32) ((broadcastInDim S1x150 ![1] bcast_S150_S1x150_1 : FVec Ideal S150 .f32 → FVec Ideal S1x150 .f32) (shapeCast S150 (((extractStridedSlice S1x1x150 ![2, 4, 0] · slices_S3x6x150_S1x1x150_2_4_0) : FVec Ideal S3x6x150 .f32 → FVec Ideal S1x1x150 .f32) arg10) shapeCasts_S1x1x150_S150)))) (((fun l r => Host.dotGeneral (F := Ideal) dot_S20000x150_S150x150_S20000x150_1_0_0_1_n_n none l r) : FVec Ideal S20000x150 .f32 → FVec Ideal S150x150 .f32 → FVec Ideal S20000x150 .f32) v443 (shapeCast S150x150 (((extractStridedSlice S1x1x150x150 ![2, 4, 0, 0] · slices_S3x6x150x150_S1x1x150x150_2_4_0_0) : FVec Ideal S3x6x150x150 .f32 → FVec Ideal S1x1x150x150 .f32) arg11) shapeCasts_S1x1x150x150_S150x150))))

set_option maxHeartbeats 40000000 in
/-- After the list, from any contents, main_v656 holds that function of the contents. -/
theorem rst11_v656_eq (W : Valuation τ sig (Elt Ideal)) :
    StableHlo.after (st11 (F := Ideal)) W (Proc.devRef .tc main_v656)
      = rst11_v656 (W (Proc.devRef .tc main_v441)) (W (Proc.devRef .tc main_v442)) (W (Proc.devRef .tc main_v443)) (W (Proc.devRef .tc main_arg9)) (W (Proc.devRef .tc main_arg10)) (W (Proc.devRef .tc main_arg11)) (W (Proc.devRef .tc main_arg24)) (W (Proc.devRef .tc main_arg26)) := by
  after_results_simp <;> first | rfl | (unfold rst11_v656; rfl)

end Cert.ReferenceIdeal.ValueP

end
-- ==== Proof.RStage.lean ====
/-
  The reference's run read stage by stage against the model: when its launch memory holds the argument arrays and the
  float arguments are finite, the buffer that holds a node type's features after the input projections and after each
  of the seven neighbourhood combines is the model's matrix of the arguments.  A chunk's result is its operations'
  composed function of the buffers it reads; those buffers are carried unchanged through the chunks in between; and
  the composed function is the reference's arrangement of the combine, which the law of distributivity joins to the
  kernel's arrangement in which the model is written.
-/
import proofs.«141689_j63058709840619_1_alg».proof.Proof.RVals
import proofs.«141689_j63058709840619_1_alg».proof.Proof.RHost0
import proofs.«141689_j63058709840619_1_alg».proof.Proof.RHost1
import proofs.«141689_j63058709840619_1_alg».proof.Proof.RHost2
import proofs.«141689_j63058709840619_1_alg».proof.Proof.RHost3
import proofs.«141689_j63058709840619_1_alg».proof.Proof.RHost4
import proofs.«141689_j63058709840619_1_alg».proof.Proof.RHost5
import proofs.«141689_j63058709840619_1_alg».proof.Proof.RHost6
import proofs.«141689_j63058709840619_1_alg».proof.Proof.RHost7
import proofs.«141689_j63058709840619_1_alg».proof.Proof.RHost8
import proofs.«141689_j63058709840619_1_alg».proof.Proof.RHost11
import proofs.«141689_j63058709840619_1_alg».proof.Proof.ModelFin

set_option maxRecDepth 8192

noncomputable section

namespace Cert.ReferenceIdeal.ValueP

open Cert.ReferenceIdeal Cert.ReferenceIdeal.Gen Idealize.ShloMosaic Idealize.ShloMosaic.TcCoe Idealize.SL.Sem Idealize.ShloMosaic.StableHlo Cert.Spec
open Cert.KernelIdeal.Val (XL XM XP XL1 XM1 XP1 XL2 XM2 XP2 XP3 AFin hs150 fin_XL fin_XM fin_XP fin_XL1 fin_XM1 fin_XP1 fin_XL2 fin_XM2 fin_XP2
  fin_kh3_v53 fin_kh3_v55 fin_kh4_v115 fin_kh4_v117 fin_kh5_v177 fin_kh5_v179 fin_kh6_v239 fin_kh6_v241 fin_kh7_v301 fin_kh7_v303
  fin_kh8_v363 fin_kh8_v365 fin_kh9_v425 fin_kh9_v427)

variable (m' : (ℓ : Loc nD τ sig) → Buf (Elt Ideal) ℓ)

/-! ## The arguments and the carried buffers -/

/-- The stacked weights and the edge arrays, as a valuation holds them. -/
structure AHolds (W : Valuation τ sig (Elt Ideal)) (a : ArgVals) : Prop where
  h9 : W (Proc.devRef .tc main_arg9) = a.Wl
  h10 : W (Proc.devRef .tc main_arg10) = a.bl
  h11 : W (Proc.devRef .tc main_arg11) = a.Wr
  h24 : W (Proc.devRef .tc main_arg24) = a.e_lpi
  h25 : W (Proc.devRef .tc main_arg25) = a.e_lmi
  h26 : W (Proc.devRef .tc main_arg26) = a.e_mpi

/-- No operation of the chunk writes any of the buffers listed. -/
def Keeps (l : List (HloOp τ sig (Elt Ideal))) (bs : List (DevRef τ sig)) : Prop := ∀ op ∈ l, ∀ b ∈ bs, b ∉ op.writes

instance (l : List (HloOp τ sig (Elt Ideal))) (bs : List (DevRef τ sig)) : Decidable (Keeps l bs) := by unfold Keeps; infer_instance

/-- A buffer the chunk keeps holds after it what it held before. -/
theorem Keeps.at {l : List (HloOp τ sig (Elt Ideal))} {bs : List (DevRef τ sig)} (h : Keeps l bs) (V : Valuation τ sig (Elt Ideal))
    {b : DevRef τ sig} (hb : b ∈ bs) : StableHlo.after l V b = V b :=
  after_of_forall_not_mem l V fun op ho => h op ho b hb

/-- The argument buffers the combines read. -/
abbrev argBufs : List (DevRef τ sig) :=
  [Proc.devRef .tc main_arg9, Proc.devRef .tc main_arg10, Proc.devRef .tc main_arg11, Proc.devRef .tc main_arg24, Proc.devRef .tc main_arg25, Proc.devRef .tc main_arg26]

/-- A chunk that keeps the argument buffers keeps what they hold. -/
theorem AHolds.after {W : Valuation τ sig (Elt Ideal)} {a : ArgVals} (h : AHolds W a) (l : List (HloOp τ sig (Elt Ideal))) (bs : List (DevRef τ sig))
    (hk : Keeps l (argBufs ++ bs)) : AHolds (StableHlo.after l W) a where
  h9 := (hk.at W (by simp [argBufs])).trans h.h9
  h10 := (hk.at W (by simp [argBufs])).trans h.h10
  h11 := (hk.at W (by simp [argBufs])).trans h.h11
  h24 := (hk.at W (by simp [argBufs])).trans h.h24
  h25 := (hk.at W (by simp [argBufs])).trans h.h25
  h26 := (hk.at W (by simp [argBufs])).trans h.h26

/-- What each chunk keeps: the argument buffers, and the feature buffers a later chunk still reads. -/
theorem keeps0 : Keeps (st0 (F := Ideal)) (argBufs ++ []) := by decide +kernel
theorem keeps1 : Keeps (st1 (F := Ideal)) (argBufs ++ [Proc.devRef .tc main_v3, Proc.devRef .tc main_v7, Proc.devRef .tc main_v11]) := by decide +kernel
theorem keeps2 : Keeps (st2 (F := Ideal)) (argBufs ++ [Proc.devRef .tc main_v3, Proc.devRef .tc main_v7, Proc.devRef .tc main_v11, Proc.devRef .tc main_v82]) := by decide +kernel
theorem keeps3 : Keeps (st3 (F := Ideal)) (argBufs ++ [Proc.devRef .tc main_v82, Proc.devRef .tc main_v153]) := by decide +kernel
theorem keeps4 : Keeps (st4 (F := Ideal)) (argBufs ++ []) := by decide +kernel
theorem keeps5 : Keeps (st5 (F := Ideal)) (argBufs ++ [Proc.devRef .tc main_v225, Proc.devRef .tc main_v226, Proc.devRef .tc main_v227]) := by decide +kernel
theorem keeps6 : Keeps (st6 (F := Ideal)) (argBufs ++ [Proc.devRef .tc main_v225, Proc.devRef .tc main_v226, Proc.devRef .tc main_v227, Proc.devRef .tc main_v298]) := by decide +kernel
theorem keeps7 : Keeps (st7 (F := Ideal)) (argBufs ++ [Proc.devRef .tc main_v298, Proc.devRef .tc main_v369]) := by decide +kernel
theorem keeps8 : Keeps (st8 (F := Ideal)) (argBufs ++ []) := by decide +kernel
theorem keeps9 : Keeps (st9 (F := Ideal)) (argBufs ++ [Proc.devRef .tc main_v441, Proc.devRef .tc main_v442, Proc.devRef .tc main_v443]) := by decide +kernel
theorem keeps10 : Keeps (st10 (F := Ideal)) (argBufs ++ [Proc.devRef .tc main_v441, Proc.devRef .tc main_v442, Proc.devRef .tc main_v443]) := by decide +kernel

section
variable (c : Dev nD) (a : ArgVals) (hr : RHolds m' c a)
include hr

/-! ## The arguments at every stage boundary -/

theorem args0 : AHolds (RV0 m' c) a := ⟨hr.h9, hr.h10, hr.h11, hr.h24, hr.h25, hr.h26⟩
theorem args1 : AHolds (RV1 m' c) a := (args0 m' c a hr).after _ _ keeps0
theorem args2 : AHolds (RV2 m' c) a := (args1 m' c a hr).after _ _ keeps1
theorem args3 : AHolds (RV3 m' c) a := (args2 m' c a hr).after _ _ keeps2
theorem args4 : AHolds (RV4 m' c) a := (args3 m' c a hr).after _ _ keeps3
theorem args5 : AHolds (RV5 m' c) a := (args4 m' c a hr).after _ _ keeps4
theorem args6 : AHolds (RV6 m' c) a := (args5 m' c a hr).after _ _ keeps5
theorem args7 : AHolds (RV7 m' c) a := (args6 m' c a hr).after _ _ keeps6
theorem args8 : AHolds (RV8 m' c) a := (args7 m' c a hr).after _ _ keeps7
theorem args9 : AHolds (RV9 m' c) a := (args8 m' c a hr).after _ _ keeps8
theorem args10 : AHolds (RV10 m' c) a := (args9 m' c a hr).after _ _ keeps9
theorem args11 : AHolds (RV11 m' c) a := (args10 m' c a hr).after _ _ keeps10

/-! ## The input projections -/

theorem r_XL : RV1 m' c (Proc.devRef .tc main_v3) = XL a := by
  unfold RV1
  rw [rst0_v3_eq, RV0_apply, RV0_apply, RV0_apply, hr.h0, hr.h3, hr.h4]
  unfold rst0_v3 XL
  exact Cert.ReferenceIdeal.RefValue.dot_add_eq_lin _ rfl _ _ _ _ _

theorem r_XM : RV1 m' c (Proc.devRef .tc main_v7) = XM a := by
  unfold RV1
  rw [rst0_v7_eq, RV0_apply, RV0_apply, RV0_apply, hr.h1, hr.h5, hr.h6]
  unfold rst0_v7 XM
  exact Cert.ReferenceIdeal.RefValue.dot_add_eq_lin _ rfl _ _ _ _ _

theorem r_XP : RV1 m' c (Proc.devRef .tc main_v11) = XP a := by
  unfold RV1
  rw [rst0_v11_eq, RV0_apply, RV0_apply, RV0_apply, hr.h2, hr.h7, hr.h8]
  unfold rst0_v11 XP
  exact Cert.ReferenceIdeal.RefValue.dot_add_eq_lin _ rfl _ _ _ _ _

/-- The projections, carried to where the later chunks of the first layer read them. -/
theorem XL_at2 : RV2 m' c (Proc.devRef .tc main_v3) = XL a := by unfold RV2; rw [keeps1.at _ (by simp [argBufs])]; exact r_XL m' c a hr
theorem XM_at2 : RV2 m' c (Proc.devRef .tc main_v7) = XM a := by unfold RV2; rw [keeps1.at _ (by simp [argBufs])]; exact r_XM m' c a hr
theorem XP_at2 : RV2 m' c (Proc.devRef .tc main_v11) = XP a := by unfold RV2; rw [keeps1.at _ (by simp [argBufs])]; exact r_XP m' c a hr
theorem XL_at3 : RV3 m' c (Proc.devRef .tc main_v3) = XL a := by unfold RV3; rw [keeps2.at _ (by simp [argBufs])]; exact XL_at2 m' c a hr
theorem XM_at3 : RV3 m' c (Proc.devRef .tc main_v7) = XM a := by unfold RV3; rw [keeps2.at _ (by simp [argBufs])]; exact XM_at2 m' c a hr
theorem XP_at3 : RV3 m' c (Proc.devRef .tc main_v11) = XP a := by unfold RV3; rw [keeps2.at _ (by simp [argBufs])]; exact XP_at2 m' c a hr

/-! ## The first layer of combines -/

theorem r_XL1 (hf : AFin a) : RV5 m' c (Proc.devRef .tc main_v225) = XL1 a := by
  have hA := args1 m' c a hr
  have e : RV4 m' c (Proc.devRef .tc main_v82) = rst1_v82 (XL a) (XM a) (XP a) a.Wl a.bl a.Wr a.e_lpi a.e_lmi := by
    unfold RV4; rw [keeps3.at _ (by simp [argBufs])]
    unfold RV3; rw [keeps2.at _ (by simp [argBufs])]
    unfold RV2; rw [rst1_v82_eq, r_XL m' c a hr, r_XM m' c a hr, r_XP m' c a hr, hA.h9, hA.h10, hA.h11, hA.h24, hA.h25]
  unfold RV5
  rw [rst4_v225_eq, e]
  unfold XL1
  rw [sage_relu_stage dot_S50000x150_S150x150_S50000x150_1_0_0_1_n_n rfl bcast_S150_S1x150_1 bcast_S1x150_S50000x150_0_1 bcast_S_S50000x150 hs150
    _ _ _ _ _ _ _ _ _ (fin_XL a hf) (fin_kh3_v53 a hf) (fin_kh3_v55 a hf)]
  rfl

theorem r_XM1 (hf : AFin a) : RV5 m' c (Proc.devRef .tc main_v226) = XM1 a := by
  have hA := args2 m' c a hr
  have e : RV4 m' c (Proc.devRef .tc main_v153) = rst2_v153 (XL a) (XM a) (XP a) a.Wl a.bl a.Wr a.e_lmi a.e_mpi := by
    unfold RV4; rw [keeps3.at _ (by simp [argBufs])]
    unfold RV3; rw [rst2_v153_eq, XL_at2 m' c a hr, XM_at2 m' c a hr, XP_at2 m' c a hr, hA.h9, hA.h10, hA.h11, hA.h25, hA.h26]
  unfold RV5
  rw [rst4_v226_eq, e]
  unfold XM1
  rw [sage_relu_stage dot_S2000x150_S150x150_S2000x150_1_0_0_1_n_n rfl bcast_S150_S1x150_1 bcast_S1x150_S2000x150_0_1 bcast_S_S2000x150 hs150
    _ _ _ _ _ _ _ _ _ (fin_XM a hf) (fin_kh4_v115 a hf) (fin_kh4_v117 a hf)]
  rfl

theorem r_XP1 (hf : AFin a) : RV5 m' c (Proc.devRef .tc main_v227) = XP1 a := by
  have hA := args3 m' c a hr
  have e : RV4 m' c (Proc.devRef .tc main_v224) = rst3_v224 (XL a) (XM a) (XP a) a.Wl a.bl a.Wr a.e_lpi a.e_mpi := by
    unfold RV4; rw [rst3_v224_eq, XL_at3 m' c a hr, XM_at3 m' c a hr, XP_at3 m' c a hr, hA.h9, hA.h10, hA.h11, hA.h24, hA.h26]
  unfold RV5
  rw [rst4_v227_eq, e]
  unfold XP1
  rw [sage_relu_stage dot_S20000x150_S150x150_S20000x150_1_0_0_1_n_n rfl bcast_S150_S1x150_1 bcast_S1x150_S20000x150_0_1 bcast_S_S20000x150 hs150
    _ _ _ _ _ _ _ _ _ (fin_XP a hf) (fin_kh5_v177 a hf) (fin_kh5_v179 a hf)]
  rfl

/-- The first layer's features, carried to where the later chunks of the second layer read them. -/
theorem XL1_at6 (hf : AFin a) : RV6 m' c (Proc.devRef .tc main_v225) = XL1 a := by unfold RV6; rw [keeps5.at _ (by simp [argBufs])]; exact r_XL1 m' c a hr hf
theorem XM1_at6 (hf : AFin a) : RV6 m' c (Proc.devRef .tc main_v226) = XM1 a := by unfold RV6; rw [keeps5.at _ (by simp [argBufs])]; exact r_XM1 m' c a hr hf
theorem XP1_at6 (hf : AFin a) : RV6 m' c (Proc.devRef .tc main_v227) = XP1 a := by unfold RV6; rw [keeps5.at _ (by simp [argBufs])]; exact r_XP1 m' c a hr hf
theorem XL1_at7 (hf : AFin a) : RV7 m' c (Proc.devRef .tc main_v225) = XL1 a := by unfold RV7; rw [keeps6.at _ (by simp [argBufs])]; exact XL1_at6 m' c a hr hf
theorem XM1_at7 (hf : AFin a) : RV7 m' c (Proc.devRef .tc main_v226) = XM1 a := by unfold RV7; rw [keeps6.at _ (by simp [argBufs])]; exact XM1_at6 m' c a hr hf
theorem XP1_at7 (hf : AFin a) : RV7 m' c (Proc.devRef .tc main_v227) = XP1 a := by unfold RV7; rw [keeps6.at _ (by simp [argBufs])]; exact XP1_at6 m' c a hr hf

/-! ## The second layer of combines -/

theorem r_XL2 (hf : AFin a) : RV9 m' c (Proc.devRef .tc main_v441) = XL2 a := by
  have hA := args5 m' c a hr
  have e : RV8 m' c (Proc.devRef .tc main_v298) = rst5_v298 (XL1 a) (XM1 a) (XP1 a) a.Wl a.bl a.Wr a.e_lpi a.e_lmi := by
    unfold RV8; rw [keeps7.at _ (by simp [argBufs])]
    unfold RV7; rw [keeps6.at _ (by simp [argBufs])]
    unfold RV6; rw [rst5_v298_eq, r_XL1 m' c a hr hf, r_XM1 m' c a hr hf, r_XP1 m' c a hr hf, hA.h9, hA.h10, hA.h11, hA.h24, hA.h25]
  unfold RV9
  rw [rst8_v441_eq, e]
  unfold XL2
  rw [sage_relu_stage dot_S50000x150_S150x150_S50000x150_1_0_0_1_n_n rfl bcast_S150_S1x150_1 bcast_S1x150_S50000x150_0_1 bcast_S_S50000x150 hs150
    _ _ _ _ _ _ _ _ _ (fin_XL1 a hf) (fin_kh6_v239 a hf) (fin_kh6_v241 a hf)]
  rfl

theorem r_XM2 (hf : AFin a) : RV9 m' c (Proc.devRef .tc main_v442) = XM2 a := by
  have hA := args6 m' c a hr
  have e : RV8 m' c (Proc.devRef .tc main_v369) = rst6_v369 (XL1 a) (XM1 a) (XP1 a) a.Wl a.bl a.Wr a.e_lmi a.e_mpi := by
    unfold RV8; rw [keeps7.at _ (by simp [argBufs])]
    unfold RV7; rw [rst6_v369_eq, XL1_at6 m' c a hr hf, XM1_at6 m' c a hr hf, XP1_at6 m' c a hr hf, hA.h9, hA.h10, hA.h11, hA.h25, hA.h26]
  unfold RV9
  rw [rst8_v442_eq, e]
  unfold XM2
  rw [sage_relu_stage dot_S2000x150_S150x150_S2000x150_1_0_0_1_n_n rfl bcast_S150_S1x150_1 bcast_S1x150_S2000x150_0_1 bcast_S_S2000x150 hs150
    _ _ _ _ _ _ _ _ _ (fin_XM1 a hf) (fin_kh7_v301 a hf) (fin_kh7_v303 a hf)]
  rfl

theorem r_XP2 (hf : AFin a) : RV9 m' c (Proc.devRef .tc main_v443) = XP2 a := by
  have hA := args7 m' c a hr
  have e : RV8 m' c (Proc.devRef .tc main_v440) = rst7_v440 (XL1 a) (XM1 a) (XP1 a) a.Wl a.bl a.Wr a.e_lpi a.e_mpi := by
    unfold RV8; rw [rst7_v440_eq, XL1_at7 m' c a hr hf, XM1_at7 m' c a hr hf, XP1_at7 m' c a hr hf, hA.h9, hA.h10, hA.h11, hA.h24, hA.h26]
  unfold RV9
  rw [rst8_v443_eq, e]
  unfold XP2
  rw [sage_relu_stage dot_S20000x150_S150x150_S20000x150_1_0_0_1_n_n rfl bcast_S150_S1x150_1 bcast_S1x150_S20000x150_0_1 bcast_S_S20000x150 hs150
    _ _ _ _ _ _ _ _ _ (fin_XP1 a hf) (fin_kh8_v363 a hf) (fin_kh8_v365 a hf)]
  rfl

/-- The second layer's features, carried to where the last combine reads them. -/
theorem XL2_at10 (hf : AFin a) : RV10 m' c (Proc.devRef .tc main_v441) = XL2 a := by unfold RV10; rw [keeps9.at _ (by simp [argBufs])]; exact r_XL2 m' c a hr hf
theorem XM2_at10 (hf : AFin a) : RV10 m' c (Proc.devRef .tc main_v442) = XM2 a := by unfold RV10; rw [keeps9.at _ (by simp [argBufs])]; exact r_XM2 m' c a hr hf
theorem XP2_at10 (hf : AFin a) : RV10 m' c (Proc.devRef .tc main_v443) = XP2 a := by unfold RV10; rw [keeps9.at _ (by simp [argBufs])]; exact r_XP2 m' c a hr hf
theorem XL2_at11 (hf : AFin a) : RV11 m' c (Proc.devRef .tc main_v441) = XL2 a := by unfold RV11; rw [keeps10.at _ (by simp [argBufs])]; exact XL2_at10 m' c a hr hf
theorem XM2_at11 (hf : AFin a) : RV11 m' c (Proc.devRef .tc main_v442) = XM2 a := by unfold RV11; rw [keeps10.at _ (by simp [argBufs])]; exact XM2_at10 m' c a hr hf
theorem XP2_at11 (hf : AFin a) : RV11 m' c (Proc.devRef .tc main_v443) = XP2 a := by unfold RV11; rw [keeps10.at _ (by simp [argBufs])]; exact XP2_at10 m' c a hr hf

/-! ## The last combine -/

theorem r_XP3 (hf : AFin a) : RV12 m' c (Proc.devRef .tc main_v656) = XP3 a := by
  have hA := args11 m' c a hr
  unfold RV12
  rw [rst11_v656_eq, XL2_at11 m' c a hr hf, XM2_at11 m' c a hr hf, XP2_at11 m' c a hr hf, hA.h9, hA.h10, hA.h11, hA.h24, hA.h26]
  unfold XP3
  rw [sage_stage dot_S20000x150_S150x150_S20000x150_1_0_0_1_n_n rfl bcast_S150_S1x150_1 bcast_S1x150_S20000x150_0_1 hs150
    _ _ _ _ _ _ _ _ _ (fin_XP2 a hf) (fin_kh9_v425 a hf) (fin_kh9_v427 a hf)]
  rfl

end

end Cert.ReferenceIdeal.ValueP

end
-- ==== Proof.RHost12.lean ====
/-
  What single buffers hold after a straight line of host operations, as functions of the buffers the line
  reads: each definition is the operations' own functions composed (their text as the list prints it, read at the
  extended reals), each lemma says the fold of the list at that buffer is that function of the starting contents.
-/
import proofs.«141689_j63058709840619_1_alg».proof.Proof.RefRunP
import proofs.«141689_j63058709840619_1_alg».proof.Proof.Spec
import Idealize.ShloMosaic.Lib.StableHlo.Run

set_option maxRecDepth 8192

noncomputable section

namespace Cert.ReferenceIdeal.ValueP

open Idealize.ShloMosaic Idealize.ShloMosaic.TcCoe Cert.ReferenceIdeal Cert.ReferenceIdeal.Gen Cert.Spec

/-! ## st12: 40 operations -/

/-- Buffer main_v679 as a function of main_arg0, main_arg12, main_arg13, main_arg14, main_arg15, main_arg16, main_arg17, main_arg27: the operations that build it, composed. -/
def rst12_v679 (arg0 : FVec Ideal S50000x768 .f32) (arg12 : FVec Ideal S768x300 .f32) (arg13 : FVec Ideal S300 .f32) (arg14 : FVec Ideal S300x200 .f32) (arg15 : FVec Ideal S200 .f32) (arg16 : FVec Ideal S200x150 .f32) (arg17 : FVec Ideal S150 .f32) (arg27 : IVec S2x500000 32) : FVec Ideal S500000x150 .f32 :=
  (((fun x i => Host.gather gather_S50000x150_S500000x1_S500000x150_1_0_n_n_0_1_1150 x i) : FVec Ideal S50000x150 .f32 → IVec S500000x1 32 → FVec Ideal S500000x150 .f32) ((addf (F := Ideal) : FVec Ideal S50000x150 .f32 → FVec Ideal S50000x150 .f32 → FVec Ideal S50000x150 .f32) (((fun l r => Host.dotGeneral (F := Ideal) dot_S50000x200_S200x150_S50000x150_1_0_0_1_n_n none l r) : FVec Ideal S50000x200 .f32 → FVec Ideal S200x150 .f32 → FVec Ideal S50000x150 .f32) ((maximumf (F := Ideal) : FVec Ideal S50000x200 .f32 → FVec Ideal S50000x200 .f32 → FVec Ideal S50000x200 .f32) ((addf (F := Ideal) : FVec Ideal S50000x200 .f32 → FVec Ideal S50000x200 .f32 → FVec Ideal S50000x200 .f32) (((fun l r => Host.dotGeneral (F := Ideal) dot_S50000x300_S300x200_S50000x200_1_0_0_1_n_n none l r) : FVec Ideal S50000x300 .f32 → FVec Ideal S300x200 .f32 → FVec Ideal S50000x200 .f32) ((maximumf (F := Ideal) : FVec Ideal S50000x300 .f32 → FVec Ideal S50000x300 .f32 → FVec Ideal S50000x300 .f32) ((addf (F := Ideal) : FVec Ideal S50000x300 .f32 → FVec Ideal S50000x300 .f32 → FVec Ideal S50000x300 .f32) (((fun l r => Host.dotGeneral (F := Ideal) dot_S50000x768_S768x300_S50000x300_1_0_0_1_n_n none l r) : FVec Ideal S50000x768 .f32 → FVec Ideal S768x300 .f32 → FVec Ideal S50000x300 .f32) arg0 arg12) ((broadcastInDim S50000x300 ![0, 1] bcast_S1x300_S50000x300_0_1 : FVec Ideal S1x300 .f32 → FVec Ideal S50000x300 .f32) ((broadcastInDim S1x300 ![1] bcast_S300_S1x300_1 : FVec Ideal S300 .f32 → FVec Ideal S1x300 .f32) arg13))) (((broadcastInDim S50000x300 ![] bcast_S_S50000x300) : FVec Ideal S_ .f32 → FVec Ideal S50000x300 .f32) (constant (F := Ideal) S_ .f32 0x00000000#32))) arg14) ((broadcastInDim S50000x200 ![0, 1] bcast_S1x200_S50000x200_0_1 : FVec Ideal S1x200 .f32 → FVec Ideal S50000x200 .f32) ((broadcastInDim S1x200 ![1] bcast_S200_S1x200_1 : FVec Ideal S200 .f32 → FVec Ideal S1x200 .f32) arg15))) (((broadcastInDim S50000x200 ![] bcast_S_S50000x200) : FVec Ideal S_ .f32 → FVec Ideal S50000x200 .f32) (constant (F := Ideal) S_ .f32 0x00000000#32))) arg16) ((broadcastInDim S50000x150 ![0, 1] bcast_S1x150_S50000x150_0_1 : FVec Ideal S1x150 .f32 → FVec Ideal S50000x150 .f32) ((broadcastInDim S1x150 ![1] bcast_S150_S1x150_1 : FVec Ideal S150 .f32 → FVec Ideal S1x150 .f32) arg17))) ((broadcastInDim S500000x1 ![0] bcast_S500000_S500000x1_0 : IVec S500000 32 → IVec S500000x1 32) ((select : IVec S500000 1 → IVec S500000 32 → IVec S500000 32 → IVec S500000 32) ((cmpi .slt : IVec S500000 32 → IVec S500000 32 → IVec S500000 1) (shapeCast S500000 (((extractStridedSlice S1x500000 ![0, 0] · slices_S2x500000_S1x500000_0_0) : IVec S2x500000 32 → IVec S1x500000 32) arg27) shapeCasts_S1x500000_S500000) ((broadcastInDim S500000 ![] bcast_S_S500000 : IVec S_ 32 → IVec S500000 32) (constantI S_ 32 0#32))) ((addi : IVec S500000 32 → IVec S500000 32 → IVec S500000 32) (shapeCast S500000 (((extractStridedSlice S1x500000 ![0, 0] · slices_S2x500000_S1x500000_0_0) : IVec S2x500000 32 → IVec S1x500000 32) arg27) shapeCasts_S1x500000_S500000) ((broadcastInDim S500000 ![] bcast_S_S500000 : IVec S_ 32 → IVec S500000 32) (constantI S_ 32 50000#32))) (shapeCast S500000 (((extractStridedSlice S1x500000 ![0, 0] · slices_S2x500000_S1x500000_0_0) : IVec S2x500000 32 → IVec S1x500000 32) arg27) shapeCasts_S1x500000_S500000))))

set_option maxHeartbeats 40000000 in
/-- After the list, from any contents, main_v679 holds that function of the contents. -/
theorem rst12_v679_eq (W : Valuation τ sig (Elt Ideal)) :
    StableHlo.after (st12 (F := Ideal)) W (Proc.devRef .tc main_v679)
      = rst12_v679 (W (Proc.devRef .tc main_arg0)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg27)) := by
  after_results_simp <;> first | rfl | (unfold rst12_v679; rfl)

/-- Buffer main_v688 as a function of main_v656, main_arg27: the operations that build it, composed. -/
def rst12_v688 (v656 : FVec Ideal S20000x150 .f32) (arg27 : IVec S2x500000 32) : FVec Ideal S500000x150 .f32 :=
  (((fun x i => Host.gather gather_S20000x150_S500000x1_S500000x150_1_0_n_n_0_1_1150 x i) : FVec Ideal S20000x150 .f32 → IVec S500000x1 32 → FVec Ideal S500000x150 .f32) v656 ((broadcastInDim S500000x1 ![0] bcast_S500000_S500000x1_0 : IVec S500000 32 → IVec S500000x1 32) ((select : IVec S500000 1 → IVec S500000 32 → IVec S500000 32 → IVec S500000 32) ((cmpi .slt : IVec S500000 32 → IVec S500000 32 → IVec S500000 1) (shapeCast S500000 (((extractStridedSlice S1x500000 ![1, 0] · slices_S2x500000_S1x500000_1_0) : IVec S2x500000 32 → IVec S1x500000 32) arg27) shapeCasts_S1x500000_S500000) ((broadcastInDim S500000 ![] bcast_S_S500000 : IVec S_ 32 → IVec S500000 32) (constantI S_ 32 0#32))) ((addi : IVec S500000 32 → IVec S500000 32 → IVec S500000 32) (shapeCast S500000 (((extractStridedSlice S1x500000 ![1, 0] · slices_S2x500000_S1x500000_1_0) : IVec S2x500000 32 → IVec S1x500000 32) arg27) shapeCasts_S1x500000_S500000) ((broadcastInDim S500000 ![] bcast_S_S500000 : IVec S_ 32 → IVec S500000 32) (constantI S_ 32 20000#32))) (shapeCast S500000 (((extractStridedSlice S1x500000 ![1, 0] · slices_S2x500000_S1x500000_1_0) : IVec S2x500000 32 → IVec S1x500000 32) arg27) shapeCasts_S1x500000_S500000))))

set_option maxHeartbeats 40000000 in
/-- After the list, from any contents, main_v688 holds that function of the contents. -/
theorem rst12_v688_eq (W : Valuation τ sig (Elt Ideal)) :
    StableHlo.after (st12 (F := Ideal)) W (Proc.devRef .tc main_v688)
      = rst12_v688 (W (Proc.devRef .tc main_v656)) (W (Proc.devRef .tc main_arg27)) := by
  after_results_simp <;> first | rfl | (unfold rst12_v688; rfl)

end Cert.ReferenceIdeal.ValueP

end
-- ==== Proof.RHost13.lean ====
/-
  What single buffers hold after a straight line of host operations, as functions of the buffers the line
  reads: each definition is the operations' own functions composed (their text as the list prints it, read at the
  extended reals), each lemma says the fold of the list at that buffer is that function of the starting contents.
-/
import proofs.«141689_j63058709840619_1_alg».proof.Proof.RefRunP
import proofs.«141689_j63058709840619_1_alg».proof.Proof.Spec
import Idealize.ShloMosaic.Lib.StableHlo.Run

set_option maxRecDepth 8192

noncomputable section

namespace Cert.ReferenceIdeal.ValueP

open Idealize.ShloMosaic Idealize.ShloMosaic.TcCoe Cert.ReferenceIdeal Cert.ReferenceIdeal.Gen Cert.Spec

/-! ## st13: 19 operations -/

/-- Buffer main_v703 as a function of main_v679, main_v688, main_arg18, main_arg19, main_arg20, main_arg21, main_arg22, main_arg23: the operations that build it, composed. -/
def rst13_v703 (v679 : FVec Ideal S500000x150 .f32) (v688 : FVec Ideal S500000x150 .f32) (arg18 : FVec Ideal S300x150 .f32) (arg19 : FVec Ideal S150 .f32) (arg20 : FVec Ideal S150x50 .f32) (arg21 : FVec Ideal S50 .f32) (arg22 : FVec Ideal S50x3 .f32) (arg23 : FVec Ideal S3 .f32) : FVec Ideal S500000x3 .f32 :=
  ((addf (F := Ideal) : FVec Ideal S500000x3 .f32 → FVec Ideal S500000x3 .f32 → FVec Ideal S500000x3 .f32) (((fun l r => Host.dotGeneral (F := Ideal) dot_S500000x50_S50x3_S500000x3_1_0_0_1_n_n none l r) : FVec Ideal S500000x50 .f32 → FVec Ideal S50x3 .f32 → FVec Ideal S500000x3 .f32) ((maximumf (F := Ideal) : FVec Ideal S500000x50 .f32 → FVec Ideal S500000x50 .f32 → FVec Ideal S500000x50 .f32) ((addf (F := Ideal) : FVec Ideal S500000x50 .f32 → FVec Ideal S500000x50 .f32 → FVec Ideal S500000x50 .f32) (((fun l r => Host.dotGeneral (F := Ideal) dot_S500000x150_S150x50_S500000x50_1_0_0_1_n_n none l r) : FVec Ideal S500000x150 .f32 → FVec Ideal S150x50 .f32 → FVec Ideal S500000x50 .f32) ((maximumf (F := Ideal) : FVec Ideal S500000x150 .f32 → FVec Ideal S500000x150 .f32 → FVec Ideal S500000x150 .f32) ((addf (F := Ideal) : FVec Ideal S500000x150 .f32 → FVec Ideal S500000x150 .f32 → FVec Ideal S500000x150 .f32) (((fun l r => Host.dotGeneral (F := Ideal) dot_S500000x300_S300x150_S500000x150_1_0_0_1_n_n none l r) : FVec Ideal S500000x300 .f32 → FVec Ideal S300x150 .f32 → FVec Ideal S500000x150 .f32) (((fun a b => concatenate S500000x300 1 [⟨S500000x150, a⟩, ⟨S500000x150, b⟩] concatenates_S500000x150_S500000x150_S500000x300_d1) : FVec Ideal S500000x150 .f32 → FVec Ideal S500000x150 .f32 → FVec Ideal S500000x300 .f32) v679 v688) arg18) ((broadcastInDim S500000x150 ![0, 1] bcast_S1x150_S500000x150_0_1 : FVec Ideal S1x150 .f32 → FVec Ideal S500000x150 .f32) ((broadcastInDim S1x150 ![1] bcast_S150_S1x150_1 : FVec Ideal S150 .f32 → FVec Ideal S1x150 .f32) arg19))) (((broadcastInDim S500000x150 ![] bcast_S_S500000x150) : FVec Ideal S_ .f32 → FVec Ideal S500000x150 .f32) (constant (F := Ideal) S_ .f32 0x00000000#32))) arg20) ((broadcastInDim S500000x50 ![0, 1] bcast_S1x50_S500000x50_0_1 : FVec Ideal S1x50 .f32 → FVec Ideal S500000x50 .f32) ((broadcastInDim S1x50 ![1] bcast_S50_S1x50_1 : FVec Ideal S50 .f32 → FVec Ideal S1x50 .f32) arg21))) (((broadcastInDim S500000x50 ![] bcast_S_S500000x50) : FVec Ideal S_ .f32 → FVec Ideal S500000x50 .f32) (constant (F := Ideal) S_ .f32 0x00000000#32))) arg22) ((broadcastInDim S500000x3 ![0, 1] bcast_S1x3_S500000x3_0_1 : FVec Ideal S1x3 .f32 → FVec Ideal S500000x3 .f32) ((broadcastInDim S1x3 ![1] bcast_S3_S1x3_1 : FVec Ideal S3 .f32 → FVec Ideal S1x3 .f32) arg23)))

set_option maxHeartbeats 40000000 in
/-- After the list, from any contents, main_v703 holds that function of the contents. -/
theorem rst13_v703_eq (W : Valuation τ sig (Elt Ideal)) :
    StableHlo.after (st13 (F := Ideal)) W (Proc.devRef .tc main_v703)
      = rst13_v703 (W (Proc.devRef .tc main_v679)) (W (Proc.devRef .tc main_v688)) (W (Proc.devRef .tc main_arg18)) (W (Proc.devRef .tc main_arg19)) (W (Proc.devRef .tc main_arg20)) (W (Proc.devRef .tc main_arg21)) (W (Proc.devRef .tc main_arg22)) (W (Proc.devRef .tc main_arg23)) := by
  after_results_simp <;> first | rfl | (unfold rst13_v703; rfl)

end Cert.ReferenceIdeal.ValueP

end
-- ==== Proof.RefLayerInst.lean ====
/-
  The readings of the reference's host operations (a product with one contracted axis is the row-by-column product; a
  row copied to every row is the row read at the column; their sum is a dense layer; the maximum with the all-zero
  array is the clip below at zero), stated at each of the reference's own records.
-/
import proofs.«141689_j63058709840619_1_alg».proof.Proof.RefLayer

noncomputable section

namespace Cert.ReferenceIdeal.RefValue

open Idealize.ShloMosaic Idealize.ShloMosaic.ValueIdx Cert.ReferenceIdeal Cert.Spec

variable [Facts₀]
open Facts₀

/-- Each host product of the reference is the row-by-column product. -/
theorem ref_mm_50000x768x150 (x : Mat 50000 768) (w : Mat 768 150) :
    Host.dotGeneral (F := Ideal) dot_S50000x768_S768x150_S50000x150_1_0_0_1_n_n none x w = mm x w :=
  dotGeneral_eq_mm _ rfl x w
theorem ref_mm_2000x768x150 (x : Mat 2000 768) (w : Mat 768 150) :
    Host.dotGeneral (F := Ideal) dot_S2000x768_S768x150_S2000x150_1_0_0_1_n_n none x w = mm x w :=
  dotGeneral_eq_mm _ rfl x w
theorem ref_mm_20000x1024x150 (x : Mat 20000 1024) (w : Mat 1024 150) :
    Host.dotGeneral (F := Ideal) dot_S20000x1024_S1024x150_S20000x150_1_0_0_1_n_n none x w = mm x w :=
  dotGeneral_eq_mm _ rfl x w
theorem ref_mm_50000x150x150 (x : Mat 50000 150) (w : Mat 150 150) :
    Host.dotGeneral (F := Ideal) dot_S50000x150_S150x150_S50000x150_1_0_0_1_n_n none x w = mm x w :=
  dotGeneral_eq_mm _ rfl x w
theorem ref_mm_2000x150x150 (x : Mat 2000 150) (w : Mat 150 150) :
    Host.dotGeneral (F := Ideal) dot_S2000x150_S150x150_S2000x150_1_0_0_1_n_n none x w = mm x w :=
  dotGeneral_eq_mm _ rfl x w
theorem ref_mm_20000x150x150 (x : Mat 20000 150) (w : Mat 150 150) :
    Host.dotGeneral (F := Ideal) dot_S20000x150_S150x150_S20000x150_1_0_0_1_n_n none x w = mm x w :=
  dotGeneral_eq_mm _ rfl x w
theorem ref_mm_50000x768x300 (x : Mat 50000 768) (w : Mat 768 300) :
    Host.dotGeneral (F := Ideal) dot_S50000x768_S768x300_S50000x300_1_0_0_1_n_n none x w = mm x w :=
  dotGeneral_eq_mm _ rfl x w
theorem ref_mm_50000x300x200 (x : Mat 50000 300) (w : Mat 300 200) :
    Host.dotGeneral (F := Ideal) dot_S50000x300_S300x200_S50000x200_1_0_0_1_n_n none x w = mm x w :=
  dotGeneral_eq_mm _ rfl x w
theorem ref_mm_50000x200x150 (x : Mat 50000 200) (w : Mat 200 150) :
    Host.dotGeneral (F := Ideal) dot_S50000x200_S200x150_S50000x150_1_0_0_1_n_n none x w = mm x w :=
  dotGeneral_eq_mm _ rfl x w
theorem ref_mm_500000x300x150 (x : Mat 500000 300) (w : Mat 300 150) :
    Host.dotGeneral (F := Ideal) dot_S500000x300_S300x150_S500000x150_1_0_0_1_n_n none x w = mm x w :=
  dotGeneral_eq_mm _ rfl x w
theorem ref_mm_500000x150x50 (x : Mat 500000 150) (w : Mat 150 50) :
    Host.dotGeneral (F := Ideal) dot_S500000x150_S150x50_S500000x50_1_0_0_1_n_n none x w = mm x w :=
  dotGeneral_eq_mm _ rfl x w
theorem ref_mm_500000x50x3 (x : Mat 500000 50) (w : Mat 50 3) :
    Host.dotGeneral (F := Ideal) dot_S500000x50_S50x3_S500000x3_1_0_0_1_n_n none x w = mm x w :=
  dotGeneral_eq_mm _ rfl x w

/-- Each bias of the reference, copied to a one-row matrix and then to every row, is the row read at the column. -/
theorem ref_bias_50000x150 (b : Row 150) :
    broadcastInDim S50000x150 ![0, 1] bcast_S1x150_S50000x150_0_1 (broadcastInDim S1x150 ![1] bcast_S150_S1x150_1 b)
      = fun i => b (ix1 (i 1)) :=
  bcast_row_eq _ _ b
theorem ref_bias_2000x150 (b : Row 150) :
    broadcastInDim S2000x150 ![0, 1] bcast_S1x150_S2000x150_0_1 (broadcastInDim S1x150 ![1] bcast_S150_S1x150_1 b)
      = fun i => b (ix1 (i 1)) :=
  bcast_row_eq _ _ b
theorem ref_bias_20000x150 (b : Row 150) :
    broadcastInDim S20000x150 ![0, 1] bcast_S1x150_S20000x150_0_1 (broadcastInDim S1x150 ![1] bcast_S150_S1x150_1 b)
      = fun i => b (ix1 (i 1)) :=
  bcast_row_eq _ _ b
theorem ref_bias_50000x300 (b : Row 300) :
    broadcastInDim S50000x300 ![0, 1] bcast_S1x300_S50000x300_0_1 (broadcastInDim S1x300 ![1] bcast_S300_S1x300_1 b)
      = fun i => b (ix1 (i 1)) :=
  bcast_row_eq _ _ b
theorem ref_bias_50000x200 (b : Row 200) :
    broadcastInDim S50000x200 ![0, 1] bcast_S1x200_S50000x200_0_1 (broadcastInDim S1x200 ![1] bcast_S200_S1x200_1 b)
      = fun i => b (ix1 (i 1)) :=
  bcast_row_eq _ _ b
theorem ref_bias_500000x150 (b : Row 150) :
    broadcastInDim S500000x150 ![0, 1] bcast_S1x150_S500000x150_0_1 (broadcastInDim S1x150 ![1] bcast_S150_S1x150_1 b)
      = fun i => b (ix1 (i 1)) :=
  bcast_row_eq _ _ b
theorem ref_bias_500000x50 (b : Row 50) :
    broadcastInDim S500000x50 ![0, 1] bcast_S1x50_S500000x50_0_1 (broadcastInDim S1x50 ![1] bcast_S50_S1x50_1 b)
      = fun i => b (ix1 (i 1)) :=
  bcast_row_eq _ _ b
theorem ref_bias_500000x3 (b : Row 3) :
    broadcastInDim S500000x3 ![0, 1] bcast_S1x3_S500000x3_0_1 (broadcastInDim S1x3 ![1] bcast_S3_S1x3_1 b)
      = fun i => b (ix1 (i 1)) :=
  bcast_row_eq _ _ b

/-- Each host product plus its bias is the dense layer. -/
theorem ref_lin_50000x768x150 (x : Mat 50000 768) (w : Mat 768 150) (b : Row 150) :
    addf (Host.dotGeneral (F := Ideal) dot_S50000x768_S768x150_S50000x150_1_0_0_1_n_n none x w)
      (broadcastInDim S50000x150 ![0, 1] bcast_S1x150_S50000x150_0_1 (broadcastInDim S1x150 ![1] bcast_S150_S1x150_1 b))
      = lin x w b :=
  dot_add_eq_lin _ rfl _ _ x w b
theorem ref_lin_2000x768x150 (x : Mat 2000 768) (w : Mat 768 150) (b : Row 150) :
    addf (Host.dotGeneral (F := Ideal) dot_S2000x768_S768x150_S2000x150_1_0_0_1_n_n none x w)
      (broadcastInDim S2000x150 ![0, 1] bcast_S1x150_S2000x150_0_1 (broadcastInDim S1x150 ![1] bcast_S150_S1x150_1 b))
      = lin x w b :=
  dot_add_eq_lin _ rfl _ _ x w b
theorem ref_lin_20000x1024x150 (x : Mat 20000 1024) (w : Mat 1024 150) (b : Row 150) :
    addf (Host.dotGeneral (F := Ideal) dot_S20000x1024_S1024x150_S20000x150_1_0_0_1_n_n none x w)
      (broadcastInDim S20000x150 ![0, 1] bcast_S1x150_S20000x150_0_1 (broadcastInDim S1x150 ![1] bcast_S150_S1x150_1 b))
      = lin x w b :=
  dot_add_eq_lin _ rfl _ _ x w b
theorem ref_lin_50000x150x150 (x : Mat 50000 150) (w : Mat 150 150) (b : Row 150) :
    addf (Host.dotGeneral (F := Ideal) dot_S50000x150_S150x150_S50000x150_1_0_0_1_n_n none x w)
      (broadcastInDim S50000x150 ![0, 1] bcast_S1x150_S50000x150_0_1 (broadcastInDim S1x150 ![1] bcast_S150_S1x150_1 b))
      = lin x w b :=
  dot_add_eq_lin _ rfl _ _ x w b
theorem ref_lin_2000x150x150 (x : Mat 2000 150) (w : Mat 150 150) (b : Row 150) :
    addf (Host.dotGeneral (F := Ideal) dot_S2000x150_S150x150_S2000x150_1_0_0_1_n_n none x w)
      (broadcastInDim S2000x150 ![0, 1] bcast_S1x150_S2000x150_0_1 (broadcastInDim S1x150 ![1] bcast_S150_S1x150_1 b))
      = lin x w b :=
  dot_add_eq_lin _ rfl _ _ x w b
theorem ref_lin_20000x150x150 (x : Mat 20000 150) (w : Mat 150 150) (b : Row 150) :
    addf (Host.dotGeneral (F := Ideal) dot_S20000x150_S150x150_S20000x150_1_0_0_1_n_n none x w)
      (broadcastInDim S20000x150 ![0, 1] bcast_S1x150_S20000x150_0_1 (broadcastInDim S1x150 ![1] bcast_S150_S1x150_1 b))
      = lin x w b :=
  dot_add_eq_lin _ rfl _ _ x w b
theorem ref_lin_50000x768x300 (x : Mat 50000 768) (w : Mat 768 300) (b : Row 300) :
    addf (Host.dotGeneral (F := Ideal) dot_S50000x768_S768x300_S50000x300_1_0_0_1_n_n none x w)
      (broadcastInDim S50000x300 ![0, 1] bcast_S1x300_S50000x300_0_1 (broadcastInDim S1x300 ![1] bcast_S300_S1x300_1 b))
      = lin x w b :=
  dot_add_eq_lin _ rfl _ _ x w b
theorem ref_lin_50000x300x200 (x : Mat 50000 300) (w : Mat 300 200) (b : Row 200) :
    addf (Host.dotGeneral (F := Ideal) dot_S50000x300_S300x200_S50000x200_1_0_0_1_n_n none x w)
      (broadcastInDim S50000x200 ![0, 1] bcast_S1x200_S50000x200_0_1 (broadcastInDim S1x200 ![1] bcast_S200_S1x200_1 b))
      = lin x w b :=
  dot_add_eq_lin _ rfl _ _ x w b
theorem ref_lin_50000x200x150 (x : Mat 50000 200) (w : Mat 200 150) (b : Row 150) :
    addf (Host.dotGeneral (F := Ideal) dot_S50000x200_S200x150_S50000x150_1_0_0_1_n_n none x w)
      (broadcastInDim S50000x150 ![0, 1] bcast_S1x150_S50000x150_0_1 (broadcastInDim S1x150 ![1] bcast_S150_S1x150_1 b))
      = lin x w b :=
  dot_add_eq_lin _ rfl _ _ x w b
theorem ref_lin_500000x300x150 (x : Mat 500000 300) (w : Mat 300 150) (b : Row 150) :
    addf (Host.dotGeneral (F := Ideal) dot_S500000x300_S300x150_S500000x150_1_0_0_1_n_n none x w)
      (broadcastInDim S500000x150 ![0, 1] bcast_S1x150_S500000x150_0_1 (broadcastInDim S1x150 ![1] bcast_S150_S1x150_1 b))
      = lin x w b :=
  dot_add_eq_lin _ rfl _ _ x w b
theorem ref_lin_500000x150x50 (x : Mat 500000 150) (w : Mat 150 50) (b : Row 50) :
    addf (Host.dotGeneral (F := Ideal) dot_S500000x150_S150x50_S500000x50_1_0_0_1_n_n none x w)
      (broadcastInDim S500000x50 ![0, 1] bcast_S1x50_S500000x50_0_1 (broadcastInDim S1x50 ![1] bcast_S50_S1x50_1 b))
      = lin x w b :=
  dot_add_eq_lin _ rfl _ _ x w b
theorem ref_lin_500000x50x3 (x : Mat 500000 50) (w : Mat 50 3) (b : Row 3) :
    addf (Host.dotGeneral (F := Ideal) dot_S500000x50_S50x3_S500000x3_1_0_0_1_n_n none x w)
      (broadcastInDim S500000x3 ![0, 1] bcast_S1x3_S500000x3_0_1 (broadcastInDim S1x3 ![1] bcast_S3_S1x3_1 b))
      = lin x w b :=
  dot_add_eq_lin _ rfl _ _ x w b

/-- Each maximum with the all-zero array is the clip below at zero. -/
theorem ref_relu_50000x150 (y : Mat 50000 150) :
    maximumf y (broadcastInDim S50000x150 ![] bcast_S_S50000x150 (constant (F := Ideal) S_ .f32 0x00000000#32)) = relu y :=
  max_zero_eq_relu _ y
theorem ref_relu_2000x150 (y : Mat 2000 150) :
    maximumf y (broadcastInDim S2000x150 ![] bcast_S_S2000x150 (constant (F := Ideal) S_ .f32 0x00000000#32)) = relu y :=
  max_zero_eq_relu _ y
theorem ref_relu_20000x150 (y : Mat 20000 150) :
    maximumf y (broadcastInDim S20000x150 ![] bcast_S_S20000x150 (constant (F := Ideal) S_ .f32 0x00000000#32)) = relu y :=
  max_zero_eq_relu _ y
theorem ref_relu_50000x300 (y : Mat 50000 300) :
    maximumf y (broadcastInDim S50000x300 ![] bcast_S_S50000x300 (constant (F := Ideal) S_ .f32 0x00000000#32)) = relu y :=
  max_zero_eq_relu _ y
theorem ref_relu_50000x200 (y : Mat 50000 200) :
    maximumf y (broadcastInDim S50000x200 ![] bcast_S_S50000x200 (constant (F := Ideal) S_ .f32 0x00000000#32)) = relu y :=
  max_zero_eq_relu _ y
theorem ref_relu_500000x150 (y : Mat 500000 150) :
    maximumf y (broadcastInDim S500000x150 ![] bcast_S_S500000x150 (constant (F := Ideal) S_ .f32 0x00000000#32)) = relu y :=
  max_zero_eq_relu _ y
theorem ref_relu_500000x50 (y : Mat 500000 50) :
    maximumf y (broadcastInDim S500000x50 ![] bcast_S_S500000x50 (constant (F := Ideal) S_ .f32 0x00000000#32)) = relu y :=
  max_zero_eq_relu _ y

end Cert.ReferenceIdeal.RefValue

end
-- ==== Proof.RStageTail.lean ====
/-
  From the last graph layer to the result, on the reference's side. The last two chunks of the reference's operations
  are the node classifier on the first input (three dense layers, the first two clipped below at zero), the two gathers
  of rows along the labelled edges (the classifier's rows of the sources, the last graph layer's rows of the targets),
  their concatenate and the edge classifier (three dense layers, the first two clipped). Read with the specification's
  dense layer and clip, and with every argument array at its launch contents (no operation writes an argument), this
  is the model's composition: if the buffer of the last graph layer holds the model's matrix, the result buffer holds
  the model's output.
-/
import proofs.«141689_j63058709840619_1_alg».proof.Proof.RVals
import proofs.«141689_j63058709840619_1_alg».proof.Proof.RHost12
import proofs.«141689_j63058709840619_1_alg».proof.Proof.RHost13
import proofs.«141689_j63058709840619_1_alg».proof.Proof.Model
import proofs.«141689_j63058709840619_1_alg».proof.Proof.RefLayerInst
import Idealize.ShloMosaic.Lib.Pipeline.Frame

set_option maxRecDepth 8192

noncomputable section

namespace Cert.ReferenceIdeal.ValueP

open Cert.ReferenceIdeal Cert.ReferenceIdeal.Gen Idealize.ShloMosaic Idealize.ShloMosaic.TcCoe Idealize.SL.Sem Idealize.ShloMosaic.StableHlo Cert.Spec
open Cert.ReferenceIdeal.RefValue

/-- The tail of the network as the reference prints it — the node classifier, the two gathers along the labelled edges,
    the concatenate and the edge classifier — is the same composition in the specification's dense layers and clips,
    with the gathered and concatenated edge features in the kernel program's form. -/
theorem tail_core (x : Mat 50000 768) (cW1 : Mat 768 300) (cb1 : Row 300) (cW2 : Mat 300 200) (cb2 : Row 200)
    (cW3 : Mat 200 150) (cb3 : Row 150) (y : Mat 20000 150) (e : IVec (⟨2, ![2, 500000]⟩ : Shape) 32)
    (hW1 : Mat 300 150) (hb1 : Row 150) (hW2 : Mat 150 50) (hb2 : Row 50) (hW3 : Mat 50 3) (hb3 : Row 3) :
    rst13_v703 (rst12_v679 x cW1 cb1 cW2 cb2 cW3 cb3 e) (rst12_v688 y e) hW1 hb1 hW2 hb2 hW3 hb3
      = lin (relu (lin (relu (lin (Cert.KernelIdeal.Val.kh13_v464 (lin (relu (lin (relu (lin x cW1 cb1)) cW2 cb2)) cW3 cb3) y e)
          hW1 hb1)) hW2 hb2)) hW3 hb3 := by
  unfold rst13_v703 rst12_v679 rst12_v688
  beta_reduce
  rw [ref_lin_50000x768x300, ref_relu_50000x300, ref_lin_50000x300x200, ref_relu_50000x200, ref_lin_50000x200x150,
    ref_lin_500000x300x150, ref_relu_500000x150, ref_lin_500000x150x50, ref_relu_500000x50, ref_lin_500000x50x3]
  rfl

variable (m' : (ℓ : Loc nD τ sig) → Buf (Elt Ideal) ℓ)

/-! ## The contents before the last two chunks, and before the last, as one fold from the launch contents -/

/-- The operations before the last two chunks, and before the last. -/
abbrev tail_pre12 : List (HloOp τ sig (Elt Ideal)) := st0 (F := Ideal) ++ st1 ++ st2 ++ st3 ++ st4 ++ st5 ++ st6 ++ st7 ++ st8 ++ st9 ++ st10 ++ st11
abbrev tail_pre13 : List (HloOp τ sig (Elt Ideal)) := tail_pre12 ++ st12

theorem tail_RV12_eq (c : Dev nD) : RV12 m' c = StableHlo.after tail_pre12 (launchContents m' c) := by
  unfold RV12 RV11 RV10 RV9 RV8 RV7 RV6 RV5 RV4 RV3 RV2 RV1 RV0
  show _ = StableHlo.after (st0 (F := Ideal) ++ st1 ++ st2 ++ st3 ++ st4 ++ st5 ++ st6 ++ st7 ++ st8 ++ st9 ++ st10 ++ st11) _
  rw [StableHlo.after_append, StableHlo.after_append, StableHlo.after_append, StableHlo.after_append, StableHlo.after_append,
    StableHlo.after_append, StableHlo.after_append, StableHlo.after_append, StableHlo.after_append, StableHlo.after_append,
    StableHlo.after_append]

theorem tail_RV13_eq (c : Dev nD) : RV13 m' c = StableHlo.after tail_pre13 (launchContents m' c) := by
  show StableHlo.after (st12 (F := Ideal)) (RV12 m' c) = StableHlo.after (tail_pre12 ++ st12) _
  rw [StableHlo.after_append, tail_RV12_eq]

/-- A buffer none of the first twelve chunks writes holds its launch contents before the last two chunks. -/
theorem tail_at12 (c : Dev nD) (b : Ref sig .tc) (h : ∀ op ∈ tail_pre12, Proc.devRef (τ := τ) .tc b ∉ op.writes) :
    RV12 m' c (Proc.devRef .tc b) = m' ((c.tc : Thread nD τ).loc b) := by
  rw [tail_RV12_eq, StableHlo.after_of_forall_not_mem _ _ h]

/-- A buffer none of the first thirteen chunks writes holds its launch contents before the last chunk. -/
theorem tail_at13 (c : Dev nD) (b : Ref sig .tc) (h : ∀ op ∈ tail_pre13, Proc.devRef (τ := τ) .tc b ∉ op.writes) :
    RV13 m' c (Proc.devRef .tc b) = m' ((c.tc : Thread nD τ).loc b) := by
  rw [tail_RV13_eq, StableHlo.after_of_forall_not_mem _ _ h]

/-- From the last graph layer to the result: if before the last two chunks the buffer of the last layer's output holds
    the model's matrix, then after the last chunk the result buffer holds the model's output. -/
theorem r_OUT_of (c : Dev nD) (a : ArgVals) (hr : RHolds m' c a)
    (hxp3 : RV12 m' c (Proc.devRef .tc main_v656) = Cert.KernelIdeal.Val.XP3 a) :
    RV14 m' c (Proc.devRef .tc main_v703) = Cert.KernelIdeal.Val.OUT a := by
  -- the arguments the last two chunks read, at their launch contents
  have g0 := (tail_at12 m' c main_arg0 (by decide +kernel)).trans hr.h0
  have g12 := (tail_at12 m' c main_arg12 (by decide +kernel)).trans hr.h12
  have g13 := (tail_at12 m' c main_arg13 (by decide +kernel)).trans hr.h13
  have g14 := (tail_at12 m' c main_arg14 (by decide +kernel)).trans hr.h14
  have g15 := (tail_at12 m' c main_arg15 (by decide +kernel)).trans hr.h15
  have g16 := (tail_at12 m' c main_arg16 (by decide +kernel)).trans hr.h16
  have g17 := (tail_at12 m' c main_arg17 (by decide +kernel)).trans hr.h17
  have g27 := (tail_at12 m' c main_arg27 (by decide +kernel)).trans hr.h27
  have g18 := (tail_at13 m' c main_arg18 (by decide +kernel)).trans hr.h18
  have g19 := (tail_at13 m' c main_arg19 (by decide +kernel)).trans hr.h19
  have g20 := (tail_at13 m' c main_arg20 (by decide +kernel)).trans hr.h20
  have g21 := (tail_at13 m' c main_arg21 (by decide +kernel)).trans hr.h21
  have g22 := (tail_at13 m' c main_arg22 (by decide +kernel)).trans hr.h22
  have g23 := (tail_at13 m' c main_arg23 (by decide +kernel)).trans hr.h23
  -- the two buffers the thirteenth chunk hands to the last
  have h679 : RV13 m' c (Proc.devRef .tc main_v679)
      = rst12_v679 a.x_lnc a.cW1 a.cb1 a.cW2 a.cb2 a.cW3 a.cb3 a.e_lbl := by
    have k := rst12_v679_eq (RV12 m' c)
    rw [g0, g12, g13, g14, g15, g16, g17, g27] at k
    exact k
  have h688 : RV13 m' c (Proc.devRef .tc main_v688) = rst12_v688 (Cert.KernelIdeal.Val.XP3 a) a.e_lbl := by
    have k := rst12_v688_eq (RV12 m' c)
    rw [hxp3, g27] at k
    exact k
  have k := rst13_v703_eq (RV13 m' c)
  rw [h679, h688, g18, g19, g20, g21, g22, g23] at k
  exact k.trans (tail_core _ _ _ _ _ _ _ _ _ _ _ _ _ _ _)

end Cert.ReferenceIdeal.ValueP

end
-- ==== Proof.lean ====
/- The kernel and its reference compute the same network: three input projections, three rounds of neighbourhood
   means combined per node type, a node classifier, and an edge classifier over gathered node features. Every dense
   layer is the same row-by-column product plus bias on both sides; the one difference of arrangement is the
   combine, where the kernel adds the two root-weight matrices and the two biases before multiplying and the
   reference adds the two finished convolutions: equal because every feature matrix met on the way is finite
   (sums, products, maxima with zero, gathers, accumulating scatters and quotients by counts clipped at one keep
   finiteness), which is where the precondition is used. Each program's result is shown to be the model's output of
   the argument arrays; the kernel's frames are its launch over the segments, the reference's frame is the fold of
   its operations, which writes no argument. -/
import proofs.«141689_j63058709840619_1_alg».proof.Defs
import proofs.«141689_j63058709840619_1_alg».proof.Proof.FrameK
import proofs.«141689_j63058709840619_1_alg».proof.Proof.FrameKI
import proofs.«141689_j63058709840619_1_alg».proof.Proof.Launch
import proofs.«141689_j63058709840619_1_alg».proof.Proof.RefRunP
import proofs.«141689_j63058709840619_1_alg».proof.Proof.RefKept
import proofs.«141689_j63058709840619_1_alg».proof.Proof.PreFin
import proofs.«141689_j63058709840619_1_alg».proof.Proof.ModelFin
import proofs.«141689_j63058709840619_1_alg».proof.Proof.KStage4
import proofs.«141689_j63058709840619_1_alg».proof.Proof.RStage
import proofs.«141689_j63058709840619_1_alg».proof.Proof.RStageTail
import proofs.«141689_j63058709840619_1_alg».proof.Proof.Gen.Kernel
import proofs.«141689_j63058709840619_1_alg».proof.Proof.Gen.KernelIdeal
import proofs.«141689_j63058709840619_1_alg».proof.Proof.Gen.ReferenceIdeal
import proofs.«141689_j63058709840619_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem Cert.Spec

theorem frame_k : Cert.frame_Kernel := fun m ρ _ => Cert.Kernel.GenP.frame m ρ

theorem frame_ki : Cert.frame_KernelIdeal := fun m ρ _ => Cert.KernelIdeal.GenP.frame m ρ

/-- The reference terminates with every argument as launched: its operations write none of them. -/
theorem frame_ri : Cert.frame_ReferenceIdeal := fun m ρ _ =>
  (θ_run Cert.ReferenceIdeal.defs _ _).mono (fun r h c =>
    ⟨(h c Cert.ReferenceIdeal.main_arg0).trans (Cert.ReferenceIdeal.ValueP.kept0 m c),
     (h c Cert.ReferenceIdeal.main_arg1).trans (Cert.ReferenceIdeal.ValueP.kept1 m c),
     (h c Cert.ReferenceIdeal.main_arg2).trans (Cert.ReferenceIdeal.ValueP.kept2 m c),
     (h c Cert.ReferenceIdeal.main_arg3).trans (Cert.ReferenceIdeal.ValueP.kept3 m c),
     (h c Cert.ReferenceIdeal.main_arg4).trans (Cert.ReferenceIdeal.ValueP.kept4 m c),
     (h c Cert.ReferenceIdeal.main_arg5).trans (Cert.ReferenceIdeal.ValueP.kept5 m c),
     (h c Cert.ReferenceIdeal.main_arg6).trans (Cert.ReferenceIdeal.ValueP.kept6 m c),
     (h c Cert.ReferenceIdeal.main_arg7).trans (Cert.ReferenceIdeal.ValueP.kept7 m c),
     (h c Cert.ReferenceIdeal.main_arg8).trans (Cert.ReferenceIdeal.ValueP.kept8 m c),
     (h c Cert.ReferenceIdeal.main_arg9).trans (Cert.ReferenceIdeal.ValueP.kept9 m c),
     (h c Cert.ReferenceIdeal.main_arg10).trans (Cert.ReferenceIdeal.ValueP.kept10 m c),
     (h c Cert.ReferenceIdeal.main_arg11).trans (Cert.ReferenceIdeal.ValueP.kept11 m c),
     (h c Cert.ReferenceIdeal.main_arg12).trans (Cert.ReferenceIdeal.ValueP.kept12 m c),
     (h c Cert.ReferenceIdeal.main_arg13).trans (Cert.ReferenceIdeal.ValueP.kept13 m c),
     (h c Cert.ReferenceIdeal.main_arg14).trans (Cert.ReferenceIdeal.ValueP.kept14 m c),
     (h c Cert.ReferenceIdeal.main_arg15).trans (Cert.ReferenceIdeal.ValueP.kept15 m c),
     (h c Cert.ReferenceIdeal.main_arg16).trans (Cert.ReferenceIdeal.ValueP.kept16 m c),
     (h c Cert.ReferenceIdeal.main_arg17).trans (Cert.ReferenceIdeal.ValueP.kept17 m c),
     (h c Cert.ReferenceIdeal.main_arg18).trans (Cert.ReferenceIdeal.ValueP.kept18 m c),
     (h c Cert.ReferenceIdeal.main_arg19).trans (Cert.ReferenceIdeal.ValueP.kept19 m c),
     (h c Cert.ReferenceIdeal.main_arg20).trans (Cert.ReferenceIdeal.ValueP.kept20 m c),
     (h c Cert.ReferenceIdeal.main_arg21).trans (Cert.ReferenceIdeal.ValueP.kept21 m c),
     (h c Cert.ReferenceIdeal.main_arg22).trans (Cert.ReferenceIdeal.ValueP.kept22 m c),
     (h c Cert.ReferenceIdeal.main_arg23).trans (Cert.ReferenceIdeal.ValueP.kept23 m c),
     (h c Cert.ReferenceIdeal.main_arg24).trans (Cert.ReferenceIdeal.ValueP.kept24 m c),
     (h c Cert.ReferenceIdeal.main_arg25).trans (Cert.ReferenceIdeal.ValueP.kept25 m c),
     (h c Cert.ReferenceIdeal.main_arg26).trans (Cert.ReferenceIdeal.ValueP.kept26 m c),
     (h c Cert.ReferenceIdeal.main_arg27).trans (Cert.ReferenceIdeal.ValueP.kept27 m c)⟩)
    (Cert.ReferenceIdeal.ValueP.ref_run (F := Ideal) m ρ)

theorem preserves : Cert.preserves_Kernel_KernelIdeal := trivial

/-- Both results are the model's output of the argument arrays the two memories share. -/
theorem algebraic : Cert.algebraic_KernelIdeal_ReferenceIdeal := by
  intro m ρ m' ρ' hpre hag
  refine ⟨fun c => Cert.KernelIdeal.GenP.W32 m ρ c (Proc.devRef .tc Cert.KernelIdeal.main_v470), Cert.KernelIdeal.Val.run_out m ρ, ?_⟩
  refine (θ_run Cert.ReferenceIdeal.defs _ _).mono (fun r h c => ?_) (Cert.ReferenceIdeal.ValueP.ref_run (F := Ideal) m' ρ')
  -- the argument arrays, as the kernel's memory holds them
  let a : Cert.ArgVals := ⟨m ((c.tc : Thread Cert.KernelIdeal.nD Cert.KernelIdeal.τ).loc Cert.KernelIdeal.main_arg0),
    m ((c.tc : Thread Cert.KernelIdeal.nD Cert.KernelIdeal.τ).loc Cert.KernelIdeal.main_arg1),
    m ((c.tc : Thread Cert.KernelIdeal.nD Cert.KernelIdeal.τ).loc Cert.KernelIdeal.main_arg2),
    m ((c.tc : Thread Cert.KernelIdeal.nD Cert.KernelIdeal.τ).loc Cert.KernelIdeal.main_arg3),
    m ((c.tc : Thread Cert.KernelIdeal.nD Cert.KernelIdeal.τ).loc Cert.KernelIdeal.main_arg4),
    m ((c.tc : Thread Cert.KernelIdeal.nD Cert.KernelIdeal.τ).loc Cert.KernelIdeal.main_arg5),
    m ((c.tc : Thread Cert.KernelIdeal.nD Cert.KernelIdeal.τ).loc Cert.KernelIdeal.main_arg6),
    m ((c.tc : Thread Cert.KernelIdeal.nD Cert.KernelIdeal.τ).loc Cert.KernelIdeal.main_arg7),
    m ((c.tc : Thread Cert.KernelIdeal.nD Cert.KernelIdeal.τ).loc Cert.KernelIdeal.main_arg8),
    m ((c.tc : Thread Cert.KernelIdeal.nD Cert.KernelIdeal.τ).loc Cert.KernelIdeal.main_arg9),
    m ((c.tc : Thread Cert.KernelIdeal.nD Cert.KernelIdeal.τ).loc Cert.KernelIdeal.main_arg10),
    m ((c.tc : Thread Cert.KernelIdeal.nD Cert.KernelIdeal.τ).loc Cert.KernelIdeal.main_arg11),
    m ((c.tc : Thread Cert.KernelIdeal.nD Cert.KernelIdeal.τ).loc Cert.KernelIdeal.main_arg12),
    m ((c.tc : Thread Cert.KernelIdeal.nD Cert.KernelIdeal.τ).loc Cert.KernelIdeal.main_arg13),
    m ((c.tc : Thread Cert.KernelIdeal.nD Cert.KernelIdeal.τ).loc Cert.KernelIdeal.main_arg14),
    m ((c.tc : Thread Cert.KernelIdeal.nD Cert.KernelIdeal.τ).loc Cert.KernelIdeal.main_arg15),
    m ((c.tc : Thread Cert.KernelIdeal.nD Cert.KernelIdeal.τ).loc Cert.KernelIdeal.main_arg16),
    m ((c.tc : Thread Cert.KernelIdeal.nD Cert.KernelIdeal.τ).loc Cert.KernelIdeal.main_arg17),
    m ((c.tc : Thread Cert.KernelIdeal.nD Cert.KernelIdeal.τ).loc Cert.KernelIdeal.main_arg18),
    m ((c.tc : Thread Cert.KernelIdeal.nD Cert.KernelIdeal.τ).loc Cert.KernelIdeal.main_arg19),
    m ((c.tc : Thread Cert.KernelIdeal.nD Cert.KernelIdeal.τ).loc Cert.KernelIdeal.main_arg20),
    m ((c.tc : Thread Cert.KernelIdeal.nD Cert.KernelIdeal.τ).loc Cert.KernelIdeal.main_arg21),
    m ((c.tc : Thread Cert.KernelIdeal.nD Cert.KernelIdeal.τ).loc Cert.KernelIdeal.main_arg22),
    m ((c.tc : Thread Cert.KernelIdeal.nD Cert.KernelIdeal.τ).loc Cert.KernelIdeal.main_arg23),
    m ((c.tc : Thread Cert.KernelIdeal.nD Cert.KernelIdeal.τ).loc Cert.KernelIdeal.main_arg24),
    m ((c.tc : Thread Cert.KernelIdeal.nD Cert.KernelIdeal.τ).loc Cert.KernelIdeal.main_arg25),
    m ((c.tc : Thread Cert.KernelIdeal.nD Cert.KernelIdeal.τ).loc Cert.KernelIdeal.main_arg26),
    m ((c.tc : Thread Cert.KernelIdeal.nD Cert.KernelIdeal.τ).loc Cert.KernelIdeal.main_arg27)⟩
  have hk : Cert.KHolds m c a := ⟨rfl, rfl, rfl, rfl, rfl, rfl, rfl, rfl, rfl, rfl, rfl, rfl, rfl, rfl, rfl, rfl, rfl, rfl, rfl, rfl, rfl, rfl, rfl, rfl, rfl, rfl, rfl, rfl⟩
  obtain ⟨g0, g1, g2, g3, g4, g5, g6, g7, g8, g9, g10, g11, g12, g13, g14, g15, g16, g17, g18, g19, g20, g21, g22, g23, g24, g25, g26, g27⟩ := hag c
  have hr : Cert.RHolds m' c a := ⟨g0, g1, g2, g3, g4, g5, g6, g7, g8, g9, g10, g11, g12, g13, g14, g15, g16, g17, g18, g19, g20, g21, g22, g23, g24, g25, g26, g27⟩
  obtain ⟨p0, p1, p2, p3, p4, p5, p6, p7, p8, p9, p10, p11, p12, p13, p14, p15, p16, p17, p18, p19, p20, p21, p22, p23⟩ := Cert.PreFin.fin_of_pre _ _ _ _ _ _ _ _ _ _ _ _ _ _ _ _ _ _ _ _ _ _ _ _ _ _ _ _ (hpre c)
  have hf : Cert.KernelIdeal.Val.AFin a := ⟨p0, p1, p2, p3, p4, p5, p6, p7, p8, p9, p10, p11, p12, p13, p14, p15, p16, p17, p18, p19, p20, p21, p22, p23⟩
  have hout : Cert.ReferenceIdeal.ValueP.RV14 m' c (Proc.devRef .tc Cert.ReferenceIdeal.main_v703)
      = Cert.KernelIdeal.GenP.W32 m ρ c (Proc.devRef .tc Cert.KernelIdeal.main_v470) :=
    (Cert.ReferenceIdeal.ValueP.r_OUT_of m' c a hr (Cert.ReferenceIdeal.ValueP.r_XP3 m' c a hr hf)).trans (Cert.KernelIdeal.Val.k_OUT m ρ c a hk).symm
  exact ⟨(h c Cert.ReferenceIdeal.main_v703).trans ((congrFun (Cert.ReferenceIdeal.ValueP.fold_eq m' c) _).trans hout),
     (h c Cert.ReferenceIdeal.main_arg0).trans (Cert.ReferenceIdeal.ValueP.kept0 m' c),
     (h c Cert.ReferenceIdeal.main_arg1).trans (Cert.ReferenceIdeal.ValueP.kept1 m' c),
     (h c Cert.ReferenceIdeal.main_arg2).trans (Cert.ReferenceIdeal.ValueP.kept2 m' c),
     (h c Cert.ReferenceIdeal.main_arg3).trans (Cert.ReferenceIdeal.ValueP.kept3 m' c),
     (h c Cert.ReferenceIdeal.main_arg4).trans (Cert.ReferenceIdeal.ValueP.kept4 m' c),
     (h c Cert.ReferenceIdeal.main_arg5).trans (Cert.ReferenceIdeal.ValueP.kept5 m' c),
     (h c Cert.ReferenceIdeal.main_arg6).trans (Cert.ReferenceIdeal.ValueP.kept6 m' c),
     (h c Cert.ReferenceIdeal.main_arg7).trans (Cert.ReferenceIdeal.ValueP.kept7 m' c),
     (h c Cert.ReferenceIdeal.main_arg8).trans (Cert.ReferenceIdeal.ValueP.kept8 m' c),
     (h c Cert.ReferenceIdeal.main_arg9).trans (Cert.ReferenceIdeal.ValueP.kept9 m' c),
     (h c Cert.ReferenceIdeal.main_arg10).trans (Cert.ReferenceIdeal.ValueP.kept10 m' c),
     (h c Cert.ReferenceIdeal.main_arg11).trans (Cert.ReferenceIdeal.ValueP.kept11 m' c),
     (h c Cert.ReferenceIdeal.main_arg12).trans (Cert.ReferenceIdeal.ValueP.kept12 m' c),
     (h c Cert.ReferenceIdeal.main_arg13).trans (Cert.ReferenceIdeal.ValueP.kept13 m' c),
     (h c Cert.ReferenceIdeal.main_arg14).trans (Cert.ReferenceIdeal.ValueP.kept14 m' c),
     (h c Cert.ReferenceIdeal.main_arg15).trans (Cert.ReferenceIdeal.ValueP.kept15 m' c),
     (h c Cert.ReferenceIdeal.main_arg16).trans (Cert.ReferenceIdeal.ValueP.kept16 m' c),
     (h c Cert.ReferenceIdeal.main_arg17).trans (Cert.ReferenceIdeal.ValueP.kept17 m' c),
     (h c Cert.ReferenceIdeal.main_arg18).trans (Cert.ReferenceIdeal.ValueP.kept18 m' c),
     (h c Cert.ReferenceIdeal.main_arg19).trans (Cert.ReferenceIdeal.ValueP.kept19 m' c),
     (h c Cert.ReferenceIdeal.main_arg20).trans (Cert.ReferenceIdeal.ValueP.kept20 m' c),
     (h c Cert.ReferenceIdeal.main_arg21).trans (Cert.ReferenceIdeal.ValueP.kept21 m' c),
     (h c Cert.ReferenceIdeal.main_arg22).trans (Cert.ReferenceIdeal.ValueP.kept22 m' c),
     (h c Cert.ReferenceIdeal.main_arg23).trans (Cert.ReferenceIdeal.ValueP.kept23 m' c),
     (h c Cert.ReferenceIdeal.main_arg24).trans (Cert.ReferenceIdeal.ValueP.kept24 m' c),
     (h c Cert.ReferenceIdeal.main_arg25).trans (Cert.ReferenceIdeal.ValueP.kept25 m' c),
     (h c Cert.ReferenceIdeal.main_arg26).trans (Cert.ReferenceIdeal.ValueP.kept26 m' c),
     (h c Cert.ReferenceIdeal.main_arg27).trans (Cert.ReferenceIdeal.ValueP.kept27 m' c)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
